-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x4096x2048 : Shape := ⟨3, ![1, 4096, 2048]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel

variable [Facts]

def fn {F : FTy → Type} [FloatOps F] (main_arg0 : FVec F S1x4096x2048 .f32) : IVec S_ 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_c : IVec S_ 1 := constantI S_ 1 1#1
  let main_v3 : IVec S_ 1 := (fun x v => Host.reduce IntOp.andi x v reducesTo_S1x4096x2048_S_d0_1_2 h_S_) main_v2 main_c
  main_v3
-- ==== Pre_finite_inputs_ReferenceIdeal.lean ====
abbrev S2x4096x2048 : Shape := ⟨3, ![2, 4096, 2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel

variable [Facts]

def fn {F : FTy → Type} [FloatOps F] (main_arg0 : FVec F S2x4096x2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  main_v3
-- ==== Kernel.lean ====
abbrev S1x4096x2048 : Shape := ⟨3, ![1, 4096, 2048]⟩
abbrev S4096x1024 : Shape := ⟨2, ![4096, 1024]⟩
abbrev S1024x1024 : Shape := ⟨2, ![1024, 1024]⟩
abbrev S384x1024 : Shape := ⟨2, ![384, 1024]⟩
abbrev S4x1024x1024 : Shape := ⟨3, ![4, 1024, 1024]⟩
abbrev S16 : Shape := ⟨1, ![16]⟩
abbrev S6 : Shape := ⟨1, ![6]⟩
abbrev S4 : Shape := ⟨1, ![4]⟩
abbrev S5 : Shape := ⟨1, ![5]⟩
abbrev S_ : Shape := ⟨0, ![]⟩
abbrev S1 : Shape := ⟨1, ![1]⟩
abbrev S1x1024x1024 : Shape := ⟨3, ![1, 1024, 1024]⟩
abbrev S64x1024 : Shape := ⟨2, ![64, 1024]⟩
abbrev S1x64x1024 : Shape := ⟨3, ![1, 64, 1024]⟩

abbrev nBuf : Space → Nat
  | .hbm => 2
  | .vmem => 10
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .bf16⟩
  | .local _ .vmem, ⟨0, _⟩ => ⟨S1024x1024, .f32⟩
  | .local _ .vmem, ⟨1, _⟩ => ⟨S384x1024, .f32⟩
  | .local _ .vmem, ⟨2, _⟩ => ⟨S4x1024x1024, .f32⟩
  | .local _ .vmem, ⟨3, _⟩ => ⟨S1024x1024, .bf16⟩
  | .local _ .vmem, ⟨4, _⟩ => ⟨S384x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S4096x1024, .bf16⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 158 → Bool
  | ⟨i, _⟩ => dmaSemScopedAt i

abbrev sig : RefSig :=
  (ofTc nBuf bufTy 1 158 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v29 : BitVec 32 := Scalar.muli v9 c1_i32_17
  let v30 : BitVec 32 := Scalar.addi v28 v29
  v30.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v31 : BitVec 32 := Scalar.muli v10 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_26 : BitVec 32 := 2#32
  let v39 : BitVec 32 := Scalar.muli v11 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_off1 (d0 : Dev nD) : Fin 3 → Nat :=
  let c0_i32_30 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32_29 : BitVec 32 := 1024#32
  let v45 : BitVec 32 := Scalar.muli v13 c1024_i32_29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_28 : BitVec 32 := 1024#32
  let v44 : BitVec 32 := Scalar.muli v8 c1024_i32_28
  ![0, v45.toNat, v44.toNat]
def k0_off2 (d0 : Dev nD) : Fin 3 → Nat :=
  let c0_i32_36 : BitVec 32 := 0#32
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c1024_i32_35 : BitVec 32 := 1024#32
  let v52 : BitVec 32 := Scalar.muli v19 c1024_i32_35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_28 : BitVec 32 := 1024#32
  let v44 : BitVec 32 := Scalar.muli v8 c1024_i32_28
  ![0, v52.toNat, v44.toNat]
def k0_off3 (d0 : Dev nD) : Fin 3 → Nat :=
  let c0_i32_42 : BitVec 32 := 0#32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1024_i32_41 : BitVec 32 := 1024#32
  let v59 : BitVec 32 := Scalar.muli v16 c1024_i32_41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_28 : BitVec 32 := 1024#32
  let v44 : BitVec 32 := Scalar.muli v8 c1024_i32_28
  ![0, v59.toNat, v44.toNat]
def k0_off4 (d0 : Dev nD) : Fin 3 → Nat :=
  let c0_i32_48 : BitVec 32 := 0#32
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c1024_i32_47 : BitVec 32 := 1024#32
  let v66 : BitVec 32 := Scalar.muli v23 c1024_i32_47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_28 : BitVec 32 := 1024#32
  let v44 : BitVec 32 := Scalar.muli v8 c1024_i32_28
  ![0, v66.toNat, v44.toNat]
def k0_off5 (d0 : Dev nD) (c0_i32_54 : BitVec 32) : Fin 3 → Nat :=
  let c0_i32_55 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32_53 : BitVec 32 := 1024#32
  let v73 : BitVec 32 := Scalar.muli v13 c1024_i32_53
  let v74 : BitVec 32 := Scalar.addi v73 c0_i32_54
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v43 : BitVec 32 := Scalar.muli v9 c1024_i32
  ![0, v74.toNat, v43.toNat]
def k0_off6 (d0 : Dev nD) (c0_i32_124 : BitVec 32) : Fin 3 → Nat :=
  let c0_i32_125 : BitVec 32 := 0#32
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c1024_i32_123 : BitVec 32 := 1024#32
  let v185 : BitVec 32 := Scalar.muli v23 c1024_i32_123
  let v186 : BitVec 32 := Scalar.addi v185 c0_i32_124
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v43 : BitVec 32 := Scalar.muli v9 c1024_i32
  ![0, v186.toNat, v43.toNat]
def k0_dev4 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v237 : BitVec 32 := Scalar.muli v2 c4_i32_168
  let v238 : BitVec 32 := Scalar.addi c0_i32_169 v237
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_170 : BitVec 32 := 2#32
  let v239 : BitVec 32 := Scalar.muli v5 c2_i32_170
  let v240 : BitVec 32 := Scalar.addi v238 v239
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_171 : BitVec 32 := 1#32
  let v241 : BitVec 32 := Scalar.muli v9 c1_i32_171
  let v242 : BitVec 32 := Scalar.addi v240 v241
  v242.toNat
def k0_dev5 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_185 : BitVec 32 := 4#32
  let v259 : BitVec 32 := Scalar.muli v2 c4_i32_185
  let v260 : BitVec 32 := Scalar.addi c0_i32_186 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_187 : BitVec 32 := 2#32
  let v261 : BitVec 32 := Scalar.muli v5 c2_i32_187
  let v262 : BitVec 32 := Scalar.addi v260 v261
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_188 : BitVec 32 := 1#32
  let v263 : BitVec 32 := Scalar.muli v9 c1_i32_188
  let v264 : BitVec 32 := Scalar.addi v262 v263
  v264.toNat
def k0_dev6 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v281 : BitVec 32 := Scalar.muli v2 c4_i32_202
  let v282 : BitVec 32 := Scalar.addi c0_i32_203 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v283 : BitVec 32 := Scalar.muli v5 c2_i32_204
  let v284 : BitVec 32 := Scalar.addi v282 v283
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_205 : BitVec 32 := 1#32
  let v285 : BitVec 32 := Scalar.muli v9 c1_i32_205
  let v286 : BitVec 32 := Scalar.addi v284 v285
  v286.toNat
def k0_dev7 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_219 : BitVec 32 := 4#32
  let v303 : BitVec 32 := Scalar.muli v2 c4_i32_219
  let v304 : BitVec 32 := Scalar.addi c0_i32_220 v303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v305 : BitVec 32 := Scalar.muli v5 c2_i32_221
  let v306 : BitVec 32 := Scalar.addi v304 v305
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_222 : BitVec 32 := 1#32
  let v307 : BitVec 32 := Scalar.muli v9 c1_i32_222
  let v308 : BitVec 32 := Scalar.addi v306 v307
  v308.toNat
def k0_dev8 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v325 : BitVec 32 := Scalar.muli v2 c4_i32_236
  let v326 : BitVec 32 := Scalar.addi c0_i32_237 v325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v327 : BitVec 32 := Scalar.muli v5 c2_i32_238
  let v328 : BitVec 32 := Scalar.addi v326 v327
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_239 : BitVec 32 := 1#32
  let v329 : BitVec 32 := Scalar.muli v9 c1_i32_239
  let v330 : BitVec 32 := Scalar.addi v328 v329
  v330.toNat
def k0_dev9 (d0 : Dev nD) : Nat :=
  let c0_i32_254 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_253 : BitVec 32 := 4#32
  let v347 : BitVec 32 := Scalar.muli v2 c4_i32_253
  let v348 : BitVec 32 := Scalar.addi c0_i32_254 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v349 : BitVec 32 := Scalar.muli v5 c2_i32_255
  let v350 : BitVec 32 := Scalar.addi v348 v349
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_256 : BitVec 32 := 1#32
  let v351 : BitVec 32 := Scalar.muli v9 c1_i32_256
  let v352 : BitVec 32 := Scalar.addi v350 v351
  v352.toNat
def k0_dev10 (d0 : Dev nD) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_270 : BitVec 32 := 4#32
  let v369 : BitVec 32 := Scalar.muli v2 c4_i32_270
  let v370 : BitVec 32 := Scalar.addi c0_i32_271 v369
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_272 : BitVec 32 := 2#32
  let v371 : BitVec 32 := Scalar.muli v5 c2_i32_272
  let v372 : BitVec 32 := Scalar.addi v370 v371
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_273 : BitVec 32 := 1#32
  let v373 : BitVec 32 := Scalar.muli v9 c1_i32_273
  let v374 : BitVec 32 := Scalar.addi v372 v373
  v374.toNat
def k0_dev11 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v391 : BitVec 32 := Scalar.muli v2 c4_i32_287
  let v392 : BitVec 32 := Scalar.addi c0_i32_288 v391
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v393 : BitVec 32 := Scalar.muli v5 c2_i32_289
  let v394 : BitVec 32 := Scalar.addi v392 v393
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_290 : BitVec 32 := 1#32
  let v395 : BitVec 32 := Scalar.muli v9 c1_i32_290
  let v396 : BitVec 32 := Scalar.addi v394 v395
  v396.toNat
def k0_dev12 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v413 : BitVec 32 := Scalar.muli v2 c4_i32_304
  let v414 : BitVec 32 := Scalar.addi c0_i32_305 v413
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_306 : BitVec 32 := 2#32
  let v415 : BitVec 32 := Scalar.muli v5 c2_i32_306
  let v416 : BitVec 32 := Scalar.addi v414 v415
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_307 : BitVec 32 := 1#32
  let v417 : BitVec 32 := Scalar.muli v9 c1_i32_307
  let v418 : BitVec 32 := Scalar.addi v416 v417
  v418.toNat
def k0_dev13 (d0 : Dev nD) : Nat :=
  let c0_i32_322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_321 : BitVec 32 := 4#32
  let v435 : BitVec 32 := Scalar.muli v2 c4_i32_321
  let v436 : BitVec 32 := Scalar.addi c0_i32_322 v435
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_323 : BitVec 32 := 2#32
  let v437 : BitVec 32 := Scalar.muli v5 c2_i32_323
  let v438 : BitVec 32 := Scalar.addi v436 v437
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_324 : BitVec 32 := 1#32
  let v439 : BitVec 32 := Scalar.muli v9 c1_i32_324
  let v440 : BitVec 32 := Scalar.addi v438 v439
  v440.toNat
def k0_dev14 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v457 : BitVec 32 := Scalar.muli v2 c4_i32_338
  let v458 : BitVec 32 := Scalar.addi c0_i32_339 v457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_340 : BitVec 32 := 2#32
  let v459 : BitVec 32 := Scalar.muli v5 c2_i32_340
  let v460 : BitVec 32 := Scalar.addi v458 v459
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_341 : BitVec 32 := 1#32
  let v461 : BitVec 32 := Scalar.muli v9 c1_i32_341
  let v462 : BitVec 32 := Scalar.addi v460 v461
  v462.toNat
def k0_dev15 (d0 : Dev nD) : Nat :=
  let c0_i32_356 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_355 : BitVec 32 := 4#32
  let v479 : BitVec 32 := Scalar.muli v2 c4_i32_355
  let v480 : BitVec 32 := Scalar.addi c0_i32_356 v479
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_357 : BitVec 32 := 2#32
  let v481 : BitVec 32 := Scalar.muli v5 c2_i32_357
  let v482 : BitVec 32 := Scalar.addi v480 v481
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_358 : BitVec 32 := 1#32
  let v483 : BitVec 32 := Scalar.muli v9 c1_i32_358
  let v484 : BitVec 32 := Scalar.addi v482 v483
  v484.toNat
def k0_dev16 (d0 : Dev nD) : Nat :=
  let c0_i32_373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_372 : BitVec 32 := 4#32
  let v501 : BitVec 32 := Scalar.muli v2 c4_i32_372
  let v502 : BitVec 32 := Scalar.addi c0_i32_373 v501
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_374 : BitVec 32 := 2#32
  let v503 : BitVec 32 := Scalar.muli v5 c2_i32_374
  let v504 : BitVec 32 := Scalar.addi v502 v503
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_375 : BitVec 32 := 1#32
  let v505 : BitVec 32 := Scalar.muli v9 c1_i32_375
  let v506 : BitVec 32 := Scalar.addi v504 v505
  v506.toNat
def k0_dev17 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v523 : BitVec 32 := Scalar.muli v2 c4_i32_389
  let v524 : BitVec 32 := Scalar.addi c0_i32_390 v523
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v525 : BitVec 32 := Scalar.muli v5 c2_i32_391
  let v526 : BitVec 32 := Scalar.addi v524 v525
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_392 : BitVec 32 := 1#32
  let v527 : BitVec 32 := Scalar.muli v9 c1_i32_392
  let v528 : BitVec 32 := Scalar.addi v526 v527
  v528.toNat
def k0_dev18 (d0 : Dev nD) : Nat :=
  let c0_i32_407 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_406 : BitVec 32 := 4#32
  let v545 : BitVec 32 := Scalar.muli v2 c4_i32_406
  let v546 : BitVec 32 := Scalar.addi c0_i32_407 v545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_408 : BitVec 32 := 2#32
  let v547 : BitVec 32 := Scalar.muli v5 c2_i32_408
  let v548 : BitVec 32 := Scalar.addi v546 v547
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_409 : BitVec 32 := 1#32
  let v549 : BitVec 32 := Scalar.muli v9 c1_i32_409
  let v550 : BitVec 32 := Scalar.addi v548 v549
  v550.toNat
def k0_dev19 (d0 : Dev nD) : Nat :=
  let c0_i32_424 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_423 : BitVec 32 := 4#32
  let v567 : BitVec 32 := Scalar.muli v2 c4_i32_423
  let v568 : BitVec 32 := Scalar.addi c0_i32_424 v567
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_425 : BitVec 32 := 2#32
  let v569 : BitVec 32 := Scalar.muli v5 c2_i32_425
  let v570 : BitVec 32 := Scalar.addi v568 v569
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_426 : BitVec 32 := 1#32
  let v571 : BitVec 32 := Scalar.muli v9 c1_i32_426
  let v572 : BitVec 32 := Scalar.addi v570 v571
  v572.toNat
def k0_dev20 (d0 : Dev nD) : Nat :=
  let c0_i32_442 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_441 : BitVec 32 := 4#32
  let v589 : BitVec 32 := Scalar.muli v2 c4_i32_441
  let v590 : BitVec 32 := Scalar.addi c0_i32_442 v589
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_443 : BitVec 32 := 2#32
  let v591 : BitVec 32 := Scalar.muli v5 c2_i32_443
  let v592 : BitVec 32 := Scalar.addi v590 v591
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_444 : BitVec 32 := 1#32
  let v593 : BitVec 32 := Scalar.muli v9 c1_i32_444
  let v594 : BitVec 32 := Scalar.addi v592 v593
  v594.toNat
def k0_dev21 (d0 : Dev nD) : Nat :=
  let c0_i32_460 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_459 : BitVec 32 := 4#32
  let v611 : BitVec 32 := Scalar.muli v2 c4_i32_459
  let v612 : BitVec 32 := Scalar.addi c0_i32_460 v611
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_461 : BitVec 32 := 2#32
  let v613 : BitVec 32 := Scalar.muli v5 c2_i32_461
  let v614 : BitVec 32 := Scalar.addi v612 v613
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_462 : BitVec 32 := 1#32
  let v615 : BitVec 32 := Scalar.muli v9 c1_i32_462
  let v616 : BitVec 32 := Scalar.addi v614 v615
  v616.toNat
def k0_dev22 (d0 : Dev nD) : Nat :=
  let c0_i32_478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_477 : BitVec 32 := 4#32
  let v633 : BitVec 32 := Scalar.muli v2 c4_i32_477
  let v634 : BitVec 32 := Scalar.addi c0_i32_478 v633
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v635 : BitVec 32 := Scalar.muli v5 c2_i32_479
  let v636 : BitVec 32 := Scalar.addi v634 v635
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_480 : BitVec 32 := 1#32
  let v637 : BitVec 32 := Scalar.muli v9 c1_i32_480
  let v638 : BitVec 32 := Scalar.addi v636 v637
  v638.toNat
def k0_dev23 (d0 : Dev nD) : Nat :=
  let c0_i32_496 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_495 : BitVec 32 := 4#32
  let v655 : BitVec 32 := Scalar.muli v2 c4_i32_495
  let v656 : BitVec 32 := Scalar.addi c0_i32_496 v655
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_497 : BitVec 32 := 2#32
  let v657 : BitVec 32 := Scalar.muli v5 c2_i32_497
  let v658 : BitVec 32 := Scalar.addi v656 v657
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_498 : BitVec 32 := 1#32
  let v659 : BitVec 32 := Scalar.muli v9 c1_i32_498
  let v660 : BitVec 32 := Scalar.addi v658 v659
  v660.toNat
def k0_dev24 (d0 : Dev nD) : Nat :=
  let c0_i32_514 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_513 : BitVec 32 := 4#32
  let v677 : BitVec 32 := Scalar.muli v2 c4_i32_513
  let v678 : BitVec 32 := Scalar.addi c0_i32_514 v677
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_515 : BitVec 32 := 2#32
  let v679 : BitVec 32 := Scalar.muli v5 c2_i32_515
  let v680 : BitVec 32 := Scalar.addi v678 v679
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_516 : BitVec 32 := 1#32
  let v681 : BitVec 32 := Scalar.muli v9 c1_i32_516
  let v682 : BitVec 32 := Scalar.addi v680 v681
  v682.toNat
def k0_dev25 (d0 : Dev nD) : Nat :=
  let c0_i32_532 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_531 : BitVec 32 := 4#32
  let v699 : BitVec 32 := Scalar.muli v2 c4_i32_531
  let v700 : BitVec 32 := Scalar.addi c0_i32_532 v699
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_533 : BitVec 32 := 2#32
  let v701 : BitVec 32 := Scalar.muli v5 c2_i32_533
  let v702 : BitVec 32 := Scalar.addi v700 v701
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_534 : BitVec 32 := 1#32
  let v703 : BitVec 32 := Scalar.muli v9 c1_i32_534
  let v704 : BitVec 32 := Scalar.addi v702 v703
  v704.toNat
def k0_dev26 (d0 : Dev nD) : Nat :=
  let c0_i32_557 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_556 : BitVec 32 := 4#32
  let v727 : BitVec 32 := Scalar.muli v10 c4_i32_556
  let v728 : BitVec 32 := Scalar.addi c0_i32_557 v727
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_558 : BitVec 32 := 2#32
  let v729 : BitVec 32 := Scalar.muli v5 c2_i32_558
  let v730 : BitVec 32 := Scalar.addi v728 v729
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_559 : BitVec 32 := 1#32
  let v731 : BitVec 32 := Scalar.muli v8 c1_i32_559
  let v732 : BitVec 32 := Scalar.addi v730 v731
  v732.toNat
def k0_dev27 (d0 : Dev nD) : Nat :=
  let c0_i32_567 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_566 : BitVec 32 := 4#32
  let v739 : BitVec 32 := Scalar.muli v2 c4_i32_566
  let v740 : BitVec 32 := Scalar.addi c0_i32_567 v739
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_568 : BitVec 32 := 2#32
  let v741 : BitVec 32 := Scalar.muli v11 c2_i32_568
  let v742 : BitVec 32 := Scalar.addi v740 v741
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_569 : BitVec 32 := 1#32
  let v743 : BitVec 32 := Scalar.muli v8 c1_i32_569
  let v744 : BitVec 32 := Scalar.addi v742 v743
  v744.toNat
def k0_off7 (d0 : Dev nD) (c0_i32_580 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32_579 : BitVec 32 := 1024#32
  let v757 : BitVec 32 := Scalar.muli v13 c1024_i32_579
  let v758 : BitVec 32 := Scalar.addi v757 c0_i32_580
  let v759 : Index := Scalar.indexCast v758
  let c0_581 : Index := 0#32
  ![v759.toNat, 0]
def k0_dev28 (d0 : Dev nD) : Nat :=
  let c0_i32_595 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_594 : BitVec 32 := 4#32
  let v773 : BitVec 32 := Scalar.muli v10 c4_i32_594
  let v774 : BitVec 32 := Scalar.addi c0_i32_595 v773
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_596 : BitVec 32 := 2#32
  let v775 : BitVec 32 := Scalar.muli v5 c2_i32_596
  let v776 : BitVec 32 := Scalar.addi v774 v775
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_597 : BitVec 32 := 1#32
  let v777 : BitVec 32 := Scalar.muli v8 c1_i32_597
  let v778 : BitVec 32 := Scalar.addi v776 v777
  v778.toNat
def k0_dev29 (d0 : Dev nD) : Nat :=
  let c0_i32_605 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_604 : BitVec 32 := 4#32
  let v785 : BitVec 32 := Scalar.muli v2 c4_i32_604
  let v786 : BitVec 32 := Scalar.addi c0_i32_605 v785
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_606 : BitVec 32 := 2#32
  let v787 : BitVec 32 := Scalar.muli v11 c2_i32_606
  let v788 : BitVec 32 := Scalar.addi v786 v787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_607 : BitVec 32 := 1#32
  let v789 : BitVec 32 := Scalar.muli v8 c1_i32_607
  let v790 : BitVec 32 := Scalar.addi v788 v789
  v790.toNat
def k0_dev30 (d0 : Dev nD) : Nat :=
  let c0_i32_633 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_632 : BitVec 32 := 4#32
  let v819 : BitVec 32 := Scalar.muli v10 c4_i32_632
  let v820 : BitVec 32 := Scalar.addi c0_i32_633 v819
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_634 : BitVec 32 := 2#32
  let v821 : BitVec 32 := Scalar.muli v5 c2_i32_634
  let v822 : BitVec 32 := Scalar.addi v820 v821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_635 : BitVec 32 := 1#32
  let v823 : BitVec 32 := Scalar.muli v8 c1_i32_635
  let v824 : BitVec 32 := Scalar.addi v822 v823
  v824.toNat
def k0_dev31 (d0 : Dev nD) : Nat :=
  let c0_i32_643 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_642 : BitVec 32 := 4#32
  let v831 : BitVec 32 := Scalar.muli v2 c4_i32_642
  let v832 : BitVec 32 := Scalar.addi c0_i32_643 v831
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_644 : BitVec 32 := 2#32
  let v833 : BitVec 32 := Scalar.muli v11 c2_i32_644
  let v834 : BitVec 32 := Scalar.addi v832 v833
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_645 : BitVec 32 := 1#32
  let v835 : BitVec 32 := Scalar.muli v8 c1_i32_645
  let v836 : BitVec 32 := Scalar.addi v834 v835
  v836.toNat
def k0_dev32 (d0 : Dev nD) : Nat :=
  let c0_i32_671 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_670 : BitVec 32 := 4#32
  let v865 : BitVec 32 := Scalar.muli v10 c4_i32_670
  let v866 : BitVec 32 := Scalar.addi c0_i32_671 v865
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_672 : BitVec 32 := 2#32
  let v867 : BitVec 32 := Scalar.muli v5 c2_i32_672
  let v868 : BitVec 32 := Scalar.addi v866 v867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_673 : BitVec 32 := 1#32
  let v869 : BitVec 32 := Scalar.muli v8 c1_i32_673
  let v870 : BitVec 32 := Scalar.addi v868 v869
  v870.toNat
def k0_dev33 (d0 : Dev nD) : Nat :=
  let c0_i32_681 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_680 : BitVec 32 := 4#32
  let v877 : BitVec 32 := Scalar.muli v2 c4_i32_680
  let v878 : BitVec 32 := Scalar.addi c0_i32_681 v877
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_682 : BitVec 32 := 2#32
  let v879 : BitVec 32 := Scalar.muli v11 c2_i32_682
  let v880 : BitVec 32 := Scalar.addi v878 v879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_683 : BitVec 32 := 1#32
  let v881 : BitVec 32 := Scalar.muli v8 c1_i32_683
  let v882 : BitVec 32 := Scalar.addi v880 v881
  v882.toNat
def k0_dev34 (d0 : Dev nD) : Nat :=
  let c0_i32_709 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_708 : BitVec 32 := 4#32
  let v911 : BitVec 32 := Scalar.muli v10 c4_i32_708
  let v912 : BitVec 32 := Scalar.addi c0_i32_709 v911
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_710 : BitVec 32 := 2#32
  let v913 : BitVec 32 := Scalar.muli v5 c2_i32_710
  let v914 : BitVec 32 := Scalar.addi v912 v913
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_711 : BitVec 32 := 1#32
  let v915 : BitVec 32 := Scalar.muli v8 c1_i32_711
  let v916 : BitVec 32 := Scalar.addi v914 v915
  v916.toNat
def k0_dev35 (d0 : Dev nD) : Nat :=
  let c0_i32_719 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_718 : BitVec 32 := 4#32
  let v923 : BitVec 32 := Scalar.muli v2 c4_i32_718
  let v924 : BitVec 32 := Scalar.addi c0_i32_719 v923
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_720 : BitVec 32 := 2#32
  let v925 : BitVec 32 := Scalar.muli v11 c2_i32_720
  let v926 : BitVec 32 := Scalar.addi v924 v925
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_721 : BitVec 32 := 1#32
  let v927 : BitVec 32 := Scalar.muli v8 c1_i32_721
  let v928 : BitVec 32 := Scalar.addi v926 v927
  v928.toNat
def k0_dev36 (d0 : Dev nD) : Nat :=
  let c0_i32_747 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_746 : BitVec 32 := 4#32
  let v957 : BitVec 32 := Scalar.muli v10 c4_i32_746
  let v958 : BitVec 32 := Scalar.addi c0_i32_747 v957
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_748 : BitVec 32 := 2#32
  let v959 : BitVec 32 := Scalar.muli v5 c2_i32_748
  let v960 : BitVec 32 := Scalar.addi v958 v959
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_749 : BitVec 32 := 1#32
  let v961 : BitVec 32 := Scalar.muli v8 c1_i32_749
  let v962 : BitVec 32 := Scalar.addi v960 v961
  v962.toNat
def k0_dev37 (d0 : Dev nD) : Nat :=
  let c0_i32_757 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_756 : BitVec 32 := 4#32
  let v969 : BitVec 32 := Scalar.muli v2 c4_i32_756
  let v970 : BitVec 32 := Scalar.addi c0_i32_757 v969
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_758 : BitVec 32 := 2#32
  let v971 : BitVec 32 := Scalar.muli v11 c2_i32_758
  let v972 : BitVec 32 := Scalar.addi v970 v971
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_759 : BitVec 32 := 1#32
  let v973 : BitVec 32 := Scalar.muli v8 c1_i32_759
  let v974 : BitVec 32 := Scalar.addi v972 v973
  v974.toNat
def k0_dev38 (d0 : Dev nD) : Nat :=
  let c0_i32_785 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_784 : BitVec 32 := 4#32
  let v1003 : BitVec 32 := Scalar.muli v10 c4_i32_784
  let v1004 : BitVec 32 := Scalar.addi c0_i32_785 v1003
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_786 : BitVec 32 := 2#32
  let v1005 : BitVec 32 := Scalar.muli v5 c2_i32_786
  let v1006 : BitVec 32 := Scalar.addi v1004 v1005
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_787 : BitVec 32 := 1#32
  let v1007 : BitVec 32 := Scalar.muli v8 c1_i32_787
  let v1008 : BitVec 32 := Scalar.addi v1006 v1007
  v1008.toNat
def k0_dev39 (d0 : Dev nD) : Nat :=
  let c0_i32_795 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_794 : BitVec 32 := 4#32
  let v1015 : BitVec 32 := Scalar.muli v2 c4_i32_794
  let v1016 : BitVec 32 := Scalar.addi c0_i32_795 v1015
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_796 : BitVec 32 := 2#32
  let v1017 : BitVec 32 := Scalar.muli v11 c2_i32_796
  let v1018 : BitVec 32 := Scalar.addi v1016 v1017
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_797 : BitVec 32 := 1#32
  let v1019 : BitVec 32 := Scalar.muli v8 c1_i32_797
  let v1020 : BitVec 32 := Scalar.addi v1018 v1019
  v1020.toNat
def k0_dev40 (d0 : Dev nD) : Nat :=
  let c0_i32_823 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_822 : BitVec 32 := 4#32
  let v1049 : BitVec 32 := Scalar.muli v10 c4_i32_822
  let v1050 : BitVec 32 := Scalar.addi c0_i32_823 v1049
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_824 : BitVec 32 := 2#32
  let v1051 : BitVec 32 := Scalar.muli v5 c2_i32_824
  let v1052 : BitVec 32 := Scalar.addi v1050 v1051
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_825 : BitVec 32 := 1#32
  let v1053 : BitVec 32 := Scalar.muli v8 c1_i32_825
  let v1054 : BitVec 32 := Scalar.addi v1052 v1053
  v1054.toNat
def k0_dev41 (d0 : Dev nD) : Nat :=
  let c0_i32_833 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_832 : BitVec 32 := 4#32
  let v1061 : BitVec 32 := Scalar.muli v2 c4_i32_832
  let v1062 : BitVec 32 := Scalar.addi c0_i32_833 v1061
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_834 : BitVec 32 := 2#32
  let v1063 : BitVec 32 := Scalar.muli v11 c2_i32_834
  let v1064 : BitVec 32 := Scalar.addi v1062 v1063
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_835 : BitVec 32 := 1#32
  let v1065 : BitVec 32 := Scalar.muli v8 c1_i32_835
  let v1066 : BitVec 32 := Scalar.addi v1064 v1065
  v1066.toNat
def k0_dev42 (d0 : Dev nD) : Nat :=
  let c0_i32_861 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_860 : BitVec 32 := 4#32
  let v1095 : BitVec 32 := Scalar.muli v10 c4_i32_860
  let v1096 : BitVec 32 := Scalar.addi c0_i32_861 v1095
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_862 : BitVec 32 := 2#32
  let v1097 : BitVec 32 := Scalar.muli v5 c2_i32_862
  let v1098 : BitVec 32 := Scalar.addi v1096 v1097
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_863 : BitVec 32 := 1#32
  let v1099 : BitVec 32 := Scalar.muli v8 c1_i32_863
  let v1100 : BitVec 32 := Scalar.addi v1098 v1099
  v1100.toNat
def k0_dev43 (d0 : Dev nD) : Nat :=
  let c0_i32_871 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_870 : BitVec 32 := 4#32
  let v1107 : BitVec 32 := Scalar.muli v2 c4_i32_870
  let v1108 : BitVec 32 := Scalar.addi c0_i32_871 v1107
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_872 : BitVec 32 := 2#32
  let v1109 : BitVec 32 := Scalar.muli v11 c2_i32_872
  let v1110 : BitVec 32 := Scalar.addi v1108 v1109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_873 : BitVec 32 := 1#32
  let v1111 : BitVec 32 := Scalar.muli v8 c1_i32_873
  let v1112 : BitVec 32 := Scalar.addi v1110 v1111
  v1112.toNat
def k0_dev44 (d0 : Dev nD) : Nat :=
  let c0_i32_899 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_898 : BitVec 32 := 4#32
  let v1141 : BitVec 32 := Scalar.muli v10 c4_i32_898
  let v1142 : BitVec 32 := Scalar.addi c0_i32_899 v1141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_900 : BitVec 32 := 2#32
  let v1143 : BitVec 32 := Scalar.muli v5 c2_i32_900
  let v1144 : BitVec 32 := Scalar.addi v1142 v1143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_901 : BitVec 32 := 1#32
  let v1145 : BitVec 32 := Scalar.muli v8 c1_i32_901
  let v1146 : BitVec 32 := Scalar.addi v1144 v1145
  v1146.toNat
def k0_dev45 (d0 : Dev nD) : Nat :=
  let c0_i32_909 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_908 : BitVec 32 := 4#32
  let v1153 : BitVec 32 := Scalar.muli v2 c4_i32_908
  let v1154 : BitVec 32 := Scalar.addi c0_i32_909 v1153
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_910 : BitVec 32 := 2#32
  let v1155 : BitVec 32 := Scalar.muli v11 c2_i32_910
  let v1156 : BitVec 32 := Scalar.addi v1154 v1155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_911 : BitVec 32 := 1#32
  let v1157 : BitVec 32 := Scalar.muli v8 c1_i32_911
  let v1158 : BitVec 32 := Scalar.addi v1156 v1157
  v1158.toNat
def k0_dev46 (d0 : Dev nD) : Nat :=
  let c0_i32_937 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_936 : BitVec 32 := 4#32
  let v1187 : BitVec 32 := Scalar.muli v10 c4_i32_936
  let v1188 : BitVec 32 := Scalar.addi c0_i32_937 v1187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_938 : BitVec 32 := 2#32
  let v1189 : BitVec 32 := Scalar.muli v5 c2_i32_938
  let v1190 : BitVec 32 := Scalar.addi v1188 v1189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_939 : BitVec 32 := 1#32
  let v1191 : BitVec 32 := Scalar.muli v8 c1_i32_939
  let v1192 : BitVec 32 := Scalar.addi v1190 v1191
  v1192.toNat
def k0_dev47 (d0 : Dev nD) : Nat :=
  let c0_i32_947 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_946 : BitVec 32 := 4#32
  let v1199 : BitVec 32 := Scalar.muli v2 c4_i32_946
  let v1200 : BitVec 32 := Scalar.addi c0_i32_947 v1199
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_948 : BitVec 32 := 2#32
  let v1201 : BitVec 32 := Scalar.muli v11 c2_i32_948
  let v1202 : BitVec 32 := Scalar.addi v1200 v1201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_949 : BitVec 32 := 1#32
  let v1203 : BitVec 32 := Scalar.muli v8 c1_i32_949
  let v1204 : BitVec 32 := Scalar.addi v1202 v1203
  v1204.toNat
def k0_dev48 (d0 : Dev nD) : Nat :=
  let c0_i32_975 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_974 : BitVec 32 := 4#32
  let v1233 : BitVec 32 := Scalar.muli v10 c4_i32_974
  let v1234 : BitVec 32 := Scalar.addi c0_i32_975 v1233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_976 : BitVec 32 := 2#32
  let v1235 : BitVec 32 := Scalar.muli v5 c2_i32_976
  let v1236 : BitVec 32 := Scalar.addi v1234 v1235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_977 : BitVec 32 := 1#32
  let v1237 : BitVec 32 := Scalar.muli v8 c1_i32_977
  let v1238 : BitVec 32 := Scalar.addi v1236 v1237
  v1238.toNat
def k0_dev49 (d0 : Dev nD) : Nat :=
  let c0_i32_985 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_984 : BitVec 32 := 4#32
  let v1245 : BitVec 32 := Scalar.muli v2 c4_i32_984
  let v1246 : BitVec 32 := Scalar.addi c0_i32_985 v1245
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_986 : BitVec 32 := 2#32
  let v1247 : BitVec 32 := Scalar.muli v11 c2_i32_986
  let v1248 : BitVec 32 := Scalar.addi v1246 v1247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_987 : BitVec 32 := 1#32
  let v1249 : BitVec 32 := Scalar.muli v8 c1_i32_987
  let v1250 : BitVec 32 := Scalar.addi v1248 v1249
  v1250.toNat
def k0_dev50 (d0 : Dev nD) : Nat :=
  let c0_i32_1013 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1012 : BitVec 32 := 4#32
  let v1279 : BitVec 32 := Scalar.muli v10 c4_i32_1012
  let v1280 : BitVec 32 := Scalar.addi c0_i32_1013 v1279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1014 : BitVec 32 := 2#32
  let v1281 : BitVec 32 := Scalar.muli v5 c2_i32_1014
  let v1282 : BitVec 32 := Scalar.addi v1280 v1281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1015 : BitVec 32 := 1#32
  let v1283 : BitVec 32 := Scalar.muli v8 c1_i32_1015
  let v1284 : BitVec 32 := Scalar.addi v1282 v1283
  v1284.toNat
def k0_dev51 (d0 : Dev nD) : Nat :=
  let c0_i32_1023 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1022 : BitVec 32 := 4#32
  let v1291 : BitVec 32 := Scalar.muli v2 c4_i32_1022
  let v1292 : BitVec 32 := Scalar.addi c0_i32_1023 v1291
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1024 : BitVec 32 := 2#32
  let v1293 : BitVec 32 := Scalar.muli v11 c2_i32_1024
  let v1294 : BitVec 32 := Scalar.addi v1292 v1293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1025 : BitVec 32 := 1#32
  let v1295 : BitVec 32 := Scalar.muli v8 c1_i32_1025
  let v1296 : BitVec 32 := Scalar.addi v1294 v1295
  v1296.toNat
def k0_dev52 (d0 : Dev nD) : Nat :=
  let c0_i32_1051 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1050 : BitVec 32 := 4#32
  let v1325 : BitVec 32 := Scalar.muli v10 c4_i32_1050
  let v1326 : BitVec 32 := Scalar.addi c0_i32_1051 v1325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1052 : BitVec 32 := 2#32
  let v1327 : BitVec 32 := Scalar.muli v5 c2_i32_1052
  let v1328 : BitVec 32 := Scalar.addi v1326 v1327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1053 : BitVec 32 := 1#32
  let v1329 : BitVec 32 := Scalar.muli v8 c1_i32_1053
  let v1330 : BitVec 32 := Scalar.addi v1328 v1329
  v1330.toNat
def k0_dev53 (d0 : Dev nD) : Nat :=
  let c0_i32_1061 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1060 : BitVec 32 := 4#32
  let v1337 : BitVec 32 := Scalar.muli v2 c4_i32_1060
  let v1338 : BitVec 32 := Scalar.addi c0_i32_1061 v1337
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1062 : BitVec 32 := 2#32
  let v1339 : BitVec 32 := Scalar.muli v11 c2_i32_1062
  let v1340 : BitVec 32 := Scalar.addi v1338 v1339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1063 : BitVec 32 := 1#32
  let v1341 : BitVec 32 := Scalar.muli v8 c1_i32_1063
  let v1342 : BitVec 32 := Scalar.addi v1340 v1341
  v1342.toNat
def k0_dev54 (d0 : Dev nD) : Nat :=
  let c0_i32_1089 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1088 : BitVec 32 := 4#32
  let v1371 : BitVec 32 := Scalar.muli v10 c4_i32_1088
  let v1372 : BitVec 32 := Scalar.addi c0_i32_1089 v1371
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1090 : BitVec 32 := 2#32
  let v1373 : BitVec 32 := Scalar.muli v5 c2_i32_1090
  let v1374 : BitVec 32 := Scalar.addi v1372 v1373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1091 : BitVec 32 := 1#32
  let v1375 : BitVec 32 := Scalar.muli v8 c1_i32_1091
  let v1376 : BitVec 32 := Scalar.addi v1374 v1375
  v1376.toNat
def k0_dev55 (d0 : Dev nD) : Nat :=
  let c0_i32_1099 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1098 : BitVec 32 := 4#32
  let v1383 : BitVec 32 := Scalar.muli v2 c4_i32_1098
  let v1384 : BitVec 32 := Scalar.addi c0_i32_1099 v1383
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1100 : BitVec 32 := 2#32
  let v1385 : BitVec 32 := Scalar.muli v11 c2_i32_1100
  let v1386 : BitVec 32 := Scalar.addi v1384 v1385
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1101 : BitVec 32 := 1#32
  let v1387 : BitVec 32 := Scalar.muli v8 c1_i32_1101
  let v1388 : BitVec 32 := Scalar.addi v1386 v1387
  v1388.toNat
def k0_dev56 (d0 : Dev nD) : Nat :=
  let c0_i32_1127 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1126 : BitVec 32 := 4#32
  let v1417 : BitVec 32 := Scalar.muli v10 c4_i32_1126
  let v1418 : BitVec 32 := Scalar.addi c0_i32_1127 v1417
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1128 : BitVec 32 := 2#32
  let v1419 : BitVec 32 := Scalar.muli v5 c2_i32_1128
  let v1420 : BitVec 32 := Scalar.addi v1418 v1419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1129 : BitVec 32 := 1#32
  let v1421 : BitVec 32 := Scalar.muli v8 c1_i32_1129
  let v1422 : BitVec 32 := Scalar.addi v1420 v1421
  v1422.toNat
def k0_dev57 (d0 : Dev nD) : Nat :=
  let c0_i32_1137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1136 : BitVec 32 := 4#32
  let v1429 : BitVec 32 := Scalar.muli v2 c4_i32_1136
  let v1430 : BitVec 32 := Scalar.addi c0_i32_1137 v1429
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1138 : BitVec 32 := 2#32
  let v1431 : BitVec 32 := Scalar.muli v11 c2_i32_1138
  let v1432 : BitVec 32 := Scalar.addi v1430 v1431
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1139 : BitVec 32 := 1#32
  let v1433 : BitVec 32 := Scalar.muli v8 c1_i32_1139
  let v1434 : BitVec 32 := Scalar.addi v1432 v1433
  v1434.toNat
def k0_off8 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32_1152 : BitVec 32 := 1024#32
  let v1453 : BitVec 32 := Scalar.muli v13 c1024_i32_1152
  let c0_i32_1154 : BitVec 32 := 0#32
  ![v1453.toNat, 0]
def k0_dev58 (d0 : Dev nD) : Nat :=
  let c0_i32_1169 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1168 : BitVec 32 := 4#32
  let v1468 : BitVec 32 := Scalar.muli v10 c4_i32_1168
  let v1469 : BitVec 32 := Scalar.addi c0_i32_1169 v1468
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1170 : BitVec 32 := 2#32
  let v1470 : BitVec 32 := Scalar.muli v5 c2_i32_1170
  let v1471 : BitVec 32 := Scalar.addi v1469 v1470
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1171 : BitVec 32 := 1#32
  let v1472 : BitVec 32 := Scalar.muli v8 c1_i32_1171
  let v1473 : BitVec 32 := Scalar.addi v1471 v1472
  v1473.toNat
def k0_dev59 (d0 : Dev nD) : Nat :=
  let c0_i32_1189 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1188 : BitVec 32 := 4#32
  let v1490 : BitVec 32 := Scalar.muli v10 c4_i32_1188
  let v1491 : BitVec 32 := Scalar.addi c0_i32_1189 v1490
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1190 : BitVec 32 := 2#32
  let v1492 : BitVec 32 := Scalar.muli v5 c2_i32_1190
  let v1493 : BitVec 32 := Scalar.addi v1491 v1492
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1191 : BitVec 32 := 1#32
  let v1494 : BitVec 32 := Scalar.muli v8 c1_i32_1191
  let v1495 : BitVec 32 := Scalar.addi v1493 v1494
  v1495.toNat
def k0_dev60 (d0 : Dev nD) : Nat :=
  let c0_i32_1209 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1208 : BitVec 32 := 4#32
  let v1512 : BitVec 32 := Scalar.muli v10 c4_i32_1208
  let v1513 : BitVec 32 := Scalar.addi c0_i32_1209 v1512
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1210 : BitVec 32 := 2#32
  let v1514 : BitVec 32 := Scalar.muli v5 c2_i32_1210
  let v1515 : BitVec 32 := Scalar.addi v1513 v1514
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1211 : BitVec 32 := 1#32
  let v1516 : BitVec 32 := Scalar.muli v8 c1_i32_1211
  let v1517 : BitVec 32 := Scalar.addi v1515 v1516
  v1517.toNat
def k0_dev61 (d0 : Dev nD) : Nat :=
  let c0_i32_1229 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1228 : BitVec 32 := 4#32
  let v1534 : BitVec 32 := Scalar.muli v10 c4_i32_1228
  let v1535 : BitVec 32 := Scalar.addi c0_i32_1229 v1534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1230 : BitVec 32 := 2#32
  let v1536 : BitVec 32 := Scalar.muli v5 c2_i32_1230
  let v1537 : BitVec 32 := Scalar.addi v1535 v1536
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1231 : BitVec 32 := 1#32
  let v1538 : BitVec 32 := Scalar.muli v8 c1_i32_1231
  let v1539 : BitVec 32 := Scalar.addi v1537 v1538
  v1539.toNat
def k0_dev62 (d0 : Dev nD) : Nat :=
  let c0_i32_1249 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1248 : BitVec 32 := 4#32
  let v1556 : BitVec 32 := Scalar.muli v10 c4_i32_1248
  let v1557 : BitVec 32 := Scalar.addi c0_i32_1249 v1556
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1250 : BitVec 32 := 2#32
  let v1558 : BitVec 32 := Scalar.muli v5 c2_i32_1250
  let v1559 : BitVec 32 := Scalar.addi v1557 v1558
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1251 : BitVec 32 := 1#32
  let v1560 : BitVec 32 := Scalar.muli v8 c1_i32_1251
  let v1561 : BitVec 32 := Scalar.addi v1559 v1560
  v1561.toNat
def k0_dev63 (d0 : Dev nD) : Nat :=
  let c0_i32_1269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1268 : BitVec 32 := 4#32
  let v1578 : BitVec 32 := Scalar.muli v2 c4_i32_1268
  let v1579 : BitVec 32 := Scalar.addi c0_i32_1269 v1578
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1270 : BitVec 32 := 2#32
  let v1580 : BitVec 32 := Scalar.muli v11 c2_i32_1270
  let v1581 : BitVec 32 := Scalar.addi v1579 v1580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1271 : BitVec 32 := 1#32
  let v1582 : BitVec 32 := Scalar.muli v8 c1_i32_1271
  let v1583 : BitVec 32 := Scalar.addi v1581 v1582
  v1583.toNat
def k0_dev64 (d0 : Dev nD) : Nat :=
  let c0_i32_1289 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1288 : BitVec 32 := 4#32
  let v1600 : BitVec 32 := Scalar.muli v2 c4_i32_1288
  let v1601 : BitVec 32 := Scalar.addi c0_i32_1289 v1600
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1290 : BitVec 32 := 2#32
  let v1602 : BitVec 32 := Scalar.muli v11 c2_i32_1290
  let v1603 : BitVec 32 := Scalar.addi v1601 v1602
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1291 : BitVec 32 := 1#32
  let v1604 : BitVec 32 := Scalar.muli v8 c1_i32_1291
  let v1605 : BitVec 32 := Scalar.addi v1603 v1604
  v1605.toNat
def k0_dev65 (d0 : Dev nD) : Nat :=
  let c0_i32_1309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1308 : BitVec 32 := 4#32
  let v1622 : BitVec 32 := Scalar.muli v2 c4_i32_1308
  let v1623 : BitVec 32 := Scalar.addi c0_i32_1309 v1622
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1310 : BitVec 32 := 2#32
  let v1624 : BitVec 32 := Scalar.muli v11 c2_i32_1310
  let v1625 : BitVec 32 := Scalar.addi v1623 v1624
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1311 : BitVec 32 := 1#32
  let v1626 : BitVec 32 := Scalar.muli v8 c1_i32_1311
  let v1627 : BitVec 32 := Scalar.addi v1625 v1626
  v1627.toNat
def k0_dev66 (d0 : Dev nD) : Nat :=
  let c0_i32_1329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1328 : BitVec 32 := 4#32
  let v1644 : BitVec 32 := Scalar.muli v2 c4_i32_1328
  let v1645 : BitVec 32 := Scalar.addi c0_i32_1329 v1644
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1330 : BitVec 32 := 2#32
  let v1646 : BitVec 32 := Scalar.muli v11 c2_i32_1330
  let v1647 : BitVec 32 := Scalar.addi v1645 v1646
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1331 : BitVec 32 := 1#32
  let v1648 : BitVec 32 := Scalar.muli v8 c1_i32_1331
  let v1649 : BitVec 32 := Scalar.addi v1647 v1648
  v1649.toNat
def k0_dev67 (d0 : Dev nD) : Nat :=
  let c0_i32_1349 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1348 : BitVec 32 := 4#32
  let v1666 : BitVec 32 := Scalar.muli v2 c4_i32_1348
  let v1667 : BitVec 32 := Scalar.addi c0_i32_1349 v1666
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1350 : BitVec 32 := 2#32
  let v1668 : BitVec 32 := Scalar.muli v11 c2_i32_1350
  let v1669 : BitVec 32 := Scalar.addi v1667 v1668
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1351 : BitVec 32 := 1#32
  let v1670 : BitVec 32 := Scalar.muli v8 c1_i32_1351
  let v1671 : BitVec 32 := Scalar.addi v1669 v1670
  v1671.toNat
def k0_off9 (d0 : Dev nD) (c0_i32_1476 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c1024_i32_1475 : BitVec 32 := 1024#32
  let v1800 : BitVec 32 := Scalar.muli v19 c1024_i32_1475
  let v1801 : BitVec 32 := Scalar.addi v1800 c0_i32_1476
  let v1802 : Index := Scalar.indexCast v1801
  let c0_1477 : Index := 0#32
  ![v1802.toNat, 0]
def k0_off10 (d0 : Dev nD) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c1024_i32_1598 : BitVec 32 := 1024#32
  let v1986 : BitVec 32 := Scalar.muli v19 c1024_i32_1598
  let c0_i32_1600 : BitVec 32 := 0#32
  ![v1986.toNat, 0]
def k0_off11 (d0 : Dev nD) (c0_i32_1722 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1024_i32_1721 : BitVec 32 := 1024#32
  let v2113 : BitVec 32 := Scalar.muli v16 c1024_i32_1721
  let v2114 : BitVec 32 := Scalar.addi v2113 c0_i32_1722
  let v2115 : Index := Scalar.indexCast v2114
  let c0_1723 : Index := 0#32
  ![v2115.toNat, 0]
def k0_off12 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1024_i32_1844 : BitVec 32 := 1024#32
  let v2299 : BitVec 32 := Scalar.muli v16 c1024_i32_1844
  let c0_i32_1846 : BitVec 32 := 0#32
  ![v2299.toNat, 0]
def k0_off13 (d0 : Dev nD) (c0_i32_1868 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c1024_i32_1867 : BitVec 32 := 1024#32
  let v2326 : BitVec 32 := Scalar.muli v23 c1024_i32_1867
  let v2327 : BitVec 32 := Scalar.addi v2326 c0_i32_1868
  let v2328 : Index := Scalar.indexCast v2327
  let c0_1869 : Index := 0#32
  ![v2328.toNat, 0]
def k0_off14 (d0 : Dev nD) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c1024_i32_2140 : BitVec 32 := 1024#32
  let v2662 : BitVec 32 := Scalar.muli v23 c1024_i32_2140
  let c0_i32_2142 : BitVec 32 := 0#32
  ![v2662.toNat, 0]

class Facts₀ : Prop where
  hamt_1 : (1#32 : BitVec 32).msb = false
  hamt_3 : (3#32 : BitVec 32).msb = false
  inb_S4_S1_0 : ∀ a, (![0] : Fin 1 → Nat) a + S1.size a ≤ S4.size a
  squeezes_S1_S_ : S1.Squeezes S_
  inb_S4x1024x1024_S1x1024x1024_0_0_0 : ∀ a, (![0, 0, 0] : Fin 3 → Nat) a + S1x1024x1024.size a ≤ S4x1024x1024.size a
  squeezes_S1x1024x1024_S1024x1024 : S1x1024x1024.Squeezes S1024x1024
  inb_S4_S1_1 : ∀ a, (![1] : Fin 1 → Nat) a + S1.size a ≤ S4.size a
  inb_S4x1024x1024_S1x1024x1024_1_0_0 : ∀ a, (![1, 0, 0] : Fin 3 → Nat) a + S1x1024x1024.size a ≤ S4x1024x1024.size a
  inb_S4_S1_2 : ∀ a, (![2] : Fin 1 → Nat) a + S1.size a ≤ S4.size a
  inb_S4x1024x1024_S1x1024x1024_2_0_0 : ∀ a, (![2, 0, 0] : Fin 3 → Nat) a + S1x1024x1024.size a ≤ S4x1024x1024.size a
  inb_S4_S1_3 : ∀ a, (![3] : Fin 1 → Nat) a + S1.size a ≤ S4.size a
  inb_S4x1024x1024_S1x1024x1024_3_0_0 : ∀ a, (![3, 0, 0] : Fin 3 → Nat) a + S1x1024x1024.size a ≤ S4x1024x1024.size a
  inb_S16_S1_0 : ∀ a, (![0] : Fin 1 → Nat) a + S1.size a ≤ S16.size a
  inb_S1024x1024_S64x1024_0_0 : ∀ a, (![0, 0] : Fin 2 → Nat) a + S64x1024.size a ≤ S1024x1024.size a
  squeezes_S1x64x1024_S64x1024 : S1x64x1024.Squeezes S64x1024
  inb_S16_S1_1 : ∀ a, (![1] : Fin 1 → Nat) a + S1.size a ≤ S16.size a
  inb_S1024x1024_S64x1024_64_0 : ∀ a, (![64, 0] : Fin 2 → Nat) a + S64x1024.size a ≤ S1024x1024.size a
  inb_S16_S1_2 : ∀ a, (![2] : Fin 1 → Nat) a + S1.size a ≤ S16.size a
  inb_S1024x1024_S64x1024_128_0 : ∀ a, (![128, 0] : Fin 2 → Nat) a + S64x1024.size a ≤ S1024x1024.size a
  inb_S16_S1_3 : ∀ a, (![3] : Fin 1 → Nat) a + S1.size a ≤ S16.size a
  inb_S1024x1024_S64x1024_192_0 : ∀ a, (![192, 0] : Fin 2 → Nat) a + S64x1024.size a ≤ S1024x1024.size a
  inb_S16_S1_4 : ∀ a, (![4] : Fin 1 → Nat) a + S1.size a ≤ S16.size a
  inb_S1024x1024_S64x1024_256_0 : ∀ a, (![256, 0] : Fin 2 → Nat) a + S64x1024.size a ≤ S1024x1024.size a
  inb_S16_S1_5 : ∀ a, (![5] : Fin 1 → Nat) a + S1.size a ≤ S16.size a
  inb_S1024x1024_S64x1024_320_0 : ∀ a, (![320, 0] : Fin 2 → Nat) a + S64x1024.size a ≤ S1024x1024.size a
  inb_S16_S1_6 : ∀ a, (![6] : Fin 1 → Nat) a + S1.size a ≤ S16.size a
  inb_S1024x1024_S64x1024_384_0 : ∀ a, (![384, 0] : Fin 2 → Nat) a + S64x1024.size a ≤ S1024x1024.size a
  inb_S16_S1_7 : ∀ a, (![7] : Fin 1 → Nat) a + S1.size a ≤ S16.size a
  inb_S1024x1024_S64x1024_448_0 : ∀ a, (![448, 0] : Fin 2 → Nat) a + S64x1024.size a ≤ S1024x1024.size a
  inb_S16_S1_8 : ∀ a, (![8] : Fin 1 → Nat) a + S1.size a ≤ S16.size a
  inb_S1024x1024_S64x1024_512_0 : ∀ a, (![512, 0] : Fin 2 → Nat) a + S64x1024.size a ≤ S1024x1024.size a
  inb_S16_S1_9 : ∀ a, (![9] : Fin 1 → Nat) a + S1.size a ≤ S16.size a
  inb_S1024x1024_S64x1024_576_0 : ∀ a, (![576, 0] : Fin 2 → Nat) a + S64x1024.size a ≤ S1024x1024.size a
  inb_S16_S1_10 : ∀ a, (![10] : Fin 1 → Nat) a + S1.size a ≤ S16.size a
  inb_S1024x1024_S64x1024_640_0 : ∀ a, (![640, 0] : Fin 2 → Nat) a + S64x1024.size a ≤ S1024x1024.size a
  inb_S16_S1_11 : ∀ a, (![11] : Fin 1 → Nat) a + S1.size a ≤ S16.size a
  inb_S1024x1024_S64x1024_704_0 : ∀ a, (![704, 0] : Fin 2 → Nat) a + S64x1024.size a ≤ S1024x1024.size a
  inb_S16_S1_12 : ∀ a, (![12] : Fin 1 → Nat) a + S1.size a ≤ S16.size a
  inb_S1024x1024_S64x1024_768_0 : ∀ a, (![768, 0] : Fin 2 → Nat) a + S64x1024.size a ≤ S1024x1024.size a
  inb_S16_S1_13 : ∀ a, (![13] : Fin 1 → Nat) a + S1.size a ≤ S16.size a
  inb_S1024x1024_S64x1024_832_0 : ∀ a, (![832, 0] : Fin 2 → Nat) a + S64x1024.size a ≤ S1024x1024.size a
  inb_S16_S1_14 : ∀ a, (![14] : Fin 1 → Nat) a + S1.size a ≤ S16.size a
  inb_S1024x1024_S64x1024_896_0 : ∀ a, (![896, 0] : Fin 2 → Nat) a + S64x1024.size a ≤ S1024x1024.size a
  inb_S16_S1_15 : ∀ a, (![15] : Fin 1 → Nat) a + S1.size a ≤ S16.size a
  inb_S1024x1024_S64x1024_960_0 : ∀ a, (![960, 0] : Fin 2 → Nat) a + S64x1024.size a ≤ S1024x1024.size a
  inb_S6_S1_0 : ∀ a, (![0] : Fin 1 → Nat) a + S1.size a ≤ S6.size a
  inb_S384x1024_S64x1024_0_0 : ∀ a, (![0, 0] : Fin 2 → Nat) a + S64x1024.size a ≤ S384x1024.size a
  inb_S6_S1_1 : ∀ a, (![1] : Fin 1 → Nat) a + S1.size a ≤ S6.size a
  inb_S384x1024_S64x1024_64_0 : ∀ a, (![64, 0] : Fin 2 → Nat) a + S64x1024.size a ≤ S384x1024.size a
  inb_S6_S1_2 : ∀ a, (![2] : Fin 1 → Nat) a + S1.size a ≤ S6.size a
  inb_S384x1024_S64x1024_128_0 : ∀ a, (![128, 0] : Fin 2 → Nat) a + S64x1024.size a ≤ S384x1024.size a
  inb_S6_S1_3 : ∀ a, (![3] : Fin 1 → Nat) a + S1.size a ≤ S6.size a
  inb_S384x1024_S64x1024_192_0 : ∀ a, (![192, 0] : Fin 2 → Nat) a + S64x1024.size a ≤ S384x1024.size a
  inb_S6_S1_4 : ∀ a, (![4] : Fin 1 → Nat) a + S1.size a ≤ S6.size a
  inb_S384x1024_S64x1024_256_0 : ∀ a, (![256, 0] : Fin 2 → Nat) a + S64x1024.size a ≤ S384x1024.size a
  inb_S6_S1_5 : ∀ a, (![5] : Fin 1 → Nat) a + S1.size a ≤ S6.size a
  inb_S384x1024_S64x1024_320_0 : ∀ a, (![320, 0] : Fin 2 → Nat) a + S64x1024.size a ≤ S384x1024.size a
  h_S64x1024 : 0 < S64x1024.numel
  bitsLt_bf16_f32 : FTy.bits .bf16 < FTy.bits .f32
  shapeCasts_S64x1024_S64x1024 : S64x1024.ShapeCasts S64x1024
  packedbf16_S1024x1024_S64x1024_0_0 : (Rect.unit (s := S1024x1024) ![0, 0] S64x1024.size inb_S1024x1024_S64x1024_0_0).PackedRows (EltTy.packing .bf16)
  wordsbf16_S1024x1024_S64x1024_0_0 : (Rect.unit (s := S1024x1024) ![0, 0] S64x1024.size inb_S1024x1024_S64x1024_0_0).WholeWords (EltTy.packing .bf16)
  packedbf16_S1024x1024_S64x1024_64_0 : (Rect.unit (s := S1024x1024) ![64, 0] S64x1024.size inb_S1024x1024_S64x1024_64_0).PackedRows (EltTy.packing .bf16)
  wordsbf16_S1024x1024_S64x1024_64_0 : (Rect.unit (s := S1024x1024) ![64, 0] S64x1024.size inb_S1024x1024_S64x1024_64_0).WholeWords (EltTy.packing .bf16)
  packedbf16_S1024x1024_S64x1024_128_0 : (Rect.unit (s := S1024x1024) ![128, 0] S64x1024.size inb_S1024x1024_S64x1024_128_0).PackedRows (EltTy.packing .bf16)
  wordsbf16_S1024x1024_S64x1024_128_0 : (Rect.unit (s := S1024x1024) ![128, 0] S64x1024.size inb_S1024x1024_S64x1024_128_0).WholeWords (EltTy.packing .bf16)
  packedbf16_S1024x1024_S64x1024_192_0 : (Rect.unit (s := S1024x1024) ![192, 0] S64x1024.size inb_S1024x1024_S64x1024_192_0).PackedRows (EltTy.packing .bf16)
  wordsbf16_S1024x1024_S64x1024_192_0 : (Rect.unit (s := S1024x1024) ![192, 0] S64x1024.size inb_S1024x1024_S64x1024_192_0).WholeWords (EltTy.packing .bf16)
  packedbf16_S1024x1024_S64x1024_256_0 : (Rect.unit (s := S1024x1024) ![256, 0] S64x1024.size inb_S1024x1024_S64x1024_256_0).PackedRows (EltTy.packing .bf16)
  wordsbf16_S1024x1024_S64x1024_256_0 : (Rect.unit (s := S1024x1024) ![256, 0] S64x1024.size inb_S1024x1024_S64x1024_256_0).WholeWords (EltTy.packing .bf16)
  packedbf16_S1024x1024_S64x1024_320_0 : (Rect.unit (s := S1024x1024) ![320, 0] S64x1024.size inb_S1024x1024_S64x1024_320_0).PackedRows (EltTy.packing .bf16)
  wordsbf16_S1024x1024_S64x1024_320_0 : (Rect.unit (s := S1024x1024) ![320, 0] S64x1024.size inb_S1024x1024_S64x1024_320_0).WholeWords (EltTy.packing .bf16)
  packedbf16_S1024x1024_S64x1024_384_0 : (Rect.unit (s := S1024x1024) ![384, 0] S64x1024.size inb_S1024x1024_S64x1024_384_0).PackedRows (EltTy.packing .bf16)
  wordsbf16_S1024x1024_S64x1024_384_0 : (Rect.unit (s := S1024x1024) ![384, 0] S64x1024.size inb_S1024x1024_S64x1024_384_0).WholeWords (EltTy.packing .bf16)
  packedbf16_S1024x1024_S64x1024_448_0 : (Rect.unit (s := S1024x1024) ![448, 0] S64x1024.size inb_S1024x1024_S64x1024_448_0).PackedRows (EltTy.packing .bf16)
  wordsbf16_S1024x1024_S64x1024_448_0 : (Rect.unit (s := S1024x1024) ![448, 0] S64x1024.size inb_S1024x1024_S64x1024_448_0).WholeWords (EltTy.packing .bf16)
  packedbf16_S1024x1024_S64x1024_512_0 : (Rect.unit (s := S1024x1024) ![512, 0] S64x1024.size inb_S1024x1024_S64x1024_512_0).PackedRows (EltTy.packing .bf16)
  wordsbf16_S1024x1024_S64x1024_512_0 : (Rect.unit (s := S1024x1024) ![512, 0] S64x1024.size inb_S1024x1024_S64x1024_512_0).WholeWords (EltTy.packing .bf16)
  packedbf16_S1024x1024_S64x1024_576_0 : (Rect.unit (s := S1024x1024) ![576, 0] S64x1024.size inb_S1024x1024_S64x1024_576_0).PackedRows (EltTy.packing .bf16)
  wordsbf16_S1024x1024_S64x1024_576_0 : (Rect.unit (s := S1024x1024) ![576, 0] S64x1024.size inb_S1024x1024_S64x1024_576_0).WholeWords (EltTy.packing .bf16)
  packedbf16_S1024x1024_S64x1024_640_0 : (Rect.unit (s := S1024x1024) ![640, 0] S64x1024.size inb_S1024x1024_S64x1024_640_0).PackedRows (EltTy.packing .bf16)
  wordsbf16_S1024x1024_S64x1024_640_0 : (Rect.unit (s := S1024x1024) ![640, 0] S64x1024.size inb_S1024x1024_S64x1024_640_0).WholeWords (EltTy.packing .bf16)
  packedbf16_S1024x1024_S64x1024_704_0 : (Rect.unit (s := S1024x1024) ![704, 0] S64x1024.size inb_S1024x1024_S64x1024_704_0).PackedRows (EltTy.packing .bf16)
  wordsbf16_S1024x1024_S64x1024_704_0 : (Rect.unit (s := S1024x1024) ![704, 0] S64x1024.size inb_S1024x1024_S64x1024_704_0).WholeWords (EltTy.packing .bf16)
  packedbf16_S1024x1024_S64x1024_768_0 : (Rect.unit (s := S1024x1024) ![768, 0] S64x1024.size inb_S1024x1024_S64x1024_768_0).PackedRows (EltTy.packing .bf16)
  wordsbf16_S1024x1024_S64x1024_768_0 : (Rect.unit (s := S1024x1024) ![768, 0] S64x1024.size inb_S1024x1024_S64x1024_768_0).WholeWords (EltTy.packing .bf16)
  packedbf16_S1024x1024_S64x1024_832_0 : (Rect.unit (s := S1024x1024) ![832, 0] S64x1024.size inb_S1024x1024_S64x1024_832_0).PackedRows (EltTy.packing .bf16)
  wordsbf16_S1024x1024_S64x1024_832_0 : (Rect.unit (s := S1024x1024) ![832, 0] S64x1024.size inb_S1024x1024_S64x1024_832_0).WholeWords (EltTy.packing .bf16)
  packedbf16_S1024x1024_S64x1024_896_0 : (Rect.unit (s := S1024x1024) ![896, 0] S64x1024.size inb_S1024x1024_S64x1024_896_0).PackedRows (EltTy.packing .bf16)
  wordsbf16_S1024x1024_S64x1024_896_0 : (Rect.unit (s := S1024x1024) ![896, 0] S64x1024.size inb_S1024x1024_S64x1024_896_0).WholeWords (EltTy.packing .bf16)
  packedbf16_S1024x1024_S64x1024_960_0 : (Rect.unit (s := S1024x1024) ![960, 0] S64x1024.size inb_S1024x1024_S64x1024_960_0).PackedRows (EltTy.packing .bf16)
  wordsbf16_S1024x1024_S64x1024_960_0 : (Rect.unit (s := S1024x1024) ![960, 0] S64x1024.size inb_S1024x1024_S64x1024_960_0).WholeWords (EltTy.packing .bf16)
  packedbf16_S384x1024_S64x1024_0_0 : (Rect.unit (s := S384x1024) ![0, 0] S64x1024.size inb_S384x1024_S64x1024_0_0).PackedRows (EltTy.packing .bf16)
  wordsbf16_S384x1024_S64x1024_0_0 : (Rect.unit (s := S384x1024) ![0, 0] S64x1024.size inb_S384x1024_S64x1024_0_0).WholeWords (EltTy.packing .bf16)
  packedbf16_S384x1024_S64x1024_64_0 : (Rect.unit (s := S384x1024) ![64, 0] S64x1024.size inb_S384x1024_S64x1024_64_0).PackedRows (EltTy.packing .bf16)
  wordsbf16_S384x1024_S64x1024_64_0 : (Rect.unit (s := S384x1024) ![64, 0] S64x1024.size inb_S384x1024_S64x1024_64_0).WholeWords (EltTy.packing .bf16)
  packedbf16_S384x1024_S64x1024_128_0 : (Rect.unit (s := S384x1024) ![128, 0] S64x1024.size inb_S384x1024_S64x1024_128_0).PackedRows (EltTy.packing .bf16)
  wordsbf16_S384x1024_S64x1024_128_0 : (Rect.unit (s := S384x1024) ![128, 0] S64x1024.size inb_S384x1024_S64x1024_128_0).WholeWords (EltTy.packing .bf16)
  packedbf16_S384x1024_S64x1024_192_0 : (Rect.unit (s := S384x1024) ![192, 0] S64x1024.size inb_S384x1024_S64x1024_192_0).PackedRows (EltTy.packing .bf16)
  wordsbf16_S384x1024_S64x1024_192_0 : (Rect.unit (s := S384x1024) ![192, 0] S64x1024.size inb_S384x1024_S64x1024_192_0).WholeWords (EltTy.packing .bf16)
  packedbf16_S384x1024_S64x1024_256_0 : (Rect.unit (s := S384x1024) ![256, 0] S64x1024.size inb_S384x1024_S64x1024_256_0).PackedRows (EltTy.packing .bf16)
  wordsbf16_S384x1024_S64x1024_256_0 : (Rect.unit (s := S384x1024) ![256, 0] S64x1024.size inb_S384x1024_S64x1024_256_0).WholeWords (EltTy.packing .bf16)
  packedbf16_S384x1024_S64x1024_320_0 : (Rect.unit (s := S384x1024) ![320, 0] S64x1024.size inb_S384x1024_S64x1024_320_0).PackedRows (EltTy.packing .bf16)
  wordsbf16_S384x1024_S64x1024_320_0 : (Rect.unit (s := S384x1024) ![320, 0] S64x1024.size inb_S384x1024_S64x1024_320_0).WholeWords (EltTy.packing .bf16)
  inb_S4x1024x1024_S1x64x1024_0_0_0 : ∀ a, (![0, 0, 0] : Fin 3 → Nat) a + S1x64x1024.size a ≤ S4x1024x1024.size a
  h_S1x64x1024 : 0 < S1x64x1024.numel
  shapeCasts_S1x64x1024_S64x1024 : S1x64x1024.ShapeCasts S64x1024
  inb_S4x1024x1024_S1x64x1024_0_64_0 : ∀ a, (![0, 64, 0] : Fin 3 → Nat) a + S1x64x1024.size a ≤ S4x1024x1024.size a
  inb_S4x1024x1024_S1x64x1024_0_128_0 : ∀ a, (![0, 128, 0] : Fin 3 → Nat) a + S1x64x1024.size a ≤ S4x1024x1024.size a
  inb_S4x1024x1024_S1x64x1024_0_192_0 : ∀ a, (![0, 192, 0] : Fin 3 → Nat) a + S1x64x1024.size a ≤ S4x1024x1024.size a
  inb_S4x1024x1024_S1x64x1024_0_256_0 : ∀ a, (![0, 256, 0] : Fin 3 → Nat) a + S1x64x1024.size a ≤ S4x1024x1024.size a
  inb_S4x1024x1024_S1x64x1024_0_320_0 : ∀ a, (![0, 320, 0] : Fin 3 → Nat) a + S1x64x1024.size a ≤ S4x1024x1024.size a
  inb_S4x1024x1024_S1x64x1024_0_384_0 : ∀ a, (![0, 384, 0] : Fin 3 → Nat) a + S1x64x1024.size a ≤ S4x1024x1024.size a
  inb_S4x1024x1024_S1x64x1024_0_448_0 : ∀ a, (![0, 448, 0] : Fin 3 → Nat) a + S1x64x1024.size a ≤ S4x1024x1024.size a
  inb_S4x1024x1024_S1x64x1024_0_512_0 : ∀ a, (![0, 512, 0] : Fin 3 → Nat) a + S1x64x1024.size a ≤ S4x1024x1024.size a
  inb_S4x1024x1024_S1x64x1024_0_576_0 : ∀ a, (![0, 576, 0] : Fin 3 → Nat) a + S1x64x1024.size a ≤ S4x1024x1024.size a
  inb_S4x1024x1024_S1x64x1024_0_640_0 : ∀ a, (![0, 640, 0] : Fin 3 → Nat) a + S1x64x1024.size a ≤ S4x1024x1024.size a
  inb_S4x1024x1024_S1x64x1024_0_704_0 : ∀ a, (![0, 704, 0] : Fin 3 → Nat) a + S1x64x1024.size a ≤ S4x1024x1024.size a
  inb_S4x1024x1024_S1x64x1024_0_768_0 : ∀ a, (![0, 768, 0] : Fin 3 → Nat) a + S1x64x1024.size a ≤ S4x1024x1024.size a
  inb_S4x1024x1024_S1x64x1024_0_832_0 : ∀ a, (![0, 832, 0] : Fin 3 → Nat) a + S1x64x1024.size a ≤ S4x1024x1024.size a
  inb_S4x1024x1024_S1x64x1024_0_896_0 : ∀ a, (![0, 896, 0] : Fin 3 → Nat) a + S1x64x1024.size a ≤ S4x1024x1024.size a
  inb_S4x1024x1024_S1x64x1024_0_960_0 : ∀ a, (![0, 960, 0] : Fin 3 → Nat) a + S1x64x1024.size a ≤ S4x1024x1024.size a
  inb_S5_S1_0 : ∀ a, (![0] : Fin 1 → Nat) a + S1.size a ≤ S5.size a
  inb_S5_S1_1 : ∀ a, (![1] : Fin 1 → Nat) a + S1.size a ≤ S5.size a
  inb_S5_S1_2 : ∀ a, (![2] : Fin 1 → Nat) a + S1.size a ≤ S5.size a
  inb_S5_S1_3 : ∀ a, (![3] : Fin 1 → Nat) a + S1.size a ≤ S5.size a
  inb_S5_S1_4 : ∀ a, (![4] : Fin 1 → Nat) a + S1.size a ≤ S5.size a
  inb_S4x1024x1024_S1x64x1024_1_0_0 : ∀ a, (![1, 0, 0] : Fin 3 → Nat) a + S1x64x1024.size a ≤ S4x1024x1024.size a
  inb_S4x1024x1024_S1x64x1024_1_64_0 : ∀ a, (![1, 64, 0] : Fin 3 → Nat) a + S1x64x1024.size a ≤ S4x1024x1024.size a
  inb_S4x1024x1024_S1x64x1024_1_128_0 : ∀ a, (![1, 128, 0] : Fin 3 → Nat) a + S1x64x1024.size a ≤ S4x1024x1024.size a
  inb_S4x1024x1024_S1x64x1024_1_192_0 : ∀ a, (![1, 192, 0] : Fin 3 → Nat) a + S1x64x1024.size a ≤ S4x1024x1024.size a
  inb_S4x1024x1024_S1x64x1024_1_256_0 : ∀ a, (![1, 256, 0] : Fin 3 → Nat) a + S1x64x1024.size a ≤ S4x1024x1024.size a
  inb_S4x1024x1024_S1x64x1024_1_320_0 : ∀ a, (![1, 320, 0] : Fin 3 → Nat) a + S1x64x1024.size a ≤ S4x1024x1024.size a
  inb_S4x1024x1024_S1x64x1024_1_384_0 : ∀ a, (![1, 384, 0] : Fin 3 → Nat) a + S1x64x1024.size a ≤ S4x1024x1024.size a
  inb_S4x1024x1024_S1x64x1024_1_448_0 : ∀ a, (![1, 448, 0] : Fin 3 → Nat) a + S1x64x1024.size a ≤ S4x1024x1024.size a
  inb_S4x1024x1024_S1x64x1024_1_512_0 : ∀ a, (![1, 512, 0] : Fin 3 → Nat) a + S1x64x1024.size a ≤ S4x1024x1024.size a
  inb_S4x1024x1024_S1x64x1024_1_576_0 : ∀ a, (![1, 576, 0] : Fin 3 → Nat) a + S1x64x1024.size a ≤ S4x1024x1024.size a
  inb_S4x1024x1024_S1x64x1024_1_640_0 : ∀ a, (![1, 640, 0] : Fin 3 → Nat) a + S1x64x1024.size a ≤ S4x1024x1024.size a
  inb_S4x1024x1024_S1x64x1024_1_704_0 : ∀ a, (![1, 704, 0] : Fin 3 → Nat) a + S1x64x1024.size a ≤ S4x1024x1024.size a
  inb_S4x1024x1024_S1x64x1024_1_768_0 : ∀ a, (![1, 768, 0] : Fin 3 → Nat) a + S1x64x1024.size a ≤ S4x1024x1024.size a
  inb_S4x1024x1024_S1x64x1024_1_832_0 : ∀ a, (![1, 832, 0] : Fin 3 → Nat) a + S1x64x1024.size a ≤ S4x1024x1024.size a
  inb_S4x1024x1024_S1x64x1024_1_896_0 : ∀ a, (![1, 896, 0] : Fin 3 → Nat) a + S1x64x1024.size a ≤ S4x1024x1024.size a
  inb_S4x1024x1024_S1x64x1024_1_960_0 : ∀ a, (![1, 960, 0] : Fin 3 → Nat) a + S1x64x1024.size a ≤ S4x1024x1024.size a
  inb_S4x1024x1024_S1x64x1024_2_0_0 : ∀ a, (![2, 0, 0] : Fin 3 → Nat) a + S1x64x1024.size a ≤ S4x1024x1024.size a
  inb_S4x1024x1024_S1x64x1024_2_64_0 : ∀ a, (![2, 64, 0] : Fin 3 → Nat) a + S1x64x1024.size a ≤ S4x1024x1024.size a
  inb_S4x1024x1024_S1x64x1024_2_128_0 : ∀ a, (![2, 128, 0] : Fin 3 → Nat) a + S1x64x1024.size a ≤ S4x1024x1024.size a
  inb_S4x1024x1024_S1x64x1024_2_192_0 : ∀ a, (![2, 192, 0] : Fin 3 → Nat) a + S1x64x1024.size a ≤ S4x1024x1024.size a
  inb_S4x1024x1024_S1x64x1024_2_256_0 : ∀ a, (![2, 256, 0] : Fin 3 → Nat) a + S1x64x1024.size a ≤ S4x1024x1024.size a
  inb_S4x1024x1024_S1x64x1024_2_320_0 : ∀ a, (![2, 320, 0] : Fin 3 → Nat) a + S1x64x1024.size a ≤ S4x1024x1024.size a
  inb_S4x1024x1024_S1x64x1024_2_384_0 : ∀ a, (![2, 384, 0] : Fin 3 → Nat) a + S1x64x1024.size a ≤ S4x1024x1024.size a
  inb_S4x1024x1024_S1x64x1024_2_448_0 : ∀ a, (![2, 448, 0] : Fin 3 → Nat) a + S1x64x1024.size a ≤ S4x1024x1024.size a
  inb_S4x1024x1024_S1x64x1024_2_512_0 : ∀ a, (![2, 512, 0] : Fin 3 → Nat) a + S1x64x1024.size a ≤ S4x1024x1024.size a
  inb_S4x1024x1024_S1x64x1024_2_576_0 : ∀ a, (![2, 576, 0] : Fin 3 → Nat) a + S1x64x1024.size a ≤ S4x1024x1024.size a
  inb_S4x1024x1024_S1x64x1024_2_640_0 : ∀ a, (![2, 640, 0] : Fin 3 → Nat) a + S1x64x1024.size a ≤ S4x1024x1024.size a
  inb_S4x1024x1024_S1x64x1024_2_704_0 : ∀ a, (![2, 704, 0] : Fin 3 → Nat) a + S1x64x1024.size a ≤ S4x1024x1024.size a
  inb_S4x1024x1024_S1x64x1024_2_768_0 : ∀ a, (![2, 768, 0] : Fin 3 → Nat) a + S1x64x1024.size a ≤ S4x1024x1024.size a
  inb_S4x1024x1024_S1x64x1024_2_832_0 : ∀ a, (![2, 832, 0] : Fin 3 → Nat) a + S1x64x1024.size a ≤ S4x1024x1024.size a
  inb_S4x1024x1024_S1x64x1024_2_896_0 : ∀ a, (![2, 896, 0] : Fin 3 → Nat) a + S1x64x1024.size a ≤ S4x1024x1024.size a
  inb_S4x1024x1024_S1x64x1024_2_960_0 : ∀ a, (![2, 960, 0] : Fin 3 → Nat) a + S1x64x1024.size a ≤ S4x1024x1024.size a
  inb_S4x1024x1024_S1x64x1024_3_0_0 : ∀ a, (![3, 0, 0] : Fin 3 → Nat) a + S1x64x1024.size a ≤ S4x1024x1024.size a
  inb_S4x1024x1024_S1x64x1024_3_64_0 : ∀ a, (![3, 64, 0] : Fin 3 → Nat) a + S1x64x1024.size a ≤ S4x1024x1024.size a
  inb_S4x1024x1024_S1x64x1024_3_128_0 : ∀ a, (![3, 128, 0] : Fin 3 → Nat) a + S1x64x1024.size a ≤ S4x1024x1024.size a
  inb_S4x1024x1024_S1x64x1024_3_192_0 : ∀ a, (![3, 192, 0] : Fin 3 → Nat) a + S1x64x1024.size a ≤ S4x1024x1024.size a
  inb_S4x1024x1024_S1x64x1024_3_256_0 : ∀ a, (![3, 256, 0] : Fin 3 → Nat) a + S1x64x1024.size a ≤ S4x1024x1024.size a
  inb_S4x1024x1024_S1x64x1024_3_320_0 : ∀ a, (![3, 320, 0] : Fin 3 → Nat) a + S1x64x1024.size a ≤ S4x1024x1024.size a
  inb_S4x1024x1024_S1x64x1024_3_384_0 : ∀ a, (![3, 384, 0] : Fin 3 → Nat) a + S1x64x1024.size a ≤ S4x1024x1024.size a
  inb_S4x1024x1024_S1x64x1024_3_448_0 : ∀ a, (![3, 448, 0] : Fin 3 → Nat) a + S1x64x1024.size a ≤ S4x1024x1024.size a
  inb_S4x1024x1024_S1x64x1024_3_512_0 : ∀ a, (![3, 512, 0] : Fin 3 → Nat) a + S1x64x1024.size a ≤ S4x1024x1024.size a
  inb_S4x1024x1024_S1x64x1024_3_576_0 : ∀ a, (![3, 576, 0] : Fin 3 → Nat) a + S1x64x1024.size a ≤ S4x1024x1024.size a
  inb_S4x1024x1024_S1x64x1024_3_640_0 : ∀ a, (![3, 640, 0] : Fin 3 → Nat) a + S1x64x1024.size a ≤ S4x1024x1024.size a
  inb_S4x1024x1024_S1x64x1024_3_704_0 : ∀ a, (![3, 704, 0] : Fin 3 → Nat) a + S1x64x1024.size a ≤ S4x1024x1024.size a
  inb_S4x1024x1024_S1x64x1024_3_768_0 : ∀ a, (![3, 768, 0] : Fin 3 → Nat) a + S1x64x1024.size a ≤ S4x1024x1024.size a
  inb_S4x1024x1024_S1x64x1024_3_832_0 : ∀ a, (![3, 832, 0] : Fin 3 → Nat) a + S1x64x1024.size a ≤ S4x1024x1024.size a
  inb_S4x1024x1024_S1x64x1024_3_896_0 : ∀ a, (![3, 896, 0] : Fin 3 → Nat) a + S1x64x1024.size a ≤ S4x1024x1024.size a
  inb_S4x1024x1024_S1x64x1024_3_960_0 : ∀ a, (![3, 960, 0] : Fin 3 → Nat) a + S1x64x1024.size a ≤ S4x1024x1024.size a
  hcc0_scratch10 : 0 + S16.numel ≤ 158
  hcc0_scratch11 : 16 + S6.numel ≤ 158
  hcc0_scratch12 : 22 + S4.numel ≤ 158
  hcc0_scratch13 : 26 + S4.numel ≤ 158
  hcc0_scratch14 : 30 + S16.numel ≤ 158
  hcc0_scratch15 : 46 + S6.numel ≤ 158
  hcc0_scratch16 : 52 + S16.numel ≤ 158
  hcc0_scratch17 : 68 + S16.numel ≤ 158
  hcc0_scratch18 : 84 + S5.numel ≤ 158
  hcc0_scratch19 : 89 + S5.numel ≤ 158
  hcc0_scratch20 : 94 + S16.numel ≤ 158
  hcc0_scratch21 : 110 + S6.numel ≤ 158
  hcc0_scratch22 : 116 + S16.numel ≤ 158
  hcc0_scratch23 : 132 + S16.numel ≤ 158
  hcc0_scratch24 : 148 + S5.numel ≤ 158
  hcc0_scratch25 : 153 + S5.numel ≤ 158
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1x1024x1024.size a ≤ S1x4096x2048.size a
  k0_off2_inb : ∀ d0 : Dev nD, ∀ a, (k0_off2 d0) a + S1x1024x1024.size a ≤ S1x4096x2048.size a
  k0_off3_inb : ∀ d0 : Dev nD, ∀ a, (k0_off3 d0) a + S1x1024x1024.size a ≤ S1x4096x2048.size a
  k0_off4_inb : ∀ d0 : Dev nD, ∀ a, (k0_off4 d0) a + S1x1024x1024.size a ≤ S1x4096x2048.size a
  k0_off5_inb : ∀ d0 : Dev nD, ∀ (r : Fin 16), ∀ a, (k0_off5 d0 (BitVec.ofNat 32 (64 * r.val))) a + S1x64x1024.size a ≤ S1x4096x2048.size a
  k0_off6_inb : ∀ d0 : Dev nD, ∀ (r : Fin 6), ∀ a, (k0_off6 d0 (BitVec.ofNat 32 (64 * r.val))) a + S1x64x1024.size a ≤ S1x4096x2048.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_off7_inb : ∀ d0 : Dev nD, ∀ (r : Fin 16), ∀ a, (k0_off7 d0 (BitVec.ofNat 32 (64 * r.val))) a + S64x1024.size a ≤ S4096x1024.size a
  k0_off7_packedbf16 : ∀ d0 : Dev nD, ∀ (r : Fin 16), (Rect.unit (s := S4096x1024) (k0_off7 d0 (BitVec.ofNat 32 (64 * r.val))) S64x1024.size (k0_off7_inb d0 r)).PackedRows (EltTy.packing .bf16)
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_off8_inb : ∀ d0 : Dev nD, ∀ a, (k0_off8 d0) a + S1024x1024.size a ≤ S4096x1024.size a
  k0_off8_wordsbf16 : ∀ d0 : Dev nD, (Rect.unit (s := S4096x1024) (k0_off8 d0) S1024x1024.size (k0_off8_inb d0)).WholeWords (EltTy.packing .bf16)
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_off9_inb : ∀ d0 : Dev nD, ∀ (r : Fin 16), ∀ a, (k0_off9 d0 (BitVec.ofNat 32 (64 * r.val))) a + S64x1024.size a ≤ S4096x1024.size a
  k0_off9_packedbf16 : ∀ d0 : Dev nD, ∀ (r : Fin 16), (Rect.unit (s := S4096x1024) (k0_off9 d0 (BitVec.ofNat 32 (64 * r.val))) S64x1024.size (k0_off9_inb d0 r)).PackedRows (EltTy.packing .bf16)
  k0_off10_inb : ∀ d0 : Dev nD, ∀ a, (k0_off10 d0) a + S1024x1024.size a ≤ S4096x1024.size a
  k0_off10_wordsbf16 : ∀ d0 : Dev nD, (Rect.unit (s := S4096x1024) (k0_off10 d0) S1024x1024.size (k0_off10_inb d0)).WholeWords (EltTy.packing .bf16)
  k0_off11_inb : ∀ d0 : Dev nD, ∀ (r : Fin 16), ∀ a, (k0_off11 d0 (BitVec.ofNat 32 (64 * r.val))) a + S64x1024.size a ≤ S4096x1024.size a
  k0_off11_packedbf16 : ∀ d0 : Dev nD, ∀ (r : Fin 16), (Rect.unit (s := S4096x1024) (k0_off11 d0 (BitVec.ofNat 32 (64 * r.val))) S64x1024.size (k0_off11_inb d0 r)).PackedRows (EltTy.packing .bf16)
  k0_off12_inb : ∀ d0 : Dev nD, ∀ a, (k0_off12 d0) a + S1024x1024.size a ≤ S4096x1024.size a
  k0_off12_wordsbf16 : ∀ d0 : Dev nD, (Rect.unit (s := S4096x1024) (k0_off12 d0) S1024x1024.size (k0_off12_inb d0)).WholeWords (EltTy.packing .bf16)
  k0_off13_inb : ∀ d0 : Dev nD, ∀ (r : Fin 16), ∀ a, (k0_off13 d0 (BitVec.ofNat 32 (64 * r.val))) a + S64x1024.size a ≤ S4096x1024.size a
  k0_off13_packedbf16 : ∀ d0 : Dev nD, ∀ (r : Fin 16), (Rect.unit (s := S4096x1024) (k0_off13 d0 (BitVec.ofNat 32 (64 * r.val))) S64x1024.size (k0_off13_inb d0 r)).PackedRows (EltTy.packing .bf16)
  k0_off14_inb : ∀ d0 : Dev nD, ∀ a, (k0_off14 d0) a + S1024x1024.size a ≤ S4096x1024.size a
  k0_off14_wordsbf16 : ∀ d0 : Dev nD, (Rect.unit (s := S4096x1024) (k0_off14 d0) S1024x1024.size (k0_off14_inb d0)).WholeWords (EltTy.packing .bf16)

variable [Facts₀]

abbrev cc0_scratch10 : DmaSems sig S16 := SemArray.consecutive 0 S16 hcc0_scratch10
abbrev cc0_scratch11 : DmaSems sig S6 := SemArray.consecutive 16 S6 hcc0_scratch11
abbrev cc0_scratch12 : DmaSems sig S4 := SemArray.consecutive 22 S4 hcc0_scratch12
abbrev cc0_scratch13 : DmaSems sig S4 := SemArray.consecutive 26 S4 hcc0_scratch13
abbrev cc0_scratch14 : DmaSems sig S16 := SemArray.consecutive 30 S16 hcc0_scratch14
abbrev cc0_scratch15 : DmaSems sig S6 := SemArray.consecutive 46 S6 hcc0_scratch15
abbrev cc0_scratch16 : DmaSems sig S16 := SemArray.consecutive 52 S16 hcc0_scratch16
abbrev cc0_scratch17 : DmaSems sig S16 := SemArray.consecutive 68 S16 hcc0_scratch17
abbrev cc0_scratch18 : DmaSems sig S5 := SemArray.consecutive 84 S5 hcc0_scratch18
abbrev cc0_scratch19 : DmaSems sig S5 := SemArray.consecutive 89 S5 hcc0_scratch19
abbrev cc0_scratch20 : DmaSems sig S16 := SemArray.consecutive 94 S16 hcc0_scratch20
abbrev cc0_scratch21 : DmaSems sig S6 := SemArray.consecutive 110 S6 hcc0_scratch21
abbrev cc0_scratch22 : DmaSems sig S16 := SemArray.consecutive 116 S16 hcc0_scratch22
abbrev cc0_scratch23 : DmaSems sig S16 := SemArray.consecutive 132 S16 hcc0_scratch23
abbrev cc0_scratch24 : DmaSems sig S5 := SemArray.consecutive 148 S5 hcc0_scratch24
abbrev cc0_scratch25 : DmaSems sig S5 := SemArray.consecutive 153 S5 hcc0_scratch25

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | .hbm, ⟨3, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x4096x2048_S4096x2048_d0 : S2x4096x2048.ReducesTo [0] S4096x2048
  h_S_ : 0 < S_.numel
  bitsLt_bf16_f32 : FTy.bits .bf16 < FTy.bits .f32

variable [Facts₀]

class Facts : Prop extends Facts₀ where

variable [Facts]
-- ==== Proof.Mesh.lean ====
/- The 2 × 2 × 2 mesh as the kernel addresses it: device d sits at x = d / 4, y = (d / 2) % 2, z = d % 2.
   The three neighbours a device talks to: its z-partner (the other half of the reduction), its
   x-neighbour and its y-neighbour (the devices holding the other row quarters of the same z). Each is an
   involution of the eight devices, and they commute. -/
import proofs.«901030_g7700000000001031_dist_rs_v7x_xyz2x2x2_z_m4096_n1024_bf16_1_alg».proof.Proof.Gen.KernelIdeal

noncomputable section

namespace Cert.KernelIdeal.Rs

open Cert.KernelIdeal Cert.KernelIdeal.Gen
open Idealize.ShloMosaic Idealize.ShloMosaic.TcCoe

/-- The device with the other z coordinate. -/
def zp (c : Dev nD) : Dev nD := ⟨(4 * (c.val / 4) + 2 * ((c.val / 2) % 2) + 1) - (c.val % 2), by revert c; decide⟩
/-- The device with the other x coordinate. -/
def xn (c : Dev nD) : Dev nD := ⟨(2 * ((c.val / 2) % 2) + (c.val % 2) + 4) - 4 * (c.val / 4), by revert c; decide⟩
/-- The device with the other y coordinate. -/
def yn (c : Dev nD) : Dev nD := ⟨(4 * (c.val / 4) + (c.val % 2) + 2) - 2 * ((c.val / 2) % 2), by revert c; decide⟩

theorem zp_zp (c : Dev nD) : zp (zp c) = c := by revert c; decide
theorem xn_xn (c : Dev nD) : xn (xn c) = c := by revert c; decide
theorem yn_yn (c : Dev nD) : yn (yn c) = c := by revert c; decide
theorem zp_ne (c : Dev nD) : zp c ≠ c := by revert c; decide
theorem xn_ne (c : Dev nD) : xn c ≠ c := by revert c; decide
theorem yn_ne (c : Dev nD) : yn c ≠ c := by revert c; decide
theorem zp_ne_xn (c : Dev nD) : zp c ≠ xn c := by revert c; decide
theorem zp_ne_yn (c : Dev nD) : zp c ≠ yn c := by revert c; decide
theorem xn_ne_yn (c : Dev nD) : xn c ≠ yn c := by revert c; decide
theorem zp_xn (c : Dev nD) : zp (xn c) = xn (zp c) := by revert c; decide
theorem zp_yn (c : Dev nD) : zp (yn c) = yn (zp c) := by revert c; decide
theorem xn_yn (c : Dev nD) : xn (yn c) = yn (xn c) := by revert c; decide

def zpE : Dev nD ≃ Dev nD := ⟨zp, zp, zp_zp, zp_zp⟩
def xnE : Dev nD ≃ Dev nD := ⟨xn, xn, xn_xn, xn_xn⟩
def ynE : Dev nD ≃ Dev nD := ⟨yn, yn, yn_yn, yn_yn⟩

/-- A device the kernel names by a word it computed is the neighbour whose closed form that word has. -/
theorem dev_eq {n : Nat} (h : n < nD) (c' : Dev nD) (e : n = c'.val) : (⟨n, h⟩ : Dev nD) = c' := Fin.ext e

/-- The three closed forms the generated device chains reduce to. -/
theorem zp_val (c : Dev nD) : (zp c).val = (4 * (c.val / 4) + 2 * ((c.val / 2) % 2) + 1) - (c.val % 2) := rfl
theorem xn_val (c : Dev nD) : (xn c).val = (2 * ((c.val / 2) % 2) + (c.val % 2) + 4) - 4 * (c.val / 4) := rfl
theorem yn_val (c : Dev nD) : (yn c).val = (4 * (c.val / 4) + (c.val % 2) + 2) - 2 * ((c.val / 2) % 2) := rfl

end Cert.KernelIdeal.Rs

end
-- ==== Proof.Views.lean ====
/- The pieces of the buffers the kernel moves: 64-row blocks of the staging and landing buffers, the four
   quarter planes of the local copy. Each is the memref the program itself names, so that a statement about a
   piece is a statement about the program's own operand. -/
import proofs.«901030_g7700000000001031_dist_rs_v7x_xyz2x2x2_z_m4096_n1024_bf16_1_alg».proof.Proof.Gen.KernelIdeal.Skeleton
import proofs.«901030_g7700000000001031_dist_rs_v7x_xyz2x2x2_z_m4096_n1024_bf16_1_alg».proof.Proof.Mesh
import Idealize.ShloMosaic.Lib.Pipeline.Kit

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem inb16 (s : Fin 16) : ∀ a, (![64 * s.val, 0] : Fin 2 → Nat) a + S64x1024.size a ≤ S1024x1024.size a := by revert s; decide
theorem inb6 (j : Fin 6) : ∀ a, (![64 * j.val, 0] : Fin 2 → Nat) a + S64x1024.size a ≤ S384x1024.size a := by revert j; decide
theorem inb4 (k : Fin 4) : ∀ a, (![k.val, 0, 0] : Fin 3 → Nat) a + S1x1024x1024.size a ≤ S4x1024x1024.size a := by revert k; decide

/-- Block `s` (rows 64 s … 64 s + 63) of the f32 copy of the own quarter's other column half. -/
abbrev xqM (s : Fin 16) : Memref sig .tc .vmem S64x1024 .f32 := (Memref.whole cc0_scratch0).slice (Rect.unit (s := S1024x1024) ![64 * s.val, 0] S64x1024.size (inb16 s)) (fun _ => rfl)
/-- Block `j` of the f32 copy of the diagonal quarter's first six blocks. -/
abbrev xdM (j : Fin 6) : Memref sig .tc .vmem S64x1024 .f32 := (Memref.whole cc0_scratch1).slice (Rect.unit (s := S384x1024) ![64 * j.val, 0] S64x1024.size (inb6 j)) (fun _ => rfl)
/-- Plane `k` of the local copy of the own column half: quarter q, qy, qx, qd for k = 0, 1, 2, 3. -/
abbrev xlM (k : Fin 4) : Memref sig .tc .vmem S1024x1024 .f32 := ((Memref.whole cc0_scratch2).slice (Rect.unit (s := S4x1024x1024) ![k.val, 0, 0] S1x1024x1024.size (inb4 k)) (fun _ => rfl)).squeeze S1024x1024 squeezes_S1x1024x1024_S1024x1024
/-- Block `s` of the bf16 staging buffer sent to the z-partner (own quarter). -/
abbrev bA (s : Fin 16) : Memref sig .tc .vmem S64x1024 .bf16 := (Memref.whole cc0_scratch3).slice (Rect.unit (s := S1024x1024) ![64 * s.val, 0] S64x1024.size (inb16 s)) (fun _ => rfl)
/-- Block `j` of the bf16 staging buffer sent to the z-partner (diagonal quarter). -/
abbrev bD (j : Fin 6) : Memref sig .tc .vmem S64x1024 .bf16 := (Memref.whole cc0_scratch4).slice (Rect.unit (s := S384x1024) ![64 * j.val, 0] S64x1024.size (inb6 j)) (fun _ => rfl)
/-- Block `s` of the landing buffer the z-partner writes. -/
abbrev bQ (s : Fin 16) : Memref sig .tc .vmem S64x1024 .bf16 := (Memref.whole cc0_scratch5).slice (Rect.unit (s := S1024x1024) ![64 * s.val, 0] S64x1024.size (inb16 s)) (fun _ => rfl)
/-- Block `s` of the landing buffer the x-neighbour writes. -/
abbrev bX (s : Fin 16) : Memref sig .tc .vmem S64x1024 .bf16 := (Memref.whole cc0_scratch6).slice (Rect.unit (s := S1024x1024) ![64 * s.val, 0] S64x1024.size (inb16 s)) (fun _ => rfl)
/-- Block `s` of the landing buffer the y-neighbour writes. -/
abbrev bY (s : Fin 16) : Memref sig .tc .vmem S64x1024 .bf16 := (Memref.whole cc0_scratch7).slice (Rect.unit (s := S1024x1024) ![64 * s.val, 0] S64x1024.size (inb16 s)) (fun _ => rfl)
/-- Block `s` of the landing buffer of the diagonal quarter: blocks 0–5 from the z-partner, 6–10 from the
    x-neighbour, 11–15 from the y-neighbour. -/
abbrev bR (s : Fin 16) : Memref sig .tc .vmem S64x1024 .bf16 := (Memref.whole cc0_scratch8).slice (Rect.unit (s := S1024x1024) ![64 * s.val, 0] S64x1024.size (inb16 s)) (fun _ => rfl)

/-! ## The windows of the argument the local copies read, and the quarters of the result -/

/-- The 1024 × 1024 window of the argument that local copy `k` reads: rows of quarter q, qy, qx, qd (k = 0, 1, 2, 3),
    the device's own column half. -/
abbrev wL (c : Dev nD) (k : Fin 4) : Memref sig .tc .hbm S1024x1024 .f32 :=
  match k with
  | 0 => ((Memref.whole main_arg0).slice (Rect.unit (s := S1x4096x2048) (k0_off1 c) S1x1024x1024.size (k0_off1_inb c)) (fun _ => rfl)).squeeze S1024x1024 squeezes_S1x1024x1024_S1024x1024
  | 1 => ((Memref.whole main_arg0).slice (Rect.unit (s := S1x4096x2048) (k0_off2 c) S1x1024x1024.size (k0_off2_inb c)) (fun _ => rfl)).squeeze S1024x1024 squeezes_S1x1024x1024_S1024x1024
  | 2 => ((Memref.whole main_arg0).slice (Rect.unit (s := S1x4096x2048) (k0_off3 c) S1x1024x1024.size (k0_off3_inb c)) (fun _ => rfl)).squeeze S1024x1024 squeezes_S1x1024x1024_S1024x1024
  | 3 => ((Memref.whole main_arg0).slice (Rect.unit (s := S1x4096x2048) (k0_off4 c) S1x1024x1024.size (k0_off4_inb c)) (fun _ => rfl)).squeeze S1024x1024 squeezes_S1x1024x1024_S1024x1024
/-- The 64 × 1024 window block `s` of the own quarter, other column half. -/
abbrev wQ (c : Dev nD) (s : Fin 16) : Memref sig .tc .hbm S64x1024 .f32 :=
  ((Memref.whole main_arg0).slice (Rect.unit (s := S1x4096x2048) (k0_off5 c (BitVec.ofNat 32 (64 * s.val))) S1x64x1024.size (k0_off5_inb c s)) (fun _ => rfl)).squeeze S64x1024 squeezes_S1x64x1024_S64x1024
/-- The 64 × 1024 window block `j` of the diagonal quarter, other column half. -/
abbrev wD (c : Dev nD) (j : Fin 6) : Memref sig .tc .hbm S64x1024 .f32 :=
  ((Memref.whole main_arg0).slice (Rect.unit (s := S1x4096x2048) (k0_off6 c (BitVec.ofNat 32 (64 * j.val))) S1x64x1024.size (k0_off6_inb c j)) (fun _ => rfl)).squeeze S64x1024 squeezes_S1x64x1024_S64x1024

/-- Where quarter `k` (q, qy, qx, qd) of the result starts. -/
abbrev offO (c : Dev nD) (k : Fin 4) : Fin 2 → Nat := match k with | 0 => k0_off8 c | 1 => k0_off10 c | 2 => k0_off12 c | 3 => k0_off14 c
theorem offO_inb (c : Dev nD) (k : Fin 4) : ∀ a, (offO c k) a + S1024x1024.size a ≤ S4096x1024.size a :=
  match k with | 0 => k0_off8_inb c | 1 => k0_off10_inb c | 2 => k0_off12_inb c | 3 => k0_off14_inb c
/-- Quarter `k` of the result array, and of the VMEM buffer it is copied from. -/
abbrev oQ (c : Dev nD) (k : Fin 4) : Memref sig .tc .hbm S1024x1024 .bf16 := (Memref.whole main_v1).slice (Rect.unit (s := S4096x1024) (offO c k) S1024x1024.size (offO_inb c k)) (fun _ => rfl)
abbrev vQ (c : Dev nD) (k : Fin 4) : Memref sig .tc .vmem S1024x1024 .bf16 := (Memref.whole cc0_scratch9).slice (Rect.unit (s := S4096x1024) (offO c k) S1024x1024.size (offO_inb c k)) (fun _ => rfl)

/-- The credit one 64 × 1024 bf16 block's copy raises on its semaphore. -/
abbrev Nb : ℕ := (bQ 0).view.dmaCredit
theorem Nb_pos : 0 < Nb := View.dmaCredit_pos _ (by decide)

end Cert.KernelIdeal.Rs

end
-- ==== Proof.Proto.lean ====
/- The protocol of the reduce-scatter on the 2 × 2 × 2 mesh, as rounds of duties on semaphore cells.
   Every cell has one round. A device's barrier cell has three duties of one unit, one paid by each of the
   three neighbours that write into it; with its unit a neighbour receives nothing, and hands the owner the
   landing blocks the owner will write into on that neighbour. Each remote copy has a send cell on its issuer
   (one duty: the source block comes back) and a receive cell on its target (one duty: the landing block,
   holding what was sent). -/
import proofs.«901030_g7700000000001031_dist_rs_v7x_xyz2x2x2_z_m4096_n1024_bf16_1_alg».proof.Proof.Gen.KernelIdeal.Skeleton
import proofs.«901030_g7700000000001031_dist_rs_v7x_xyz2x2x2_z_m4096_n1024_bf16_1_alg».proof.Proof.Gen.KernelIdeal.Launch
import proofs.«901030_g7700000000001031_dist_rs_v7x_xyz2x2x2_z_m4096_n1024_bf16_1_alg».proof.Proof.Views
import Idealize.ShloMosaic.Lib.Pipeline.Launch
import Idealize.ShloMosaic.Lib.Pipeline.Kit
import Idealize.ShloMosaic.Lib.Tactic

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- Duty names: a barrier cell's three duties (0, 1, 2: paid by the z-partner, the x- and the y-neighbour); every
    other cell uses the name 0 alone. -/
abbrev DN : Type := Fin 3
abbrev UB : Type := URounds (GSem nD τ sig) DN
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## Cells -/

abbrev barS : Sem sig := (SemArray.scalar (sig.barrier 0 rfl) : Sems sig S_).sem
abbrev barCell (c : Dev nD) : GSem nD τ sig := ((c : Thread nD τ), .reg barS)
abbrev dcell (c : Dev nD) (n : Fin 158) : GSem nD τ sig := ((c : Thread nD τ), .dma n)

/-! ## What the blocks hold

Everything is a function of the eight devices' argument arrays `m (d, main_arg0)`. -/

variable (m : (ℓ : Loc nD τ sig) → Buf (Elt F) ℓ)

/-- The f32 block `s` of device `d`'s own quarter, other column half, as the local copy lands it. -/
def qV (d : Dev nD) (s : Fin 16) : S64x1024.Idx → Elt F .f32 :=
  ReadAs.same.apply (View.read (Elt F) (wQ d s).view (m ((d : Thread nD τ).loc main_arg0)))
/-- The f32 block `j` of device `d`'s diagonal quarter, other column half. -/
def dqV (d : Dev nD) (j : Fin 6) : S64x1024.Idx → Elt F .f32 :=
  ReadAs.same.apply (View.read (Elt F) (wD d j).view (m ((d : Thread nD τ).loc main_arg0)))
/-- The bf16 block device `d` sends its z-partner. -/
def aV (d : Dev nD) (s : Fin 16) : S64x1024.Idx → Elt F .bf16 := k0_pay1 (qV m d s)
def dV (d : Dev nD) (j : Fin 6) : S64x1024.Idx → Elt F .bf16 := k0_pay1 (dqV m d j)
/-- What device `c` receives from its z-partner. -/
def rqV (c : Dev nD) (s : Fin 16) : S64x1024.Idx → Elt F .bf16 := aV m (zp c) s

/-- Memref `M`'s elements on device `c` holding exactly the block `x`. -/
def ptr (c : Dev nD) {sp : Space} {S : Shape} {e : EltTy} (M : Memref sig .tc sp S e) (x : S.Idx → Elt F e) : sProp 𝕄 :=
  M.view.loc (c : Thread nD τ) ↦[M.view.set]{fullShare} M.view.rep x
theorem ptr_def (c : Dev nD) {sp : Space} {S : Shape} {e : EltTy} (M : Memref sig .tc sp S e) (x : S.Idx → Elt F e) :
    (ptr c M x : sProp 𝕄) = (M.view.loc (c : Thread nD τ) ↦[M.view.set]{fullShare} M.view.rep x) := rfl
/-- Memref `M`'s elements on device `c` at share `q`, at some contents. -/
def pex (c : Dev nD) (q : PosShare TreeShare) {sp : Space} {S : Shape} {e : EltTy} (M : Memref sig .tc sp S e) : sProp 𝕄 :=
  iprop(∃ f, M.view.loc (c : Thread nD τ) ↦[M.view.set]{q} f)
omit [FloatOps F] in
theorem pex_def (c : Dev nD) (q : PosShare TreeShare) {sp : Space} {S : Shape} {e : EltTy} (M : Memref sig .tc sp S e) :
    (pex c q M : sProp 𝕄) = iprop(∃ f, M.view.loc (c : Thread nD τ) ↦[M.view.set]{q} f) := rfl

/-- The shares a forwarded block is lent at: to the x-neighbour's copy, to the y-neighbour's copy; the rest stays
    with the device for its own load. -/
abbrev shX : PosShare TreeShare := fullShare.left
abbrev shY : PosShare TreeShare := fullShare.right.left
abbrev shK : PosShare TreeShare := fullShare.right.right

/-- What the send cell of copy `i` hands back: the source block, at the share it was lent. -/
def sendPay (c : Dev nD) (i : ℕ) : sProp 𝕄 :=
  if h : i < 16 then pex c fullShare (bA ⟨i, h⟩)
  else if h : i < 22 then pex c fullShare (bD ⟨i - 16, by omega⟩)
  else if h : i < 38 then pex c shX (bQ ⟨i - 22, by omega⟩)
  else if h : i < 54 then pex c shY (bQ ⟨i - 38, by omega⟩)
  else if h : i < 59 then pex c shX (bY ⟨i - 54 + 6, by omega⟩)
  else if h : i < 64 then pex c shY (bX ⟨i - 59 + 11, by omega⟩)
  else iprop(emp)

/-- What the receive cell of copy `i` hands its owner: the landing block, holding what was sent. -/
def recvPay (c : Dev nD) (i : ℕ) : sProp 𝕄 :=
  if h : i < 16 then ptr c (bQ ⟨i, h⟩) (rqV m c ⟨i, h⟩)
  else if h : i < 22 then ptr c (bR ⟨i - 16, by omega⟩) (dV m (zp c) ⟨i - 16, by omega⟩)
  else if h : i < 38 then ptr c (bX ⟨i - 22, by omega⟩) (rqV m (xn c) ⟨i - 22, by omega⟩)
  else if h : i < 54 then ptr c (bY ⟨i - 38, by omega⟩) (rqV m (yn c) ⟨i - 38, by omega⟩)
  else if h : i < 59 then ptr c (bR ⟨i - 54 + 6, by omega⟩) (rqV m (yn (xn c)) ⟨i - 54 + 6, by omega⟩)
  else if h : i < 64 then ptr c (bR ⟨i - 59 + 11, by omega⟩) (rqV m (xn (yn c)) ⟨i - 59 + 11, by omega⟩)
  else iprop(emp)

end Cert.KernelIdeal.Rs

end
-- ==== Proof.Lands.lean ====
import proofs.«901030_g7700000000001031_dist_rs_v7x_xyz2x2x2_z_m4096_n1024_bf16_1_alg».proof.Proof.Proto

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase

variable {F : FTy → Type} [FloatOps F]

local notation "𝕄" => MT nD τ sig Unit (Elt F) ℕ UU ℕ

/-- The landing blocks of device `n` that its z-partner will write: the sixteen blocks of its first landing buffer and blocks 0–5 of the diagonal one. -/
def landZ (n : Dev nD) : sProp 𝕄 := iprop(pex n fullShare (bQ 0) ∗ pex n fullShare (bQ 1) ∗ pex n fullShare (bQ 2) ∗ pex n fullShare (bQ 3) ∗ pex n fullShare (bQ 4) ∗ pex n fullShare (bQ 5) ∗ pex n fullShare (bQ 6) ∗ pex n fullShare (bQ 7) ∗ pex n fullShare (bQ 8) ∗ pex n fullShare (bQ 9) ∗ pex n fullShare (bQ 10) ∗ pex n fullShare (bQ 11) ∗ pex n fullShare (bQ 12) ∗ pex n fullShare (bQ 13) ∗ pex n fullShare (bQ 14) ∗ pex n fullShare (bQ 15) ∗ pex n fullShare (bR 0) ∗ pex n fullShare (bR 1) ∗ pex n fullShare (bR 2) ∗ pex n fullShare (bR 3) ∗ pex n fullShare (bR 4) ∗ pex n fullShare (bR 5))
/-- Those its x-neighbour will write: its second landing buffer and blocks 6–10 of the diagonal one. -/
def landX (n : Dev nD) : sProp 𝕄 := iprop(pex n fullShare (bX 0) ∗ pex n fullShare (bX 1) ∗ pex n fullShare (bX 2) ∗ pex n fullShare (bX 3) ∗ pex n fullShare (bX 4) ∗ pex n fullShare (bX 5) ∗ pex n fullShare (bX 6) ∗ pex n fullShare (bX 7) ∗ pex n fullShare (bX 8) ∗ pex n fullShare (bX 9) ∗ pex n fullShare (bX 10) ∗ pex n fullShare (bX 11) ∗ pex n fullShare (bX 12) ∗ pex n fullShare (bX 13) ∗ pex n fullShare (bX 14) ∗ pex n fullShare (bX 15) ∗ pex n fullShare (bR 6) ∗ pex n fullShare (bR 7) ∗ pex n fullShare (bR 8) ∗ pex n fullShare (bR 9) ∗ pex n fullShare (bR 10))
/-- Those its y-neighbour will write: its third landing buffer and blocks 11–15 of the diagonal one. -/
def landY (n : Dev nD) : sProp 𝕄 := iprop(pex n fullShare (bY 0) ∗ pex n fullShare (bY 1) ∗ pex n fullShare (bY 2) ∗ pex n fullShare (bY 3) ∗ pex n fullShare (bY 4) ∗ pex n fullShare (bY 5) ∗ pex n fullShare (bY 6) ∗ pex n fullShare (bY 7) ∗ pex n fullShare (bY 8) ∗ pex n fullShare (bY 9) ∗ pex n fullShare (bY 10) ∗ pex n fullShare (bY 11) ∗ pex n fullShare (bY 12) ∗ pex n fullShare (bY 13) ∗ pex n fullShare (bY 14) ∗ pex n fullShare (bY 15) ∗ pex n fullShare (bR 11) ∗ pex n fullShare (bR 12) ∗ pex n fullShare (bR 13) ∗ pex n fullShare (bR 14) ∗ pex n fullShare (bR 15))

omit [FloatOps F] in
theorem landZ_eq (n : Dev nD) : (landZ n : sProp 𝕄) = iprop(pex n fullShare (bQ 0) ∗ pex n fullShare (bQ 1) ∗ pex n fullShare (bQ 2) ∗ pex n fullShare (bQ 3) ∗ pex n fullShare (bQ 4) ∗ pex n fullShare (bQ 5) ∗ pex n fullShare (bQ 6) ∗ pex n fullShare (bQ 7) ∗ pex n fullShare (bQ 8) ∗ pex n fullShare (bQ 9) ∗ pex n fullShare (bQ 10) ∗ pex n fullShare (bQ 11) ∗ pex n fullShare (bQ 12) ∗ pex n fullShare (bQ 13) ∗ pex n fullShare (bQ 14) ∗ pex n fullShare (bQ 15) ∗ pex n fullShare (bR 0) ∗ pex n fullShare (bR 1) ∗ pex n fullShare (bR 2) ∗ pex n fullShare (bR 3) ∗ pex n fullShare (bR 4) ∗ pex n fullShare (bR 5)) := rfl
omit [FloatOps F] in
theorem landX_eq (n : Dev nD) : (landX n : sProp 𝕄) = iprop(pex n fullShare (bX 0) ∗ pex n fullShare (bX 1) ∗ pex n fullShare (bX 2) ∗ pex n fullShare (bX 3) ∗ pex n fullShare (bX 4) ∗ pex n fullShare (bX 5) ∗ pex n fullShare (bX 6) ∗ pex n fullShare (bX 7) ∗ pex n fullShare (bX 8) ∗ pex n fullShare (bX 9) ∗ pex n fullShare (bX 10) ∗ pex n fullShare (bX 11) ∗ pex n fullShare (bX 12) ∗ pex n fullShare (bX 13) ∗ pex n fullShare (bX 14) ∗ pex n fullShare (bX 15) ∗ pex n fullShare (bR 6) ∗ pex n fullShare (bR 7) ∗ pex n fullShare (bR 8) ∗ pex n fullShare (bR 9) ∗ pex n fullShare (bR 10)) := rfl
omit [FloatOps F] in
theorem landY_eq (n : Dev nD) : (landY n : sProp 𝕄) = iprop(pex n fullShare (bY 0) ∗ pex n fullShare (bY 1) ∗ pex n fullShare (bY 2) ∗ pex n fullShare (bY 3) ∗ pex n fullShare (bY 4) ∗ pex n fullShare (bY 5) ∗ pex n fullShare (bY 6) ∗ pex n fullShare (bY 7) ∗ pex n fullShare (bY 8) ∗ pex n fullShare (bY 9) ∗ pex n fullShare (bY 10) ∗ pex n fullShare (bY 11) ∗ pex n fullShare (bY 12) ∗ pex n fullShare (bY 13) ∗ pex n fullShare (bY 14) ∗ pex n fullShare (bY 15) ∗ pex n fullShare (bR 11) ∗ pex n fullShare (bR 12) ∗ pex n fullShare (bR 13) ∗ pex n fullShare (bR 14) ∗ pex n fullShare (bR 15)) := rfl

/-- The same blocks held at the contents `fq` / `fx` / `fy` of the landing buffer and `fr` of the diagonal one: what a device holds before it lends them. -/
def ownZ (n : Dev nD) (fq : Buf (Elt F) ((n : Thread nD τ).loc cc0_scratch5)) (fr : Buf (Elt F) ((n : Thread nD τ).loc cc0_scratch8)) : sProp 𝕄 := iprop(((bQ 0).view.loc (n : Thread nD τ) ↦[(bQ 0).view.set]{fullShare} fq) ∗ ((bQ 1).view.loc (n : Thread nD τ) ↦[(bQ 1).view.set]{fullShare} fq) ∗ ((bQ 2).view.loc (n : Thread nD τ) ↦[(bQ 2).view.set]{fullShare} fq) ∗ ((bQ 3).view.loc (n : Thread nD τ) ↦[(bQ 3).view.set]{fullShare} fq) ∗ ((bQ 4).view.loc (n : Thread nD τ) ↦[(bQ 4).view.set]{fullShare} fq) ∗ ((bQ 5).view.loc (n : Thread nD τ) ↦[(bQ 5).view.set]{fullShare} fq) ∗ ((bQ 6).view.loc (n : Thread nD τ) ↦[(bQ 6).view.set]{fullShare} fq) ∗ ((bQ 7).view.loc (n : Thread nD τ) ↦[(bQ 7).view.set]{fullShare} fq) ∗ ((bQ 8).view.loc (n : Thread nD τ) ↦[(bQ 8).view.set]{fullShare} fq) ∗ ((bQ 9).view.loc (n : Thread nD τ) ↦[(bQ 9).view.set]{fullShare} fq) ∗ ((bQ 10).view.loc (n : Thread nD τ) ↦[(bQ 10).view.set]{fullShare} fq) ∗ ((bQ 11).view.loc (n : Thread nD τ) ↦[(bQ 11).view.set]{fullShare} fq) ∗ ((bQ 12).view.loc (n : Thread nD τ) ↦[(bQ 12).view.set]{fullShare} fq) ∗ ((bQ 13).view.loc (n : Thread nD τ) ↦[(bQ 13).view.set]{fullShare} fq) ∗ ((bQ 14).view.loc (n : Thread nD τ) ↦[(bQ 14).view.set]{fullShare} fq) ∗ ((bQ 15).view.loc (n : Thread nD τ) ↦[(bQ 15).view.set]{fullShare} fq) ∗ ((bR 0).view.loc (n : Thread nD τ) ↦[(bR 0).view.set]{fullShare} fr) ∗ ((bR 1).view.loc (n : Thread nD τ) ↦[(bR 1).view.set]{fullShare} fr) ∗ ((bR 2).view.loc (n : Thread nD τ) ↦[(bR 2).view.set]{fullShare} fr) ∗ ((bR 3).view.loc (n : Thread nD τ) ↦[(bR 3).view.set]{fullShare} fr) ∗ ((bR 4).view.loc (n : Thread nD τ) ↦[(bR 4).view.set]{fullShare} fr) ∗ ((bR 5).view.loc (n : Thread nD τ) ↦[(bR 5).view.set]{fullShare} fr))
def ownX (n : Dev nD) (fx : Buf (Elt F) ((n : Thread nD τ).loc cc0_scratch6)) (fr : Buf (Elt F) ((n : Thread nD τ).loc cc0_scratch8)) : sProp 𝕄 := iprop(((bX 0).view.loc (n : Thread nD τ) ↦[(bX 0).view.set]{fullShare} fx) ∗ ((bX 1).view.loc (n : Thread nD τ) ↦[(bX 1).view.set]{fullShare} fx) ∗ ((bX 2).view.loc (n : Thread nD τ) ↦[(bX 2).view.set]{fullShare} fx) ∗ ((bX 3).view.loc (n : Thread nD τ) ↦[(bX 3).view.set]{fullShare} fx) ∗ ((bX 4).view.loc (n : Thread nD τ) ↦[(bX 4).view.set]{fullShare} fx) ∗ ((bX 5).view.loc (n : Thread nD τ) ↦[(bX 5).view.set]{fullShare} fx) ∗ ((bX 6).view.loc (n : Thread nD τ) ↦[(bX 6).view.set]{fullShare} fx) ∗ ((bX 7).view.loc (n : Thread nD τ) ↦[(bX 7).view.set]{fullShare} fx) ∗ ((bX 8).view.loc (n : Thread nD τ) ↦[(bX 8).view.set]{fullShare} fx) ∗ ((bX 9).view.loc (n : Thread nD τ) ↦[(bX 9).view.set]{fullShare} fx) ∗ ((bX 10).view.loc (n : Thread nD τ) ↦[(bX 10).view.set]{fullShare} fx) ∗ ((bX 11).view.loc (n : Thread nD τ) ↦[(bX 11).view.set]{fullShare} fx) ∗ ((bX 12).view.loc (n : Thread nD τ) ↦[(bX 12).view.set]{fullShare} fx) ∗ ((bX 13).view.loc (n : Thread nD τ) ↦[(bX 13).view.set]{fullShare} fx) ∗ ((bX 14).view.loc (n : Thread nD τ) ↦[(bX 14).view.set]{fullShare} fx) ∗ ((bX 15).view.loc (n : Thread nD τ) ↦[(bX 15).view.set]{fullShare} fx) ∗ ((bR 6).view.loc (n : Thread nD τ) ↦[(bR 6).view.set]{fullShare} fr) ∗ ((bR 7).view.loc (n : Thread nD τ) ↦[(bR 7).view.set]{fullShare} fr) ∗ ((bR 8).view.loc (n : Thread nD τ) ↦[(bR 8).view.set]{fullShare} fr) ∗ ((bR 9).view.loc (n : Thread nD τ) ↦[(bR 9).view.set]{fullShare} fr) ∗ ((bR 10).view.loc (n : Thread nD τ) ↦[(bR 10).view.set]{fullShare} fr))
def ownY (n : Dev nD) (fy : Buf (Elt F) ((n : Thread nD τ).loc cc0_scratch7)) (fr : Buf (Elt F) ((n : Thread nD τ).loc cc0_scratch8)) : sProp 𝕄 := iprop(((bY 0).view.loc (n : Thread nD τ) ↦[(bY 0).view.set]{fullShare} fy) ∗ ((bY 1).view.loc (n : Thread nD τ) ↦[(bY 1).view.set]{fullShare} fy) ∗ ((bY 2).view.loc (n : Thread nD τ) ↦[(bY 2).view.set]{fullShare} fy) ∗ ((bY 3).view.loc (n : Thread nD τ) ↦[(bY 3).view.set]{fullShare} fy) ∗ ((bY 4).view.loc (n : Thread nD τ) ↦[(bY 4).view.set]{fullShare} fy) ∗ ((bY 5).view.loc (n : Thread nD τ) ↦[(bY 5).view.set]{fullShare} fy) ∗ ((bY 6).view.loc (n : Thread nD τ) ↦[(bY 6).view.set]{fullShare} fy) ∗ ((bY 7).view.loc (n : Thread nD τ) ↦[(bY 7).view.set]{fullShare} fy) ∗ ((bY 8).view.loc (n : Thread nD τ) ↦[(bY 8).view.set]{fullShare} fy) ∗ ((bY 9).view.loc (n : Thread nD τ) ↦[(bY 9).view.set]{fullShare} fy) ∗ ((bY 10).view.loc (n : Thread nD τ) ↦[(bY 10).view.set]{fullShare} fy) ∗ ((bY 11).view.loc (n : Thread nD τ) ↦[(bY 11).view.set]{fullShare} fy) ∗ ((bY 12).view.loc (n : Thread nD τ) ↦[(bY 12).view.set]{fullShare} fy) ∗ ((bY 13).view.loc (n : Thread nD τ) ↦[(bY 13).view.set]{fullShare} fy) ∗ ((bY 14).view.loc (n : Thread nD τ) ↦[(bY 14).view.set]{fullShare} fy) ∗ ((bY 15).view.loc (n : Thread nD τ) ↦[(bY 15).view.set]{fullShare} fy) ∗ ((bR 11).view.loc (n : Thread nD τ) ↦[(bR 11).view.set]{fullShare} fr) ∗ ((bR 12).view.loc (n : Thread nD τ) ↦[(bR 12).view.set]{fullShare} fr) ∗ ((bR 13).view.loc (n : Thread nD τ) ↦[(bR 13).view.set]{fullShare} fr) ∗ ((bR 14).view.loc (n : Thread nD τ) ↦[(bR 14).view.set]{fullShare} fr) ∗ ((bR 15).view.loc (n : Thread nD τ) ↦[(bR 15).view.set]{fullShare} fr))
omit [FloatOps F] in
theorem ownZ_eq (n : Dev nD) (fq : Buf (Elt F) ((n : Thread nD τ).loc cc0_scratch5)) (fr : Buf (Elt F) ((n : Thread nD τ).loc cc0_scratch8)) : (ownZ n fq fr : sProp 𝕄) = iprop(((bQ 0).view.loc (n : Thread nD τ) ↦[(bQ 0).view.set]{fullShare} fq) ∗ ((bQ 1).view.loc (n : Thread nD τ) ↦[(bQ 1).view.set]{fullShare} fq) ∗ ((bQ 2).view.loc (n : Thread nD τ) ↦[(bQ 2).view.set]{fullShare} fq) ∗ ((bQ 3).view.loc (n : Thread nD τ) ↦[(bQ 3).view.set]{fullShare} fq) ∗ ((bQ 4).view.loc (n : Thread nD τ) ↦[(bQ 4).view.set]{fullShare} fq) ∗ ((bQ 5).view.loc (n : Thread nD τ) ↦[(bQ 5).view.set]{fullShare} fq) ∗ ((bQ 6).view.loc (n : Thread nD τ) ↦[(bQ 6).view.set]{fullShare} fq) ∗ ((bQ 7).view.loc (n : Thread nD τ) ↦[(bQ 7).view.set]{fullShare} fq) ∗ ((bQ 8).view.loc (n : Thread nD τ) ↦[(bQ 8).view.set]{fullShare} fq) ∗ ((bQ 9).view.loc (n : Thread nD τ) ↦[(bQ 9).view.set]{fullShare} fq) ∗ ((bQ 10).view.loc (n : Thread nD τ) ↦[(bQ 10).view.set]{fullShare} fq) ∗ ((bQ 11).view.loc (n : Thread nD τ) ↦[(bQ 11).view.set]{fullShare} fq) ∗ ((bQ 12).view.loc (n : Thread nD τ) ↦[(bQ 12).view.set]{fullShare} fq) ∗ ((bQ 13).view.loc (n : Thread nD τ) ↦[(bQ 13).view.set]{fullShare} fq) ∗ ((bQ 14).view.loc (n : Thread nD τ) ↦[(bQ 14).view.set]{fullShare} fq) ∗ ((bQ 15).view.loc (n : Thread nD τ) ↦[(bQ 15).view.set]{fullShare} fq) ∗ ((bR 0).view.loc (n : Thread nD τ) ↦[(bR 0).view.set]{fullShare} fr) ∗ ((bR 1).view.loc (n : Thread nD τ) ↦[(bR 1).view.set]{fullShare} fr) ∗ ((bR 2).view.loc (n : Thread nD τ) ↦[(bR 2).view.set]{fullShare} fr) ∗ ((bR 3).view.loc (n : Thread nD τ) ↦[(bR 3).view.set]{fullShare} fr) ∗ ((bR 4).view.loc (n : Thread nD τ) ↦[(bR 4).view.set]{fullShare} fr) ∗ ((bR 5).view.loc (n : Thread nD τ) ↦[(bR 5).view.set]{fullShare} fr)) := rfl
omit [FloatOps F] in
theorem ownX_eq (n : Dev nD) (fx : Buf (Elt F) ((n : Thread nD τ).loc cc0_scratch6)) (fr : Buf (Elt F) ((n : Thread nD τ).loc cc0_scratch8)) : (ownX n fx fr : sProp 𝕄) = iprop(((bX 0).view.loc (n : Thread nD τ) ↦[(bX 0).view.set]{fullShare} fx) ∗ ((bX 1).view.loc (n : Thread nD τ) ↦[(bX 1).view.set]{fullShare} fx) ∗ ((bX 2).view.loc (n : Thread nD τ) ↦[(bX 2).view.set]{fullShare} fx) ∗ ((bX 3).view.loc (n : Thread nD τ) ↦[(bX 3).view.set]{fullShare} fx) ∗ ((bX 4).view.loc (n : Thread nD τ) ↦[(bX 4).view.set]{fullShare} fx) ∗ ((bX 5).view.loc (n : Thread nD τ) ↦[(bX 5).view.set]{fullShare} fx) ∗ ((bX 6).view.loc (n : Thread nD τ) ↦[(bX 6).view.set]{fullShare} fx) ∗ ((bX 7).view.loc (n : Thread nD τ) ↦[(bX 7).view.set]{fullShare} fx) ∗ ((bX 8).view.loc (n : Thread nD τ) ↦[(bX 8).view.set]{fullShare} fx) ∗ ((bX 9).view.loc (n : Thread nD τ) ↦[(bX 9).view.set]{fullShare} fx) ∗ ((bX 10).view.loc (n : Thread nD τ) ↦[(bX 10).view.set]{fullShare} fx) ∗ ((bX 11).view.loc (n : Thread nD τ) ↦[(bX 11).view.set]{fullShare} fx) ∗ ((bX 12).view.loc (n : Thread nD τ) ↦[(bX 12).view.set]{fullShare} fx) ∗ ((bX 13).view.loc (n : Thread nD τ) ↦[(bX 13).view.set]{fullShare} fx) ∗ ((bX 14).view.loc (n : Thread nD τ) ↦[(bX 14).view.set]{fullShare} fx) ∗ ((bX 15).view.loc (n : Thread nD τ) ↦[(bX 15).view.set]{fullShare} fx) ∗ ((bR 6).view.loc (n : Thread nD τ) ↦[(bR 6).view.set]{fullShare} fr) ∗ ((bR 7).view.loc (n : Thread nD τ) ↦[(bR 7).view.set]{fullShare} fr) ∗ ((bR 8).view.loc (n : Thread nD τ) ↦[(bR 8).view.set]{fullShare} fr) ∗ ((bR 9).view.loc (n : Thread nD τ) ↦[(bR 9).view.set]{fullShare} fr) ∗ ((bR 10).view.loc (n : Thread nD τ) ↦[(bR 10).view.set]{fullShare} fr)) := rfl
omit [FloatOps F] in
theorem ownY_eq (n : Dev nD) (fy : Buf (Elt F) ((n : Thread nD τ).loc cc0_scratch7)) (fr : Buf (Elt F) ((n : Thread nD τ).loc cc0_scratch8)) : (ownY n fy fr : sProp 𝕄) = iprop(((bY 0).view.loc (n : Thread nD τ) ↦[(bY 0).view.set]{fullShare} fy) ∗ ((bY 1).view.loc (n : Thread nD τ) ↦[(bY 1).view.set]{fullShare} fy) ∗ ((bY 2).view.loc (n : Thread nD τ) ↦[(bY 2).view.set]{fullShare} fy) ∗ ((bY 3).view.loc (n : Thread nD τ) ↦[(bY 3).view.set]{fullShare} fy) ∗ ((bY 4).view.loc (n : Thread nD τ) ↦[(bY 4).view.set]{fullShare} fy) ∗ ((bY 5).view.loc (n : Thread nD τ) ↦[(bY 5).view.set]{fullShare} fy) ∗ ((bY 6).view.loc (n : Thread nD τ) ↦[(bY 6).view.set]{fullShare} fy) ∗ ((bY 7).view.loc (n : Thread nD τ) ↦[(bY 7).view.set]{fullShare} fy) ∗ ((bY 8).view.loc (n : Thread nD τ) ↦[(bY 8).view.set]{fullShare} fy) ∗ ((bY 9).view.loc (n : Thread nD τ) ↦[(bY 9).view.set]{fullShare} fy) ∗ ((bY 10).view.loc (n : Thread nD τ) ↦[(bY 10).view.set]{fullShare} fy) ∗ ((bY 11).view.loc (n : Thread nD τ) ↦[(bY 11).view.set]{fullShare} fy) ∗ ((bY 12).view.loc (n : Thread nD τ) ↦[(bY 12).view.set]{fullShare} fy) ∗ ((bY 13).view.loc (n : Thread nD τ) ↦[(bY 13).view.set]{fullShare} fy) ∗ ((bY 14).view.loc (n : Thread nD τ) ↦[(bY 14).view.set]{fullShare} fy) ∗ ((bY 15).view.loc (n : Thread nD τ) ↦[(bY 15).view.set]{fullShare} fy) ∗ ((bR 11).view.loc (n : Thread nD τ) ↦[(bR 11).view.set]{fullShare} fr) ∗ ((bR 12).view.loc (n : Thread nD τ) ↦[(bR 12).view.set]{fullShare} fr) ∗ ((bR 13).view.loc (n : Thread nD τ) ↦[(bR 13).view.set]{fullShare} fr) ∗ ((bR 14).view.loc (n : Thread nD τ) ↦[(bR 14).view.set]{fullShare} fr) ∗ ((bR 15).view.loc (n : Thread nD τ) ↦[(bR 15).view.set]{fullShare} fr)) := rfl

end Cert.KernelIdeal.Rs

end
-- ==== Proof.Sched.lean ====
/- The schedule of the protocol: one round on every cell, and its tables. -/
import proofs.«901030_g7700000000001031_dist_rs_v7x_xyz2x2x2_z_m4096_n1024_bf16_1_alg».proof.Proof.Lands

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule: one round on every cell -/

def Rd : Rounds.Schedule (GSem nD τ sig) DN 𝕄 where
  duties g r :=
    if r = 0 ∧ g.1.2 = .tc then
      (match g.2 with
        | .reg _ => Finset.univ
        | .dma n => if 30 ≤ n.val then {0} else ∅)
    else ∅
  unitless _ := False
  amount g _ _ := match g.2 with | .reg _ => 1 | .dma _ => Nb
  payload g _ d :=
    match g.2 with
    | .reg _ => (match d with | 0 => landZ (zp g.1.1) | 1 => landX (xn g.1.1) | 2 => landY (yn g.1.1))
    | .dma n => if n.val < 94 then sendPay g.1.1 (n.val - 30) else recvPay m g.1.1 (n.val - 94)
  amount_pos g _ _ _ := by
    cases g.2 with
    | reg _ => exact Nat.one_pos
    | dma _ => exact Nb_pos

/-! ## The schedule's tables -/

section Tables
variable (c : Dev nD)

omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem duties_bar : (Rd m).duties (barCell c) 0 = Finset.univ := by
  dsimp only [Rd]; exact if_pos ⟨rfl, rfl⟩
theorem duties_dma (n : Fin 158) (h : 30 ≤ n.val) : (Rd m).duties (dcell c n) 0 = {0} := by
  dsimp only [Rd]; rw [if_pos ⟨rfl, rfl⟩]; exact if_pos h
theorem duties_later (g : GSem nD τ sig) : ∀ r, 1 ≤ r → (Rd m).duties g r = ∅ :=
  fun r hr => by dsimp only [Rd]; exact if_neg fun h => by omega
theorem amount_bar (d : DN) : (Rd m).amount (barCell c) 0 d = 1 := rfl
theorem amount_dma (n : Fin 158) (d : DN) : (Rd m).amount (dcell c n) 0 d = Nb := rfl
theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_dma (n : Fin 158) (h : 30 ≤ n.val) : (Rd m).expect (dcell c n) 0 = Nb := by
  unfold Schedule.expect Schedule.amountOf; rw [duties_dma m c n h, Finset.sum_singleton, amount_dma]
theorem payload_bar0 : (Rd m).payload (barCell c) 0 0 = landZ (zp c) := rfl
theorem payload_bar1 : (Rd m).payload (barCell c) 0 1 = landX (xn c) := rfl
theorem payload_bar2 : (Rd m).payload (barCell c) 0 2 = landY (yn c) := rfl
theorem payload_send (n : Fin 158) (h : n.val < 94) (d : DN) : (Rd m).payload (dcell c n) 0 d = sendPay c (n.val - 30) := by
  dsimp only [Rd]; exact if_pos h
theorem payload_recv (n : Fin 158) (h : 94 ≤ n.val) (d : DN) : (Rd m).payload (dcell c n) 0 d = recvPay m c (n.val - 94) := by
  dsimp only [Rd]; exact if_neg (by omega)

end Tables

end Cert.KernelIdeal.Rs

end
-- ==== Proof.Devs.lean ====
import proofs.«901030_g7700000000001031_dist_rs_v7x_xyz2x2x2_z_m4096_n1024_bf16_1_alg».proof.Proof.Mesh
import Idealize.ShloMosaic.Lib.Tactic

namespace Cert.KernelIdeal.Rs

open Cert.KernelIdeal Cert.KernelIdeal.Gen Idealize.ShloMosaic

/-! Each device the kernel addresses, computed from its own position, is one of its three neighbours. -/

@[sl_canon] theorem dev1_eq (c : Dev nD) : (⟨k0_dev1 c, k0_dev1_lt c⟩ : Dev nD) = zp c := dev_eq _ _ (k0_dev1_eq c)
@[sl_canon] theorem dev2_eq (c : Dev nD) : (⟨k0_dev2 c, k0_dev2_lt c⟩ : Dev nD) = xn c := dev_eq _ _ (k0_dev2_eq c)
@[sl_canon] theorem dev3_eq (c : Dev nD) : (⟨k0_dev3 c, k0_dev3_lt c⟩ : Dev nD) = yn c := dev_eq _ _ (k0_dev3_eq c)
@[sl_canon] theorem dev4_eq (c : Dev nD) : (⟨k0_dev4 c, k0_dev4_lt c⟩ : Dev nD) = zp c := dev_eq _ _ (k0_dev4_eq c)
@[sl_canon] theorem dev5_eq (c : Dev nD) : (⟨k0_dev5 c, k0_dev5_lt c⟩ : Dev nD) = zp c := dev_eq _ _ (k0_dev5_eq c)
@[sl_canon] theorem dev6_eq (c : Dev nD) : (⟨k0_dev6 c, k0_dev6_lt c⟩ : Dev nD) = zp c := dev_eq _ _ (k0_dev6_eq c)
@[sl_canon] theorem dev7_eq (c : Dev nD) : (⟨k0_dev7 c, k0_dev7_lt c⟩ : Dev nD) = zp c := dev_eq _ _ (k0_dev7_eq c)
@[sl_canon] theorem dev8_eq (c : Dev nD) : (⟨k0_dev8 c, k0_dev8_lt c⟩ : Dev nD) = zp c := dev_eq _ _ (k0_dev8_eq c)
@[sl_canon] theorem dev9_eq (c : Dev nD) : (⟨k0_dev9 c, k0_dev9_lt c⟩ : Dev nD) = zp c := dev_eq _ _ (k0_dev9_eq c)
@[sl_canon] theorem dev10_eq (c : Dev nD) : (⟨k0_dev10 c, k0_dev10_lt c⟩ : Dev nD) = zp c := dev_eq _ _ (k0_dev10_eq c)
@[sl_canon] theorem dev11_eq (c : Dev nD) : (⟨k0_dev11 c, k0_dev11_lt c⟩ : Dev nD) = zp c := dev_eq _ _ (k0_dev11_eq c)
@[sl_canon] theorem dev12_eq (c : Dev nD) : (⟨k0_dev12 c, k0_dev12_lt c⟩ : Dev nD) = zp c := dev_eq _ _ (k0_dev12_eq c)
@[sl_canon] theorem dev13_eq (c : Dev nD) : (⟨k0_dev13 c, k0_dev13_lt c⟩ : Dev nD) = zp c := dev_eq _ _ (k0_dev13_eq c)
@[sl_canon] theorem dev14_eq (c : Dev nD) : (⟨k0_dev14 c, k0_dev14_lt c⟩ : Dev nD) = zp c := dev_eq _ _ (k0_dev14_eq c)
@[sl_canon] theorem dev15_eq (c : Dev nD) : (⟨k0_dev15 c, k0_dev15_lt c⟩ : Dev nD) = zp c := dev_eq _ _ (k0_dev15_eq c)
@[sl_canon] theorem dev16_eq (c : Dev nD) : (⟨k0_dev16 c, k0_dev16_lt c⟩ : Dev nD) = zp c := dev_eq _ _ (k0_dev16_eq c)
@[sl_canon] theorem dev17_eq (c : Dev nD) : (⟨k0_dev17 c, k0_dev17_lt c⟩ : Dev nD) = zp c := dev_eq _ _ (k0_dev17_eq c)
@[sl_canon] theorem dev18_eq (c : Dev nD) : (⟨k0_dev18 c, k0_dev18_lt c⟩ : Dev nD) = zp c := dev_eq _ _ (k0_dev18_eq c)
@[sl_canon] theorem dev19_eq (c : Dev nD) : (⟨k0_dev19 c, k0_dev19_lt c⟩ : Dev nD) = zp c := dev_eq _ _ (k0_dev19_eq c)
@[sl_canon] theorem dev20_eq (c : Dev nD) : (⟨k0_dev20 c, k0_dev20_lt c⟩ : Dev nD) = zp c := dev_eq _ _ (k0_dev20_eq c)
@[sl_canon] theorem dev21_eq (c : Dev nD) : (⟨k0_dev21 c, k0_dev21_lt c⟩ : Dev nD) = zp c := dev_eq _ _ (k0_dev21_eq c)
@[sl_canon] theorem dev22_eq (c : Dev nD) : (⟨k0_dev22 c, k0_dev22_lt c⟩ : Dev nD) = zp c := dev_eq _ _ (k0_dev22_eq c)
@[sl_canon] theorem dev23_eq (c : Dev nD) : (⟨k0_dev23 c, k0_dev23_lt c⟩ : Dev nD) = zp c := dev_eq _ _ (k0_dev23_eq c)
@[sl_canon] theorem dev24_eq (c : Dev nD) : (⟨k0_dev24 c, k0_dev24_lt c⟩ : Dev nD) = zp c := dev_eq _ _ (k0_dev24_eq c)
@[sl_canon] theorem dev25_eq (c : Dev nD) : (⟨k0_dev25 c, k0_dev25_lt c⟩ : Dev nD) = zp c := dev_eq _ _ (k0_dev25_eq c)
@[sl_canon] theorem dev26_eq (c : Dev nD) : (⟨k0_dev26 c, k0_dev26_lt c⟩ : Dev nD) = xn c := dev_eq _ _ (k0_dev26_eq c)
@[sl_canon] theorem dev27_eq (c : Dev nD) : (⟨k0_dev27 c, k0_dev27_lt c⟩ : Dev nD) = yn c := dev_eq _ _ (k0_dev27_eq c)
@[sl_canon] theorem dev28_eq (c : Dev nD) : (⟨k0_dev28 c, k0_dev28_lt c⟩ : Dev nD) = xn c := dev_eq _ _ (k0_dev28_eq c)
@[sl_canon] theorem dev29_eq (c : Dev nD) : (⟨k0_dev29 c, k0_dev29_lt c⟩ : Dev nD) = yn c := dev_eq _ _ (k0_dev29_eq c)
@[sl_canon] theorem dev30_eq (c : Dev nD) : (⟨k0_dev30 c, k0_dev30_lt c⟩ : Dev nD) = xn c := dev_eq _ _ (k0_dev30_eq c)
@[sl_canon] theorem dev31_eq (c : Dev nD) : (⟨k0_dev31 c, k0_dev31_lt c⟩ : Dev nD) = yn c := dev_eq _ _ (k0_dev31_eq c)
@[sl_canon] theorem dev32_eq (c : Dev nD) : (⟨k0_dev32 c, k0_dev32_lt c⟩ : Dev nD) = xn c := dev_eq _ _ (k0_dev32_eq c)
@[sl_canon] theorem dev33_eq (c : Dev nD) : (⟨k0_dev33 c, k0_dev33_lt c⟩ : Dev nD) = yn c := dev_eq _ _ (k0_dev33_eq c)
@[sl_canon] theorem dev34_eq (c : Dev nD) : (⟨k0_dev34 c, k0_dev34_lt c⟩ : Dev nD) = xn c := dev_eq _ _ (k0_dev34_eq c)
@[sl_canon] theorem dev35_eq (c : Dev nD) : (⟨k0_dev35 c, k0_dev35_lt c⟩ : Dev nD) = yn c := dev_eq _ _ (k0_dev35_eq c)
@[sl_canon] theorem dev36_eq (c : Dev nD) : (⟨k0_dev36 c, k0_dev36_lt c⟩ : Dev nD) = xn c := dev_eq _ _ (k0_dev36_eq c)
@[sl_canon] theorem dev37_eq (c : Dev nD) : (⟨k0_dev37 c, k0_dev37_lt c⟩ : Dev nD) = yn c := dev_eq _ _ (k0_dev37_eq c)
@[sl_canon] theorem dev38_eq (c : Dev nD) : (⟨k0_dev38 c, k0_dev38_lt c⟩ : Dev nD) = xn c := dev_eq _ _ (k0_dev38_eq c)
@[sl_canon] theorem dev39_eq (c : Dev nD) : (⟨k0_dev39 c, k0_dev39_lt c⟩ : Dev nD) = yn c := dev_eq _ _ (k0_dev39_eq c)
@[sl_canon] theorem dev40_eq (c : Dev nD) : (⟨k0_dev40 c, k0_dev40_lt c⟩ : Dev nD) = xn c := dev_eq _ _ (k0_dev40_eq c)
@[sl_canon] theorem dev41_eq (c : Dev nD) : (⟨k0_dev41 c, k0_dev41_lt c⟩ : Dev nD) = yn c := dev_eq _ _ (k0_dev41_eq c)
@[sl_canon] theorem dev42_eq (c : Dev nD) : (⟨k0_dev42 c, k0_dev42_lt c⟩ : Dev nD) = xn c := dev_eq _ _ (k0_dev42_eq c)
@[sl_canon] theorem dev43_eq (c : Dev nD) : (⟨k0_dev43 c, k0_dev43_lt c⟩ : Dev nD) = yn c := dev_eq _ _ (k0_dev43_eq c)
@[sl_canon] theorem dev44_eq (c : Dev nD) : (⟨k0_dev44 c, k0_dev44_lt c⟩ : Dev nD) = xn c := dev_eq _ _ (k0_dev44_eq c)
@[sl_canon] theorem dev45_eq (c : Dev nD) : (⟨k0_dev45 c, k0_dev45_lt c⟩ : Dev nD) = yn c := dev_eq _ _ (k0_dev45_eq c)
@[sl_canon] theorem dev46_eq (c : Dev nD) : (⟨k0_dev46 c, k0_dev46_lt c⟩ : Dev nD) = xn c := dev_eq _ _ (k0_dev46_eq c)
@[sl_canon] theorem dev47_eq (c : Dev nD) : (⟨k0_dev47 c, k0_dev47_lt c⟩ : Dev nD) = yn c := dev_eq _ _ (k0_dev47_eq c)
@[sl_canon] theorem dev48_eq (c : Dev nD) : (⟨k0_dev48 c, k0_dev48_lt c⟩ : Dev nD) = xn c := dev_eq _ _ (k0_dev48_eq c)
@[sl_canon] theorem dev49_eq (c : Dev nD) : (⟨k0_dev49 c, k0_dev49_lt c⟩ : Dev nD) = yn c := dev_eq _ _ (k0_dev49_eq c)
@[sl_canon] theorem dev50_eq (c : Dev nD) : (⟨k0_dev50 c, k0_dev50_lt c⟩ : Dev nD) = xn c := dev_eq _ _ (k0_dev50_eq c)
@[sl_canon] theorem dev51_eq (c : Dev nD) : (⟨k0_dev51 c, k0_dev51_lt c⟩ : Dev nD) = yn c := dev_eq _ _ (k0_dev51_eq c)
@[sl_canon] theorem dev52_eq (c : Dev nD) : (⟨k0_dev52 c, k0_dev52_lt c⟩ : Dev nD) = xn c := dev_eq _ _ (k0_dev52_eq c)
@[sl_canon] theorem dev53_eq (c : Dev nD) : (⟨k0_dev53 c, k0_dev53_lt c⟩ : Dev nD) = yn c := dev_eq _ _ (k0_dev53_eq c)
@[sl_canon] theorem dev54_eq (c : Dev nD) : (⟨k0_dev54 c, k0_dev54_lt c⟩ : Dev nD) = xn c := dev_eq _ _ (k0_dev54_eq c)
@[sl_canon] theorem dev55_eq (c : Dev nD) : (⟨k0_dev55 c, k0_dev55_lt c⟩ : Dev nD) = yn c := dev_eq _ _ (k0_dev55_eq c)
@[sl_canon] theorem dev56_eq (c : Dev nD) : (⟨k0_dev56 c, k0_dev56_lt c⟩ : Dev nD) = xn c := dev_eq _ _ (k0_dev56_eq c)
@[sl_canon] theorem dev57_eq (c : Dev nD) : (⟨k0_dev57 c, k0_dev57_lt c⟩ : Dev nD) = yn c := dev_eq _ _ (k0_dev57_eq c)
@[sl_canon] theorem dev58_eq (c : Dev nD) : (⟨k0_dev58 c, k0_dev58_lt c⟩ : Dev nD) = xn c := dev_eq _ _ (k0_dev58_eq c)
@[sl_canon] theorem dev59_eq (c : Dev nD) : (⟨k0_dev59 c, k0_dev59_lt c⟩ : Dev nD) = xn c := dev_eq _ _ (k0_dev59_eq c)
@[sl_canon] theorem dev60_eq (c : Dev nD) : (⟨k0_dev60 c, k0_dev60_lt c⟩ : Dev nD) = xn c := dev_eq _ _ (k0_dev60_eq c)
@[sl_canon] theorem dev61_eq (c : Dev nD) : (⟨k0_dev61 c, k0_dev61_lt c⟩ : Dev nD) = xn c := dev_eq _ _ (k0_dev61_eq c)
@[sl_canon] theorem dev62_eq (c : Dev nD) : (⟨k0_dev62 c, k0_dev62_lt c⟩ : Dev nD) = xn c := dev_eq _ _ (k0_dev62_eq c)
@[sl_canon] theorem dev63_eq (c : Dev nD) : (⟨k0_dev63 c, k0_dev63_lt c⟩ : Dev nD) = yn c := dev_eq _ _ (k0_dev63_eq c)
@[sl_canon] theorem dev64_eq (c : Dev nD) : (⟨k0_dev64 c, k0_dev64_lt c⟩ : Dev nD) = yn c := dev_eq _ _ (k0_dev64_eq c)
@[sl_canon] theorem dev65_eq (c : Dev nD) : (⟨k0_dev65 c, k0_dev65_lt c⟩ : Dev nD) = yn c := dev_eq _ _ (k0_dev65_eq c)
@[sl_canon] theorem dev66_eq (c : Dev nD) : (⟨k0_dev66 c, k0_dev66_lt c⟩ : Dev nD) = yn c := dev_eq _ _ (k0_dev66_eq c)
@[sl_canon] theorem dev67_eq (c : Dev nD) : (⟨k0_dev67 c, k0_dev67_lt c⟩ : Dev nD) = yn c := dev_eq _ _ (k0_dev67_eq c)

end Cert.KernelIdeal.Rs
-- ==== Proof.BodySpec.lean ====
/- What one device's kernel body starts from and ends with: the interface between the body's proof and the launch.
   The ghost state: every cell's invariant and that its (only) round is reached, known to every device; the device's
   positions on its own cells; the tokens of the duties it pays. What it owes at launch: one unit on each of its
   three neighbours' barrier cells and a block's credit on the receive cell of each of its 64 copies. -/
import proofs.«901030_g7700000000001031_dist_rs_v7x_xyz2x2x2_z_m4096_n1024_bf16_1_alg».proof.Proof.Sched
import proofs.«901030_g7700000000001031_dist_rs_v7x_xyz2x2x2_z_m4096_n1024_bf16_1_alg».proof.Proof.Devs

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The semaphores of the remote copies: 30–93 send, 94–157 receive; copy `i` goes to (and comes from) `pr i`. -/
abbrev sN (i : Fin 64) : Fin 158 := ⟨30 + i.val, by omega⟩
abbrev rN (i : Fin 64) : Fin 158 := ⟨94 + i.val, by omega⟩
def pr (i : Fin 64) (c : Dev nD) : Dev nD :=
  if i.val < 22 then zp c else if i.val < 38 then xn c else if i.val < 54 then yn c else if i.val < 59 then xn c else yn c
theorem pr_pr (i : Fin 64) (c : Dev nD) : pr i (pr i c) = c := by
  unfold pr; split_ifs <;> first | exact zp_zp c | exact xn_xn c | exact yn_yn c

/-- The cells of the protocol on one device: its barrier cell, its 64 send cells, its 64 receive cells. -/
abbrev CK : Type := Unit ⊕ (Fin 64 ⊕ Fin 64)
def ckSem : CK → SemLoc sig
  | .inl _ => .reg barS
  | .inr (.inl i) => .dma (sN i)
  | .inr (.inr i) => .dma (rN i)
abbrev kcell (ck : Dev nD × CK) : GSem nD τ sig := ((ck.1 : Thread nD τ), ckSem ck.2)

/-- Known to every device: every cell's invariant, at the names `K`, and that its round 0 is reached. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)
instance records_persistent (K : Dev nD × CK → ℕ) : BI.Persistent (records m K) := by unfold records; infer_instance

/-- The device's positions on its own 129 cells. -/
def positions (c : Dev nD) : sProp 𝕄 := bigSep Finset.univ fun k : CK => atPos ER (kcell (c, k)) 0 ∅ 0
/-- The tokens of the duties device `c` pays: on its neighbours' barrier cells (it is the z-partner of its z-partner: duty
    0; the x-neighbour of its x-neighbour: duty 1; likewise 2), on its own send cells, on its copies' receive cells. -/
def payToks (c : Dev nD) : sProp 𝕄 :=
  iprop(dutyTok ER (barCell (zp c)) 0 0 ∗ dutyTok ER (barCell (xn c)) 0 1 ∗ dutyTok ER (barCell (yn c)) 0 2
    ∗ (bigSep Finset.univ fun i : Fin 64 => dutyTok ER (dcell c (sN i)) 0 0)
    ∗ bigSep Finset.univ fun i : Fin 64 => dutyTok ER (dcell (pr i c) (rN i)) 0 0)
def ghost (K : Dev nD × CK → ℕ) (c : Dev nD) : sProp 𝕄 := iprop(records m K ∗ positions c ∗ payToks c)

/-- What device `c` owes at launch. -/
def O₀ (c : Dev nD) : CellTallies nD τ sig Unit :=
  (∑ i : Fin 64, tallyAt (dcell (pr i c) (rN i)) () Nb) + tallyAt (barCell (yn c)) () 1 + tallyAt (barCell (xn c)) () 1 + tallyAt (barCell (zp c)) () 1

/-- Levels: local copies' cells and send cells lowest, the barrier above them, then the receive cells in the order
    the data flows: from the z-partner, forwarded once, forwarded twice. -/
def L (g : GSem nD τ sig) : Finset Unit := if g.1.2 = .tc then {()} else ∅
def lv (g : GSem nD τ sig) (_ : Unit) : ℕ :=
  match g.2 with
  | .reg _ => 1
  | .dma n => if n.val < 94 then 0 else if n.val < 116 then 2 else if n.val < 148 then 3 else 4

/-- Plane `k` of the local f32 copy of device `c`: the rows of quarter q, qy, qx, qd (k = 0, 1, 2, 3) of its argument, own column half. -/
def lV0 (c : Dev nD) : S1024x1024.Idx → Elt F .f32 := ReadAs.same.apply (View.read (Elt F) (wL c 0).view (m ((c : Thread nD τ).loc main_arg0)))
def lV1 (c : Dev nD) : S1024x1024.Idx → Elt F .f32 := ReadAs.same.apply (View.read (Elt F) (wL c 1).view (m ((c : Thread nD τ).loc main_arg0)))
def lV2 (c : Dev nD) : S1024x1024.Idx → Elt F .f32 := ReadAs.same.apply (View.read (Elt F) (wL c 2).view (m ((c : Thread nD τ).loc main_arg0)))
def lV3 (c : Dev nD) : S1024x1024.Idx → Elt F .f32 := ReadAs.same.apply (View.read (Elt F) (wL c 3).view (m ((c : Thread nD τ).loc main_arg0)))
def lV (c : Dev nD) (k : Fin 4) : S1024x1024.Idx → Elt F .f32 := match k with | 0 => lV0 m c | 1 => lV1 m c | 2 => lV2 m c | 3 => lV3 m c
theorem inbP (k : Fin 4) (s : Fin 16) : ∀ a, (![k.val, 64 * s.val, 0] : Fin 3 → Nat) a + S1x64x1024.size a ≤ S4x1024x1024.size a := by revert k s; decide
/-- Rows 64 s … 64 s + 63 of plane `k`, as the kernel's add loads them (a [1, 64, 1024] block). -/
def xlBlk (c : Dev nD) (k : Fin 4) (s : Fin 16) : S1x64x1024.Idx → Elt F .f32 :=
  View.readAt (Elt F) (Memref.whole cc0_scratch2).view (Rect.unit (s := S4x1024x1024) ![k.val, 64 * s.val, 0] S1x64x1024.size (inbP k s)).toLoadRect ((xlM k).view.rep (lV m c k))
/-- The bf16 block the other z-half contributes to rows 64 s … of quarter `k`: it comes from the z-partner (k = 0), through the
    y-neighbour (1), through the x-neighbour (2), and for the diagonal quarter from the z-partner (blocks 0–5), through
    y then x (6–10), through x then y (11–15). -/
def rBlk (c : Dev nD) (k : Fin 4) (s : Fin 16) : S64x1024.Idx → Elt F .bf16 :=
  match k with
  | 0 => aV m (zp c) s
  | 1 => aV m (zp (yn c)) s
  | 2 => aV m (zp (xn c)) s
  | 3 => if h : s.val < 6 then dV m (zp c) ⟨s.val, h⟩ else if s.val < 11 then aV m (zp (yn (xn c))) s else aV m (zp (xn (yn c))) s
/-- Where block `s` of quarter `k` of the VMEM result buffer starts. -/
def offB (c : Dev nD) (k : Fin 4) (s : Fin 16) : Fin 2 → Nat :=
  match k with
  | 0 => k0_off7 c (BitVec.ofNat 32 (64 * s.val)) | 1 => k0_off9 c (BitVec.ofNat 32 (64 * s.val))
  | 2 => k0_off11 c (BitVec.ofNat 32 (64 * s.val)) | 3 => k0_off13 c (BitVec.ofNat 32 (64 * s.val))
theorem offB_inb (c : Dev nD) (k : Fin 4) (s : Fin 16) : ∀ a, (offB c k s) a + S64x1024.size a ≤ S4096x1024.size a :=
  match k with | 0 => k0_off7_inb c s | 1 => k0_off9_inb c s | 2 => k0_off11_inb c s | 3 => k0_off13_inb c s
/-- Block `s` of quarter `k` of the VMEM result buffer, as the kernel's add stores it. -/
abbrev vB (c : Dev nD) (k : Fin 4) (s : Fin 16) : Memref sig .tc .vmem S64x1024 .bf16 :=
  (Memref.whole cc0_scratch9).slice (Rect.unit (s := S4096x1024) (offB c k s) S64x1024.size (offB_inb c k s)) (fun _ => rfl)
/-- What quarter `k` of the VMEM result buffer holds when it is copied out: every block the sum, as the kernel computes it
    (the f32 block of the own argument cast in, the received bf16 block widened, added, the sum narrowed), of the own rows
    and the other z-half's. -/
def QuarterOK (m : (ℓ : Loc nD τ sig) → Buf (Elt F) ℓ) (c : Dev nD) (k : Fin 4) (g : Buf (Elt F) ((c : Thread nD τ).loc cc0_scratch9)) : Prop :=
  ∀ s : Fin 16, (vB c k s).view.read (Elt F) g = k0_pay23 (xlBlk m c k s) (rBlk m c k s)

/-- The final contents of the result array that the body guarantees (to be read at the ideal instance). -/
def OutOK (m : (ℓ : Loc nD τ sig) → Buf (Elt F) ℓ) (c : Dev nD) (f : Buf (Elt F) ((c : Thread nD τ).loc main_v1)) : Prop :=
  ∀ k : Fin 4, ∃ g : Buf (Elt F) ((c : Thread nD τ).loc cc0_scratch9), QuarterOK m c k g ∧ (oQ c k).view.read (Elt F) f = (vQ c k).view.read (Elt F) g

/-- The local copies' 30 counters at zero. -/
def localSems (c : Dev nD) : sProp 𝕄 := bigSep Finset.univ fun n : Fin 30 => semVal (dcell c ⟨n.val, by omega⟩) 0
/-- All 158 of the kernel's own counters at zero. -/
def allSems (c : Dev nD) : sProp 𝕄 := bigSep Finset.univ fun n : Fin 158 => semVal (dcell c n) 0
/-- The ten scratch buffers, each whole at some contents. -/
def scratchAll (c : Dev nD) : sProp 𝕄 := Pipeline.scopedRest cfg0.spec c

/-- Before the body: the ghost state at some names, the launch credit on the own barrier and receive cells, the level
    facts, the local counters, the scratch buffers, the argument and the result array as launched. -/
def Φ₀ (c : Dev nD) : sProp 𝕄 :=
  iprop((∃ K, ghost m K c) ∗ cred (tallyAt (barCell c) () 3) ∗ (bigSep Finset.univ fun i : Fin 64 => cred (tallyAt (dcell c (rN i)) () Nb))
    ∗ levAts L lv ∗ localSems c ∗ scratchAll c
    ∗ (((c : Thread nD τ).loc main_arg0) ↦{fullShare} m ((c : Thread nD τ).loc main_arg0))
    ∗ (((c : Thread nD τ).loc main_v1) ↦{fullShare} m ((c : Thread nD τ).loc main_v1)))
/-- After it: the scratch buffers at some contents, every own counter back at zero, the argument unchanged, the result
    array at contents the body vouches for. -/
def Φ₁ (c : Dev nD) : sProp 𝕄 :=
  iprop(allSems c ∗ scratchAll c
    ∗ (((c : Thread nD τ).loc main_arg0) ↦{fullShare} m ((c : Thread nD τ).loc main_arg0))
    ∗ ∃ f, ⌜OutOK m c f⌝ ∗ (((c : Thread nD τ).loc main_v1) ↦{fullShare} f))

/-- The pipeline library's proof data: no windows, one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Rs

end
-- ==== Proof.Split.lean ====
/- A buffer is the disjoint union of its row blocks (or of its planes): holding the buffer whole is holding
   every block, and holding every block at some contents is holding the buffer at some contents. The facts
   about the blocks (two different blocks share no element, every element lies in some block) are facts
   about rectangles, argued on coordinates. -/
import proofs.«901030_g7700000000001031_dist_rs_v7x_xyz2x2x2_z_m4096_n1024_bf16_1_alg».proof.Proof.Views
import Idealize.ShloMosaic.Rules.PointsTo
import Idealize.ShloMosaic.Lib.Exec.Geometry
import Idealize.SL.ProofMode.BigOp

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Ix : Type} [DecidableEq Ix] {Val : EltTy → Type} {Name : Type} [DecidableEq Name] {U : Type} [URA U] {Lvl : Type}
local notation "𝕃" => MT nD τ sig Ix Val Name U Lvl

/-! ## A buffer held whole, and a family of element sets that partitions it -/

/-- A family of element sets in which every element lies covers the buffer. -/
theorem biUnion_eq_univ {ℓ : Loc nD τ sig} {T : Type} [Fintype T] (K : T → Finset (Idx ℓ))
    (hc : ∀ i : Idx ℓ, ∃ t, i ∈ K t) : (Finset.univ : Finset T).biUnion K = Finset.univ := by
  ext i
  simp only [Finset.mem_biUnion, Finset.mem_univ, true_and, iff_true]
  exact hc i

/-- A buffer held whole is held on each set of a pairwise disjoint family that covers it. -/
theorem split_family {ℓ : Loc nD τ sig} {T : Type} [Fintype T] [DecidableEq T] (K : T → Finset (Idx ℓ))
    (hd : ∀ t t', t ≠ t' → Disjoint (K t) (K t')) (hc : ∀ i : Idx ℓ, ∃ t, i ∈ K t)
    (q : PosShare TreeShare) (f : Buf Val ℓ) :
    ((ℓ ↦{q} f) : sProp 𝕃) ⊢ bigSep Finset.univ fun t : T => (ℓ ↦[K t]{q} f) := by
  refine Entails.of_eq ?_
  rw [← pointsTo_biUnion Finset.univ K (fun t _ t' _ h => hd t t' h), biUnion_eq_univ K hc]

/-- Each set of a pairwise disjoint family that covers the buffer held at some contents: the buffer is held whole
    at some contents. (The family has a member t₀: with no member there would be no contents to name.) -/
theorem join_family {ℓ : Loc nD τ sig} {T : Type} [Fintype T] [DecidableEq T] (K : T → Finset (Idx ℓ)) (t₀ : T)
    (hd : ∀ t t', t ≠ t' → Disjoint (K t) (K t')) (hc : ∀ i : Idx ℓ, ∃ t, i ∈ K t)
    (q : PosShare TreeShare) :
    (bigSep Finset.univ fun t : T => iprop(∃ f : Buf Val ℓ, (ℓ ↦[K t]{q} f)) : sProp 𝕃) ⊢ iprop(∃ f : Buf Val ℓ, ℓ ↦{q} f) := by
  by_cases hN : Nonempty (Buf Val ℓ)
  · obtain ⟨f₀⟩ := hN
    haveI : Nonempty (Buf Val ℓ) := ⟨f₀⟩
    iintro H
    ihave H1 := (bigSep_exists_pi (Y := fun _ : T => Buf Val ℓ) Finset.univ (fun t f => (ℓ ↦[K t]{q} f : sProp 𝕃))) $$ H
    icases H1 with ⟨%fs, H1⟩
    ihave H2 := (pointsTo_biUnion_join Finset.univ K fs f₀ (fun t _ t' _ h => hd t t' h)) $$ H1
    icases H2 with ⟨%g, -, H3⟩
    iexists g
    rw [biUnion_eq_univ K hc]
    iexact H3
  · have he : (bigSep Finset.univ fun t : T => iprop(∃ f : Buf Val ℓ, (ℓ ↦[K t]{q} f)) : sProp 𝕃)
        ⊢ iprop(∃ f : Buf Val ℓ, (ℓ ↦[K t₀]{q} f)) := bigSep_elim (Finset.mem_univ t₀)
    iintro H
    ihave H1 := he $$ H
    icases H1 with ⟨%f, H1⟩
    exact absurd ⟨f⟩ hN

/-! ## The sixteen 64-row blocks of a 1024 × 1024 shape -/

/-- Block s (rows 64 s … 64 s + 63), as a rectangle of the shape. -/
abbrev r16 (s : Fin 16) : Rect S1024x1024 := Rect.unit (s := S1024x1024) ![64 * s.val, 0] S64x1024.size (inb16 s)

/-- Two different blocks are separated on the row axis. -/
theorem r16_disjoint {s t : Fin 16} (h : s ≠ t) : Disjoint (r16 s).set (r16 t).set :=
  Rect.unit_disjoint (0 : Fin 2) (by
    have hne : s.val ≠ t.val := fun e => h (Fin.ext e)
    show 64 * s.val + 64 ≤ 64 * t.val ∨ 64 * t.val + 64 ≤ 64 * s.val
    omega)

/-- Every element lies in the block its row, divided by 64, names. -/
theorem r16_mem (i : S1024x1024.Idx) : ∃ s : Fin 16, i ∈ (r16 s).set := by
  have h0 : (i 0 : Nat) < 1024 := (i 0).isLt
  have h1 : (i 1 : Nat) < 1024 := (i 1).isLt
  refine ⟨⟨(i 0 : Nat) / 64, by omega⟩, Rect.mem_set_unit.mpr (Fin.forall_fin_two.mpr ⟨?_, ?_⟩)⟩
  · show 64 * ((i 0 : Nat) / 64) ≤ i 0 ∧ (i 0 : Nat) < 64 * ((i 0 : Nat) / 64) + 64
    omega
  · show 0 ≤ (i 1 : Nat) ∧ (i 1 : Nat) < 0 + 1024
    omega

/-! ## The landing buffer the z-partner writes -/

/-- A block's elements are its rectangle's. -/
theorem set_bQ (s : Fin 16) : (bQ s).view.set = (r16 s).set := View.set_slice_whole cc0_scratch5 _

/-- The buffer held whole is every block held, at the same contents. -/
theorem split_bQ (c : Dev nD) (f : Buf Val ((c : Thread nD τ).loc cc0_scratch5)) :
    ((((c : Thread nD τ).loc cc0_scratch5) ↦{fullShare} f) : sProp 𝕃)
      ⊢ bigSep Finset.univ fun s : Fin 16 => ((bQ s).view.loc (c : Thread nD τ) ↦[(bQ s).view.set]{fullShare} f) :=
  split_family (ℓ := (c : Thread nD τ).loc cc0_scratch5) (fun s : Fin 16 => (bQ s).view.set)
    (fun s t h => by show Disjoint (bQ s).view.set (bQ t).view.set; rw [set_bQ, set_bQ]; exact r16_disjoint h)
    (fun i => (r16_mem i).imp fun s hs => by show i ∈ (bQ s).view.set; rw [set_bQ]; exact hs) fullShare f

/-- Every block held at some contents is the buffer held whole at some contents. -/
theorem join_bQ (c : Dev nD) :
    (bigSep Finset.univ fun s : Fin 16 => iprop(∃ f, ((bQ s).view.loc (c : Thread nD τ) ↦[(bQ s).view.set]{fullShare} f)) : sProp 𝕃)
      ⊢ iprop(∃ f : Buf Val ((c : Thread nD τ).loc cc0_scratch5), ((c : Thread nD τ).loc cc0_scratch5) ↦{fullShare} f) :=
  join_family (ℓ := (c : Thread nD τ).loc cc0_scratch5) (fun s : Fin 16 => (bQ s).view.set) 0
    (fun s t h => by show Disjoint (bQ s).view.set (bQ t).view.set; rw [set_bQ, set_bQ]; exact r16_disjoint h)
    (fun i => (r16_mem i).imp fun s hs => by show i ∈ (bQ s).view.set; rw [set_bQ]; exact hs) fullShare

/-! ## The landing buffer the x-neighbour writes -/

/-- A block's elements are its rectangle's. -/
theorem set_bX (s : Fin 16) : (bX s).view.set = (r16 s).set := View.set_slice_whole cc0_scratch6 _

/-- The buffer held whole is every block held, at the same contents. -/
theorem split_bX (c : Dev nD) (f : Buf Val ((c : Thread nD τ).loc cc0_scratch6)) :
    ((((c : Thread nD τ).loc cc0_scratch6) ↦{fullShare} f) : sProp 𝕃)
      ⊢ bigSep Finset.univ fun s : Fin 16 => ((bX s).view.loc (c : Thread nD τ) ↦[(bX s).view.set]{fullShare} f) :=
  split_family (ℓ := (c : Thread nD τ).loc cc0_scratch6) (fun s : Fin 16 => (bX s).view.set)
    (fun s t h => by show Disjoint (bX s).view.set (bX t).view.set; rw [set_bX, set_bX]; exact r16_disjoint h)
    (fun i => (r16_mem i).imp fun s hs => by show i ∈ (bX s).view.set; rw [set_bX]; exact hs) fullShare f

/-- Every block held at some contents is the buffer held whole at some contents. -/
theorem join_bX (c : Dev nD) :
    (bigSep Finset.univ fun s : Fin 16 => iprop(∃ f, ((bX s).view.loc (c : Thread nD τ) ↦[(bX s).view.set]{fullShare} f)) : sProp 𝕃)
      ⊢ iprop(∃ f : Buf Val ((c : Thread nD τ).loc cc0_scratch6), ((c : Thread nD τ).loc cc0_scratch6) ↦{fullShare} f) :=
  join_family (ℓ := (c : Thread nD τ).loc cc0_scratch6) (fun s : Fin 16 => (bX s).view.set) 0
    (fun s t h => by show Disjoint (bX s).view.set (bX t).view.set; rw [set_bX, set_bX]; exact r16_disjoint h)
    (fun i => (r16_mem i).imp fun s hs => by show i ∈ (bX s).view.set; rw [set_bX]; exact hs) fullShare

/-! ## The landing buffer the y-neighbour writes -/

/-- A block's elements are its rectangle's. -/
theorem set_bY (s : Fin 16) : (bY s).view.set = (r16 s).set := View.set_slice_whole cc0_scratch7 _

/-- The buffer held whole is every block held, at the same contents. -/
theorem split_bY (c : Dev nD) (f : Buf Val ((c : Thread nD τ).loc cc0_scratch7)) :
    ((((c : Thread nD τ).loc cc0_scratch7) ↦{fullShare} f) : sProp 𝕃)
      ⊢ bigSep Finset.univ fun s : Fin 16 => ((bY s).view.loc (c : Thread nD τ) ↦[(bY s).view.set]{fullShare} f) :=
  split_family (ℓ := (c : Thread nD τ).loc cc0_scratch7) (fun s : Fin 16 => (bY s).view.set)
    (fun s t h => by show Disjoint (bY s).view.set (bY t).view.set; rw [set_bY, set_bY]; exact r16_disjoint h)
    (fun i => (r16_mem i).imp fun s hs => by show i ∈ (bY s).view.set; rw [set_bY]; exact hs) fullShare f

/-- Every block held at some contents is the buffer held whole at some contents. -/
theorem join_bY (c : Dev nD) :
    (bigSep Finset.univ fun s : Fin 16 => iprop(∃ f, ((bY s).view.loc (c : Thread nD τ) ↦[(bY s).view.set]{fullShare} f)) : sProp 𝕃)
      ⊢ iprop(∃ f : Buf Val ((c : Thread nD τ).loc cc0_scratch7), ((c : Thread nD τ).loc cc0_scratch7) ↦{fullShare} f) :=
  join_family (ℓ := (c : Thread nD τ).loc cc0_scratch7) (fun s : Fin 16 => (bY s).view.set) 0
    (fun s t h => by show Disjoint (bY s).view.set (bY t).view.set; rw [set_bY, set_bY]; exact r16_disjoint h)
    (fun i => (r16_mem i).imp fun s hs => by show i ∈ (bY s).view.set; rw [set_bY]; exact hs) fullShare

/-! ## The landing buffer of the diagonal quarter -/

/-- A block's elements are its rectangle's. -/
theorem set_bR (s : Fin 16) : (bR s).view.set = (r16 s).set := View.set_slice_whole cc0_scratch8 _

/-- The buffer held whole is every block held, at the same contents. -/
theorem split_bR (c : Dev nD) (f : Buf Val ((c : Thread nD τ).loc cc0_scratch8)) :
    ((((c : Thread nD τ).loc cc0_scratch8) ↦{fullShare} f) : sProp 𝕃)
      ⊢ bigSep Finset.univ fun s : Fin 16 => ((bR s).view.loc (c : Thread nD τ) ↦[(bR s).view.set]{fullShare} f) :=
  split_family (ℓ := (c : Thread nD τ).loc cc0_scratch8) (fun s : Fin 16 => (bR s).view.set)
    (fun s t h => by show Disjoint (bR s).view.set (bR t).view.set; rw [set_bR, set_bR]; exact r16_disjoint h)
    (fun i => (r16_mem i).imp fun s hs => by show i ∈ (bR s).view.set; rw [set_bR]; exact hs) fullShare f

/-- Every block held at some contents is the buffer held whole at some contents. -/
theorem join_bR (c : Dev nD) :
    (bigSep Finset.univ fun s : Fin 16 => iprop(∃ f, ((bR s).view.loc (c : Thread nD τ) ↦[(bR s).view.set]{fullShare} f)) : sProp 𝕃)
      ⊢ iprop(∃ f : Buf Val ((c : Thread nD τ).loc cc0_scratch8), ((c : Thread nD τ).loc cc0_scratch8) ↦{fullShare} f) :=
  join_family (ℓ := (c : Thread nD τ).loc cc0_scratch8) (fun s : Fin 16 => (bR s).view.set) 0
    (fun s t h => by show Disjoint (bR s).view.set (bR t).view.set; rw [set_bR, set_bR]; exact r16_disjoint h)
    (fun i => (r16_mem i).imp fun s hs => by show i ∈ (bR s).view.set; rw [set_bR]; exact hs) fullShare

/-! ## The staging buffer of the own quarter -/

/-- A block's elements are its rectangle's. -/
theorem set_bA (s : Fin 16) : (bA s).view.set = (r16 s).set := View.set_slice_whole cc0_scratch3 _

/-- The buffer held whole is every block held, at the same contents. -/
theorem split_bA (c : Dev nD) (f : Buf Val ((c : Thread nD τ).loc cc0_scratch3)) :
    ((((c : Thread nD τ).loc cc0_scratch3) ↦{fullShare} f) : sProp 𝕃)
      ⊢ bigSep Finset.univ fun s : Fin 16 => ((bA s).view.loc (c : Thread nD τ) ↦[(bA s).view.set]{fullShare} f) :=
  split_family (ℓ := (c : Thread nD τ).loc cc0_scratch3) (fun s : Fin 16 => (bA s).view.set)
    (fun s t h => by show Disjoint (bA s).view.set (bA t).view.set; rw [set_bA, set_bA]; exact r16_disjoint h)
    (fun i => (r16_mem i).imp fun s hs => by show i ∈ (bA s).view.set; rw [set_bA]; exact hs) fullShare f

/-- Every block held at some contents is the buffer held whole at some contents. -/
theorem join_bA (c : Dev nD) :
    (bigSep Finset.univ fun s : Fin 16 => iprop(∃ f, ((bA s).view.loc (c : Thread nD τ) ↦[(bA s).view.set]{fullShare} f)) : sProp 𝕃)
      ⊢ iprop(∃ f : Buf Val ((c : Thread nD τ).loc cc0_scratch3), ((c : Thread nD τ).loc cc0_scratch3) ↦{fullShare} f) :=
  join_family (ℓ := (c : Thread nD τ).loc cc0_scratch3) (fun s : Fin 16 => (bA s).view.set) 0
    (fun s t h => by show Disjoint (bA s).view.set (bA t).view.set; rw [set_bA, set_bA]; exact r16_disjoint h)
    (fun i => (r16_mem i).imp fun s hs => by show i ∈ (bA s).view.set; rw [set_bA]; exact hs) fullShare

/-! ## The f32 copy of the own quarter's other column half -/

/-- A block's elements are its rectangle's. -/
theorem set_xqM (s : Fin 16) : (xqM s).view.set = (r16 s).set := View.set_slice_whole cc0_scratch0 _

/-- The buffer held whole is every block held, at the same contents. -/
theorem split_xqM (c : Dev nD) (f : Buf Val ((c : Thread nD τ).loc cc0_scratch0)) :
    ((((c : Thread nD τ).loc cc0_scratch0) ↦{fullShare} f) : sProp 𝕃)
      ⊢ bigSep Finset.univ fun s : Fin 16 => ((xqM s).view.loc (c : Thread nD τ) ↦[(xqM s).view.set]{fullShare} f) :=
  split_family (ℓ := (c : Thread nD τ).loc cc0_scratch0) (fun s : Fin 16 => (xqM s).view.set)
    (fun s t h => by show Disjoint (xqM s).view.set (xqM t).view.set; rw [set_xqM, set_xqM]; exact r16_disjoint h)
    (fun i => (r16_mem i).imp fun s hs => by show i ∈ (xqM s).view.set; rw [set_xqM]; exact hs) fullShare f

/-- Every block held at some contents is the buffer held whole at some contents. -/
theorem join_xqM (c : Dev nD) :
    (bigSep Finset.univ fun s : Fin 16 => iprop(∃ f, ((xqM s).view.loc (c : Thread nD τ) ↦[(xqM s).view.set]{fullShare} f)) : sProp 𝕃)
      ⊢ iprop(∃ f : Buf Val ((c : Thread nD τ).loc cc0_scratch0), ((c : Thread nD τ).loc cc0_scratch0) ↦{fullShare} f) :=
  join_family (ℓ := (c : Thread nD τ).loc cc0_scratch0) (fun s : Fin 16 => (xqM s).view.set) 0
    (fun s t h => by show Disjoint (xqM s).view.set (xqM t).view.set; rw [set_xqM, set_xqM]; exact r16_disjoint h)
    (fun i => (r16_mem i).imp fun s hs => by show i ∈ (xqM s).view.set; rw [set_xqM]; exact hs) fullShare

/-! ## The six 64-row blocks of a 384 × 1024 shape -/

/-- Block j (rows 64 j … 64 j + 63), as a rectangle of the shape. -/
abbrev r6 (j : Fin 6) : Rect S384x1024 := Rect.unit (s := S384x1024) ![64 * j.val, 0] S64x1024.size (inb6 j)

/-- Two different blocks are separated on the row axis. -/
theorem r6_disjoint {s t : Fin 6} (h : s ≠ t) : Disjoint (r6 s).set (r6 t).set :=
  Rect.unit_disjoint (0 : Fin 2) (by
    have hne : s.val ≠ t.val := fun e => h (Fin.ext e)
    show 64 * s.val + 64 ≤ 64 * t.val ∨ 64 * t.val + 64 ≤ 64 * s.val
    omega)

/-- Every element lies in the block its row, divided by 64, names. -/
theorem r6_mem (i : S384x1024.Idx) : ∃ j : Fin 6, i ∈ (r6 j).set := by
  have h0 : (i 0 : Nat) < 384 := (i 0).isLt
  have h1 : (i 1 : Nat) < 1024 := (i 1).isLt
  refine ⟨⟨(i 0 : Nat) / 64, by omega⟩, Rect.mem_set_unit.mpr (Fin.forall_fin_two.mpr ⟨?_, ?_⟩)⟩
  · show 64 * ((i 0 : Nat) / 64) ≤ i 0 ∧ (i 0 : Nat) < 64 * ((i 0 : Nat) / 64) + 64
    omega
  · show 0 ≤ (i 1 : Nat) ∧ (i 1 : Nat) < 0 + 1024
    omega

/-! ## The staging buffer of the diagonal quarter -/

/-- A block's elements are its rectangle's. -/
theorem set_bD (s : Fin 6) : (bD s).view.set = (r6 s).set := View.set_slice_whole cc0_scratch4 _

/-- The buffer held whole is every block held, at the same contents. -/
theorem split_bD (c : Dev nD) (f : Buf Val ((c : Thread nD τ).loc cc0_scratch4)) :
    ((((c : Thread nD τ).loc cc0_scratch4) ↦{fullShare} f) : sProp 𝕃)
      ⊢ bigSep Finset.univ fun s : Fin 6 => ((bD s).view.loc (c : Thread nD τ) ↦[(bD s).view.set]{fullShare} f) :=
  split_family (ℓ := (c : Thread nD τ).loc cc0_scratch4) (fun s : Fin 6 => (bD s).view.set)
    (fun s t h => by show Disjoint (bD s).view.set (bD t).view.set; rw [set_bD, set_bD]; exact r6_disjoint h)
    (fun i => (r6_mem i).imp fun s hs => by show i ∈ (bD s).view.set; rw [set_bD]; exact hs) fullShare f

/-- Every block held at some contents is the buffer held whole at some contents. -/
theorem join_bD (c : Dev nD) :
    (bigSep Finset.univ fun s : Fin 6 => iprop(∃ f, ((bD s).view.loc (c : Thread nD τ) ↦[(bD s).view.set]{fullShare} f)) : sProp 𝕃)
      ⊢ iprop(∃ f : Buf Val ((c : Thread nD τ).loc cc0_scratch4), ((c : Thread nD τ).loc cc0_scratch4) ↦{fullShare} f) :=
  join_family (ℓ := (c : Thread nD τ).loc cc0_scratch4) (fun s : Fin 6 => (bD s).view.set) 0
    (fun s t h => by show Disjoint (bD s).view.set (bD t).view.set; rw [set_bD, set_bD]; exact r6_disjoint h)
    (fun i => (r6_mem i).imp fun s hs => by show i ∈ (bD s).view.set; rw [set_bD]; exact hs) fullShare

/-! ## The f32 copy of the diagonal quarter's first six blocks -/

/-- A block's elements are its rectangle's. -/
theorem set_xdM (s : Fin 6) : (xdM s).view.set = (r6 s).set := View.set_slice_whole cc0_scratch1 _

/-- The buffer held whole is every block held, at the same contents. -/
theorem split_xdM (c : Dev nD) (f : Buf Val ((c : Thread nD τ).loc cc0_scratch1)) :
    ((((c : Thread nD τ).loc cc0_scratch1) ↦{fullShare} f) : sProp 𝕃)
      ⊢ bigSep Finset.univ fun s : Fin 6 => ((xdM s).view.loc (c : Thread nD τ) ↦[(xdM s).view.set]{fullShare} f) :=
  split_family (ℓ := (c : Thread nD τ).loc cc0_scratch1) (fun s : Fin 6 => (xdM s).view.set)
    (fun s t h => by show Disjoint (xdM s).view.set (xdM t).view.set; rw [set_xdM, set_xdM]; exact r6_disjoint h)
    (fun i => (r6_mem i).imp fun s hs => by show i ∈ (xdM s).view.set; rw [set_xdM]; exact hs) fullShare f

/-- Every block held at some contents is the buffer held whole at some contents. -/
theorem join_xdM (c : Dev nD) :
    (bigSep Finset.univ fun s : Fin 6 => iprop(∃ f, ((xdM s).view.loc (c : Thread nD τ) ↦[(xdM s).view.set]{fullShare} f)) : sProp 𝕃)
      ⊢ iprop(∃ f : Buf Val ((c : Thread nD τ).loc cc0_scratch1), ((c : Thread nD τ).loc cc0_scratch1) ↦{fullShare} f) :=
  join_family (ℓ := (c : Thread nD τ).loc cc0_scratch1) (fun s : Fin 6 => (xdM s).view.set) 0
    (fun s t h => by show Disjoint (xdM s).view.set (xdM t).view.set; rw [set_xdM, set_xdM]; exact r6_disjoint h)
    (fun i => (r6_mem i).imp fun s hs => by show i ∈ (xdM s).view.set; rw [set_xdM]; exact hs) fullShare

/-! ## The four planes of a 4 × 1024 × 1024 shape -/

/-- Plane k, as a rectangle of the shape. -/
abbrev r4 (k : Fin 4) : Rect S4x1024x1024 := Rect.unit (s := S4x1024x1024) ![k.val, 0, 0] S1x1024x1024.size (inb4 k)

/-- Two different planes are separated on the leading axis. -/
theorem r4_disjoint {s t : Fin 4} (h : s ≠ t) : Disjoint (r4 s).set (r4 t).set :=
  Rect.unit_disjoint (0 : Fin 3) (by
    have hne : s.val ≠ t.val := fun e => h (Fin.ext e)
    show s.val + 1 ≤ t.val ∨ t.val + 1 ≤ s.val
    omega)

/-- Every element lies in the plane its leading coordinate names. -/
theorem r4_mem (i : S4x1024x1024.Idx) : ∃ k : Fin 4, i ∈ (r4 k).set := by
  have h0 : (i 0 : Nat) < 4 := (i 0).isLt
  have h1 : (i 1 : Nat) < 1024 := (i 1).isLt
  have h2 : (i 2 : Nat) < 1024 := (i 2).isLt
  refine ⟨⟨(i 0 : Nat), h0⟩, Rect.mem_set_unit.mpr (Fin.forall_fin_succ.mpr ⟨?_, Fin.forall_fin_two.mpr ⟨?_, ?_⟩⟩)⟩
  · show (i 0 : Nat) ≤ i 0 ∧ (i 0 : Nat) < (i 0 : Nat) + 1
    omega
  · show 0 ≤ (i 1 : Nat) ∧ (i 1 : Nat) < 0 + 1024
    omega
  · show 0 ≤ (i 2 : Nat) ∧ (i 2 : Nat) < 0 + 1024
    omega

/-! ## The local copy of the own column half -/

/-- A plane's elements are its rectangle's: dropping the leading axis of size one keeps the elements. -/
theorem set_xlM (k : Fin 4) : (xlM k).view.set = (r4 k).set := (View.set_reshape _ _).trans (View.set_slice_whole cc0_scratch2 _)

/-- The buffer held whole is every plane held, at the same contents. -/
theorem split_xlM (c : Dev nD) (f : Buf Val ((c : Thread nD τ).loc cc0_scratch2)) :
    ((((c : Thread nD τ).loc cc0_scratch2) ↦{fullShare} f) : sProp 𝕃)
      ⊢ bigSep Finset.univ fun s : Fin 4 => ((xlM s).view.loc (c : Thread nD τ) ↦[(xlM s).view.set]{fullShare} f) :=
  split_family (ℓ := (c : Thread nD τ).loc cc0_scratch2) (fun s : Fin 4 => (xlM s).view.set)
    (fun s t h => by show Disjoint (xlM s).view.set (xlM t).view.set; rw [set_xlM, set_xlM]; exact r4_disjoint h)
    (fun i => (r4_mem i).imp fun s hs => by show i ∈ (xlM s).view.set; rw [set_xlM]; exact hs) fullShare f

/-- Every plane held at some contents is the buffer held whole at some contents. -/
theorem join_xlM (c : Dev nD) :
    (bigSep Finset.univ fun s : Fin 4 => iprop(∃ f, ((xlM s).view.loc (c : Thread nD τ) ↦[(xlM s).view.set]{fullShare} f)) : sProp 𝕃)
      ⊢ iprop(∃ f : Buf Val ((c : Thread nD τ).loc cc0_scratch2), ((c : Thread nD τ).loc cc0_scratch2) ↦{fullShare} f) :=
  join_family (ℓ := (c : Thread nD τ).loc cc0_scratch2) (fun s : Fin 4 => (xlM s).view.set) 0
    (fun s t h => by show Disjoint (xlM s).view.set (xlM t).view.set; rw [set_xlM, set_xlM]; exact r4_disjoint h)
    (fun i => (r4_mem i).imp fun s hs => by show i ∈ (xlM s).view.set; rw [set_xlM]; exact hs) fullShare

end Cert.KernelIdeal.Rs

end
-- ==== Proof.SplitArg.lean ====
/- The argument array lent to the twenty-six local copies by shares, and the result array and its VMEM
   source cut into their four quarters by rows. -/
import proofs.«901030_g7700000000001031_dist_rs_v7x_xyz2x2x2_z_m4096_n1024_bf16_1_alg».proof.Proof.Views

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Ix : Type} [DecidableEq Ix] {Val : EltTy → Type} {Name : Type} [DecidableEq Name] {U : Type} [URA U] {Lvl : Type}
local notation "𝕃" => MT nD τ sig Ix Val Name U Lvl

/-! ## Shares by peeling

The full share is halved; the left half is handed out and the right half is halved again. After `n` rounds
the shares handed out are `sh 0, …, sh (n - 1)` and `shRest n` is what is left. Any number of readers can
thus hold the whole array at once, each at a share of its own, with no claim that what they read is disjoint. -/

/-- What is left of the full share after `n` halvings: the right half, `n` times. -/
def shRest : Nat → PosShare TreeShare
  | 0 => fullShare
  | n + 1 => (shRest n).right

/-- The share handed out in round `n`: the left half of what was left. -/
def sh (n : Nat) : PosShare TreeShare := (shRest n).left

/-- The share of local copy `k`'s window. -/
def shL (k : Fin 4) : PosShare TreeShare := sh k.val
/-- The share of block `s` of the own quarter's other column half. -/
def shQ (s : Fin 16) : PosShare TreeShare := sh (4 + s.val)
/-- The share of block `j` of the diagonal quarter's other column half. -/
def shD (j : Fin 6) : PosShare TreeShare := sh (20 + j.val)

section Peel
variable {ℓ : Loc nD τ sig}

/-- Two resources that entail each other are one. -/
private theorem eq_of_entails {P Q : sProp 𝕃} (h₁ : P ⊢ Q) (h₂ : Q ⊢ P) : P = Q := BI.Entails.antisymm h₁ h₂

private theorem eq_of_equiv {P Q : sProp 𝕃} (h : P ⊣⊢ Q) : P = Q := BI.Entails.antisymm h.1 h.2

/-- Five resources regrouped: the first with the third, the second with the fourth. -/
private theorem sep_regroup (A B C D R : sProp 𝕃) :
    iprop(A ∗ B ∗ C ∗ D ∗ R) = iprop((A ∗ C) ∗ (B ∗ D) ∗ R) := by
  refine eq_of_entails ?_ ?_
  · iintro ⟨HA, HB, HC, HD, HR⟩
    isplitl [HA HC]
    · isplitl [HA]; · iexact HA
      iexact HC
    isplitl [HB HD]
    · isplitl [HB]; · iexact HB
      iexact HD
    iexact HR
  · iintro ⟨⟨HA, HC⟩, ⟨HB, HD⟩, HR⟩
    isplitl [HA]; · iexact HA
    isplitl [HB]; · iexact HB
    isplitl [HC]; · iexact HC
    isplitl [HD]; · iexact HD
    iexact HR

/-- One round: what is left splits into a window at the round's share, the elements outside the window at
    that share, and what is left afterwards. -/
theorem peel_one (f : Buf Val ℓ) (W : Finset (Idx ℓ)) (n : Nat) :
    (ℓ ↦{shRest n} f : sProp 𝕃) = iprop((ℓ ↦[W]{sh n} f) ∗ (ℓ ↦[Finset.univ \ W]{sh n} f) ∗ ℓ ↦{shRest (n + 1)} f) := by
  have h1 : (ℓ ↦{shRest n} f : sProp 𝕃) = iprop((ℓ ↦{sh n} f) ∗ ℓ ↦{shRest (n + 1)} f) :=
    eq_of_equiv (pointsTo_share (PosShare.mem_left_op_right (shRest n)))
  have h2 : (ℓ ↦{sh n} f : sProp 𝕃) = iprop((ℓ ↦[W]{sh n} f) ∗ ℓ ↦[Finset.univ \ W]{sh n} f) :=
    eq_of_equiv (pointsTo_split_subset (Finset.subset_univ W))
  rw [h1, h2]
  refine eq_of_entails ?_ ?_
  · iintro ⟨⟨HA, HB⟩, HR⟩
    isplitl [HA]; · iexact HA
    isplitl [HB]; · iexact HB
    iexact HR
  · iintro ⟨HA, HB, HR⟩
    isplitr [HR]
    · isplitl [HA]; · iexact HA
      iexact HB
    iexact HR

/-- A `bigSep` over `Fin (n + 1)` is the one over the first `n` indices and the last term. -/
theorem arg_bigSep_fin_last (n : Nat) (Φ : Fin (n + 1) → sProp 𝕃) :
    bigSep Finset.univ Φ = iprop((bigSep Finset.univ fun i : Fin n => Φ i.castSucc) ∗ Φ (Fin.last n)) := by
  rw [Fin.univ_castSuccEmb, Finset.cons_eq_insert, bigSep_insert (by simp), bigSep_map]
  refine eq_of_entails (P := iprop(Φ (Fin.last n) ∗ bigSep Finset.univ fun i : Fin n => Φ i.castSucc)) ?_ ?_
  · iintro ⟨HA, HB⟩
    isplitl [HB]; · iexact HB
    iexact HA
  · iintro ⟨HB, HA⟩
    isplitl [HA]; · iexact HA
    iexact HB

/-- `n` rounds starting after round `m`, for any family of `n` windows. -/
theorem peel_fin (f : Buf Val ℓ) (m : Nat) : ∀ (n : Nat) (W : Fin n → Finset (Idx ℓ)),
    (ℓ ↦{shRest m} f : sProp 𝕃)
      = iprop((bigSep Finset.univ fun i : Fin n => ℓ ↦[W i]{sh (m + i.val)} f)
          ∗ (bigSep Finset.univ fun i : Fin n => ℓ ↦[Finset.univ \ W i]{sh (m + i.val)} f)
          ∗ ℓ ↦{shRest (m + n)} f)
  | 0, W => by
    rw [show (Finset.univ : Finset (Fin 0)) = ∅ from rfl, bigSep_empty, bigSep_empty]
    refine eq_of_entails (Q := iprop(emp ∗ emp ∗ ℓ ↦{shRest (m + 0)} f)) ?_ ?_
    · iintro HR
      isplitr [HR]; · iempintro
      isplitr [HR]; · iempintro
      iexact HR
    · iintro ⟨-, -, HR⟩
      iexact HR
  | n + 1, W => by
    rw [arg_bigSep_fin_last, arg_bigSep_fin_last, peel_fin f m n (fun i => W i.castSucc), peel_one f (W (Fin.last n)) (m + n)]
    simp only [Fin.coe_castSucc, Fin.val_last, Nat.add_assoc]
    exact sep_regroup _ _ _ _ _

end Peel

/-! ## The argument array lent to the twenty-six local copies -/

section Arg

/-- The elements of local copy `k`'s window, as elements of the argument array. -/
def wLset (c : Dev nD) : Fin 4 → Finset (Idx ((c : Thread nD τ).loc main_arg0))
  | 0 => (wL c 0).view.set
  | 1 => (wL c 1).view.set
  | 2 => (wL c 2).view.set
  | 3 => (wL c 3).view.set

/-- What the readers do not hold while all twenty-six copies are in flight: for each window the elements
    outside it, at that window's share; and the whole array at the share left after twenty-six rounds. -/
def argRest (c : Dev nD) (f : Buf Val ((c : Thread nD τ).loc main_arg0)) : sProp 𝕃 :=
  iprop((bigSep Finset.univ fun k : Fin 4 => (((c : Thread nD τ).loc main_arg0) ↦[Finset.univ \ wLset c k]{shL k} f))
    ∗ (bigSep Finset.univ fun s : Fin 16 => (((c : Thread nD τ).loc main_arg0) ↦[Finset.univ \ (wQ c s).view.set]{shQ s} f))
    ∗ (bigSep Finset.univ fun j : Fin 6 => (((c : Thread nD τ).loc main_arg0) ↦[Finset.univ \ (wD c j).view.set]{shD j} f))
    ∗ (((c : Thread nD τ).loc main_arg0) ↦{shRest 26} f))

/-- Three rounds of windows and leftovers regrouped: the windows first, the leftovers after. -/
private theorem sep_regroup3 (A₁ B₁ A₂ B₂ A₃ B₃ R : sProp 𝕃) :
    iprop(A₁ ∗ B₁ ∗ A₂ ∗ B₂ ∗ A₃ ∗ B₃ ∗ R) = iprop(A₁ ∗ A₂ ∗ A₃ ∗ B₁ ∗ B₂ ∗ B₃ ∗ R) := by
  refine eq_of_entails ?_ ?_
  · iintro ⟨HA1, HB1, HA2, HB2, HA3, HB3, HR⟩
    isplitl [HA1]; · iexact HA1
    isplitl [HA2]; · iexact HA2
    isplitl [HA3]; · iexact HA3
    isplitl [HB1]; · iexact HB1
    isplitl [HB2]; · iexact HB2
    isplitl [HB3]; · iexact HB3
    iexact HR
  · iintro ⟨HA1, HA2, HA3, HB1, HB2, HB3, HR⟩
    isplitl [HA1]; · iexact HA1
    isplitl [HB1]; · iexact HB1
    isplitl [HA2]; · iexact HA2
    isplitl [HB2]; · iexact HB2
    isplitl [HA3]; · iexact HA3
    isplitl [HB3]; · iexact HB3
    iexact HR

/-- The whole argument array at the full share is the twenty-six windows, each at a share of its own, and
    `argRest`: twenty-six rounds of halving, none of which asks the windows to be disjoint. -/
theorem split_arg_eq (c : Dev nD) (f : Buf Val ((c : Thread nD τ).loc main_arg0)) :
    ((((c : Thread nD τ).loc main_arg0) ↦{fullShare} f) : sProp 𝕃)
      = iprop((bigSep Finset.univ fun k : Fin 4 => (((c : Thread nD τ).loc main_arg0) ↦[wLset c k]{shL k} f))
          ∗ (bigSep Finset.univ fun s : Fin 16 => ((wQ c s).view.loc (c : Thread nD τ) ↦[(wQ c s).view.set]{shQ s} f))
          ∗ (bigSep Finset.univ fun j : Fin 6 => ((wD c j).view.loc (c : Thread nD τ) ↦[(wD c j).view.set]{shD j} f))
          ∗ argRest c f) := by
  unfold argRest shL shQ shD
  rw [show (fullShare : PosShare TreeShare) = shRest 0 from rfl, peel_fin f 0 4 (wLset c),
    show (0 + 4 : Nat) = 4 from rfl, peel_fin f 4 16 (fun s => (wQ c s).view.set),
    show (4 + 16 : Nat) = 20 from rfl, peel_fin f 20 6 (fun j => (wD c j).view.set),
    show (20 + 6 : Nat) = 26 from rfl]
  simp only [Nat.zero_add]
  exact sep_regroup3 _ _ _ _ _ _ _

end Arg

section ArgStatements

/-- A `bigSep` over four indices, written out. -/
theorem arg_bigSep_fin4 (Φ : Fin 4 → sProp 𝕃) : bigSep Finset.univ Φ = iprop(Φ 0 ∗ Φ 1 ∗ Φ 2 ∗ Φ 3) := by
  rw [show (Finset.univ : Finset (Fin 4)) = {0, 1, 2, 3} by decide, bigSep_insert (by decide),
    bigSep_insert (by decide), bigSep_insert (by decide), bigSep_singleton]
  rfl

/-- `split_arg_eq` as an equivalence, to be used in either direction: lending the array out and taking it
    back whole with the same contents. -/
theorem split_arg (c : Dev nD) (f : Buf Val ((c : Thread nD τ).loc main_arg0)) :
    ((((c : Thread nD τ).loc main_arg0) ↦{fullShare} f) : sProp 𝕃)
      ⊣⊢ iprop((bigSep Finset.univ fun k : Fin 4 => (((c : Thread nD τ).loc main_arg0) ↦[wLset c k]{shL k} f))
          ∗ (bigSep Finset.univ fun s : Fin 16 => ((wQ c s).view.loc (c : Thread nD τ) ↦[(wQ c s).view.set]{shQ s} f))
          ∗ (bigSep Finset.univ fun j : Fin 6 => ((wD c j).view.loc (c : Thread nD τ) ↦[(wD c j).view.set]{shD j} f))
          ∗ argRest c f) :=
  ⟨Entails.of_eq (split_arg_eq c f), Entails.of_eq (split_arg_eq c f).symm⟩

/-- The same with the four local copies' windows written out one by one. -/
theorem split_arg4_eq (c : Dev nD) (f : Buf Val ((c : Thread nD τ).loc main_arg0)) :
    ((((c : Thread nD τ).loc main_arg0) ↦{fullShare} f) : sProp 𝕃)
      = iprop((((wL c 0).view.loc (c : Thread nD τ) ↦[(wL c 0).view.set]{shL 0} f)
            ∗ ((wL c 1).view.loc (c : Thread nD τ) ↦[(wL c 1).view.set]{shL 1} f)
            ∗ ((wL c 2).view.loc (c : Thread nD τ) ↦[(wL c 2).view.set]{shL 2} f)
            ∗ ((wL c 3).view.loc (c : Thread nD τ) ↦[(wL c 3).view.set]{shL 3} f))
          ∗ (bigSep Finset.univ fun s : Fin 16 => ((wQ c s).view.loc (c : Thread nD τ) ↦[(wQ c s).view.set]{shQ s} f))
          ∗ (bigSep Finset.univ fun j : Fin 6 => ((wD c j).view.loc (c : Thread nD τ) ↦[(wD c j).view.set]{shD j} f))
          ∗ argRest c f) := by
  rw [split_arg_eq c f, arg_bigSep_fin4]; rfl

theorem split_arg4 (c : Dev nD) (f : Buf Val ((c : Thread nD τ).loc main_arg0)) :
    ((((c : Thread nD τ).loc main_arg0) ↦{fullShare} f) : sProp 𝕃)
      ⊣⊢ iprop((((wL c 0).view.loc (c : Thread nD τ) ↦[(wL c 0).view.set]{shL 0} f)
            ∗ ((wL c 1).view.loc (c : Thread nD τ) ↦[(wL c 1).view.set]{shL 1} f)
            ∗ ((wL c 2).view.loc (c : Thread nD τ) ↦[(wL c 2).view.set]{shL 2} f)
            ∗ ((wL c 3).view.loc (c : Thread nD τ) ↦[(wL c 3).view.set]{shL 3} f))
          ∗ (bigSep Finset.univ fun s : Fin 16 => ((wQ c s).view.loc (c : Thread nD τ) ↦[(wQ c s).view.set]{shQ s} f))
          ∗ (bigSep Finset.univ fun j : Fin 6 => ((wD c j).view.loc (c : Thread nD τ) ↦[(wD c j).view.set]{shD j} f))
          ∗ argRest c f) :=
  ⟨Entails.of_eq (split_arg4_eq c f), Entails.of_eq (split_arg4_eq c f).symm⟩

end ArgStatements

/-! ## The result array and the VMEM buffer it is copied from, cut into four quarters by rows

For every device the four quarters start at the rows 0, 1024, 2048, 3072 in some order and at column 0, each
1024 rows by 1024 columns: their row ranges are pairwise apart and together are all 4096 rows. -/

section Out

/-- Every quarter starts at column 0. -/
theorem offO_col : ∀ (c : Dev nD) (k : Fin 4), offO c k 1 = 0 := by decide +kernel
/-- Every quarter starts at a multiple of 1024 that is at most 3072. -/
theorem offO_row : ∀ (c : Dev nD) (k : Fin 4), offO c k 0 % 1024 = 0 ∧ offO c k 0 ≤ 3072 := by decide +kernel
/-- Different quarters start at different rows. -/
theorem offO_inj : ∀ (c : Dev nD) (k k' : Fin 4), k ≠ k' → offO c k 0 ≠ offO c k' 0 := by decide +kernel
/-- Each of the four row blocks is some quarter's. -/
theorem offO_surj : ∀ (c : Dev nD) (q : Fin 4), ∃ k : Fin 4, offO c k 0 = 1024 * q.val := by decide +kernel

/-- Quarter `k` as a rectangle of the 4096 × 1024 shape. -/
abbrev rO (c : Dev nD) (k : Fin 4) : Rect S4096x1024 := Rect.unit (s := S4096x1024) (offO c k) S1024x1024.size (offO_inb c k)

/-- Different quarters have no element in common: their row ranges are apart. -/
theorem rO_disjoint (c : Dev nD) {k k' : Fin 4} (h : k ≠ k') : Disjoint (rO c k).set (rO c k').set := by
  refine Rect.unit_disjoint (0 : Fin 2) ?_
  have h1 := offO_row c k
  have h2 := offO_row c k'
  have h3 := offO_inj c k k' h
  have hs : S1024x1024.size (0 : Fin 2) = 1024 := rfl
  rw [hs]
  omega

/-- The four quarters are the whole shape: a row lies in the quarter that starts at its block of 1024. -/
theorem rO_cover (c : Dev nD) : (Finset.univ : Finset (Fin 4)).biUnion (fun k => (rO c k).set) = Finset.univ := by
  ext i
  simp only [Finset.mem_biUnion, Finset.mem_univ, true_and, iff_true]
  have hi0 : (i (0 : Fin 2) : Nat) < 4096 := (i (0 : Fin 2)).isLt
  have hi1 : (i (1 : Fin 2) : Nat) < 1024 := (i (1 : Fin 2)).isLt
  obtain ⟨k, hk⟩ := offO_surj c ⟨(i (0 : Fin 2) : Nat) / 1024, by omega⟩
  refine ⟨k, Rect.mem_set_unit.mpr ?_⟩
  intro a
  have hc := offO_col c k
  have hs0 : S1024x1024.size (0 : Fin 2) = 1024 := rfl
  have hs1 : S1024x1024.size (1 : Fin 2) = 1024 := rfl
  match a with
  | (0 : Fin 2) => rw [hs0, hk]; simp only []; omega
  | (1 : Fin 2) => rw [hs1, hc]; omega

end Out

section Quarters
variable {ℓ : Loc nD τ sig}

/-- A buffer held whole is its four pieces, when the pieces are pairwise apart and together are everything. -/
theorem split_quarters (K : Fin 4 → Finset (Idx ℓ)) (hd : ∀ k k', k ≠ k' → Disjoint (K k) (K k'))
    (hc : (Finset.univ : Finset (Fin 4)).biUnion K = Finset.univ) (f : Buf Val ℓ) :
    (ℓ ↦{fullShare} f : sProp 𝕃) = bigSep Finset.univ fun k : Fin 4 => ℓ ↦[K k]{fullShare} f := by
  rw [← pointsTo_biUnion Finset.univ K (fun t _ t' _ h => hd t t' h), hc]

/-- Four such pieces, each at contents of its own, are the buffer held whole at contents that agree with each
    piece's on that piece. -/
theorem join_quarters (K : Fin 4 → Finset (Idx ℓ)) (hd : ∀ k k', k ≠ k' → Disjoint (K k) (K k'))
    (hc : (Finset.univ : Finset (Fin 4)).biUnion K = Finset.univ) (g : Fin 4 → Buf Val ℓ) :
    (bigSep Finset.univ fun k : Fin 4 => ℓ ↦[K k]{fullShare} g k : sProp 𝕃)
      ⊢ iprop(∃ f, ⌜∀ k, ∀ i ∈ K k, f i = g k i⌝ ∗ ℓ ↦{fullShare} f) := by
  refine (pointsTo_biUnion_join Finset.univ K g (g 0) (fun t _ t' _ h => hd t t' h)).trans ?_
  rw [hc]
  iintro ⟨%f, %hf, H⟩
  iexists f
  isplitr [H]
  · ipureintro; exact fun k i hi => hf k (Finset.mem_univ k) i hi
  · iexact H

end Quarters

section OutArr

/-- The elements of quarter `k` of the result array, and of the VMEM buffer, as elements of the array. -/
abbrev oQset (c : Dev nD) (k : Fin 4) : Finset (Idx ((c : Thread nD τ).loc main_v1)) := (oQ c k).view.set
abbrev vQset (c : Dev nD) (k : Fin 4) : Finset (Idx ((c : Thread nD τ).loc cc0_scratch9)) := (vQ c k).view.set

/-- They are the rectangle's. -/
theorem oQ_set (c : Dev nD) (k : Fin 4) : oQset c k = (rO c k).set := View.set_slice_whole main_v1 (rO c k)
theorem vQ_set (c : Dev nD) (k : Fin 4) : vQset c k = (rO c k).set := View.set_slice_whole cc0_scratch9 (rO c k)

theorem oQ_disjoint (c : Dev nD) (k k' : Fin 4) (h : k ≠ k') : Disjoint (oQset c k) (oQset c k') := by
  rw [oQ_set, oQ_set]; exact rO_disjoint c h
theorem vQ_disjoint (c : Dev nD) (k k' : Fin 4) (h : k ≠ k') : Disjoint (vQset c k) (vQset c k') := by
  rw [vQ_set, vQ_set]; exact rO_disjoint c h
theorem oQ_cover (c : Dev nD) : (Finset.univ : Finset (Fin 4)).biUnion (oQset c) = Finset.univ := by
  rw [show oQset c = fun k => (rO c k).set from funext (oQ_set c)]; exact rO_cover c
theorem vQ_cover (c : Dev nD) : (Finset.univ : Finset (Fin 4)).biUnion (vQset c) = Finset.univ := by
  rw [show vQset c = fun k => (rO c k).set from funext (vQ_set c)]; exact rO_cover c

end OutArr

section OutStatements

/-- The result array held whole is its four quarters. -/
theorem split_out (c : Dev nD) (f : Buf Val ((c : Thread nD τ).loc main_v1)) :
    ((((c : Thread nD τ).loc main_v1) ↦{fullShare} f) : sProp 𝕃)
      ⊢ bigSep Finset.univ fun k : Fin 4 => ((oQ c k).view.loc (c : Thread nD τ) ↦[(oQ c k).view.set]{fullShare} f) :=
  Entails.of_eq (split_quarters (oQset c) (oQ_disjoint c) (oQ_cover c) f)

/-- Its four quarters, each at contents of its own, are the result array held whole at contents that read
    through each quarter what that quarter's contents read. -/
theorem join_out (c : Dev nD) (g : Fin 4 → Buf Val ((c : Thread nD τ).loc main_v1)) :
    (bigSep Finset.univ fun k : Fin 4 => ((oQ c k).view.loc (c : Thread nD τ) ↦[(oQ c k).view.set]{fullShare} g k) : sProp 𝕃)
      ⊢ iprop(∃ f, ⌜∀ k, (oQ c k).view.read Val f = (oQ c k).view.read Val (g k)⌝ ∗ (((c : Thread nD τ).loc main_v1) ↦{fullShare} f)) := by
  refine (join_quarters (oQset c) (oQ_disjoint c) (oQ_cover c) g).trans ?_
  iintro ⟨%f, %hf, H⟩
  iexists f
  isplitr [H]
  · ipureintro; exact fun k => View.read_congr (v := (oQ c k).view) (hf k)
  · iexact H

/-- The VMEM buffer held whole is its four quarters. -/
theorem split_outv (c : Dev nD) (f : Buf Val ((c : Thread nD τ).loc cc0_scratch9)) :
    ((((c : Thread nD τ).loc cc0_scratch9) ↦{fullShare} f) : sProp 𝕃)
      ⊢ bigSep Finset.univ fun k : Fin 4 => ((vQ c k).view.loc (c : Thread nD τ) ↦[(vQ c k).view.set]{fullShare} f) :=
  Entails.of_eq (split_quarters (vQset c) (vQ_disjoint c) (vQ_cover c) f)

/-- Its four quarters, each at contents of its own, are the VMEM buffer held whole at contents that read
    through each quarter what that quarter's contents read. -/
theorem join_outv (c : Dev nD) (g : Fin 4 → Buf Val ((c : Thread nD τ).loc cc0_scratch9)) :
    (bigSep Finset.univ fun k : Fin 4 => ((vQ c k).view.loc (c : Thread nD τ) ↦[(vQ c k).view.set]{fullShare} g k) : sProp 𝕃)
      ⊢ iprop(∃ f, ⌜∀ k, (vQ c k).view.read Val f = (vQ c k).view.read Val (g k)⌝ ∗ (((c : Thread nD τ).loc cc0_scratch9) ↦{fullShare} f)) := by
  refine (join_quarters (vQset c) (vQ_disjoint c) (vQ_cover c) g).trans ?_
  iintro ⟨%f, %hf, H⟩
  iexists f
  isplitr [H]
  · ipureintro; exact fun k => View.read_congr (v := (vQ c k).view) (hf k)
  · iexact H

end OutStatements

end Cert.KernelIdeal.Rs

end
-- ==== Proof.BodyCtx.lean ====
/- What the body's proof starts from, piece by piece: the device's ghost state and credit, and every buffer cut
   into the pieces the kernel moves — the scratch buffers into their blocks and planes, the argument into the
   windows the local copies read (at shares, the rest kept aside), the result and its VMEM buffer into quarters. -/
import proofs.«901030_g7700000000001031_dist_rs_v7x_xyz2x2x2_z_m4096_n1024_bf16_1_alg».proof.Proof.BodySpec
import proofs.«901030_g7700000000001031_dist_rs_v7x_xyz2x2x2_z_m4096_n1024_bf16_1_alg».proof.Proof.Split
import proofs.«901030_g7700000000001031_dist_rs_v7x_xyz2x2x2_z_m4096_n1024_bf16_1_alg».proof.Proof.SplitArg

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def scr0 (c : Dev nD) (f : Buf (Elt F) ((c : Thread nD τ).loc cc0_scratch0)) : sProp 𝕄 :=
  bigSep Finset.univ fun s : Fin 16 => ((xqM s).view.loc (c : Thread nD τ) ↦[(xqM s).view.set]{fullShare} f)
def scr1 (c : Dev nD) (f : Buf (Elt F) ((c : Thread nD τ).loc cc0_scratch1)) : sProp 𝕄 :=
  bigSep Finset.univ fun j : Fin 6 => ((xdM j).view.loc (c : Thread nD τ) ↦[(xdM j).view.set]{fullShare} f)
def scr2 (c : Dev nD) (f : Buf (Elt F) ((c : Thread nD τ).loc cc0_scratch2)) : sProp 𝕄 :=
  bigSep Finset.univ fun k : Fin 4 => ((xlM k).view.loc (c : Thread nD τ) ↦[(xlM k).view.set]{fullShare} f)
def scr3 (c : Dev nD) (f : Buf (Elt F) ((c : Thread nD τ).loc cc0_scratch3)) : sProp 𝕄 :=
  bigSep Finset.univ fun s : Fin 16 => ((bA s).view.loc (c : Thread nD τ) ↦[(bA s).view.set]{fullShare} f)
def scr4 (c : Dev nD) (f : Buf (Elt F) ((c : Thread nD τ).loc cc0_scratch4)) : sProp 𝕄 :=
  bigSep Finset.univ fun j : Fin 6 => ((bD j).view.loc (c : Thread nD τ) ↦[(bD j).view.set]{fullShare} f)
def scr9 (c : Dev nD) (f : Buf (Elt F) ((c : Thread nD τ).loc cc0_scratch9)) : sProp 𝕄 :=
  bigSep Finset.univ fun k : Fin 4 => ((vQ c k).view.loc (c : Thread nD τ) ↦[(vQ c k).view.set]{fullShare} f)

/-- The argument array cut into the local copies' windows (each at its own share) and the rest. -/
def argPieces (c : Dev nD) (f : Buf (Elt F) ((c : Thread nD τ).loc main_arg0)) : sProp 𝕄 :=
  iprop((((wL c 0).view.loc (c : Thread nD τ) ↦[(wL c 0).view.set]{shL 0} f) ∗ ((wL c 1).view.loc (c : Thread nD τ) ↦[(wL c 1).view.set]{shL 1} f)
      ∗ ((wL c 2).view.loc (c : Thread nD τ) ↦[(wL c 2).view.set]{shL 2} f) ∗ ((wL c 3).view.loc (c : Thread nD τ) ↦[(wL c 3).view.set]{shL 3} f))
    ∗ (bigSep Finset.univ fun s : Fin 16 => ((wQ c s).view.loc (c : Thread nD τ) ↦[(wQ c s).view.set]{shQ s} f))
    ∗ (bigSep Finset.univ fun j : Fin 6 => ((wD c j).view.loc (c : Thread nD τ) ↦[(wD c j).view.set]{shD j} f))
    ∗ argRest c f)
/-- The result array cut into its four quarters. -/
def outPieces (c : Dev nD) (f : Buf (Elt F) ((c : Thread nD τ).loc main_v1)) : sProp 𝕄 :=
  bigSep Finset.univ fun k : Fin 4 => ((oQ c k).view.loc (c : Thread nD τ) ↦[(oQ c k).view.set]{fullShare} f)

/-- Everything the body's proof starts from. -/
def bodyPre (K : Dev nD × CK → ℕ) (c : Dev nD) : sProp 𝕄 :=
  iprop(ghost m K c ∗ cred (tallyAt (barCell c) () 3) ∗ (bigSep Finset.univ fun i : Fin 64 => cred (tallyAt (dcell c (rN i)) () Nb))
    ∗ levAts L lv ∗ localSems c
    ∗ (∃ f0 f1 f2 f3 f4 fq fx fy fr f9, scr0 c f0 ∗ scr1 c f1 ∗ scr2 c f2 ∗ scr3 c f3 ∗ scr4 c f4
        ∗ ownZ c fq fr ∗ ownX c fx fr ∗ ownY c fy fr ∗ scr9 c f9)
    ∗ argPieces c (m ((c : Thread nD τ).loc main_arg0))
    ∗ outPieces c (m ((c : Thread nD τ).loc main_v1)))

/-- What the body's proof ends with: every send and receive cell one round on (its only round done), the local
    counters at zero, nothing owed; every scratch piece back at some contents — a forwarded block in the shares it
    was lent and kept at —; the argument's pieces as they were; the result's quarters, each holding what the VMEM
    buffer's quarter held when it was copied out. -/
def bodyPost (K : Dev nD × CK → ℕ) (c : Dev nD) : sProp 𝕄 :=
  iprop(records m K
    ∗ (bigSep Finset.univ fun i : Fin 64 => atPos ER (dcell c (sN i)) 1 ∅ 0)
    ∗ (bigSep Finset.univ fun i : Fin 64 => atPos ER (dcell c (rN i)) 1 ∅ 0)
    ∗ localSems c ∗ (∃ W, owes (c : Thread nD τ) 0 W)
    ∗ (bigSep Finset.univ fun s : Fin 16 => pex c fullShare (xqM s))
    ∗ (bigSep Finset.univ fun j : Fin 6 => pex c fullShare (xdM j))
    ∗ (bigSep Finset.univ fun k : Fin 4 => pex c fullShare (xlM k))
    ∗ (bigSep Finset.univ fun s : Fin 16 => pex c fullShare (bA s))
    ∗ (bigSep Finset.univ fun j : Fin 6 => pex c fullShare (bD j))
    ∗ (bigSep Finset.univ fun s : Fin 16 => iprop(pex c shX (bQ s) ∗ pex c shY (bQ s) ∗ pex c shK (bQ s)))
    ∗ (bigSep Finset.univ fun s : Fin 16 => if s.val < 11 then pex c fullShare (bX s) else iprop(pex c shX (bX s) ∗ pex c shY (bX s) ∗ pex c shK (bX s)))
    ∗ (bigSep Finset.univ fun s : Fin 16 => if 6 ≤ s.val ∧ s.val < 11 then iprop(pex c shX (bY s) ∗ pex c fullShare.right (bY s)) else pex c fullShare (bY s))
    ∗ (bigSep Finset.univ fun s : Fin 16 => pex c fullShare (bR s))
    ∗ (bigSep Finset.univ fun k : Fin 4 => pex c fullShare (vQ c k))
    ∗ argPieces c (m ((c : Thread nD τ).loc main_arg0))
    ∗ ∃ h : Fin 4 → Buf (Elt F) ((c : Thread nD τ).loc main_v1),
        ⌜∀ k, ∃ g, QuarterOK m c k g ∧ (oQ c k).view.read (Elt F) (h k) = (vQ c k).view.read (Elt F) g⌝
        ∗ bigSep Finset.univ fun k : Fin 4 => ((oQ c k).view.loc (c : Thread nD τ) ↦[(oQ c k).view.set]{fullShare} h k))

end Cert.KernelIdeal.Rs

end
-- ==== Proof.BodyIn.lean ====
/- From the launch's resources to the body's starting point: every scratch buffer, held whole at some contents,
   is cut into its blocks or planes; the landing buffers' blocks are grouped by the neighbour that will write
   them; the argument is lent out by shares and the result array and its VMEM source are cut into quarters. -/
import proofs.«901030_g7700000000001031_dist_rs_v7x_xyz2x2x2_z_m4096_n1024_bf16_1_alg».proof.Proof.BodyCtx

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Regrouping chains of blocks -/

section Chains

omit [FloatOps F] in
/-- Two resources that entail each other are one. -/
private theorem eq_of_entails {P Q : sProp 𝕄} (h₁ : P ⊢ Q) (h₂ : Q ⊢ P) : P = Q := BI.Entails.antisymm h₁ h₂

omit [FloatOps F] in
/-- Separating conjunction associates. -/
private theorem sep_assoc_eq (P Q R : sProp 𝕄) : iprop((P ∗ Q) ∗ R) = iprop(P ∗ Q ∗ R) := by
  refine eq_of_entails ?_ ?_
  · iintro ⟨⟨HP, HQ⟩, HR⟩
    isplitl [HP]; · iexact HP
    isplitl [HQ]; · iexact HQ
    iexact HR
  · iintro ⟨HP, HQ, HR⟩
    isplitr [HR]
    · isplitl [HP]; · iexact HP
      iexact HQ
    iexact HR

omit [FloatOps F] in
/-- Three groups and a triple regrouped pairwise. -/
private theorem regroup6 (A B C D E G : sProp 𝕄) : iprop(A ∗ B ∗ C ∗ (D ∗ E ∗ G)) = iprop((A ∗ D) ∗ (B ∗ E) ∗ (C ∗ G)) := by
  refine eq_of_entails ?_ ?_
  · iintro ⟨HA, HB, HC, HD, HE, HG⟩
    isplitl [HA HD]
    · isplitl [HA]; · iexact HA
      iexact HD
    isplitl [HB HE]
    · isplitl [HB]; · iexact HB
      iexact HE
    isplitl [HC]; · iexact HC
    iexact HG
  · iintro ⟨⟨HA, HD⟩, ⟨HB, HE⟩, HC, HG⟩
    isplitl [HA]; · iexact HA
    isplitl [HB]; · iexact HB
    isplitl [HC]; · iexact HC
    isplitl [HD]; · iexact HD
    isplitl [HE]; · iexact HE
    iexact HG

omit [FloatOps F] in
/-- Sixteen blocks in a row are the first six, the next five and the last five. -/
private theorem chain16_split (R : Fin 16 → sProp 𝕄) :
    iprop(R 0 ∗ R 1 ∗ R 2 ∗ R 3 ∗ R 4 ∗ R 5 ∗ R 6 ∗ R 7 ∗ R 8 ∗ R 9 ∗ R 10 ∗ R 11 ∗ R 12 ∗ R 13 ∗ R 14 ∗ R 15)
      = iprop((R 0 ∗ R 1 ∗ R 2 ∗ R 3 ∗ R 4 ∗ R 5) ∗ (R 6 ∗ R 7 ∗ R 8 ∗ R 9 ∗ R 10) ∗ (R 11 ∗ R 12 ∗ R 13 ∗ R 14 ∗ R 15)) := by
  simp only [sep_assoc_eq]

omit [FloatOps F] in
/-- Sixteen blocks in a row, then more: one row. -/
private theorem chain16_app (Q : Fin 16 → sProp 𝕄) (A : sProp 𝕄) :
    iprop((Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15) ∗ A)
      = iprop(Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15 ∗ A) := by
  simp only [sep_assoc_eq]

omit [FloatOps F] in
/-- The four landing buffers' blocks, buffer by buffer, regrouped by the neighbour that writes them: the
    diagonal buffer's blocks 0–5 go with the first buffer, 6–10 with the second, 11–15 with the third. -/
private theorem own_of_chains (Q X Y R : Fin 16 → sProp 𝕄) :
    iprop((Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15) ∗ (X 0 ∗ X 1 ∗ X 2 ∗ X 3 ∗ X 4 ∗ X 5 ∗ X 6 ∗ X 7 ∗ X 8 ∗ X 9 ∗ X 10 ∗ X 11 ∗ X 12 ∗ X 13 ∗ X 14 ∗ X 15) ∗ (Y 0 ∗ Y 1 ∗ Y 2 ∗ Y 3 ∗ Y 4 ∗ Y 5 ∗ Y 6 ∗ Y 7 ∗ Y 8 ∗ Y 9 ∗ Y 10 ∗ Y 11 ∗ Y 12 ∗ Y 13 ∗ Y 14 ∗ Y 15) ∗ (R 0 ∗ R 1 ∗ R 2 ∗ R 3 ∗ R 4 ∗ R 5 ∗ R 6 ∗ R 7 ∗ R 8 ∗ R 9 ∗ R 10 ∗ R 11 ∗ R 12 ∗ R 13 ∗ R 14 ∗ R 15))
      = iprop((Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15 ∗ R 0 ∗ R 1 ∗ R 2 ∗ R 3 ∗ R 4 ∗ R 5)
          ∗ (X 0 ∗ X 1 ∗ X 2 ∗ X 3 ∗ X 4 ∗ X 5 ∗ X 6 ∗ X 7 ∗ X 8 ∗ X 9 ∗ X 10 ∗ X 11 ∗ X 12 ∗ X 13 ∗ X 14 ∗ X 15 ∗ R 6 ∗ R 7 ∗ R 8 ∗ R 9 ∗ R 10)
          ∗ (Y 0 ∗ Y 1 ∗ Y 2 ∗ Y 3 ∗ Y 4 ∗ Y 5 ∗ Y 6 ∗ Y 7 ∗ Y 8 ∗ Y 9 ∗ Y 10 ∗ Y 11 ∗ Y 12 ∗ Y 13 ∗ Y 14 ∗ Y 15 ∗ R 11 ∗ R 12 ∗ R 13 ∗ R 14 ∗ R 15)) := by
  rw [chain16_split R, regroup6, chain16_app Q, chain16_app X, chain16_app Y]

omit [FloatOps F] in
/-- The same from the four buffers' blocks as they come: each buffer's sixteen blocks together. -/
private theorem own_of_bigSeps (Q X Y R : Fin 16 → sProp 𝕄) :
    iprop((bigSep Finset.univ Q) ∗ (bigSep Finset.univ X) ∗ (bigSep Finset.univ Y) ∗ (bigSep Finset.univ R))
      = iprop((Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15 ∗ R 0 ∗ R 1 ∗ R 2 ∗ R 3 ∗ R 4 ∗ R 5)
          ∗ (X 0 ∗ X 1 ∗ X 2 ∗ X 3 ∗ X 4 ∗ X 5 ∗ X 6 ∗ X 7 ∗ X 8 ∗ X 9 ∗ X 10 ∗ X 11 ∗ X 12 ∗ X 13 ∗ X 14 ∗ X 15 ∗ R 6 ∗ R 7 ∗ R 8 ∗ R 9 ∗ R 10)
          ∗ (Y 0 ∗ Y 1 ∗ Y 2 ∗ Y 3 ∗ Y 4 ∗ Y 5 ∗ Y 6 ∗ Y 7 ∗ Y 8 ∗ Y 9 ∗ Y 10 ∗ Y 11 ∗ Y 12 ∗ Y 13 ∗ Y 14 ∗ Y 15 ∗ R 11 ∗ R 12 ∗ R 13 ∗ R 14 ∗ R 15)) := by
  rw [bigSep_fin16, bigSep_fin16, bigSep_fin16, bigSep_fin16]
  exact own_of_chains Q X Y R

end Chains

/-! ## The landing buffers -/

/-- The four landing buffers held whole are their blocks, grouped by the neighbour that will write them. -/
theorem own_of_whole (c : Dev nD) (fq : Buf (Elt F) ((c : Thread nD τ).loc cc0_scratch5)) (fx : Buf (Elt F) ((c : Thread nD τ).loc cc0_scratch6))
    (fy : Buf (Elt F) ((c : Thread nD τ).loc cc0_scratch7)) (fr : Buf (Elt F) ((c : Thread nD τ).loc cc0_scratch8)) :
    (iprop((((c : Thread nD τ).loc cc0_scratch5) ↦{fullShare} fq) ∗ (((c : Thread nD τ).loc cc0_scratch6) ↦{fullShare} fx)
        ∗ (((c : Thread nD τ).loc cc0_scratch7) ↦{fullShare} fy) ∗ (((c : Thread nD τ).loc cc0_scratch8) ↦{fullShare} fr)) : sProp 𝕄)
      ⊢ iprop(ownZ c fq fr ∗ ownX c fx fr ∗ ownY c fy fr) := by
  refine (BIClass.sep_mono (split_bQ c fq) (BIClass.sep_mono (split_bX c fx) (BIClass.sep_mono (split_bY c fy) (split_bR c fr)))).trans ?_
  unfold ownZ ownX ownY
  exact Entails.of_eq (own_of_bigSeps
    (fun s => ((bQ s).view.loc (c : Thread nD τ) ↦[(bQ s).view.set]{fullShare} fq))
    (fun s => ((bX s).view.loc (c : Thread nD τ) ↦[(bX s).view.set]{fullShare} fx))
    (fun s => ((bY s).view.loc (c : Thread nD τ) ↦[(bY s).view.set]{fullShare} fy))
    (fun s => ((bR s).view.loc (c : Thread nD τ) ↦[(bR s).view.set]{fullShare} fr)))

/-! ## The body's starting point -/

theorem body_in (c : Dev nD) : Φ₀ m c ⊢ iprop(∃ K, bodyPre m K c) := by
  unfold Φ₀ bodyPre scratchAll scr0 scr1 scr2 scr3 scr4 scr9 argPieces outPieces
  rw [Gen.scopedRest0_eq]
  iintro ⟨⟨%K, HG⟩, Hc1, Hc2, Hlev, Hsem, ⟨⟨%f0, H0⟩, ⟨%f1, H1⟩, ⟨%f2, H2⟩, ⟨%f3, H3⟩, ⟨%f4, H4⟩, ⟨%fq, H5⟩, ⟨%fx, H6⟩, ⟨%fy, H7⟩, ⟨%fr, H8⟩, ⟨%f9, H9⟩⟩, Harg, Hout⟩
  iexists K
  isplitl [HG]; · iexact HG
  isplitl [Hc1]; · iexact Hc1
  isplitl [Hc2]; · iexact Hc2
  isplitl [Hlev]; · iexact Hlev
  isplitl [Hsem]; · iexact Hsem
  isplitr [Harg Hout]
  · iexists f0, f1, f2, f3, f4, fq, fx, fy, fr, f9
    isplitl [H0]; · iapply (split_xqM c f0); iexact H0
    isplitl [H1]; · iapply (split_xdM c f1); iexact H1
    isplitl [H2]; · iapply (split_xlM c f2); iexact H2
    isplitl [H3]; · iapply (split_bA c f3); iexact H3
    isplitl [H4]; · iapply (split_bD c f4); iexact H4
    ihave Hown := (own_of_whole c fq fx fy fr) $$ [H5 H6 H7 H8]
    · isplitl [H5]; · iexact H5
      isplitl [H6]; · iexact H6
      isplitl [H7]; · iexact H7
      iexact H8
    icases Hown with ⟨HZ, HX, HY⟩
    isplitl [HZ]; · iexact HZ
    isplitl [HX]; · iexact HX
    isplitl [HY]; · iexact HY
    iapply (split_outv c f9); iexact H9
  isplitl [Harg]
  · iapply (split_arg4 c _).1; iexact Harg
  · iapply (split_out c _); iexact Hout

end Cert.KernelIdeal.Rs

end
-- ==== Proof.BodyObl.lean ====
/- The body obligation the launch asks of every device, from the two halves of the body's proof: the run of the
   body from its starting point to its end point, and the way back from the end point to the launch's invariant. -/
import proofs.«901030_g7700000000001031_dist_rs_v7x_xyz2x2x2_z_m4096_n1024_bf16_1_alg».proof.Proof.BodyIn
import Idealize.ShloMosaic.Lib.Pipeline.Launch

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The pipeline stages nothing: a resource indexed by its windows is empty. -/
theorem univ_W_empty : (Finset.univ : Finset (Fin cfg0.W)) = ∅ := Finset.eq_empty_of_forall_notMem fun w => w.elim0

/-- The first half of the body's proof: from its starting point, owing what the device owes at launch, the body runs
    to its end point (and then to whatever the caller wants of the end point). -/
abbrev BodyRuns : Prop :=
  ∀ (K : Dev nD × CK → ℕ) (c : Dev nD) (W : Waits sig Unit) (Kt : PUnit → sProp 𝕄),
      iprop(bodyPre m K c ∗ owes (c : Thread nD τ) (O₀ c) W ∗ (bodyPost m K c -∗ Kt ⟨⟩))
        ⊢ wp frame (wpE (defs₀ (F := F)) Variants.none c none) Set.univ
            (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt

/-- The second half: from the body's end point the launch's closing invariant is reached, nothing owed. -/
abbrev BodyEnds : Prop :=
  ∀ (K : Dev nD × CK → ℕ) (c : Dev nD), bodyPost m K c ⊢ |={Set.univ}=> iprop(Φ₁ m c ∗ ∃ W, owes (c : Thread nD τ) 0 W)

/- The kernel's body is compared as a name, never unfolded: the obligation only has to recognise it. -/
attribute [local irreducible] cc0_body

set_option maxRecDepth 8000 in
/-- The library's body obligation on device `c`: one grid point, no windows. From the launch's invariant the body's
    starting point is opened; the body runs to its end point; from there the launch's closing invariant is
    reached through an update, which the run's last step absorbs. -/
theorem body_obligation_of
    (hrun : BodyRuns m) (hout : BodyEnds m)
    (c : Dev nD) : BodyObligation (dats (F := F) m 0 c) (defs₀ (F := F)) 𝒱₀ () Set.univ := fun t => by
  have ht := Gen.fin_N0 t
  subst ht
  rw [univ_W_empty, bigSep_empty, bigSep_empty]
  show iprop(Φ₀ m c ∗ (dats m 0 c).owesAt () Gen.t0_0.castSucc ∗ emp)
    ⊢ wp frame (wpE (defs₀ (F := F)) Variants.none c none) Set.univ
        (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25)
        (fun _ => iprop(Φ₁ m c ∗ (dats m 0 c).owesAt () Gen.t0_0.succ ∗ emp))
  refine BIBase.Entails.trans ?_ (wp_fupd frame (wpE (defs₀ (F := F)) Variants.none c none) Set.univ _ _)
  unfold Dat.owesAt Pipeline.owesWithin
  iintro ⟨HΦ, ⟨%W, %hW, Ho⟩, -⟩
  ihave Hpre := (body_in m c) $$ HΦ
  icases Hpre with ⟨%K, Hpre⟩
  iapply (hrun K c W _)
  isplitl [Hpre]; · iexact Hpre
  isplitl [Ho]; · iexact Ho
  iintro Hpost
  imod (hout K c) $$ Hpost with ⟨HΦ1, ⟨%W', Ho'⟩⟩
  imodintro
  isplitl [HΦ1]; · iexact HΦ1
  isplitl [Ho']
  · iexists W'
    isplitr
    · ipureintro; exact fun x _ => Or.inl (Set.mem_univ x)
    · iexact Ho'
  · iempintro

end Cert.KernelIdeal.Rs

end
-- ==== Proof.LaunchA.lean ====
/- The launch of the protocol: the protocol's cells and the tokens of their duties as the launch element funds
   them; what each device is dealt; the global step that allocates every cell's invariant and deals each device the
   tokens of the duties it pays; the credit each device finds on its own barrier and receive cells. -/
import proofs.«901030_g7700000000001031_dist_rs_v7x_xyz2x2x2_z_m4096_n1024_bf16_1_alg».proof.Proof.BodySpec
import Idealize.ShloMosaic.Lib.Pipeline.Launch
import Idealize.ShloMosaic.Lib.Pipeline.Kit
import Idealize.SL.ProofMode.BigOp

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores, and the schedule's payloads as invariant contents -/

/-- The kernel's own semaphores: its 158 DMA semaphores. -/
abbrev osem : Fin 158 → SemLoc sig := fun n => .dma n

theorem ownSemFacts : Pipeline.OwnSemFacts cfg0.spec osem :=
  ⟨by decide, fun a b h => SemLoc.dma.inj h, fun k w => w.elim0⟩

instance pex_storable (c : Dev nD) (q : PosShare TreeShare) {sp : Space} {S : Shape} {e : EltTy} (M : Memref sig .tc sp S e) :
    BI.Storable (upEmb : UEmb _ 𝕄) (pex (F := F) c q M) := by unfold pex; infer_instance
instance ptr_storable (c : Dev nD) {sp : Space} {S : Shape} {e : EltTy} (M : Memref sig .tc sp S e) (x : S.Idx → Elt F e) :
    BI.Storable (upEmb : UEmb _ 𝕄) (ptr c M x) := by unfold ptr; infer_instance

instance Rd_payload_storable (g : GSem nD τ sig) (r : ℕ) (d : DN) :
    BI.Storable (upEmb : UEmb _ 𝕄) ((Rd (F := F) m).payload g r d) := by
  show BI.Storable upEmb (match g.2 with
    | .reg _ => (match d with | 0 => landZ (zp g.1.1) | 1 => landX (xn g.1.1) | 2 => landY (yn g.1.1))
    | .dma n => if n.val < 94 then sendPay g.1.1 (n.val - 30) else recvPay m g.1.1 (n.val - 94))
  unfold landZ landX landY sendPay recvPay
  (repeat' split) <;> infer_instance

/-! ## The protocol's cells and the tokens of their duties -/

theorem sN_inj {i j : Fin 64} (h : sN i = sN j) : i = j :=
  Fin.ext (by have h' : 30 + i.val = 30 + j.val := congrArg Fin.val h; omega)
theorem rN_inj {i j : Fin 64} (h : rN i = rN j) : i = j :=
  Fin.ext (by have h' : 94 + i.val = 94 + j.val := congrArg Fin.val h; omega)
theorem sN_ne_rN (i j : Fin 64) : sN i ≠ rN j := fun h => by
  have h' : 30 + i.val = 94 + j.val := congrArg Fin.val h
  omega

theorem ckSem_injective : Function.Injective ckSem := by
  rintro (u | i | i) (u' | j | j) h
  · rfl
  · cases h
  · cases h
  · cases h
  · rw [sN_inj (SemLoc.dma.inj h)]
  · exact absurd (SemLoc.dma.inj h) (sN_ne_rN i j)
  · cases h
  · exact absurd (SemLoc.dma.inj h).symm (sN_ne_rN j i)
  · rw [rN_inj (SemLoc.dma.inj h)]

theorem kcell_injective : Function.Injective (kcell : Dev nD × CK → GSem nD τ sig) := by
  rintro ⟨c, k⟩ ⟨c', k'⟩ h
  have h1 : c = c' := congrArg (fun g : GSem nD τ sig => g.1.1) h
  subst h1
  have h2 : ckSem k = ckSem k' := congrArg Prod.snd h
  rw [ckSem_injective h2]

/-- The cells of the protocol, of all devices. -/
def protoCells : Finset (GSem nD τ sig) := Finset.univ.map ⟨kcell, kcell_injective⟩

/-- The duties of one device's cells: its barrier's three, one on each send cell, one on each receive cell. -/
abbrev TK : Type := DN ⊕ (Fin 64 ⊕ Fin 64)
def tkSem : TK → SemLoc sig × DN
  | .inl d => (.reg barS, d)
  | .inr (.inl i) => (.dma (sN i), 0)
  | .inr (.inr i) => (.dma (rN i), 0)
theorem tkSem_injective : Function.Injective tkSem := by
  rintro (d | i | i) (d' | j | j) h
  · rw [show d = d' from congrArg Prod.snd h]
  · exact absurd (congrArg Prod.fst h) (fun h' => by cases h')
  · exact absurd (congrArg Prod.fst h) (fun h' => by cases h')
  · exact absurd (congrArg Prod.fst h) (fun h' => by cases h')
  · rw [sN_inj (SemLoc.dma.inj (congrArg Prod.fst h))]
  · exact absurd (SemLoc.dma.inj (congrArg Prod.fst h)) (sN_ne_rN i j)
  · exact absurd (congrArg Prod.fst h) (fun h' => by cases h')
  · exact absurd (SemLoc.dma.inj (congrArg Prod.fst h)).symm (sN_ne_rN j i)
  · rw [rN_inj (SemLoc.dma.inj (congrArg Prod.fst h))]

abbrev tokOf (ct : Dev nD × TK) : GSem nD τ sig × ℕ × DN := (((ct.1 : Thread nD τ), (tkSem ct.2).1), 0, (tkSem ct.2).2)
theorem tokOf_injective : Function.Injective (tokOf : Dev nD × TK → GSem nD τ sig × ℕ × DN) := by
  rintro ⟨c, t⟩ ⟨c', t'⟩ h
  have h1 : c = c' := congrArg (fun x : GSem nD τ sig × ℕ × DN => x.1.1.1) h
  subst h1
  have h2 : tkSem t = tkSem t' := Prod.ext (congrArg (fun x : GSem nD τ sig × ℕ × DN => x.1.2) h) (congrArg (fun x : GSem nD τ sig × ℕ × DN => x.2.2) h)
  rw [tkSem_injective h2]
def protoToks : Finset (GSem nD τ sig × ℕ × DN) := Finset.univ.map ⟨tokOf, tokOf_injective⟩

/-- The launch element: the pipeline library's cells and tokens, the protocol's, and no counter. -/
def u₀ : UU :=
  (initOf (Pipeline.cells cfgs cellOf_inj) (Pipeline.launchToks cfgs cellOf_inj), (initOf protoCells protoToks, 1))

/-- The duty tokens of device c's own cells. -/
def toks (c : Dev nD) : sProp 𝕄 :=
  iprop((bigSep Finset.univ fun d : DN => dutyTok ER (barCell c) 0 d)
    ∗ (bigSep Finset.univ fun i : Fin 64 => dutyTok ER (dcell c (sN i)) 0 0)
    ∗ bigSep Finset.univ fun i : Fin 64 => dutyTok ER (dcell c (rN i)) 0 0)

/-- What the launch element deals device c: its own cells' round states, positions and reached facts, and its own
    cells' duty tokens. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : CK => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_sum]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at launch -/

/-- The 158 DMA semaphores: the 30 of the local copies, the 64 send cells, the 64 receive cells. -/
def semE : Fin 30 ⊕ (Fin 64 ⊕ Fin 64) ≃ Fin 158 where
  toFun := fun
    | .inl n => ⟨n.val, by omega⟩
    | .inr (.inl i) => sN i
    | .inr (.inr i) => rN i
  invFun n :=
    if h : n.val < 30 then .inl ⟨n.val, h⟩
    else if h2 : n.val < 94 then .inr (.inl ⟨n.val - 30, by omega⟩)
    else .inr (.inr ⟨n.val - 94, by omega⟩)
  left_inv := by
    rintro (n | i | i)
    · show (if h : n.val < 30 then (Sum.inl ⟨n.val, h⟩ : Fin 30 ⊕ (Fin 64 ⊕ Fin 64)) else _) = _
      rw [dif_pos n.isLt]
    · show (if h : 30 + i.val < 30 then (Sum.inl ⟨30 + i.val, h⟩ : Fin 30 ⊕ (Fin 64 ⊕ Fin 64)) else
        if h2 : 30 + i.val < 94 then .inr (.inl ⟨30 + i.val - 30, by omega⟩) else .inr (.inr ⟨30 + i.val - 94, by omega⟩)) = _
      rw [dif_neg (by omega), dif_pos (by omega)]
      exact congrArg (fun x => Sum.inr (Sum.inl x)) (Fin.ext (Nat.add_sub_cancel_left _ _))
    · show (if h : 94 + i.val < 30 then (Sum.inl ⟨94 + i.val, h⟩ : Fin 30 ⊕ (Fin 64 ⊕ Fin 64)) else
        if h2 : 94 + i.val < 94 then .inr (.inl ⟨94 + i.val - 30, by omega⟩) else .inr (.inr ⟨94 + i.val - 94, by omega⟩)) = _
      rw [dif_neg (by omega), dif_neg (by omega)]
      exact congrArg (fun x => Sum.inr (Sum.inr x)) (Fin.ext (Nat.add_sub_cancel_left _ _))
  right_inv := by
    intro n
    by_cases h : n.val < 30
    · simp only [dif_pos h]
    · by_cases h2 : n.val < 94
      · simp only [dif_neg h, dif_pos h2]; exact Fin.ext (by show 30 + (n.val - 30) = n.val; omega)
      · simp only [dif_neg h, dif_neg h2]; exact Fin.ext (by show 94 + (n.val - 94) = n.val; omega)

omit [FloatOps F] in
theorem allSems_split (c : Dev nD) : (allSems c : sProp 𝕄)
    = iprop(localSems c ∗ (bigSep Finset.univ fun i : Fin 64 => semVal (dcell c (sN i)) 0) ∗ bigSep Finset.univ fun i : Fin 64 => semVal (dcell c (rN i)) 0) := by
  unfold allSems localSems
  rw [bigSep_univ_equiv semE (fun n : Fin 158 => (semVal (dcell c n) 0 : sProp 𝕄)), bigSep_univ_sum, bigSep_univ_sum]; rfl

omit [FloatOps F] in
/-- A family over a device's protocol cells: at the barrier cell, the send cells, the receive cells. -/
theorem bigSep_CK (Φ : CK → sProp 𝕄) : bigSep Finset.univ Φ
    = iprop(Φ (.inl ()) ∗ (bigSep Finset.univ fun i : Fin 64 => Φ (.inr (.inl i))) ∗ bigSep Finset.univ fun i : Fin 64 => Φ (.inr (.inr i))) := by
  rw [bigSep_univ_sum, bigSep_univ_sum, bigSep_univ_of_subsingleton ()]; rfl

omit [FloatOps F] in
/-- The kernel's own semaphores are all the DMA semaphores; -/
theorem ownSems0_eq (c : Dev nD) : (Pipeline.ownSems0 (Ix := Unit) (Name := ℕ) (U := UU) (Lvl := ℕ) (Val := Elt F) (τ := τ) osem c : sProp 𝕄) = allSems c := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ localSems c) : sProp 𝕄) := by
  have hck : (bigSep Finset.univ fun k : CK => (semVal (kcell (c, k)) 0 : sProp 𝕄))
      = iprop(semVal (barCell c) 0 ∗ (bigSep Finset.univ fun i : Fin 64 => semVal (dcell c (sN i)) 0) ∗ bigSep Finset.univ fun i : Fin 64 => semVal (dcell c (rN i)) 0) :=
    bigSep_CK _
  rw [ownSems0_eq, allSems_split, unscopedSems0_eq, hck]
  iintro ⟨⟨HL, HS, HV⟩, HB⟩
  isplitr [HL]
  · isplitl [HB]; · iexact HB
    isplitl [HS] <;> iassumption
  · iexact HL

/-! ## The global step: every cell's invariant allocated, the tokens dealt to their payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- What the global step makes of a device's share: the ghost state at some names, and the local counters. -/
def G' (c : Dev nD) : sProp 𝕄 := iprop(∃ K, ghost m K c ∗ localSems c)

theorem ghost_intro (K : Dev nD × CK → ℕ) (c : Dev nD) : iprop(records m K ∗ (positions c ∗ payToks c ∗ localSems c)) ⊢ G' m c := by
  unfold G' ghost
  iintro ⟨#HR, HP, HT, HL⟩
  iexists K
  isplitr [HL]
  · isplitr; · iexact HR
    isplitl [HP] <;> iassumption
  · iexact HL

/-- Copy i goes to and comes from the same neighbour. -/
def prE (i : Fin 64) : Dev nD ≃ Dev nD := ⟨pr i, pr i, pr_pr i, pr_pr i⟩

omit [FloatOps F] in
/-- The tokens dealt to their payers: a barrier's duty 0, 1, 2 token to the owner's z-partner, x- and y-neighbour; a
    receive cell's token to the device whose copy lands there. -/
theorem toks_around : (bigSep Finset.univ fun c : Dev nD => (toks c : sProp 𝕄)) ⊢ bigSep Finset.univ fun c : Dev nD => payToks c := by
  have e0 : (bigSep Finset.univ fun c : Dev nD => (dutyTok ER (barCell c) 0 (0 : DN) : sProp 𝕄)) = bigSep Finset.univ fun c : Dev nD => dutyTok ER (barCell (zp c)) 0 (0 : DN) :=
    bigSep_univ_equiv zpE (fun c : Dev nD => (dutyTok ER (barCell c) 0 (0 : DN) : sProp 𝕄))
  have e1 : (bigSep Finset.univ fun c : Dev nD => (dutyTok ER (barCell c) 0 (1 : DN) : sProp 𝕄)) = bigSep Finset.univ fun c : Dev nD => dutyTok ER (barCell (xn c)) 0 (1 : DN) :=
    bigSep_univ_equiv xnE (fun c : Dev nD => (dutyTok ER (barCell c) 0 (1 : DN) : sProp 𝕄))
  have e2 : (bigSep Finset.univ fun c : Dev nD => (dutyTok ER (barCell c) 0 (2 : DN) : sProp 𝕄)) = bigSep Finset.univ fun c : Dev nD => dutyTok ER (barCell (yn c)) 0 (2 : DN) :=
    bigSep_univ_equiv ynE (fun c : Dev nD => (dutyTok ER (barCell c) 0 (2 : DN) : sProp 𝕄))
  have eR : (bigSep Finset.univ fun c : Dev nD => bigSep Finset.univ fun i : Fin 64 => (dutyTok ER (dcell c (rN i)) 0 (0 : DN) : sProp 𝕄))
      = bigSep Finset.univ fun c : Dev nD => bigSep Finset.univ fun i : Fin 64 => dutyTok ER (dcell (pr i c) (rN i)) 0 (0 : DN) := by
    rw [bigSep_univ_comm (fun (c : Dev nD) (i : Fin 64) => (dutyTok ER (dcell c (rN i)) 0 (0 : DN) : sProp 𝕄)),
      bigSep_univ_comm (fun (c : Dev nD) (i : Fin 64) => (dutyTok ER (dcell (pr i c) (rN i)) 0 (0 : DN) : sProp 𝕄))]
    exact bigSep_congr fun i _ => bigSep_univ_equiv (prE i) (fun c : Dev nD => (dutyTok ER (dcell c (rN i)) 0 (0 : DN) : sProp 𝕄))
  unfold toks payToks
  simp only [bigSep_fin3, bigSep_sep']
  rw [e0, e1, e2, eR]
  iintro ⟨⟨H0, H1, H2⟩, HS, HR⟩
  isplitl [H0]; · iexact H0
  isplitl [H1]; · iexact H1
  isplitl [H2]; · iexact H2
  isplitl [HS] <;> iassumption

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, HL⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) (fun c : Dev nD => iprop(payToks c ∗ localSems c))).symm)
    isplitl [Hat]; · unfold positions; iexact Hat
    iapply (Entails.of_eq (bigSep_sep' Finset.univ (fun c : Dev nD => (payToks c : sProp 𝕄)) (fun c : Dev nD => (localSems c : sProp 𝕄))).symm)
    isplitl [Htk] <;> iassumption

/-- The global step: own and unscoped counters of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

omit [FloatOps F] in
/-- Every device d owing n units on the semaphore sm of device f d, f an involution of the devices: device c finds n units
    of credit on its own sm. -/
theorem cred_at (n : ℕ) (sm : SemLoc sig) (f : Dev nD → Dev nD) (hf : ∀ c, f (f c) = c) (c : Dev nD) :
    (Pipeline.launchCred (fun d : Dev nD => (tallyAt (((f d).tc : Thread nD τ), sm) () n : CellTallies nD τ sig Unit)) c : sProp 𝕄)
      ⊢ cred (tallyAt ((c.tc : Thread nD τ), sm) () n) :=
  Pipeline.launchCred_tallyAt sm f f hf hf () n c

omit [FloatOps F] in
theorem cred_recv (i : Fin 64) (c : Dev nD) :
    (Pipeline.launchCred (fun d : Dev nD => (tallyAt (dcell (pr i d) (rN i)) () Nb : CellTallies nD τ sig Unit)) c : sProp 𝕄)
      ⊢ cred (tallyAt (dcell c (rN i)) () Nb) := cred_at Nb (SemLoc.dma (rN i)) (pr i) (pr_pr i) c

omit [FloatOps F] in
/-- What the launch deals a device for what the others owe its cells: three units on its barrier cell (one from each
    neighbour), a block's credit on each receive cell (from the one device whose copy lands there). -/
theorem creds (c : Dev nD) :
    (Pipeline.launchCred O₀ c : sProp 𝕄)
      ⊢ iprop(cred (tallyAt (barCell c) () 3) ∗ bigSep Finset.univ fun i : Fin 64 => cred (tallyAt (dcell c (rN i)) () Nb)) := by
  have hO : (O₀ : Dev nD → CellTallies nD τ sig Unit) = fun d => (((∑ i ∈ (Finset.univ : Finset (Fin 64)), tallyAt (dcell (pr i d) (rN i)) () Nb)
      + tallyAt (barCell (yn d)) () 1) + tallyAt (barCell (xn d)) () 1) + tallyAt (barCell (zp d)) () 1 := rfl
  rw [hO, Pipeline.launchCred_add, Pipeline.launchCred_add, Pipeline.launchCred_add,
    Pipeline.launchCred_sum Finset.univ (fun (i : Fin 64) (d : Dev nD) => (tallyAt (dcell (pr i d) (rN i)) () Nb : CellTallies nD τ sig Unit))]
  have hS : (bigSep Finset.univ fun i : Fin 64 => Pipeline.launchCred (fun d : Dev nD => (tallyAt (dcell (pr i d) (rN i)) () Nb : CellTallies nD τ sig Unit)) c : sProp 𝕄)
      ⊢ bigSep Finset.univ fun i : Fin 64 => cred (tallyAt (dcell c (rN i)) () Nb) :=
    bigSep_mono fun (i : Fin 64) _ => cred_recv (F := F) i c
  iintro ⟨⟨⟨HS, HY⟩, HX⟩, HZ⟩
  ihave HY' := (cred_at (F := F) 1 (SemLoc.reg barS) yn yn_yn c) $$ HY
  ihave HX' := (cred_at (F := F) 1 (SemLoc.reg barS) xn xn_xn c) $$ HX
  ihave HZ' := (cred_at (F := F) 1 (SemLoc.reg barS) zp zp_zp c) $$ HZ
  isplitl [HY' HX' HZ']
  · iapply (cred3 (F := F) (barCell c))
    isplitl [HY']; · iexact HY'
    isplitl [HX'] <;> iassumption
  · iapply hS
    iexact HS

end Cert.KernelIdeal.Rs

end
-- ==== Proof.Launch.lean ====
/- The launch: from any memory with zero counters, every fair execution of the eight devices' kernels terminates, and
   every final state has each device's result array at contents the body vouches for and its argument unchanged;
   given the proof of one device's body. -/
import proofs.«901030_g7700000000001031_dist_rs_v7x_xyz2x2x2_z_m4096_n1024_bf16_1_alg».proof.Proof.LaunchA

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

theorem share_eq (c : Dev nD) (w : Fin cfg0.W) : (dats m 0 c).share w = fullShare := w.elim0

omit [FloatOps F] in
theorem L_of_ne (g : GSem nD τ sig) (h : g.1.2 ≠ .tc) : L g = ∅ := if_neg h

/-- The pipeline stages nothing: it has no cell to wait on. -/
theorem waits (c : Dev nD) : (levAts L lv : sProp 𝕄) ⊢ Pipeline.cellsWaits cfgs (dats m) () 0 c :=
  Pipeline.cellsWaits_intro cfgs (dats m) () 0 c fun w s t => w.elim0

/-- What a device holds before the region is entered: everything the body starts from but the scratch buffers. -/
def X (c : Dev nD) : sProp 𝕄 :=
  iprop((∃ K, ghost m K c) ∗ cred (tallyAt (barCell c) () 3) ∗ (bigSep Finset.univ fun i : Fin 64 => cred (tallyAt (dcell c (rN i)) () Nb))
    ∗ levAts L lv ∗ localSems c
    ∗ (((c : Thread nD τ).loc main_arg0) ↦{fullShare} m ((c : Thread nD τ).loc main_arg0))
    ∗ (((c : Thread nD τ).loc main_v1) ↦{fullShare} m ((c : Thread nD τ).loc main_v1)))

/-- What it holds of the two arrays after the region. -/
def Y (c : Dev nD) : sProp 𝕄 :=
  iprop((((c : Thread nD τ).loc main_arg0) ↦{fullShare} m ((c : Thread nD τ).loc main_arg0))
    ∗ ∃ f, ⌜OutOK m c f⌝ ∗ (((c : Thread nD τ).loc main_v1) ↦{fullShare} f))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Ha, Hv⟩, Hlev, Hcr, -, HG⟩
  ihave Hc := (creds (F := F) c) $$ Hcr
  icases Hc with ⟨H3, HN⟩
  unfold G'
  icases HG with ⟨%K, Hg, HL⟩
  imodintro
  unfold X
  isplitl
  · isplitl [Hg]; · iexists K; iexact Hg
    isplitl [H3]; · iexact H3
    isplitl [HN]; · iexact HN
    isplitl [Hlev]; · iexact Hlev
    isplitl [HL]; · iexact HL
    isplitl [Ha] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ X scratchAll
  iintro ⟨⟨Hg, H3, HN, Hlev, HL, Ha, Hv⟩, -, Hs⟩
  isplitl [Hg]; · iexact Hg
  isplitl [H3]; · iexact H3
  isplitl [HN]; · iexact HN
  isplitl [Hlev]; · iexact Hlev
  isplitl [HL]; · iexact HL
  isplitl [Hs]; · iexact Hs
  isplitl [Ha] <;> iassumption

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, ownSems0_eq]
  unfold Φ₁ Y scratchAll
  iintro ⟨Hz, Hs, Ha, Hv⟩
  isplitl [Ha Hv]
  · isplitl [Ha] <;> iassumption
  isplitl [Hz] <;> iassumption

/-! ## The run -/

set_option maxRecDepth 8000 in
/-- At the compiled mesh of eight devices, for any float values, from any memory with zero counters: given the proof of
    one device's body, every weakly fair execution of @main terminates, and every final state has each device's
    result array at contents the body vouches for and its argument array unchanged. -/
theorem run_main (hbody : ∀ c : Dev nD, BodyObligation (dats (F := F) m 0 c) (defs₀ (F := F)) 𝒱₀ () Set.univ) :
    θ_run defs (onTc (τ := τ) (main (F := F))) (s₀ m ρ)
      (fun r => ∀ c : Dev nD, OutOK m c (r.2.mem ((c : Thread nD τ).loc main_v1))
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_proto m) $$ HR with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => OutOK m c (s.mem ((c : Thread nD τ).loc main_v1)) ∧ s.mem ((c : Thread nD τ).loc main_arg0) = m ((c : Thread nD τ).loc main_arg0))
    (hY := fun c s' => by
      unfold Y
      iintro ⟨⟨Ha, ⟨%f, %hf, Hv⟩⟩, -, HSI⟩
      icombine HSI Ha gives %ha
      icombine HSI Hv gives %hv
      imodintro
      isplitr
      · ipureintro; exact ⟨(Buf.eq_of_forall_mem_univ hv) ▸ hf, Buf.eq_of_forall_mem_univ ha⟩
      iexact HSI)
    (hQ := fun s h c => (h c).2.2)

/-- info: 'Cert.KernelIdeal.Rs.run_main' depends on axioms: [propext, Classical.choice, Quot.sound] -/
#guard_msgs in #print axioms run_main

end Cert.KernelIdeal.Rs

end
-- ==== Proof.Assemble.lean ====
/- The kernel's side of the claim at any float instance, from the two halves of the body's proof: every fair
   execution of the eight devices terminates; each device's result array ends at contents the body vouches for and
   its argument array ends unchanged. The frame is that run with the result's contents dropped. -/
import proofs.«901030_g7700000000001031_dist_rs_v7x_xyz2x2x2_z_m4096_n1024_bf16_1_alg».proof.Proof.BodyObl
import proofs.«901030_g7700000000001031_dist_rs_v7x_xyz2x2x2_z_m4096_n1024_bf16_1_alg».proof.Proof.Launch

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The run with its strongest post: the result at contents the body vouches for, the argument unchanged. -/
theorem kernel_run (hrun : BodyRuns m) (hout : BodyEnds m) (ρ : Dev nD → PrngReg) :
    θ_run defs (onTc (τ := τ) (main (F := F))) ⟨m, fun _ => 0, ρ⟩
      (fun r => ∀ c : Dev nD, OutOK m c (r.2.mem ((c : Thread nD τ).loc main_v1))
        ∧ r.2.mem ((c : Thread nD τ).loc main_arg0) = m ((c : Thread nD τ).loc main_arg0)) :=
  run_main m ρ (body_obligation_of m hrun hout)

/-- The frame: the same run, keeping only that the argument is unchanged. -/
theorem kernel_frame (hrun : BodyRuns m) (hout : BodyEnds m) (ρ : Dev nD → PrngReg) :
    θ_run defs (onTc (τ := τ) (main (F := F))) ⟨m, fun _ => 0, ρ⟩
      (fun r => ∀ c : Dev nD, r.2.mem ((c : Thread nD τ).loc main_arg0) = m ((c : Thread nD τ).loc main_arg0)) :=
  (θ_run defs _ _).mono (fun _ h c => (h c).2) (kernel_run m hrun hout ρ)

end Cert.KernelIdeal.Rs

end
-- ==== Proof.BodyOut.lean ====
/- From what the body's proof ends with to what the launch takes back: the send and receive cells close and give their
   counters back at zero; the shares of a forwarded block join; the blocks of each scratch buffer join into the buffer
   whole at some contents; the argument's pieces are the argument as it was; the result's quarters are the result at
   contents that read, quarter by quarter, as the VMEM buffer did when it was copied out. -/
import proofs.«901030_g7700000000001031_dist_rs_v7x_xyz2x2x2_z_m4096_n1024_bf16_1_alg».proof.Proof.BodyCtx
import proofs.«901030_g7700000000001031_dist_rs_v7x_xyz2x2x2_z_m4096_n1024_bf16_1_alg».proof.Proof.LaunchA

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ)

/-! ## The cells close -/

/-- A send cell, its only round done, closes: its counter is the device's again, at zero. -/
theorem close_send (K : Dev nD × CK → ℕ) (c : Dev nD) (i : Fin 64) :
    iprop(records m K ∗ atPos ER (dcell c (sN i)) 1 ∅ 0) ⊢ (|={Set.univ}=> semVal (dcell c (sN i)) 0 : sProp 𝕄) := by
  have hI : (bigSep Finset.univ fun ck : Dev nD × CK => (cellInv ER (Rd m) (K ck) (kcell ck) : sProp 𝕄))
      ⊢ cellInv ER (Rd m) (K (c, .inr (.inl i))) (dcell c (sN i)) := bigSep_elim (Finset.mem_univ ((c, Sum.inr (Sum.inl i)) : Dev nD × CK))
  unfold records
  iintro ⟨⟨HI, -⟩, Hat⟩
  ihave Hinv := hI $$ HI
  iapply (Rounds.cell_close ER (Rd m) (Set.mem_univ (K (c, .inr (.inl i)))) (fun h => h) (R := 0 + 1) (duties_later m (dcell c (sN i))))
  isplitl [Hinv]; · iexact Hinv
  iexact Hat

/-- A receive cell likewise. -/
theorem close_recv (K : Dev nD × CK → ℕ) (c : Dev nD) (i : Fin 64) :
    iprop(records m K ∗ atPos ER (dcell c (rN i)) 1 ∅ 0) ⊢ (|={Set.univ}=> semVal (dcell c (rN i)) 0 : sProp 𝕄) := by
  have hI : (bigSep Finset.univ fun ck : Dev nD × CK => (cellInv ER (Rd m) (K ck) (kcell ck) : sProp 𝕄))
      ⊢ cellInv ER (Rd m) (K (c, .inr (.inr i))) (dcell c (rN i)) := bigSep_elim (Finset.mem_univ ((c, Sum.inr (Sum.inr i)) : Dev nD × CK))
  unfold records
  iintro ⟨⟨HI, -⟩, Hat⟩
  ihave Hinv := hI $$ HI
  iapply (Rounds.cell_close ER (Rd m) (Set.mem_univ (K (c, .inr (.inr i)))) (fun h => h) (R := 0 + 1) (duties_later m (dcell c (rN i))))
  isplitl [Hinv]; · iexact Hinv
  iexact Hat

/-- All 128 at once. -/
theorem close_cells (K : Dev nD × CK → ℕ) (c : Dev nD) :
    iprop(records m K ∗ (bigSep Finset.univ fun i : Fin 64 => atPos ER (dcell c (sN i)) 1 ∅ 0) ∗ (bigSep Finset.univ fun i : Fin 64 => atPos ER (dcell c (rN i)) 1 ∅ 0))
      ⊢ (|={Set.univ}=> iprop((bigSep Finset.univ fun i : Fin 64 => semVal (dcell c (sN i)) 0) ∗ bigSep Finset.univ fun i : Fin 64 => semVal (dcell c (rN i)) 0) : sProp 𝕄) := by
  have hS : iprop(records m K ∗ bigSep Finset.univ fun i : Fin 64 => atPos ER (dcell c (sN i)) 1 ∅ 0)
      ⊢ (|={Set.univ}=> bigSep Finset.univ fun i : Fin 64 => semVal (dcell c (sN i)) 0 : sProp 𝕄) :=
    (bigSep_with_persistent (R := records m K) fun i _ => close_send m K c i).trans (bigSep_fupd _ _)
  have hR : iprop(records m K ∗ bigSep Finset.univ fun i : Fin 64 => atPos ER (dcell c (rN i)) 1 ∅ 0)
      ⊢ (|={Set.univ}=> bigSep Finset.univ fun i : Fin 64 => semVal (dcell c (rN i)) 0 : sProp 𝕄) :=
    (bigSep_with_persistent (R := records m K) fun i _ => close_recv m K c i).trans (bigSep_fupd _ _)
  iintro ⟨#HR, HS, HV⟩
  imod hS $$ [HS] with HzS
  · isplitr; · iexact HR
    iexact HS
  imod hR $$ [HV] with HzV
  · isplitr; · iexact HR
    iexact HV
  imodintro
  isplitl [HzS] <;> iassumption

/-! ## The shares of a forwarded block join -/

/-- A piece held at some contents at each of two shares that make up a third is held at some contents at the third:
    the two contents agree on the piece. -/
theorem pex_merge (c : Dev nD) {sp : Space} {S : Shape} {e : EltTy} (M : Memref sig .tc sp S e) {q q₁ q₂ : PosShare TreeShare} (h : q ∈ q₁ ·? q₂) :
    iprop(pex c q₁ M ∗ pex c q₂ M) ⊢ (pex c q M : sProp 𝕄) := by
  rw [pex_def, pex_def, pex_def]
  iintro ⟨⟨%f₁, H1⟩, ⟨%f₂, H2⟩⟩
  icombine H1 H2 as H12
  ihave %hag := pointsTo_agree $$ H12
  icases H12 with ⟨H1, H2⟩
  ihave H2' := (Entails.of_eq (pointsTo_congr (f := f₂) (g := f₁) fun i hi => ((hag i (Finset.mem_inter.mpr ⟨hi, hi⟩)).1).symm)) $$ H2
  iexists f₁
  iapply (pointsTo_share h).2
  isplitl [H1] <;> iassumption

/-- The three shares a block forwarded twice was lent and kept at. -/
theorem pex_merge3 (c : Dev nD) {sp : Space} {S : Shape} {e : EltTy} (M : Memref sig .tc sp S e) :
    iprop(pex c shX M ∗ pex c shY M ∗ pex c shK M) ⊢ (pex c fullShare M : sProp 𝕄) := by
  iintro ⟨HX, HY, HK⟩
  ihave HR := (pex_merge (F := F) c M (PosShare.mem_left_op_right fullShare.right)) $$ [HY HK]
  · isplitl [HY] <;> iassumption
  iapply (pex_merge (F := F) c M (PosShare.mem_left_op_right fullShare))
  isplitl [HX] <;> iassumption

omit [FloatOps F] in
theorem ent_refl (P : sProp 𝕄) : P ⊢ P := Entails.of_eq rfl

/-- A block forwarded twice, lent at two shares and kept at the third, is held at the full share again. -/
theorem bQ_full (c : Dev nD) :
    (bigSep Finset.univ fun s : Fin 16 => iprop(pex c shX (bQ s) ∗ pex c shY (bQ s) ∗ pex c shK (bQ s)) : sProp 𝕄)
      ⊢ bigSep Finset.univ fun s : Fin 16 => pex c fullShare (bQ s) :=
  bigSep_mono fun s _ => pex_merge3 c (bQ s)

/-- Blocks 11–15 of the x-neighbour's landing buffer, held in three shares like a block forwarded twice, are held at the full share again. -/
theorem bX_full (c : Dev nD) :
    (bigSep Finset.univ fun s : Fin 16 => if s.val < 11 then pex c fullShare (bX s) else iprop(pex c shX (bX s) ∗ pex c shY (bX s) ∗ pex c shK (bX s)) : sProp 𝕄)
      ⊢ bigSep Finset.univ fun s : Fin 16 => pex c fullShare (bX s) :=
  bigSep_mono fun s _ => by
    split_ifs with h
    · exact ent_refl _
    · exact pex_merge3 c (bX s)

/-- Blocks 6–10 of the y-neighbour's landing buffer, forwarded once (lent at one share, kept at the other), are held at the full share again. -/
theorem bY_full (c : Dev nD) :
    (bigSep Finset.univ fun s : Fin 16 => if 6 ≤ s.val ∧ s.val < 11 then iprop(pex c shX (bY s) ∗ pex c fullShare.right (bY s)) else pex c fullShare (bY s) : sProp 𝕄)
      ⊢ bigSep Finset.univ fun s : Fin 16 => pex c fullShare (bY s) :=
  bigSep_mono fun s _ => by
    split_ifs with h
    · exact pex_merge c (bY s) (PosShare.mem_left_op_right fullShare)
    · exact ent_refl _

/-! ## The scratch buffers whole again -/

/-- The four quarters of the VMEM result buffer, each at some contents, are the buffer at some contents. -/
theorem join_v9 (c : Dev nD) :
    (bigSep Finset.univ fun k : Fin 4 => iprop(∃ f, ((vQ c k).view.loc (c : Thread nD τ) ↦[(vQ c k).view.set]{fullShare} f)) : sProp 𝕄)
      ⊢ iprop(∃ f : Buf (Elt F) ((c : Thread nD τ).loc cc0_scratch9), ((c : Thread nD τ).loc cc0_scratch9) ↦{fullShare} f) :=
  join_family (ℓ := (c : Thread nD τ).loc cc0_scratch9) (fun k : Fin 4 => vQset c k) 0 (fun k k' h => vQ_disjoint c k k' h)
    (fun i => by
      have hi : i ∈ (Finset.univ : Finset (Fin 4)).biUnion (vQset c) := by rw [vQ_cover c]; exact Finset.mem_univ i
      obtain ⟨k, -, hk⟩ := Finset.mem_biUnion.mp hi
      exact ⟨k, hk⟩) fullShare

/-- Every block of every scratch buffer at some contents: the ten buffers, each whole at some contents. -/
theorem scratch_intro (c : Dev nD) :
    iprop((bigSep Finset.univ fun s : Fin 16 => pex c fullShare (xqM s))
      ∗ (bigSep Finset.univ fun j : Fin 6 => pex c fullShare (xdM j))
      ∗ (bigSep Finset.univ fun k : Fin 4 => pex c fullShare (xlM k))
      ∗ (bigSep Finset.univ fun s : Fin 16 => pex c fullShare (bA s))
      ∗ (bigSep Finset.univ fun j : Fin 6 => pex c fullShare (bD j))
      ∗ (bigSep Finset.univ fun s : Fin 16 => pex c fullShare (bQ s))
      ∗ (bigSep Finset.univ fun s : Fin 16 => pex c fullShare (bX s))
      ∗ (bigSep Finset.univ fun s : Fin 16 => pex c fullShare (bY s))
      ∗ (bigSep Finset.univ fun s : Fin 16 => pex c fullShare (bR s))
      ∗ (bigSep Finset.univ fun k : Fin 4 => pex c fullShare (vQ c k)))
      ⊢ (scratchAll c : sProp 𝕄) := by
  unfold scratchAll
  rw [scopedRest0_eq]
  simp only [pex_def]
  iintro ⟨H0, H1, H2, H3, H4, H5, H6, H7, H8, H9⟩
  isplitl [H0]; · iapply (join_xqM c); iexact H0
  isplitl [H1]; · iapply (join_xdM c); iexact H1
  isplitl [H2]; · iapply (join_xlM c); iexact H2
  isplitl [H3]; · iapply (join_bA c); iexact H3
  isplitl [H4]; · iapply (join_bD c); iexact H4
  isplitl [H5]; · iapply (join_bQ c); iexact H5
  isplitl [H6]; · iapply (join_bX c); iexact H6
  isplitl [H7]; · iapply (join_bY c); iexact H7
  isplitl [H8]; · iapply (join_bR c); iexact H8
  iapply (join_v9 (F := F) c); iexact H9

/-! ## The result -/

/-- The four quarters of the result, each reading as the VMEM buffer's quarter did, are the result array at contents the
    body vouches for. -/
theorem out_intro (c : Dev nD) :
    iprop(∃ h : Fin 4 → Buf (Elt F) ((c : Thread nD τ).loc main_v1),
        ⌜∀ k, ∃ g, QuarterOK m c k g ∧ (oQ c k).view.read (Elt F) (h k) = (vQ c k).view.read (Elt F) g⌝
        ∗ bigSep Finset.univ fun k : Fin 4 => ((oQ c k).view.loc (c : Thread nD τ) ↦[(oQ c k).view.set]{fullShare} h k))
      ⊢ (iprop(∃ f, ⌜OutOK m c f⌝ ∗ (((c : Thread nD τ).loc main_v1) ↦{fullShare} f)) : sProp 𝕄) := by
  iintro ⟨%h, %hh, H⟩
  ihave H' := (join_out c h) $$ H
  icases H' with ⟨%f, %hf, Hf⟩
  iexists f
  isplitr
  · ipureintro
    intro k
    obtain ⟨g, hq, e⟩ := hh k
    exact ⟨g, hq, (hf k).trans e⟩
  iexact Hf

/-! ## What the launch takes back -/

theorem body_out (K : Dev nD × CK → ℕ) (c : Dev nD) :
    bodyPost m K c ⊢ |={Set.univ}=> iprop(Φ₁ m c ∗ ∃ W, owes (c : Thread nD τ) 0 W) := by
  have hA : argPieces c (m ((c : Thread nD τ).loc main_arg0))
      ⊢ ((((c : Thread nD τ).loc main_arg0) ↦{fullShare} m ((c : Thread nD τ).loc main_arg0)) : sProp 𝕄) := by
    unfold argPieces; exact (split_arg4 c _).2
  unfold bodyPost
  iintro ⟨#HR, HatS, HatR, HL, HO, H0, H1, H2, H3, H4, HQ, HX, HY, HRr, H9, Harg, Hout⟩
  imod (close_cells m K c) $$ [HatS HatR] with ⟨HzS, HzR⟩
  · isplitr; · iexact HR
    isplitl [HatS] <;> iassumption
  imodintro
  ihave HQ' := (bQ_full (F := F) c) $$ HQ
  ihave HX' := (bX_full (F := F) c) $$ HX
  ihave HY' := (bY_full (F := F) c) $$ HY
  isplitr [HO]
  · unfold Φ₁
    isplitl [HL HzS HzR]
    · iapply (Entails.of_eq (allSems_split (F := F) c).symm)
      isplitl [HL]; · iexact HL
      isplitl [HzS] <;> iassumption
    isplitl [H0 H1 H2 H3 H4 HQ' HX' HY' HRr H9]
    · iapply (scratch_intro (F := F) c)
      isplitl [H0]; · iexact H0
      isplitl [H1]; · iexact H1
      isplitl [H2]; · iexact H2
      isplitl [H3]; · iexact H3
      isplitl [H4]; · iexact H4
      isplitl [HQ']; · iexact HQ'
      isplitl [HX']; · iexact HX'
      isplitl [HY']; · iexact HY'
      isplitl [HRr]; · iexact HRr
      iexact H9
    isplitl [Harg]
    · iapply hA; iexact Harg
    · iapply (out_intro m c); iexact Hout
  · iexact HO

/-- info: 'Cert.KernelIdeal.Rs.body_out' depends on axioms: [propext, Classical.choice, Quot.sound] -/
#guard_msgs in #print axioms body_out

end Cert.KernelIdeal.Rs

end
-- ==== Proof.OutSpec.lean ====
/- What the eight devices end holding and what the one-device program ends holding, each as a function
   of the argument arrays at the ideal instance, and the bridge between the two.
   The whole argument is two slabs of 4096 x 2048 numbers, stacked along dimension 0. A device whose z
   coordinate is z holds slab z. Its result is 4096 x 1024: the half of the columns its z names, of the
   entrywise sum of its own slab and the slab of the device with the other z. The one-device program adds
   the two slabs entrywise. So a device's result is block z, along the columns, of that sum: for z = 0 the
   two summands stand in the same order, for z = 1 in the other order, and addition of extended reals
   commutes. -/
import proofs.«901030_g7700000000001031_dist_rs_v7x_xyz2x2x2_z_m4096_n1024_bf16_1_alg».proof.Proof.Mesh
import proofs.«901030_g7700000000001031_dist_rs_v7x_xyz2x2x2_z_m4096_n1024_bf16_1_alg».proof.ReferenceIdeal
import Idealize.ShloMosaic.Lib.Layout
import Idealize.ShloMosaic.Lib.ValueIdx

noncomputable section

namespace Cert.KernelIdeal.Rs

open Idealize.ShloMosaic Idealize.ShloMosaic.ValueIdx

/-- Column `j` of a device's half of the columns, as a column of the whole row: the half its z coordinate names. -/
def colOf (c : Dev Cert.KernelIdeal.nD) (j : Fin 1024) : Fin 2048 :=
  ⟨1024 * (c.val % 2) + j.val, by have := j.isLt; omega⟩

theorem colOf_val (c : Dev Cert.KernelIdeal.nD) (j : Fin 1024) : (colOf c j).val = 1024 * (c.val % 2) + j.val := rfl

/-- What device `c` ends holding, of the devices' argument buffers `X`: at row `i 0` and column `i 1` of its
    half, its own slab's entry plus the entry of the device with the other z, both at that row and at the
    column of the whole row its half starts from. -/
def outI (X : (c : Dev Cert.KernelIdeal.nD) → Buf (Elt Ideal) ((c.tc : Thread Cert.KernelIdeal.nD Cert.KernelIdeal.τ).loc Cert.KernelIdeal.main_arg0))
    (c : Dev Cert.KernelIdeal.nD) : Buf (Elt Ideal) ((c.tc : Thread Cert.KernelIdeal.nD Cert.KernelIdeal.τ).loc Cert.KernelIdeal.main_v1) :=
  fun i => show EReal from
    (show EReal from X c (ix3 (0 : Fin 1) (i 0 : Fin 4096) (colOf c (i 1 : Fin 1024))))
      + (show EReal from X (zp c) (ix3 (0 : Fin 1) (i 0 : Fin 4096) (colOf c (i 1 : Fin 1024))))

/-- What the one-device program ends holding, of its argument `Y`: the entrywise sum of the two slabs. -/
def refOut (Y : Buf (Elt Ideal) (((0 : Dev Cert.ReferenceIdeal.nD).tc : Thread Cert.ReferenceIdeal.nD Cert.ReferenceIdeal.τ).loc Cert.ReferenceIdeal.main_arg0)) : Buf (Elt Ideal) (((0 : Dev Cert.ReferenceIdeal.nD).tc : Thread Cert.ReferenceIdeal.nD Cert.ReferenceIdeal.τ).loc Cert.ReferenceIdeal.main_v1) :=
  fun i => show EReal from
    (show EReal from Y (ix3 (0 : Fin 2) (i 0 : Fin 4096) (i 1 : Fin 2048)))
      + (show EReal from Y (ix3 (1 : Fin 2) (i 0 : Fin 4096) (i 1 : Fin 2048)))

/-- A device's block coordinate along an axis cut by the mesh's last axis is its z coordinate. -/
theorem lin_z (c : Dev Cert.KernelIdeal.nD) : Layout.meshLin [2, 2, 2] c.val [2] = c.val % 2 := by revert c; decide
/-- The device with the other z has the other z. -/
theorem zp_z (c : Dev Cert.KernelIdeal.nD) : (zp c).val % 2 = 1 - c.val % 2 := by revert c; decide

/-- Entry (0, r, q) of the slab a device holds is entry (z, r, q) of the whole argument, z its z coordinate. -/
theorem arg_block_apply (Y : (⟨3, ![2, 4096, 2048]⟩ : Shape).Idx → EReal) (c : Dev Cert.KernelIdeal.nD) (r : Fin 4096) (q : Fin 2048) :
    (Layout.blockN ⟨3, ![1, 4096, 2048]⟩ ⟨3, ![2, 4096, 2048]⟩ (Layout.meshBlock [2, 2, 2] ![[2], [], []] c) Y) (ix3 (0 : Fin 1) r q)
      = Y (ix3 (⟨c.val % 2, Nat.mod_lt _ (by decide)⟩ : Fin 2) r q) := by
  rw [Layout.blockN_apply]
  refine congrArg Y (funext fun b => Fin.ext ?_)
  rw [Layout.TilesN.idx_val]
  match b with
  | ⟨0, _⟩ =>
    show Layout.meshLin [2, 2, 2] c.val [2] * 1 + 0 = c.val % 2
    rw [lin_z]; omega
  | ⟨1, _⟩ =>
    show Layout.meshLin [2, 2, 2] c.val [] * 4096 + r.val = r.val
    show 0 * 4096 + r.val = r.val
    omega
  | ⟨2, _⟩ =>
    show Layout.meshLin [2, 2, 2] c.val [] * 2048 + q.val = q.val
    show 0 * 2048 + q.val = q.val
    omega

/-- Entry (r, j) of the block of columns a device's z names is entry (r, 1024 z + j) of the whole result. -/
theorem out_block_apply (V : (⟨2, ![4096, 2048]⟩ : Shape).Idx → EReal) (c : Dev Cert.KernelIdeal.nD) (i : (⟨2, ![4096, 1024]⟩ : Shape).Idx) :
    (Layout.blockN ⟨2, ![4096, 1024]⟩ ⟨2, ![4096, 2048]⟩ (Layout.meshBlock [2, 2, 2] ![[], [2]] c) V) i
      = V (ix2 (i 0 : Fin 4096) (colOf c (i 1 : Fin 1024))) := by
  rw [Layout.blockN_apply]
  refine congrArg V (funext fun b => Fin.ext ?_)
  rw [Layout.TilesN.idx_val]
  match b with
  | ⟨0, _⟩ =>
    show Layout.meshLin [2, 2, 2] c.val [] * 4096 + (i 0).val = (i 0).val
    show 0 * 4096 + (i 0).val = (i 0).val
    omega
  | ⟨1, _⟩ =>
    show Layout.meshLin [2, 2, 2] c.val [2] * 1024 + (i 1).val = 1024 * (c.val % 2) + (i 1).val
    rw [lin_z]; omega

/-- The two slabs' entries, taken in either order, add to the same extended real. -/
theorem two_slabs (f : Fin 2 → EReal) (z z' : Fin 2) (h : z'.val = 1 - z.val) : f z + f z' = f 0 + f 1 := by
  obtain ⟨z, hz⟩ := z
  obtain ⟨z', hz'⟩ := z'
  have hc : (z = 0 ∧ z' = 1) ∨ (z = 1 ∧ z' = 0) := by simp only at h; omega
  rcases hc with ⟨rfl, rfl⟩ | ⟨rfl, rfl⟩
  · rfl
  · exact add_comm (G := EReal) _ _

/-- THE BRIDGE. When every device's argument buffer is its slab of the one-device argument, every
    device's result `outI` is its block of columns of the one-device result `refOut`. -/
theorem outI_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) :
    ∀ c : Dev Cert.KernelIdeal.nD,
      outI (fun d => m ((d.tc : Thread Cert.KernelIdeal.nD Cert.KernelIdeal.τ).loc Cert.KernelIdeal.main_arg0)) c
        = Layout.blockN ⟨2, ![4096, 1024]⟩ ⟨2, ![4096, 2048]⟩ (Layout.meshBlock [2, 2, 2] ![[], [2]] c) (refOut (m' (((0 : Dev Cert.ReferenceIdeal.nD).tc : Thread Cert.ReferenceIdeal.nD Cert.ReferenceIdeal.τ).loc Cert.ReferenceIdeal.main_arg0))) := by
  intro c
  funext i
  have h1 := congrFun (hagree c) (ix3 (0 : Fin 1) (i 0 : Fin 4096) (colOf c (i 1 : Fin 1024)))
  have h2 := congrFun (hagree (zp c)) (ix3 (0 : Fin 1) (i 0 : Fin 4096) (colOf c (i 1 : Fin 1024)))
  have h1' := h1.trans (arg_block_apply (m' (((0 : Dev Cert.ReferenceIdeal.nD).tc : Thread Cert.ReferenceIdeal.nD Cert.ReferenceIdeal.τ).loc Cert.ReferenceIdeal.main_arg0)) c (i 0 : Fin 4096) (colOf c (i 1 : Fin 1024)))
  have h2' := h2.trans (arg_block_apply (m' (((0 : Dev Cert.ReferenceIdeal.nD).tc : Thread Cert.ReferenceIdeal.nD Cert.ReferenceIdeal.τ).loc Cert.ReferenceIdeal.main_arg0)) (zp c) (i 0 : Fin 4096) (colOf c (i 1 : Fin 1024)))
  refine (congrArg₂ (fun a b : EReal => a + b) h1' h2').trans ?_
  refine Eq.trans ?_ (out_block_apply (refOut (m' (((0 : Dev Cert.ReferenceIdeal.nD).tc : Thread Cert.ReferenceIdeal.nD Cert.ReferenceIdeal.τ).loc Cert.ReferenceIdeal.main_arg0))) c i).symm
  exact two_slabs (fun z => m' (((0 : Dev Cert.ReferenceIdeal.nD).tc : Thread Cert.ReferenceIdeal.nD Cert.ReferenceIdeal.τ).loc Cert.ReferenceIdeal.main_arg0) (ix3 z (i 0 : Fin 4096) (colOf c (i 1 : Fin 1024)))) _ _ (zp_z c)

/-- info: 'Cert.KernelIdeal.Rs.outI_block' depends on axioms: [propext, Classical.choice, Quot.sound] -/
#guard_msgs in #print axioms outI_block

end Cert.KernelIdeal.Rs

end
-- ==== Proof.RefSide.lean ====
/- The one-device program at the ideal instance. It adds its argument's two slabs entrywise, starting
   from the zero word, and then changes the format of the sum; on extended reals the zero word is 0 and a
   change of format is the identity, so the result is the entrywise sum of the two slabs, `refOut`.
   Its run, read back, ends with the result at that sum and the argument unchanged; dropping the
   result gives the frame. -/
import proofs.«901030_g7700000000001031_dist_rs_v7x_xyz2x2x2_z_m4096_n1024_bf16_1_alg».proof.Proof.OutSpec
import proofs.«901030_g7700000000001031_dist_rs_v7x_xyz2x2x2_z_m4096_n1024_bf16_1_alg».proof.Defs
import proofs.«901030_g7700000000001031_dist_rs_v7x_xyz2x2x2_z_m4096_n1024_bf16_1_alg».proof.Proof.Gen.ReferenceIdeal.Run
import proofs.«901030_g7700000000001031_dist_rs_v7x_xyz2x2x2_z_m4096_n1024_bf16_1_alg».proof.Proof.Gen.ReferenceIdeal.Read
import proofs.«901030_g7700000000001031_dist_rs_v7x_xyz2x2x2_z_m4096_n1024_bf16_1_alg».proof.Proof.Gen.Pre_finite_inputs_ReferenceIdeal

noncomputable section

namespace Cert.KernelIdeal.Rs

open Idealize.ShloMosaic Idealize.SL.Sem Idealize.ShloMosaic.ValueIdx

/-- The index the reduction reads for slab `k` at result index `i` is (k, row, column). -/
theorem ref_idx (i : Cert.ReferenceIdeal.S4096x2048.Idx) (k : Fin 2) :
    Cert.ReferenceIdeal.Read.idx_main_v0 i k = ix3 k (i 0 : Fin 4096) (i 1 : Fin 2048) := by
  funext a; match a with | ⟨0, _⟩ => rfl | ⟨1, _⟩ => rfl | ⟨2, _⟩ => rfl

/-- The one-device program's result, stage by stage, is the entrywise sum of the two slabs. -/
theorem ref_val (Y : Buf (Elt Ideal) (((0 : Dev Cert.ReferenceIdeal.nD).tc : Thread Cert.ReferenceIdeal.nD Cert.ReferenceIdeal.τ).loc Cert.ReferenceIdeal.main_arg0)) :
    Cert.ReferenceIdeal.Read.val_main_v1 (F := Ideal) Y = refOut Y := by
  funext i
  rw [Cert.ReferenceIdeal.Read.val_main_v1_apply, Cert.ReferenceIdeal.Read.val_main_v0_apply, Cert.ReferenceIdeal.Read.val_main_cst_apply, Fin.sum_univ_two,
    ref_idx, ref_idx]
  show (Ideal.ofBits .f32 0x00000000#32 : EReal) + (_ + _) = _
  rw [Ideal.ofBits_zero_f32, zero_add]
  rfl

/-- The one-device program runs to the end, its result the entrywise sum of its argument's two slabs,
    its argument unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1) = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans ((Cert.ReferenceIdeal.Read.val_main_v1_eq _).trans (ref_val _)), (h 0).2⟩)
    (Cert.ReferenceIdeal.Value.run (F := Ideal) m' g')

/-- The one-device program's frame: its run with the result dropped. -/
theorem ref_frame : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

/-- info: 'Cert.KernelIdeal.Rs.ref_run' depends on axioms: [propext, Classical.choice, Quot.sound] -/
#guard_msgs in #print axioms ref_run
/-- info: 'Cert.KernelIdeal.Rs.ref_frame' depends on axioms: [propext, Classical.choice, Quot.sound] -/
#guard_msgs in #print axioms ref_frame

end Cert.KernelIdeal.Rs

end
-- ==== Proof.Bits.Mesh.lean ====
/- The 2 × 2 × 2 mesh as the kernel addresses it: device d sits at x = d / 4, y = (d / 2) % 2, z = d % 2.
   The three neighbours a device talks to: its z-partner (the other half of the reduction), its
   x-neighbour and its y-neighbour (the devices holding the other row quarters of the same z). Each is an
   involution of the eight devices, and they commute. -/
import proofs.«901030_g7700000000001031_dist_rs_v7x_xyz2x2x2_z_m4096_n1024_bf16_1_alg».proof.Proof.Gen.Kernel

noncomputable section

namespace Cert.Kernel.Rs

open Cert.Kernel Cert.Kernel.Gen
open Idealize.ShloMosaic Idealize.ShloMosaic.TcCoe

/-- The device with the other z coordinate. -/
def zp (c : Dev nD) : Dev nD := ⟨(4 * (c.val / 4) + 2 * ((c.val / 2) % 2) + 1) - (c.val % 2), by revert c; decide⟩
/-- The device with the other x coordinate. -/
def xn (c : Dev nD) : Dev nD := ⟨(2 * ((c.val / 2) % 2) + (c.val % 2) + 4) - 4 * (c.val / 4), by revert c; decide⟩
/-- The device with the other y coordinate. -/
def yn (c : Dev nD) : Dev nD := ⟨(4 * (c.val / 4) + (c.val % 2) + 2) - 2 * ((c.val / 2) % 2), by revert c; decide⟩

theorem zp_zp (c : Dev nD) : zp (zp c) = c := by revert c; decide
theorem xn_xn (c : Dev nD) : xn (xn c) = c := by revert c; decide
theorem yn_yn (c : Dev nD) : yn (yn c) = c := by revert c; decide
theorem zp_ne (c : Dev nD) : zp c ≠ c := by revert c; decide
theorem xn_ne (c : Dev nD) : xn c ≠ c := by revert c; decide
theorem yn_ne (c : Dev nD) : yn c ≠ c := by revert c; decide
theorem zp_ne_xn (c : Dev nD) : zp c ≠ xn c := by revert c; decide
theorem zp_ne_yn (c : Dev nD) : zp c ≠ yn c := by revert c; decide
theorem xn_ne_yn (c : Dev nD) : xn c ≠ yn c := by revert c; decide
theorem zp_xn (c : Dev nD) : zp (xn c) = xn (zp c) := by revert c; decide
theorem zp_yn (c : Dev nD) : zp (yn c) = yn (zp c) := by revert c; decide
theorem xn_yn (c : Dev nD) : xn (yn c) = yn (xn c) := by revert c; decide

def zpE : Dev nD ≃ Dev nD := ⟨zp, zp, zp_zp, zp_zp⟩
def xnE : Dev nD ≃ Dev nD := ⟨xn, xn, xn_xn, xn_xn⟩
def ynE : Dev nD ≃ Dev nD := ⟨yn, yn, yn_yn, yn_yn⟩

/-- A device the kernel names by a word it computed is the neighbour whose closed form that word has. -/
theorem dev_eq {n : Nat} (h : n < nD) (c' : Dev nD) (e : n = c'.val) : (⟨n, h⟩ : Dev nD) = c' := Fin.ext e

/-- The three closed forms the generated device chains reduce to. -/
theorem zp_val (c : Dev nD) : (zp c).val = (4 * (c.val / 4) + 2 * ((c.val / 2) % 2) + 1) - (c.val % 2) := rfl
theorem xn_val (c : Dev nD) : (xn c).val = (2 * ((c.val / 2) % 2) + (c.val % 2) + 4) - 4 * (c.val / 4) := rfl
theorem yn_val (c : Dev nD) : (yn c).val = (4 * (c.val / 4) + (c.val % 2) + 2) - 2 * ((c.val / 2) % 2) := rfl

end Cert.Kernel.Rs

end
-- ==== Proof.Bits.Views.lean ====
/- The pieces of the buffers the kernel moves: 64-row blocks of the staging and landing buffers, the four
   quarter planes of the local copy. Each is the memref the program itself names, so that a statement about a
   piece is a statement about the program's own operand. -/
import proofs.«901030_g7700000000001031_dist_rs_v7x_xyz2x2x2_z_m4096_n1024_bf16_1_alg».proof.Proof.Gen.Kernel.Skeleton
import proofs.«901030_g7700000000001031_dist_rs_v7x_xyz2x2x2_z_m4096_n1024_bf16_1_alg».proof.Proof.Bits.Mesh
import Idealize.ShloMosaic.Lib.Pipeline.Kit

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem inb16 (s : Fin 16) : ∀ a, (![64 * s.val, 0] : Fin 2 → Nat) a + S64x1024.size a ≤ S1024x1024.size a := by revert s; decide
theorem inb6 (j : Fin 6) : ∀ a, (![64 * j.val, 0] : Fin 2 → Nat) a + S64x1024.size a ≤ S384x1024.size a := by revert j; decide
theorem inb4 (k : Fin 4) : ∀ a, (![k.val, 0, 0] : Fin 3 → Nat) a + S1x1024x1024.size a ≤ S4x1024x1024.size a := by revert k; decide

/-- Block `s` (rows 64 s … 64 s + 63) of the f32 copy of the own quarter's other column half. -/
abbrev xqM (s : Fin 16) : Memref sig .tc .vmem S64x1024 .f32 := (Memref.whole cc0_scratch0).slice (Rect.unit (s := S1024x1024) ![64 * s.val, 0] S64x1024.size (inb16 s)) (fun _ => rfl)
/-- Block `j` of the f32 copy of the diagonal quarter's first six blocks. -/
abbrev xdM (j : Fin 6) : Memref sig .tc .vmem S64x1024 .f32 := (Memref.whole cc0_scratch1).slice (Rect.unit (s := S384x1024) ![64 * j.val, 0] S64x1024.size (inb6 j)) (fun _ => rfl)
/-- Plane `k` of the local copy of the own column half: quarter q, qy, qx, qd for k = 0, 1, 2, 3. -/
abbrev xlM (k : Fin 4) : Memref sig .tc .vmem S1024x1024 .f32 := ((Memref.whole cc0_scratch2).slice (Rect.unit (s := S4x1024x1024) ![k.val, 0, 0] S1x1024x1024.size (inb4 k)) (fun _ => rfl)).squeeze S1024x1024 squeezes_S1x1024x1024_S1024x1024
/-- Block `s` of the bf16 staging buffer sent to the z-partner (own quarter). -/
abbrev bA (s : Fin 16) : Memref sig .tc .vmem S64x1024 .bf16 := (Memref.whole cc0_scratch3).slice (Rect.unit (s := S1024x1024) ![64 * s.val, 0] S64x1024.size (inb16 s)) (fun _ => rfl)
/-- Block `j` of the bf16 staging buffer sent to the z-partner (diagonal quarter). -/
abbrev bD (j : Fin 6) : Memref sig .tc .vmem S64x1024 .bf16 := (Memref.whole cc0_scratch4).slice (Rect.unit (s := S384x1024) ![64 * j.val, 0] S64x1024.size (inb6 j)) (fun _ => rfl)
/-- Block `s` of the landing buffer the z-partner writes. -/
abbrev bQ (s : Fin 16) : Memref sig .tc .vmem S64x1024 .bf16 := (Memref.whole cc0_scratch5).slice (Rect.unit (s := S1024x1024) ![64 * s.val, 0] S64x1024.size (inb16 s)) (fun _ => rfl)
/-- Block `s` of the landing buffer the x-neighbour writes. -/
abbrev bX (s : Fin 16) : Memref sig .tc .vmem S64x1024 .bf16 := (Memref.whole cc0_scratch6).slice (Rect.unit (s := S1024x1024) ![64 * s.val, 0] S64x1024.size (inb16 s)) (fun _ => rfl)
/-- Block `s` of the landing buffer the y-neighbour writes. -/
abbrev bY (s : Fin 16) : Memref sig .tc .vmem S64x1024 .bf16 := (Memref.whole cc0_scratch7).slice (Rect.unit (s := S1024x1024) ![64 * s.val, 0] S64x1024.size (inb16 s)) (fun _ => rfl)
/-- Block `s` of the landing buffer of the diagonal quarter: blocks 0–5 from the z-partner, 6–10 from the
    x-neighbour, 11–15 from the y-neighbour. -/
abbrev bR (s : Fin 16) : Memref sig .tc .vmem S64x1024 .bf16 := (Memref.whole cc0_scratch8).slice (Rect.unit (s := S1024x1024) ![64 * s.val, 0] S64x1024.size (inb16 s)) (fun _ => rfl)

/-! ## The windows of the argument the local copies read, and the quarters of the result -/

/-- The 1024 × 1024 window of the argument that local copy `k` reads: rows of quarter q, qy, qx, qd (k = 0, 1, 2, 3),
    the device's own column half. -/
abbrev wL (c : Dev nD) (k : Fin 4) : Memref sig .tc .hbm S1024x1024 .f32 :=
  match k with
  | 0 => ((Memref.whole main_arg0).slice (Rect.unit (s := S1x4096x2048) (k0_off1 c) S1x1024x1024.size (k0_off1_inb c)) (fun _ => rfl)).squeeze S1024x1024 squeezes_S1x1024x1024_S1024x1024
  | 1 => ((Memref.whole main_arg0).slice (Rect.unit (s := S1x4096x2048) (k0_off2 c) S1x1024x1024.size (k0_off2_inb c)) (fun _ => rfl)).squeeze S1024x1024 squeezes_S1x1024x1024_S1024x1024
  | 2 => ((Memref.whole main_arg0).slice (Rect.unit (s := S1x4096x2048) (k0_off3 c) S1x1024x1024.size (k0_off3_inb c)) (fun _ => rfl)).squeeze S1024x1024 squeezes_S1x1024x1024_S1024x1024
  | 3 => ((Memref.whole main_arg0).slice (Rect.unit (s := S1x4096x2048) (k0_off4 c) S1x1024x1024.size (k0_off4_inb c)) (fun _ => rfl)).squeeze S1024x1024 squeezes_S1x1024x1024_S1024x1024
/-- The 64 × 1024 window block `s` of the own quarter, other column half. -/
abbrev wQ (c : Dev nD) (s : Fin 16) : Memref sig .tc .hbm S64x1024 .f32 :=
  ((Memref.whole main_arg0).slice (Rect.unit (s := S1x4096x2048) (k0_off5 c (BitVec.ofNat 32 (64 * s.val))) S1x64x1024.size (k0_off5_inb c s)) (fun _ => rfl)).squeeze S64x1024 squeezes_S1x64x1024_S64x1024
/-- The 64 × 1024 window block `j` of the diagonal quarter, other column half. -/
abbrev wD (c : Dev nD) (j : Fin 6) : Memref sig .tc .hbm S64x1024 .f32 :=
  ((Memref.whole main_arg0).slice (Rect.unit (s := S1x4096x2048) (k0_off6 c (BitVec.ofNat 32 (64 * j.val))) S1x64x1024.size (k0_off6_inb c j)) (fun _ => rfl)).squeeze S64x1024 squeezes_S1x64x1024_S64x1024

/-- Where quarter `k` (q, qy, qx, qd) of the result starts. -/
abbrev offO (c : Dev nD) (k : Fin 4) : Fin 2 → Nat := match k with | 0 => k0_off8 c | 1 => k0_off10 c | 2 => k0_off12 c | 3 => k0_off14 c
theorem offO_inb (c : Dev nD) (k : Fin 4) : ∀ a, (offO c k) a + S1024x1024.size a ≤ S4096x1024.size a :=
  match k with | 0 => k0_off8_inb c | 1 => k0_off10_inb c | 2 => k0_off12_inb c | 3 => k0_off14_inb c
/-- Quarter `k` of the result array, and of the VMEM buffer it is copied from. -/
abbrev oQ (c : Dev nD) (k : Fin 4) : Memref sig .tc .hbm S1024x1024 .bf16 := (Memref.whole main_v1).slice (Rect.unit (s := S4096x1024) (offO c k) S1024x1024.size (offO_inb c k)) (fun _ => rfl)
abbrev vQ (c : Dev nD) (k : Fin 4) : Memref sig .tc .vmem S1024x1024 .bf16 := (Memref.whole cc0_scratch9).slice (Rect.unit (s := S4096x1024) (offO c k) S1024x1024.size (offO_inb c k)) (fun _ => rfl)

/-- The credit one 64 × 1024 bf16 block's copy raises on its semaphore. -/
abbrev Nb : ℕ := (bQ 0).view.dmaCredit
theorem Nb_pos : 0 < Nb := View.dmaCredit_pos _ (by decide)

end Cert.Kernel.Rs

end
-- ==== Proof.Bits.Proto.lean ====
/- The protocol of the reduce-scatter on the 2 × 2 × 2 mesh, as rounds of duties on semaphore cells.
   Every cell has one round. A device's barrier cell has three duties of one unit, one paid by each of the
   three neighbours that write into it; with its unit a neighbour receives nothing, and hands the owner the
   landing blocks the owner will write into on that neighbour. Each remote copy has a send cell on its issuer
   (one duty: the source block comes back) and a receive cell on its target (one duty: the landing block,
   holding what was sent). -/
import proofs.«901030_g7700000000001031_dist_rs_v7x_xyz2x2x2_z_m4096_n1024_bf16_1_alg».proof.Proof.Gen.Kernel.Skeleton
import proofs.«901030_g7700000000001031_dist_rs_v7x_xyz2x2x2_z_m4096_n1024_bf16_1_alg».proof.Proof.Gen.Kernel.Launch
import proofs.«901030_g7700000000001031_dist_rs_v7x_xyz2x2x2_z_m4096_n1024_bf16_1_alg».proof.Proof.Bits.Views
import Idealize.ShloMosaic.Lib.Pipeline.Launch
import Idealize.ShloMosaic.Lib.Pipeline.Kit
import Idealize.ShloMosaic.Lib.Tactic

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- Duty names: a barrier cell's three duties (0, 1, 2: paid by the z-partner, the x- and the y-neighbour); every
    other cell uses the name 0 alone. -/
abbrev DN : Type := Fin 3
abbrev UB : Type := URounds (GSem nD τ sig) DN
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## Cells -/

abbrev barS : Sem sig := (SemArray.scalar (sig.barrier 0 rfl) : Sems sig S_).sem
abbrev barCell (c : Dev nD) : GSem nD τ sig := ((c : Thread nD τ), .reg barS)
abbrev dcell (c : Dev nD) (n : Fin 158) : GSem nD τ sig := ((c : Thread nD τ), .dma n)

/-! ## What the blocks hold

Everything is a function of the eight devices' argument arrays `m (d, main_arg0)`. -/

variable (m : (ℓ : Loc nD τ sig) → Buf (Elt F) ℓ)

/-- The f32 block `s` of device `d`'s own quarter, other column half, as the local copy lands it. -/
def qV (d : Dev nD) (s : Fin 16) : S64x1024.Idx → Elt F .f32 :=
  ReadAs.same.apply (View.read (Elt F) (wQ d s).view (m ((d : Thread nD τ).loc main_arg0)))
/-- The f32 block `j` of device `d`'s diagonal quarter, other column half. -/
def dqV (d : Dev nD) (j : Fin 6) : S64x1024.Idx → Elt F .f32 :=
  ReadAs.same.apply (View.read (Elt F) (wD d j).view (m ((d : Thread nD τ).loc main_arg0)))
/-- The bf16 block device `d` sends its z-partner. -/
def aV (d : Dev nD) (s : Fin 16) : S64x1024.Idx → Elt F .bf16 := k0_pay1 (qV m d s)
def dV (d : Dev nD) (j : Fin 6) : S64x1024.Idx → Elt F .bf16 := k0_pay1 (dqV m d j)
/-- What device `c` receives from its z-partner. -/
def rqV (c : Dev nD) (s : Fin 16) : S64x1024.Idx → Elt F .bf16 := aV m (zp c) s

/-- Memref `M`'s elements on device `c` holding exactly the block `x`. -/
def ptr (c : Dev nD) {sp : Space} {S : Shape} {e : EltTy} (M : Memref sig .tc sp S e) (x : S.Idx → Elt F e) : sProp 𝕄 :=
  M.view.loc (c : Thread nD τ) ↦[M.view.set]{fullShare} M.view.rep x
theorem ptr_def (c : Dev nD) {sp : Space} {S : Shape} {e : EltTy} (M : Memref sig .tc sp S e) (x : S.Idx → Elt F e) :
    (ptr c M x : sProp 𝕄) = (M.view.loc (c : Thread nD τ) ↦[M.view.set]{fullShare} M.view.rep x) := rfl
/-- Memref `M`'s elements on device `c` at share `q`, at some contents. -/
def pex (c : Dev nD) (q : PosShare TreeShare) {sp : Space} {S : Shape} {e : EltTy} (M : Memref sig .tc sp S e) : sProp 𝕄 :=
  iprop(∃ f, M.view.loc (c : Thread nD τ) ↦[M.view.set]{q} f)
omit [FloatOps F] in
theorem pex_def (c : Dev nD) (q : PosShare TreeShare) {sp : Space} {S : Shape} {e : EltTy} (M : Memref sig .tc sp S e) :
    (pex c q M : sProp 𝕄) = iprop(∃ f, M.view.loc (c : Thread nD τ) ↦[M.view.set]{q} f) := rfl

/-- The shares a forwarded block is lent at: to the x-neighbour's copy, to the y-neighbour's copy; the rest stays
    with the device for its own load. -/
abbrev shX : PosShare TreeShare := fullShare.left
abbrev shY : PosShare TreeShare := fullShare.right.left
abbrev shK : PosShare TreeShare := fullShare.right.right

/-- What the send cell of copy `i` hands back: the source block, at the share it was lent. -/
def sendPay (c : Dev nD) (i : ℕ) : sProp 𝕄 :=
  if h : i < 16 then pex c fullShare (bA ⟨i, h⟩)
  else if h : i < 22 then pex c fullShare (bD ⟨i - 16, by omega⟩)
  else if h : i < 38 then pex c shX (bQ ⟨i - 22, by omega⟩)
  else if h : i < 54 then pex c shY (bQ ⟨i - 38, by omega⟩)
  else if h : i < 59 then pex c shX (bY ⟨i - 54 + 6, by omega⟩)
  else if h : i < 64 then pex c shY (bX ⟨i - 59 + 11, by omega⟩)
  else iprop(emp)

/-- What the receive cell of copy `i` hands its owner: the landing block, holding what was sent. -/
def recvPay (c : Dev nD) (i : ℕ) : sProp 𝕄 :=
  if h : i < 16 then ptr c (bQ ⟨i, h⟩) (rqV m c ⟨i, h⟩)
  else if h : i < 22 then ptr c (bR ⟨i - 16, by omega⟩) (dV m (zp c) ⟨i - 16, by omega⟩)
  else if h : i < 38 then ptr c (bX ⟨i - 22, by omega⟩) (rqV m (xn c) ⟨i - 22, by omega⟩)
  else if h : i < 54 then ptr c (bY ⟨i - 38, by omega⟩) (rqV m (yn c) ⟨i - 38, by omega⟩)
  else if h : i < 59 then ptr c (bR ⟨i - 54 + 6, by omega⟩) (rqV m (yn (xn c)) ⟨i - 54 + 6, by omega⟩)
  else if h : i < 64 then ptr c (bR ⟨i - 59 + 11, by omega⟩) (rqV m (xn (yn c)) ⟨i - 59 + 11, by omega⟩)
  else iprop(emp)

end Cert.Kernel.Rs

end
-- ==== Proof.Bits.Lands.lean ====
import proofs.«901030_g7700000000001031_dist_rs_v7x_xyz2x2x2_z_m4096_n1024_bf16_1_alg».proof.Proof.Bits.Proto

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase

variable {F : FTy → Type} [FloatOps F]

local notation "𝕄" => MT nD τ sig Unit (Elt F) ℕ UU ℕ

/-- The landing blocks of device `n` that its z-partner will write: the sixteen blocks of its first landing buffer and blocks 0–5 of the diagonal one. -/
def landZ (n : Dev nD) : sProp 𝕄 := iprop(pex n fullShare (bQ 0) ∗ pex n fullShare (bQ 1) ∗ pex n fullShare (bQ 2) ∗ pex n fullShare (bQ 3) ∗ pex n fullShare (bQ 4) ∗ pex n fullShare (bQ 5) ∗ pex n fullShare (bQ 6) ∗ pex n fullShare (bQ 7) ∗ pex n fullShare (bQ 8) ∗ pex n fullShare (bQ 9) ∗ pex n fullShare (bQ 10) ∗ pex n fullShare (bQ 11) ∗ pex n fullShare (bQ 12) ∗ pex n fullShare (bQ 13) ∗ pex n fullShare (bQ 14) ∗ pex n fullShare (bQ 15) ∗ pex n fullShare (bR 0) ∗ pex n fullShare (bR 1) ∗ pex n fullShare (bR 2) ∗ pex n fullShare (bR 3) ∗ pex n fullShare (bR 4) ∗ pex n fullShare (bR 5))
/-- Those its x-neighbour will write: its second landing buffer and blocks 6–10 of the diagonal one. -/
def landX (n : Dev nD) : sProp 𝕄 := iprop(pex n fullShare (bX 0) ∗ pex n fullShare (bX 1) ∗ pex n fullShare (bX 2) ∗ pex n fullShare (bX 3) ∗ pex n fullShare (bX 4) ∗ pex n fullShare (bX 5) ∗ pex n fullShare (bX 6) ∗ pex n fullShare (bX 7) ∗ pex n fullShare (bX 8) ∗ pex n fullShare (bX 9) ∗ pex n fullShare (bX 10) ∗ pex n fullShare (bX 11) ∗ pex n fullShare (bX 12) ∗ pex n fullShare (bX 13) ∗ pex n fullShare (bX 14) ∗ pex n fullShare (bX 15) ∗ pex n fullShare (bR 6) ∗ pex n fullShare (bR 7) ∗ pex n fullShare (bR 8) ∗ pex n fullShare (bR 9) ∗ pex n fullShare (bR 10))
/-- Those its y-neighbour will write: its third landing buffer and blocks 11–15 of the diagonal one. -/
def landY (n : Dev nD) : sProp 𝕄 := iprop(pex n fullShare (bY 0) ∗ pex n fullShare (bY 1) ∗ pex n fullShare (bY 2) ∗ pex n fullShare (bY 3) ∗ pex n fullShare (bY 4) ∗ pex n fullShare (bY 5) ∗ pex n fullShare (bY 6) ∗ pex n fullShare (bY 7) ∗ pex n fullShare (bY 8) ∗ pex n fullShare (bY 9) ∗ pex n fullShare (bY 10) ∗ pex n fullShare (bY 11) ∗ pex n fullShare (bY 12) ∗ pex n fullShare (bY 13) ∗ pex n fullShare (bY 14) ∗ pex n fullShare (bY 15) ∗ pex n fullShare (bR 11) ∗ pex n fullShare (bR 12) ∗ pex n fullShare (bR 13) ∗ pex n fullShare (bR 14) ∗ pex n fullShare (bR 15))

omit [FloatOps F] in
theorem landZ_eq (n : Dev nD) : (landZ n : sProp 𝕄) = iprop(pex n fullShare (bQ 0) ∗ pex n fullShare (bQ 1) ∗ pex n fullShare (bQ 2) ∗ pex n fullShare (bQ 3) ∗ pex n fullShare (bQ 4) ∗ pex n fullShare (bQ 5) ∗ pex n fullShare (bQ 6) ∗ pex n fullShare (bQ 7) ∗ pex n fullShare (bQ 8) ∗ pex n fullShare (bQ 9) ∗ pex n fullShare (bQ 10) ∗ pex n fullShare (bQ 11) ∗ pex n fullShare (bQ 12) ∗ pex n fullShare (bQ 13) ∗ pex n fullShare (bQ 14) ∗ pex n fullShare (bQ 15) ∗ pex n fullShare (bR 0) ∗ pex n fullShare (bR 1) ∗ pex n fullShare (bR 2) ∗ pex n fullShare (bR 3) ∗ pex n fullShare (bR 4) ∗ pex n fullShare (bR 5)) := rfl
omit [FloatOps F] in
theorem landX_eq (n : Dev nD) : (landX n : sProp 𝕄) = iprop(pex n fullShare (bX 0) ∗ pex n fullShare (bX 1) ∗ pex n fullShare (bX 2) ∗ pex n fullShare (bX 3) ∗ pex n fullShare (bX 4) ∗ pex n fullShare (bX 5) ∗ pex n fullShare (bX 6) ∗ pex n fullShare (bX 7) ∗ pex n fullShare (bX 8) ∗ pex n fullShare (bX 9) ∗ pex n fullShare (bX 10) ∗ pex n fullShare (bX 11) ∗ pex n fullShare (bX 12) ∗ pex n fullShare (bX 13) ∗ pex n fullShare (bX 14) ∗ pex n fullShare (bX 15) ∗ pex n fullShare (bR 6) ∗ pex n fullShare (bR 7) ∗ pex n fullShare (bR 8) ∗ pex n fullShare (bR 9) ∗ pex n fullShare (bR 10)) := rfl
omit [FloatOps F] in
theorem landY_eq (n : Dev nD) : (landY n : sProp 𝕄) = iprop(pex n fullShare (bY 0) ∗ pex n fullShare (bY 1) ∗ pex n fullShare (bY 2) ∗ pex n fullShare (bY 3) ∗ pex n fullShare (bY 4) ∗ pex n fullShare (bY 5) ∗ pex n fullShare (bY 6) ∗ pex n fullShare (bY 7) ∗ pex n fullShare (bY 8) ∗ pex n fullShare (bY 9) ∗ pex n fullShare (bY 10) ∗ pex n fullShare (bY 11) ∗ pex n fullShare (bY 12) ∗ pex n fullShare (bY 13) ∗ pex n fullShare (bY 14) ∗ pex n fullShare (bY 15) ∗ pex n fullShare (bR 11) ∗ pex n fullShare (bR 12) ∗ pex n fullShare (bR 13) ∗ pex n fullShare (bR 14) ∗ pex n fullShare (bR 15)) := rfl

/-- The same blocks held at the contents `fq` / `fx` / `fy` of the landing buffer and `fr` of the diagonal one: what a device holds before it lends them. -/
def ownZ (n : Dev nD) (fq : Buf (Elt F) ((n : Thread nD τ).loc cc0_scratch5)) (fr : Buf (Elt F) ((n : Thread nD τ).loc cc0_scratch8)) : sProp 𝕄 := iprop(((bQ 0).view.loc (n : Thread nD τ) ↦[(bQ 0).view.set]{fullShare} fq) ∗ ((bQ 1).view.loc (n : Thread nD τ) ↦[(bQ 1).view.set]{fullShare} fq) ∗ ((bQ 2).view.loc (n : Thread nD τ) ↦[(bQ 2).view.set]{fullShare} fq) ∗ ((bQ 3).view.loc (n : Thread nD τ) ↦[(bQ 3).view.set]{fullShare} fq) ∗ ((bQ 4).view.loc (n : Thread nD τ) ↦[(bQ 4).view.set]{fullShare} fq) ∗ ((bQ 5).view.loc (n : Thread nD τ) ↦[(bQ 5).view.set]{fullShare} fq) ∗ ((bQ 6).view.loc (n : Thread nD τ) ↦[(bQ 6).view.set]{fullShare} fq) ∗ ((bQ 7).view.loc (n : Thread nD τ) ↦[(bQ 7).view.set]{fullShare} fq) ∗ ((bQ 8).view.loc (n : Thread nD τ) ↦[(bQ 8).view.set]{fullShare} fq) ∗ ((bQ 9).view.loc (n : Thread nD τ) ↦[(bQ 9).view.set]{fullShare} fq) ∗ ((bQ 10).view.loc (n : Thread nD τ) ↦[(bQ 10).view.set]{fullShare} fq) ∗ ((bQ 11).view.loc (n : Thread nD τ) ↦[(bQ 11).view.set]{fullShare} fq) ∗ ((bQ 12).view.loc (n : Thread nD τ) ↦[(bQ 12).view.set]{fullShare} fq) ∗ ((bQ 13).view.loc (n : Thread nD τ) ↦[(bQ 13).view.set]{fullShare} fq) ∗ ((bQ 14).view.loc (n : Thread nD τ) ↦[(bQ 14).view.set]{fullShare} fq) ∗ ((bQ 15).view.loc (n : Thread nD τ) ↦[(bQ 15).view.set]{fullShare} fq) ∗ ((bR 0).view.loc (n : Thread nD τ) ↦[(bR 0).view.set]{fullShare} fr) ∗ ((bR 1).view.loc (n : Thread nD τ) ↦[(bR 1).view.set]{fullShare} fr) ∗ ((bR 2).view.loc (n : Thread nD τ) ↦[(bR 2).view.set]{fullShare} fr) ∗ ((bR 3).view.loc (n : Thread nD τ) ↦[(bR 3).view.set]{fullShare} fr) ∗ ((bR 4).view.loc (n : Thread nD τ) ↦[(bR 4).view.set]{fullShare} fr) ∗ ((bR 5).view.loc (n : Thread nD τ) ↦[(bR 5).view.set]{fullShare} fr))
def ownX (n : Dev nD) (fx : Buf (Elt F) ((n : Thread nD τ).loc cc0_scratch6)) (fr : Buf (Elt F) ((n : Thread nD τ).loc cc0_scratch8)) : sProp 𝕄 := iprop(((bX 0).view.loc (n : Thread nD τ) ↦[(bX 0).view.set]{fullShare} fx) ∗ ((bX 1).view.loc (n : Thread nD τ) ↦[(bX 1).view.set]{fullShare} fx) ∗ ((bX 2).view.loc (n : Thread nD τ) ↦[(bX 2).view.set]{fullShare} fx) ∗ ((bX 3).view.loc (n : Thread nD τ) ↦[(bX 3).view.set]{fullShare} fx) ∗ ((bX 4).view.loc (n : Thread nD τ) ↦[(bX 4).view.set]{fullShare} fx) ∗ ((bX 5).view.loc (n : Thread nD τ) ↦[(bX 5).view.set]{fullShare} fx) ∗ ((bX 6).view.loc (n : Thread nD τ) ↦[(bX 6).view.set]{fullShare} fx) ∗ ((bX 7).view.loc (n : Thread nD τ) ↦[(bX 7).view.set]{fullShare} fx) ∗ ((bX 8).view.loc (n : Thread nD τ) ↦[(bX 8).view.set]{fullShare} fx) ∗ ((bX 9).view.loc (n : Thread nD τ) ↦[(bX 9).view.set]{fullShare} fx) ∗ ((bX 10).view.loc (n : Thread nD τ) ↦[(bX 10).view.set]{fullShare} fx) ∗ ((bX 11).view.loc (n : Thread nD τ) ↦[(bX 11).view.set]{fullShare} fx) ∗ ((bX 12).view.loc (n : Thread nD τ) ↦[(bX 12).view.set]{fullShare} fx) ∗ ((bX 13).view.loc (n : Thread nD τ) ↦[(bX 13).view.set]{fullShare} fx) ∗ ((bX 14).view.loc (n : Thread nD τ) ↦[(bX 14).view.set]{fullShare} fx) ∗ ((bX 15).view.loc (n : Thread nD τ) ↦[(bX 15).view.set]{fullShare} fx) ∗ ((bR 6).view.loc (n : Thread nD τ) ↦[(bR 6).view.set]{fullShare} fr) ∗ ((bR 7).view.loc (n : Thread nD τ) ↦[(bR 7).view.set]{fullShare} fr) ∗ ((bR 8).view.loc (n : Thread nD τ) ↦[(bR 8).view.set]{fullShare} fr) ∗ ((bR 9).view.loc (n : Thread nD τ) ↦[(bR 9).view.set]{fullShare} fr) ∗ ((bR 10).view.loc (n : Thread nD τ) ↦[(bR 10).view.set]{fullShare} fr))
def ownY (n : Dev nD) (fy : Buf (Elt F) ((n : Thread nD τ).loc cc0_scratch7)) (fr : Buf (Elt F) ((n : Thread nD τ).loc cc0_scratch8)) : sProp 𝕄 := iprop(((bY 0).view.loc (n : Thread nD τ) ↦[(bY 0).view.set]{fullShare} fy) ∗ ((bY 1).view.loc (n : Thread nD τ) ↦[(bY 1).view.set]{fullShare} fy) ∗ ((bY 2).view.loc (n : Thread nD τ) ↦[(bY 2).view.set]{fullShare} fy) ∗ ((bY 3).view.loc (n : Thread nD τ) ↦[(bY 3).view.set]{fullShare} fy) ∗ ((bY 4).view.loc (n : Thread nD τ) ↦[(bY 4).view.set]{fullShare} fy) ∗ ((bY 5).view.loc (n : Thread nD τ) ↦[(bY 5).view.set]{fullShare} fy) ∗ ((bY 6).view.loc (n : Thread nD τ) ↦[(bY 6).view.set]{fullShare} fy) ∗ ((bY 7).view.loc (n : Thread nD τ) ↦[(bY 7).view.set]{fullShare} fy) ∗ ((bY 8).view.loc (n : Thread nD τ) ↦[(bY 8).view.set]{fullShare} fy) ∗ ((bY 9).view.loc (n : Thread nD τ) ↦[(bY 9).view.set]{fullShare} fy) ∗ ((bY 10).view.loc (n : Thread nD τ) ↦[(bY 10).view.set]{fullShare} fy) ∗ ((bY 11).view.loc (n : Thread nD τ) ↦[(bY 11).view.set]{fullShare} fy) ∗ ((bY 12).view.loc (n : Thread nD τ) ↦[(bY 12).view.set]{fullShare} fy) ∗ ((bY 13).view.loc (n : Thread nD τ) ↦[(bY 13).view.set]{fullShare} fy) ∗ ((bY 14).view.loc (n : Thread nD τ) ↦[(bY 14).view.set]{fullShare} fy) ∗ ((bY 15).view.loc (n : Thread nD τ) ↦[(bY 15).view.set]{fullShare} fy) ∗ ((bR 11).view.loc (n : Thread nD τ) ↦[(bR 11).view.set]{fullShare} fr) ∗ ((bR 12).view.loc (n : Thread nD τ) ↦[(bR 12).view.set]{fullShare} fr) ∗ ((bR 13).view.loc (n : Thread nD τ) ↦[(bR 13).view.set]{fullShare} fr) ∗ ((bR 14).view.loc (n : Thread nD τ) ↦[(bR 14).view.set]{fullShare} fr) ∗ ((bR 15).view.loc (n : Thread nD τ) ↦[(bR 15).view.set]{fullShare} fr))
omit [FloatOps F] in
theorem ownZ_eq (n : Dev nD) (fq : Buf (Elt F) ((n : Thread nD τ).loc cc0_scratch5)) (fr : Buf (Elt F) ((n : Thread nD τ).loc cc0_scratch8)) : (ownZ n fq fr : sProp 𝕄) = iprop(((bQ 0).view.loc (n : Thread nD τ) ↦[(bQ 0).view.set]{fullShare} fq) ∗ ((bQ 1).view.loc (n : Thread nD τ) ↦[(bQ 1).view.set]{fullShare} fq) ∗ ((bQ 2).view.loc (n : Thread nD τ) ↦[(bQ 2).view.set]{fullShare} fq) ∗ ((bQ 3).view.loc (n : Thread nD τ) ↦[(bQ 3).view.set]{fullShare} fq) ∗ ((bQ 4).view.loc (n : Thread nD τ) ↦[(bQ 4).view.set]{fullShare} fq) ∗ ((bQ 5).view.loc (n : Thread nD τ) ↦[(bQ 5).view.set]{fullShare} fq) ∗ ((bQ 6).view.loc (n : Thread nD τ) ↦[(bQ 6).view.set]{fullShare} fq) ∗ ((bQ 7).view.loc (n : Thread nD τ) ↦[(bQ 7).view.set]{fullShare} fq) ∗ ((bQ 8).view.loc (n : Thread nD τ) ↦[(bQ 8).view.set]{fullShare} fq) ∗ ((bQ 9).view.loc (n : Thread nD τ) ↦[(bQ 9).view.set]{fullShare} fq) ∗ ((bQ 10).view.loc (n : Thread nD τ) ↦[(bQ 10).view.set]{fullShare} fq) ∗ ((bQ 11).view.loc (n : Thread nD τ) ↦[(bQ 11).view.set]{fullShare} fq) ∗ ((bQ 12).view.loc (n : Thread nD τ) ↦[(bQ 12).view.set]{fullShare} fq) ∗ ((bQ 13).view.loc (n : Thread nD τ) ↦[(bQ 13).view.set]{fullShare} fq) ∗ ((bQ 14).view.loc (n : Thread nD τ) ↦[(bQ 14).view.set]{fullShare} fq) ∗ ((bQ 15).view.loc (n : Thread nD τ) ↦[(bQ 15).view.set]{fullShare} fq) ∗ ((bR 0).view.loc (n : Thread nD τ) ↦[(bR 0).view.set]{fullShare} fr) ∗ ((bR 1).view.loc (n : Thread nD τ) ↦[(bR 1).view.set]{fullShare} fr) ∗ ((bR 2).view.loc (n : Thread nD τ) ↦[(bR 2).view.set]{fullShare} fr) ∗ ((bR 3).view.loc (n : Thread nD τ) ↦[(bR 3).view.set]{fullShare} fr) ∗ ((bR 4).view.loc (n : Thread nD τ) ↦[(bR 4).view.set]{fullShare} fr) ∗ ((bR 5).view.loc (n : Thread nD τ) ↦[(bR 5).view.set]{fullShare} fr)) := rfl
omit [FloatOps F] in
theorem ownX_eq (n : Dev nD) (fx : Buf (Elt F) ((n : Thread nD τ).loc cc0_scratch6)) (fr : Buf (Elt F) ((n : Thread nD τ).loc cc0_scratch8)) : (ownX n fx fr : sProp 𝕄) = iprop(((bX 0).view.loc (n : Thread nD τ) ↦[(bX 0).view.set]{fullShare} fx) ∗ ((bX 1).view.loc (n : Thread nD τ) ↦[(bX 1).view.set]{fullShare} fx) ∗ ((bX 2).view.loc (n : Thread nD τ) ↦[(bX 2).view.set]{fullShare} fx) ∗ ((bX 3).view.loc (n : Thread nD τ) ↦[(bX 3).view.set]{fullShare} fx) ∗ ((bX 4).view.loc (n : Thread nD τ) ↦[(bX 4).view.set]{fullShare} fx) ∗ ((bX 5).view.loc (n : Thread nD τ) ↦[(bX 5).view.set]{fullShare} fx) ∗ ((bX 6).view.loc (n : Thread nD τ) ↦[(bX 6).view.set]{fullShare} fx) ∗ ((bX 7).view.loc (n : Thread nD τ) ↦[(bX 7).view.set]{fullShare} fx) ∗ ((bX 8).view.loc (n : Thread nD τ) ↦[(bX 8).view.set]{fullShare} fx) ∗ ((bX 9).view.loc (n : Thread nD τ) ↦[(bX 9).view.set]{fullShare} fx) ∗ ((bX 10).view.loc (n : Thread nD τ) ↦[(bX 10).view.set]{fullShare} fx) ∗ ((bX 11).view.loc (n : Thread nD τ) ↦[(bX 11).view.set]{fullShare} fx) ∗ ((bX 12).view.loc (n : Thread nD τ) ↦[(bX 12).view.set]{fullShare} fx) ∗ ((bX 13).view.loc (n : Thread nD τ) ↦[(bX 13).view.set]{fullShare} fx) ∗ ((bX 14).view.loc (n : Thread nD τ) ↦[(bX 14).view.set]{fullShare} fx) ∗ ((bX 15).view.loc (n : Thread nD τ) ↦[(bX 15).view.set]{fullShare} fx) ∗ ((bR 6).view.loc (n : Thread nD τ) ↦[(bR 6).view.set]{fullShare} fr) ∗ ((bR 7).view.loc (n : Thread nD τ) ↦[(bR 7).view.set]{fullShare} fr) ∗ ((bR 8).view.loc (n : Thread nD τ) ↦[(bR 8).view.set]{fullShare} fr) ∗ ((bR 9).view.loc (n : Thread nD τ) ↦[(bR 9).view.set]{fullShare} fr) ∗ ((bR 10).view.loc (n : Thread nD τ) ↦[(bR 10).view.set]{fullShare} fr)) := rfl
omit [FloatOps F] in
theorem ownY_eq (n : Dev nD) (fy : Buf (Elt F) ((n : Thread nD τ).loc cc0_scratch7)) (fr : Buf (Elt F) ((n : Thread nD τ).loc cc0_scratch8)) : (ownY n fy fr : sProp 𝕄) = iprop(((bY 0).view.loc (n : Thread nD τ) ↦[(bY 0).view.set]{fullShare} fy) ∗ ((bY 1).view.loc (n : Thread nD τ) ↦[(bY 1).view.set]{fullShare} fy) ∗ ((bY 2).view.loc (n : Thread nD τ) ↦[(bY 2).view.set]{fullShare} fy) ∗ ((bY 3).view.loc (n : Thread nD τ) ↦[(bY 3).view.set]{fullShare} fy) ∗ ((bY 4).view.loc (n : Thread nD τ) ↦[(bY 4).view.set]{fullShare} fy) ∗ ((bY 5).view.loc (n : Thread nD τ) ↦[(bY 5).view.set]{fullShare} fy) ∗ ((bY 6).view.loc (n : Thread nD τ) ↦[(bY 6).view.set]{fullShare} fy) ∗ ((bY 7).view.loc (n : Thread nD τ) ↦[(bY 7).view.set]{fullShare} fy) ∗ ((bY 8).view.loc (n : Thread nD τ) ↦[(bY 8).view.set]{fullShare} fy) ∗ ((bY 9).view.loc (n : Thread nD τ) ↦[(bY 9).view.set]{fullShare} fy) ∗ ((bY 10).view.loc (n : Thread nD τ) ↦[(bY 10).view.set]{fullShare} fy) ∗ ((bY 11).view.loc (n : Thread nD τ) ↦[(bY 11).view.set]{fullShare} fy) ∗ ((bY 12).view.loc (n : Thread nD τ) ↦[(bY 12).view.set]{fullShare} fy) ∗ ((bY 13).view.loc (n : Thread nD τ) ↦[(bY 13).view.set]{fullShare} fy) ∗ ((bY 14).view.loc (n : Thread nD τ) ↦[(bY 14).view.set]{fullShare} fy) ∗ ((bY 15).view.loc (n : Thread nD τ) ↦[(bY 15).view.set]{fullShare} fy) ∗ ((bR 11).view.loc (n : Thread nD τ) ↦[(bR 11).view.set]{fullShare} fr) ∗ ((bR 12).view.loc (n : Thread nD τ) ↦[(bR 12).view.set]{fullShare} fr) ∗ ((bR 13).view.loc (n : Thread nD τ) ↦[(bR 13).view.set]{fullShare} fr) ∗ ((bR 14).view.loc (n : Thread nD τ) ↦[(bR 14).view.set]{fullShare} fr) ∗ ((bR 15).view.loc (n : Thread nD τ) ↦[(bR 15).view.set]{fullShare} fr)) := rfl

end Cert.Kernel.Rs

end
-- ==== Proof.Bits.Sched.lean ====
/- The schedule of the protocol: one round on every cell, and its tables. -/
import proofs.«901030_g7700000000001031_dist_rs_v7x_xyz2x2x2_z_m4096_n1024_bf16_1_alg».proof.Proof.Bits.Lands

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule: one round on every cell -/

def Rd : Rounds.Schedule (GSem nD τ sig) DN 𝕄 where
  duties g r :=
    if r = 0 ∧ g.1.2 = .tc then
      (match g.2 with
        | .reg _ => Finset.univ
        | .dma n => if 30 ≤ n.val then {0} else ∅)
    else ∅
  unitless _ := False
  amount g _ _ := match g.2 with | .reg _ => 1 | .dma _ => Nb
  payload g _ d :=
    match g.2 with
    | .reg _ => (match d with | 0 => landZ (zp g.1.1) | 1 => landX (xn g.1.1) | 2 => landY (yn g.1.1))
    | .dma n => if n.val < 94 then sendPay g.1.1 (n.val - 30) else recvPay m g.1.1 (n.val - 94)
  amount_pos g _ _ _ := by
    cases g.2 with
    | reg _ => exact Nat.one_pos
    | dma _ => exact Nb_pos

/-! ## The schedule's tables -/

section Tables
variable (c : Dev nD)

omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem duties_bar : (Rd m).duties (barCell c) 0 = Finset.univ := by
  dsimp only [Rd]; exact if_pos ⟨rfl, rfl⟩
theorem duties_dma (n : Fin 158) (h : 30 ≤ n.val) : (Rd m).duties (dcell c n) 0 = {0} := by
  dsimp only [Rd]; rw [if_pos ⟨rfl, rfl⟩]; exact if_pos h
theorem duties_later (g : GSem nD τ sig) : ∀ r, 1 ≤ r → (Rd m).duties g r = ∅ :=
  fun r hr => by dsimp only [Rd]; exact if_neg fun h => by omega
theorem amount_bar (d : DN) : (Rd m).amount (barCell c) 0 d = 1 := rfl
theorem amount_dma (n : Fin 158) (d : DN) : (Rd m).amount (dcell c n) 0 d = Nb := rfl
theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_dma (n : Fin 158) (h : 30 ≤ n.val) : (Rd m).expect (dcell c n) 0 = Nb := by
  unfold Schedule.expect Schedule.amountOf; rw [duties_dma m c n h, Finset.sum_singleton, amount_dma]
theorem payload_bar0 : (Rd m).payload (barCell c) 0 0 = landZ (zp c) := rfl
theorem payload_bar1 : (Rd m).payload (barCell c) 0 1 = landX (xn c) := rfl
theorem payload_bar2 : (Rd m).payload (barCell c) 0 2 = landY (yn c) := rfl
theorem payload_send (n : Fin 158) (h : n.val < 94) (d : DN) : (Rd m).payload (dcell c n) 0 d = sendPay c (n.val - 30) := by
  dsimp only [Rd]; exact if_pos h
theorem payload_recv (n : Fin 158) (h : 94 ≤ n.val) (d : DN) : (Rd m).payload (dcell c n) 0 d = recvPay m c (n.val - 94) := by
  dsimp only [Rd]; exact if_neg (by omega)

end Tables

end Cert.Kernel.Rs

end
-- ==== Proof.Bits.Devs.lean ====
import proofs.«901030_g7700000000001031_dist_rs_v7x_xyz2x2x2_z_m4096_n1024_bf16_1_alg».proof.Proof.Bits.Mesh
import Idealize.ShloMosaic.Lib.Tactic

namespace Cert.Kernel.Rs

open Cert.Kernel Cert.Kernel.Gen Idealize.ShloMosaic

/-! Each device the kernel addresses, computed from its own position, is one of its three neighbours. -/

@[sl_canon] theorem dev1_eq (c : Dev nD) : (⟨k0_dev1 c, k0_dev1_lt c⟩ : Dev nD) = zp c := dev_eq _ _ (k0_dev1_eq c)
@[sl_canon] theorem dev2_eq (c : Dev nD) : (⟨k0_dev2 c, k0_dev2_lt c⟩ : Dev nD) = xn c := dev_eq _ _ (k0_dev2_eq c)
@[sl_canon] theorem dev3_eq (c : Dev nD) : (⟨k0_dev3 c, k0_dev3_lt c⟩ : Dev nD) = yn c := dev_eq _ _ (k0_dev3_eq c)
@[sl_canon] theorem dev4_eq (c : Dev nD) : (⟨k0_dev4 c, k0_dev4_lt c⟩ : Dev nD) = zp c := dev_eq _ _ (k0_dev4_eq c)
@[sl_canon] theorem dev5_eq (c : Dev nD) : (⟨k0_dev5 c, k0_dev5_lt c⟩ : Dev nD) = zp c := dev_eq _ _ (k0_dev5_eq c)
@[sl_canon] theorem dev6_eq (c : Dev nD) : (⟨k0_dev6 c, k0_dev6_lt c⟩ : Dev nD) = zp c := dev_eq _ _ (k0_dev6_eq c)
@[sl_canon] theorem dev7_eq (c : Dev nD) : (⟨k0_dev7 c, k0_dev7_lt c⟩ : Dev nD) = zp c := dev_eq _ _ (k0_dev7_eq c)
@[sl_canon] theorem dev8_eq (c : Dev nD) : (⟨k0_dev8 c, k0_dev8_lt c⟩ : Dev nD) = zp c := dev_eq _ _ (k0_dev8_eq c)
@[sl_canon] theorem dev9_eq (c : Dev nD) : (⟨k0_dev9 c, k0_dev9_lt c⟩ : Dev nD) = zp c := dev_eq _ _ (k0_dev9_eq c)
@[sl_canon] theorem dev10_eq (c : Dev nD) : (⟨k0_dev10 c, k0_dev10_lt c⟩ : Dev nD) = zp c := dev_eq _ _ (k0_dev10_eq c)
@[sl_canon] theorem dev11_eq (c : Dev nD) : (⟨k0_dev11 c, k0_dev11_lt c⟩ : Dev nD) = zp c := dev_eq _ _ (k0_dev11_eq c)
@[sl_canon] theorem dev12_eq (c : Dev nD) : (⟨k0_dev12 c, k0_dev12_lt c⟩ : Dev nD) = zp c := dev_eq _ _ (k0_dev12_eq c)
@[sl_canon] theorem dev13_eq (c : Dev nD) : (⟨k0_dev13 c, k0_dev13_lt c⟩ : Dev nD) = zp c := dev_eq _ _ (k0_dev13_eq c)
@[sl_canon] theorem dev14_eq (c : Dev nD) : (⟨k0_dev14 c, k0_dev14_lt c⟩ : Dev nD) = zp c := dev_eq _ _ (k0_dev14_eq c)
@[sl_canon] theorem dev15_eq (c : Dev nD) : (⟨k0_dev15 c, k0_dev15_lt c⟩ : Dev nD) = zp c := dev_eq _ _ (k0_dev15_eq c)
@[sl_canon] theorem dev16_eq (c : Dev nD) : (⟨k0_dev16 c, k0_dev16_lt c⟩ : Dev nD) = zp c := dev_eq _ _ (k0_dev16_eq c)
@[sl_canon] theorem dev17_eq (c : Dev nD) : (⟨k0_dev17 c, k0_dev17_lt c⟩ : Dev nD) = zp c := dev_eq _ _ (k0_dev17_eq c)
@[sl_canon] theorem dev18_eq (c : Dev nD) : (⟨k0_dev18 c, k0_dev18_lt c⟩ : Dev nD) = zp c := dev_eq _ _ (k0_dev18_eq c)
@[sl_canon] theorem dev19_eq (c : Dev nD) : (⟨k0_dev19 c, k0_dev19_lt c⟩ : Dev nD) = zp c := dev_eq _ _ (k0_dev19_eq c)
@[sl_canon] theorem dev20_eq (c : Dev nD) : (⟨k0_dev20 c, k0_dev20_lt c⟩ : Dev nD) = zp c := dev_eq _ _ (k0_dev20_eq c)
@[sl_canon] theorem dev21_eq (c : Dev nD) : (⟨k0_dev21 c, k0_dev21_lt c⟩ : Dev nD) = zp c := dev_eq _ _ (k0_dev21_eq c)
@[sl_canon] theorem dev22_eq (c : Dev nD) : (⟨k0_dev22 c, k0_dev22_lt c⟩ : Dev nD) = zp c := dev_eq _ _ (k0_dev22_eq c)
@[sl_canon] theorem dev23_eq (c : Dev nD) : (⟨k0_dev23 c, k0_dev23_lt c⟩ : Dev nD) = zp c := dev_eq _ _ (k0_dev23_eq c)
@[sl_canon] theorem dev24_eq (c : Dev nD) : (⟨k0_dev24 c, k0_dev24_lt c⟩ : Dev nD) = zp c := dev_eq _ _ (k0_dev24_eq c)
@[sl_canon] theorem dev25_eq (c : Dev nD) : (⟨k0_dev25 c, k0_dev25_lt c⟩ : Dev nD) = zp c := dev_eq _ _ (k0_dev25_eq c)
@[sl_canon] theorem dev26_eq (c : Dev nD) : (⟨k0_dev26 c, k0_dev26_lt c⟩ : Dev nD) = xn c := dev_eq _ _ (k0_dev26_eq c)
@[sl_canon] theorem dev27_eq (c : Dev nD) : (⟨k0_dev27 c, k0_dev27_lt c⟩ : Dev nD) = yn c := dev_eq _ _ (k0_dev27_eq c)
@[sl_canon] theorem dev28_eq (c : Dev nD) : (⟨k0_dev28 c, k0_dev28_lt c⟩ : Dev nD) = xn c := dev_eq _ _ (k0_dev28_eq c)
@[sl_canon] theorem dev29_eq (c : Dev nD) : (⟨k0_dev29 c, k0_dev29_lt c⟩ : Dev nD) = yn c := dev_eq _ _ (k0_dev29_eq c)
@[sl_canon] theorem dev30_eq (c : Dev nD) : (⟨k0_dev30 c, k0_dev30_lt c⟩ : Dev nD) = xn c := dev_eq _ _ (k0_dev30_eq c)
@[sl_canon] theorem dev31_eq (c : Dev nD) : (⟨k0_dev31 c, k0_dev31_lt c⟩ : Dev nD) = yn c := dev_eq _ _ (k0_dev31_eq c)
@[sl_canon] theorem dev32_eq (c : Dev nD) : (⟨k0_dev32 c, k0_dev32_lt c⟩ : Dev nD) = xn c := dev_eq _ _ (k0_dev32_eq c)
@[sl_canon] theorem dev33_eq (c : Dev nD) : (⟨k0_dev33 c, k0_dev33_lt c⟩ : Dev nD) = yn c := dev_eq _ _ (k0_dev33_eq c)
@[sl_canon] theorem dev34_eq (c : Dev nD) : (⟨k0_dev34 c, k0_dev34_lt c⟩ : Dev nD) = xn c := dev_eq _ _ (k0_dev34_eq c)
@[sl_canon] theorem dev35_eq (c : Dev nD) : (⟨k0_dev35 c, k0_dev35_lt c⟩ : Dev nD) = yn c := dev_eq _ _ (k0_dev35_eq c)
@[sl_canon] theorem dev36_eq (c : Dev nD) : (⟨k0_dev36 c, k0_dev36_lt c⟩ : Dev nD) = xn c := dev_eq _ _ (k0_dev36_eq c)
@[sl_canon] theorem dev37_eq (c : Dev nD) : (⟨k0_dev37 c, k0_dev37_lt c⟩ : Dev nD) = yn c := dev_eq _ _ (k0_dev37_eq c)
@[sl_canon] theorem dev38_eq (c : Dev nD) : (⟨k0_dev38 c, k0_dev38_lt c⟩ : Dev nD) = xn c := dev_eq _ _ (k0_dev38_eq c)
@[sl_canon] theorem dev39_eq (c : Dev nD) : (⟨k0_dev39 c, k0_dev39_lt c⟩ : Dev nD) = yn c := dev_eq _ _ (k0_dev39_eq c)
@[sl_canon] theorem dev40_eq (c : Dev nD) : (⟨k0_dev40 c, k0_dev40_lt c⟩ : Dev nD) = xn c := dev_eq _ _ (k0_dev40_eq c)
@[sl_canon] theorem dev41_eq (c : Dev nD) : (⟨k0_dev41 c, k0_dev41_lt c⟩ : Dev nD) = yn c := dev_eq _ _ (k0_dev41_eq c)
@[sl_canon] theorem dev42_eq (c : Dev nD) : (⟨k0_dev42 c, k0_dev42_lt c⟩ : Dev nD) = xn c := dev_eq _ _ (k0_dev42_eq c)
@[sl_canon] theorem dev43_eq (c : Dev nD) : (⟨k0_dev43 c, k0_dev43_lt c⟩ : Dev nD) = yn c := dev_eq _ _ (k0_dev43_eq c)
@[sl_canon] theorem dev44_eq (c : Dev nD) : (⟨k0_dev44 c, k0_dev44_lt c⟩ : Dev nD) = xn c := dev_eq _ _ (k0_dev44_eq c)
@[sl_canon] theorem dev45_eq (c : Dev nD) : (⟨k0_dev45 c, k0_dev45_lt c⟩ : Dev nD) = yn c := dev_eq _ _ (k0_dev45_eq c)
@[sl_canon] theorem dev46_eq (c : Dev nD) : (⟨k0_dev46 c, k0_dev46_lt c⟩ : Dev nD) = xn c := dev_eq _ _ (k0_dev46_eq c)
@[sl_canon] theorem dev47_eq (c : Dev nD) : (⟨k0_dev47 c, k0_dev47_lt c⟩ : Dev nD) = yn c := dev_eq _ _ (k0_dev47_eq c)
@[sl_canon] theorem dev48_eq (c : Dev nD) : (⟨k0_dev48 c, k0_dev48_lt c⟩ : Dev nD) = xn c := dev_eq _ _ (k0_dev48_eq c)
@[sl_canon] theorem dev49_eq (c : Dev nD) : (⟨k0_dev49 c, k0_dev49_lt c⟩ : Dev nD) = yn c := dev_eq _ _ (k0_dev49_eq c)
@[sl_canon] theorem dev50_eq (c : Dev nD) : (⟨k0_dev50 c, k0_dev50_lt c⟩ : Dev nD) = xn c := dev_eq _ _ (k0_dev50_eq c)
@[sl_canon] theorem dev51_eq (c : Dev nD) : (⟨k0_dev51 c, k0_dev51_lt c⟩ : Dev nD) = yn c := dev_eq _ _ (k0_dev51_eq c)
@[sl_canon] theorem dev52_eq (c : Dev nD) : (⟨k0_dev52 c, k0_dev52_lt c⟩ : Dev nD) = xn c := dev_eq _ _ (k0_dev52_eq c)
@[sl_canon] theorem dev53_eq (c : Dev nD) : (⟨k0_dev53 c, k0_dev53_lt c⟩ : Dev nD) = yn c := dev_eq _ _ (k0_dev53_eq c)
@[sl_canon] theorem dev54_eq (c : Dev nD) : (⟨k0_dev54 c, k0_dev54_lt c⟩ : Dev nD) = xn c := dev_eq _ _ (k0_dev54_eq c)
@[sl_canon] theorem dev55_eq (c : Dev nD) : (⟨k0_dev55 c, k0_dev55_lt c⟩ : Dev nD) = yn c := dev_eq _ _ (k0_dev55_eq c)
@[sl_canon] theorem dev56_eq (c : Dev nD) : (⟨k0_dev56 c, k0_dev56_lt c⟩ : Dev nD) = xn c := dev_eq _ _ (k0_dev56_eq c)
@[sl_canon] theorem dev57_eq (c : Dev nD) : (⟨k0_dev57 c, k0_dev57_lt c⟩ : Dev nD) = yn c := dev_eq _ _ (k0_dev57_eq c)
@[sl_canon] theorem dev58_eq (c : Dev nD) : (⟨k0_dev58 c, k0_dev58_lt c⟩ : Dev nD) = xn c := dev_eq _ _ (k0_dev58_eq c)
@[sl_canon] theorem dev59_eq (c : Dev nD) : (⟨k0_dev59 c, k0_dev59_lt c⟩ : Dev nD) = xn c := dev_eq _ _ (k0_dev59_eq c)
@[sl_canon] theorem dev60_eq (c : Dev nD) : (⟨k0_dev60 c, k0_dev60_lt c⟩ : Dev nD) = xn c := dev_eq _ _ (k0_dev60_eq c)
@[sl_canon] theorem dev61_eq (c : Dev nD) : (⟨k0_dev61 c, k0_dev61_lt c⟩ : Dev nD) = xn c := dev_eq _ _ (k0_dev61_eq c)
@[sl_canon] theorem dev62_eq (c : Dev nD) : (⟨k0_dev62 c, k0_dev62_lt c⟩ : Dev nD) = xn c := dev_eq _ _ (k0_dev62_eq c)
@[sl_canon] theorem dev63_eq (c : Dev nD) : (⟨k0_dev63 c, k0_dev63_lt c⟩ : Dev nD) = yn c := dev_eq _ _ (k0_dev63_eq c)
@[sl_canon] theorem dev64_eq (c : Dev nD) : (⟨k0_dev64 c, k0_dev64_lt c⟩ : Dev nD) = yn c := dev_eq _ _ (k0_dev64_eq c)
@[sl_canon] theorem dev65_eq (c : Dev nD) : (⟨k0_dev65 c, k0_dev65_lt c⟩ : Dev nD) = yn c := dev_eq _ _ (k0_dev65_eq c)
@[sl_canon] theorem dev66_eq (c : Dev nD) : (⟨k0_dev66 c, k0_dev66_lt c⟩ : Dev nD) = yn c := dev_eq _ _ (k0_dev66_eq c)
@[sl_canon] theorem dev67_eq (c : Dev nD) : (⟨k0_dev67 c, k0_dev67_lt c⟩ : Dev nD) = yn c := dev_eq _ _ (k0_dev67_eq c)

end Cert.Kernel.Rs
-- ==== Proof.Bits.BodySpec.lean ====
/- What one device's kernel body starts from and ends with: the interface between the body's proof and the launch.
   The ghost state: every cell's invariant and that its (only) round is reached, known to every device; the device's
   positions on its own cells; the tokens of the duties it pays. What it owes at launch: one unit on each of its
   three neighbours' barrier cells and a block's credit on the receive cell of each of its 64 copies. -/
import proofs.«901030_g7700000000001031_dist_rs_v7x_xyz2x2x2_z_m4096_n1024_bf16_1_alg».proof.Proof.Bits.Sched
import proofs.«901030_g7700000000001031_dist_rs_v7x_xyz2x2x2_z_m4096_n1024_bf16_1_alg».proof.Proof.Bits.Devs

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The semaphores of the remote copies: 30–93 send, 94–157 receive; copy `i` goes to (and comes from) `pr i`. -/
abbrev sN (i : Fin 64) : Fin 158 := ⟨30 + i.val, by omega⟩
abbrev rN (i : Fin 64) : Fin 158 := ⟨94 + i.val, by omega⟩
def pr (i : Fin 64) (c : Dev nD) : Dev nD :=
  if i.val < 22 then zp c else if i.val < 38 then xn c else if i.val < 54 then yn c else if i.val < 59 then xn c else yn c
theorem pr_pr (i : Fin 64) (c : Dev nD) : pr i (pr i c) = c := by
  unfold pr; split_ifs <;> first | exact zp_zp c | exact xn_xn c | exact yn_yn c

/-- The cells of the protocol on one device: its barrier cell, its 64 send cells, its 64 receive cells. -/
abbrev CK : Type := Unit ⊕ (Fin 64 ⊕ Fin 64)
def ckSem : CK → SemLoc sig
  | .inl _ => .reg barS
  | .inr (.inl i) => .dma (sN i)
  | .inr (.inr i) => .dma (rN i)
abbrev kcell (ck : Dev nD × CK) : GSem nD τ sig := ((ck.1 : Thread nD τ), ckSem ck.2)

/-- Known to every device: every cell's invariant, at the names `K`, and that its round 0 is reached. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)
instance records_persistent (K : Dev nD × CK → ℕ) : BI.Persistent (records m K) := by unfold records; infer_instance

/-- The device's positions on its own 129 cells. -/
def positions (c : Dev nD) : sProp 𝕄 := bigSep Finset.univ fun k : CK => atPos ER (kcell (c, k)) 0 ∅ 0
/-- The tokens of the duties device `c` pays: on its neighbours' barrier cells (it is the z-partner of its z-partner: duty
    0; the x-neighbour of its x-neighbour: duty 1; likewise 2), on its own send cells, on its copies' receive cells. -/
def payToks (c : Dev nD) : sProp 𝕄 :=
  iprop(dutyTok ER (barCell (zp c)) 0 0 ∗ dutyTok ER (barCell (xn c)) 0 1 ∗ dutyTok ER (barCell (yn c)) 0 2
    ∗ (bigSep Finset.univ fun i : Fin 64 => dutyTok ER (dcell c (sN i)) 0 0)
    ∗ bigSep Finset.univ fun i : Fin 64 => dutyTok ER (dcell (pr i c) (rN i)) 0 0)
def ghost (K : Dev nD × CK → ℕ) (c : Dev nD) : sProp 𝕄 := iprop(records m K ∗ positions c ∗ payToks c)

/-- What device `c` owes at launch. -/
def O₀ (c : Dev nD) : CellTallies nD τ sig Unit :=
  (∑ i : Fin 64, tallyAt (dcell (pr i c) (rN i)) () Nb) + tallyAt (barCell (yn c)) () 1 + tallyAt (barCell (xn c)) () 1 + tallyAt (barCell (zp c)) () 1

/-- Levels: local copies' cells and send cells lowest, the barrier above them, then the receive cells in the order
    the data flows: from the z-partner, forwarded once, forwarded twice. -/
def L (g : GSem nD τ sig) : Finset Unit := if g.1.2 = .tc then {()} else ∅
def lv (g : GSem nD τ sig) (_ : Unit) : ℕ :=
  match g.2 with
  | .reg _ => 1
  | .dma n => if n.val < 94 then 0 else if n.val < 116 then 2 else if n.val < 148 then 3 else 4

/-- Plane `k` of the local f32 copy of device `c`: the rows of quarter q, qy, qx, qd (k = 0, 1, 2, 3) of its argument, own column half. -/
def lV0 (c : Dev nD) : S1024x1024.Idx → Elt F .f32 := ReadAs.same.apply (View.read (Elt F) (wL c 0).view (m ((c : Thread nD τ).loc main_arg0)))
def lV1 (c : Dev nD) : S1024x1024.Idx → Elt F .f32 := ReadAs.same.apply (View.read (Elt F) (wL c 1).view (m ((c : Thread nD τ).loc main_arg0)))
def lV2 (c : Dev nD) : S1024x1024.Idx → Elt F .f32 := ReadAs.same.apply (View.read (Elt F) (wL c 2).view (m ((c : Thread nD τ).loc main_arg0)))
def lV3 (c : Dev nD) : S1024x1024.Idx → Elt F .f32 := ReadAs.same.apply (View.read (Elt F) (wL c 3).view (m ((c : Thread nD τ).loc main_arg0)))
def lV (c : Dev nD) (k : Fin 4) : S1024x1024.Idx → Elt F .f32 := match k with | 0 => lV0 m c | 1 => lV1 m c | 2 => lV2 m c | 3 => lV3 m c
theorem inbP (k : Fin 4) (s : Fin 16) : ∀ a, (![k.val, 64 * s.val, 0] : Fin 3 → Nat) a + S1x64x1024.size a ≤ S4x1024x1024.size a := by revert k s; decide
/-- Rows 64 s … 64 s + 63 of plane `k`, as the kernel's add loads them (a [1, 64, 1024] block). -/
def xlBlk (c : Dev nD) (k : Fin 4) (s : Fin 16) : S1x64x1024.Idx → Elt F .f32 :=
  View.readAt (Elt F) (Memref.whole cc0_scratch2).view (Rect.unit (s := S4x1024x1024) ![k.val, 64 * s.val, 0] S1x64x1024.size (inbP k s)).toLoadRect ((xlM k).view.rep (lV m c k))
/-- The bf16 block the other z-half contributes to rows 64 s … of quarter `k`: it comes from the z-partner (k = 0), through the
    y-neighbour (1), through the x-neighbour (2), and for the diagonal quarter from the z-partner (blocks 0–5), through
    y then x (6–10), through x then y (11–15). -/
def rBlk (c : Dev nD) (k : Fin 4) (s : Fin 16) : S64x1024.Idx → Elt F .bf16 :=
  match k with
  | 0 => aV m (zp c) s
  | 1 => aV m (zp (yn c)) s
  | 2 => aV m (zp (xn c)) s
  | 3 => if h : s.val < 6 then dV m (zp c) ⟨s.val, h⟩ else if s.val < 11 then aV m (zp (yn (xn c))) s else aV m (zp (xn (yn c))) s
/-- Where block `s` of quarter `k` of the VMEM result buffer starts. -/
def offB (c : Dev nD) (k : Fin 4) (s : Fin 16) : Fin 2 → Nat :=
  match k with
  | 0 => k0_off7 c (BitVec.ofNat 32 (64 * s.val)) | 1 => k0_off9 c (BitVec.ofNat 32 (64 * s.val))
  | 2 => k0_off11 c (BitVec.ofNat 32 (64 * s.val)) | 3 => k0_off13 c (BitVec.ofNat 32 (64 * s.val))
theorem offB_inb (c : Dev nD) (k : Fin 4) (s : Fin 16) : ∀ a, (offB c k s) a + S64x1024.size a ≤ S4096x1024.size a :=
  match k with | 0 => k0_off7_inb c s | 1 => k0_off9_inb c s | 2 => k0_off11_inb c s | 3 => k0_off13_inb c s
/-- Block `s` of quarter `k` of the VMEM result buffer, as the kernel's add stores it. -/
abbrev vB (c : Dev nD) (k : Fin 4) (s : Fin 16) : Memref sig .tc .vmem S64x1024 .bf16 :=
  (Memref.whole cc0_scratch9).slice (Rect.unit (s := S4096x1024) (offB c k s) S64x1024.size (offB_inb c k s)) (fun _ => rfl)
/-- What quarter `k` of the VMEM result buffer holds when it is copied out: every block the sum, as the kernel computes it
    (the f32 block of the own argument cast in, the received bf16 block widened, added, the sum narrowed), of the own rows
    and the other z-half's. -/
def QuarterOK (m : (ℓ : Loc nD τ sig) → Buf (Elt F) ℓ) (c : Dev nD) (k : Fin 4) (g : Buf (Elt F) ((c : Thread nD τ).loc cc0_scratch9)) : Prop :=
  ∀ s : Fin 16, (vB c k s).view.read (Elt F) g = k0_pay23 (xlBlk m c k s) (rBlk m c k s)

/-- The final contents of the result array that the body guarantees (to be read at the ideal instance). -/
def OutOK (m : (ℓ : Loc nD τ sig) → Buf (Elt F) ℓ) (c : Dev nD) (f : Buf (Elt F) ((c : Thread nD τ).loc main_v1)) : Prop :=
  ∀ k : Fin 4, ∃ g : Buf (Elt F) ((c : Thread nD τ).loc cc0_scratch9), QuarterOK m c k g ∧ (oQ c k).view.read (Elt F) f = (vQ c k).view.read (Elt F) g

/-- The local copies' 30 counters at zero. -/
def localSems (c : Dev nD) : sProp 𝕄 := bigSep Finset.univ fun n : Fin 30 => semVal (dcell c ⟨n.val, by omega⟩) 0
/-- All 158 of the kernel's own counters at zero. -/
def allSems (c : Dev nD) : sProp 𝕄 := bigSep Finset.univ fun n : Fin 158 => semVal (dcell c n) 0
/-- The ten scratch buffers, each whole at some contents. -/
def scratchAll (c : Dev nD) : sProp 𝕄 := Pipeline.scopedRest cfg0.spec c

/-- Before the body: the ghost state at some names, the launch credit on the own barrier and receive cells, the level
    facts, the local counters, the scratch buffers, the argument and the result array as launched. -/
def Φ₀ (c : Dev nD) : sProp 𝕄 :=
  iprop((∃ K, ghost m K c) ∗ cred (tallyAt (barCell c) () 3) ∗ (bigSep Finset.univ fun i : Fin 64 => cred (tallyAt (dcell c (rN i)) () Nb))
    ∗ levAts L lv ∗ localSems c ∗ scratchAll c
    ∗ (((c : Thread nD τ).loc main_arg0) ↦{fullShare} m ((c : Thread nD τ).loc main_arg0))
    ∗ (((c : Thread nD τ).loc main_v1) ↦{fullShare} m ((c : Thread nD τ).loc main_v1)))
/-- After it: the scratch buffers at some contents, every own counter back at zero, the argument unchanged, the result
    array at contents the body vouches for. -/
def Φ₁ (c : Dev nD) : sProp 𝕄 :=
  iprop(allSems c ∗ scratchAll c
    ∗ (((c : Thread nD τ).loc main_arg0) ↦{fullShare} m ((c : Thread nD τ).loc main_arg0))
    ∗ ∃ f, ⌜OutOK m c f⌝ ∗ (((c : Thread nD τ).loc main_v1) ↦{fullShare} f))

/-- The pipeline library's proof data: no windows, one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Rs

end
-- ==== Proof.Bits.Split.lean ====
/- A buffer is the disjoint union of its row blocks (or of its planes): holding the buffer whole is holding
   every block, and holding every block at some contents is holding the buffer at some contents. The facts
   about the blocks (two different blocks share no element, every element lies in some block) are facts
   about rectangles, argued on coordinates. -/
import proofs.«901030_g7700000000001031_dist_rs_v7x_xyz2x2x2_z_m4096_n1024_bf16_1_alg».proof.Proof.Bits.Views
import Idealize.ShloMosaic.Rules.PointsTo
import Idealize.ShloMosaic.Lib.Exec.Geometry
import Idealize.SL.ProofMode.BigOp

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Ix : Type} [DecidableEq Ix] {Val : EltTy → Type} {Name : Type} [DecidableEq Name] {U : Type} [URA U] {Lvl : Type}
local notation "𝕃" => MT nD τ sig Ix Val Name U Lvl

/-! ## A buffer held whole, and a family of element sets that partitions it -/

/-- A family of element sets in which every element lies covers the buffer. -/
theorem biUnion_eq_univ {ℓ : Loc nD τ sig} {T : Type} [Fintype T] (K : T → Finset (Idx ℓ))
    (hc : ∀ i : Idx ℓ, ∃ t, i ∈ K t) : (Finset.univ : Finset T).biUnion K = Finset.univ := by
  ext i
  simp only [Finset.mem_biUnion, Finset.mem_univ, true_and, iff_true]
  exact hc i

/-- A buffer held whole is held on each set of a pairwise disjoint family that covers it. -/
theorem split_family {ℓ : Loc nD τ sig} {T : Type} [Fintype T] [DecidableEq T] (K : T → Finset (Idx ℓ))
    (hd : ∀ t t', t ≠ t' → Disjoint (K t) (K t')) (hc : ∀ i : Idx ℓ, ∃ t, i ∈ K t)
    (q : PosShare TreeShare) (f : Buf Val ℓ) :
    ((ℓ ↦{q} f) : sProp 𝕃) ⊢ bigSep Finset.univ fun t : T => (ℓ ↦[K t]{q} f) := by
  refine Entails.of_eq ?_
  rw [← pointsTo_biUnion Finset.univ K (fun t _ t' _ h => hd t t' h), biUnion_eq_univ K hc]

/-- Each set of a pairwise disjoint family that covers the buffer held at some contents: the buffer is held whole
    at some contents. (The family has a member t₀: with no member there would be no contents to name.) -/
theorem join_family {ℓ : Loc nD τ sig} {T : Type} [Fintype T] [DecidableEq T] (K : T → Finset (Idx ℓ)) (t₀ : T)
    (hd : ∀ t t', t ≠ t' → Disjoint (K t) (K t')) (hc : ∀ i : Idx ℓ, ∃ t, i ∈ K t)
    (q : PosShare TreeShare) :
    (bigSep Finset.univ fun t : T => iprop(∃ f : Buf Val ℓ, (ℓ ↦[K t]{q} f)) : sProp 𝕃) ⊢ iprop(∃ f : Buf Val ℓ, ℓ ↦{q} f) := by
  by_cases hN : Nonempty (Buf Val ℓ)
  · obtain ⟨f₀⟩ := hN
    haveI : Nonempty (Buf Val ℓ) := ⟨f₀⟩
    iintro H
    ihave H1 := (bigSep_exists_pi (Y := fun _ : T => Buf Val ℓ) Finset.univ (fun t f => (ℓ ↦[K t]{q} f : sProp 𝕃))) $$ H
    icases H1 with ⟨%fs, H1⟩
    ihave H2 := (pointsTo_biUnion_join Finset.univ K fs f₀ (fun t _ t' _ h => hd t t' h)) $$ H1
    icases H2 with ⟨%g, -, H3⟩
    iexists g
    rw [biUnion_eq_univ K hc]
    iexact H3
  · have he : (bigSep Finset.univ fun t : T => iprop(∃ f : Buf Val ℓ, (ℓ ↦[K t]{q} f)) : sProp 𝕃)
        ⊢ iprop(∃ f : Buf Val ℓ, (ℓ ↦[K t₀]{q} f)) := bigSep_elim (Finset.mem_univ t₀)
    iintro H
    ihave H1 := he $$ H
    icases H1 with ⟨%f, H1⟩
    exact absurd ⟨f⟩ hN

/-! ## The sixteen 64-row blocks of a 1024 × 1024 shape -/

/-- Block s (rows 64 s … 64 s + 63), as a rectangle of the shape. -/
abbrev r16 (s : Fin 16) : Rect S1024x1024 := Rect.unit (s := S1024x1024) ![64 * s.val, 0] S64x1024.size (inb16 s)

/-- Two different blocks are separated on the row axis. -/
theorem r16_disjoint {s t : Fin 16} (h : s ≠ t) : Disjoint (r16 s).set (r16 t).set :=
  Rect.unit_disjoint (0 : Fin 2) (by
    have hne : s.val ≠ t.val := fun e => h (Fin.ext e)
    show 64 * s.val + 64 ≤ 64 * t.val ∨ 64 * t.val + 64 ≤ 64 * s.val
    omega)

/-- Every element lies in the block its row, divided by 64, names. -/
theorem r16_mem (i : S1024x1024.Idx) : ∃ s : Fin 16, i ∈ (r16 s).set := by
  have h0 : (i 0 : Nat) < 1024 := (i 0).isLt
  have h1 : (i 1 : Nat) < 1024 := (i 1).isLt
  refine ⟨⟨(i 0 : Nat) / 64, by omega⟩, Rect.mem_set_unit.mpr (Fin.forall_fin_two.mpr ⟨?_, ?_⟩)⟩
  · show 64 * ((i 0 : Nat) / 64) ≤ i 0 ∧ (i 0 : Nat) < 64 * ((i 0 : Nat) / 64) + 64
    omega
  · show 0 ≤ (i 1 : Nat) ∧ (i 1 : Nat) < 0 + 1024
    omega

/-! ## The landing buffer the z-partner writes -/

/-- A block's elements are its rectangle's. -/
theorem set_bQ (s : Fin 16) : (bQ s).view.set = (r16 s).set := View.set_slice_whole cc0_scratch5 _

/-- The buffer held whole is every block held, at the same contents. -/
theorem split_bQ (c : Dev nD) (f : Buf Val ((c : Thread nD τ).loc cc0_scratch5)) :
    ((((c : Thread nD τ).loc cc0_scratch5) ↦{fullShare} f) : sProp 𝕃)
      ⊢ bigSep Finset.univ fun s : Fin 16 => ((bQ s).view.loc (c : Thread nD τ) ↦[(bQ s).view.set]{fullShare} f) :=
  split_family (ℓ := (c : Thread nD τ).loc cc0_scratch5) (fun s : Fin 16 => (bQ s).view.set)
    (fun s t h => by show Disjoint (bQ s).view.set (bQ t).view.set; rw [set_bQ, set_bQ]; exact r16_disjoint h)
    (fun i => (r16_mem i).imp fun s hs => by show i ∈ (bQ s).view.set; rw [set_bQ]; exact hs) fullShare f

/-- Every block held at some contents is the buffer held whole at some contents. -/
theorem join_bQ (c : Dev nD) :
    (bigSep Finset.univ fun s : Fin 16 => iprop(∃ f, ((bQ s).view.loc (c : Thread nD τ) ↦[(bQ s).view.set]{fullShare} f)) : sProp 𝕃)
      ⊢ iprop(∃ f : Buf Val ((c : Thread nD τ).loc cc0_scratch5), ((c : Thread nD τ).loc cc0_scratch5) ↦{fullShare} f) :=
  join_family (ℓ := (c : Thread nD τ).loc cc0_scratch5) (fun s : Fin 16 => (bQ s).view.set) 0
    (fun s t h => by show Disjoint (bQ s).view.set (bQ t).view.set; rw [set_bQ, set_bQ]; exact r16_disjoint h)
    (fun i => (r16_mem i).imp fun s hs => by show i ∈ (bQ s).view.set; rw [set_bQ]; exact hs) fullShare

/-! ## The landing buffer the x-neighbour writes -/

/-- A block's elements are its rectangle's. -/
theorem set_bX (s : Fin 16) : (bX s).view.set = (r16 s).set := View.set_slice_whole cc0_scratch6 _

/-- The buffer held whole is every block held, at the same contents. -/
theorem split_bX (c : Dev nD) (f : Buf Val ((c : Thread nD τ).loc cc0_scratch6)) :
    ((((c : Thread nD τ).loc cc0_scratch6) ↦{fullShare} f) : sProp 𝕃)
      ⊢ bigSep Finset.univ fun s : Fin 16 => ((bX s).view.loc (c : Thread nD τ) ↦[(bX s).view.set]{fullShare} f) :=
  split_family (ℓ := (c : Thread nD τ).loc cc0_scratch6) (fun s : Fin 16 => (bX s).view.set)
    (fun s t h => by show Disjoint (bX s).view.set (bX t).view.set; rw [set_bX, set_bX]; exact r16_disjoint h)
    (fun i => (r16_mem i).imp fun s hs => by show i ∈ (bX s).view.set; rw [set_bX]; exact hs) fullShare f

/-- Every block held at some contents is the buffer held whole at some contents. -/
theorem join_bX (c : Dev nD) :
    (bigSep Finset.univ fun s : Fin 16 => iprop(∃ f, ((bX s).view.loc (c : Thread nD τ) ↦[(bX s).view.set]{fullShare} f)) : sProp 𝕃)
      ⊢ iprop(∃ f : Buf Val ((c : Thread nD τ).loc cc0_scratch6), ((c : Thread nD τ).loc cc0_scratch6) ↦{fullShare} f) :=
  join_family (ℓ := (c : Thread nD τ).loc cc0_scratch6) (fun s : Fin 16 => (bX s).view.set) 0
    (fun s t h => by show Disjoint (bX s).view.set (bX t).view.set; rw [set_bX, set_bX]; exact r16_disjoint h)
    (fun i => (r16_mem i).imp fun s hs => by show i ∈ (bX s).view.set; rw [set_bX]; exact hs) fullShare

/-! ## The landing buffer the y-neighbour writes -/

/-- A block's elements are its rectangle's. -/
theorem set_bY (s : Fin 16) : (bY s).view.set = (r16 s).set := View.set_slice_whole cc0_scratch7 _

/-- The buffer held whole is every block held, at the same contents. -/
theorem split_bY (c : Dev nD) (f : Buf Val ((c : Thread nD τ).loc cc0_scratch7)) :
    ((((c : Thread nD τ).loc cc0_scratch7) ↦{fullShare} f) : sProp 𝕃)
      ⊢ bigSep Finset.univ fun s : Fin 16 => ((bY s).view.loc (c : Thread nD τ) ↦[(bY s).view.set]{fullShare} f) :=
  split_family (ℓ := (c : Thread nD τ).loc cc0_scratch7) (fun s : Fin 16 => (bY s).view.set)
    (fun s t h => by show Disjoint (bY s).view.set (bY t).view.set; rw [set_bY, set_bY]; exact r16_disjoint h)
    (fun i => (r16_mem i).imp fun s hs => by show i ∈ (bY s).view.set; rw [set_bY]; exact hs) fullShare f

/-- Every block held at some contents is the buffer held whole at some contents. -/
theorem join_bY (c : Dev nD) :
    (bigSep Finset.univ fun s : Fin 16 => iprop(∃ f, ((bY s).view.loc (c : Thread nD τ) ↦[(bY s).view.set]{fullShare} f)) : sProp 𝕃)
      ⊢ iprop(∃ f : Buf Val ((c : Thread nD τ).loc cc0_scratch7), ((c : Thread nD τ).loc cc0_scratch7) ↦{fullShare} f) :=
  join_family (ℓ := (c : Thread nD τ).loc cc0_scratch7) (fun s : Fin 16 => (bY s).view.set) 0
    (fun s t h => by show Disjoint (bY s).view.set (bY t).view.set; rw [set_bY, set_bY]; exact r16_disjoint h)
    (fun i => (r16_mem i).imp fun s hs => by show i ∈ (bY s).view.set; rw [set_bY]; exact hs) fullShare

/-! ## The landing buffer of the diagonal quarter -/

/-- A block's elements are its rectangle's. -/
theorem set_bR (s : Fin 16) : (bR s).view.set = (r16 s).set := View.set_slice_whole cc0_scratch8 _

/-- The buffer held whole is every block held, at the same contents. -/
theorem split_bR (c : Dev nD) (f : Buf Val ((c : Thread nD τ).loc cc0_scratch8)) :
    ((((c : Thread nD τ).loc cc0_scratch8) ↦{fullShare} f) : sProp 𝕃)
      ⊢ bigSep Finset.univ fun s : Fin 16 => ((bR s).view.loc (c : Thread nD τ) ↦[(bR s).view.set]{fullShare} f) :=
  split_family (ℓ := (c : Thread nD τ).loc cc0_scratch8) (fun s : Fin 16 => (bR s).view.set)
    (fun s t h => by show Disjoint (bR s).view.set (bR t).view.set; rw [set_bR, set_bR]; exact r16_disjoint h)
    (fun i => (r16_mem i).imp fun s hs => by show i ∈ (bR s).view.set; rw [set_bR]; exact hs) fullShare f

/-- Every block held at some contents is the buffer held whole at some contents. -/
theorem join_bR (c : Dev nD) :
    (bigSep Finset.univ fun s : Fin 16 => iprop(∃ f, ((bR s).view.loc (c : Thread nD τ) ↦[(bR s).view.set]{fullShare} f)) : sProp 𝕃)
      ⊢ iprop(∃ f : Buf Val ((c : Thread nD τ).loc cc0_scratch8), ((c : Thread nD τ).loc cc0_scratch8) ↦{fullShare} f) :=
  join_family (ℓ := (c : Thread nD τ).loc cc0_scratch8) (fun s : Fin 16 => (bR s).view.set) 0
    (fun s t h => by show Disjoint (bR s).view.set (bR t).view.set; rw [set_bR, set_bR]; exact r16_disjoint h)
    (fun i => (r16_mem i).imp fun s hs => by show i ∈ (bR s).view.set; rw [set_bR]; exact hs) fullShare

/-! ## The staging buffer of the own quarter -/

/-- A block's elements are its rectangle's. -/
theorem set_bA (s : Fin 16) : (bA s).view.set = (r16 s).set := View.set_slice_whole cc0_scratch3 _

/-- The buffer held whole is every block held, at the same contents. -/
theorem split_bA (c : Dev nD) (f : Buf Val ((c : Thread nD τ).loc cc0_scratch3)) :
    ((((c : Thread nD τ).loc cc0_scratch3) ↦{fullShare} f) : sProp 𝕃)
      ⊢ bigSep Finset.univ fun s : Fin 16 => ((bA s).view.loc (c : Thread nD τ) ↦[(bA s).view.set]{fullShare} f) :=
  split_family (ℓ := (c : Thread nD τ).loc cc0_scratch3) (fun s : Fin 16 => (bA s).view.set)
    (fun s t h => by show Disjoint (bA s).view.set (bA t).view.set; rw [set_bA, set_bA]; exact r16_disjoint h)
    (fun i => (r16_mem i).imp fun s hs => by show i ∈ (bA s).view.set; rw [set_bA]; exact hs) fullShare f

/-- Every block held at some contents is the buffer held whole at some contents. -/
theorem join_bA (c : Dev nD) :
    (bigSep Finset.univ fun s : Fin 16 => iprop(∃ f, ((bA s).view.loc (c : Thread nD τ) ↦[(bA s).view.set]{fullShare} f)) : sProp 𝕃)
      ⊢ iprop(∃ f : Buf Val ((c : Thread nD τ).loc cc0_scratch3), ((c : Thread nD τ).loc cc0_scratch3) ↦{fullShare} f) :=
  join_family (ℓ := (c : Thread nD τ).loc cc0_scratch3) (fun s : Fin 16 => (bA s).view.set) 0
    (fun s t h => by show Disjoint (bA s).view.set (bA t).view.set; rw [set_bA, set_bA]; exact r16_disjoint h)
    (fun i => (r16_mem i).imp fun s hs => by show i ∈ (bA s).view.set; rw [set_bA]; exact hs) fullShare

/-! ## The f32 copy of the own quarter's other column half -/

/-- A block's elements are its rectangle's. -/
theorem set_xqM (s : Fin 16) : (xqM s).view.set = (r16 s).set := View.set_slice_whole cc0_scratch0 _

/-- The buffer held whole is every block held, at the same contents. -/
theorem split_xqM (c : Dev nD) (f : Buf Val ((c : Thread nD τ).loc cc0_scratch0)) :
    ((((c : Thread nD τ).loc cc0_scratch0) ↦{fullShare} f) : sProp 𝕃)
      ⊢ bigSep Finset.univ fun s : Fin 16 => ((xqM s).view.loc (c : Thread nD τ) ↦[(xqM s).view.set]{fullShare} f) :=
  split_family (ℓ := (c : Thread nD τ).loc cc0_scratch0) (fun s : Fin 16 => (xqM s).view.set)
    (fun s t h => by show Disjoint (xqM s).view.set (xqM t).view.set; rw [set_xqM, set_xqM]; exact r16_disjoint h)
    (fun i => (r16_mem i).imp fun s hs => by show i ∈ (xqM s).view.set; rw [set_xqM]; exact hs) fullShare f

/-- Every block held at some contents is the buffer held whole at some contents. -/
theorem join_xqM (c : Dev nD) :
    (bigSep Finset.univ fun s : Fin 16 => iprop(∃ f, ((xqM s).view.loc (c : Thread nD τ) ↦[(xqM s).view.set]{fullShare} f)) : sProp 𝕃)
      ⊢ iprop(∃ f : Buf Val ((c : Thread nD τ).loc cc0_scratch0), ((c : Thread nD τ).loc cc0_scratch0) ↦{fullShare} f) :=
  join_family (ℓ := (c : Thread nD τ).loc cc0_scratch0) (fun s : Fin 16 => (xqM s).view.set) 0
    (fun s t h => by show Disjoint (xqM s).view.set (xqM t).view.set; rw [set_xqM, set_xqM]; exact r16_disjoint h)
    (fun i => (r16_mem i).imp fun s hs => by show i ∈ (xqM s).view.set; rw [set_xqM]; exact hs) fullShare

/-! ## The six 64-row blocks of a 384 × 1024 shape -/

/-- Block j (rows 64 j … 64 j + 63), as a rectangle of the shape. -/
abbrev r6 (j : Fin 6) : Rect S384x1024 := Rect.unit (s := S384x1024) ![64 * j.val, 0] S64x1024.size (inb6 j)

/-- Two different blocks are separated on the row axis. -/
theorem r6_disjoint {s t : Fin 6} (h : s ≠ t) : Disjoint (r6 s).set (r6 t).set :=
  Rect.unit_disjoint (0 : Fin 2) (by
    have hne : s.val ≠ t.val := fun e => h (Fin.ext e)
    show 64 * s.val + 64 ≤ 64 * t.val ∨ 64 * t.val + 64 ≤ 64 * s.val
    omega)

/-- Every element lies in the block its row, divided by 64, names. -/
theorem r6_mem (i : S384x1024.Idx) : ∃ j : Fin 6, i ∈ (r6 j).set := by
  have h0 : (i 0 : Nat) < 384 := (i 0).isLt
  have h1 : (i 1 : Nat) < 1024 := (i 1).isLt
  refine ⟨⟨(i 0 : Nat) / 64, by omega⟩, Rect.mem_set_unit.mpr (Fin.forall_fin_two.mpr ⟨?_, ?_⟩)⟩
  · show 64 * ((i 0 : Nat) / 64) ≤ i 0 ∧ (i 0 : Nat) < 64 * ((i 0 : Nat) / 64) + 64
    omega
  · show 0 ≤ (i 1 : Nat) ∧ (i 1 : Nat) < 0 + 1024
    omega

/-! ## The staging buffer of the diagonal quarter -/

/-- A block's elements are its rectangle's. -/
theorem set_bD (s : Fin 6) : (bD s).view.set = (r6 s).set := View.set_slice_whole cc0_scratch4 _

/-- The buffer held whole is every block held, at the same contents. -/
theorem split_bD (c : Dev nD) (f : Buf Val ((c : Thread nD τ).loc cc0_scratch4)) :
    ((((c : Thread nD τ).loc cc0_scratch4) ↦{fullShare} f) : sProp 𝕃)
      ⊢ bigSep Finset.univ fun s : Fin 6 => ((bD s).view.loc (c : Thread nD τ) ↦[(bD s).view.set]{fullShare} f) :=
  split_family (ℓ := (c : Thread nD τ).loc cc0_scratch4) (fun s : Fin 6 => (bD s).view.set)
    (fun s t h => by show Disjoint (bD s).view.set (bD t).view.set; rw [set_bD, set_bD]; exact r6_disjoint h)
    (fun i => (r6_mem i).imp fun s hs => by show i ∈ (bD s).view.set; rw [set_bD]; exact hs) fullShare f

/-- Every block held at some contents is the buffer held whole at some contents. -/
theorem join_bD (c : Dev nD) :
    (bigSep Finset.univ fun s : Fin 6 => iprop(∃ f, ((bD s).view.loc (c : Thread nD τ) ↦[(bD s).view.set]{fullShare} f)) : sProp 𝕃)
      ⊢ iprop(∃ f : Buf Val ((c : Thread nD τ).loc cc0_scratch4), ((c : Thread nD τ).loc cc0_scratch4) ↦{fullShare} f) :=
  join_family (ℓ := (c : Thread nD τ).loc cc0_scratch4) (fun s : Fin 6 => (bD s).view.set) 0
    (fun s t h => by show Disjoint (bD s).view.set (bD t).view.set; rw [set_bD, set_bD]; exact r6_disjoint h)
    (fun i => (r6_mem i).imp fun s hs => by show i ∈ (bD s).view.set; rw [set_bD]; exact hs) fullShare

/-! ## The f32 copy of the diagonal quarter's first six blocks -/

/-- A block's elements are its rectangle's. -/
theorem set_xdM (s : Fin 6) : (xdM s).view.set = (r6 s).set := View.set_slice_whole cc0_scratch1 _

/-- The buffer held whole is every block held, at the same contents. -/
theorem split_xdM (c : Dev nD) (f : Buf Val ((c : Thread nD τ).loc cc0_scratch1)) :
    ((((c : Thread nD τ).loc cc0_scratch1) ↦{fullShare} f) : sProp 𝕃)
      ⊢ bigSep Finset.univ fun s : Fin 6 => ((xdM s).view.loc (c : Thread nD τ) ↦[(xdM s).view.set]{fullShare} f) :=
  split_family (ℓ := (c : Thread nD τ).loc cc0_scratch1) (fun s : Fin 6 => (xdM s).view.set)
    (fun s t h => by show Disjoint (xdM s).view.set (xdM t).view.set; rw [set_xdM, set_xdM]; exact r6_disjoint h)
    (fun i => (r6_mem i).imp fun s hs => by show i ∈ (xdM s).view.set; rw [set_xdM]; exact hs) fullShare f

/-- Every block held at some contents is the buffer held whole at some contents. -/
theorem join_xdM (c : Dev nD) :
    (bigSep Finset.univ fun s : Fin 6 => iprop(∃ f, ((xdM s).view.loc (c : Thread nD τ) ↦[(xdM s).view.set]{fullShare} f)) : sProp 𝕃)
      ⊢ iprop(∃ f : Buf Val ((c : Thread nD τ).loc cc0_scratch1), ((c : Thread nD τ).loc cc0_scratch1) ↦{fullShare} f) :=
  join_family (ℓ := (c : Thread nD τ).loc cc0_scratch1) (fun s : Fin 6 => (xdM s).view.set) 0
    (fun s t h => by show Disjoint (xdM s).view.set (xdM t).view.set; rw [set_xdM, set_xdM]; exact r6_disjoint h)
    (fun i => (r6_mem i).imp fun s hs => by show i ∈ (xdM s).view.set; rw [set_xdM]; exact hs) fullShare

/-! ## The four planes of a 4 × 1024 × 1024 shape -/

/-- Plane k, as a rectangle of the shape. -/
abbrev r4 (k : Fin 4) : Rect S4x1024x1024 := Rect.unit (s := S4x1024x1024) ![k.val, 0, 0] S1x1024x1024.size (inb4 k)

/-- Two different planes are separated on the leading axis. -/
theorem r4_disjoint {s t : Fin 4} (h : s ≠ t) : Disjoint (r4 s).set (r4 t).set :=
  Rect.unit_disjoint (0 : Fin 3) (by
    have hne : s.val ≠ t.val := fun e => h (Fin.ext e)
    show s.val + 1 ≤ t.val ∨ t.val + 1 ≤ s.val
    omega)

/-- Every element lies in the plane its leading coordinate names. -/
theorem r4_mem (i : S4x1024x1024.Idx) : ∃ k : Fin 4, i ∈ (r4 k).set := by
  have h0 : (i 0 : Nat) < 4 := (i 0).isLt
  have h1 : (i 1 : Nat) < 1024 := (i 1).isLt
  have h2 : (i 2 : Nat) < 1024 := (i 2).isLt
  refine ⟨⟨(i 0 : Nat), h0⟩, Rect.mem_set_unit.mpr (Fin.forall_fin_succ.mpr ⟨?_, Fin.forall_fin_two.mpr ⟨?_, ?_⟩⟩)⟩
  · show (i 0 : Nat) ≤ i 0 ∧ (i 0 : Nat) < (i 0 : Nat) + 1
    omega
  · show 0 ≤ (i 1 : Nat) ∧ (i 1 : Nat) < 0 + 1024
    omega
  · show 0 ≤ (i 2 : Nat) ∧ (i 2 : Nat) < 0 + 1024
    omega

/-! ## The local copy of the own column half -/

/-- A plane's elements are its rectangle's: dropping the leading axis of size one keeps the elements. -/
theorem set_xlM (k : Fin 4) : (xlM k).view.set = (r4 k).set := (View.set_reshape _ _).trans (View.set_slice_whole cc0_scratch2 _)

/-- The buffer held whole is every plane held, at the same contents. -/
theorem split_xlM (c : Dev nD) (f : Buf Val ((c : Thread nD τ).loc cc0_scratch2)) :
    ((((c : Thread nD τ).loc cc0_scratch2) ↦{fullShare} f) : sProp 𝕃)
      ⊢ bigSep Finset.univ fun s : Fin 4 => ((xlM s).view.loc (c : Thread nD τ) ↦[(xlM s).view.set]{fullShare} f) :=
  split_family (ℓ := (c : Thread nD τ).loc cc0_scratch2) (fun s : Fin 4 => (xlM s).view.set)
    (fun s t h => by show Disjoint (xlM s).view.set (xlM t).view.set; rw [set_xlM, set_xlM]; exact r4_disjoint h)
    (fun i => (r4_mem i).imp fun s hs => by show i ∈ (xlM s).view.set; rw [set_xlM]; exact hs) fullShare f

/-- Every plane held at some contents is the buffer held whole at some contents. -/
theorem join_xlM (c : Dev nD) :
    (bigSep Finset.univ fun s : Fin 4 => iprop(∃ f, ((xlM s).view.loc (c : Thread nD τ) ↦[(xlM s).view.set]{fullShare} f)) : sProp 𝕃)
      ⊢ iprop(∃ f : Buf Val ((c : Thread nD τ).loc cc0_scratch2), ((c : Thread nD τ).loc cc0_scratch2) ↦{fullShare} f) :=
  join_family (ℓ := (c : Thread nD τ).loc cc0_scratch2) (fun s : Fin 4 => (xlM s).view.set) 0
    (fun s t h => by show Disjoint (xlM s).view.set (xlM t).view.set; rw [set_xlM, set_xlM]; exact r4_disjoint h)
    (fun i => (r4_mem i).imp fun s hs => by show i ∈ (xlM s).view.set; rw [set_xlM]; exact hs) fullShare

end Cert.Kernel.Rs

end
-- ==== Proof.Bits.SplitArg.lean ====
/- The argument array lent to the twenty-six local copies by shares, and the result array and its VMEM
   source cut into their four quarters by rows. -/
import proofs.«901030_g7700000000001031_dist_rs_v7x_xyz2x2x2_z_m4096_n1024_bf16_1_alg».proof.Proof.Bits.Views

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Ix : Type} [DecidableEq Ix] {Val : EltTy → Type} {Name : Type} [DecidableEq Name] {U : Type} [URA U] {Lvl : Type}
local notation "𝕃" => MT nD τ sig Ix Val Name U Lvl

/-! ## Shares by peeling

The full share is halved; the left half is handed out and the right half is halved again. After `n` rounds
the shares handed out are `sh 0, …, sh (n - 1)` and `shRest n` is what is left. Any number of readers can
thus hold the whole array at once, each at a share of its own, with no claim that what they read is disjoint. -/

/-- What is left of the full share after `n` halvings: the right half, `n` times. -/
def shRest : Nat → PosShare TreeShare
  | 0 => fullShare
  | n + 1 => (shRest n).right

/-- The share handed out in round `n`: the left half of what was left. -/
def sh (n : Nat) : PosShare TreeShare := (shRest n).left

/-- The share of local copy `k`'s window. -/
def shL (k : Fin 4) : PosShare TreeShare := sh k.val
/-- The share of block `s` of the own quarter's other column half. -/
def shQ (s : Fin 16) : PosShare TreeShare := sh (4 + s.val)
/-- The share of block `j` of the diagonal quarter's other column half. -/
def shD (j : Fin 6) : PosShare TreeShare := sh (20 + j.val)

section Peel
variable {ℓ : Loc nD τ sig}

/-- Two resources that entail each other are one. -/
private theorem eq_of_entails {P Q : sProp 𝕃} (h₁ : P ⊢ Q) (h₂ : Q ⊢ P) : P = Q := BI.Entails.antisymm h₁ h₂

private theorem eq_of_equiv {P Q : sProp 𝕃} (h : P ⊣⊢ Q) : P = Q := BI.Entails.antisymm h.1 h.2

/-- Five resources regrouped: the first with the third, the second with the fourth. -/
private theorem sep_regroup (A B C D R : sProp 𝕃) :
    iprop(A ∗ B ∗ C ∗ D ∗ R) = iprop((A ∗ C) ∗ (B ∗ D) ∗ R) := by
  refine eq_of_entails ?_ ?_
  · iintro ⟨HA, HB, HC, HD, HR⟩
    isplitl [HA HC]
    · isplitl [HA]; · iexact HA
      iexact HC
    isplitl [HB HD]
    · isplitl [HB]; · iexact HB
      iexact HD
    iexact HR
  · iintro ⟨⟨HA, HC⟩, ⟨HB, HD⟩, HR⟩
    isplitl [HA]; · iexact HA
    isplitl [HB]; · iexact HB
    isplitl [HC]; · iexact HC
    isplitl [HD]; · iexact HD
    iexact HR

/-- One round: what is left splits into a window at the round's share, the elements outside the window at
    that share, and what is left afterwards. -/
theorem peel_one (f : Buf Val ℓ) (W : Finset (Idx ℓ)) (n : Nat) :
    (ℓ ↦{shRest n} f : sProp 𝕃) = iprop((ℓ ↦[W]{sh n} f) ∗ (ℓ ↦[Finset.univ \ W]{sh n} f) ∗ ℓ ↦{shRest (n + 1)} f) := by
  have h1 : (ℓ ↦{shRest n} f : sProp 𝕃) = iprop((ℓ ↦{sh n} f) ∗ ℓ ↦{shRest (n + 1)} f) :=
    eq_of_equiv (pointsTo_share (PosShare.mem_left_op_right (shRest n)))
  have h2 : (ℓ ↦{sh n} f : sProp 𝕃) = iprop((ℓ ↦[W]{sh n} f) ∗ ℓ ↦[Finset.univ \ W]{sh n} f) :=
    eq_of_equiv (pointsTo_split_subset (Finset.subset_univ W))
  rw [h1, h2]
  refine eq_of_entails ?_ ?_
  · iintro ⟨⟨HA, HB⟩, HR⟩
    isplitl [HA]; · iexact HA
    isplitl [HB]; · iexact HB
    iexact HR
  · iintro ⟨HA, HB, HR⟩
    isplitr [HR]
    · isplitl [HA]; · iexact HA
      iexact HB
    iexact HR

/-- A `bigSep` over `Fin (n + 1)` is the one over the first `n` indices and the last term. -/
theorem arg_bigSep_fin_last (n : Nat) (Φ : Fin (n + 1) → sProp 𝕃) :
    bigSep Finset.univ Φ = iprop((bigSep Finset.univ fun i : Fin n => Φ i.castSucc) ∗ Φ (Fin.last n)) := by
  rw [Fin.univ_castSuccEmb, Finset.cons_eq_insert, bigSep_insert (by simp), bigSep_map]
  refine eq_of_entails (P := iprop(Φ (Fin.last n) ∗ bigSep Finset.univ fun i : Fin n => Φ i.castSucc)) ?_ ?_
  · iintro ⟨HA, HB⟩
    isplitl [HB]; · iexact HB
    iexact HA
  · iintro ⟨HB, HA⟩
    isplitl [HA]; · iexact HA
    iexact HB

/-- `n` rounds starting after round `m`, for any family of `n` windows. -/
theorem peel_fin (f : Buf Val ℓ) (m : Nat) : ∀ (n : Nat) (W : Fin n → Finset (Idx ℓ)),
    (ℓ ↦{shRest m} f : sProp 𝕃)
      = iprop((bigSep Finset.univ fun i : Fin n => ℓ ↦[W i]{sh (m + i.val)} f)
          ∗ (bigSep Finset.univ fun i : Fin n => ℓ ↦[Finset.univ \ W i]{sh (m + i.val)} f)
          ∗ ℓ ↦{shRest (m + n)} f)
  | 0, W => by
    rw [show (Finset.univ : Finset (Fin 0)) = ∅ from rfl, bigSep_empty, bigSep_empty]
    refine eq_of_entails (Q := iprop(emp ∗ emp ∗ ℓ ↦{shRest (m + 0)} f)) ?_ ?_
    · iintro HR
      isplitr [HR]; · iempintro
      isplitr [HR]; · iempintro
      iexact HR
    · iintro ⟨-, -, HR⟩
      iexact HR
  | n + 1, W => by
    rw [arg_bigSep_fin_last, arg_bigSep_fin_last, peel_fin f m n (fun i => W i.castSucc), peel_one f (W (Fin.last n)) (m + n)]
    simp only [Fin.coe_castSucc, Fin.val_last, Nat.add_assoc]
    exact sep_regroup _ _ _ _ _

end Peel

/-! ## The argument array lent to the twenty-six local copies -/

section Arg

/-- The elements of local copy `k`'s window, as elements of the argument array. -/
def wLset (c : Dev nD) : Fin 4 → Finset (Idx ((c : Thread nD τ).loc main_arg0))
  | 0 => (wL c 0).view.set
  | 1 => (wL c 1).view.set
  | 2 => (wL c 2).view.set
  | 3 => (wL c 3).view.set

/-- What the readers do not hold while all twenty-six copies are in flight: for each window the elements
    outside it, at that window's share; and the whole array at the share left after twenty-six rounds. -/
def argRest (c : Dev nD) (f : Buf Val ((c : Thread nD τ).loc main_arg0)) : sProp 𝕃 :=
  iprop((bigSep Finset.univ fun k : Fin 4 => (((c : Thread nD τ).loc main_arg0) ↦[Finset.univ \ wLset c k]{shL k} f))
    ∗ (bigSep Finset.univ fun s : Fin 16 => (((c : Thread nD τ).loc main_arg0) ↦[Finset.univ \ (wQ c s).view.set]{shQ s} f))
    ∗ (bigSep Finset.univ fun j : Fin 6 => (((c : Thread nD τ).loc main_arg0) ↦[Finset.univ \ (wD c j).view.set]{shD j} f))
    ∗ (((c : Thread nD τ).loc main_arg0) ↦{shRest 26} f))

/-- Three rounds of windows and leftovers regrouped: the windows first, the leftovers after. -/
private theorem sep_regroup3 (A₁ B₁ A₂ B₂ A₃ B₃ R : sProp 𝕃) :
    iprop(A₁ ∗ B₁ ∗ A₂ ∗ B₂ ∗ A₃ ∗ B₃ ∗ R) = iprop(A₁ ∗ A₂ ∗ A₃ ∗ B₁ ∗ B₂ ∗ B₃ ∗ R) := by
  refine eq_of_entails ?_ ?_
  · iintro ⟨HA1, HB1, HA2, HB2, HA3, HB3, HR⟩
    isplitl [HA1]; · iexact HA1
    isplitl [HA2]; · iexact HA2
    isplitl [HA3]; · iexact HA3
    isplitl [HB1]; · iexact HB1
    isplitl [HB2]; · iexact HB2
    isplitl [HB3]; · iexact HB3
    iexact HR
  · iintro ⟨HA1, HA2, HA3, HB1, HB2, HB3, HR⟩
    isplitl [HA1]; · iexact HA1
    isplitl [HB1]; · iexact HB1
    isplitl [HA2]; · iexact HA2
    isplitl [HB2]; · iexact HB2
    isplitl [HA3]; · iexact HA3
    isplitl [HB3]; · iexact HB3
    iexact HR

/-- The whole argument array at the full share is the twenty-six windows, each at a share of its own, and
    `argRest`: twenty-six rounds of halving, none of which asks the windows to be disjoint. -/
theorem split_arg_eq (c : Dev nD) (f : Buf Val ((c : Thread nD τ).loc main_arg0)) :
    ((((c : Thread nD τ).loc main_arg0) ↦{fullShare} f) : sProp 𝕃)
      = iprop((bigSep Finset.univ fun k : Fin 4 => (((c : Thread nD τ).loc main_arg0) ↦[wLset c k]{shL k} f))
          ∗ (bigSep Finset.univ fun s : Fin 16 => ((wQ c s).view.loc (c : Thread nD τ) ↦[(wQ c s).view.set]{shQ s} f))
          ∗ (bigSep Finset.univ fun j : Fin 6 => ((wD c j).view.loc (c : Thread nD τ) ↦[(wD c j).view.set]{shD j} f))
          ∗ argRest c f) := by
  unfold argRest shL shQ shD
  rw [show (fullShare : PosShare TreeShare) = shRest 0 from rfl, peel_fin f 0 4 (wLset c),
    show (0 + 4 : Nat) = 4 from rfl, peel_fin f 4 16 (fun s => (wQ c s).view.set),
    show (4 + 16 : Nat) = 20 from rfl, peel_fin f 20 6 (fun j => (wD c j).view.set),
    show (20 + 6 : Nat) = 26 from rfl]
  simp only [Nat.zero_add]
  exact sep_regroup3 _ _ _ _ _ _ _

end Arg

section ArgStatements

/-- A `bigSep` over four indices, written out. -/
theorem arg_bigSep_fin4 (Φ : Fin 4 → sProp 𝕃) : bigSep Finset.univ Φ = iprop(Φ 0 ∗ Φ 1 ∗ Φ 2 ∗ Φ 3) := by
  rw [show (Finset.univ : Finset (Fin 4)) = {0, 1, 2, 3} by decide, bigSep_insert (by decide),
    bigSep_insert (by decide), bigSep_insert (by decide), bigSep_singleton]
  rfl

/-- `split_arg_eq` as an equivalence, to be used in either direction: lending the array out and taking it
    back whole with the same contents. -/
theorem split_arg (c : Dev nD) (f : Buf Val ((c : Thread nD τ).loc main_arg0)) :
    ((((c : Thread nD τ).loc main_arg0) ↦{fullShare} f) : sProp 𝕃)
      ⊣⊢ iprop((bigSep Finset.univ fun k : Fin 4 => (((c : Thread nD τ).loc main_arg0) ↦[wLset c k]{shL k} f))
          ∗ (bigSep Finset.univ fun s : Fin 16 => ((wQ c s).view.loc (c : Thread nD τ) ↦[(wQ c s).view.set]{shQ s} f))
          ∗ (bigSep Finset.univ fun j : Fin 6 => ((wD c j).view.loc (c : Thread nD τ) ↦[(wD c j).view.set]{shD j} f))
          ∗ argRest c f) :=
  ⟨Entails.of_eq (split_arg_eq c f), Entails.of_eq (split_arg_eq c f).symm⟩

/-- The same with the four local copies' windows written out one by one. -/
theorem split_arg4_eq (c : Dev nD) (f : Buf Val ((c : Thread nD τ).loc main_arg0)) :
    ((((c : Thread nD τ).loc main_arg0) ↦{fullShare} f) : sProp 𝕃)
      = iprop((((wL c 0).view.loc (c : Thread nD τ) ↦[(wL c 0).view.set]{shL 0} f)
            ∗ ((wL c 1).view.loc (c : Thread nD τ) ↦[(wL c 1).view.set]{shL 1} f)
            ∗ ((wL c 2).view.loc (c : Thread nD τ) ↦[(wL c 2).view.set]{shL 2} f)
            ∗ ((wL c 3).view.loc (c : Thread nD τ) ↦[(wL c 3).view.set]{shL 3} f))
          ∗ (bigSep Finset.univ fun s : Fin 16 => ((wQ c s).view.loc (c : Thread nD τ) ↦[(wQ c s).view.set]{shQ s} f))
          ∗ (bigSep Finset.univ fun j : Fin 6 => ((wD c j).view.loc (c : Thread nD τ) ↦[(wD c j).view.set]{shD j} f))
          ∗ argRest c f) := by
  rw [split_arg_eq c f, arg_bigSep_fin4]; rfl

theorem split_arg4 (c : Dev nD) (f : Buf Val ((c : Thread nD τ).loc main_arg0)) :
    ((((c : Thread nD τ).loc main_arg0) ↦{fullShare} f) : sProp 𝕃)
      ⊣⊢ iprop((((wL c 0).view.loc (c : Thread nD τ) ↦[(wL c 0).view.set]{shL 0} f)
            ∗ ((wL c 1).view.loc (c : Thread nD τ) ↦[(wL c 1).view.set]{shL 1} f)
            ∗ ((wL c 2).view.loc (c : Thread nD τ) ↦[(wL c 2).view.set]{shL 2} f)
            ∗ ((wL c 3).view.loc (c : Thread nD τ) ↦[(wL c 3).view.set]{shL 3} f))
          ∗ (bigSep Finset.univ fun s : Fin 16 => ((wQ c s).view.loc (c : Thread nD τ) ↦[(wQ c s).view.set]{shQ s} f))
          ∗ (bigSep Finset.univ fun j : Fin 6 => ((wD c j).view.loc (c : Thread nD τ) ↦[(wD c j).view.set]{shD j} f))
          ∗ argRest c f) :=
  ⟨Entails.of_eq (split_arg4_eq c f), Entails.of_eq (split_arg4_eq c f).symm⟩

end ArgStatements

/-! ## The result array and the VMEM buffer it is copied from, cut into four quarters by rows

For every device the four quarters start at the rows 0, 1024, 2048, 3072 in some order and at column 0, each
1024 rows by 1024 columns: their row ranges are pairwise apart and together are all 4096 rows. -/

section Out

/-- Every quarter starts at column 0. -/
theorem offO_col : ∀ (c : Dev nD) (k : Fin 4), offO c k 1 = 0 := by decide +kernel
/-- Every quarter starts at a multiple of 1024 that is at most 3072. -/
theorem offO_row : ∀ (c : Dev nD) (k : Fin 4), offO c k 0 % 1024 = 0 ∧ offO c k 0 ≤ 3072 := by decide +kernel
/-- Different quarters start at different rows. -/
theorem offO_inj : ∀ (c : Dev nD) (k k' : Fin 4), k ≠ k' → offO c k 0 ≠ offO c k' 0 := by decide +kernel
/-- Each of the four row blocks is some quarter's. -/
theorem offO_surj : ∀ (c : Dev nD) (q : Fin 4), ∃ k : Fin 4, offO c k 0 = 1024 * q.val := by decide +kernel

/-- Quarter `k` as a rectangle of the 4096 × 1024 shape. -/
abbrev rO (c : Dev nD) (k : Fin 4) : Rect S4096x1024 := Rect.unit (s := S4096x1024) (offO c k) S1024x1024.size (offO_inb c k)

/-- Different quarters have no element in common: their row ranges are apart. -/
theorem rO_disjoint (c : Dev nD) {k k' : Fin 4} (h : k ≠ k') : Disjoint (rO c k).set (rO c k').set := by
  refine Rect.unit_disjoint (0 : Fin 2) ?_
  have h1 := offO_row c k
  have h2 := offO_row c k'
  have h3 := offO_inj c k k' h
  have hs : S1024x1024.size (0 : Fin 2) = 1024 := rfl
  rw [hs]
  omega

/-- The four quarters are the whole shape: a row lies in the quarter that starts at its block of 1024. -/
theorem rO_cover (c : Dev nD) : (Finset.univ : Finset (Fin 4)).biUnion (fun k => (rO c k).set) = Finset.univ := by
  ext i
  simp only [Finset.mem_biUnion, Finset.mem_univ, true_and, iff_true]
  have hi0 : (i (0 : Fin 2) : Nat) < 4096 := (i (0 : Fin 2)).isLt
  have hi1 : (i (1 : Fin 2) : Nat) < 1024 := (i (1 : Fin 2)).isLt
  obtain ⟨k, hk⟩ := offO_surj c ⟨(i (0 : Fin 2) : Nat) / 1024, by omega⟩
  refine ⟨k, Rect.mem_set_unit.mpr ?_⟩
  intro a
  have hc := offO_col c k
  have hs0 : S1024x1024.size (0 : Fin 2) = 1024 := rfl
  have hs1 : S1024x1024.size (1 : Fin 2) = 1024 := rfl
  match a with
  | (0 : Fin 2) => rw [hs0, hk]; simp only []; omega
  | (1 : Fin 2) => rw [hs1, hc]; omega

end Out

section Quarters
variable {ℓ : Loc nD τ sig}

/-- A buffer held whole is its four pieces, when the pieces are pairwise apart and together are everything. -/
theorem split_quarters (K : Fin 4 → Finset (Idx ℓ)) (hd : ∀ k k', k ≠ k' → Disjoint (K k) (K k'))
    (hc : (Finset.univ : Finset (Fin 4)).biUnion K = Finset.univ) (f : Buf Val ℓ) :
    (ℓ ↦{fullShare} f : sProp 𝕃) = bigSep Finset.univ fun k : Fin 4 => ℓ ↦[K k]{fullShare} f := by
  rw [← pointsTo_biUnion Finset.univ K (fun t _ t' _ h => hd t t' h), hc]

/-- Four such pieces, each at contents of its own, are the buffer held whole at contents that agree with each
    piece's on that piece. -/
theorem join_quarters (K : Fin 4 → Finset (Idx ℓ)) (hd : ∀ k k', k ≠ k' → Disjoint (K k) (K k'))
    (hc : (Finset.univ : Finset (Fin 4)).biUnion K = Finset.univ) (g : Fin 4 → Buf Val ℓ) :
    (bigSep Finset.univ fun k : Fin 4 => ℓ ↦[K k]{fullShare} g k : sProp 𝕃)
      ⊢ iprop(∃ f, ⌜∀ k, ∀ i ∈ K k, f i = g k i⌝ ∗ ℓ ↦{fullShare} f) := by
  refine (pointsTo_biUnion_join Finset.univ K g (g 0) (fun t _ t' _ h => hd t t' h)).trans ?_
  rw [hc]
  iintro ⟨%f, %hf, H⟩
  iexists f
  isplitr [H]
  · ipureintro; exact fun k i hi => hf k (Finset.mem_univ k) i hi
  · iexact H

end Quarters

section OutArr

/-- The elements of quarter `k` of the result array, and of the VMEM buffer, as elements of the array. -/
abbrev oQset (c : Dev nD) (k : Fin 4) : Finset (Idx ((c : Thread nD τ).loc main_v1)) := (oQ c k).view.set
abbrev vQset (c : Dev nD) (k : Fin 4) : Finset (Idx ((c : Thread nD τ).loc cc0_scratch9)) := (vQ c k).view.set

/-- They are the rectangle's. -/
theorem oQ_set (c : Dev nD) (k : Fin 4) : oQset c k = (rO c k).set := View.set_slice_whole main_v1 (rO c k)
theorem vQ_set (c : Dev nD) (k : Fin 4) : vQset c k = (rO c k).set := View.set_slice_whole cc0_scratch9 (rO c k)

theorem oQ_disjoint (c : Dev nD) (k k' : Fin 4) (h : k ≠ k') : Disjoint (oQset c k) (oQset c k') := by
  rw [oQ_set, oQ_set]; exact rO_disjoint c h
theorem vQ_disjoint (c : Dev nD) (k k' : Fin 4) (h : k ≠ k') : Disjoint (vQset c k) (vQset c k') := by
  rw [vQ_set, vQ_set]; exact rO_disjoint c h
theorem oQ_cover (c : Dev nD) : (Finset.univ : Finset (Fin 4)).biUnion (oQset c) = Finset.univ := by
  rw [show oQset c = fun k => (rO c k).set from funext (oQ_set c)]; exact rO_cover c
theorem vQ_cover (c : Dev nD) : (Finset.univ : Finset (Fin 4)).biUnion (vQset c) = Finset.univ := by
  rw [show vQset c = fun k => (rO c k).set from funext (vQ_set c)]; exact rO_cover c

end OutArr

section OutStatements

/-- The result array held whole is its four quarters. -/
theorem split_out (c : Dev nD) (f : Buf Val ((c : Thread nD τ).loc main_v1)) :
    ((((c : Thread nD τ).loc main_v1) ↦{fullShare} f) : sProp 𝕃)
      ⊢ bigSep Finset.univ fun k : Fin 4 => ((oQ c k).view.loc (c : Thread nD τ) ↦[(oQ c k).view.set]{fullShare} f) :=
  Entails.of_eq (split_quarters (oQset c) (oQ_disjoint c) (oQ_cover c) f)

/-- Its four quarters, each at contents of its own, are the result array held whole at contents that read
    through each quarter what that quarter's contents read. -/
theorem join_out (c : Dev nD) (g : Fin 4 → Buf Val ((c : Thread nD τ).loc main_v1)) :
    (bigSep Finset.univ fun k : Fin 4 => ((oQ c k).view.loc (c : Thread nD τ) ↦[(oQ c k).view.set]{fullShare} g k) : sProp 𝕃)
      ⊢ iprop(∃ f, ⌜∀ k, (oQ c k).view.read Val f = (oQ c k).view.read Val (g k)⌝ ∗ (((c : Thread nD τ).loc main_v1) ↦{fullShare} f)) := by
  refine (join_quarters (oQset c) (oQ_disjoint c) (oQ_cover c) g).trans ?_
  iintro ⟨%f, %hf, H⟩
  iexists f
  isplitr [H]
  · ipureintro; exact fun k => View.read_congr (v := (oQ c k).view) (hf k)
  · iexact H

/-- The VMEM buffer held whole is its four quarters. -/
theorem split_outv (c : Dev nD) (f : Buf Val ((c : Thread nD τ).loc cc0_scratch9)) :
    ((((c : Thread nD τ).loc cc0_scratch9) ↦{fullShare} f) : sProp 𝕃)
      ⊢ bigSep Finset.univ fun k : Fin 4 => ((vQ c k).view.loc (c : Thread nD τ) ↦[(vQ c k).view.set]{fullShare} f) :=
  Entails.of_eq (split_quarters (vQset c) (vQ_disjoint c) (vQ_cover c) f)

/-- Its four quarters, each at contents of its own, are the VMEM buffer held whole at contents that read
    through each quarter what that quarter's contents read. -/
theorem join_outv (c : Dev nD) (g : Fin 4 → Buf Val ((c : Thread nD τ).loc cc0_scratch9)) :
    (bigSep Finset.univ fun k : Fin 4 => ((vQ c k).view.loc (c : Thread nD τ) ↦[(vQ c k).view.set]{fullShare} g k) : sProp 𝕃)
      ⊢ iprop(∃ f, ⌜∀ k, (vQ c k).view.read Val f = (vQ c k).view.read Val (g k)⌝ ∗ (((c : Thread nD τ).loc cc0_scratch9) ↦{fullShare} f)) := by
  refine (join_quarters (vQset c) (vQ_disjoint c) (vQ_cover c) g).trans ?_
  iintro ⟨%f, %hf, H⟩
  iexists f
  isplitr [H]
  · ipureintro; exact fun k => View.read_congr (v := (vQ c k).view) (hf k)
  · iexact H

end OutStatements

end Cert.Kernel.Rs

end
-- ==== Proof.Bits.BodyCtx.lean ====
/- What the body's proof starts from, piece by piece: the device's ghost state and credit, and every buffer cut
   into the pieces the kernel moves — the scratch buffers into their blocks and planes, the argument into the
   windows the local copies read (at shares, the rest kept aside), the result and its VMEM buffer into quarters. -/
import proofs.«901030_g7700000000001031_dist_rs_v7x_xyz2x2x2_z_m4096_n1024_bf16_1_alg».proof.Proof.Bits.BodySpec
import proofs.«901030_g7700000000001031_dist_rs_v7x_xyz2x2x2_z_m4096_n1024_bf16_1_alg».proof.Proof.Bits.Split
import proofs.«901030_g7700000000001031_dist_rs_v7x_xyz2x2x2_z_m4096_n1024_bf16_1_alg».proof.Proof.Bits.SplitArg

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def scr0 (c : Dev nD) (f : Buf (Elt F) ((c : Thread nD τ).loc cc0_scratch0)) : sProp 𝕄 :=
  bigSep Finset.univ fun s : Fin 16 => ((xqM s).view.loc (c : Thread nD τ) ↦[(xqM s).view.set]{fullShare} f)
def scr1 (c : Dev nD) (f : Buf (Elt F) ((c : Thread nD τ).loc cc0_scratch1)) : sProp 𝕄 :=
  bigSep Finset.univ fun j : Fin 6 => ((xdM j).view.loc (c : Thread nD τ) ↦[(xdM j).view.set]{fullShare} f)
def scr2 (c : Dev nD) (f : Buf (Elt F) ((c : Thread nD τ).loc cc0_scratch2)) : sProp 𝕄 :=
  bigSep Finset.univ fun k : Fin 4 => ((xlM k).view.loc (c : Thread nD τ) ↦[(xlM k).view.set]{fullShare} f)
def scr3 (c : Dev nD) (f : Buf (Elt F) ((c : Thread nD τ).loc cc0_scratch3)) : sProp 𝕄 :=
  bigSep Finset.univ fun s : Fin 16 => ((bA s).view.loc (c : Thread nD τ) ↦[(bA s).view.set]{fullShare} f)
def scr4 (c : Dev nD) (f : Buf (Elt F) ((c : Thread nD τ).loc cc0_scratch4)) : sProp 𝕄 :=
  bigSep Finset.univ fun j : Fin 6 => ((bD j).view.loc (c : Thread nD τ) ↦[(bD j).view.set]{fullShare} f)
def scr9 (c : Dev nD) (f : Buf (Elt F) ((c : Thread nD τ).loc cc0_scratch9)) : sProp 𝕄 :=
  bigSep Finset.univ fun k : Fin 4 => ((vQ c k).view.loc (c : Thread nD τ) ↦[(vQ c k).view.set]{fullShare} f)

/-- The argument array cut into the local copies' windows (each at its own share) and the rest. -/
def argPieces (c : Dev nD) (f : Buf (Elt F) ((c : Thread nD τ).loc main_arg0)) : sProp 𝕄 :=
  iprop((((wL c 0).view.loc (c : Thread nD τ) ↦[(wL c 0).view.set]{shL 0} f) ∗ ((wL c 1).view.loc (c : Thread nD τ) ↦[(wL c 1).view.set]{shL 1} f)
      ∗ ((wL c 2).view.loc (c : Thread nD τ) ↦[(wL c 2).view.set]{shL 2} f) ∗ ((wL c 3).view.loc (c : Thread nD τ) ↦[(wL c 3).view.set]{shL 3} f))
    ∗ (bigSep Finset.univ fun s : Fin 16 => ((wQ c s).view.loc (c : Thread nD τ) ↦[(wQ c s).view.set]{shQ s} f))
    ∗ (bigSep Finset.univ fun j : Fin 6 => ((wD c j).view.loc (c : Thread nD τ) ↦[(wD c j).view.set]{shD j} f))
    ∗ argRest c f)
/-- The result array cut into its four quarters. -/
def outPieces (c : Dev nD) (f : Buf (Elt F) ((c : Thread nD τ).loc main_v1)) : sProp 𝕄 :=
  bigSep Finset.univ fun k : Fin 4 => ((oQ c k).view.loc (c : Thread nD τ) ↦[(oQ c k).view.set]{fullShare} f)

/-- Everything the body's proof starts from. -/
def bodyPre (K : Dev nD × CK → ℕ) (c : Dev nD) : sProp 𝕄 :=
  iprop(ghost m K c ∗ cred (tallyAt (barCell c) () 3) ∗ (bigSep Finset.univ fun i : Fin 64 => cred (tallyAt (dcell c (rN i)) () Nb))
    ∗ levAts L lv ∗ localSems c
    ∗ (∃ f0 f1 f2 f3 f4 fq fx fy fr f9, scr0 c f0 ∗ scr1 c f1 ∗ scr2 c f2 ∗ scr3 c f3 ∗ scr4 c f4
        ∗ ownZ c fq fr ∗ ownX c fx fr ∗ ownY c fy fr ∗ scr9 c f9)
    ∗ argPieces c (m ((c : Thread nD τ).loc main_arg0))
    ∗ outPieces c (m ((c : Thread nD τ).loc main_v1)))

/-- What the body's proof ends with: every send and receive cell one round on (its only round done), the local
    counters at zero, nothing owed; every scratch piece back at some contents — a forwarded block in the shares it
    was lent and kept at —; the argument's pieces as they were; the result's quarters, each holding what the VMEM
    buffer's quarter held when it was copied out. -/
def bodyPost (K : Dev nD × CK → ℕ) (c : Dev nD) : sProp 𝕄 :=
  iprop(records m K
    ∗ (bigSep Finset.univ fun i : Fin 64 => atPos ER (dcell c (sN i)) 1 ∅ 0)
    ∗ (bigSep Finset.univ fun i : Fin 64 => atPos ER (dcell c (rN i)) 1 ∅ 0)
    ∗ localSems c ∗ (∃ W, owes (c : Thread nD τ) 0 W)
    ∗ (bigSep Finset.univ fun s : Fin 16 => pex c fullShare (xqM s))
    ∗ (bigSep Finset.univ fun j : Fin 6 => pex c fullShare (xdM j))
    ∗ (bigSep Finset.univ fun k : Fin 4 => pex c fullShare (xlM k))
    ∗ (bigSep Finset.univ fun s : Fin 16 => pex c fullShare (bA s))
    ∗ (bigSep Finset.univ fun j : Fin 6 => pex c fullShare (bD j))
    ∗ (bigSep Finset.univ fun s : Fin 16 => iprop(pex c shX (bQ s) ∗ pex c shY (bQ s) ∗ pex c shK (bQ s)))
    ∗ (bigSep Finset.univ fun s : Fin 16 => if s.val < 11 then pex c fullShare (bX s) else iprop(pex c shX (bX s) ∗ pex c shY (bX s) ∗ pex c shK (bX s)))
    ∗ (bigSep Finset.univ fun s : Fin 16 => if 6 ≤ s.val ∧ s.val < 11 then iprop(pex c shX (bY s) ∗ pex c fullShare.right (bY s)) else pex c fullShare (bY s))
    ∗ (bigSep Finset.univ fun s : Fin 16 => pex c fullShare (bR s))
    ∗ (bigSep Finset.univ fun k : Fin 4 => pex c fullShare (vQ c k))
    ∗ argPieces c (m ((c : Thread nD τ).loc main_arg0))
    ∗ ∃ h : Fin 4 → Buf (Elt F) ((c : Thread nD τ).loc main_v1),
        ⌜∀ k, ∃ g, QuarterOK m c k g ∧ (oQ c k).view.read (Elt F) (h k) = (vQ c k).view.read (Elt F) g⌝
        ∗ bigSep Finset.univ fun k : Fin 4 => ((oQ c k).view.loc (c : Thread nD τ) ↦[(oQ c k).view.set]{fullShare} h k))

end Cert.Kernel.Rs

end
-- ==== Proof.Bits.BodyIn.lean ====
/- From the launch's resources to the body's starting point: every scratch buffer, held whole at some contents,
   is cut into its blocks or planes; the landing buffers' blocks are grouped by the neighbour that will write
   them; the argument is lent out by shares and the result array and its VMEM source are cut into quarters. -/
import proofs.«901030_g7700000000001031_dist_rs_v7x_xyz2x2x2_z_m4096_n1024_bf16_1_alg».proof.Proof.Bits.BodyCtx

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Regrouping chains of blocks -/

section Chains

omit [FloatOps F] in
/-- Two resources that entail each other are one. -/
private theorem eq_of_entails {P Q : sProp 𝕄} (h₁ : P ⊢ Q) (h₂ : Q ⊢ P) : P = Q := BI.Entails.antisymm h₁ h₂

omit [FloatOps F] in
/-- Separating conjunction associates. -/
private theorem sep_assoc_eq (P Q R : sProp 𝕄) : iprop((P ∗ Q) ∗ R) = iprop(P ∗ Q ∗ R) := by
  refine eq_of_entails ?_ ?_
  · iintro ⟨⟨HP, HQ⟩, HR⟩
    isplitl [HP]; · iexact HP
    isplitl [HQ]; · iexact HQ
    iexact HR
  · iintro ⟨HP, HQ, HR⟩
    isplitr [HR]
    · isplitl [HP]; · iexact HP
      iexact HQ
    iexact HR

omit [FloatOps F] in
/-- Three groups and a triple regrouped pairwise. -/
private theorem regroup6 (A B C D E G : sProp 𝕄) : iprop(A ∗ B ∗ C ∗ (D ∗ E ∗ G)) = iprop((A ∗ D) ∗ (B ∗ E) ∗ (C ∗ G)) := by
  refine eq_of_entails ?_ ?_
  · iintro ⟨HA, HB, HC, HD, HE, HG⟩
    isplitl [HA HD]
    · isplitl [HA]; · iexact HA
      iexact HD
    isplitl [HB HE]
    · isplitl [HB]; · iexact HB
      iexact HE
    isplitl [HC]; · iexact HC
    iexact HG
  · iintro ⟨⟨HA, HD⟩, ⟨HB, HE⟩, HC, HG⟩
    isplitl [HA]; · iexact HA
    isplitl [HB]; · iexact HB
    isplitl [HC]; · iexact HC
    isplitl [HD]; · iexact HD
    isplitl [HE]; · iexact HE
    iexact HG

omit [FloatOps F] in
/-- Sixteen blocks in a row are the first six, the next five and the last five. -/
private theorem chain16_split (R : Fin 16 → sProp 𝕄) :
    iprop(R 0 ∗ R 1 ∗ R 2 ∗ R 3 ∗ R 4 ∗ R 5 ∗ R 6 ∗ R 7 ∗ R 8 ∗ R 9 ∗ R 10 ∗ R 11 ∗ R 12 ∗ R 13 ∗ R 14 ∗ R 15)
      = iprop((R 0 ∗ R 1 ∗ R 2 ∗ R 3 ∗ R 4 ∗ R 5) ∗ (R 6 ∗ R 7 ∗ R 8 ∗ R 9 ∗ R 10) ∗ (R 11 ∗ R 12 ∗ R 13 ∗ R 14 ∗ R 15)) := by
  simp only [sep_assoc_eq]

omit [FloatOps F] in
/-- Sixteen blocks in a row, then more: one row. -/
private theorem chain16_app (Q : Fin 16 → sProp 𝕄) (A : sProp 𝕄) :
    iprop((Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15) ∗ A)
      = iprop(Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15 ∗ A) := by
  simp only [sep_assoc_eq]

omit [FloatOps F] in
/-- The four landing buffers' blocks, buffer by buffer, regrouped by the neighbour that writes them: the
    diagonal buffer's blocks 0–5 go with the first buffer, 6–10 with the second, 11–15 with the third. -/
private theorem own_of_chains (Q X Y R : Fin 16 → sProp 𝕄) :
    iprop((Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15) ∗ (X 0 ∗ X 1 ∗ X 2 ∗ X 3 ∗ X 4 ∗ X 5 ∗ X 6 ∗ X 7 ∗ X 8 ∗ X 9 ∗ X 10 ∗ X 11 ∗ X 12 ∗ X 13 ∗ X 14 ∗ X 15) ∗ (Y 0 ∗ Y 1 ∗ Y 2 ∗ Y 3 ∗ Y 4 ∗ Y 5 ∗ Y 6 ∗ Y 7 ∗ Y 8 ∗ Y 9 ∗ Y 10 ∗ Y 11 ∗ Y 12 ∗ Y 13 ∗ Y 14 ∗ Y 15) ∗ (R 0 ∗ R 1 ∗ R 2 ∗ R 3 ∗ R 4 ∗ R 5 ∗ R 6 ∗ R 7 ∗ R 8 ∗ R 9 ∗ R 10 ∗ R 11 ∗ R 12 ∗ R 13 ∗ R 14 ∗ R 15))
      = iprop((Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15 ∗ R 0 ∗ R 1 ∗ R 2 ∗ R 3 ∗ R 4 ∗ R 5)
          ∗ (X 0 ∗ X 1 ∗ X 2 ∗ X 3 ∗ X 4 ∗ X 5 ∗ X 6 ∗ X 7 ∗ X 8 ∗ X 9 ∗ X 10 ∗ X 11 ∗ X 12 ∗ X 13 ∗ X 14 ∗ X 15 ∗ R 6 ∗ R 7 ∗ R 8 ∗ R 9 ∗ R 10)
          ∗ (Y 0 ∗ Y 1 ∗ Y 2 ∗ Y 3 ∗ Y 4 ∗ Y 5 ∗ Y 6 ∗ Y 7 ∗ Y 8 ∗ Y 9 ∗ Y 10 ∗ Y 11 ∗ Y 12 ∗ Y 13 ∗ Y 14 ∗ Y 15 ∗ R 11 ∗ R 12 ∗ R 13 ∗ R 14 ∗ R 15)) := by
  rw [chain16_split R, regroup6, chain16_app Q, chain16_app X, chain16_app Y]

omit [FloatOps F] in
/-- The same from the four buffers' blocks as they come: each buffer's sixteen blocks together. -/
private theorem own_of_bigSeps (Q X Y R : Fin 16 → sProp 𝕄) :
    iprop((bigSep Finset.univ Q) ∗ (bigSep Finset.univ X) ∗ (bigSep Finset.univ Y) ∗ (bigSep Finset.univ R))
      = iprop((Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15 ∗ R 0 ∗ R 1 ∗ R 2 ∗ R 3 ∗ R 4 ∗ R 5)
          ∗ (X 0 ∗ X 1 ∗ X 2 ∗ X 3 ∗ X 4 ∗ X 5 ∗ X 6 ∗ X 7 ∗ X 8 ∗ X 9 ∗ X 10 ∗ X 11 ∗ X 12 ∗ X 13 ∗ X 14 ∗ X 15 ∗ R 6 ∗ R 7 ∗ R 8 ∗ R 9 ∗ R 10)
          ∗ (Y 0 ∗ Y 1 ∗ Y 2 ∗ Y 3 ∗ Y 4 ∗ Y 5 ∗ Y 6 ∗ Y 7 ∗ Y 8 ∗ Y 9 ∗ Y 10 ∗ Y 11 ∗ Y 12 ∗ Y 13 ∗ Y 14 ∗ Y 15 ∗ R 11 ∗ R 12 ∗ R 13 ∗ R 14 ∗ R 15)) := by
  rw [bigSep_fin16, bigSep_fin16, bigSep_fin16, bigSep_fin16]
  exact own_of_chains Q X Y R

end Chains

/-! ## The landing buffers -/

/-- The four landing buffers held whole are their blocks, grouped by the neighbour that will write them. -/
theorem own_of_whole (c : Dev nD) (fq : Buf (Elt F) ((c : Thread nD τ).loc cc0_scratch5)) (fx : Buf (Elt F) ((c : Thread nD τ).loc cc0_scratch6))
    (fy : Buf (Elt F) ((c : Thread nD τ).loc cc0_scratch7)) (fr : Buf (Elt F) ((c : Thread nD τ).loc cc0_scratch8)) :
    (iprop((((c : Thread nD τ).loc cc0_scratch5) ↦{fullShare} fq) ∗ (((c : Thread nD τ).loc cc0_scratch6) ↦{fullShare} fx)
        ∗ (((c : Thread nD τ).loc cc0_scratch7) ↦{fullShare} fy) ∗ (((c : Thread nD τ).loc cc0_scratch8) ↦{fullShare} fr)) : sProp 𝕄)
      ⊢ iprop(ownZ c fq fr ∗ ownX c fx fr ∗ ownY c fy fr) := by
  refine (BIClass.sep_mono (split_bQ c fq) (BIClass.sep_mono (split_bX c fx) (BIClass.sep_mono (split_bY c fy) (split_bR c fr)))).trans ?_
  unfold ownZ ownX ownY
  exact Entails.of_eq (own_of_bigSeps
    (fun s => ((bQ s).view.loc (c : Thread nD τ) ↦[(bQ s).view.set]{fullShare} fq))
    (fun s => ((bX s).view.loc (c : Thread nD τ) ↦[(bX s).view.set]{fullShare} fx))
    (fun s => ((bY s).view.loc (c : Thread nD τ) ↦[(bY s).view.set]{fullShare} fy))
    (fun s => ((bR s).view.loc (c : Thread nD τ) ↦[(bR s).view.set]{fullShare} fr)))

/-! ## The body's starting point -/

theorem body_in (c : Dev nD) : Φ₀ m c ⊢ iprop(∃ K, bodyPre m K c) := by
  unfold Φ₀ bodyPre scratchAll scr0 scr1 scr2 scr3 scr4 scr9 argPieces outPieces
  rw [Gen.scopedRest0_eq]
  iintro ⟨⟨%K, HG⟩, Hc1, Hc2, Hlev, Hsem, ⟨⟨%f0, H0⟩, ⟨%f1, H1⟩, ⟨%f2, H2⟩, ⟨%f3, H3⟩, ⟨%f4, H4⟩, ⟨%fq, H5⟩, ⟨%fx, H6⟩, ⟨%fy, H7⟩, ⟨%fr, H8⟩, ⟨%f9, H9⟩⟩, Harg, Hout⟩
  iexists K
  isplitl [HG]; · iexact HG
  isplitl [Hc1]; · iexact Hc1
  isplitl [Hc2]; · iexact Hc2
  isplitl [Hlev]; · iexact Hlev
  isplitl [Hsem]; · iexact Hsem
  isplitr [Harg Hout]
  · iexists f0, f1, f2, f3, f4, fq, fx, fy, fr, f9
    isplitl [H0]; · iapply (split_xqM c f0); iexact H0
    isplitl [H1]; · iapply (split_xdM c f1); iexact H1
    isplitl [H2]; · iapply (split_xlM c f2); iexact H2
    isplitl [H3]; · iapply (split_bA c f3); iexact H3
    isplitl [H4]; · iapply (split_bD c f4); iexact H4
    ihave Hown := (own_of_whole c fq fx fy fr) $$ [H5 H6 H7 H8]
    · isplitl [H5]; · iexact H5
      isplitl [H6]; · iexact H6
      isplitl [H7]; · iexact H7
      iexact H8
    icases Hown with ⟨HZ, HX, HY⟩
    isplitl [HZ]; · iexact HZ
    isplitl [HX]; · iexact HX
    isplitl [HY]; · iexact HY
    iapply (split_outv c f9); iexact H9
  isplitl [Harg]
  · iapply (split_arg4 c _).1; iexact Harg
  · iapply (split_out c _); iexact Hout

end Cert.Kernel.Rs

end
-- ==== Proof.Bits.BodyObl.lean ====
/- The body obligation the launch asks of every device, from the two halves of the body's proof: the run of the
   body from its starting point to its end point, and the way back from the end point to the launch's invariant. -/
import proofs.«901030_g7700000000001031_dist_rs_v7x_xyz2x2x2_z_m4096_n1024_bf16_1_alg».proof.Proof.Bits.BodyIn
import Idealize.ShloMosaic.Lib.Pipeline.Launch

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The pipeline stages nothing: a resource indexed by its windows is empty. -/
theorem univ_W_empty : (Finset.univ : Finset (Fin cfg0.W)) = ∅ := Finset.eq_empty_of_forall_notMem fun w => w.elim0

/-- The first half of the body's proof: from its starting point, owing what the device owes at launch, the body runs
    to its end point (and then to whatever the caller wants of the end point). -/
abbrev BodyRuns : Prop :=
  ∀ (K : Dev nD × CK → ℕ) (c : Dev nD) (W : Waits sig Unit) (Kt : PUnit → sProp 𝕄),
      iprop(bodyPre m K c ∗ owes (c : Thread nD τ) (O₀ c) W ∗ (bodyPost m K c -∗ Kt ⟨⟩))
        ⊢ wp frame (wpE (defs₀ (F := F)) Variants.none c none) Set.univ
            (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt

/-- The second half: from the body's end point the launch's closing invariant is reached, nothing owed. -/
abbrev BodyEnds : Prop :=
  ∀ (K : Dev nD × CK → ℕ) (c : Dev nD), bodyPost m K c ⊢ |={Set.univ}=> iprop(Φ₁ m c ∗ ∃ W, owes (c : Thread nD τ) 0 W)

/- The kernel's body is compared as a name, never unfolded: the obligation only has to recognise it. -/
attribute [local irreducible] cc0_body

set_option maxRecDepth 8000 in
/-- The library's body obligation on device `c`: one grid point, no windows. From the launch's invariant the body's
    starting point is opened; the body runs to its end point; from there the launch's closing invariant is
    reached through an update, which the run's last step absorbs. -/
theorem body_obligation_of
    (hrun : BodyRuns m) (hout : BodyEnds m)
    (c : Dev nD) : BodyObligation (dats (F := F) m 0 c) (defs₀ (F := F)) 𝒱₀ () Set.univ := fun t => by
  have ht := Gen.fin_N0 t
  subst ht
  rw [univ_W_empty, bigSep_empty, bigSep_empty]
  show iprop(Φ₀ m c ∗ (dats m 0 c).owesAt () Gen.t0_0.castSucc ∗ emp)
    ⊢ wp frame (wpE (defs₀ (F := F)) Variants.none c none) Set.univ
        (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25)
        (fun _ => iprop(Φ₁ m c ∗ (dats m 0 c).owesAt () Gen.t0_0.succ ∗ emp))
  refine BIBase.Entails.trans ?_ (wp_fupd frame (wpE (defs₀ (F := F)) Variants.none c none) Set.univ _ _)
  unfold Dat.owesAt Pipeline.owesWithin
  iintro ⟨HΦ, ⟨%W, %hW, Ho⟩, -⟩
  ihave Hpre := (body_in m c) $$ HΦ
  icases Hpre with ⟨%K, Hpre⟩
  iapply (hrun K c W _)
  isplitl [Hpre]; · iexact Hpre
  isplitl [Ho]; · iexact Ho
  iintro Hpost
  imod (hout K c) $$ Hpost with ⟨HΦ1, ⟨%W', Ho'⟩⟩
  imodintro
  isplitl [HΦ1]; · iexact HΦ1
  isplitl [Ho']
  · iexists W'
    isplitr
    · ipureintro; exact fun x _ => Or.inl (Set.mem_univ x)
    · iexact Ho'
  · iempintro

end Cert.Kernel.Rs

end
-- ==== Proof.Bits.LaunchA.lean ====
/- The launch of the protocol: the protocol's cells and the tokens of their duties as the launch element funds
   them; what each device is dealt; the global step that allocates every cell's invariant and deals each device the
   tokens of the duties it pays; the credit each device finds on its own barrier and receive cells. -/
import proofs.«901030_g7700000000001031_dist_rs_v7x_xyz2x2x2_z_m4096_n1024_bf16_1_alg».proof.Proof.Bits.BodySpec
import Idealize.ShloMosaic.Lib.Pipeline.Launch
import Idealize.ShloMosaic.Lib.Pipeline.Kit
import Idealize.SL.ProofMode.BigOp

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores, and the schedule's payloads as invariant contents -/

/-- The kernel's own semaphores: its 158 DMA semaphores. -/
abbrev osem : Fin 158 → SemLoc sig := fun n => .dma n

theorem ownSemFacts : Pipeline.OwnSemFacts cfg0.spec osem :=
  ⟨by decide, fun a b h => SemLoc.dma.inj h, fun k w => w.elim0⟩

instance pex_storable (c : Dev nD) (q : PosShare TreeShare) {sp : Space} {S : Shape} {e : EltTy} (M : Memref sig .tc sp S e) :
    BI.Storable (upEmb : UEmb _ 𝕄) (pex (F := F) c q M) := by unfold pex; infer_instance
instance ptr_storable (c : Dev nD) {sp : Space} {S : Shape} {e : EltTy} (M : Memref sig .tc sp S e) (x : S.Idx → Elt F e) :
    BI.Storable (upEmb : UEmb _ 𝕄) (ptr c M x) := by unfold ptr; infer_instance

instance Rd_payload_storable (g : GSem nD τ sig) (r : ℕ) (d : DN) :
    BI.Storable (upEmb : UEmb _ 𝕄) ((Rd (F := F) m).payload g r d) := by
  show BI.Storable upEmb (match g.2 with
    | .reg _ => (match d with | 0 => landZ (zp g.1.1) | 1 => landX (xn g.1.1) | 2 => landY (yn g.1.1))
    | .dma n => if n.val < 94 then sendPay g.1.1 (n.val - 30) else recvPay m g.1.1 (n.val - 94))
  unfold landZ landX landY sendPay recvPay
  (repeat' split) <;> infer_instance

/-! ## The protocol's cells and the tokens of their duties -/

theorem sN_inj {i j : Fin 64} (h : sN i = sN j) : i = j :=
  Fin.ext (by have h' : 30 + i.val = 30 + j.val := congrArg Fin.val h; omega)
theorem rN_inj {i j : Fin 64} (h : rN i = rN j) : i = j :=
  Fin.ext (by have h' : 94 + i.val = 94 + j.val := congrArg Fin.val h; omega)
theorem sN_ne_rN (i j : Fin 64) : sN i ≠ rN j := fun h => by
  have h' : 30 + i.val = 94 + j.val := congrArg Fin.val h
  omega

theorem ckSem_injective : Function.Injective ckSem := by
  rintro (u | i | i) (u' | j | j) h
  · rfl
  · cases h
  · cases h
  · cases h
  · rw [sN_inj (SemLoc.dma.inj h)]
  · exact absurd (SemLoc.dma.inj h) (sN_ne_rN i j)
  · cases h
  · exact absurd (SemLoc.dma.inj h).symm (sN_ne_rN j i)
  · rw [rN_inj (SemLoc.dma.inj h)]

theorem kcell_injective : Function.Injective (kcell : Dev nD × CK → GSem nD τ sig) := by
  rintro ⟨c, k⟩ ⟨c', k'⟩ h
  have h1 : c = c' := congrArg (fun g : GSem nD τ sig => g.1.1) h
  subst h1
  have h2 : ckSem k = ckSem k' := congrArg Prod.snd h
  rw [ckSem_injective h2]

/-- The cells of the protocol, of all devices. -/
def protoCells : Finset (GSem nD τ sig) := Finset.univ.map ⟨kcell, kcell_injective⟩

/-- The duties of one device's cells: its barrier's three, one on each send cell, one on each receive cell. -/
abbrev TK : Type := DN ⊕ (Fin 64 ⊕ Fin 64)
def tkSem : TK → SemLoc sig × DN
  | .inl d => (.reg barS, d)
  | .inr (.inl i) => (.dma (sN i), 0)
  | .inr (.inr i) => (.dma (rN i), 0)
theorem tkSem_injective : Function.Injective tkSem := by
  rintro (d | i | i) (d' | j | j) h
  · rw [show d = d' from congrArg Prod.snd h]
  · exact absurd (congrArg Prod.fst h) (fun h' => by cases h')
  · exact absurd (congrArg Prod.fst h) (fun h' => by cases h')
  · exact absurd (congrArg Prod.fst h) (fun h' => by cases h')
  · rw [sN_inj (SemLoc.dma.inj (congrArg Prod.fst h))]
  · exact absurd (SemLoc.dma.inj (congrArg Prod.fst h)) (sN_ne_rN i j)
  · exact absurd (congrArg Prod.fst h) (fun h' => by cases h')
  · exact absurd (SemLoc.dma.inj (congrArg Prod.fst h)).symm (sN_ne_rN j i)
  · rw [rN_inj (SemLoc.dma.inj (congrArg Prod.fst h))]

abbrev tokOf (ct : Dev nD × TK) : GSem nD τ sig × ℕ × DN := (((ct.1 : Thread nD τ), (tkSem ct.2).1), 0, (tkSem ct.2).2)
theorem tokOf_injective : Function.Injective (tokOf : Dev nD × TK → GSem nD τ sig × ℕ × DN) := by
  rintro ⟨c, t⟩ ⟨c', t'⟩ h
  have h1 : c = c' := congrArg (fun x : GSem nD τ sig × ℕ × DN => x.1.1.1) h
  subst h1
  have h2 : tkSem t = tkSem t' := Prod.ext (congrArg (fun x : GSem nD τ sig × ℕ × DN => x.1.2) h) (congrArg (fun x : GSem nD τ sig × ℕ × DN => x.2.2) h)
  rw [tkSem_injective h2]
def protoToks : Finset (GSem nD τ sig × ℕ × DN) := Finset.univ.map ⟨tokOf, tokOf_injective⟩

/-- The launch element: the pipeline library's cells and tokens, the protocol's, and no counter. -/
def u₀ : UU :=
  (initOf (Pipeline.cells cfgs cellOf_inj) (Pipeline.launchToks cfgs cellOf_inj), (initOf protoCells protoToks, 1))

/-- The duty tokens of device c's own cells. -/
def toks (c : Dev nD) : sProp 𝕄 :=
  iprop((bigSep Finset.univ fun d : DN => dutyTok ER (barCell c) 0 d)
    ∗ (bigSep Finset.univ fun i : Fin 64 => dutyTok ER (dcell c (sN i)) 0 0)
    ∗ bigSep Finset.univ fun i : Fin 64 => dutyTok ER (dcell c (rN i)) 0 0)

/-- What the launch element deals device c: its own cells' round states, positions and reached facts, and its own
    cells' duty tokens. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : CK => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_sum]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at launch -/

/-- The 158 DMA semaphores: the 30 of the local copies, the 64 send cells, the 64 receive cells. -/
def semE : Fin 30 ⊕ (Fin 64 ⊕ Fin 64) ≃ Fin 158 where
  toFun := fun
    | .inl n => ⟨n.val, by omega⟩
    | .inr (.inl i) => sN i
    | .inr (.inr i) => rN i
  invFun n :=
    if h : n.val < 30 then .inl ⟨n.val, h⟩
    else if h2 : n.val < 94 then .inr (.inl ⟨n.val - 30, by omega⟩)
    else .inr (.inr ⟨n.val - 94, by omega⟩)
  left_inv := by
    rintro (n | i | i)
    · show (if h : n.val < 30 then (Sum.inl ⟨n.val, h⟩ : Fin 30 ⊕ (Fin 64 ⊕ Fin 64)) else _) = _
      rw [dif_pos n.isLt]
    · show (if h : 30 + i.val < 30 then (Sum.inl ⟨30 + i.val, h⟩ : Fin 30 ⊕ (Fin 64 ⊕ Fin 64)) else
        if h2 : 30 + i.val < 94 then .inr (.inl ⟨30 + i.val - 30, by omega⟩) else .inr (.inr ⟨30 + i.val - 94, by omega⟩)) = _
      rw [dif_neg (by omega), dif_pos (by omega)]
      exact congrArg (fun x => Sum.inr (Sum.inl x)) (Fin.ext (Nat.add_sub_cancel_left _ _))
    · show (if h : 94 + i.val < 30 then (Sum.inl ⟨94 + i.val, h⟩ : Fin 30 ⊕ (Fin 64 ⊕ Fin 64)) else
        if h2 : 94 + i.val < 94 then .inr (.inl ⟨94 + i.val - 30, by omega⟩) else .inr (.inr ⟨94 + i.val - 94, by omega⟩)) = _
      rw [dif_neg (by omega), dif_neg (by omega)]
      exact congrArg (fun x => Sum.inr (Sum.inr x)) (Fin.ext (Nat.add_sub_cancel_left _ _))
  right_inv := by
    intro n
    by_cases h : n.val < 30
    · simp only [dif_pos h]
    · by_cases h2 : n.val < 94
      · simp only [dif_neg h, dif_pos h2]; exact Fin.ext (by show 30 + (n.val - 30) = n.val; omega)
      · simp only [dif_neg h, dif_neg h2]; exact Fin.ext (by show 94 + (n.val - 94) = n.val; omega)

omit [FloatOps F] in
theorem allSems_split (c : Dev nD) : (allSems c : sProp 𝕄)
    = iprop(localSems c ∗ (bigSep Finset.univ fun i : Fin 64 => semVal (dcell c (sN i)) 0) ∗ bigSep Finset.univ fun i : Fin 64 => semVal (dcell c (rN i)) 0) := by
  unfold allSems localSems
  rw [bigSep_univ_equiv semE (fun n : Fin 158 => (semVal (dcell c n) 0 : sProp 𝕄)), bigSep_univ_sum, bigSep_univ_sum]; rfl

omit [FloatOps F] in
/-- A family over a device's protocol cells: at the barrier cell, the send cells, the receive cells. -/
theorem bigSep_CK (Φ : CK → sProp 𝕄) : bigSep Finset.univ Φ
    = iprop(Φ (.inl ()) ∗ (bigSep Finset.univ fun i : Fin 64 => Φ (.inr (.inl i))) ∗ bigSep Finset.univ fun i : Fin 64 => Φ (.inr (.inr i))) := by
  rw [bigSep_univ_sum, bigSep_univ_sum, bigSep_univ_of_subsingleton ()]; rfl

omit [FloatOps F] in
/-- The kernel's own semaphores are all the DMA semaphores; -/
theorem ownSems0_eq (c : Dev nD) : (Pipeline.ownSems0 (Ix := Unit) (Name := ℕ) (U := UU) (Lvl := ℕ) (Val := Elt F) (τ := τ) osem c : sProp 𝕄) = allSems c := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ localSems c) : sProp 𝕄) := by
  have hck : (bigSep Finset.univ fun k : CK => (semVal (kcell (c, k)) 0 : sProp 𝕄))
      = iprop(semVal (barCell c) 0 ∗ (bigSep Finset.univ fun i : Fin 64 => semVal (dcell c (sN i)) 0) ∗ bigSep Finset.univ fun i : Fin 64 => semVal (dcell c (rN i)) 0) :=
    bigSep_CK _
  rw [ownSems0_eq, allSems_split, unscopedSems0_eq, hck]
  iintro ⟨⟨HL, HS, HV⟩, HB⟩
  isplitr [HL]
  · isplitl [HB]; · iexact HB
    isplitl [HS] <;> iassumption
  · iexact HL

/-! ## The global step: every cell's invariant allocated, the tokens dealt to their payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- What the global step makes of a device's share: the ghost state at some names, and the local counters. -/
def G' (c : Dev nD) : sProp 𝕄 := iprop(∃ K, ghost m K c ∗ localSems c)

theorem ghost_intro (K : Dev nD × CK → ℕ) (c : Dev nD) : iprop(records m K ∗ (positions c ∗ payToks c ∗ localSems c)) ⊢ G' m c := by
  unfold G' ghost
  iintro ⟨#HR, HP, HT, HL⟩
  iexists K
  isplitr [HL]
  · isplitr; · iexact HR
    isplitl [HP] <;> iassumption
  · iexact HL

/-- Copy i goes to and comes from the same neighbour. -/
def prE (i : Fin 64) : Dev nD ≃ Dev nD := ⟨pr i, pr i, pr_pr i, pr_pr i⟩

omit [FloatOps F] in
/-- The tokens dealt to their payers: a barrier's duty 0, 1, 2 token to the owner's z-partner, x- and y-neighbour; a
    receive cell's token to the device whose copy lands there. -/
theorem toks_around : (bigSep Finset.univ fun c : Dev nD => (toks c : sProp 𝕄)) ⊢ bigSep Finset.univ fun c : Dev nD => payToks c := by
  have e0 : (bigSep Finset.univ fun c : Dev nD => (dutyTok ER (barCell c) 0 (0 : DN) : sProp 𝕄)) = bigSep Finset.univ fun c : Dev nD => dutyTok ER (barCell (zp c)) 0 (0 : DN) :=
    bigSep_univ_equiv zpE (fun c : Dev nD => (dutyTok ER (barCell c) 0 (0 : DN) : sProp 𝕄))
  have e1 : (bigSep Finset.univ fun c : Dev nD => (dutyTok ER (barCell c) 0 (1 : DN) : sProp 𝕄)) = bigSep Finset.univ fun c : Dev nD => dutyTok ER (barCell (xn c)) 0 (1 : DN) :=
    bigSep_univ_equiv xnE (fun c : Dev nD => (dutyTok ER (barCell c) 0 (1 : DN) : sProp 𝕄))
  have e2 : (bigSep Finset.univ fun c : Dev nD => (dutyTok ER (barCell c) 0 (2 : DN) : sProp 𝕄)) = bigSep Finset.univ fun c : Dev nD => dutyTok ER (barCell (yn c)) 0 (2 : DN) :=
    bigSep_univ_equiv ynE (fun c : Dev nD => (dutyTok ER (barCell c) 0 (2 : DN) : sProp 𝕄))
  have eR : (bigSep Finset.univ fun c : Dev nD => bigSep Finset.univ fun i : Fin 64 => (dutyTok ER (dcell c (rN i)) 0 (0 : DN) : sProp 𝕄))
      = bigSep Finset.univ fun c : Dev nD => bigSep Finset.univ fun i : Fin 64 => dutyTok ER (dcell (pr i c) (rN i)) 0 (0 : DN) := by
    rw [bigSep_univ_comm (fun (c : Dev nD) (i : Fin 64) => (dutyTok ER (dcell c (rN i)) 0 (0 : DN) : sProp 𝕄)),
      bigSep_univ_comm (fun (c : Dev nD) (i : Fin 64) => (dutyTok ER (dcell (pr i c) (rN i)) 0 (0 : DN) : sProp 𝕄))]
    exact bigSep_congr fun i _ => bigSep_univ_equiv (prE i) (fun c : Dev nD => (dutyTok ER (dcell c (rN i)) 0 (0 : DN) : sProp 𝕄))
  unfold toks payToks
  simp only [bigSep_fin3, bigSep_sep']
  rw [e0, e1, e2, eR]
  iintro ⟨⟨H0, H1, H2⟩, HS, HR⟩
  isplitl [H0]; · iexact H0
  isplitl [H1]; · iexact H1
  isplitl [H2]; · iexact H2
  isplitl [HS] <;> iassumption

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, HL⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) (fun c : Dev nD => iprop(payToks c ∗ localSems c))).symm)
    isplitl [Hat]; · unfold positions; iexact Hat
    iapply (Entails.of_eq (bigSep_sep' Finset.univ (fun c : Dev nD => (payToks c : sProp 𝕄)) (fun c : Dev nD => (localSems c : sProp 𝕄))).symm)
    isplitl [Htk] <;> iassumption

/-- The global step: own and unscoped counters of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

omit [FloatOps F] in
/-- Every device d owing n units on the semaphore sm of device f d, f an involution of the devices: device c finds n units
    of credit on its own sm. -/
theorem cred_at (n : ℕ) (sm : SemLoc sig) (f : Dev nD → Dev nD) (hf : ∀ c, f (f c) = c) (c : Dev nD) :
    (Pipeline.launchCred (fun d : Dev nD => (tallyAt (((f d).tc : Thread nD τ), sm) () n : CellTallies nD τ sig Unit)) c : sProp 𝕄)
      ⊢ cred (tallyAt ((c.tc : Thread nD τ), sm) () n) :=
  Pipeline.launchCred_tallyAt sm f f hf hf () n c

omit [FloatOps F] in
theorem cred_recv (i : Fin 64) (c : Dev nD) :
    (Pipeline.launchCred (fun d : Dev nD => (tallyAt (dcell (pr i d) (rN i)) () Nb : CellTallies nD τ sig Unit)) c : sProp 𝕄)
      ⊢ cred (tallyAt (dcell c (rN i)) () Nb) := cred_at Nb (SemLoc.dma (rN i)) (pr i) (pr_pr i) c

omit [FloatOps F] in
/-- What the launch deals a device for what the others owe its cells: three units on its barrier cell (one from each
    neighbour), a block's credit on each receive cell (from the one device whose copy lands there). -/
theorem creds (c : Dev nD) :
    (Pipeline.launchCred O₀ c : sProp 𝕄)
      ⊢ iprop(cred (tallyAt (barCell c) () 3) ∗ bigSep Finset.univ fun i : Fin 64 => cred (tallyAt (dcell c (rN i)) () Nb)) := by
  have hO : (O₀ : Dev nD → CellTallies nD τ sig Unit) = fun d => (((∑ i ∈ (Finset.univ : Finset (Fin 64)), tallyAt (dcell (pr i d) (rN i)) () Nb)
      + tallyAt (barCell (yn d)) () 1) + tallyAt (barCell (xn d)) () 1) + tallyAt (barCell (zp d)) () 1 := rfl
  rw [hO, Pipeline.launchCred_add, Pipeline.launchCred_add, Pipeline.launchCred_add,
    Pipeline.launchCred_sum Finset.univ (fun (i : Fin 64) (d : Dev nD) => (tallyAt (dcell (pr i d) (rN i)) () Nb : CellTallies nD τ sig Unit))]
  have hS : (bigSep Finset.univ fun i : Fin 64 => Pipeline.launchCred (fun d : Dev nD => (tallyAt (dcell (pr i d) (rN i)) () Nb : CellTallies nD τ sig Unit)) c : sProp 𝕄)
      ⊢ bigSep Finset.univ fun i : Fin 64 => cred (tallyAt (dcell c (rN i)) () Nb) :=
    bigSep_mono fun (i : Fin 64) _ => cred_recv (F := F) i c
  iintro ⟨⟨⟨HS, HY⟩, HX⟩, HZ⟩
  ihave HY' := (cred_at (F := F) 1 (SemLoc.reg barS) yn yn_yn c) $$ HY
  ihave HX' := (cred_at (F := F) 1 (SemLoc.reg barS) xn xn_xn c) $$ HX
  ihave HZ' := (cred_at (F := F) 1 (SemLoc.reg barS) zp zp_zp c) $$ HZ
  isplitl [HY' HX' HZ']
  · iapply (cred3 (F := F) (barCell c))
    isplitl [HY']; · iexact HY'
    isplitl [HX'] <;> iassumption
  · iapply hS
    iexact HS

end Cert.Kernel.Rs

end
-- ==== Proof.Bits.Launch.lean ====
/- The launch: from any memory with zero counters, every fair execution of the eight devices' kernels terminates, and
   every final state has each device's result array at contents the body vouches for and its argument unchanged;
   given the proof of one device's body. -/
import proofs.«901030_g7700000000001031_dist_rs_v7x_xyz2x2x2_z_m4096_n1024_bf16_1_alg».proof.Proof.Bits.LaunchA

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

theorem share_eq (c : Dev nD) (w : Fin cfg0.W) : (dats m 0 c).share w = fullShare := w.elim0

omit [FloatOps F] in
theorem L_of_ne (g : GSem nD τ sig) (h : g.1.2 ≠ .tc) : L g = ∅ := if_neg h

/-- The pipeline stages nothing: it has no cell to wait on. -/
theorem waits (c : Dev nD) : (levAts L lv : sProp 𝕄) ⊢ Pipeline.cellsWaits cfgs (dats m) () 0 c :=
  Pipeline.cellsWaits_intro cfgs (dats m) () 0 c fun w s t => w.elim0

/-- What a device holds before the region is entered: everything the body starts from but the scratch buffers. -/
def X (c : Dev nD) : sProp 𝕄 :=
  iprop((∃ K, ghost m K c) ∗ cred (tallyAt (barCell c) () 3) ∗ (bigSep Finset.univ fun i : Fin 64 => cred (tallyAt (dcell c (rN i)) () Nb))
    ∗ levAts L lv ∗ localSems c
    ∗ (((c : Thread nD τ).loc main_arg0) ↦{fullShare} m ((c : Thread nD τ).loc main_arg0))
    ∗ (((c : Thread nD τ).loc main_v1) ↦{fullShare} m ((c : Thread nD τ).loc main_v1)))

/-- What it holds of the two arrays after the region. -/
def Y (c : Dev nD) : sProp 𝕄 :=
  iprop((((c : Thread nD τ).loc main_arg0) ↦{fullShare} m ((c : Thread nD τ).loc main_arg0))
    ∗ ∃ f, ⌜OutOK m c f⌝ ∗ (((c : Thread nD τ).loc main_v1) ↦{fullShare} f))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Ha, Hv⟩, Hlev, Hcr, -, HG⟩
  ihave Hc := (creds (F := F) c) $$ Hcr
  icases Hc with ⟨H3, HN⟩
  unfold G'
  icases HG with ⟨%K, Hg, HL⟩
  imodintro
  unfold X
  isplitl
  · isplitl [Hg]; · iexists K; iexact Hg
    isplitl [H3]; · iexact H3
    isplitl [HN]; · iexact HN
    isplitl [Hlev]; · iexact Hlev
    isplitl [HL]; · iexact HL
    isplitl [Ha] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ X scratchAll
  iintro ⟨⟨Hg, H3, HN, Hlev, HL, Ha, Hv⟩, -, Hs⟩
  isplitl [Hg]; · iexact Hg
  isplitl [H3]; · iexact H3
  isplitl [HN]; · iexact HN
  isplitl [Hlev]; · iexact Hlev
  isplitl [HL]; · iexact HL
  isplitl [Hs]; · iexact Hs
  isplitl [Ha] <;> iassumption

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, ownSems0_eq]
  unfold Φ₁ Y scratchAll
  iintro ⟨Hz, Hs, Ha, Hv⟩
  isplitl [Ha Hv]
  · isplitl [Ha] <;> iassumption
  isplitl [Hz] <;> iassumption

/-! ## The run -/

set_option maxRecDepth 8000 in
/-- At the compiled mesh of eight devices, for any float values, from any memory with zero counters: given the proof of
    one device's body, every weakly fair execution of @main terminates, and every final state has each device's
    result array at contents the body vouches for and its argument array unchanged. -/
theorem run_main (hbody : ∀ c : Dev nD, BodyObligation (dats (F := F) m 0 c) (defs₀ (F := F)) 𝒱₀ () Set.univ) :
    θ_run defs (onTc (τ := τ) (main (F := F))) (s₀ m ρ)
      (fun r => ∀ c : Dev nD, OutOK m c (r.2.mem ((c : Thread nD τ).loc main_v1))
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_proto m) $$ HR with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => OutOK m c (s.mem ((c : Thread nD τ).loc main_v1)) ∧ s.mem ((c : Thread nD τ).loc main_arg0) = m ((c : Thread nD τ).loc main_arg0))
    (hY := fun c s' => by
      unfold Y
      iintro ⟨⟨Ha, ⟨%f, %hf, Hv⟩⟩, -, HSI⟩
      icombine HSI Ha gives %ha
      icombine HSI Hv gives %hv
      imodintro
      isplitr
      · ipureintro; exact ⟨(Buf.eq_of_forall_mem_univ hv) ▸ hf, Buf.eq_of_forall_mem_univ ha⟩
      iexact HSI)
    (hQ := fun s h c => (h c).2.2)

/-- info: 'Cert.Kernel.Rs.run_main' depends on axioms: [propext, Classical.choice, Quot.sound] -/
#guard_msgs in #print axioms run_main

end Cert.Kernel.Rs

end
-- ==== Proof.Bits.Assemble.lean ====
/- The kernel's side of the claim at any float instance, from the two halves of the body's proof: every fair
   execution of the eight devices terminates; each device's result array ends at contents the body vouches for and
   its argument array ends unchanged. The frame is that run with the result's contents dropped. -/
import proofs.«901030_g7700000000001031_dist_rs_v7x_xyz2x2x2_z_m4096_n1024_bf16_1_alg».proof.Proof.Bits.BodyObl
import proofs.«901030_g7700000000001031_dist_rs_v7x_xyz2x2x2_z_m4096_n1024_bf16_1_alg».proof.Proof.Bits.Launch

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The run with its strongest post: the result at contents the body vouches for, the argument unchanged. -/
theorem kernel_run (hrun : BodyRuns m) (hout : BodyEnds m) (ρ : Dev nD → PrngReg) :
    θ_run defs (onTc (τ := τ) (main (F := F))) ⟨m, fun _ => 0, ρ⟩
      (fun r => ∀ c : Dev nD, OutOK m c (r.2.mem ((c : Thread nD τ).loc main_v1))
        ∧ r.2.mem ((c : Thread nD τ).loc main_arg0) = m ((c : Thread nD τ).loc main_arg0)) :=
  run_main m ρ (body_obligation_of m hrun hout)

/-- The frame: the same run, keeping only that the argument is unchanged. -/
theorem kernel_frame (hrun : BodyRuns m) (hout : BodyEnds m) (ρ : Dev nD → PrngReg) :
    θ_run defs (onTc (τ := τ) (main (F := F))) ⟨m, fun _ => 0, ρ⟩
      (fun r => ∀ c : Dev nD, r.2.mem ((c : Thread nD τ).loc main_arg0) = m ((c : Thread nD τ).loc main_arg0)) :=
  (θ_run defs _ _).mono (fun _ h c => (h c).2) (kernel_run m hrun hout ρ)

end Cert.Kernel.Rs

end
-- ==== Proof.Bits.BodyOut.lean ====
/- From what the body's proof ends with to what the launch takes back: the send and receive cells close and give their
   counters back at zero; the shares of a forwarded block join; the blocks of each scratch buffer join into the buffer
   whole at some contents; the argument's pieces are the argument as it was; the result's quarters are the result at
   contents that read, quarter by quarter, as the VMEM buffer did when it was copied out. -/
import proofs.«901030_g7700000000001031_dist_rs_v7x_xyz2x2x2_z_m4096_n1024_bf16_1_alg».proof.Proof.Bits.BodyCtx
import proofs.«901030_g7700000000001031_dist_rs_v7x_xyz2x2x2_z_m4096_n1024_bf16_1_alg».proof.Proof.Bits.LaunchA

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ)

/-! ## The cells close -/

/-- A send cell, its only round done, closes: its counter is the device's again, at zero. -/
theorem close_send (K : Dev nD × CK → ℕ) (c : Dev nD) (i : Fin 64) :
    iprop(records m K ∗ atPos ER (dcell c (sN i)) 1 ∅ 0) ⊢ (|={Set.univ}=> semVal (dcell c (sN i)) 0 : sProp 𝕄) := by
  have hI : (bigSep Finset.univ fun ck : Dev nD × CK => (cellInv ER (Rd m) (K ck) (kcell ck) : sProp 𝕄))
      ⊢ cellInv ER (Rd m) (K (c, .inr (.inl i))) (dcell c (sN i)) := bigSep_elim (Finset.mem_univ ((c, Sum.inr (Sum.inl i)) : Dev nD × CK))
  unfold records
  iintro ⟨⟨HI, -⟩, Hat⟩
  ihave Hinv := hI $$ HI
  iapply (Rounds.cell_close ER (Rd m) (Set.mem_univ (K (c, .inr (.inl i)))) (fun h => h) (R := 0 + 1) (duties_later m (dcell c (sN i))))
  isplitl [Hinv]; · iexact Hinv
  iexact Hat

/-- A receive cell likewise. -/
theorem close_recv (K : Dev nD × CK → ℕ) (c : Dev nD) (i : Fin 64) :
    iprop(records m K ∗ atPos ER (dcell c (rN i)) 1 ∅ 0) ⊢ (|={Set.univ}=> semVal (dcell c (rN i)) 0 : sProp 𝕄) := by
  have hI : (bigSep Finset.univ fun ck : Dev nD × CK => (cellInv ER (Rd m) (K ck) (kcell ck) : sProp 𝕄))
      ⊢ cellInv ER (Rd m) (K (c, .inr (.inr i))) (dcell c (rN i)) := bigSep_elim (Finset.mem_univ ((c, Sum.inr (Sum.inr i)) : Dev nD × CK))
  unfold records
  iintro ⟨⟨HI, -⟩, Hat⟩
  ihave Hinv := hI $$ HI
  iapply (Rounds.cell_close ER (Rd m) (Set.mem_univ (K (c, .inr (.inr i)))) (fun h => h) (R := 0 + 1) (duties_later m (dcell c (rN i))))
  isplitl [Hinv]; · iexact Hinv
  iexact Hat

/-- All 128 at once. -/
theorem close_cells (K : Dev nD × CK → ℕ) (c : Dev nD) :
    iprop(records m K ∗ (bigSep Finset.univ fun i : Fin 64 => atPos ER (dcell c (sN i)) 1 ∅ 0) ∗ (bigSep Finset.univ fun i : Fin 64 => atPos ER (dcell c (rN i)) 1 ∅ 0))
      ⊢ (|={Set.univ}=> iprop((bigSep Finset.univ fun i : Fin 64 => semVal (dcell c (sN i)) 0) ∗ bigSep Finset.univ fun i : Fin 64 => semVal (dcell c (rN i)) 0) : sProp 𝕄) := by
  have hS : iprop(records m K ∗ bigSep Finset.univ fun i : Fin 64 => atPos ER (dcell c (sN i)) 1 ∅ 0)
      ⊢ (|={Set.univ}=> bigSep Finset.univ fun i : Fin 64 => semVal (dcell c (sN i)) 0 : sProp 𝕄) :=
    (bigSep_with_persistent (R := records m K) fun i _ => close_send m K c i).trans (bigSep_fupd _ _)
  have hR : iprop(records m K ∗ bigSep Finset.univ fun i : Fin 64 => atPos ER (dcell c (rN i)) 1 ∅ 0)
      ⊢ (|={Set.univ}=> bigSep Finset.univ fun i : Fin 64 => semVal (dcell c (rN i)) 0 : sProp 𝕄) :=
    (bigSep_with_persistent (R := records m K) fun i _ => close_recv m K c i).trans (bigSep_fupd _ _)
  iintro ⟨#HR, HS, HV⟩
  imod hS $$ [HS] with HzS
  · isplitr; · iexact HR
    iexact HS
  imod hR $$ [HV] with HzV
  · isplitr; · iexact HR
    iexact HV
  imodintro
  isplitl [HzS] <;> iassumption

/-! ## The shares of a forwarded block join -/

/-- A piece held at some contents at each of two shares that make up a third is held at some contents at the third:
    the two contents agree on the piece. -/
theorem pex_merge (c : Dev nD) {sp : Space} {S : Shape} {e : EltTy} (M : Memref sig .tc sp S e) {q q₁ q₂ : PosShare TreeShare} (h : q ∈ q₁ ·? q₂) :
    iprop(pex c q₁ M ∗ pex c q₂ M) ⊢ (pex c q M : sProp 𝕄) := by
  rw [pex_def, pex_def, pex_def]
  iintro ⟨⟨%f₁, H1⟩, ⟨%f₂, H2⟩⟩
  icombine H1 H2 as H12
  ihave %hag := pointsTo_agree $$ H12
  icases H12 with ⟨H1, H2⟩
  ihave H2' := (Entails.of_eq (pointsTo_congr (f := f₂) (g := f₁) fun i hi => ((hag i (Finset.mem_inter.mpr ⟨hi, hi⟩)).1).symm)) $$ H2
  iexists f₁
  iapply (pointsTo_share h).2
  isplitl [H1] <;> iassumption

/-- The three shares a block forwarded twice was lent and kept at. -/
theorem pex_merge3 (c : Dev nD) {sp : Space} {S : Shape} {e : EltTy} (M : Memref sig .tc sp S e) :
    iprop(pex c shX M ∗ pex c shY M ∗ pex c shK M) ⊢ (pex c fullShare M : sProp 𝕄) := by
  iintro ⟨HX, HY, HK⟩
  ihave HR := (pex_merge (F := F) c M (PosShare.mem_left_op_right fullShare.right)) $$ [HY HK]
  · isplitl [HY] <;> iassumption
  iapply (pex_merge (F := F) c M (PosShare.mem_left_op_right fullShare))
  isplitl [HX] <;> iassumption

omit [FloatOps F] in
theorem ent_refl (P : sProp 𝕄) : P ⊢ P := Entails.of_eq rfl

/-- A block forwarded twice, lent at two shares and kept at the third, is held at the full share again. -/
theorem bQ_full (c : Dev nD) :
    (bigSep Finset.univ fun s : Fin 16 => iprop(pex c shX (bQ s) ∗ pex c shY (bQ s) ∗ pex c shK (bQ s)) : sProp 𝕄)
      ⊢ bigSep Finset.univ fun s : Fin 16 => pex c fullShare (bQ s) :=
  bigSep_mono fun s _ => pex_merge3 c (bQ s)

/-- Blocks 11–15 of the x-neighbour's landing buffer, held in three shares like a block forwarded twice, are held at the full share again. -/
theorem bX_full (c : Dev nD) :
    (bigSep Finset.univ fun s : Fin 16 => if s.val < 11 then pex c fullShare (bX s) else iprop(pex c shX (bX s) ∗ pex c shY (bX s) ∗ pex c shK (bX s)) : sProp 𝕄)
      ⊢ bigSep Finset.univ fun s : Fin 16 => pex c fullShare (bX s) :=
  bigSep_mono fun s _ => by
    split_ifs with h
    · exact ent_refl _
    · exact pex_merge3 c (bX s)

/-- Blocks 6–10 of the y-neighbour's landing buffer, forwarded once (lent at one share, kept at the other), are held at the full share again. -/
theorem bY_full (c : Dev nD) :
    (bigSep Finset.univ fun s : Fin 16 => if 6 ≤ s.val ∧ s.val < 11 then iprop(pex c shX (bY s) ∗ pex c fullShare.right (bY s)) else pex c fullShare (bY s) : sProp 𝕄)
      ⊢ bigSep Finset.univ fun s : Fin 16 => pex c fullShare (bY s) :=
  bigSep_mono fun s _ => by
    split_ifs with h
    · exact pex_merge c (bY s) (PosShare.mem_left_op_right fullShare)
    · exact ent_refl _

/-! ## The scratch buffers whole again -/

/-- The four quarters of the VMEM result buffer, each at some contents, are the buffer at some contents. -/
theorem join_v9 (c : Dev nD) :
    (bigSep Finset.univ fun k : Fin 4 => iprop(∃ f, ((vQ c k).view.loc (c : Thread nD τ) ↦[(vQ c k).view.set]{fullShare} f)) : sProp 𝕄)
      ⊢ iprop(∃ f : Buf (Elt F) ((c : Thread nD τ).loc cc0_scratch9), ((c : Thread nD τ).loc cc0_scratch9) ↦{fullShare} f) :=
  join_family (ℓ := (c : Thread nD τ).loc cc0_scratch9) (fun k : Fin 4 => vQset c k) 0 (fun k k' h => vQ_disjoint c k k' h)
    (fun i => by
      have hi : i ∈ (Finset.univ : Finset (Fin 4)).biUnion (vQset c) := by rw [vQ_cover c]; exact Finset.mem_univ i
      obtain ⟨k, -, hk⟩ := Finset.mem_biUnion.mp hi
      exact ⟨k, hk⟩) fullShare

/-- Every block of every scratch buffer at some contents: the ten buffers, each whole at some contents. -/
theorem scratch_intro (c : Dev nD) :
    iprop((bigSep Finset.univ fun s : Fin 16 => pex c fullShare (xqM s))
      ∗ (bigSep Finset.univ fun j : Fin 6 => pex c fullShare (xdM j))
      ∗ (bigSep Finset.univ fun k : Fin 4 => pex c fullShare (xlM k))
      ∗ (bigSep Finset.univ fun s : Fin 16 => pex c fullShare (bA s))
      ∗ (bigSep Finset.univ fun j : Fin 6 => pex c fullShare (bD j))
      ∗ (bigSep Finset.univ fun s : Fin 16 => pex c fullShare (bQ s))
      ∗ (bigSep Finset.univ fun s : Fin 16 => pex c fullShare (bX s))
      ∗ (bigSep Finset.univ fun s : Fin 16 => pex c fullShare (bY s))
      ∗ (bigSep Finset.univ fun s : Fin 16 => pex c fullShare (bR s))
      ∗ (bigSep Finset.univ fun k : Fin 4 => pex c fullShare (vQ c k)))
      ⊢ (scratchAll c : sProp 𝕄) := by
  unfold scratchAll
  rw [scopedRest0_eq]
  simp only [pex_def]
  iintro ⟨H0, H1, H2, H3, H4, H5, H6, H7, H8, H9⟩
  isplitl [H0]; · iapply (join_xqM c); iexact H0
  isplitl [H1]; · iapply (join_xdM c); iexact H1
  isplitl [H2]; · iapply (join_xlM c); iexact H2
  isplitl [H3]; · iapply (join_bA c); iexact H3
  isplitl [H4]; · iapply (join_bD c); iexact H4
  isplitl [H5]; · iapply (join_bQ c); iexact H5
  isplitl [H6]; · iapply (join_bX c); iexact H6
  isplitl [H7]; · iapply (join_bY c); iexact H7
  isplitl [H8]; · iapply (join_bR c); iexact H8
  iapply (join_v9 (F := F) c); iexact H9

/-! ## The result -/

/-- The four quarters of the result, each reading as the VMEM buffer's quarter did, are the result array at contents the
    body vouches for. -/
theorem out_intro (c : Dev nD) :
    iprop(∃ h : Fin 4 → Buf (Elt F) ((c : Thread nD τ).loc main_v1),
        ⌜∀ k, ∃ g, QuarterOK m c k g ∧ (oQ c k).view.read (Elt F) (h k) = (vQ c k).view.read (Elt F) g⌝
        ∗ bigSep Finset.univ fun k : Fin 4 => ((oQ c k).view.loc (c : Thread nD τ) ↦[(oQ c k).view.set]{fullShare} h k))
      ⊢ (iprop(∃ f, ⌜OutOK m c f⌝ ∗ (((c : Thread nD τ).loc main_v1) ↦{fullShare} f)) : sProp 𝕄) := by
  iintro ⟨%h, %hh, H⟩
  ihave H' := (join_out c h) $$ H
  icases H' with ⟨%f, %hf, Hf⟩
  iexists f
  isplitr
  · ipureintro
    intro k
    obtain ⟨g, hq, e⟩ := hh k
    exact ⟨g, hq, (hf k).trans e⟩
  iexact Hf

/-! ## What the launch takes back -/

theorem body_out (K : Dev nD × CK → ℕ) (c : Dev nD) :
    bodyPost m K c ⊢ |={Set.univ}=> iprop(Φ₁ m c ∗ ∃ W, owes (c : Thread nD τ) 0 W) := by
  have hA : argPieces c (m ((c : Thread nD τ).loc main_arg0))
      ⊢ ((((c : Thread nD τ).loc main_arg0) ↦{fullShare} m ((c : Thread nD τ).loc main_arg0)) : sProp 𝕄) := by
    unfold argPieces; exact (split_arg4 c _).2
  unfold bodyPost
  iintro ⟨#HR, HatS, HatR, HL, HO, H0, H1, H2, H3, H4, HQ, HX, HY, HRr, H9, Harg, Hout⟩
  imod (close_cells m K c) $$ [HatS HatR] with ⟨HzS, HzR⟩
  · isplitr; · iexact HR
    isplitl [HatS] <;> iassumption
  imodintro
  ihave HQ' := (bQ_full (F := F) c) $$ HQ
  ihave HX' := (bX_full (F := F) c) $$ HX
  ihave HY' := (bY_full (F := F) c) $$ HY
  isplitr [HO]
  · unfold Φ₁
    isplitl [HL HzS HzR]
    · iapply (Entails.of_eq (allSems_split (F := F) c).symm)
      isplitl [HL]; · iexact HL
      isplitl [HzS] <;> iassumption
    isplitl [H0 H1 H2 H3 H4 HQ' HX' HY' HRr H9]
    · iapply (scratch_intro (F := F) c)
      isplitl [H0]; · iexact H0
      isplitl [H1]; · iexact H1
      isplitl [H2]; · iexact H2
      isplitl [H3]; · iexact H3
      isplitl [H4]; · iexact H4
      isplitl [HQ']; · iexact HQ'
      isplitl [HX']; · iexact HX'
      isplitl [HY']; · iexact HY'
      isplitl [HRr]; · iexact HRr
      iexact H9
    isplitl [Harg]
    · iapply hA; iexact Harg
    · iapply (out_intro m c); iexact Hout
  · iexact HO

/-- info: 'Cert.Kernel.Rs.body_out' depends on axioms: [propext, Classical.choice, Quot.sound] -/
#guard_msgs in #print axioms body_out

end Cert.Kernel.Rs

end
-- ==== Proof.ClaimOf.lean ====
/- The claim from what is still owed: the run of one device's body at the two float instances, and that the
   contents the body vouches for are the device's block of the one-device result. Everything else is in place:
   the launch, the way in and out of the body, the one-device program's run, the frames as runs with the result
   dropped. -/
import proofs.«901030_g7700000000001031_dist_rs_v7x_xyz2x2x2_z_m4096_n1024_bf16_1_alg».proof.Defs
import proofs.«901030_g7700000000001031_dist_rs_v7x_xyz2x2x2_z_m4096_n1024_bf16_1_alg».proof.Proof.Assemble
import proofs.«901030_g7700000000001031_dist_rs_v7x_xyz2x2x2_z_m4096_n1024_bf16_1_alg».proof.Proof.BodyOut
import proofs.«901030_g7700000000001031_dist_rs_v7x_xyz2x2x2_z_m4096_n1024_bf16_1_alg».proof.Proof.RefSide
import proofs.«901030_g7700000000001031_dist_rs_v7x_xyz2x2x2_z_m4096_n1024_bf16_1_alg».proof.Proof.Bits.Assemble
import proofs.«901030_g7700000000001031_dist_rs_v7x_xyz2x2x2_z_m4096_n1024_bf16_1_alg».proof.Proof.Bits.BodyOut
import proofs.«901030_g7700000000001031_dist_rs_v7x_xyz2x2x2_z_m4096_n1024_bf16_1_alg».proof.Proof.Gen.Kernel
import proofs.«901030_g7700000000001031_dist_rs_v7x_xyz2x2x2_z_m4096_n1024_bf16_1_alg».proof.Proof.Gen.Kernel.Skeleton
import proofs.«901030_g7700000000001031_dist_rs_v7x_xyz2x2x2_z_m4096_n1024_bf16_1_alg».proof.Proof.Gen.Kernel.Launch
import proofs.«901030_g7700000000001031_dist_rs_v7x_xyz2x2x2_z_m4096_n1024_bf16_1_alg».proof.Proof.Gen.Kernel.Points
import proofs.«901030_g7700000000001031_dist_rs_v7x_xyz2x2x2_z_m4096_n1024_bf16_1_alg».proof.Proof.Gen.Kernel.Frame
import proofs.«901030_g7700000000001031_dist_rs_v7x_xyz2x2x2_z_m4096_n1024_bf16_1_alg».proof.Proof.Gen.KernelIdeal
import proofs.«901030_g7700000000001031_dist_rs_v7x_xyz2x2x2_z_m4096_n1024_bf16_1_alg».proof.Proof.Gen.KernelIdeal.Skeleton
import proofs.«901030_g7700000000001031_dist_rs_v7x_xyz2x2x2_z_m4096_n1024_bf16_1_alg».proof.Proof.Gen.KernelIdeal.Launch
import proofs.«901030_g7700000000001031_dist_rs_v7x_xyz2x2x2_z_m4096_n1024_bf16_1_alg».proof.Proof.Gen.KernelIdeal.Points
import proofs.«901030_g7700000000001031_dist_rs_v7x_xyz2x2x2_z_m4096_n1024_bf16_1_alg».proof.Proof.Gen.KernelIdeal.Frame
import proofs.«901030_g7700000000001031_dist_rs_v7x_xyz2x2x2_z_m4096_n1024_bf16_1_alg».proof.Proof.Gen.ReferenceIdeal
import proofs.«901030_g7700000000001031_dist_rs_v7x_xyz2x2x2_z_m4096_n1024_bf16_1_alg».proof.Proof.Gen.Pre_finite_inputs_Kernel
import proofs.«901030_g7700000000001031_dist_rs_v7x_xyz2x2x2_z_m4096_n1024_bf16_1_alg».proof.Proof.Gen.Pre_finite_inputs_ReferenceIdeal
import Idealize.ShloMosaic.Adequacy
import Idealize.ShloMosaic.Init

noncomputable section

namespace Cert.Proof

open Idealize.ShloMosaic Idealize.SL.Sem

/-- The one-device program's argument array. -/
abbrev rArg : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_arg0

/-- The five claims, given the body's run at the ideal and at the word-level instance (`hI`, `hB`) and that, when
    every device's argument is its slab of the one-device argument, the contents the body vouches for on a device
    are that device's block of columns of the entrywise sum of the two slabs (`hfin`). The frames are the runs
    with the result dropped; the value claim pairs the eight devices' run with the one-device run. No law used
    needs the inputs finite: addition of extended reals commutes as it is. -/
theorem claim_of
    (hI : ∀ m : (ℓ : Loc Cert.KernelIdeal.nD Cert.KernelIdeal.τ Cert.KernelIdeal.sig) → Buf (Elt Ideal) ℓ,
      Cert.KernelIdeal.Rs.BodyRuns (F := Ideal) m)
    (hB : ∀ m : (ℓ : Loc Cert.Kernel.nD Cert.Kernel.τ Cert.Kernel.sig) → Buf (Elt Bits) ℓ,
      Cert.Kernel.Rs.BodyRuns (F := Bits) m)
    (hfin : ∀ (m : (ℓ : Loc Cert.KernelIdeal.nD Cert.KernelIdeal.τ Cert.KernelIdeal.sig) → Buf (Elt Ideal) ℓ)
      (m' : (ℓ : Loc Cert.ReferenceIdeal.nD Cert.ReferenceIdeal.τ Cert.ReferenceIdeal.sig) → Buf (Elt Ideal) ℓ)
      (hagree : ∀ c : Dev Cert.KernelIdeal.nD,
        m ((c.tc : Thread Cert.KernelIdeal.nD Cert.KernelIdeal.τ).loc Cert.KernelIdeal.main_arg0)
          = Layout.blockN ⟨3, ![1, 4096, 2048]⟩ ⟨3, ![2, 4096, 2048]⟩ (Layout.meshBlock [2, 2, 2] ![[2], [], []] c) (m' rArg))
      (c : Dev Cert.KernelIdeal.nD)
      (f : Buf (Elt Ideal) ((c.tc : Thread Cert.KernelIdeal.nD Cert.KernelIdeal.τ).loc Cert.KernelIdeal.main_v1)),
      Cert.KernelIdeal.Rs.OutOK (F := Ideal) m c f →
        f = Layout.blockN ⟨2, ![4096, 1024]⟩ ⟨2, ![4096, 2048]⟩ (Layout.meshBlock [2, 2, 2] ![[], [2]] c) (Cert.KernelIdeal.Rs.refOut (m' rArg))) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    fun m g _ => Cert.Kernel.Rs.kernel_frame m (hB m) (Cert.Kernel.Rs.body_out m) g,
    fun m g _ => Cert.KernelIdeal.Rs.kernel_frame m (hI m) (Cert.KernelIdeal.Rs.body_out m) g,
    Cert.KernelIdeal.Rs.ref_frame,
    trivial,
    fun m g m' g' _ hagree =>
      ⟨Cert.KernelIdeal.Rs.refOut (m' rArg),
        (θ_run Cert.KernelIdeal.defs _ _).mono (fun r h c => ⟨hfin m m' hagree c _ (h c).1, (h c).2⟩)
          (Cert.KernelIdeal.Rs.kernel_run m (hI m) (Cert.KernelIdeal.Rs.body_out m) g),
        Cert.KernelIdeal.Rs.ref_run m' g'⟩⟩

/-- info: 'Cert.Proof.claim_of' depends on axioms: [propext, Classical.choice, Quot.sound] -/
#guard_msgs in #print axioms claim_of

end Cert.Proof

end
-- ==== Proof.Ledger.lean ====
/- Who may wait while owing: the order of the protocol's cells by level. A device may wait on one of its cells
   while it still owes units elsewhere only if every cell it owes on lies strictly above the cell it waits on. -/
import proofs.«901030_g7700000000001031_dist_rs_v7x_xyz2x2x2_z_m4096_n1024_bf16_1_alg».proof.Proof.BodySpec
import Idealize.ShloMosaic.Lib.Pipeline.Launch
import Idealize.ShloMosaic.Rules.Acct

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Tallies that lie above a level -/

/-- Every cell on which `O` owes a unit is a TensorCore's and has level strictly above `k`. -/
def Above (k : ℕ) (O : CellTallies nD τ sig Unit) : Prop := ∀ g u, 0 < O g u → g.1.2 = .tc ∧ k < lv g u

/-- Owing nothing lies above every level. -/
theorem above_zero (k : ℕ) : Above k 0 := fun g u h => absurd h (Nat.lt_irrefl 0)

/-- A sum owes a unit only where a summand does. -/
theorem above_add {k : ℕ} {O O' : CellTallies nD τ sig Unit} (h : Above k O) (h' : Above k O') : Above k (O + O') :=
  fun g u hp => (Pipeline.add_pos_cases hp).elim (h g u) (h' g u)

/-- The same for a finite sum. -/
theorem above_sum {α : Type} [Fintype α] {k : ℕ} {f : α → CellTallies nD τ sig Unit} (h : ∀ i, Above k (f i)) :
    Above k (∑ i, f i) := fun g u hp => by
  obtain ⟨x, _, hx⟩ := Pipeline.sum_pos_exists hp
  exact h x g u hx

/-- The level of a copy's cell, by its semaphore's index. -/
theorem lv_dma (d : Dev nD) (n : Fin 158) :
    lv (dcell d n) () = (if n.val < 94 then 0 else if n.val < 116 then 2 else if n.val < 148 then 3 else 4) := rfl
/-- The level of a barrier cell. -/
theorem lv_bar (d : Dev nD) : lv (barCell d) () = 1 := rfl

/-- Units owed on one copy's cell lie above `k` when that cell's level does. -/
theorem above_dma (k : ℕ) (d : Dev nD) (n : Fin 158) (N : ℕ)
    (h : k < (if n.val < 94 then 0 else if n.val < 116 then 2 else if n.val < 148 then 3 else 4)) :
    Above k (tallyAt (dcell d n) () N) := fun g u hp => by
  obtain ⟨rfl, rfl⟩ := Pipeline.tallyAt_pos hp
  exact ⟨rfl, h⟩

/-- Units owed on a barrier cell lie above `k` when `k` is below the barrier's level. -/
theorem above_bar (k : ℕ) (d : Dev nD) (N : ℕ) (h : k < 1) : Above k (tallyAt (barCell d) () N) := fun g u hp => by
  obtain ⟨rfl, rfl⟩ := Pipeline.tallyAt_pos hp
  exact ⟨rfl, h⟩

/-- Units owed on the receive cell of copy `i` lie above every level below 2. -/
theorem above_recv (k : ℕ) (hk : k < 2) (d : Dev nD) (i : Fin 64) (N : ℕ) : Above k (tallyAt (dcell d (rN i)) () N) :=
  above_dma k d (rN i) N (by
    have h1 : ¬ (rN i).val < 94 := by simp only [rN]; omega
    rw [if_neg h1]; split_ifs <;> omega)

/-! ## The ledger lemma -/

/-- A device may wait on its cell `sm` while owing `O` when all of `O` lies above that cell's level. -/
theorem mayWait_of_above (c : Dev nD) (sm : SemLoc sig) (O : CellTallies nD τ sig Unit)
    (h : Above (lv ((c : Thread nD τ), sm) ()) O) :
    (levAts L lv : sProp 𝕄) ⊢ MayWait (c : Thread nD τ) sm () O :=
  Pipeline.mayWait_of_levAts (by unfold L; rw [if_pos rfl]; exact Finset.mem_singleton.mpr rfl)
    (fun g i hg => ⟨by unfold L; rw [if_pos (h g i hg).1]; exact Finset.mem_singleton.mpr rfl, (h g i hg).2⟩)

/-! ## Deciding `Above` for a sum of tallies on named cells -/

/-- Closes `Above k (t₁ + ⋯ + tₙ)` where each `tᵢ` is `0`, a tally on a copy's cell with a literal semaphore
    index, or a tally on a barrier cell, and `k` is a numeral or the level of such a cell. -/
macro "above_tac" : tactic =>
  `(tactic| (try simp only [lv_dma, lv_bar]
             repeat' (first
               | exact above_zero _
               | (apply above_dma <;> first | decide | omega | simp)
               | (apply above_bar <;> first | decide | omega | simp)
               | apply above_add)))

example (c : Dev nD) : Above 0 (tallyAt (dcell c ⟨100, by omega⟩) () 3 + tallyAt (barCell (zp c)) () 1
    + 0 + tallyAt (dcell (xn c) ⟨150, by omega⟩) () Nb + tallyAt (barCell c) () 2) := by above_tac

example (c : Dev nD) : Above (lv ((c : Thread nD τ), .dma (⟨40, by omega⟩ : Fin 158)) ()) (tallyAt (dcell c ⟨100, by omega⟩) () 3 + tallyAt (barCell (zp c)) () 1) := by
  above_tac

example (c : Dev nD) : Above (lv ((c : Thread nD τ), .reg barS) ()) (tallyAt (dcell c ⟨100, by omega⟩) () 3 + tallyAt (dcell (yn c) ⟨120, by omega⟩) () 1) := by
  above_tac

/-- What a device owes at launch lies above level 0: barrier cells are at level 1, receive cells at 2 and more. -/
theorem above_O₀ (c : Dev nD) : Above 0 (O₀ c) := by
  unfold O₀
  refine above_add (above_add (above_add (above_sum fun i => above_recv 0 (by omega) _ i _) ?_) ?_) ?_ <;> above_tac

end Cert.KernelIdeal.Rs

end
-- ==== Proof.ValLemmas.lean ====
/- Values read back. A piece of a buffer has several names: the rectangle of the whole buffer a store or a
   load goes through, the slice of the buffer a copy fills, the squeezed plane of a three-dimensional buffer.
   They place the same indices on the same elements, so what is written through one name is read through
   another: a store at a rectangle reads back through the slice at that rectangle; a load at a rectangle of a
   buffer whose slice holds a block reads the block; a load at a run of rows of a plane reads those rows; the
   contents a copy lands are, on the destination's own elements, the block it carried.
   Then the arithmetic the kernel does on its blocks, read entry by entry on extended reals: a change of
   format and a cast to the same shape are the identity, a cast that drops a leading unit axis reads the
   entry behind that axis, and an add is the sum of the entries. -/
import proofs.«901030_g7700000000001031_dist_rs_v7x_xyz2x2x2_z_m4096_n1024_bf16_1_alg».proof.Proof.Views
import Idealize.ShloMosaic.Lib.Exec.Geometry
import Idealize.ShloMosaic.Lib.Pipeline.Value
import Idealize.ShloMosaic.Lib.ValueLayout
import Idealize.ShloMosaic.Lib.ValueIdx

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

/-! ## A store at a rectangle, read through the slice at that rectangle -/

/-- What an unmasked store through a memref at a rectangle leaves is read through the memref's slice at that
    rectangle as the payload: the access and the slice are one placement. -/
theorem read_slice_write_access {sig : RefSig} {κ : Kind} {Val : EltTy → Type} {sp : Space} {s : Shape} {e : EltTy}
    (m : Memref sig κ sp s e) (r : Rect s) (hr : ∀ a, r.stride a = 1) (f : m.view.ty.Contents Val) (w : r.shape.Idx → Val e) :
    (m.slice r hr).view.read Val (View.write Val (m.access r) f w Finset.univ) = w :=
  View.read_write_univ (v := m.access r) f w

/-- The same for a whole buffer and a unit-stride rectangle of it. -/
theorem read_block_write_whole {sig : RefSig} {κ : Kind} {Val : EltTy → Type} (b : Ref sig κ)
    (off size : Fin b.ty.shape.rank → Nat) (inb : ∀ a, off a + size a ≤ b.ty.shape.size a)
    (f : b.ty.Contents Val) (w : (Rect.unit off size inb).shape.Idx → Val b.ty.elt) :
    ((Memref.whole b).slice (Rect.unit off size inb) (fun _ => rfl)).view.read Val
      (View.write Val ((Memref.whole b).access (Rect.unit off size inb)) f w Finset.univ) = w :=
  View.read_write_univ (v := (Memref.whole b).access (Rect.unit off size inb)) f w

/-! ## A load at a rectangle of a buffer whose slice holds a block -/

/-- A load through a memref at a rectangle, of the buffer that holds `x` on the slice at that rectangle, reads `x`. -/
theorem readAt_rep_slice {sig : RefSig} {κ : Kind} {Val : EltTy → Type} [∀ e, Nonempty (Val e)] {sp : Space} {s : Shape} {e : EltTy}
    (m : Memref sig κ sp s e) (r : Rect s) (hr : ∀ a, r.stride a = 1) (x : r.shape.Idx → Val e) :
    m.view.readAt Val r.toLoadRect ((m.slice r hr).view.rep x) = x :=
  View.read_rep (m.view.slice r) x

/-- The same with the buffer spelt as the one whole-slice piece over arbitrary contents. -/
theorem readAt_writes_slice {sig : RefSig} {κ : Kind} {Val : EltTy → Type} [∀ e, Nonempty (Val e)] {sp : Space} {s : Shape} {e : EltTy}
    (m : Memref sig κ sp s e) (r : Rect s) (hr : ∀ a, r.stride a = 1) (x : r.shape.Idx → Val e) :
    m.view.readAt Val r.toLoadRect
      ((m.slice r hr).view.writes Val (m.slice r hr).view.junk [⟨Rect.whole _, x⟩]) = x :=
  View.read_rep (m.view.slice r) x

/-- For a whole buffer and a unit-stride rectangle of it. -/
theorem readAt_rep_block_whole {sig : RefSig} {κ : Kind} {Val : EltTy → Type} [∀ e, Nonempty (Val e)] (b : Ref sig κ)
    (off size : Fin b.ty.shape.rank → Nat) (inb : ∀ a, off a + size a ≤ b.ty.shape.size a)
    (x : (Rect.unit off size inb).shape.Idx → Val b.ty.elt) :
    (Memref.whole b).view.readAt Val (Rect.unit off size inb).toLoadRect
      (((Memref.whole b).slice (Rect.unit off size inb) (fun _ => rfl)).view.rep x) = x :=
  View.read_rep ((Memref.whole b).view.slice (Rect.unit off size inb)) x

theorem readAt_writes_block_whole {sig : RefSig} {κ : Kind} {Val : EltTy → Type} [∀ e, Nonempty (Val e)] (b : Ref sig κ)
    (off size : Fin b.ty.shape.rank → Nat) (inb : ∀ a, off a + size a ≤ b.ty.shape.size a)
    (x : (Rect.unit off size inb).shape.Idx → Val b.ty.elt) :
    (Memref.whole b).view.readAt Val (Rect.unit off size inb).toLoadRect
      (((Memref.whole b).slice (Rect.unit off size inb) (fun _ => rfl)).view.writes Val
        ((Memref.whole b).slice (Rect.unit off size inb) (fun _ => rfl)).view.junk [⟨Rect.whole _, x⟩]) = x :=
  View.read_rep ((Memref.whole b).view.slice (Rect.unit off size inb)) x

/-! ## A load at a box of a buffer whose squeezed slice holds a plane -/

/-- A load through a memref at a box, of the buffer that holds `x` on the squeeze of a slice: at an index of the
    box whose element is the slice's element at `k` (counted in the squeezed shape), it reads `x k`. -/
theorem readAt_rep_squeeze_slice {sig : RefSig} {κ : Kind} {Val : EltTy → Type} [∀ e, Nonempty (Val e)] {sp : Space} {s s' : Shape} {e : EltTy}
    (m : Memref sig κ sp s e) (r₀ : Rect s) (h₀ : ∀ a, r₀.stride a = 1) (hq : r₀.shape.Squeezes s')
    (x : s'.Idx → Val e) (B : LoadRect s) (y : B.shape.Idx) (k : s'.Idx)
    (hk : r₀.emb (Shape.reshapeEquiv hq.numel_eq k) = B.idx y) :
    m.view.readAt Val B (((m.slice r₀ h₀).squeeze s' hq).view.rep x) y = x k := by
  rw [View.readAt_apply, ← hk]
  exact congrFun (View.read_rep ((m.slice r₀ h₀).squeeze s' hq).view x) k

/-- Rows 64 s … 64 s + 63 of plane `k` of the three-dimensional buffer: a load through the whole buffer at the box
    [k, 64 s, 0] of sizes [1, 64, 1024], of the buffer that holds `x` on the plane, reads at (0, r, j) the
    plane's entry (64 s + r, j). The offsets may be spelt in any way equal to [k, 64 s, 0]. -/
theorem readAt_plane_rows {Val : EltTy → Type} [∀ e, Nonempty (Val e)] (k : Fin 4) (s : Fin 16)
    (off : Fin 3 → Nat) (hoff : off = ![k.val, 64 * s.val, 0])
    (inb : ∀ a, off a + S1x64x1024.size a ≤ S4x1024x1024.size a)
    (x : S1024x1024.Idx → Val .f32) (r : Fin 64) (j : Fin 1024) :
    (Memref.whole cc0_scratch2).view.readAt Val (Rect.unit (s := S4x1024x1024) off S1x64x1024.size inb).toLoadRect
        ((xlM k).view.rep x) (ix3 (0 : Fin 1) r j)
      = x (ix2 (⟨64 * s.val + r.val, by have := s.isLt; have := r.isLt; omega⟩ : Fin 1024) j) := by
  subst hoff
  refine readAt_rep_squeeze_slice (Memref.whole cc0_scratch2) _ _ _ x _ _ _ ?_
  have hR : 64 * s.val + r.val < 1024 := by have := s.isLt; have := r.isLt; omega
  rw [Shape.reshapeEquiv_eq_of_rowMajor _ (y := ix3 (0 : Fin 1) (⟨64 * s.val + r.val, hR⟩ : Fin 1024) j) (by
    rw [Shape.rowMajor_val_three, Shape.rowMajor_val_two]
    show (0 * 1024 + (64 * s.val + r.val)) * 1024 + j.val = (64 * s.val + r.val) * 1024 + j.val
    rw [Nat.zero_mul, Nat.zero_add])]
  funext a
  apply Fin.ext
  match a with
  | ⟨0, _⟩ => show k.val + 1 * 0 = k.val + 1 * 0; rfl
  | ⟨1, _⟩ => show 0 + 1 * (64 * s.val + r.val) = 64 * s.val + 1 * r.val; omega
  | ⟨2, _⟩ => show 0 + 1 * j.val = 0 + 1 * j.val; rfl

/-- How the general lemmas meet the kernel's own names: a store of block `s` of the staging buffer through the
    whole buffer, read through the block's slice; -/
example {Val : EltTy → Type} (s : Fin 16) (f : cc0_scratch3.ty.Contents Val) (w : S64x1024.Idx → Val .bf16) :
    (bA s).view.read Val (View.write Val ((Memref.whole cc0_scratch3).access (Rect.unit (s := S1024x1024) ![64 * s.val, 0] S64x1024.size (inb16 s))) f w Finset.univ) = w :=
  read_block_write_whole cc0_scratch3 _ _ _ f w

/-- a load of block `s` of the f32 copy through the whole buffer, the block's slice holding `x`. -/
example {Val : EltTy → Type} [∀ e, Nonempty (Val e)] (s : Fin 16) (x : S64x1024.Idx → Val .f32) :
    (Memref.whole cc0_scratch0).view.readAt Val (Rect.unit (s := S1024x1024) ![64 * s.val, 0] S64x1024.size (inb16 s)).toLoadRect
      ((xqM s).view.writes Val (xqM s).view.junk [⟨Rect.whole _, x⟩]) = x :=
  readAt_writes_block_whole cc0_scratch0 _ _ _ x

/-! ## What a copy lands -/

/-- What a copy leaves, read through its destination, is what it read through its source. -/
theorem read_landed {sig : RefSig} {κ κ' : Kind} {Val : EltTy → Type} {sp sp' : Space} {s : Shape} {e : EltTy}
    (src : Memref sig κ' sp' s e) (dst : Memref sig κ sp s e) (fs : src.view.ty.Contents Val) (fd : dst.view.ty.Contents Val) :
    dst.view.read Val (dst.view.write Val fd (src.view.read Val fs) Finset.univ) = src.view.read Val fs :=
  View.read_write_univ (v := dst.view) fd _

/-- On a view's own elements, the contents after `w` is written through it unmasked, over any prior contents, are
    the contents that hold `w` canonically: every element of the view's set lies under one of the view's indices,
    and there both hold `w` at that index. -/
theorem pointsTo_write_eq_rep {nD : Nat} {τ : Topo} {sig : RefSig} {Ix : Type} [DecidableEq Ix]
    {Val : EltTy → Type} [∀ e, Nonempty (Val e)] {Name : Type} [DecidableEq Name] {U : Type} [URA U] {Lvl : Type}
    (c : Thread nD τ) {sp : Space} {s : Shape} {e : EltTy} (v : View sig c.2.kind sp s e) (q : PosShare TreeShare)
    (fd : Buf Val (v.loc c)) (w : s.Idx → Val e) :
    (v.loc c ↦[v.set]{q} v.write Val fd w Finset.univ : sProp (MT nD τ sig Ix Val Name U Lvl))
      = v.loc c ↦[v.set]{q} v.rep w :=
  pointsTo_congr fun i hi => by
    obtain ⟨y, rfl⟩ := View.exists_emb_of_mem_set v hi
    rw [View.write_emb_of_mem _ _ (Finset.mem_univ _), View.rep_emb]

/-- The same for a memref's view: the landing of a copy into `dst`, restated at the canonical contents. -/
theorem pointsTo_landed_eq_rep {nD : Nat} {τ : Topo} {sig : RefSig} {Ix : Type} [DecidableEq Ix]
    {Val : EltTy → Type} [∀ e, Nonempty (Val e)] {Name : Type} [DecidableEq Name] {U : Type} [URA U] {Lvl : Type}
    (c : Thread nD τ) {sp : Space} {s : Shape} {e : EltTy} (dst : Memref sig c.2.kind sp s e) (q : PosShare TreeShare)
    (fd : Buf Val (dst.view.loc c)) (w : s.Idx → Val e) :
    (dst.view.loc c ↦[dst.view.set]{q} dst.view.write Val fd w Finset.univ : sProp (MT nD τ sig Ix Val Name U Lvl))
      = dst.view.loc c ↦[dst.view.set]{q} dst.view.rep w :=
  pointsTo_write_eq_rep c dst.view q fd w

/-- info: 'Cert.KernelIdeal.Rs.pointsTo_write_eq_rep' depends on axioms: [propext, Classical.choice, Quot.sound] -/
#guard_msgs in #print axioms pointsTo_write_eq_rep
/-- info: 'Cert.KernelIdeal.Rs.readAt_plane_rows' depends on axioms: [propext, Classical.choice, Quot.sound] -/
#guard_msgs in #print axioms readAt_plane_rows

end Cert.KernelIdeal.Rs

end
-- ==== Proof.SendRule.lean ====
/- One remote copy of a 64-row block, as the body's proof applies it: the source block lent at its share, the
   landing block on the target rewritten to what the source holds. -/
import proofs.«901030_g7700000000001031_dist_rs_v7x_xyz2x2x2_z_m4096_n1024_bf16_1_alg».proof.Proof.Sched
import proofs.«901030_g7700000000001031_dist_rs_v7x_xyz2x2x2_z_m4096_n1024_bf16_1_alg».proof.Proof.ValLemmas

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A copy of block memref `srcM` on device `c` into block memref `dstM` on device `n`, paying the one duty of the
    issuer's send cell `ss` (its payload: the source back, whatever it holds) and the one duty of the target's receive
    cell `rs` (its payload: the landing block holding `x`, what the source reads as). -/
theorem wp_send_blk (c n n' : Dev nD) (hn : n' = n) {srcM dstM : Memref sig .tc .vmem S64x1024 .bf16}
    (ss rs : Fin 158) (hs30 : 30 ≤ ss.val) (hs94 : ss.val < 94) (hr94 : 94 ≤ rs.val)
    (q : PosShare TreeShare) (fs : Buf (Elt F) (srcM.view.loc (c : Thread nD τ))) (fd : Buf (Elt F) (dstM.view.loc (n : Thread nD τ)))
    (x : S64x1024.Idx → Elt F .bf16) (hx : srcM.view.read (Elt F) fs = x)
    (hpay₁ : (srcM.view.loc (c : Thread nD τ) ↦[srcM.view.set]{q} fs : sProp 𝕄) ⊢ (Rd m).payload (dcell c ss) 0 0)
    (hpay₂ : (Rd m).payload (dcell n rs) 0 0 = (dstM.view.loc (n : Thread nD τ) ↦[dstM.view.set]{fullShare} dstM.view.rep x : sProp 𝕄))
    (hN : dstM.view.amount (SemLoc.dma rs) = Nb)
    {hsc : (dstM : Memref sig (Dev.tc n' : Thread nD τ).2.kind .vmem S64x1024 .bf16).view.ref.isScScratch = false}
    {hsrc : srcM.view.WordExact} {hdst : dstM.view.WordExact}
    {hsem : DmaTarget.Typed .vmem (.dma rs) (.remote (Dev.tc n' : Thread nD τ) dstM (.dma ss) hsc)}
    {α : Type} {Q : α → sProp 𝕄} {k : PUnit → Prog (TpuEff nD τ sig (Elt F) Λ₀ .tc) α}
    (κ₁ κ₂ : ℕ) (O : CellTallies nD τ sig Unit) (W : Waits sig Unit) :
    iprop(cellInv ER (Rd m) κ₁ (dcell c ss) ∗ cellInv ER (Rd m) κ₂ (dcell n rs)
        ∗ (srcM.view.loc (c : Thread nD τ) ↦[srcM.view.set]{q} fs) ∗ (dstM.view.loc (n : Thread nD τ) ↦[dstM.view.set]{fullShare} fd)
        ∗ owes (c : Thread nD τ) (O + tallyAt (dcell n rs) () Nb) W
        ∗ dutyTok ER (dcell c ss) 0 0 ∗ reached ER (dcell c ss) 0
        ∗ dutyTok ER (dcell n rs) 0 0 ∗ reached ER (dcell n rs) 0)
      ⊢ iprop(((cred (tallyAt (dcell c ss) () Nb) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM (.remote (Dev.tc n' : Thread nD τ) dstM (.dma ss) hsc) (.dma rs) hsrc hdst hsem) k) Q) := by
  subst hn
  exact Rounds.wp_send_pointsTo Variants.none ER (Rd m) (c : Thread nD τ) none (κ₁ := κ₁) (κ₂ := κ₂)
    (r₁ := 0) (r₂ := 0) (d₁ := 0) (d₂ := 0) (fd := fd)
    (by rw [duties_dma m c ss hs30]; exact Finset.mem_singleton_self _) (by rw [duties_dma m n' rs (by omega)]; exact Finset.mem_singleton_self _)
    () () Nb hN (amount_dma m c ss 0) (amount_dma m n' rs 0) O rfl (W := W)
    hpay₁
    (by rw [hpay₂, pointsTo_landed_eq_rep, hx])

end Cert.KernelIdeal.Rs

end
-- ==== Proof.BodyLemmas.lean ====
/- Small facts the body's proof uses: the entry handshake's payloads, the device's debts copy by copy, chains of hypotheses. -/
import proofs.«901030_g7700000000001031_dist_rs_v7x_xyz2x2x2_z_m4096_n1024_bf16_1_alg».proof.Proof.BodyCtx
import proofs.«901030_g7700000000001031_dist_rs_v7x_xyz2x2x2_z_m4096_n1024_bf16_1_alg».proof.Proof.Ledger
import proofs.«901030_g7700000000001031_dist_rs_v7x_xyz2x2x2_z_m4096_n1024_bf16_1_alg».proof.Proof.SendRule

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Lean Idealize.SL.ProofMode in
/-- `ichain H as P n`: the hypothesis `H`, a right-nested chain of `n` conjuncts, is opened into `P0 … P(n-1)`. -/
macro "ichain " h:ident " as " p:ident n:num : tactic => do
  let names : Array (TSyntax `icasesPat) ← (Array.range n.getNat).mapM fun i => do
    let x := mkIdent (Name.mkSimple s!"{p.getId}{i}")
    `(icasesPat| $x:ident)
  let alts : Array (TSyntax ``icasesPatAlts) ← names.mapM fun q => `(icasesPatAlts| $q:icasesPat)
  `(tactic| icases $h:ident with ⟨$[$alts],*⟩)

open Lean Idealize.SL.ProofMode in
/-- `ichainE H as P n`: a chain of `n` existentials, each opened: contents `Pfi`, hypothesis `Pi`. -/
macro "ichainE " h:ident " as " p:ident n:num : tactic => do
  let names : Array (TSyntax `icasesPat) ← (Array.range n.getNat).mapM fun i => do
    let x := mkIdent (Name.mkSimple s!"{p.getId}{i}")
    let f := mkIdent (Name.mkSimple s!"{p.getId}f{i}")
    let bf ← `(binderIdent| $f:ident)
    let p1 ← `(icasesPat| % $bf)
    let p2 ← `(icasesPat| $x:ident)
    let a1 ← `(icasesPatAlts| $p1:icasesPat)
    let a2 ← `(icasesPatAlts| $p2:icasesPat)
    `(icasesPat| ⟨$a1, $a2⟩)
  let alts : Array (TSyntax ``icasesPatAlts) ← names.mapM fun q => `(icasesPatAlts| $q:icasesPat)
  `(tactic| icases $h:ident with ⟨$[$alts],*⟩)

/-! ## What a device owes, copy by copy -/

/-- What device `c` owes for copy `i`: a block's credit on the receive cell of the device the copy goes to. -/
def tR (c : Dev nD) (i : Fin 64) : CellTallies nD τ sig Unit := tallyAt (dcell (pr i c) (rN i)) () Nb
theorem O₀_eq (c : Dev nD) : O₀ c = (∑ i ∈ (Finset.univ : Finset (Fin 64)), tR c i) + tallyAt (barCell (yn c)) () 1 + tallyAt (barCell (xn c)) () 1 + tallyAt (barCell (zp c)) () 1 := rfl

/-- The 64 copies in the order the kernel issues them: sixteen and six to the z-partner, then block by block to the x- and
    the y-neighbour, then the five and five forwarded on. -/
def progList : List (Fin 64) := [0, 1, 2, 3, 4, 5, 6, 7, 8, 9, 10, 11, 12, 13, 14, 15, 16, 17, 18, 19, 20, 21, 22, 38, 23, 39, 24, 40, 25, 41, 26, 42, 27, 43, 28, 44, 29, 45, 30, 46, 31, 47, 32, 48, 33, 49, 34, 50, 35, 51, 36, 52, 37, 53, 54, 55, 56, 57, 58, 59, 60, 61, 62, 63]
theorem progList_nodup : progList.Nodup := by decide
theorem progList_univ : progList.toFinset = Finset.univ := by decide
/-- The copies in the order the kernel waits for their ARRIVAL. -/
def recvWaitList : List (Fin 64) := [0, 1, 2, 3, 4, 5, 6, 7, 8, 9, 10, 11, 12, 13, 14, 15, 44, 45, 46, 47, 48, 33, 34, 35, 36, 37, 38, 39, 40, 41, 42, 43, 49, 50, 51, 52, 53, 22, 23, 24, 25, 26, 27, 28, 29, 30, 31, 32, 16, 17, 18, 19, 20, 21, 54, 55, 56, 57, 58, 59, 60, 61, 62, 63]
theorem recvWaitList_nodup : recvWaitList.Nodup := by decide
theorem recvWaitList_univ : Finset.univ = recvWaitList.toFinset := by decide
/-- The copies in the order the kernel waits for their DEPARTURE. -/
def sendWaitList : List (Fin 64) := [0, 22, 38, 1, 23, 39, 2, 24, 40, 3, 25, 41, 4, 26, 42, 5, 27, 43, 6, 28, 44, 7, 29, 45, 8, 30, 46, 9, 31, 47, 10, 32, 48, 11, 33, 49, 12, 34, 50, 13, 35, 51, 14, 36, 52, 15, 37, 53, 16, 17, 18, 19, 20, 21, 54, 55, 56, 57, 58, 59, 60, 61, 62, 63]
theorem sendWaitList_nodup : sendWaitList.Nodup := by decide
theorem sendWaitList_univ : Finset.univ = sendWaitList.toFinset := by decide
theorem progList_univ' : Finset.univ = progList.toFinset := progList_univ.symm

omit [FloatOps F] in
/-- The head of a listed chain. -/
theorem bigSepL_pop {I : Type} (i j : I) (l : List I) (Φ : I → sProp 𝕄) : bigSepL (i :: j :: l) Φ = iprop(Φ i ∗ bigSepL (j :: l) Φ) :=
  bigSepL_cons_cons i j l Φ

/-- What a device owes for the copies in a list. -/
def sumL (c : Dev nD) (l : List (Fin 64)) : CellTallies nD τ sig Unit := (l.map (tR c)).sum
theorem sumL_cons (c : Dev nD) (i : Fin 64) (l : List (Fin 64)) : sumL c (i :: l) = sumL c l + tR c i := by
  unfold sumL; rw [List.map_cons, List.sum_cons, add_comm]
theorem sumL_nil (c : Dev nD) : sumL c [] = 0 := rfl
theorem O₀_eqL (c : Dev nD) : O₀ c = sumL c progList + tallyAt (barCell (yn c)) () 1 + tallyAt (barCell (xn c)) () 1 + tallyAt (barCell (zp c)) () 1 := by
  rw [O₀_eq, ← progList_univ, List.sum_toFinset _ progList_nodup]; rfl
/-- Every copy in the list lies above level `k` when each one's receive cell does. -/
theorem above_lsum (k : ℕ) (c : Dev nD) (l : List (Fin 64))
    (h : ∀ i ∈ l, k < (if (rN i).val < 94 then 0 else if (rN i).val < 116 then 2 else if (rN i).val < 148 then 3 else 4)) :
    Above k (sumL c l) := by
  induction l with
  | nil => exact above_zero k
  | cons i l ih =>
    rw [sumL_cons]
    exact above_add (ih fun j hj => h j (List.mem_cons_of_mem _ hj)) (above_dma k (pr i c) (rN i) Nb (h i (List.mem_cons_self ..)))

/-- Every copy still owed lies above level `k` when each one's receive cell does. -/
theorem above_fsum (k : ℕ) (c : Dev nD) (S : Finset (Fin 64))
    (h : ∀ i ∈ S, k < (if (rN i).val < 94 then 0 else if (rN i).val < 116 then 2 else if (rN i).val < 148 then 3 else 4)) :
    Above k (∑ i ∈ S, tR c i) := by
  intro g u hg
  obtain ⟨i, hi, hpos⟩ := Pipeline.sum_pos_exists hg
  exact above_dma k (pr i c) (rN i) Nb (h i hi) g u hpos

/-! ## The entry handshake's payloads -/

omit [FloatOps F] in
theorem ownZ_landZ (n : Dev nD) (fq : Buf (Elt F) ((n : Thread nD τ).loc cc0_scratch5)) (fr : Buf (Elt F) ((n : Thread nD τ).loc cc0_scratch8)) :
    (ownZ n fq fr : sProp 𝕄) ⊢ landZ n := by
  rw [ownZ_eq, landZ_eq]
  repeat' refine BIClass.sep_mono ?_ ?_
  all_goals (unfold pex; iintro H; iexists _; iexact H)
omit [FloatOps F] in
theorem ownX_landX (n : Dev nD) (fx : Buf (Elt F) ((n : Thread nD τ).loc cc0_scratch6)) (fr : Buf (Elt F) ((n : Thread nD τ).loc cc0_scratch8)) :
    (ownX n fx fr : sProp 𝕄) ⊢ landX n := by
  rw [ownX_eq, landX_eq]
  repeat' refine BIClass.sep_mono ?_ ?_
  all_goals (unfold pex; iintro H; iexists _; iexact H)
omit [FloatOps F] in
theorem ownY_landY (n : Dev nD) (fy : Buf (Elt F) ((n : Thread nD τ).loc cc0_scratch7)) (fr : Buf (Elt F) ((n : Thread nD τ).loc cc0_scratch8)) :
    (ownY n fy fr : sProp 𝕄) ⊢ landY n := by
  rw [ownY_eq, landY_eq]
  repeat' refine BIClass.sep_mono ?_ ?_
  all_goals (unfold pex; iintro H; iexists _; iexact H)

/-- What the barrier wait hands the device: the landing blocks of its three neighbours. -/
theorem rest_bar (c : Dev nD) : bigSep ((Rd m).duties (barCell c) 0 \ ∅) (fun d => (Rd m).payload (barCell c) 0 d)
    = iprop(landZ (zp c) ∗ landX (xn c) ∗ landY (yn c)) := by
  rw [Finset.sdiff_empty, duties_bar, bigSep_fin3]; rfl

omit [FloatOps F] in
theorem bigSep_fin64 (Φ : Fin 64 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide) Φ
omit [FloatOps F] in
theorem bigSep_fin30 (Φ : Fin 30 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ

omit [FloatOps F] in
/-- The device's positions: on its barrier cell, its send cells, its receive cells. -/
theorem positions_eq (c : Dev nD) : (positions c : sProp 𝕄)
    = iprop(atPos ER (barCell c) 0 ∅ 0 ∗ (bigSep Finset.univ fun i : Fin 64 => atPos ER (dcell c (sN i)) 0 ∅ 0)
        ∗ bigSep Finset.univ fun i : Fin 64 => atPos ER (dcell c (rN i)) 0 ∅ 0) := by
  unfold positions
  rw [bigSep_univ_sum, bigSep_univ_sum, show (Finset.univ : Finset Unit) = {()} from rfl, bigSep_singleton]
  rfl

theorem inv_at' (K : Dev nD × CK → ℕ) (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
omit [FloatOps F] in
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m K ⊢ cellInv ER (Rd m) (K ck) (kcell ck) := by
  unfold records; iintro ⟨H, -⟩; iapply (inv_at' m K ck); iexact H
theorem reached_at (K : Dev nD × CK → ℕ) (ck : Dev nD × CK) : records m K ⊢ reached ER (kcell ck) 0 := by
  unfold records; iintro ⟨-, H⟩; iapply (reached_at' (F := F) ck); iexact H

/-- Copy `i`, the next in the list of copies still owed: the rule of SendRule.lean with the debt popped off the list. -/
theorem wp_send_i (c n' : Dev nD) (i : Fin 64) (l : List (Fin 64)) (hn : n' = pr i c) {srcM dstM : Memref sig .tc .vmem S64x1024 .bf16}
    (q : PosShare TreeShare) (fs : Buf (Elt F) (srcM.view.loc (c : Thread nD τ))) (fd : Buf (Elt F) (dstM.view.loc ((pr i c) : Thread nD τ)))
    (x : S64x1024.Idx → Elt F .bf16) (hx : srcM.view.read (Elt F) fs = x)
    (hpay₁ : (srcM.view.loc (c : Thread nD τ) ↦[srcM.view.set]{q} fs : sProp 𝕄) ⊢ (Rd m).payload (dcell c (sN i)) 0 0)
    (hpay₂ : (Rd m).payload (dcell (pr i c) (rN i)) 0 0 = (dstM.view.loc ((pr i c) : Thread nD τ) ↦[dstM.view.set]{fullShare} dstM.view.rep x : sProp 𝕄))
    (hN : dstM.view.amount (SemLoc.dma (rN i)) = Nb)
    {hsc : (dstM : Memref sig (Dev.tc n' : Thread nD τ).2.kind .vmem S64x1024 .bf16).view.ref.isScScratch = false}
    {hsrc : srcM.view.WordExact} {hdst : dstM.view.WordExact}
    {hsem : DmaTarget.Typed .vmem (.dma (rN i)) (.remote (Dev.tc n' : Thread nD τ) dstM (.dma (sN i)) hsc)}
    {α : Type} {Q : α → sProp 𝕄} {k : PUnit → Prog (TpuEff nD τ sig (Elt F) Λ₀ .tc) α}
    (κ₁ κ₂ : ℕ) (W : Waits sig Unit) :
    iprop(cellInv ER (Rd m) κ₁ (dcell c (sN i)) ∗ cellInv ER (Rd m) κ₂ (dcell (pr i c) (rN i))
        ∗ (srcM.view.loc (c : Thread nD τ) ↦[srcM.view.set]{q} fs) ∗ (dstM.view.loc ((pr i c) : Thread nD τ) ↦[dstM.view.set]{fullShare} fd)
        ∗ owes (c : Thread nD τ) (sumL c (i :: l)) W
        ∗ dutyTok ER (dcell c (sN i)) 0 0 ∗ reached ER (dcell c (sN i)) 0
        ∗ dutyTok ER (dcell (pr i c) (rN i)) 0 0 ∗ reached ER (dcell (pr i c) (rN i)) 0)
      ⊢ iprop(((cred (tallyAt (dcell c (sN i)) () Nb) ∗ owes (c : Thread nD τ) (sumL c l) W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM (.remote (Dev.tc n' : Thread nD τ) dstM (.dma (sN i)) hsc) (.dma (rN i)) hsrc hdst hsem) k) Q) := by
  rw [sumL_cons]
  exact wp_send_blk m c (pr i c) n' hn (sN i) (rN i) (by show 30 ≤ 30 + i.val; omega) (by show 30 + i.val < 94; omega) (by show 94 ≤ 94 + i.val; omega)
    q fs fd x hx hpay₁ hpay₂ hN κ₁ κ₂ (sumL c l) W

end Cert.KernelIdeal.Rs

end
-- ==== Proof.PayTab.lean ====
/- The schedule's payload table, family by family: what each send cell hands back and what each receive cell hands its
   owner, one statement per copy of the kernel; and the receive cells once more as the sender sees them, on its
   neighbour, with the neighbour's neighbour resolved to the sender itself. -/
import proofs.«901030_g7700000000001031_dist_rs_v7x_xyz2x2x2_z_m4096_n1024_bf16_1_alg».proof.Proof.BodySpec

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The table at copy number k -/

/-- The send cell of copy k hands back entry k of the send table. -/
theorem send_at (c : Dev nD) (k : ℕ) (hk : k < 64) : (Rd m).payload (dcell c (sN ⟨k, hk⟩)) 0 0 = sendPay c k := by
  rw [payload_send m c (sN ⟨k, hk⟩) (by show 30 + k < 94; omega)]
  exact congrArg (sendPay c) (by show 30 + k - 30 = k; omega)

/-- The receive cell of copy k hands its owner entry k of the receive table. -/
theorem recv_at (n : Dev nD) (k : ℕ) (hk : k < 64) : (Rd m).payload (dcell n (rN ⟨k, hk⟩)) 0 0 = recvPay m n k := by
  rw [payload_recv m n (rN ⟨k, hk⟩) (by show 94 ≤ 94 + k; omega)]
  exact congrArg (recvPay m n) (by show 94 + k - 94 = k; omega)

/-- Every send and receive cell has the one duty 0 in its round, of a block's credit. -/
theorem duties_sN (c : Dev nD) (i : Fin 64) : (Rd m).duties (dcell c (sN i)) 0 = {0} := duties_dma m c (sN i) (by show 30 ≤ 30 + i.val; omega)
theorem duties_rN (c : Dev nD) (i : Fin 64) : (Rd m).duties (dcell c (rN i)) 0 = {0} := duties_dma m c (rN i) (by show 30 ≤ 94 + i.val; omega)
theorem expect_sN (c : Dev nD) (i : Fin 64) : (Rd m).expect (dcell c (sN i)) 0 = Nb := expect_dma m c (sN i) (by show 30 ≤ 30 + i.val; omega)
theorem expect_rN (c : Dev nD) (i : Fin 64) : (Rd m).expect (dcell c (rN i)) 0 = Nb := expect_dma m c (rN i) (by show 30 ≤ 94 + i.val; omega)

/-! ## The send cells of device c: the source block comes back at the share it was lent -/

/-- Copies 0–15, to the z-partner: block s of the own quarter's staging buffer. -/
theorem pay_sZa (c : Dev nD) (s : Fin 16) : (Rd m).payload (dcell c (sN ⟨s.val, by omega⟩)) 0 0 = pex c fullShare (bA s) := by
  have hs := s.isLt
  rw [send_at]; unfold sendPay
  rw [dif_pos (by omega)]
/-- Copies 16–21, to the z-partner: block j of the diagonal quarter's staging buffer. -/
theorem pay_sZd (c : Dev nD) (j : Fin 6) : (Rd m).payload (dcell c (sN ⟨16 + j.val, by omega⟩)) 0 0 = pex c fullShare (bD j) := by
  have hj := j.isLt
  rw [send_at]; unfold sendPay
  rw [dif_neg (by omega), dif_pos (by omega)]
  simp only [Nat.add_sub_cancel_left, Fin.eta]
/-- Copies 22–37, to the x-neighbour: block s of what the z-partner sent, lent at the x share. -/
theorem pay_sFx (c : Dev nD) (s : Fin 16) : (Rd m).payload (dcell c (sN ⟨22 + s.val, by omega⟩)) 0 0 = pex c shX (bQ s) := by
  have hs := s.isLt
  rw [send_at]; unfold sendPay
  rw [dif_neg (by omega), dif_neg (by omega), dif_pos (by omega)]
  simp only [Nat.add_sub_cancel_left, Fin.eta]
/-- Copies 38–53, to the y-neighbour: the same block, lent at the y share. -/
theorem pay_sFy (c : Dev nD) (s : Fin 16) : (Rd m).payload (dcell c (sN ⟨38 + s.val, by omega⟩)) 0 0 = pex c shY (bQ s) := by
  have hs := s.isLt
  rw [send_at]; unfold sendPay
  rw [dif_neg (by omega), dif_neg (by omega), dif_neg (by omega), dif_pos (by omega)]
  simp only [Nat.add_sub_cancel_left, Fin.eta]
/-- Copies 54–58, to the x-neighbour: blocks 6–10 of what the y-neighbour sent. -/
theorem pay_sDx (c : Dev nD) (t : Fin 5) : (Rd m).payload (dcell c (sN ⟨54 + t.val, by omega⟩)) 0 0 = pex c shX (bY ⟨t.val + 6, by omega⟩) := by
  have ht := t.isLt
  rw [send_at]; unfold sendPay
  rw [dif_neg (by omega), dif_neg (by omega), dif_neg (by omega), dif_neg (by omega), dif_pos (by omega)]
  simp only [Nat.add_sub_cancel_left]
/-- Copies 59–63, to the y-neighbour: blocks 11–15 of what the x-neighbour sent. -/
theorem pay_sDy (c : Dev nD) (t : Fin 5) : (Rd m).payload (dcell c (sN ⟨59 + t.val, by omega⟩)) 0 0 = pex c shY (bX ⟨t.val + 11, by omega⟩) := by
  have ht := t.isLt
  rw [send_at]; unfold sendPay
  rw [dif_neg (by omega), dif_neg (by omega), dif_neg (by omega), dif_neg (by omega), dif_neg (by omega), dif_pos (by omega)]
  simp only [Nat.add_sub_cancel_left]

/-! ## The receive cells as their owner n sees them: the landing block, holding what was sent -/

/-- Copies 0–15, from the z-partner: block s of the z-partner's own quarter. -/
theorem pay_rZa (n : Dev nD) (s : Fin 16) : (Rd m).payload (dcell n (rN ⟨s.val, by omega⟩)) 0 0 = ptr n (bQ s) (aV m (zp n) s) := by
  have hs := s.isLt
  rw [recv_at]; unfold recvPay
  rw [dif_pos (by omega)]
  rfl
/-- Copies 16–21, from the z-partner: block j of the z-partner's diagonal quarter. -/
theorem pay_rZd (n : Dev nD) (j : Fin 6) : (Rd m).payload (dcell n (rN ⟨16 + j.val, by omega⟩)) 0 0 = ptr n (bR ⟨j.val, by omega⟩) (dV m (zp n) j) := by
  have hj := j.isLt
  rw [recv_at]; unfold recvPay
  rw [dif_neg (by omega), dif_pos (by omega)]
  simp only [Nat.add_sub_cancel_left, Fin.eta]
/-- Copies 22–37, from the x-neighbour: what the x-neighbour received from its z-partner. -/
theorem pay_rFx (n : Dev nD) (s : Fin 16) : (Rd m).payload (dcell n (rN ⟨22 + s.val, by omega⟩)) 0 0 = ptr n (bX s) (aV m (zp (xn n)) s) := by
  have hs := s.isLt
  rw [recv_at]; unfold recvPay
  rw [dif_neg (by omega), dif_neg (by omega), dif_pos (by omega)]
  simp only [Nat.add_sub_cancel_left, Fin.eta]
  rfl
/-- Copies 38–53, from the y-neighbour: what the y-neighbour received from its z-partner. -/
theorem pay_rFy (n : Dev nD) (s : Fin 16) : (Rd m).payload (dcell n (rN ⟨38 + s.val, by omega⟩)) 0 0 = ptr n (bY s) (aV m (zp (yn n)) s) := by
  have hs := s.isLt
  rw [recv_at]; unfold recvPay
  rw [dif_neg (by omega), dif_neg (by omega), dif_neg (by omega), dif_pos (by omega)]
  simp only [Nat.add_sub_cancel_left, Fin.eta]
  rfl
/-- Copies 54–58, from the x-neighbour: blocks 6–10 of what its y-neighbour had received. -/
theorem pay_rDx (n : Dev nD) (t : Fin 5) : (Rd m).payload (dcell n (rN ⟨54 + t.val, by omega⟩)) 0 0
    = ptr n (bR ⟨t.val + 6, by omega⟩) (aV m (zp (yn (xn n))) ⟨t.val + 6, by omega⟩) := by
  have ht := t.isLt
  rw [recv_at]; unfold recvPay
  rw [dif_neg (by omega), dif_neg (by omega), dif_neg (by omega), dif_neg (by omega), dif_pos (by omega)]
  simp only [Nat.add_sub_cancel_left]
  rfl
/-- Copies 59–63, from the y-neighbour: blocks 11–15 of what its x-neighbour had received. -/
theorem pay_rDy (n : Dev nD) (t : Fin 5) : (Rd m).payload (dcell n (rN ⟨59 + t.val, by omega⟩)) 0 0
    = ptr n (bR ⟨t.val + 11, by omega⟩) (aV m (zp (xn (yn n))) ⟨t.val + 11, by omega⟩) := by
  have ht := t.isLt
  rw [recv_at]; unfold recvPay
  rw [dif_neg (by omega), dif_neg (by omega), dif_neg (by omega), dif_neg (by omega), dif_neg (by omega), dif_pos (by omega)]
  simp only [Nat.add_sub_cancel_left]
  rfl

/-! ## The same receive cells as the sender c sees them: on its neighbour, holding what c sends -/

theorem pay_rZa' (c : Dev nD) (s : Fin 16) : (Rd m).payload (dcell (zp c) (rN ⟨s.val, by omega⟩)) 0 0
    = ((bQ s).view.loc ((zp c : Dev nD) : Thread nD τ) ↦[(bQ s).view.set]{fullShare} (bQ s).view.rep (aV m c s)) := by
  rw [pay_rZa, ptr_def, zp_zp]
theorem pay_rZd' (c : Dev nD) (j : Fin 6) : (Rd m).payload (dcell (zp c) (rN ⟨16 + j.val, by omega⟩)) 0 0
    = ((bR ⟨j.val, by omega⟩).view.loc ((zp c : Dev nD) : Thread nD τ) ↦[(bR ⟨j.val, by omega⟩).view.set]{fullShare} (bR ⟨j.val, by omega⟩).view.rep (dV m c j)) := by
  rw [pay_rZd, ptr_def, zp_zp]
theorem pay_rFx' (c : Dev nD) (s : Fin 16) : (Rd m).payload (dcell (xn c) (rN ⟨22 + s.val, by omega⟩)) 0 0
    = ((bX s).view.loc ((xn c : Dev nD) : Thread nD τ) ↦[(bX s).view.set]{fullShare} (bX s).view.rep (aV m (zp c) s)) := by
  rw [pay_rFx, ptr_def, xn_xn]
theorem pay_rFy' (c : Dev nD) (s : Fin 16) : (Rd m).payload (dcell (yn c) (rN ⟨38 + s.val, by omega⟩)) 0 0
    = ((bY s).view.loc ((yn c : Dev nD) : Thread nD τ) ↦[(bY s).view.set]{fullShare} (bY s).view.rep (aV m (zp c) s)) := by
  rw [pay_rFy, ptr_def, yn_yn]
theorem pay_rDx' (c : Dev nD) (t : Fin 5) : (Rd m).payload (dcell (xn c) (rN ⟨54 + t.val, by omega⟩)) 0 0
    = ((bR ⟨t.val + 6, by omega⟩).view.loc ((xn c : Dev nD) : Thread nD τ) ↦[(bR ⟨t.val + 6, by omega⟩).view.set]{fullShare}
        (bR ⟨t.val + 6, by omega⟩).view.rep (aV m (zp (yn c)) ⟨t.val + 6, by omega⟩)) := by
  rw [pay_rDx, ptr_def, xn_xn]
theorem pay_rDy' (c : Dev nD) (t : Fin 5) : (Rd m).payload (dcell (yn c) (rN ⟨59 + t.val, by omega⟩)) 0 0
    = ((bR ⟨t.val + 11, by omega⟩).view.loc ((yn c : Dev nD) : Thread nD τ) ↦[(bR ⟨t.val + 11, by omega⟩).view.set]{fullShare}
        (bR ⟨t.val + 11, by omega⟩).view.rep (aV m (zp (xn c)) ⟨t.val + 11, by omega⟩)) := by
  rw [pay_rDy, ptr_def, yn_yn]

/-! ## Paying a send cell's duty -/

/-- A block held at some contents at the share the table names is the payload of the cell whose entry it is. -/
theorem pay_of_pex (c : Dev nD) (q : PosShare TreeShare) (M : Memref sig .tc .vmem S64x1024 .bf16) (g : GSem nD τ sig)
    (h : (Rd m).payload g 0 0 = pex c q M) (fs : Buf (Elt F) (M.view.loc (c : Thread nD τ))) :
    (M.view.loc (c : Thread nD τ) ↦[M.view.set]{q} fs : sProp 𝕄) ⊢ (Rd m).payload g 0 0 := by
  rw [h, pex_def]
  iintro H
  iexists fs
  iexact H

/-! ## The forwarded copies and the diagonal quarter's, at literal blocks -/

theorem pay_sDx_6 (c : Dev nD) : (Rd m).payload (dcell c (sN 54)) 0 0 = pex c shX (bY 6) := pay_sDx m c 0
theorem pay_sDx_7 (c : Dev nD) : (Rd m).payload (dcell c (sN 55)) 0 0 = pex c shX (bY 7) := pay_sDx m c 1
theorem pay_sDx_8 (c : Dev nD) : (Rd m).payload (dcell c (sN 56)) 0 0 = pex c shX (bY 8) := pay_sDx m c 2
theorem pay_sDx_9 (c : Dev nD) : (Rd m).payload (dcell c (sN 57)) 0 0 = pex c shX (bY 9) := pay_sDx m c 3
theorem pay_sDx_10 (c : Dev nD) : (Rd m).payload (dcell c (sN 58)) 0 0 = pex c shX (bY 10) := pay_sDx m c 4
theorem pay_sDy_11 (c : Dev nD) : (Rd m).payload (dcell c (sN 59)) 0 0 = pex c shY (bX 11) := pay_sDy m c 0
theorem pay_sDy_12 (c : Dev nD) : (Rd m).payload (dcell c (sN 60)) 0 0 = pex c shY (bX 12) := pay_sDy m c 1
theorem pay_sDy_13 (c : Dev nD) : (Rd m).payload (dcell c (sN 61)) 0 0 = pex c shY (bX 13) := pay_sDy m c 2
theorem pay_sDy_14 (c : Dev nD) : (Rd m).payload (dcell c (sN 62)) 0 0 = pex c shY (bX 14) := pay_sDy m c 3
theorem pay_sDy_15 (c : Dev nD) : (Rd m).payload (dcell c (sN 63)) 0 0 = pex c shY (bX 15) := pay_sDy m c 4
theorem pay_rDx_6 (n : Dev nD) : (Rd m).payload (dcell n (rN 54)) 0 0 = ptr n (bR 6) (aV m (zp (yn (xn n))) 6) := pay_rDx m n 0
theorem pay_rDx_7 (n : Dev nD) : (Rd m).payload (dcell n (rN 55)) 0 0 = ptr n (bR 7) (aV m (zp (yn (xn n))) 7) := pay_rDx m n 1
theorem pay_rDx_8 (n : Dev nD) : (Rd m).payload (dcell n (rN 56)) 0 0 = ptr n (bR 8) (aV m (zp (yn (xn n))) 8) := pay_rDx m n 2
theorem pay_rDx_9 (n : Dev nD) : (Rd m).payload (dcell n (rN 57)) 0 0 = ptr n (bR 9) (aV m (zp (yn (xn n))) 9) := pay_rDx m n 3
theorem pay_rDx_10 (n : Dev nD) : (Rd m).payload (dcell n (rN 58)) 0 0 = ptr n (bR 10) (aV m (zp (yn (xn n))) 10) := pay_rDx m n 4
theorem pay_rDy_11 (n : Dev nD) : (Rd m).payload (dcell n (rN 59)) 0 0 = ptr n (bR 11) (aV m (zp (xn (yn n))) 11) := pay_rDy m n 0
theorem pay_rDy_12 (n : Dev nD) : (Rd m).payload (dcell n (rN 60)) 0 0 = ptr n (bR 12) (aV m (zp (xn (yn n))) 12) := pay_rDy m n 1
theorem pay_rDy_13 (n : Dev nD) : (Rd m).payload (dcell n (rN 61)) 0 0 = ptr n (bR 13) (aV m (zp (xn (yn n))) 13) := pay_rDy m n 2
theorem pay_rDy_14 (n : Dev nD) : (Rd m).payload (dcell n (rN 62)) 0 0 = ptr n (bR 14) (aV m (zp (xn (yn n))) 14) := pay_rDy m n 3
theorem pay_rDy_15 (n : Dev nD) : (Rd m).payload (dcell n (rN 63)) 0 0 = ptr n (bR 15) (aV m (zp (xn (yn n))) 15) := pay_rDy m n 4
theorem pay_rDx'_6 (c : Dev nD) : (Rd m).payload (dcell (xn c) (rN 54)) 0 0
    = ((bR 6).view.loc ((xn c : Dev nD) : Thread nD τ) ↦[(bR 6).view.set]{fullShare} (bR 6).view.rep (aV m (zp (yn c)) 6)) := pay_rDx' m c 0
theorem pay_rDx'_7 (c : Dev nD) : (Rd m).payload (dcell (xn c) (rN 55)) 0 0
    = ((bR 7).view.loc ((xn c : Dev nD) : Thread nD τ) ↦[(bR 7).view.set]{fullShare} (bR 7).view.rep (aV m (zp (yn c)) 7)) := pay_rDx' m c 1
theorem pay_rDx'_8 (c : Dev nD) : (Rd m).payload (dcell (xn c) (rN 56)) 0 0
    = ((bR 8).view.loc ((xn c : Dev nD) : Thread nD τ) ↦[(bR 8).view.set]{fullShare} (bR 8).view.rep (aV m (zp (yn c)) 8)) := pay_rDx' m c 2
theorem pay_rDx'_9 (c : Dev nD) : (Rd m).payload (dcell (xn c) (rN 57)) 0 0
    = ((bR 9).view.loc ((xn c : Dev nD) : Thread nD τ) ↦[(bR 9).view.set]{fullShare} (bR 9).view.rep (aV m (zp (yn c)) 9)) := pay_rDx' m c 3
theorem pay_rDx'_10 (c : Dev nD) : (Rd m).payload (dcell (xn c) (rN 58)) 0 0
    = ((bR 10).view.loc ((xn c : Dev nD) : Thread nD τ) ↦[(bR 10).view.set]{fullShare} (bR 10).view.rep (aV m (zp (yn c)) 10)) := pay_rDx' m c 4
theorem pay_rDy'_11 (c : Dev nD) : (Rd m).payload (dcell (yn c) (rN 59)) 0 0
    = ((bR 11).view.loc ((yn c : Dev nD) : Thread nD τ) ↦[(bR 11).view.set]{fullShare} (bR 11).view.rep (aV m (zp (xn c)) 11)) := pay_rDy' m c 0
theorem pay_rDy'_12 (c : Dev nD) : (Rd m).payload (dcell (yn c) (rN 60)) 0 0
    = ((bR 12).view.loc ((yn c : Dev nD) : Thread nD τ) ↦[(bR 12).view.set]{fullShare} (bR 12).view.rep (aV m (zp (xn c)) 12)) := pay_rDy' m c 1
theorem pay_rDy'_13 (c : Dev nD) : (Rd m).payload (dcell (yn c) (rN 61)) 0 0
    = ((bR 13).view.loc ((yn c : Dev nD) : Thread nD τ) ↦[(bR 13).view.set]{fullShare} (bR 13).view.rep (aV m (zp (xn c)) 13)) := pay_rDy' m c 2
theorem pay_rDy'_14 (c : Dev nD) : (Rd m).payload (dcell (yn c) (rN 62)) 0 0
    = ((bR 14).view.loc ((yn c : Dev nD) : Thread nD τ) ↦[(bR 14).view.set]{fullShare} (bR 14).view.rep (aV m (zp (xn c)) 14)) := pay_rDy' m c 3
theorem pay_rDy'_15 (c : Dev nD) : (Rd m).payload (dcell (yn c) (rN 63)) 0 0
    = ((bR 15).view.loc ((yn c : Dev nD) : Thread nD τ) ↦[(bR 15).view.set]{fullShare} (bR 15).view.rep (aV m (zp (xn c)) 15)) := pay_rDy' m c 4
theorem pay_rZd_0 (n : Dev nD) : (Rd m).payload (dcell n (rN 16)) 0 0 = ptr n (bR 0) (dV m (zp n) 0) := pay_rZd m n 0
theorem pay_rZd_1 (n : Dev nD) : (Rd m).payload (dcell n (rN 17)) 0 0 = ptr n (bR 1) (dV m (zp n) 1) := pay_rZd m n 1
theorem pay_rZd_2 (n : Dev nD) : (Rd m).payload (dcell n (rN 18)) 0 0 = ptr n (bR 2) (dV m (zp n) 2) := pay_rZd m n 2
theorem pay_rZd_3 (n : Dev nD) : (Rd m).payload (dcell n (rN 19)) 0 0 = ptr n (bR 3) (dV m (zp n) 3) := pay_rZd m n 3
theorem pay_rZd_4 (n : Dev nD) : (Rd m).payload (dcell n (rN 20)) 0 0 = ptr n (bR 4) (dV m (zp n) 4) := pay_rZd m n 4
theorem pay_rZd_5 (n : Dev nD) : (Rd m).payload (dcell n (rN 21)) 0 0 = ptr n (bR 5) (dV m (zp n) 5) := pay_rZd m n 5
theorem pay_rZd'_0 (c : Dev nD) : (Rd m).payload (dcell (zp c) (rN 16)) 0 0
    = ((bR 0).view.loc ((zp c : Dev nD) : Thread nD τ) ↦[(bR 0).view.set]{fullShare} (bR 0).view.rep (dV m c 0)) := pay_rZd' m c 0
theorem pay_rZd'_1 (c : Dev nD) : (Rd m).payload (dcell (zp c) (rN 17)) 0 0
    = ((bR 1).view.loc ((zp c : Dev nD) : Thread nD τ) ↦[(bR 1).view.set]{fullShare} (bR 1).view.rep (dV m c 1)) := pay_rZd' m c 1
theorem pay_rZd'_2 (c : Dev nD) : (Rd m).payload (dcell (zp c) (rN 18)) 0 0
    = ((bR 2).view.loc ((zp c : Dev nD) : Thread nD τ) ↦[(bR 2).view.set]{fullShare} (bR 2).view.rep (dV m c 2)) := pay_rZd' m c 2
theorem pay_rZd'_3 (c : Dev nD) : (Rd m).payload (dcell (zp c) (rN 19)) 0 0
    = ((bR 3).view.loc ((zp c : Dev nD) : Thread nD τ) ↦[(bR 3).view.set]{fullShare} (bR 3).view.rep (dV m c 3)) := pay_rZd' m c 3
theorem pay_rZd'_4 (c : Dev nD) : (Rd m).payload (dcell (zp c) (rN 20)) 0 0
    = ((bR 4).view.loc ((zp c : Dev nD) : Thread nD τ) ↦[(bR 4).view.set]{fullShare} (bR 4).view.rep (dV m c 4)) := pay_rZd' m c 4
theorem pay_rZd'_5 (c : Dev nD) : (Rd m).payload (dcell (zp c) (rN 21)) 0 0
    = ((bR 5).view.loc ((zp c : Dev nD) : Thread nD τ) ↦[(bR 5).view.set]{fullShare} (bR 5).view.rep (dV m c 5)) := pay_rZd' m c 5

/-! ## Each family at a literal index -/

example (c : Dev nD) : (Rd m).payload (dcell c (sN 3)) 0 0 = pex c fullShare (bA 3) := pay_sZa m c 3
example (c : Dev nD) : (Rd m).payload (dcell c (sN 18)) 0 0 = pex c fullShare (bD 2) := pay_sZd m c 2
example (c : Dev nD) : (Rd m).payload (dcell c (sN 29)) 0 0 = pex c shX (bQ 7) := pay_sFx m c 7
example (c : Dev nD) : (Rd m).payload (dcell c (sN 53)) 0 0 = pex c shY (bQ 15) := pay_sFy m c 15
example (c : Dev nD) : (Rd m).payload (dcell c (sN 56)) 0 0 = pex c shX (bY 8) := pay_sDx m c 2
example (c : Dev nD) : (Rd m).payload (dcell c (sN 63)) 0 0 = pex c shY (bX 15) := pay_sDy m c 4
example (n : Dev nD) : (Rd m).payload (dcell n (rN 3)) 0 0 = ptr n (bQ 3) (aV m (zp n) 3) := pay_rZa m n 3
example (n : Dev nD) : (Rd m).payload (dcell n (rN 18)) 0 0 = ptr n (bR 2) (dV m (zp n) 2) := pay_rZd m n 2
example (n : Dev nD) : (Rd m).payload (dcell n (rN 29)) 0 0 = ptr n (bX 7) (aV m (zp (xn n)) 7) := pay_rFx m n 7
example (n : Dev nD) : (Rd m).payload (dcell n (rN 53)) 0 0 = ptr n (bY 15) (aV m (zp (yn n)) 15) := pay_rFy m n 15
example (n : Dev nD) : (Rd m).payload (dcell n (rN 56)) 0 0 = ptr n (bR 8) (aV m (zp (yn (xn n))) 8) := pay_rDx m n 2
example (n : Dev nD) : (Rd m).payload (dcell n (rN 63)) 0 0 = ptr n (bR 15) (aV m (zp (xn (yn n))) 15) := pay_rDy m n 4
example (c : Dev nD) : (Rd m).payload (dcell (xn c) (rN 56)) 0 0
    = ((bR 8).view.loc ((xn c : Dev nD) : Thread nD τ) ↦[(bR 8).view.set]{fullShare} (bR 8).view.rep (aV m (zp (yn c)) 8)) := pay_rDx' m c 2

end Cert.KernelIdeal.Rs

end
-- ==== Proof.StepVal.lean ====
/- The values the body's sends carry, step by step: the block stored into a staging buffer, read back through the
   block's own name, is the f32 block it was computed from, narrowed; a block held canonically reads as itself. -/
import proofs.«901030_g7700000000001031_dist_rs_v7x_xyz2x2x2_z_m4096_n1024_bf16_1_alg».proof.Proof.PayTab
import proofs.«901030_g7700000000001031_dist_rs_v7x_xyz2x2x2_z_m4096_n1024_bf16_1_alg».proof.Proof.ValLemmas

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The narrowing of a block: one function under twenty-two names -/

theorem k0_pay1_eq1 : @k0_pay1 F _ = @k0_pay1 F _ := rfl
theorem k0_pay2_eq1 : @k0_pay2 F _ = @k0_pay1 F _ := rfl
theorem k0_pay3_eq1 : @k0_pay3 F _ = @k0_pay1 F _ := rfl
theorem k0_pay4_eq1 : @k0_pay4 F _ = @k0_pay1 F _ := rfl
theorem k0_pay5_eq1 : @k0_pay5 F _ = @k0_pay1 F _ := rfl
theorem k0_pay6_eq1 : @k0_pay6 F _ = @k0_pay1 F _ := rfl
theorem k0_pay7_eq1 : @k0_pay7 F _ = @k0_pay1 F _ := rfl
theorem k0_pay8_eq1 : @k0_pay8 F _ = @k0_pay1 F _ := rfl
theorem k0_pay9_eq1 : @k0_pay9 F _ = @k0_pay1 F _ := rfl
theorem k0_pay10_eq1 : @k0_pay10 F _ = @k0_pay1 F _ := rfl
theorem k0_pay11_eq1 : @k0_pay11 F _ = @k0_pay1 F _ := rfl
theorem k0_pay12_eq1 : @k0_pay12 F _ = @k0_pay1 F _ := rfl
theorem k0_pay13_eq1 : @k0_pay13 F _ = @k0_pay1 F _ := rfl
theorem k0_pay14_eq1 : @k0_pay14 F _ = @k0_pay1 F _ := rfl
theorem k0_pay15_eq1 : @k0_pay15 F _ = @k0_pay1 F _ := rfl
theorem k0_pay16_eq1 : @k0_pay16 F _ = @k0_pay1 F _ := rfl
theorem k0_pay17_eq1 : @k0_pay17 F _ = @k0_pay1 F _ := rfl
theorem k0_pay18_eq1 : @k0_pay18 F _ = @k0_pay1 F _ := rfl
theorem k0_pay19_eq1 : @k0_pay19 F _ = @k0_pay1 F _ := rfl
theorem k0_pay20_eq1 : @k0_pay20 F _ = @k0_pay1 F _ := rfl
theorem k0_pay21_eq1 : @k0_pay21 F _ = @k0_pay1 F _ := rfl
theorem k0_pay22_eq1 : @k0_pay22 F _ = @k0_pay1 F _ := rfl

/-! ## A staged block, read back -/

/-- Block s of the own quarter's staging buffer after the store: the f32 block the local copy landed, narrowed. -/
theorem za_val (c : Dev nD) (s : Fin 16) (fA : Buf (Elt F) ((c : Thread nD τ).loc cc0_scratch3))
    (P : (S64x1024.Idx → Elt F .f32) → (S64x1024.Idx → Elt F .bf16)) (hP : P = k0_pay1)
    (inb : ∀ a, (![64 * s.val, 0] : Fin 2 → Nat) a + S64x1024.size a ≤ S1024x1024.size a)
    (inb' : ∀ a, (![64 * s.val, 0] : Fin 2 → Nat) a + S64x1024.size a ≤ S1024x1024.size a) :
    (bA s).view.read (Elt F)
      (View.write (Elt F) ((Memref.whole cc0_scratch3).access (Rect.unit (s := S1024x1024) ![64 * s.val, 0] S64x1024.size inb)) fA
        (P (View.readAt (Elt F) (Memref.whole cc0_scratch0).view (Rect.unit (s := S1024x1024) ![64 * s.val, 0] S64x1024.size inb').toLoadRect
          ((xqM s).view.writes (Elt F) (xqM s).view.junk [⟨Rect.whole S64x1024, qV m c s⟩]))) Finset.univ)
      = aV m c s := by
  subst hP
  refine (read_block_write_whole cc0_scratch3 _ _ inb fA _).trans ?_
  exact congrArg k0_pay1 (readAt_writes_block_whole cc0_scratch0 _ _ inb' (qV m c s))

/-- Block j of the diagonal quarter's staging buffer after the store, likewise. -/
theorem zd_val (c : Dev nD) (j : Fin 6) (fD : Buf (Elt F) ((c : Thread nD τ).loc cc0_scratch4))
    (P : (S64x1024.Idx → Elt F .f32) → (S64x1024.Idx → Elt F .bf16)) (hP : P = k0_pay1)
    (inb : ∀ a, (![64 * j.val, 0] : Fin 2 → Nat) a + S64x1024.size a ≤ S384x1024.size a)
    (inb' : ∀ a, (![64 * j.val, 0] : Fin 2 → Nat) a + S64x1024.size a ≤ S384x1024.size a) :
    (bD j).view.read (Elt F)
      (View.write (Elt F) ((Memref.whole cc0_scratch4).access (Rect.unit (s := S384x1024) ![64 * j.val, 0] S64x1024.size inb)) fD
        (P (View.readAt (Elt F) (Memref.whole cc0_scratch1).view (Rect.unit (s := S384x1024) ![64 * j.val, 0] S64x1024.size inb').toLoadRect
          ((xdM j).view.writes (Elt F) (xdM j).view.junk [⟨Rect.whole S64x1024, dqV m c j⟩]))) Finset.univ)
      = dV m c j := by
  subst hP
  refine (read_block_write_whole cc0_scratch4 _ _ inb fD _).trans ?_
  exact congrArg k0_pay1 (readAt_writes_block_whole cc0_scratch1 _ _ inb' (dqV m c j))

/-! ## A block held canonically reads as itself -/

theorem rep_read (M : Memref sig .tc .vmem S64x1024 .bf16) (x : S64x1024.Idx → Elt F .bf16) :
    M.view.read (Elt F) (M.view.rep x) = x := View.read_rep M.view x

/-- The same with the canonical contents spelt as the one whole piece over arbitrary contents. -/
theorem writes_read (M : Memref sig .tc .vmem S64x1024 .bf16) (x : S64x1024.Idx → Elt F .bf16) :
    M.view.read (Elt F) (M.view.writes (Elt F) M.view.junk [⟨Rect.whole S64x1024, x⟩]) = x := View.read_rep M.view x

/-! ## At a literal block -/

example (c : Dev nD) (fA : Buf (Elt F) ((c : Thread nD τ).loc cc0_scratch3)) :
    (bA 3).view.read (Elt F)
      (View.write (Elt F) ((Memref.whole cc0_scratch3).access (Rect.unit (s := S1024x1024) ![192, 0] S64x1024.size inb_S1024x1024_S64x1024_192_0)) fA
        (k0_pay4 (View.readAt (Elt F) (Memref.whole cc0_scratch0).view (Rect.unit (s := S1024x1024) ![192, 0] S64x1024.size inb_S1024x1024_S64x1024_192_0).toLoadRect
          ((xqM 3).view.writes (Elt F) (xqM 3).view.junk [⟨Rect.whole S64x1024, qV m c 3⟩]))) Finset.univ)
      = aV m c 3 := za_val m c 3 fA k0_pay4 k0_pay4_eq1 _ _

end Cert.KernelIdeal.Rs

end
-- ==== Proof.BodyMacros.lean ====
/- The steps of the kernel body's proof that are applied by hand, each once, as tactics over the copy's index: a remote
   copy, the wait for an arrival, the wait for a departure, a block put in shares. -/
import proofs.«901030_g7700000000001031_dist_rs_v7x_xyz2x2x2_z_m4096_n1024_bf16_1_alg».proof.Proof.BodyLemmas
import proofs.«901030_g7700000000001031_dist_rs_v7x_xyz2x2x2_z_m4096_n1024_bf16_1_alg».proof.Proof.PayTab
import proofs.«901030_g7700000000001031_dist_rs_v7x_xyz2x2x2_z_m4096_n1024_bf16_1_alg».proof.Proof.StepVal

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option hygiene false in
/-- `ipop H as X`: the head of the listed chain `H` becomes `X`, the tail stays `H`. -/
macro "ipop " h:ident " as " x:ident : tactic =>
  `(tactic| (ihave Htmp_pop := (Entails.of_eq (bigSepL_pop _ _ _ _)) $$ $h:ident; icases Htmp_pop with ⟨$x:ident, $h:ident⟩))

set_option hygiene false in
/-- One remote copy applied by hand: copy `i` of the list of copies still owed, from the source hypothesis `hs` (at share
    `q`, reading as `x` by `hx`) into the head of the landing chain `hch` on neighbour `n` (`dv : ⟨word, _⟩ = n`), the
    schedule's two payload facts `hp1`, `hp2`. Leaves `HO` (the debt less this copy) and `hcr` (the send cell's credit). -/
macro "send_core " i:num hs:ident hch:ident hcr:ident " | " dv:term " | " n:term " | " q:term " | " x:term " | " hx:term " | " hp1:term " | " hp2:term : tactic =>
  `(tactic| (
    icases $hch:ident with ⟨Hd_, $hch:ident⟩
    ihave Hd2_ := (Entails.of_eq (pex_def _ _ _)) $$ Hd_
    icases Hd2_ with ⟨%gd_, Hd_⟩
    ipop HtS as Hts_
    ipop HtR as Htr_
    iapply (wp_send_i m c _ ($i : Fin 64) _ $dv $q _ gd_ $x $hx $hp1 $hp2 rfl (K (c, .inr (.inl ($i : Fin 64)))) (K ($n, .inr (.inr ($i : Fin 64)))) _)
      $$ [$hs:ident Hd_ HO Hts_ Htr_]
    · isplitr; · iapply (inv_at m K (c, .inr (.inl ($i : Fin 64)))); iexact HRec
      isplitr; · iapply (inv_at m K ($n, .inr (.inr ($i : Fin 64)))); iexact HRec
      isplitl [$hs:ident]; · iexact $hs:ident
      isplitl [Hd_]; · iexact Hd_
      isplitl [HO]; · iexact HO
      isplitl [Hts_]; · iexact Hts_
      isplitr; · iapply (reached_at m K (c, .inr (.inl ($i : Fin 64)))); iexact HRec
      isplitl [Htr_]; · iexact Htr_
      iapply (reached_at m K ($n, .inr (.inr ($i : Fin 64)))); iexact HRec
    iintro ⟨$hcr:ident, HO⟩))

omit [FloatOps F] in
/-- A piece at some contents, from the piece at its contents. -/
theorem pex_intro (c : Dev nD) (q : PosShare TreeShare) {sp : Space} {S : Shape} {e : EltTy} (M : Memref sig .tc sp S e) (f : Buf (Elt F) (M.view.loc (c : Thread nD τ))) :
    (M.view.loc (c : Thread nD τ) ↦[M.view.set]{q} f : sProp 𝕄) ⊢ pex c q M := by
  rw [pex_def]; iintro H; iexists f; iexact H

omit [FloatOps F] in
/-- Nothing owed, once the list of copies still owed is empty. -/
theorem owes_nil (c : Dev nD) (W : Waits sig Unit) : (owes (c : Thread nD τ) (sumL c []) W : sProp 𝕄) ⊢ iprop(∃ W, owes (c : Thread nD τ) 0 W) := by
  rw [sumL_nil]; iintro H; iexists W; iexact H

/-- What the wait on a receive (send) cell hands over: the one duty's payload. -/
theorem rest_rN (c : Dev nD) (i : Fin 64) : bigSep ((Rd m).duties (dcell c (rN i)) 0 \ ∅) (fun d => (Rd m).payload (dcell c (rN i)) 0 d)
    = (Rd m).payload (dcell c (rN i)) 0 0 := by
  rw [Finset.sdiff_empty, duties_rN, bigSep_singleton]
theorem rest_sN (c : Dev nD) (i : Fin 64) : bigSep ((Rd m).duties (dcell c (sN i)) 0 \ ∅) (fun d => (Rd m).payload (dcell c (sN i)) 0 d)
    = (Rd m).payload (dcell c (sN i)) 0 0 := by
  rw [Finset.sdiff_empty, duties_sN, bigSep_singleton]

set_option hygiene false in
/-- As `send_core`, for the LAST block of a landing chain (the chain is that block alone). -/
macro "send_last " i:num hs:ident hch:ident hcr:ident " | " dv:term " | " n:term " | " q:term " | " x:term " | " hx:term " | " hp1:term " | " hp2:term : tactic =>
  `(tactic| (
    ihave Hd2_ := (Entails.of_eq (pex_def _ _ _)) $$ $hch:ident
    icases Hd2_ with ⟨%gd_, Hd_⟩
    ipop HtS as Hts_
    ipop HtR as Htr_
    iapply (wp_send_i m c _ ($i : Fin 64) _ $dv $q _ gd_ $x $hx $hp1 $hp2 rfl (K (c, .inr (.inl ($i : Fin 64)))) (K ($n, .inr (.inr ($i : Fin 64)))) _)
      $$ [$hs:ident Hd_ HO Hts_ Htr_]
    · isplitr; · iapply (inv_at m K (c, .inr (.inl ($i : Fin 64)))); iexact HRec
      isplitr; · iapply (inv_at m K ($n, .inr (.inr ($i : Fin 64)))); iexact HRec
      isplitl [$hs:ident]; · iexact $hs:ident
      isplitl [Hd_]; · iexact Hd_
      isplitl [HO]; · iexact HO
      isplitl [Hts_]; · iexact Hts_
      isplitr; · iapply (reached_at m K (c, .inr (.inl ($i : Fin 64)))); iexact HRec
      isplitl [Htr_]; · iexact Htr_
      iapply (reached_at m K ($n, .inr (.inr ($i : Fin 64)))); iexact HRec
    iintro ⟨$hcr:ident, HO⟩))

set_option hygiene false in
/-- The very last copy: the landing chain, the two token chains are each one element. -/
macro "send_final " i:num hs:ident hch:ident hcr:ident " | " dv:term " | " n:term " | " q:term " | " x:term " | " hx:term " | " hp1:term " | " hp2:term : tactic =>
  `(tactic| (
    ihave Hd2_ := (Entails.of_eq (pex_def _ _ _)) $$ $hch:ident
    icases Hd2_ with ⟨%gd_, Hd_⟩
    ihave Hts_ := (Entails.of_eq (bigSepL_singleton _ _)) $$ HtS
    ihave Htr_ := (Entails.of_eq (bigSepL_singleton _ _)) $$ HtR
    iapply (wp_send_i m c _ ($i : Fin 64) _ $dv $q _ gd_ $x $hx $hp1 $hp2 rfl (K (c, .inr (.inl ($i : Fin 64)))) (K ($n, .inr (.inr ($i : Fin 64)))) _)
      $$ [$hs:ident Hd_ HO Hts_ Htr_]
    · isplitr; · iapply (inv_at m K (c, .inr (.inl ($i : Fin 64)))); iexact HRec
      isplitr; · iapply (inv_at m K ($n, .inr (.inr ($i : Fin 64)))); iexact HRec
      isplitl [$hs:ident]; · iexact $hs:ident
      isplitl [Hd_]; · iexact Hd_
      isplitl [HO]; · iexact HO
      isplitl [Hts_]; · iexact Hts_
      isplitr; · iapply (reached_at m K (c, .inr (.inl ($i : Fin 64)))); iexact HRec
      isplitl [Htr_]; · iexact Htr_
      iapply (reached_at m K ($n, .inr (.inr ($i : Fin 64)))); iexact HRec
    iintro ⟨$hcr:ident, HO⟩))

set_option hygiene false in
/-- The wait for copy `i`'s arrival, by hand: the landing block comes back as `hb` holding what was sent (`hp`: the
    schedule's payload fact for the cell), the position one round on as `hat`; `k` is the cell's level. -/
macro "recv_wait " i:num hb:ident hat:ident " | " hp:term " | " k:num : tactic =>
  `(tactic| (
    ipop HcR as Hcr_
    ipop HaR as Hat_
    iapply (Rounds.wp_wait_rest_token Variants.none ER (Rd m) (c : Thread nD τ) none (sm := SemLoc.dma (rN ($i : Fin 64))) (κ := K (c, .inr (.inr ($i : Fin 64))))
        (wpE_waitDma2_eq Variants.none (c : Thread nD τ) none Set.univ) (Set.mem_univ _) () (R := 0) (m := 0) (T := ∅)
        (by show 0 + _ = (Rd m).expect (dcell c (rN ($i : Fin 64))) 0; rw [expect_rN]; exact (Nat.zero_add _).trans rfl))
      $$ [Hcr_ HO Hat_]
    · isplitr; · iapply (inv_at m K (c, .inr (.inr ($i : Fin 64)))); iexact HRec
      isplitl [Hcr_]; · iexact Hcr_
      isplitl [HO]; · iexact HO
      isplitr
      · iapply (mayWait_of_above c (.dma (rN ($i : Fin 64))) _ (above_lsum $k c _ (by decide))); iexact Hlev
      iexact Hat_
    iintro ⟨HO, $hat:ident, -, Hpay_⟩
    ihave $hb:ident := (Entails.of_eq ((rest_rN m c ($i : Fin 64)).trans (($hp).trans (ptr_def _ _ _)))) $$ Hpay_))

set_option hygiene false in
/-- A whole block in three shares: to lend twice and keep the rest. -/
macro "share3 " h:ident hx:ident hy:ident hk:ident : tactic =>
  `(tactic| (
    ihave Hsp_ := (pointsTo_share (PosShare.mem_left_op_right fullShare)).1 $$ $h:ident
    icases Hsp_ with ⟨$hx:ident, Hr_⟩
    ihave Hsp2_ := (pointsTo_share (PosShare.mem_left_op_right fullShare.right)).1 $$ Hr_
    icases Hsp2_ with ⟨$hy:ident, $hk:ident⟩))
set_option hygiene false in
/-- A whole block in two shares: to lend once and keep the rest. -/
macro "share2 " h:ident hx:ident hk:ident : tactic =>
  `(tactic| (
    ihave Hsp_ := (pointsTo_share (PosShare.mem_left_op_right fullShare)).1 $$ $h:ident
    icases Hsp_ with ⟨$hx:ident, $hk:ident⟩))

set_option hygiene false in
/-- The wait for copy `i`'s departure, by hand: the source block comes back as `hb` (at the share it was lent, at some
    contents), the position one round on as `hat`. Nothing is owed any more when the kernel waits for its sends. -/
macro "send_wait " i:num hcr:ident hb:ident hat:ident " | " hp:term : tactic =>
  `(tactic| (
    ipop HaS as Hat_
    iapply (Rounds.wp_wait_rest_token Variants.none ER (Rd m) (c : Thread nD τ) none (sm := SemLoc.dma (sN ($i : Fin 64))) (κ := K (c, .inr (.inl ($i : Fin 64))))
        (wpE_waitDma2_eq Variants.none (c : Thread nD τ) none Set.univ) (Set.mem_univ _) () (R := 0) (m := 0) (T := ∅)
        (by show 0 + _ = (Rd m).expect (dcell c (sN ($i : Fin 64))) 0; rw [expect_sN]; exact (Nat.zero_add _).trans rfl))
      $$ [$hcr:ident HO Hat_]
    · isplitr; · iapply (inv_at m K (c, .inr (.inl ($i : Fin 64)))); iexact HRec
      isplitl [$hcr:ident]; · iexact $hcr:ident
      isplitl [HO]; · iexact HO
      isplitr
      · iapply (mayWait_of_above c (.dma (sN ($i : Fin 64))) _ (above_lsum 0 c _ (by decide))); iexact Hlev
      iexact Hat_
    iintro ⟨HO, $hat:ident, -, Hpay_⟩
    ihave $hb:ident := (Entails.of_eq ((rest_sN m c ($i : Fin 64)).trans $hp)) $$ Hpay_))

set_option hygiene false in
/-- As `recv_wait`, for the LAST arrival (the chains of credit and positions are one element each). -/
macro "recv_wait_last " i:num hb:ident hat:ident " | " hp:term " | " k:num : tactic =>
  `(tactic| (
    ihave Hcr_ := (Entails.of_eq (bigSepL_singleton _ _)) $$ HcR
    ihave Hat_ := (Entails.of_eq (bigSepL_singleton _ _)) $$ HaR
    iapply (Rounds.wp_wait_rest_token Variants.none ER (Rd m) (c : Thread nD τ) none (sm := SemLoc.dma (rN ($i : Fin 64))) (κ := K (c, .inr (.inr ($i : Fin 64))))
        (wpE_waitDma2_eq Variants.none (c : Thread nD τ) none Set.univ) (Set.mem_univ _) () (R := 0) (m := 0) (T := ∅)
        (by show 0 + _ = (Rd m).expect (dcell c (rN ($i : Fin 64))) 0; rw [expect_rN]; exact (Nat.zero_add _).trans rfl))
      $$ [Hcr_ HO Hat_]
    · isplitr; · iapply (inv_at m K (c, .inr (.inr ($i : Fin 64)))); iexact HRec
      isplitl [Hcr_]; · iexact Hcr_
      isplitl [HO]; · iexact HO
      isplitr
      · iapply (mayWait_of_above c (.dma (rN ($i : Fin 64))) _ (above_lsum $k c _ (by decide))); iexact Hlev
      iexact Hat_
    iintro ⟨HO, $hat:ident, -, Hpay_⟩
    ihave $hb:ident := (Entails.of_eq ((rest_rN m c ($i : Fin 64)).trans (($hp).trans (ptr_def _ _ _)))) $$ Hpay_))

set_option hygiene false in
/-- As `send_wait`, for the LAST departure. -/
macro "send_wait_last " i:num hcr:ident hb:ident hat:ident " | " hp:term : tactic =>
  `(tactic| (
    ihave Hat_ := (Entails.of_eq (bigSepL_singleton _ _)) $$ HaS
    iapply (Rounds.wp_wait_rest_token Variants.none ER (Rd m) (c : Thread nD τ) none (sm := SemLoc.dma (sN ($i : Fin 64))) (κ := K (c, .inr (.inl ($i : Fin 64))))
        (wpE_waitDma2_eq Variants.none (c : Thread nD τ) none Set.univ) (Set.mem_univ _) () (R := 0) (m := 0) (T := ∅)
        (by show 0 + _ = (Rd m).expect (dcell c (sN ($i : Fin 64))) 0; rw [expect_sN]; exact (Nat.zero_add _).trans rfl))
      $$ [$hcr:ident HO Hat_]
    · isplitr; · iapply (inv_at m K (c, .inr (.inl ($i : Fin 64)))); iexact HRec
      isplitl [$hcr:ident]; · iexact $hcr:ident
      isplitl [HO]; · iexact HO
      isplitr
      · iapply (mayWait_of_above c (.dma (sN ($i : Fin 64))) _ (above_lsum 0 c _ (by decide))); iexact Hlev
      iexact Hat_
    iintro ⟨HO, $hat:ident, -, Hpay_⟩
    ihave $hb:ident := (Entails.of_eq ((rest_sN m c ($i : Fin 64)).trans $hp)) $$ Hpay_))

/-- A leaf of the final chain from the hypothesis that is it. -/
macro "leaf " h:ident : tactic => `(tactic| (isplitl [$h:ident]; · iexact $h:ident))
/-- A leaf `pex c q M` of the final chain from the hypothesis holding the piece at its contents. -/
macro "pleaf " h:ident : tactic => `(tactic| (isplitl [$h:ident]; · (iapply (pex_intro _ _ _ _); iexact $h:ident)))

set_option hygiene false in
/-- The symbolic executor, with the ledger's side conditions (every copy still owed lies above the waited cell's level). -/
macro "ex" : tactic =>
  `(tactic| sl_exec (disch := first | exact above_lsum 0 c _ (by decide) | exact above_lsum 1 c _ (by decide) | exact above_lsum 2 c _ (by decide) | exact above_lsum 3 c _ (by decide)))

end Cert.KernelIdeal.Rs

end
-- ==== Proof.BodyFlat.lean ====
import proofs.«901030_g7700000000001031_dist_rs_v7x_xyz2x2x2_z_m4096_n1024_bf16_1_alg».proof.Proof.BodyCtx

set_option maxHeartbeats 4000000
set_option maxRecDepth 65536

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.Rounds

variable {F : FTy → Type} [FloatOps F]

local notation "𝕄" => MT nD τ sig Unit (Elt F) ℕ UU ℕ

variable (m : (ℓ : Loc nD τ sig) → Buf (Elt F) ℓ)

/-- Everything the body's run ends with, leaf by leaf. -/
def bodyFlat (K : Dev nD × CK → ℕ) (c : Dev nD) : sProp 𝕄 :=
  iprop(records m K
    ∗ atPos ER (dcell c (sN 0)) 1 ∅ 0
    ∗ atPos ER (dcell c (sN 22)) 1 ∅ 0
    ∗ atPos ER (dcell c (sN 38)) 1 ∅ 0
    ∗ atPos ER (dcell c (sN 1)) 1 ∅ 0
    ∗ atPos ER (dcell c (sN 23)) 1 ∅ 0
    ∗ atPos ER (dcell c (sN 39)) 1 ∅ 0
    ∗ atPos ER (dcell c (sN 2)) 1 ∅ 0
    ∗ atPos ER (dcell c (sN 24)) 1 ∅ 0
    ∗ atPos ER (dcell c (sN 40)) 1 ∅ 0
    ∗ atPos ER (dcell c (sN 3)) 1 ∅ 0
    ∗ atPos ER (dcell c (sN 25)) 1 ∅ 0
    ∗ atPos ER (dcell c (sN 41)) 1 ∅ 0
    ∗ atPos ER (dcell c (sN 4)) 1 ∅ 0
    ∗ atPos ER (dcell c (sN 26)) 1 ∅ 0
    ∗ atPos ER (dcell c (sN 42)) 1 ∅ 0
    ∗ atPos ER (dcell c (sN 5)) 1 ∅ 0
    ∗ atPos ER (dcell c (sN 27)) 1 ∅ 0
    ∗ atPos ER (dcell c (sN 43)) 1 ∅ 0
    ∗ atPos ER (dcell c (sN 6)) 1 ∅ 0
    ∗ atPos ER (dcell c (sN 28)) 1 ∅ 0
    ∗ atPos ER (dcell c (sN 44)) 1 ∅ 0
    ∗ atPos ER (dcell c (sN 7)) 1 ∅ 0
    ∗ atPos ER (dcell c (sN 29)) 1 ∅ 0
    ∗ atPos ER (dcell c (sN 45)) 1 ∅ 0
    ∗ atPos ER (dcell c (sN 8)) 1 ∅ 0
    ∗ atPos ER (dcell c (sN 30)) 1 ∅ 0
    ∗ atPos ER (dcell c (sN 46)) 1 ∅ 0
    ∗ atPos ER (dcell c (sN 9)) 1 ∅ 0
    ∗ atPos ER (dcell c (sN 31)) 1 ∅ 0
    ∗ atPos ER (dcell c (sN 47)) 1 ∅ 0
    ∗ atPos ER (dcell c (sN 10)) 1 ∅ 0
    ∗ atPos ER (dcell c (sN 32)) 1 ∅ 0
    ∗ atPos ER (dcell c (sN 48)) 1 ∅ 0
    ∗ atPos ER (dcell c (sN 11)) 1 ∅ 0
    ∗ atPos ER (dcell c (sN 33)) 1 ∅ 0
    ∗ atPos ER (dcell c (sN 49)) 1 ∅ 0
    ∗ atPos ER (dcell c (sN 12)) 1 ∅ 0
    ∗ atPos ER (dcell c (sN 34)) 1 ∅ 0
    ∗ atPos ER (dcell c (sN 50)) 1 ∅ 0
    ∗ atPos ER (dcell c (sN 13)) 1 ∅ 0
    ∗ atPos ER (dcell c (sN 35)) 1 ∅ 0
    ∗ atPos ER (dcell c (sN 51)) 1 ∅ 0
    ∗ atPos ER (dcell c (sN 14)) 1 ∅ 0
    ∗ atPos ER (dcell c (sN 36)) 1 ∅ 0
    ∗ atPos ER (dcell c (sN 52)) 1 ∅ 0
    ∗ atPos ER (dcell c (sN 15)) 1 ∅ 0
    ∗ atPos ER (dcell c (sN 37)) 1 ∅ 0
    ∗ atPos ER (dcell c (sN 53)) 1 ∅ 0
    ∗ atPos ER (dcell c (sN 16)) 1 ∅ 0
    ∗ atPos ER (dcell c (sN 17)) 1 ∅ 0
    ∗ atPos ER (dcell c (sN 18)) 1 ∅ 0
    ∗ atPos ER (dcell c (sN 19)) 1 ∅ 0
    ∗ atPos ER (dcell c (sN 20)) 1 ∅ 0
    ∗ atPos ER (dcell c (sN 21)) 1 ∅ 0
    ∗ atPos ER (dcell c (sN 54)) 1 ∅ 0
    ∗ atPos ER (dcell c (sN 55)) 1 ∅ 0
    ∗ atPos ER (dcell c (sN 56)) 1 ∅ 0
    ∗ atPos ER (dcell c (sN 57)) 1 ∅ 0
    ∗ atPos ER (dcell c (sN 58)) 1 ∅ 0
    ∗ atPos ER (dcell c (sN 59)) 1 ∅ 0
    ∗ atPos ER (dcell c (sN 60)) 1 ∅ 0
    ∗ atPos ER (dcell c (sN 61)) 1 ∅ 0
    ∗ atPos ER (dcell c (sN 62)) 1 ∅ 0
    ∗ atPos ER (dcell c (sN 63)) 1 ∅ 0
    ∗ atPos ER (dcell c (rN 0)) 1 ∅ 0
    ∗ atPos ER (dcell c (rN 1)) 1 ∅ 0
    ∗ atPos ER (dcell c (rN 2)) 1 ∅ 0
    ∗ atPos ER (dcell c (rN 3)) 1 ∅ 0
    ∗ atPos ER (dcell c (rN 4)) 1 ∅ 0
    ∗ atPos ER (dcell c (rN 5)) 1 ∅ 0
    ∗ atPos ER (dcell c (rN 6)) 1 ∅ 0
    ∗ atPos ER (dcell c (rN 7)) 1 ∅ 0
    ∗ atPos ER (dcell c (rN 8)) 1 ∅ 0
    ∗ atPos ER (dcell c (rN 9)) 1 ∅ 0
    ∗ atPos ER (dcell c (rN 10)) 1 ∅ 0
    ∗ atPos ER (dcell c (rN 11)) 1 ∅ 0
    ∗ atPos ER (dcell c (rN 12)) 1 ∅ 0
    ∗ atPos ER (dcell c (rN 13)) 1 ∅ 0
    ∗ atPos ER (dcell c (rN 14)) 1 ∅ 0
    ∗ atPos ER (dcell c (rN 15)) 1 ∅ 0
    ∗ atPos ER (dcell c (rN 44)) 1 ∅ 0
    ∗ atPos ER (dcell c (rN 45)) 1 ∅ 0
    ∗ atPos ER (dcell c (rN 46)) 1 ∅ 0
    ∗ atPos ER (dcell c (rN 47)) 1 ∅ 0
    ∗ atPos ER (dcell c (rN 48)) 1 ∅ 0
    ∗ atPos ER (dcell c (rN 33)) 1 ∅ 0
    ∗ atPos ER (dcell c (rN 34)) 1 ∅ 0
    ∗ atPos ER (dcell c (rN 35)) 1 ∅ 0
    ∗ atPos ER (dcell c (rN 36)) 1 ∅ 0
    ∗ atPos ER (dcell c (rN 37)) 1 ∅ 0
    ∗ atPos ER (dcell c (rN 38)) 1 ∅ 0
    ∗ atPos ER (dcell c (rN 39)) 1 ∅ 0
    ∗ atPos ER (dcell c (rN 40)) 1 ∅ 0
    ∗ atPos ER (dcell c (rN 41)) 1 ∅ 0
    ∗ atPos ER (dcell c (rN 42)) 1 ∅ 0
    ∗ atPos ER (dcell c (rN 43)) 1 ∅ 0
    ∗ atPos ER (dcell c (rN 49)) 1 ∅ 0
    ∗ atPos ER (dcell c (rN 50)) 1 ∅ 0
    ∗ atPos ER (dcell c (rN 51)) 1 ∅ 0
    ∗ atPos ER (dcell c (rN 52)) 1 ∅ 0
    ∗ atPos ER (dcell c (rN 53)) 1 ∅ 0
    ∗ atPos ER (dcell c (rN 22)) 1 ∅ 0
    ∗ atPos ER (dcell c (rN 23)) 1 ∅ 0
    ∗ atPos ER (dcell c (rN 24)) 1 ∅ 0
    ∗ atPos ER (dcell c (rN 25)) 1 ∅ 0
    ∗ atPos ER (dcell c (rN 26)) 1 ∅ 0
    ∗ atPos ER (dcell c (rN 27)) 1 ∅ 0
    ∗ atPos ER (dcell c (rN 28)) 1 ∅ 0
    ∗ atPos ER (dcell c (rN 29)) 1 ∅ 0
    ∗ atPos ER (dcell c (rN 30)) 1 ∅ 0
    ∗ atPos ER (dcell c (rN 31)) 1 ∅ 0
    ∗ atPos ER (dcell c (rN 32)) 1 ∅ 0
    ∗ atPos ER (dcell c (rN 16)) 1 ∅ 0
    ∗ atPos ER (dcell c (rN 17)) 1 ∅ 0
    ∗ atPos ER (dcell c (rN 18)) 1 ∅ 0
    ∗ atPos ER (dcell c (rN 19)) 1 ∅ 0
    ∗ atPos ER (dcell c (rN 20)) 1 ∅ 0
    ∗ atPos ER (dcell c (rN 21)) 1 ∅ 0
    ∗ atPos ER (dcell c (rN 54)) 1 ∅ 0
    ∗ atPos ER (dcell c (rN 55)) 1 ∅ 0
    ∗ atPos ER (dcell c (rN 56)) 1 ∅ 0
    ∗ atPos ER (dcell c (rN 57)) 1 ∅ 0
    ∗ atPos ER (dcell c (rN 58)) 1 ∅ 0
    ∗ atPos ER (dcell c (rN 59)) 1 ∅ 0
    ∗ atPos ER (dcell c (rN 60)) 1 ∅ 0
    ∗ atPos ER (dcell c (rN 61)) 1 ∅ 0
    ∗ atPos ER (dcell c (rN 62)) 1 ∅ 0
    ∗ atPos ER (dcell c (rN 63)) 1 ∅ 0
    ∗ semVal (dcell c ⟨((0 : Fin 30) : ℕ), by omega⟩) 0
    ∗ semVal (dcell c ⟨((1 : Fin 30) : ℕ), by omega⟩) 0
    ∗ semVal (dcell c ⟨((2 : Fin 30) : ℕ), by omega⟩) 0
    ∗ semVal (dcell c ⟨((3 : Fin 30) : ℕ), by omega⟩) 0
    ∗ semVal (dcell c ⟨((4 : Fin 30) : ℕ), by omega⟩) 0
    ∗ semVal (dcell c ⟨((5 : Fin 30) : ℕ), by omega⟩) 0
    ∗ semVal (dcell c ⟨((6 : Fin 30) : ℕ), by omega⟩) 0
    ∗ semVal (dcell c ⟨((7 : Fin 30) : ℕ), by omega⟩) 0
    ∗ semVal (dcell c ⟨((8 : Fin 30) : ℕ), by omega⟩) 0
    ∗ semVal (dcell c ⟨((9 : Fin 30) : ℕ), by omega⟩) 0
    ∗ semVal (dcell c ⟨((10 : Fin 30) : ℕ), by omega⟩) 0
    ∗ semVal (dcell c ⟨((11 : Fin 30) : ℕ), by omega⟩) 0
    ∗ semVal (dcell c ⟨((12 : Fin 30) : ℕ), by omega⟩) 0
    ∗ semVal (dcell c ⟨((13 : Fin 30) : ℕ), by omega⟩) 0
    ∗ semVal (dcell c ⟨((14 : Fin 30) : ℕ), by omega⟩) 0
    ∗ semVal (dcell c ⟨((15 : Fin 30) : ℕ), by omega⟩) 0
    ∗ semVal (dcell c ⟨((16 : Fin 30) : ℕ), by omega⟩) 0
    ∗ semVal (dcell c ⟨((17 : Fin 30) : ℕ), by omega⟩) 0
    ∗ semVal (dcell c ⟨((18 : Fin 30) : ℕ), by omega⟩) 0
    ∗ semVal (dcell c ⟨((19 : Fin 30) : ℕ), by omega⟩) 0
    ∗ semVal (dcell c ⟨((20 : Fin 30) : ℕ), by omega⟩) 0
    ∗ semVal (dcell c ⟨((21 : Fin 30) : ℕ), by omega⟩) 0
    ∗ semVal (dcell c ⟨((22 : Fin 30) : ℕ), by omega⟩) 0
    ∗ semVal (dcell c ⟨((23 : Fin 30) : ℕ), by omega⟩) 0
    ∗ semVal (dcell c ⟨((24 : Fin 30) : ℕ), by omega⟩) 0
    ∗ semVal (dcell c ⟨((25 : Fin 30) : ℕ), by omega⟩) 0
    ∗ semVal (dcell c ⟨((26 : Fin 30) : ℕ), by omega⟩) 0
    ∗ semVal (dcell c ⟨((27 : Fin 30) : ℕ), by omega⟩) 0
    ∗ semVal (dcell c ⟨((28 : Fin 30) : ℕ), by omega⟩) 0
    ∗ semVal (dcell c ⟨((29 : Fin 30) : ℕ), by omega⟩) 0
    ∗ (∃ W, owes (c : Thread nD τ) 0 W)
    ∗ pex c fullShare (xqM 0)
    ∗ pex c fullShare (xqM 1)
    ∗ pex c fullShare (xqM 2)
    ∗ pex c fullShare (xqM 3)
    ∗ pex c fullShare (xqM 4)
    ∗ pex c fullShare (xqM 5)
    ∗ pex c fullShare (xqM 6)
    ∗ pex c fullShare (xqM 7)
    ∗ pex c fullShare (xqM 8)
    ∗ pex c fullShare (xqM 9)
    ∗ pex c fullShare (xqM 10)
    ∗ pex c fullShare (xqM 11)
    ∗ pex c fullShare (xqM 12)
    ∗ pex c fullShare (xqM 13)
    ∗ pex c fullShare (xqM 14)
    ∗ pex c fullShare (xqM 15)
    ∗ pex c fullShare (xdM 0)
    ∗ pex c fullShare (xdM 1)
    ∗ pex c fullShare (xdM 2)
    ∗ pex c fullShare (xdM 3)
    ∗ pex c fullShare (xdM 4)
    ∗ pex c fullShare (xdM 5)
    ∗ pex c fullShare (xlM 0)
    ∗ pex c fullShare (xlM 1)
    ∗ pex c fullShare (xlM 2)
    ∗ pex c fullShare (xlM 3)
    ∗ pex c fullShare (bA 0)
    ∗ pex c fullShare (bA 1)
    ∗ pex c fullShare (bA 2)
    ∗ pex c fullShare (bA 3)
    ∗ pex c fullShare (bA 4)
    ∗ pex c fullShare (bA 5)
    ∗ pex c fullShare (bA 6)
    ∗ pex c fullShare (bA 7)
    ∗ pex c fullShare (bA 8)
    ∗ pex c fullShare (bA 9)
    ∗ pex c fullShare (bA 10)
    ∗ pex c fullShare (bA 11)
    ∗ pex c fullShare (bA 12)
    ∗ pex c fullShare (bA 13)
    ∗ pex c fullShare (bA 14)
    ∗ pex c fullShare (bA 15)
    ∗ pex c fullShare (bD 0)
    ∗ pex c fullShare (bD 1)
    ∗ pex c fullShare (bD 2)
    ∗ pex c fullShare (bD 3)
    ∗ pex c fullShare (bD 4)
    ∗ pex c fullShare (bD 5)
    ∗ pex c shX (bQ 0)
    ∗ pex c shY (bQ 0)
    ∗ pex c shK (bQ 0)
    ∗ pex c shX (bQ 1)
    ∗ pex c shY (bQ 1)
    ∗ pex c shK (bQ 1)
    ∗ pex c shX (bQ 2)
    ∗ pex c shY (bQ 2)
    ∗ pex c shK (bQ 2)
    ∗ pex c shX (bQ 3)
    ∗ pex c shY (bQ 3)
    ∗ pex c shK (bQ 3)
    ∗ pex c shX (bQ 4)
    ∗ pex c shY (bQ 4)
    ∗ pex c shK (bQ 4)
    ∗ pex c shX (bQ 5)
    ∗ pex c shY (bQ 5)
    ∗ pex c shK (bQ 5)
    ∗ pex c shX (bQ 6)
    ∗ pex c shY (bQ 6)
    ∗ pex c shK (bQ 6)
    ∗ pex c shX (bQ 7)
    ∗ pex c shY (bQ 7)
    ∗ pex c shK (bQ 7)
    ∗ pex c shX (bQ 8)
    ∗ pex c shY (bQ 8)
    ∗ pex c shK (bQ 8)
    ∗ pex c shX (bQ 9)
    ∗ pex c shY (bQ 9)
    ∗ pex c shK (bQ 9)
    ∗ pex c shX (bQ 10)
    ∗ pex c shY (bQ 10)
    ∗ pex c shK (bQ 10)
    ∗ pex c shX (bQ 11)
    ∗ pex c shY (bQ 11)
    ∗ pex c shK (bQ 11)
    ∗ pex c shX (bQ 12)
    ∗ pex c shY (bQ 12)
    ∗ pex c shK (bQ 12)
    ∗ pex c shX (bQ 13)
    ∗ pex c shY (bQ 13)
    ∗ pex c shK (bQ 13)
    ∗ pex c shX (bQ 14)
    ∗ pex c shY (bQ 14)
    ∗ pex c shK (bQ 14)
    ∗ pex c shX (bQ 15)
    ∗ pex c shY (bQ 15)
    ∗ pex c shK (bQ 15)
    ∗ pex c fullShare (bX 0)
    ∗ pex c fullShare (bX 1)
    ∗ pex c fullShare (bX 2)
    ∗ pex c fullShare (bX 3)
    ∗ pex c fullShare (bX 4)
    ∗ pex c fullShare (bX 5)
    ∗ pex c fullShare (bX 6)
    ∗ pex c fullShare (bX 7)
    ∗ pex c fullShare (bX 8)
    ∗ pex c fullShare (bX 9)
    ∗ pex c fullShare (bX 10)
    ∗ pex c shX (bX 11)
    ∗ pex c shY (bX 11)
    ∗ pex c shK (bX 11)
    ∗ pex c shX (bX 12)
    ∗ pex c shY (bX 12)
    ∗ pex c shK (bX 12)
    ∗ pex c shX (bX 13)
    ∗ pex c shY (bX 13)
    ∗ pex c shK (bX 13)
    ∗ pex c shX (bX 14)
    ∗ pex c shY (bX 14)
    ∗ pex c shK (bX 14)
    ∗ pex c shX (bX 15)
    ∗ pex c shY (bX 15)
    ∗ pex c shK (bX 15)
    ∗ pex c fullShare (bY 0)
    ∗ pex c fullShare (bY 1)
    ∗ pex c fullShare (bY 2)
    ∗ pex c fullShare (bY 3)
    ∗ pex c fullShare (bY 4)
    ∗ pex c fullShare (bY 5)
    ∗ pex c shX (bY 6)
    ∗ pex c fullShare.right (bY 6)
    ∗ pex c shX (bY 7)
    ∗ pex c fullShare.right (bY 7)
    ∗ pex c shX (bY 8)
    ∗ pex c fullShare.right (bY 8)
    ∗ pex c shX (bY 9)
    ∗ pex c fullShare.right (bY 9)
    ∗ pex c shX (bY 10)
    ∗ pex c fullShare.right (bY 10)
    ∗ pex c fullShare (bY 11)
    ∗ pex c fullShare (bY 12)
    ∗ pex c fullShare (bY 13)
    ∗ pex c fullShare (bY 14)
    ∗ pex c fullShare (bY 15)
    ∗ pex c fullShare (bR 0)
    ∗ pex c fullShare (bR 1)
    ∗ pex c fullShare (bR 2)
    ∗ pex c fullShare (bR 3)
    ∗ pex c fullShare (bR 4)
    ∗ pex c fullShare (bR 5)
    ∗ pex c fullShare (bR 6)
    ∗ pex c fullShare (bR 7)
    ∗ pex c fullShare (bR 8)
    ∗ pex c fullShare (bR 9)
    ∗ pex c fullShare (bR 10)
    ∗ pex c fullShare (bR 11)
    ∗ pex c fullShare (bR 12)
    ∗ pex c fullShare (bR 13)
    ∗ pex c fullShare (bR 14)
    ∗ pex c fullShare (bR 15)
    ∗ pex c fullShare (vQ c 0)
    ∗ pex c fullShare (vQ c 1)
    ∗ pex c fullShare (vQ c 2)
    ∗ pex c fullShare (vQ c 3)
    ∗ ((wL c 0).view.loc (c : Thread nD τ) ↦[(wL c 0).view.set]{shL 0} m ((c : Thread nD τ).loc main_arg0))
    ∗ ((wL c 1).view.loc (c : Thread nD τ) ↦[(wL c 1).view.set]{shL 1} m ((c : Thread nD τ).loc main_arg0))
    ∗ ((wL c 2).view.loc (c : Thread nD τ) ↦[(wL c 2).view.set]{shL 2} m ((c : Thread nD τ).loc main_arg0))
    ∗ ((wL c 3).view.loc (c : Thread nD τ) ↦[(wL c 3).view.set]{shL 3} m ((c : Thread nD τ).loc main_arg0))
    ∗ ((wQ c 0).view.loc (c : Thread nD τ) ↦[(wQ c 0).view.set]{shQ 0} m ((c : Thread nD τ).loc main_arg0))
    ∗ ((wQ c 1).view.loc (c : Thread nD τ) ↦[(wQ c 1).view.set]{shQ 1} m ((c : Thread nD τ).loc main_arg0))
    ∗ ((wQ c 2).view.loc (c : Thread nD τ) ↦[(wQ c 2).view.set]{shQ 2} m ((c : Thread nD τ).loc main_arg0))
    ∗ ((wQ c 3).view.loc (c : Thread nD τ) ↦[(wQ c 3).view.set]{shQ 3} m ((c : Thread nD τ).loc main_arg0))
    ∗ ((wQ c 4).view.loc (c : Thread nD τ) ↦[(wQ c 4).view.set]{shQ 4} m ((c : Thread nD τ).loc main_arg0))
    ∗ ((wQ c 5).view.loc (c : Thread nD τ) ↦[(wQ c 5).view.set]{shQ 5} m ((c : Thread nD τ).loc main_arg0))
    ∗ ((wQ c 6).view.loc (c : Thread nD τ) ↦[(wQ c 6).view.set]{shQ 6} m ((c : Thread nD τ).loc main_arg0))
    ∗ ((wQ c 7).view.loc (c : Thread nD τ) ↦[(wQ c 7).view.set]{shQ 7} m ((c : Thread nD τ).loc main_arg0))
    ∗ ((wQ c 8).view.loc (c : Thread nD τ) ↦[(wQ c 8).view.set]{shQ 8} m ((c : Thread nD τ).loc main_arg0))
    ∗ ((wQ c 9).view.loc (c : Thread nD τ) ↦[(wQ c 9).view.set]{shQ 9} m ((c : Thread nD τ).loc main_arg0))
    ∗ ((wQ c 10).view.loc (c : Thread nD τ) ↦[(wQ c 10).view.set]{shQ 10} m ((c : Thread nD τ).loc main_arg0))
    ∗ ((wQ c 11).view.loc (c : Thread nD τ) ↦[(wQ c 11).view.set]{shQ 11} m ((c : Thread nD τ).loc main_arg0))
    ∗ ((wQ c 12).view.loc (c : Thread nD τ) ↦[(wQ c 12).view.set]{shQ 12} m ((c : Thread nD τ).loc main_arg0))
    ∗ ((wQ c 13).view.loc (c : Thread nD τ) ↦[(wQ c 13).view.set]{shQ 13} m ((c : Thread nD τ).loc main_arg0))
    ∗ ((wQ c 14).view.loc (c : Thread nD τ) ↦[(wQ c 14).view.set]{shQ 14} m ((c : Thread nD τ).loc main_arg0))
    ∗ ((wQ c 15).view.loc (c : Thread nD τ) ↦[(wQ c 15).view.set]{shQ 15} m ((c : Thread nD τ).loc main_arg0))
    ∗ ((wD c 0).view.loc (c : Thread nD τ) ↦[(wD c 0).view.set]{shD 0} m ((c : Thread nD τ).loc main_arg0))
    ∗ ((wD c 1).view.loc (c : Thread nD τ) ↦[(wD c 1).view.set]{shD 1} m ((c : Thread nD τ).loc main_arg0))
    ∗ ((wD c 2).view.loc (c : Thread nD τ) ↦[(wD c 2).view.set]{shD 2} m ((c : Thread nD τ).loc main_arg0))
    ∗ ((wD c 3).view.loc (c : Thread nD τ) ↦[(wD c 3).view.set]{shD 3} m ((c : Thread nD τ).loc main_arg0))
    ∗ ((wD c 4).view.loc (c : Thread nD τ) ↦[(wD c 4).view.set]{shD 4} m ((c : Thread nD τ).loc main_arg0))
    ∗ ((wD c 5).view.loc (c : Thread nD τ) ↦[(wD c 5).view.set]{shD 5} m ((c : Thread nD τ).loc main_arg0))
    ∗ argRest c (m ((c : Thread nD τ).loc main_arg0))
    ∗ (∃ h : Fin 4 → Buf (Elt F) ((c : Thread nD τ).loc main_v1), ⌜∀ k, ∃ g, QuarterOK m c k g ∧ (oQ c k).view.read (Elt F) (h k) = (vQ c k).view.read (Elt F) g⌝ ∗ ((oQ c 0).view.loc (c : Thread nD τ) ↦[(oQ c 0).view.set]{fullShare} h 0) ∗ ((oQ c 1).view.loc (c : Thread nD τ) ↦[(oQ c 1).view.set]{fullShare} h 1) ∗ ((oQ c 2).view.loc (c : Thread nD τ) ↦[(oQ c 2).view.set]{fullShare} h 2) ∗ ((oQ c 3).view.loc (c : Thread nD τ) ↦[(oQ c 3).view.set]{fullShare} h 3)))

end Cert.KernelIdeal.Rs

end
-- ==== Proof.BodyFlatOk.lean ====
/- The body's end point from its flat list: the list's leaves, taken in order, are the end point's groups — the
   positions in the order they are waited for, the counters, the buffers' blocks, the argument's pieces, the
   result's quarters — so the step is associativity alone. -/
import proofs.«901030_g7700000000001031_dist_rs_v7x_xyz2x2x2_z_m4096_n1024_bf16_1_alg».proof.Proof.BodyFlat
import proofs.«901030_g7700000000001031_dist_rs_v7x_xyz2x2x2_z_m4096_n1024_bf16_1_alg».proof.Proof.BodyLemmas

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Assoc

omit [FloatOps F] in
/-- Separating conjunction associates. -/
private theorem flat_assoc (P Q R : sProp 𝕄) : iprop((P ∗ Q) ∗ R) = iprop(P ∗ Q ∗ R) := by
  refine BI.Entails.antisymm (show iprop((P ∗ Q) ∗ R) ⊢ iprop(P ∗ Q ∗ R) from ?_) (show iprop(P ∗ Q ∗ R) ⊢ iprop((P ∗ Q) ∗ R) from ?_)
  · iintro ⟨⟨HP, HQ⟩, HR⟩
    isplitl [HP]; · iexact HP
    isplitl [HQ]; · iexact HQ
    iexact HR
  · iintro ⟨HP, HQ, HR⟩
    isplitr [HR]
    · isplitl [HP]; · iexact HP
      iexact HQ
    iexact HR

omit [FloatOps F] in
/-- The same where the inner conjunction comes from a listed chain. -/
private theorem flat_assoc' (P Q R : sProp 𝕄) : iprop((BI.sep P Q) ∗ R) = iprop(P ∗ Q ∗ R) := flat_assoc P Q R

end Assoc

set_option maxHeartbeats 4000000 in
set_option maxRecDepth 65536 in
/-- The flat list is the body's end point. -/
theorem bodyPost_of_flat (K : Dev nD × CK → ℕ) (c : Dev nD) : bodyFlat m K c ⊢ bodyPost m K c := by
  unfold bodyPost localSems argPieces
  rw [bigSep_univ_eq_bigSepL sendWaitList sendWaitList_univ sendWaitList_nodup,
    bigSep_univ_eq_bigSepL recvWaitList recvWaitList_univ recvWaitList_nodup]
  simp only [sendWaitList, recvWaitList, bigSepL_cons_cons, bigSepL_singleton]
  simp only [bigSep_fin30, bigSep_fin16, bigSep_fin6, bigSep_fin4]
  simp (disch := decide) only [if_pos, if_neg]
  simp only [flat_assoc, flat_assoc']
  unfold bodyFlat
  exact .rfl

/-- info: 'Cert.KernelIdeal.Rs.bodyPost_of_flat' depends on axioms: [propext, Classical.choice, Quot.sound] -/
#guard_msgs in #print axioms bodyPost_of_flat

end Cert.KernelIdeal.Rs

end
-- ==== Proof.AddVal.lean ====
/- The kernel's sixty-four block additions are one function of the f32 block and the bf16 block: the f32 block's
   leading unit axis dropped, the bf16 block widened, the two added, the sum narrowed. The printed program names it
   forty-eight times whole and sixteen times cut in two or three pieces; each is that one function. -/
import proofs.«901030_g7700000000001031_dist_rs_v7x_xyz2x2x2_z_m4096_n1024_bf16_1_alg».proof.Proof.StepVal

noncomputable section

namespace Cert.KernelIdeal.Rs

open Cert.KernelIdeal Cert.KernelIdeal.Gen
open Idealize.ShloMosaic

variable {F : FTy → Type} [FloatOps F]

/-! ## The additions named whole -/

theorem k0_pay23_eq23 : @k0_pay23 F _ = @k0_pay23 F _ := rfl
theorem k0_pay24_eq23 : @k0_pay24 F _ = @k0_pay23 F _ := rfl
theorem k0_pay25_eq23 : @k0_pay25 F _ = @k0_pay23 F _ := rfl
theorem k0_pay26_eq23 : @k0_pay26 F _ = @k0_pay23 F _ := rfl
theorem k0_pay27_eq23 : @k0_pay27 F _ = @k0_pay23 F _ := rfl
theorem k0_pay30_eq23 : @k0_pay30 F _ = @k0_pay23 F _ := rfl
theorem k0_pay34_eq23 : @k0_pay34 F _ = @k0_pay23 F _ := rfl
theorem k0_pay37_eq23 : @k0_pay37 F _ = @k0_pay23 F _ := rfl
theorem k0_pay40_eq23 : @k0_pay40 F _ = @k0_pay23 F _ := rfl
theorem k0_pay41_eq23 : @k0_pay41 F _ = @k0_pay23 F _ := rfl
theorem k0_pay42_eq23 : @k0_pay42 F _ = @k0_pay23 F _ := rfl
theorem k0_pay43_eq23 : @k0_pay43 F _ = @k0_pay23 F _ := rfl
theorem k0_pay44_eq23 : @k0_pay44 F _ = @k0_pay23 F _ := rfl
theorem k0_pay47_eq23 : @k0_pay47 F _ = @k0_pay23 F _ := rfl
theorem k0_pay48_eq23 : @k0_pay48 F _ = @k0_pay23 F _ := rfl
theorem k0_pay51_eq23 : @k0_pay51 F _ = @k0_pay23 F _ := rfl
theorem k0_pay52_eq23 : @k0_pay52 F _ = @k0_pay23 F _ := rfl
theorem k0_pay53_eq23 : @k0_pay53 F _ = @k0_pay23 F _ := rfl
theorem k0_pay54_eq23 : @k0_pay54 F _ = @k0_pay23 F _ := rfl
theorem k0_pay55_eq23 : @k0_pay55 F _ = @k0_pay23 F _ := rfl
theorem k0_pay56_eq23 : @k0_pay56 F _ = @k0_pay23 F _ := rfl
theorem k0_pay57_eq23 : @k0_pay57 F _ = @k0_pay23 F _ := rfl
theorem k0_pay60_eq23 : @k0_pay60 F _ = @k0_pay23 F _ := rfl
theorem k0_pay61_eq23 : @k0_pay61 F _ = @k0_pay23 F _ := rfl
theorem k0_pay64_eq23 : @k0_pay64 F _ = @k0_pay23 F _ := rfl
theorem k0_pay65_eq23 : @k0_pay65 F _ = @k0_pay23 F _ := rfl
theorem k0_pay66_eq23 : @k0_pay66 F _ = @k0_pay23 F _ := rfl
theorem k0_pay67_eq23 : @k0_pay67 F _ = @k0_pay23 F _ := rfl
theorem k0_pay70_eq23 : @k0_pay70 F _ = @k0_pay23 F _ := rfl
theorem k0_pay71_eq23 : @k0_pay71 F _ = @k0_pay23 F _ := rfl
theorem k0_pay74_eq23 : @k0_pay74 F _ = @k0_pay23 F _ := rfl
theorem k0_pay75_eq23 : @k0_pay75 F _ = @k0_pay23 F _ := rfl
theorem k0_pay78_eq23 : @k0_pay78 F _ = @k0_pay23 F _ := rfl
theorem k0_pay79_eq23 : @k0_pay79 F _ = @k0_pay23 F _ := rfl
theorem k0_pay83_eq23 : @k0_pay83 F _ = @k0_pay23 F _ := rfl
theorem k0_pay84_eq23 : @k0_pay84 F _ = @k0_pay23 F _ := rfl
theorem k0_pay85_eq23 : @k0_pay85 F _ = @k0_pay23 F _ := rfl
theorem k0_pay86_eq23 : @k0_pay86 F _ = @k0_pay23 F _ := rfl
theorem k0_pay87_eq23 : @k0_pay87 F _ = @k0_pay23 F _ := rfl
theorem k0_pay90_eq23 : @k0_pay90 F _ = @k0_pay23 F _ := rfl
theorem k0_pay91_eq23 : @k0_pay91 F _ = @k0_pay23 F _ := rfl
theorem k0_pay94_eq23 : @k0_pay94 F _ = @k0_pay23 F _ := rfl
theorem k0_pay95_eq23 : @k0_pay95 F _ = @k0_pay23 F _ := rfl
theorem k0_pay98_eq23 : @k0_pay98 F _ = @k0_pay23 F _ := rfl
theorem k0_pay99_eq23 : @k0_pay99 F _ = @k0_pay23 F _ := rfl
theorem k0_pay100_eq23 : @k0_pay100 F _ = @k0_pay23 F _ := rfl
theorem k0_pay103_eq23 : @k0_pay103 F _ = @k0_pay23 F _ := rfl
theorem k0_pay104_eq23 : @k0_pay104 F _ = @k0_pay23 F _ := rfl

/-! ## The additions cut in pieces: the pieces composed are the one function -/

/-- The unit axis dropped first, the rest after. -/
theorem pay28_29_eq (a : Vec F S1x64x1024 .f32) (b : Vec F S64x1024 .bf16) : k0_pay29 (k0_pay28 a) b = k0_pay23 a b := rfl
theorem pay49_50_eq (a : Vec F S1x64x1024 .f32) (b : Vec F S64x1024 .bf16) : k0_pay50 (k0_pay49 a) b = k0_pay23 a b := rfl
theorem pay96_97_eq (a : Vec F S1x64x1024 .f32) (b : Vec F S64x1024 .bf16) : k0_pay97 (k0_pay96 a) b = k0_pay23 a b := rfl

/-- The unit axis dropped and the bf16 block widened first, the sum and its narrowing after. -/
theorem pay31_33_eq (a : Vec F S1x64x1024 .f32) (b : Vec F S64x1024 .bf16) : k0_pay33 (k0_pay31 a) (k0_pay32 b) = k0_pay23 a b := rfl
theorem pay80_82_eq (a : Vec F S1x64x1024 .f32) (b : Vec F S64x1024 .bf16) : k0_pay82 (k0_pay80 a) (k0_pay81 b) = k0_pay23 a b := rfl

/-- Everything but the last cast to the same shape first, that cast after. -/
theorem pay35_36_eq (a : Vec F S1x64x1024 .f32) (b : Vec F S64x1024 .bf16) : k0_pay36 (k0_pay35 a b) = k0_pay23 a b := rfl
theorem pay38_39_eq (a : Vec F S1x64x1024 .f32) (b : Vec F S64x1024 .bf16) : k0_pay39 (k0_pay38 a b) = k0_pay23 a b := rfl
theorem pay58_59_eq (a : Vec F S1x64x1024 .f32) (b : Vec F S64x1024 .bf16) : k0_pay59 (k0_pay58 a b) = k0_pay23 a b := rfl
theorem pay62_63_eq (a : Vec F S1x64x1024 .f32) (b : Vec F S64x1024 .bf16) : k0_pay63 (k0_pay62 a b) = k0_pay23 a b := rfl
theorem pay68_69_eq (a : Vec F S1x64x1024 .f32) (b : Vec F S64x1024 .bf16) : k0_pay69 (k0_pay68 a b) = k0_pay23 a b := rfl
theorem pay72_73_eq (a : Vec F S1x64x1024 .f32) (b : Vec F S64x1024 .bf16) : k0_pay73 (k0_pay72 a b) = k0_pay23 a b := rfl
theorem pay76_77_eq (a : Vec F S1x64x1024 .f32) (b : Vec F S64x1024 .bf16) : k0_pay77 (k0_pay76 a b) = k0_pay23 a b := rfl
theorem pay88_89_eq (a : Vec F S1x64x1024 .f32) (b : Vec F S64x1024 .bf16) : k0_pay89 (k0_pay88 a b) = k0_pay23 a b := rfl
theorem pay92_93_eq (a : Vec F S1x64x1024 .f32) (b : Vec F S64x1024 .bf16) : k0_pay93 (k0_pay92 a b) = k0_pay23 a b := rfl
theorem pay101_102_eq (a : Vec F S1x64x1024 .f32) (b : Vec F S64x1024 .bf16) : k0_pay102 (k0_pay101 a b) = k0_pay23 a b := rfl

/-- The sum first, its narrowing after. -/
theorem pay45_46_eq (a : Vec F S1x64x1024 .f32) (b : Vec F S64x1024 .bf16) : k0_pay46 (k0_pay45 a b) = k0_pay23 a b := rfl

end Cert.KernelIdeal.Rs

end
-- ==== Proof.Nest.lean ====
/- What sixteen stores leave in a quarter of the VMEM result buffer, and what the two loads of an add and the
   copy out read. A quarter is sixteen blocks of 64 rows, one below the other. A store of block s' through the
   whole buffer is read back through block s as the payload when s = s', and leaves block s as it was when
   s ≠ s': the two blocks' rows do not meet. So after the sixteen stores, in any order of nesting, each block
   reads the payload stored to it, and if every payload is the kernel's sum of the two blocks it should add,
   the quarter is as the interface asks. -/
import proofs.«901030_g7700000000001031_dist_rs_v7x_xyz2x2x2_z_m4096_n1024_bf16_1_alg».proof.Proof.BodySpec
import proofs.«901030_g7700000000001031_dist_rs_v7x_xyz2x2x2_z_m4096_n1024_bf16_1_alg».proof.Proof.ValLemmas
import proofs.«901030_g7700000000001031_dist_rs_v7x_xyz2x2x2_z_m4096_n1024_bf16_1_alg».proof.Proof.AddVal

noncomputable section

namespace Cert.KernelIdeal.Rs

open Cert.KernelIdeal Cert.KernelIdeal.Gen
open Idealize.ShloMosaic Idealize.ShloMosaic.TcCoe

/-! ## Blocks of one quarter do not meet -/

/-- Two different blocks of one quarter of the VMEM result buffer are 64 or more rows apart. -/
theorem offB_sep (c : Dev nD) (k : Fin 4) (s s' : Fin 16) (h : s ≠ s') :
    (offB c k s) 0 + 64 ≤ (offB c k s') 0 ∨ (offB c k s') 0 + 64 ≤ (offB c k s) 0 := by
  have hc : c.val < 8 := c.isLt
  have hs : s.val ≠ s'.val := fun e => h (Fin.ext e)
  have h1 := s.isLt
  have h2 := s'.isLt
  match k with
  | 0 =>
    show (k0_off7 c (BitVec.ofNat 32 (64 * s.val))) 0 + 64 ≤ (k0_off7 c (BitVec.ofNat 32 (64 * s'.val))) 0
      ∨ (k0_off7 c (BitVec.ofNat 32 (64 * s'.val))) 0 + 64 ≤ (k0_off7 c (BitVec.ofNat 32 (64 * s.val))) 0
    rw [congrFun (k0_off7_eq c s) 0, congrFun (k0_off7_eq c s') 0]
    show 2048 * (c.val / 4) + 1024 * ((c.val / 2) % 2) + 64 * s.val + 64 ≤ 2048 * (c.val / 4) + 1024 * ((c.val / 2) % 2) + 64 * s'.val
      ∨ 2048 * (c.val / 4) + 1024 * ((c.val / 2) % 2) + 64 * s'.val + 64 ≤ 2048 * (c.val / 4) + 1024 * ((c.val / 2) % 2) + 64 * s.val
    omega
  | 1 =>
    show (k0_off9 c (BitVec.ofNat 32 (64 * s.val))) 0 + 64 ≤ (k0_off9 c (BitVec.ofNat 32 (64 * s'.val))) 0
      ∨ (k0_off9 c (BitVec.ofNat 32 (64 * s'.val))) 0 + 64 ≤ (k0_off9 c (BitVec.ofNat 32 (64 * s.val))) 0
    rw [congrFun (k0_off9_eq c s) 0, congrFun (k0_off9_eq c s') 0]
    show (2048 * (c.val / 4) + 64 * s.val + 1024) - 1024 * ((c.val / 2) % 2) + 64 ≤ (2048 * (c.val / 4) + 64 * s'.val + 1024) - 1024 * ((c.val / 2) % 2)
      ∨ (2048 * (c.val / 4) + 64 * s'.val + 1024) - 1024 * ((c.val / 2) % 2) + 64 ≤ (2048 * (c.val / 4) + 64 * s.val + 1024) - 1024 * ((c.val / 2) % 2)
    omega
  | 2 =>
    show (k0_off11 c (BitVec.ofNat 32 (64 * s.val))) 0 + 64 ≤ (k0_off11 c (BitVec.ofNat 32 (64 * s'.val))) 0
      ∨ (k0_off11 c (BitVec.ofNat 32 (64 * s'.val))) 0 + 64 ≤ (k0_off11 c (BitVec.ofNat 32 (64 * s.val))) 0
    rw [congrFun (k0_off11_eq c s) 0, congrFun (k0_off11_eq c s') 0]
    show (1024 * ((c.val / 2) % 2) + 64 * s.val + 2048) - 2048 * (c.val / 4) + 64 ≤ (1024 * ((c.val / 2) % 2) + 64 * s'.val + 2048) - 2048 * (c.val / 4)
      ∨ (1024 * ((c.val / 2) % 2) + 64 * s'.val + 2048) - 2048 * (c.val / 4) + 64 ≤ (1024 * ((c.val / 2) % 2) + 64 * s.val + 2048) - 2048 * (c.val / 4)
    omega
  | 3 =>
    show (k0_off13 c (BitVec.ofNat 32 (64 * s.val))) 0 + 64 ≤ (k0_off13 c (BitVec.ofNat 32 (64 * s'.val))) 0
      ∨ (k0_off13 c (BitVec.ofNat 32 (64 * s'.val))) 0 + 64 ≤ (k0_off13 c (BitVec.ofNat 32 (64 * s.val))) 0
    rw [congrFun (k0_off13_eq c s) 0, congrFun (k0_off13_eq c s') 0]
    show (64 * s.val + 3072) - (2048 * (c.val / 4) + 1024 * ((c.val / 2) % 2)) + 64 ≤ (64 * s'.val + 3072) - (2048 * (c.val / 4) + 1024 * ((c.val / 2) % 2))
      ∨ (64 * s'.val + 3072) - (2048 * (c.val / 4) + 1024 * ((c.val / 2) % 2)) + 64 ≤ (64 * s.val + 3072) - (2048 * (c.val / 4) + 1024 * ((c.val / 2) % 2))
    omega

/-! ## One store, read through a block -/

/-- A store of block `s'` of quarter `k` through the whole buffer, read through block `s`: the payload when
    `s = s'`, what was there before when not. -/
theorem read_vB_write {F : FTy → Type} [FloatOps F] (c : Dev nD) (k : Fin 4) (s s' : Fin 16)
    (g : Buf (Elt F) ((c : Thread nD τ).loc cc0_scratch9)) (w : S64x1024.Idx → Elt F .bf16)
    (inb : ∀ a, (offB c k s') a + S64x1024.size a ≤ S4096x1024.size a) :
    (vB c k s).view.read (Elt F)
        (View.write (Elt F) ((Memref.whole cc0_scratch9).access (Rect.unit (s := S4096x1024) (offB c k s') S64x1024.size inb)) g w Finset.univ)
      = if s = s' then w else (vB c k s).view.read (Elt F) g := by
  by_cases e : s = s'
  · subst e
    rw [if_pos rfl]
    exact read_block_write_whole cc0_scratch9 _ _ _ g w
  · rw [if_neg e]
    refine View.read_slice_write_slice_of_disjoint (v := View.whole cc0_scratch9)
      (Rect.unit (s := S4096x1024) (offB c k s) S64x1024.size (offB_inb c k s))
      (Rect.unit (s := S4096x1024) (offB c k s') S64x1024.size inb) g w Finset.univ ?_
    rw [View.setOn_univ, View.set_slice_whole, View.set_slice_whole]
    exact Rect.unit_disjoint (0 : Fin S4096x1024.rank) (offB_sep c k s s' e)

/-! ## Sixteen stores -/

/-- The store of block `s` of quarter `k` through the whole buffer. -/
abbrev Wst {F : FTy → Type} [FloatOps F] (c : Dev nD) (k : Fin 4) (s : Fin 16) (g : Buf (Elt F) ((c : Thread nD τ).loc cc0_scratch9))
    (w : S64x1024.Idx → Elt F .bf16) : Buf (Elt F) ((c : Thread nD τ).loc cc0_scratch9) :=
  View.write (Elt F) ((Memref.whole cc0_scratch9).access (Rect.unit (s := S4096x1024) (offB c k s) S64x1024.size (offB_inb c k s))) g w Finset.univ

/-- The sixteen stores of a quarter, block 0 first, block 15 last, over contents `g₀`. -/
def nest16 {F : FTy → Type} [FloatOps F] (c : Dev nD) (k : Fin 4) (g₀ : Buf (Elt F) ((c : Thread nD τ).loc cc0_scratch9))
    (w : Fin 16 → (S64x1024.Idx → Elt F .bf16)) : Buf (Elt F) ((c : Thread nD τ).loc cc0_scratch9) :=
  (Wst c k 15 (Wst c k 14 (Wst c k 13 (Wst c k 12 (Wst c k 11 (Wst c k 10 (Wst c k 9 (Wst c k 8 (Wst c k 7 (Wst c k 6 (Wst c k 5 (Wst c k 4 (Wst c k 3 (Wst c k 2 (Wst c k 1 (Wst c k 0 g₀ (w 0)) (w 1)) (w 2)) (w 3)) (w 4)) (w 5)) (w 6)) (w 7)) (w 8)) (w 9)) (w 10)) (w 11)) (w 12)) (w 13)) (w 14)) (w 15))

/-- One more store: if every block below `n` reads its payload, then after the store of block `n` every block below
    `n + 1` does. -/
theorem blocks_step {F : FTy → Type} [FloatOps F] (c : Dev nD) (k : Fin 4) (w : Fin 16 → (S64x1024.Idx → Elt F .bf16))
    (n : Nat) (s' : Fin 16) (hs' : s'.val = n) (g : Buf (Elt F) ((c : Thread nD τ).loc cc0_scratch9))
    (H : ∀ s : Fin 16, s.val < n → (vB c k s).view.read (Elt F) g = w s) :
    ∀ s : Fin 16, s.val < n + 1 → (vB c k s).view.read (Elt F) (Wst c k s' g (w s')) = w s := fun s h => by
  refine (read_vB_write c k s s' g (w s') (offB_inb c k s')).trans ?_
  by_cases e : s = s'
  · rw [if_pos e, e]
  · rw [if_neg e]
    refine H s ?_
    have : s.val ≠ s'.val := fun e' => e (Fin.ext e')
    omega

/-- After the sixteen stores every block of the quarter reads its payload: the step above, once per store. -/
theorem nest16_read {F : FTy → Type} [FloatOps F] (c : Dev nD) (k : Fin 4) (g₀ : Buf (Elt F) ((c : Thread nD τ).loc cc0_scratch9))
    (w : Fin 16 → (S64x1024.Idx → Elt F .bf16)) :
    ∀ s : Fin 16, (vB c k s).view.read (Elt F) (nest16 c k g₀ w) = w s := fun s => by
  unfold nest16
  exact (blocks_step c k w 15 15 rfl _ (blocks_step c k w 14 14 rfl _ (blocks_step c k w 13 13 rfl _ (blocks_step c k w 12 12 rfl _ (blocks_step c k w 11 11 rfl _ (blocks_step c k w 10 10 rfl _ (blocks_step c k w 9 9 rfl _ (blocks_step c k w 8 8 rfl _ (blocks_step c k w 7 7 rfl _ (blocks_step c k w 6 6 rfl _ (blocks_step c k w 5 5 rfl _ (blocks_step c k w 4 4 rfl _ (blocks_step c k w 3 3 rfl _ (blocks_step c k w 2 2 rfl _ (blocks_step c k w 1 1 rfl _ (blocks_step c k w 0 0 rfl _ (fun s h => absurd h (Nat.not_lt_zero _)))))))))))))))))) s s.isLt

/-- If every payload is the kernel's sum of the two blocks it should add, the quarter is as the interface asks. -/
theorem quarterOK_of_nest {F : FTy → Type} [FloatOps F] (m : (ℓ : Loc nD τ sig) → Buf (Elt F) ℓ) (c : Dev nD) (k : Fin 4)
    (g₀ : Buf (Elt F) ((c : Thread nD τ).loc cc0_scratch9)) (w : Fin 16 → (S64x1024.Idx → Elt F .bf16))
    (hw : ∀ s, w s = k0_pay23 (xlBlk m c k s) (rBlk m c k s)) : QuarterOK m c k (nest16 c k g₀ w) :=
  fun s => (nest16_read c k g₀ w s).trans (hw s)

/-! ## The copy out -/

/-- A quarter of the result array that holds `x` canonically reads `x`; -/
theorem oQ_read_landed {F : FTy → Type} [FloatOps F] (c : Dev nD) (k : Fin 4) (x : S1024x1024.Idx → Elt F .bf16) :
    (oQ c k).view.read (Elt F) ((oQ c k).view.writes (Elt F) (oQ c k).view.junk [⟨Rect.whole S1024x1024, x⟩]) = x :=
  View.read_rep (oQ c k).view x
theorem oQ_read_rep {F : FTy → Type} [FloatOps F] (c : Dev nD) (k : Fin 4) (x : S1024x1024.Idx → Elt F .bf16) :
    (oQ c k).view.read (Elt F) ((oQ c k).view.rep x) = x :=
  View.read_rep (oQ c k).view x
/-- so after the copy out it reads what the VMEM buffer's quarter read. -/
theorem oQ_landed_eq {F : FTy → Type} [FloatOps F] (c : Dev nD) (k : Fin 4) (g : Buf (Elt F) ((c : Thread nD τ).loc cc0_scratch9)) :
    (oQ c k).view.read (Elt F) ((oQ c k).view.rep (ReadAs.same.apply ((vQ c k).view.read (Elt F) g)))
      = (vQ c k).view.read (Elt F) g :=
  View.read_rep (oQ c k).view _
theorem oQ_landed_writes_eq {F : FTy → Type} [FloatOps F] (c : Dev nD) (k : Fin 4) (g : Buf (Elt F) ((c : Thread nD τ).loc cc0_scratch9)) :
    (oQ c k).view.read (Elt F) ((oQ c k).view.writes (Elt F) (oQ c k).view.junk
        [⟨Rect.whole S1024x1024, ReadAs.same.apply ((vQ c k).view.read (Elt F) g)⟩])
      = (vQ c k).view.read (Elt F) g :=
  View.read_rep (oQ c k).view _

/-! ## The two loads of an add -/

/-- Rows 64 s … of plane `k` of the local copy, as the add loads them, are the block the interface names. -/
theorem xl_load {F : FTy → Type} [FloatOps F] (m : (ℓ : Loc nD τ sig) → Buf (Elt F) ℓ) (c : Dev nD) (k : Fin 4) (s : Fin 16)
    (inb : ∀ a, (![k.val, 64 * s.val, 0] : Fin 3 → Nat) a + S1x64x1024.size a ≤ S4x1024x1024.size a) :
    View.readAt (Elt F) (Memref.whole cc0_scratch2).view (Rect.unit (s := S4x1024x1024) ![k.val, 64 * s.val, 0] S1x64x1024.size inb).toLoadRect
        ((xlM k).view.writes (Elt F) (xlM k).view.junk [⟨Rect.whole S1024x1024, lV m c k⟩])
      = xlBlk m c k s := rfl

/-- Block `s` of a landing buffer, loaded through the whole buffer, the block's slice holding `y`: `y`. One per
    landing buffer: from the z-partner, the x-neighbour, the y-neighbour, and of the diagonal quarter. -/
theorem rq_load {F : FTy → Type} [FloatOps F] (s : Fin 16) (inb : ∀ a, (![64 * s.val, 0] : Fin 2 → Nat) a + S64x1024.size a ≤ S1024x1024.size a)
    (y : S64x1024.Idx → Elt F .bf16) :
    View.readAt (Elt F) (Memref.whole cc0_scratch5).view (Rect.unit (s := S1024x1024) ![64 * s.val, 0] S64x1024.size inb).toLoadRect
      ((bQ s).view.rep y) = y :=
  readAt_rep_block_whole cc0_scratch5 _ _ _ y
theorem rx_load {F : FTy → Type} [FloatOps F] (s : Fin 16) (inb : ∀ a, (![64 * s.val, 0] : Fin 2 → Nat) a + S64x1024.size a ≤ S1024x1024.size a)
    (y : S64x1024.Idx → Elt F .bf16) :
    View.readAt (Elt F) (Memref.whole cc0_scratch6).view (Rect.unit (s := S1024x1024) ![64 * s.val, 0] S64x1024.size inb).toLoadRect
      ((bX s).view.rep y) = y :=
  readAt_rep_block_whole cc0_scratch6 _ _ _ y
theorem ry_load {F : FTy → Type} [FloatOps F] (s : Fin 16) (inb : ∀ a, (![64 * s.val, 0] : Fin 2 → Nat) a + S64x1024.size a ≤ S1024x1024.size a)
    (y : S64x1024.Idx → Elt F .bf16) :
    View.readAt (Elt F) (Memref.whole cc0_scratch7).view (Rect.unit (s := S1024x1024) ![64 * s.val, 0] S64x1024.size inb).toLoadRect
      ((bY s).view.rep y) = y :=
  readAt_rep_block_whole cc0_scratch7 _ _ _ y
theorem rr_load {F : FTy → Type} [FloatOps F] (s : Fin 16) (inb : ∀ a, (![64 * s.val, 0] : Fin 2 → Nat) a + S64x1024.size a ≤ S1024x1024.size a)
    (y : S64x1024.Idx → Elt F .bf16) :
    View.readAt (Elt F) (Memref.whole cc0_scratch8).view (Rect.unit (s := S1024x1024) ![64 * s.val, 0] S64x1024.size inb).toLoadRect
      ((bR s).view.rep y) = y :=
  readAt_rep_block_whole cc0_scratch8 _ _ _ y

/-- info: 'Cert.KernelIdeal.Rs.quarterOK_of_nest' depends on axioms: [propext, Classical.choice, Quot.sound] -/
#guard_msgs in #print axioms quarterOK_of_nest

end Cert.KernelIdeal.Rs

end
-- ==== Proof.OutLeaf.lean ====
/- The end of the body's run, for the result. Each quarter of the result array was filled by one copy out of
   the same quarter of the VMEM result buffer: it holds what that quarter read at the time of the copy, whatever
   the array held before. If that quarter of the VMEM buffer is as the interface asks — every block of it the
   kernel's sum of the two blocks it should add — the result's quarter is too. A quarter of the VMEM buffer is
   as the interface asks when it was written by sixteen stores, one per block, each of such a sum. -/
import proofs.«901030_g7700000000001031_dist_rs_v7x_xyz2x2x2_z_m4096_n1024_bf16_1_alg».proof.Proof.Nest
import proofs.«901030_g7700000000001031_dist_rs_v7x_xyz2x2x2_z_m4096_n1024_bf16_1_alg».proof.Proof.BodyCtx
import proofs.«901030_g7700000000001031_dist_rs_v7x_xyz2x2x2_z_m4096_n1024_bf16_1_alg».proof.Proof.BodyFlat

noncomputable section

namespace Cert.KernelIdeal.Rs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A quarter of the result array after the copy out of a quarter of the VMEM buffer that is as the interface asks. -/
theorem quarter_leaf {F : FTy → Type} [FloatOps F] (m : (ℓ : Loc nD τ sig) → Buf (Elt F) ℓ) (c : Dev nD) (k : Fin 4)
    (fo : Buf (Elt F) ((c : Thread nD τ).loc main_v1)) (G : Buf (Elt F) ((c : Thread nD τ).loc cc0_scratch9)) (hG : QuarterOK m c k G) :
    ∃ g, QuarterOK m c k g ∧
      (oQ c k).view.read (Elt F) ((oQ c k).view.writes (Elt F) fo
          [⟨Rect.whole S1024x1024, ReadAs.same.apply (View.read (Elt F) (vQ c k).view G)⟩])
        = (vQ c k).view.read (Elt F) g :=
  ⟨G, hG, View.read_writes_whole (oQ c k).view fo _⟩

/-- The four quarters of the result array, each reading what its quarter of the VMEM buffer read, are the last thing
    the body's run ends with. -/
theorem out_leaf {F : FTy → Type} [FloatOps F] (m : (ℓ : Loc nD τ sig) → Buf (Elt F) ℓ) (c : Dev nD)
    (h0 h1 h2 h3 : Buf (Elt F) ((c : Thread nD τ).loc main_v1)) :
    (iprop((((oQ c 0).view.loc (c : Thread nD τ) ↦[(oQ c 0).view.set]{fullShare} h0) ∗ ((oQ c 1).view.loc (c : Thread nD τ) ↦[(oQ c 1).view.set]{fullShare} h1) ∗ ((oQ c 2).view.loc (c : Thread nD τ) ↦[(oQ c 2).view.set]{fullShare} h2) ∗ ((oQ c 3).view.loc (c : Thread nD τ) ↦[(oQ c 3).view.set]{fullShare} h3))
        ∗ ⌜∀ k : Fin 4, ∃ g, QuarterOK m c k g ∧ (oQ c k).view.read (Elt F) (![h0, h1, h2, h3] k) = (vQ c k).view.read (Elt F) g⌝)
      : sProp (MT nD τ sig Unit (Elt F) ℕ UU ℕ))
    ⊢ iprop(∃ h : Fin 4 → Buf (Elt F) ((c : Thread nD τ).loc main_v1),
        ⌜∀ k, ∃ g, QuarterOK m c k g ∧ (oQ c k).view.read (Elt F) (h k) = (vQ c k).view.read (Elt F) g⌝
        ∗ ((oQ c 0).view.loc (c : Thread nD τ) ↦[(oQ c 0).view.set]{fullShare} h 0) ∗ ((oQ c 1).view.loc (c : Thread nD τ) ↦[(oQ c 1).view.set]{fullShare} h 1) ∗ ((oQ c 2).view.loc (c : Thread nD τ) ↦[(oQ c 2).view.set]{fullShare} h 2) ∗ ((oQ c 3).view.loc (c : Thread nD τ) ↦[(oQ c 3).view.set]{fullShare} h 3)) := by
  iintro ⟨⟨H0, H1, H2, H3⟩, %hp⟩
  iexists ![h0, h1, h2, h3]
  isplitr
  · ipureintro; exact hp
  · isplitl [H0]
    · iexact H0
    isplitl [H1]
    · iexact H1
    isplitl [H2]
    · iexact H2
    iexact H3

/-- The same, with the four quarters' facts stated one by one. -/
theorem out_leaf4 {F : FTy → Type} [FloatOps F] (m : (ℓ : Loc nD τ sig) → Buf (Elt F) ℓ) (c : Dev nD)
    (h0 h1 h2 h3 : Buf (Elt F) ((c : Thread nD τ).loc main_v1)) :
    (iprop((((oQ c 0).view.loc (c : Thread nD τ) ↦[(oQ c 0).view.set]{fullShare} h0) ∗ ((oQ c 1).view.loc (c : Thread nD τ) ↦[(oQ c 1).view.set]{fullShare} h1) ∗ ((oQ c 2).view.loc (c : Thread nD τ) ↦[(oQ c 2).view.set]{fullShare} h2) ∗ ((oQ c 3).view.loc (c : Thread nD τ) ↦[(oQ c 3).view.set]{fullShare} h3))
        ∗ ⌜(∃ g, QuarterOK m c 0 g ∧ (oQ c 0).view.read (Elt F) h0 = (vQ c 0).view.read (Elt F) g) ∧ (∃ g, QuarterOK m c 1 g ∧ (oQ c 1).view.read (Elt F) h1 = (vQ c 1).view.read (Elt F) g) ∧ (∃ g, QuarterOK m c 2 g ∧ (oQ c 2).view.read (Elt F) h2 = (vQ c 2).view.read (Elt F) g) ∧ (∃ g, QuarterOK m c 3 g ∧ (oQ c 3).view.read (Elt F) h3 = (vQ c 3).view.read (Elt F) g)⌝)
      : sProp (MT nD τ sig Unit (Elt F) ℕ UU ℕ))
    ⊢ iprop(∃ h : Fin 4 → Buf (Elt F) ((c : Thread nD τ).loc main_v1),
        ⌜∀ k, ∃ g, QuarterOK m c k g ∧ (oQ c k).view.read (Elt F) (h k) = (vQ c k).view.read (Elt F) g⌝
        ∗ ((oQ c 0).view.loc (c : Thread nD τ) ↦[(oQ c 0).view.set]{fullShare} h 0) ∗ ((oQ c 1).view.loc (c : Thread nD τ) ↦[(oQ c 1).view.set]{fullShare} h 1) ∗ ((oQ c 2).view.loc (c : Thread nD τ) ↦[(oQ c 2).view.set]{fullShare} h 2) ∗ ((oQ c 3).view.loc (c : Thread nD τ) ↦[(oQ c 3).view.set]{fullShare} h 3)) := by
  refine Idealize.SL.BI.BIBase.Entails.trans ?_ (out_leaf m c h0 h1 h2 h3)
  iintro ⟨H, %hp⟩
  isplitl [H]
  · iexact H
  ipureintro
  intro k
  obtain ⟨q0, q1, q2, q3⟩ := hp
  fin_cases k
  · exact q0
  · exact q1
  · exact q2
  · exact q3

/-! ## A quarter written by sixteen stores of the right sums -/

theorem quarter_step {F : FTy → Type} [FloatOps F] (m : (ℓ : Loc nD τ sig) → Buf (Elt F) ℓ) (c : Dev nD) (k : Fin 4)
    (n : Nat) (s' : Fin 16) (hs' : s'.val = n) (g : Buf (Elt F) ((c : Thread nD τ).loc cc0_scratch9)) (p : S64x1024.Idx → Elt F .bf16)
    (off : Fin 2 → Nat) (inb : ∀ a, off a + S64x1024.size a ≤ S4096x1024.size a) (hoff : off = offB c k s')
    (hp : p = k0_pay23 (xlBlk m c k s') (rBlk m c k s'))
    (H : ∀ s : Fin 16, s.val < n → (vB c k s).view.read (Elt F) g = k0_pay23 (xlBlk m c k s) (rBlk m c k s)) :
    ∀ s : Fin 16, s.val < n + 1 →
      (vB c k s).view.read (Elt F)
          (View.write (Elt F) ((Memref.whole cc0_scratch9).access (Rect.unit (s := S4096x1024) off S64x1024.size inb)) g p Finset.univ)
        = k0_pay23 (xlBlk m c k s) (rBlk m c k s) := by
  subst hoff
  intro s h
  refine (read_vB_write c k s s' g p inb).trans ?_
  by_cases e : s = s'
  · rw [if_pos e, e]; exact hp
  · rw [if_neg e]
    refine H s ?_
    have : s.val ≠ s'.val := fun e' => e (Fin.ext e')
    omega

theorem pay23_ok {F : FTy → Type} [FloatOps F] (A A' : Vec F S1x64x1024 .f32) (B B' : Vec F S64x1024 .bf16)
    (hA : A = A') (hB : B = B') : k0_pay23 A B = k0_pay23 A' B' := by rw [hA, hB]

/-- One store's payload is the sum the interface names: the first load is, by definition, the block of the local copy's
    plane the interface names; the second is a load of a landing block through its whole buffer, the block's slice
    holding the value the interface names. -/
macro "payload_tac" : tactic => `(tactic| (
  refine pay23_ok _ _ _ _ ?_ ?_
  · rfl
  · exact readAt_rep_block_whole _ _ _ _ _))

/-- The interface's statement about a quarter, from the statement about its blocks below 16. -/
theorem quarterOK_intro {F : FTy → Type} [FloatOps F] (m : (ℓ : Loc nD τ sig) → Buf (Elt F) ℓ) (c : Dev nD) (k : Fin 4) (G : Buf (Elt F) ((c : Thread nD τ).loc cc0_scratch9))
    (H : ∀ s : Fin 16, s.val < 15 + 1 → (vB c k s).view.read (Elt F) G = k0_pay23 (xlBlk m c k s) (rBlk m c k s)) :
    QuarterOK m c k G := fun s => H s s.isLt

/-- A quarter of the VMEM result buffer written by sixteen stores through the whole buffer, block 0 innermost, block 15
    outermost, each of the kernel's sum (named whole or cut in pieces) of the two loads of its block, is as the interface
    asks: one step per store, outermost first; each step checks that the store's offsets are the block's and that its
    payload is the block's sum. -/
macro "quarter_tac" : tactic => `(tactic| (
  refine quarterOK_intro _ _ _ _ ?_
  refine quarter_step _ _ _ 15 15 rfl _ _ _ _ rfl ?_ ?_
  · payload_tac
  refine quarter_step _ _ _ 14 14 rfl _ _ _ _ rfl ?_ ?_
  · payload_tac
  refine quarter_step _ _ _ 13 13 rfl _ _ _ _ rfl ?_ ?_
  · payload_tac
  refine quarter_step _ _ _ 12 12 rfl _ _ _ _ rfl ?_ ?_
  · payload_tac
  refine quarter_step _ _ _ 11 11 rfl _ _ _ _ rfl ?_ ?_
  · payload_tac
  refine quarter_step _ _ _ 10 10 rfl _ _ _ _ rfl ?_ ?_
  · payload_tac
  refine quarter_step _ _ _ 9 9 rfl _ _ _ _ rfl ?_ ?_
  · payload_tac
  refine quarter_step _ _ _ 8 8 rfl _ _ _ _ rfl ?_ ?_
  · payload_tac
  refine quarter_step _ _ _ 7 7 rfl _ _ _ _ rfl ?_ ?_
  · payload_tac
  refine quarter_step _ _ _ 6 6 rfl _ _ _ _ rfl ?_ ?_
  · payload_tac
  refine quarter_step _ _ _ 5 5 rfl _ _ _ _ rfl ?_ ?_
  · payload_tac
  refine quarter_step _ _ _ 4 4 rfl _ _ _ _ rfl ?_ ?_
  · payload_tac
  refine quarter_step _ _ _ 3 3 rfl _ _ _ _ rfl ?_ ?_
  · payload_tac
  refine quarter_step _ _ _ 2 2 rfl _ _ _ _ rfl ?_ ?_
  · payload_tac
  refine quarter_step _ _ _ 1 1 rfl _ _ _ _ rfl ?_ ?_
  · payload_tac
  refine quarter_step _ _ _ 0 0 rfl _ _ _ _ rfl ?_ ?_
  · payload_tac
  exact fun s h => absurd h (Nat.not_lt_zero _)))

/-- info: 'Cert.KernelIdeal.Rs.out_leaf' depends on axioms: [propext, Classical.choice, Quot.sound] -/
#guard_msgs in #print axioms out_leaf
/-- info: 'Cert.KernelIdeal.Rs.quarter_step' depends on axioms: [propext, Classical.choice, Quot.sound] -/
#guard_msgs in #print axioms quarter_step

end Cert.KernelIdeal.Rs

end
-- ==== Proof.Body.lean ====
import proofs.«901030_g7700000000001031_dist_rs_v7x_xyz2x2x2_z_m4096_n1024_bf16_1_alg».proof.Proof.BodyMacros
import proofs.«901030_g7700000000001031_dist_rs_v7x_xyz2x2x2_z_m4096_n1024_bf16_1_alg».proof.Proof.BodyFlatOk
import proofs.«901030_g7700000000001031_dist_rs_v7x_xyz2x2x2_z_m4096_n1024_bf16_1_alg».proof.Proof.Nest
import proofs.«901030_g7700000000001031_dist_rs_v7x_xyz2x2x2_z_m4096_n1024_bf16_1_alg».proof.Proof.OutLeaf
import proofs.«901030_g7700000000001031_dist_rs_v7x_xyz2x2x2_z_m4096_n1024_bf16_1_alg».proof.Proof.BodyObl

noncomputable section

namespace Cert.KernelIdeal.Rs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxHeartbeats 400000000 in
set_option maxRecDepth 65536 in
theorem body_run' (K : Dev nD × CK → ℕ) (c : Dev nD) (W : Waits sig Unit) (Kt : PUnit → sProp 𝕄)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (fq : Buf (Elt F) ((c : Thread nD τ).loc cc0_scratch5))
    (fx : Buf (Elt F) ((c : Thread nD τ).loc cc0_scratch6)) (fy : Buf (Elt F) ((c : Thread nD τ).loc cc0_scratch7))
    (fr : Buf (Elt F) ((c : Thread nD τ).loc cc0_scratch8)) (f9 : Buf (Elt F) ((c : Thread nD τ).loc cc0_scratch9)) :
    iprop((ghost m K c ∗ cred (tallyAt (barCell c) () 3) ∗ (bigSep Finset.univ fun i : Fin 64 => cred (tallyAt (dcell c (rN i)) () Nb))
        ∗ levAts L lv ∗ localSems c
        ∗ (scr0 c f0 ∗ scr1 c f1 ∗ scr2 c f2 ∗ scr3 c f3 ∗ scr4 c f4 ∗ ownZ c fq fr ∗ ownX c fx fr ∗ ownY c fy fr ∗ scr9 c f9)
        ∗ argPieces c (m ((c : Thread nD τ).loc main_arg0))
        ∗ outPieces c (m ((c : Thread nD τ).loc main_v1)))
      ∗ owes (c : Thread nD τ) (O₀ c) W ∗ (bodyPost m K c -∗ Kt ⟨⟩))
      ⊢ wp frame (wpE (defs₀ (F := F)) Variants.none c none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold ghost payToks localSems argPieces outPieces scr0 scr1 scr2 scr3 scr4 scr9
  rw [positions_eq, O₀_eqL]
  rw [bigSep_univ_eq_bigSepL sendWaitList sendWaitList_univ sendWaitList_nodup (fun i : Fin 64 => (atPos ER (dcell c (sN i)) 0 ∅ 0 : sProp 𝕄)),
    bigSep_univ_eq_bigSepL recvWaitList recvWaitList_univ recvWaitList_nodup (fun i : Fin 64 => (atPos ER (dcell c (rN i)) 0 ∅ 0 : sProp 𝕄)),
    bigSep_univ_eq_bigSepL progList progList_univ' progList_nodup (fun i : Fin 64 => (dutyTok ER (dcell c (sN i)) 0 0 : sProp 𝕄)),
    bigSep_univ_eq_bigSepL progList progList_univ' progList_nodup (fun i : Fin 64 => (dutyTok ER (dcell (pr i c) (rN i)) 0 0 : sProp 𝕄)),
    bigSep_univ_eq_bigSepL recvWaitList recvWaitList_univ recvWaitList_nodup (fun i : Fin 64 => (cred (tallyAt (dcell c (rN i)) () Nb) : sProp 𝕄))]
  rw [bigSep_fin30, bigSep_fin16, bigSep_fin16, bigSep_fin16, bigSep_fin6, bigSep_fin6, bigSep_fin6, bigSep_fin4, bigSep_fin4, bigSep_fin4]
  iintro ⟨⟨⟨#HRec, ⟨Hatb, HaS, HaR⟩, Htz, Htx, Hty, HtS, HtR⟩, Hcb, HcR, #Hlev, Hloc, ⟨Hs0, Hs1, Hs2, Hs3, Hs4, HZ, HXn, HYn, Hs9⟩, ⟨⟨HWL0, HWL1, HWL2, HWL3⟩, HWQ, HWD, Hrest⟩, HOut⟩, HO, Hk⟩
  ichain Hloc as Hl 30
  ichain Hs0 as HXq 16
  ichain Hs1 as HXd 6
  ichain Hs2 as HXl 4
  ichain Hs3 as HA 16
  ichain Hs4 as HD 6
  ichain Hs9 as HV 4
  ichain HWQ as HWq 16
  ichain HWD as HWd 6
  ichain HOut as HOq 4
  sl_exec
  -- the entry handshake: a unit on each neighbour's barrier cell, each with the landing blocks that neighbour will write
  iapply (Rounds.wp_signal Variants.none ER (Rd m) (c : Thread nD τ) none (dst := (zp c : Thread nD τ)) (κ := K (zp c, .inl ()))
      (d := 0) (by rw [duties_bar]; exact Finset.mem_univ _) ((amount_bar m (zp c) 0).trans (by decide)) ()
      (sumL c progList + tallyAt (barCell (yn c)) () 1 + tallyAt (barCell (xn c)) () 1) rfl)
    $$ [HO Htz HZ]
  · isplitr; · iapply (inv_at m K (zp c, .inl ())); iexact HRec
    isplitl [HO]; · iexact HO
    isplitl [Htz]; · iexact Htz
    isplitl [HZ]
    · rw [payload_bar0, zp_zp]; iapply (ownZ_landZ c fq fr); iexact HZ
    · iapply (reached_at m K (zp c, .inl ())); iexact HRec
  iintro HO
  sl_exec
  iapply (Rounds.wp_signal Variants.none ER (Rd m) (c : Thread nD τ) none (dst := (xn c : Thread nD τ)) (κ := K (xn c, .inl ()))
      (d := 1) (by rw [duties_bar]; exact Finset.mem_univ _) ((amount_bar m (xn c) 1).trans (by decide)) ()
      (sumL c progList + tallyAt (barCell (yn c)) () 1) rfl)
    $$ [HO Htx HXn]
  · isplitr; · iapply (inv_at m K (xn c, .inl ())); iexact HRec
    isplitl [HO]; · iexact HO
    isplitl [Htx]; · iexact Htx
    isplitl [HXn]
    · rw [payload_bar1, xn_xn]; iapply (ownX_landX c fx fr); iexact HXn
    · iapply (reached_at m K (xn c, .inl ())); iexact HRec
  iintro HO
  sl_exec
  iapply (Rounds.wp_signal Variants.none ER (Rd m) (c : Thread nD τ) none (dst := (yn c : Thread nD τ)) (κ := K (yn c, .inl ()))
      (d := 2) (by rw [duties_bar]; exact Finset.mem_univ _) ((amount_bar m (yn c) 2).trans (by decide)) ()
      (sumL c progList) rfl)
    $$ [HO Hty HYn]
  · isplitr; · iapply (inv_at m K (yn c, .inl ())); iexact HRec
    isplitl [HO]; · iexact HO
    isplitl [Hty]; · iexact Hty
    isplitl [HYn]
    · rw [payload_bar2, yn_yn]; iapply (ownY_landY c fy fr); iexact HYn
    · iapply (reached_at m K (yn c, .inl ())); iexact HRec
  iintro HO
  sl_exec
  -- the wait for the three neighbours' units: their landing blocks arrive
  iapply (Rounds.wp_wait_rest_token Variants.none ER (Rd m) (c : Thread nD τ) none (κ := K (c, .inl ()))
      (wpE_semWait_eq Variants.none (c : Thread nD τ) none Set.univ) (Set.mem_univ _) () (O := sumL c progList) (W := W) (R := 0) (m := 0) (T := ∅)
      (by rw [expect_bar]; decide))
    $$ [Hcb HO Hatb]
  · isplitr; · iapply (inv_at m K (c, .inl ())); iexact HRec
    isplitl [Hcb]; · iexact Hcb
    isplitl [HO]; · iexact HO
    isplitr
    · iapply (mayWait_of_above c (.reg barS) _ (above_lsum 1 c progList (by decide))); iexact Hlev
    iexact Hatb
  iintro ⟨HO, Hatb, -, Hpay⟩
  ihave Hp := (Entails.of_eq (rest_bar m c)) $$ Hpay
  icases Hp with ⟨HGz, HGx, HGy⟩
  unfold landZ landX landY progList recvWaitList sendWaitList
  -- the local copies are issued, the first f32 block arrives, is cast and stored: up to the first remote copy
  have hled : ∀ (sm : SemLoc sig) (O : CellTallies nD τ sig Unit), Above (lv ((c : Thread nD τ), sm) ()) O →
      ((levAts L lv : sProp 𝕄) ⊢ MayWait (c : Thread nD τ) sm () O) := fun sm O h => mayWait_of_above c sm O h
  ex

  -- the sixteen casts of the own quarter go to the z-partner, each as soon as it is stored
  send_core 0 HA0 HGz HcS0 | dev4_eq c | zp c | fullShare | aV m c 0 | za_val m c 0 f3 k0_pay1 k0_pay1_eq1 _ _ | pay_of_pex m c fullShare (bA 0) _ (pay_sZa m c 0) _ | pay_rZa' m c 0
  ex
  send_core 1 HA1 HGz HcS1 | dev5_eq c | zp c | fullShare | aV m c 1 | za_val m c 1 f3 k0_pay2 k0_pay2_eq1 _ _ | pay_of_pex m c fullShare (bA 1) _ (pay_sZa m c 1) _ | pay_rZa' m c 1
  ex
  send_core 2 HA2 HGz HcS2 | dev6_eq c | zp c | fullShare | aV m c 2 | za_val m c 2 f3 k0_pay3 k0_pay3_eq1 _ _ | pay_of_pex m c fullShare (bA 2) _ (pay_sZa m c 2) _ | pay_rZa' m c 2
  ex
  send_core 3 HA3 HGz HcS3 | dev7_eq c | zp c | fullShare | aV m c 3 | za_val m c 3 f3 k0_pay4 k0_pay4_eq1 _ _ | pay_of_pex m c fullShare (bA 3) _ (pay_sZa m c 3) _ | pay_rZa' m c 3
  ex
  send_core 4 HA4 HGz HcS4 | dev8_eq c | zp c | fullShare | aV m c 4 | za_val m c 4 f3 k0_pay5 k0_pay5_eq1 _ _ | pay_of_pex m c fullShare (bA 4) _ (pay_sZa m c 4) _ | pay_rZa' m c 4
  ex
  send_core 5 HA5 HGz HcS5 | dev9_eq c | zp c | fullShare | aV m c 5 | za_val m c 5 f3 k0_pay6 k0_pay6_eq1 _ _ | pay_of_pex m c fullShare (bA 5) _ (pay_sZa m c 5) _ | pay_rZa' m c 5
  ex
  send_core 6 HA6 HGz HcS6 | dev10_eq c | zp c | fullShare | aV m c 6 | za_val m c 6 f3 k0_pay7 k0_pay7_eq1 _ _ | pay_of_pex m c fullShare (bA 6) _ (pay_sZa m c 6) _ | pay_rZa' m c 6
  ex
  send_core 7 HA7 HGz HcS7 | dev11_eq c | zp c | fullShare | aV m c 7 | za_val m c 7 f3 k0_pay8 k0_pay8_eq1 _ _ | pay_of_pex m c fullShare (bA 7) _ (pay_sZa m c 7) _ | pay_rZa' m c 7
  ex
  send_core 8 HA8 HGz HcS8 | dev12_eq c | zp c | fullShare | aV m c 8 | za_val m c 8 f3 k0_pay9 k0_pay9_eq1 _ _ | pay_of_pex m c fullShare (bA 8) _ (pay_sZa m c 8) _ | pay_rZa' m c 8
  ex
  send_core 9 HA9 HGz HcS9 | dev13_eq c | zp c | fullShare | aV m c 9 | za_val m c 9 f3 k0_pay10 k0_pay10_eq1 _ _ | pay_of_pex m c fullShare (bA 9) _ (pay_sZa m c 9) _ | pay_rZa' m c 9
  ex
  send_core 10 HA10 HGz HcS10 | dev14_eq c | zp c | fullShare | aV m c 10 | za_val m c 10 f3 k0_pay11 k0_pay11_eq1 _ _ | pay_of_pex m c fullShare (bA 10) _ (pay_sZa m c 10) _ | pay_rZa' m c 10
  ex
  send_core 11 HA11 HGz HcS11 | dev15_eq c | zp c | fullShare | aV m c 11 | za_val m c 11 f3 k0_pay12 k0_pay12_eq1 _ _ | pay_of_pex m c fullShare (bA 11) _ (pay_sZa m c 11) _ | pay_rZa' m c 11
  ex
  send_core 12 HA12 HGz HcS12 | dev16_eq c | zp c | fullShare | aV m c 12 | za_val m c 12 f3 k0_pay13 k0_pay13_eq1 _ _ | pay_of_pex m c fullShare (bA 12) _ (pay_sZa m c 12) _ | pay_rZa' m c 12
  ex
  send_core 13 HA13 HGz HcS13 | dev17_eq c | zp c | fullShare | aV m c 13 | za_val m c 13 f3 k0_pay14 k0_pay14_eq1 _ _ | pay_of_pex m c fullShare (bA 13) _ (pay_sZa m c 13) _ | pay_rZa' m c 13
  ex
  send_core 14 HA14 HGz HcS14 | dev18_eq c | zp c | fullShare | aV m c 14 | za_val m c 14 f3 k0_pay15 k0_pay15_eq1 _ _ | pay_of_pex m c fullShare (bA 14) _ (pay_sZa m c 14) _ | pay_rZa' m c 14
  ex
  send_core 15 HA15 HGz HcS15 | dev19_eq c | zp c | fullShare | aV m c 15 | za_val m c 15 f3 k0_pay16 k0_pay16_eq1 _ _ | pay_of_pex m c fullShare (bA 15) _ (pay_sZa m c 15) _ | pay_rZa' m c 15
  ex
  -- the six casts of the diagonal quarter's first blocks go to the z-partner
  send_core 16 HD0 HGz HcS16 | dev20_eq c | zp c | fullShare | dV m c 0 | zd_val m c 0 f4 k0_pay17 k0_pay17_eq1 _ _ | pay_of_pex m c fullShare (bD 0) _ (pay_sZd m c 0) _ | pay_rZd' m c 0
  ex
  send_core 17 HD1 HGz HcS17 | dev21_eq c | zp c | fullShare | dV m c 1 | zd_val m c 1 f4 k0_pay18 k0_pay18_eq1 _ _ | pay_of_pex m c fullShare (bD 1) _ (pay_sZd m c 1) _ | pay_rZd' m c 1
  ex
  send_core 18 HD2 HGz HcS18 | dev22_eq c | zp c | fullShare | dV m c 2 | zd_val m c 2 f4 k0_pay19 k0_pay19_eq1 _ _ | pay_of_pex m c fullShare (bD 2) _ (pay_sZd m c 2) _ | pay_rZd' m c 2
  ex
  send_core 19 HD3 HGz HcS19 | dev23_eq c | zp c | fullShare | dV m c 3 | zd_val m c 3 f4 k0_pay20 k0_pay20_eq1 _ _ | pay_of_pex m c fullShare (bD 3) _ (pay_sZd m c 3) _ | pay_rZd' m c 3
  ex
  send_core 20 HD4 HGz HcS20 | dev24_eq c | zp c | fullShare | dV m c 4 | zd_val m c 4 f4 k0_pay21 k0_pay21_eq1 _ _ | pay_of_pex m c fullShare (bD 4) _ (pay_sZd m c 4) _ | pay_rZd' m c 4
  ex
  send_last 21 HD5 HGz HcS21 | dev25_eq c | zp c | fullShare | dV m c 5 | zd_val m c 5 f4 k0_pay22 k0_pay22_eq1 _ _ | pay_of_pex m c fullShare (bD 5) _ (pay_sZd m c 5) _ | pay_rZd' m c 5
  ex
  -- block by block: the z-partner's cast arrives, goes on to the x- and the y-neighbour, and is added to the own rows
  recv_wait 0 HQ0 HaR1_0 | pay_rZa m c 0 | 2
  share3 HQ0 HQx0 HQy0 HQk0
  ex
  send_core 22 HQx0 HGx HcS22 | dev26_eq c | xn c | shX | aV m (zp c) 0 | rep_read _ _ | pay_of_pex m c shX (bQ 0) _ (pay_sFx m c 0) _ | pay_rFx' m c 0
  ex
  send_core 38 HQy0 HGy HcS38 | dev27_eq c | yn c | shY | aV m (zp c) 0 | rep_read _ _ | pay_of_pex m c shY (bQ 0) _ (pay_sFy m c 0) _ | pay_rFy' m c 0
  ex
  recv_wait 1 HQ1 HaR1_1 | pay_rZa m c 1 | 2
  share3 HQ1 HQx1 HQy1 HQk1
  ex
  send_core 23 HQx1 HGx HcS23 | dev28_eq c | xn c | shX | aV m (zp c) 1 | rep_read _ _ | pay_of_pex m c shX (bQ 1) _ (pay_sFx m c 1) _ | pay_rFx' m c 1
  ex
  send_core 39 HQy1 HGy HcS39 | dev29_eq c | yn c | shY | aV m (zp c) 1 | rep_read _ _ | pay_of_pex m c shY (bQ 1) _ (pay_sFy m c 1) _ | pay_rFy' m c 1
  ex
  recv_wait 2 HQ2 HaR1_2 | pay_rZa m c 2 | 2
  share3 HQ2 HQx2 HQy2 HQk2
  ex
  send_core 24 HQx2 HGx HcS24 | dev30_eq c | xn c | shX | aV m (zp c) 2 | rep_read _ _ | pay_of_pex m c shX (bQ 2) _ (pay_sFx m c 2) _ | pay_rFx' m c 2
  ex
  send_core 40 HQy2 HGy HcS40 | dev31_eq c | yn c | shY | aV m (zp c) 2 | rep_read _ _ | pay_of_pex m c shY (bQ 2) _ (pay_sFy m c 2) _ | pay_rFy' m c 2
  ex
  recv_wait 3 HQ3 HaR1_3 | pay_rZa m c 3 | 2
  share3 HQ3 HQx3 HQy3 HQk3
  ex
  send_core 25 HQx3 HGx HcS25 | dev32_eq c | xn c | shX | aV m (zp c) 3 | rep_read _ _ | pay_of_pex m c shX (bQ 3) _ (pay_sFx m c 3) _ | pay_rFx' m c 3
  ex
  send_core 41 HQy3 HGy HcS41 | dev33_eq c | yn c | shY | aV m (zp c) 3 | rep_read _ _ | pay_of_pex m c shY (bQ 3) _ (pay_sFy m c 3) _ | pay_rFy' m c 3
  ex
  recv_wait 4 HQ4 HaR1_4 | pay_rZa m c 4 | 2
  share3 HQ4 HQx4 HQy4 HQk4
  ex
  send_core 26 HQx4 HGx HcS26 | dev34_eq c | xn c | shX | aV m (zp c) 4 | rep_read _ _ | pay_of_pex m c shX (bQ 4) _ (pay_sFx m c 4) _ | pay_rFx' m c 4
  ex
  send_core 42 HQy4 HGy HcS42 | dev35_eq c | yn c | shY | aV m (zp c) 4 | rep_read _ _ | pay_of_pex m c shY (bQ 4) _ (pay_sFy m c 4) _ | pay_rFy' m c 4
  ex
  recv_wait 5 HQ5 HaR1_5 | pay_rZa m c 5 | 2
  share3 HQ5 HQx5 HQy5 HQk5
  ex
  send_core 27 HQx5 HGx HcS27 | dev36_eq c | xn c | shX | aV m (zp c) 5 | rep_read _ _ | pay_of_pex m c shX (bQ 5) _ (pay_sFx m c 5) _ | pay_rFx' m c 5
  ex
  send_core 43 HQy5 HGy HcS43 | dev37_eq c | yn c | shY | aV m (zp c) 5 | rep_read _ _ | pay_of_pex m c shY (bQ 5) _ (pay_sFy m c 5) _ | pay_rFy' m c 5
  ex
  recv_wait 6 HQ6 HaR1_6 | pay_rZa m c 6 | 2
  share3 HQ6 HQx6 HQy6 HQk6
  ex
  send_core 28 HQx6 HGx HcS28 | dev38_eq c | xn c | shX | aV m (zp c) 6 | rep_read _ _ | pay_of_pex m c shX (bQ 6) _ (pay_sFx m c 6) _ | pay_rFx' m c 6
  ex
  send_core 44 HQy6 HGy HcS44 | dev39_eq c | yn c | shY | aV m (zp c) 6 | rep_read _ _ | pay_of_pex m c shY (bQ 6) _ (pay_sFy m c 6) _ | pay_rFy' m c 6
  ex
  recv_wait 7 HQ7 HaR1_7 | pay_rZa m c 7 | 2
  share3 HQ7 HQx7 HQy7 HQk7
  ex
  send_core 29 HQx7 HGx HcS29 | dev40_eq c | xn c | shX | aV m (zp c) 7 | rep_read _ _ | pay_of_pex m c shX (bQ 7) _ (pay_sFx m c 7) _ | pay_rFx' m c 7
  ex
  send_core 45 HQy7 HGy HcS45 | dev41_eq c | yn c | shY | aV m (zp c) 7 | rep_read _ _ | pay_of_pex m c shY (bQ 7) _ (pay_sFy m c 7) _ | pay_rFy' m c 7
  ex
  recv_wait 8 HQ8 HaR1_8 | pay_rZa m c 8 | 2
  share3 HQ8 HQx8 HQy8 HQk8
  ex
  send_core 30 HQx8 HGx HcS30 | dev42_eq c | xn c | shX | aV m (zp c) 8 | rep_read _ _ | pay_of_pex m c shX (bQ 8) _ (pay_sFx m c 8) _ | pay_rFx' m c 8
  ex
  send_core 46 HQy8 HGy HcS46 | dev43_eq c | yn c | shY | aV m (zp c) 8 | rep_read _ _ | pay_of_pex m c shY (bQ 8) _ (pay_sFy m c 8) _ | pay_rFy' m c 8
  ex
  recv_wait 9 HQ9 HaR1_9 | pay_rZa m c 9 | 2
  share3 HQ9 HQx9 HQy9 HQk9
  ex
  send_core 31 HQx9 HGx HcS31 | dev44_eq c | xn c | shX | aV m (zp c) 9 | rep_read _ _ | pay_of_pex m c shX (bQ 9) _ (pay_sFx m c 9) _ | pay_rFx' m c 9
  ex
  send_core 47 HQy9 HGy HcS47 | dev45_eq c | yn c | shY | aV m (zp c) 9 | rep_read _ _ | pay_of_pex m c shY (bQ 9) _ (pay_sFy m c 9) _ | pay_rFy' m c 9
  ex
  recv_wait 10 HQ10 HaR1_10 | pay_rZa m c 10 | 2
  share3 HQ10 HQx10 HQy10 HQk10
  ex
  send_core 32 HQx10 HGx HcS32 | dev46_eq c | xn c | shX | aV m (zp c) 10 | rep_read _ _ | pay_of_pex m c shX (bQ 10) _ (pay_sFx m c 10) _ | pay_rFx' m c 10
  ex
  send_core 48 HQy10 HGy HcS48 | dev47_eq c | yn c | shY | aV m (zp c) 10 | rep_read _ _ | pay_of_pex m c shY (bQ 10) _ (pay_sFy m c 10) _ | pay_rFy' m c 10
  ex
  recv_wait 11 HQ11 HaR1_11 | pay_rZa m c 11 | 2
  share3 HQ11 HQx11 HQy11 HQk11
  ex
  send_core 33 HQx11 HGx HcS33 | dev48_eq c | xn c | shX | aV m (zp c) 11 | rep_read _ _ | pay_of_pex m c shX (bQ 11) _ (pay_sFx m c 11) _ | pay_rFx' m c 11
  ex
  send_core 49 HQy11 HGy HcS49 | dev49_eq c | yn c | shY | aV m (zp c) 11 | rep_read _ _ | pay_of_pex m c shY (bQ 11) _ (pay_sFy m c 11) _ | pay_rFy' m c 11
  ex
  recv_wait 12 HQ12 HaR1_12 | pay_rZa m c 12 | 2
  share3 HQ12 HQx12 HQy12 HQk12
  ex
  send_core 34 HQx12 HGx HcS34 | dev50_eq c | xn c | shX | aV m (zp c) 12 | rep_read _ _ | pay_of_pex m c shX (bQ 12) _ (pay_sFx m c 12) _ | pay_rFx' m c 12
  ex
  send_core 50 HQy12 HGy HcS50 | dev51_eq c | yn c | shY | aV m (zp c) 12 | rep_read _ _ | pay_of_pex m c shY (bQ 12) _ (pay_sFy m c 12) _ | pay_rFy' m c 12
  ex
  recv_wait 13 HQ13 HaR1_13 | pay_rZa m c 13 | 2
  share3 HQ13 HQx13 HQy13 HQk13
  ex
  send_core 35 HQx13 HGx HcS35 | dev52_eq c | xn c | shX | aV m (zp c) 13 | rep_read _ _ | pay_of_pex m c shX (bQ 13) _ (pay_sFx m c 13) _ | pay_rFx' m c 13
  ex
  send_core 51 HQy13 HGy HcS51 | dev53_eq c | yn c | shY | aV m (zp c) 13 | rep_read _ _ | pay_of_pex m c shY (bQ 13) _ (pay_sFy m c 13) _ | pay_rFy' m c 13
  ex
  recv_wait 14 HQ14 HaR1_14 | pay_rZa m c 14 | 2
  share3 HQ14 HQx14 HQy14 HQk14
  ex
  send_core 36 HQx14 HGx HcS36 | dev54_eq c | xn c | shX | aV m (zp c) 14 | rep_read _ _ | pay_of_pex m c shX (bQ 14) _ (pay_sFx m c 14) _ | pay_rFx' m c 14
  ex
  send_core 52 HQy14 HGy HcS52 | dev55_eq c | yn c | shY | aV m (zp c) 14 | rep_read _ _ | pay_of_pex m c shY (bQ 14) _ (pay_sFy m c 14) _ | pay_rFy' m c 14
  ex
  recv_wait 15 HQ15 HaR1_15 | pay_rZa m c 15 | 2
  share3 HQ15 HQx15 HQy15 HQk15
  ex
  send_core 37 HQx15 HGx HcS37 | dev56_eq c | xn c | shX | aV m (zp c) 15 | rep_read _ _ | pay_of_pex m c shX (bQ 15) _ (pay_sFx m c 15) _ | pay_rFx' m c 15
  ex
  send_core 53 HQy15 HGy HcS53 | dev57_eq c | yn c | shY | aV m (zp c) 15 | rep_read _ _ | pay_of_pex m c shY (bQ 15) _ (pay_sFy m c 15) _ | pay_rFy' m c 15
  ex
  -- the y-neighbour's blocks 6–10 go on to the x-neighbour, the x-neighbour's blocks 11–15 to the y-neighbour
  recv_wait 44 HY6 HaR1_44 | pay_rFy m c 6 | 3
  share2 HY6 HYx6 HYk6
  ex
  send_core 54 HYx6 HGx HcS54 | dev58_eq c | xn c | shX | aV m (zp (yn c)) 6 | rep_read _ _ | pay_of_pex m c shX (bY 6) _ (pay_sDx_6 m c) _ | pay_rDx'_6 m c
  ex
  recv_wait 45 HY7 HaR1_45 | pay_rFy m c 7 | 3
  share2 HY7 HYx7 HYk7
  ex
  send_core 55 HYx7 HGx HcS55 | dev59_eq c | xn c | shX | aV m (zp (yn c)) 7 | rep_read _ _ | pay_of_pex m c shX (bY 7) _ (pay_sDx_7 m c) _ | pay_rDx'_7 m c
  ex
  recv_wait 46 HY8 HaR1_46 | pay_rFy m c 8 | 3
  share2 HY8 HYx8 HYk8
  ex
  send_core 56 HYx8 HGx HcS56 | dev60_eq c | xn c | shX | aV m (zp (yn c)) 8 | rep_read _ _ | pay_of_pex m c shX (bY 8) _ (pay_sDx_8 m c) _ | pay_rDx'_8 m c
  ex
  recv_wait 47 HY9 HaR1_47 | pay_rFy m c 9 | 3
  share2 HY9 HYx9 HYk9
  ex
  send_core 57 HYx9 HGx HcS57 | dev61_eq c | xn c | shX | aV m (zp (yn c)) 9 | rep_read _ _ | pay_of_pex m c shX (bY 9) _ (pay_sDx_9 m c) _ | pay_rDx'_9 m c
  ex
  recv_wait 48 HY10 HaR1_48 | pay_rFy m c 10 | 3
  share2 HY10 HYx10 HYk10
  ex
  send_last 58 HYx10 HGx HcS58 | dev62_eq c | xn c | shX | aV m (zp (yn c)) 10 | rep_read _ _ | pay_of_pex m c shX (bY 10) _ (pay_sDx_10 m c) _ | pay_rDx'_10 m c
  ex
  recv_wait 33 HX11 HaR1_33 | pay_rFx m c 11 | 3
  share3 HX11 HXx11 HXy11 HXk11
  ex
  send_core 59 HXy11 HGy HcS59 | dev63_eq c | yn c | shY | aV m (zp (xn c)) 11 | rep_read _ _ | pay_of_pex m c shY (bX 11) _ (pay_sDy_11 m c) _ | pay_rDy'_11 m c
  ex
  recv_wait 34 HX12 HaR1_34 | pay_rFx m c 12 | 3
  share3 HX12 HXx12 HXy12 HXk12
  ex
  send_core 60 HXy12 HGy HcS60 | dev64_eq c | yn c | shY | aV m (zp (xn c)) 12 | rep_read _ _ | pay_of_pex m c shY (bX 12) _ (pay_sDy_12 m c) _ | pay_rDy'_12 m c
  ex
  recv_wait 35 HX13 HaR1_35 | pay_rFx m c 13 | 3
  share3 HX13 HXx13 HXy13 HXk13
  ex
  send_core 61 HXy13 HGy HcS61 | dev65_eq c | yn c | shY | aV m (zp (xn c)) 13 | rep_read _ _ | pay_of_pex m c shY (bX 13) _ (pay_sDy_13 m c) _ | pay_rDy'_13 m c
  ex
  recv_wait 36 HX14 HaR1_36 | pay_rFx m c 14 | 3
  share3 HX14 HXx14 HXy14 HXk14
  ex
  send_core 62 HXy14 HGy HcS62 | dev66_eq c | yn c | shY | aV m (zp (xn c)) 14 | rep_read _ _ | pay_of_pex m c shY (bX 14) _ (pay_sDy_14 m c) _ | pay_rDy'_14 m c
  ex
  recv_wait 37 HX15 HaR1_37 | pay_rFx m c 15 | 3
  share3 HX15 HXx15 HXy15 HXk15
  ex
  send_final 63 HXy15 HGy HcS63 | dev67_eq c | yn c | shY | aV m (zp (xn c)) 15 | rep_read _ _ | pay_of_pex m c shY (bX 15) _ (pay_sDy_15 m c) _ | pay_rDy'_15 m c
  ex
  -- quarter qy: the rest of the y-neighbour's blocks arrive, then its sixteen additions
  recv_wait 38 HY0 HaR1_38 | pay_rFy m c 0 | 3
  ex
  recv_wait 39 HY1 HaR1_39 | pay_rFy m c 1 | 3
  ex
  recv_wait 40 HY2 HaR1_40 | pay_rFy m c 2 | 3
  ex
  recv_wait 41 HY3 HaR1_41 | pay_rFy m c 3 | 3
  ex
  recv_wait 42 HY4 HaR1_42 | pay_rFy m c 4 | 3
  ex
  recv_wait 43 HY5 HaR1_43 | pay_rFy m c 5 | 3
  ex
  recv_wait 49 HY11 HaR1_49 | pay_rFy m c 11 | 3
  ex
  recv_wait 50 HY12 HaR1_50 | pay_rFy m c 12 | 3
  ex
  recv_wait 51 HY13 HaR1_51 | pay_rFy m c 13 | 3
  ex
  recv_wait 52 HY14 HaR1_52 | pay_rFy m c 14 | 3
  ex
  recv_wait 53 HY15 HaR1_53 | pay_rFy m c 15 | 3
  ex
  -- quarter qx: the rest of the x-neighbour's blocks
  recv_wait 22 HX0 HaR1_22 | pay_rFx m c 0 | 3
  ex
  recv_wait 23 HX1 HaR1_23 | pay_rFx m c 1 | 3
  ex
  recv_wait 24 HX2 HaR1_24 | pay_rFx m c 2 | 3
  ex
  recv_wait 25 HX3 HaR1_25 | pay_rFx m c 3 | 3
  ex
  recv_wait 26 HX4 HaR1_26 | pay_rFx m c 4 | 3
  ex
  recv_wait 27 HX5 HaR1_27 | pay_rFx m c 5 | 3
  ex
  recv_wait 28 HX6 HaR1_28 | pay_rFx m c 6 | 3
  ex
  recv_wait 29 HX7 HaR1_29 | pay_rFx m c 7 | 3
  ex
  recv_wait 30 HX8 HaR1_30 | pay_rFx m c 8 | 3
  ex
  recv_wait 31 HX9 HaR1_31 | pay_rFx m c 9 | 3
  ex
  recv_wait 32 HX10 HaR1_32 | pay_rFx m c 10 | 3
  ex
  -- the diagonal quarter: six blocks from the z-partner, five through the x-neighbour, five through the y-neighbour
  recv_wait 16 HR0 HaR1_16 | pay_rZd_0 m c | 2
  ex
  recv_wait 17 HR1 HaR1_17 | pay_rZd_1 m c | 2
  ex
  recv_wait 18 HR2 HaR1_18 | pay_rZd_2 m c | 2
  ex
  recv_wait 19 HR3 HaR1_19 | pay_rZd_3 m c | 2
  ex
  recv_wait 20 HR4 HaR1_20 | pay_rZd_4 m c | 2
  ex
  recv_wait 21 HR5 HaR1_21 | pay_rZd_5 m c | 2
  ex
  recv_wait 54 HR6 HaR1_54 | pay_rDx_6 m c | 4
  ex
  recv_wait 55 HR7 HaR1_55 | pay_rDx_7 m c | 4
  ex
  recv_wait 56 HR8 HaR1_56 | pay_rDx_8 m c | 4
  ex
  recv_wait 57 HR9 HaR1_57 | pay_rDx_9 m c | 4
  ex
  recv_wait 58 HR10 HaR1_58 | pay_rDx_10 m c | 4
  ex
  recv_wait 59 HR11 HaR1_59 | pay_rDy_11 m c | 4
  ex
  recv_wait 60 HR12 HaR1_60 | pay_rDy_12 m c | 4
  ex
  recv_wait 61 HR13 HaR1_61 | pay_rDy_13 m c | 4
  ex
  recv_wait 62 HR14 HaR1_62 | pay_rDy_14 m c | 4
  ex
  recv_wait_last 63 HR15 HaR1_63 | pay_rDy_15 m c | 4
  ex
  -- the departures: every lent block comes back
  send_wait 0 HcS0 HbA0 HaS1_0 | pay_sZa m c 0
  ex
  send_wait 22 HcS22 HbQx0 HaS1_22 | pay_sFx m c 0
  ex
  send_wait 38 HcS38 HbQy0 HaS1_38 | pay_sFy m c 0
  ex
  send_wait 1 HcS1 HbA1 HaS1_1 | pay_sZa m c 1
  ex
  send_wait 23 HcS23 HbQx1 HaS1_23 | pay_sFx m c 1
  ex
  send_wait 39 HcS39 HbQy1 HaS1_39 | pay_sFy m c 1
  ex
  send_wait 2 HcS2 HbA2 HaS1_2 | pay_sZa m c 2
  ex
  send_wait 24 HcS24 HbQx2 HaS1_24 | pay_sFx m c 2
  ex
  send_wait 40 HcS40 HbQy2 HaS1_40 | pay_sFy m c 2
  ex
  send_wait 3 HcS3 HbA3 HaS1_3 | pay_sZa m c 3
  ex
  send_wait 25 HcS25 HbQx3 HaS1_25 | pay_sFx m c 3
  ex
  send_wait 41 HcS41 HbQy3 HaS1_41 | pay_sFy m c 3
  ex
  send_wait 4 HcS4 HbA4 HaS1_4 | pay_sZa m c 4
  ex
  send_wait 26 HcS26 HbQx4 HaS1_26 | pay_sFx m c 4
  ex
  send_wait 42 HcS42 HbQy4 HaS1_42 | pay_sFy m c 4
  ex
  send_wait 5 HcS5 HbA5 HaS1_5 | pay_sZa m c 5
  ex
  send_wait 27 HcS27 HbQx5 HaS1_27 | pay_sFx m c 5
  ex
  send_wait 43 HcS43 HbQy5 HaS1_43 | pay_sFy m c 5
  ex
  send_wait 6 HcS6 HbA6 HaS1_6 | pay_sZa m c 6
  ex
  send_wait 28 HcS28 HbQx6 HaS1_28 | pay_sFx m c 6
  ex
  send_wait 44 HcS44 HbQy6 HaS1_44 | pay_sFy m c 6
  ex
  send_wait 7 HcS7 HbA7 HaS1_7 | pay_sZa m c 7
  ex
  send_wait 29 HcS29 HbQx7 HaS1_29 | pay_sFx m c 7
  ex
  send_wait 45 HcS45 HbQy7 HaS1_45 | pay_sFy m c 7
  ex
  send_wait 8 HcS8 HbA8 HaS1_8 | pay_sZa m c 8
  ex
  send_wait 30 HcS30 HbQx8 HaS1_30 | pay_sFx m c 8
  ex
  send_wait 46 HcS46 HbQy8 HaS1_46 | pay_sFy m c 8
  ex
  send_wait 9 HcS9 HbA9 HaS1_9 | pay_sZa m c 9
  ex
  send_wait 31 HcS31 HbQx9 HaS1_31 | pay_sFx m c 9
  ex
  send_wait 47 HcS47 HbQy9 HaS1_47 | pay_sFy m c 9
  ex
  send_wait 10 HcS10 HbA10 HaS1_10 | pay_sZa m c 10
  ex
  send_wait 32 HcS32 HbQx10 HaS1_32 | pay_sFx m c 10
  ex
  send_wait 48 HcS48 HbQy10 HaS1_48 | pay_sFy m c 10
  ex
  send_wait 11 HcS11 HbA11 HaS1_11 | pay_sZa m c 11
  ex
  send_wait 33 HcS33 HbQx11 HaS1_33 | pay_sFx m c 11
  ex
  send_wait 49 HcS49 HbQy11 HaS1_49 | pay_sFy m c 11
  ex
  send_wait 12 HcS12 HbA12 HaS1_12 | pay_sZa m c 12
  ex
  send_wait 34 HcS34 HbQx12 HaS1_34 | pay_sFx m c 12
  ex
  send_wait 50 HcS50 HbQy12 HaS1_50 | pay_sFy m c 12
  ex
  send_wait 13 HcS13 HbA13 HaS1_13 | pay_sZa m c 13
  ex
  send_wait 35 HcS35 HbQx13 HaS1_35 | pay_sFx m c 13
  ex
  send_wait 51 HcS51 HbQy13 HaS1_51 | pay_sFy m c 13
  ex
  send_wait 14 HcS14 HbA14 HaS1_14 | pay_sZa m c 14
  ex
  send_wait 36 HcS36 HbQx14 HaS1_36 | pay_sFx m c 14
  ex
  send_wait 52 HcS52 HbQy14 HaS1_52 | pay_sFy m c 14
  ex
  send_wait 15 HcS15 HbA15 HaS1_15 | pay_sZa m c 15
  ex
  send_wait 37 HcS37 HbQx15 HaS1_37 | pay_sFx m c 15
  ex
  send_wait 53 HcS53 HbQy15 HaS1_53 | pay_sFy m c 15
  ex
  send_wait 16 HcS16 HbD0 HaS1_16 | pay_sZd m c 0
  ex
  send_wait 17 HcS17 HbD1 HaS1_17 | pay_sZd m c 1
  ex
  send_wait 18 HcS18 HbD2 HaS1_18 | pay_sZd m c 2
  ex
  send_wait 19 HcS19 HbD3 HaS1_19 | pay_sZd m c 3
  ex
  send_wait 20 HcS20 HbD4 HaS1_20 | pay_sZd m c 4
  ex
  send_wait 21 HcS21 HbD5 HaS1_21 | pay_sZd m c 5
  ex
  send_wait 54 HcS54 HbYx6 HaS1_54 | pay_sDx_6 m c
  ex
  send_wait 55 HcS55 HbYx7 HaS1_55 | pay_sDx_7 m c
  ex
  send_wait 56 HcS56 HbYx8 HaS1_56 | pay_sDx_8 m c
  ex
  send_wait 57 HcS57 HbYx9 HaS1_57 | pay_sDx_9 m c
  ex
  send_wait 58 HcS58 HbYx10 HaS1_58 | pay_sDx_10 m c
  ex
  send_wait 59 HcS59 HbXy11 HaS1_59 | pay_sDy_11 m c
  ex
  send_wait 60 HcS60 HbXy12 HaS1_60 | pay_sDy_12 m c
  ex
  send_wait 61 HcS61 HbXy13 HaS1_61 | pay_sDy_13 m c
  ex
  send_wait 62 HcS62 HbXy14 HaS1_62 | pay_sDy_14 m c
  ex
  send_wait_last 63 HcS63 HbXy15 HaS1_63 | pay_sDy_15 m c
  ex
  -- the end: everything the run leaves, leaf by leaf
  sl_step
  iapply Hk
  iapply (bodyPost_of_flat m K c)
  unfold bodyFlat
  isplitr; · iexact HRec
  leaf HaS1_0
  leaf HaS1_22
  leaf HaS1_38
  leaf HaS1_1
  leaf HaS1_23
  leaf HaS1_39
  leaf HaS1_2
  leaf HaS1_24
  leaf HaS1_40
  leaf HaS1_3
  leaf HaS1_25
  leaf HaS1_41
  leaf HaS1_4
  leaf HaS1_26
  leaf HaS1_42
  leaf HaS1_5
  leaf HaS1_27
  leaf HaS1_43
  leaf HaS1_6
  leaf HaS1_28
  leaf HaS1_44
  leaf HaS1_7
  leaf HaS1_29
  leaf HaS1_45
  leaf HaS1_8
  leaf HaS1_30
  leaf HaS1_46
  leaf HaS1_9
  leaf HaS1_31
  leaf HaS1_47
  leaf HaS1_10
  leaf HaS1_32
  leaf HaS1_48
  leaf HaS1_11
  leaf HaS1_33
  leaf HaS1_49
  leaf HaS1_12
  leaf HaS1_34
  leaf HaS1_50
  leaf HaS1_13
  leaf HaS1_35
  leaf HaS1_51
  leaf HaS1_14
  leaf HaS1_36
  leaf HaS1_52
  leaf HaS1_15
  leaf HaS1_37
  leaf HaS1_53
  leaf HaS1_16
  leaf HaS1_17
  leaf HaS1_18
  leaf HaS1_19
  leaf HaS1_20
  leaf HaS1_21
  leaf HaS1_54
  leaf HaS1_55
  leaf HaS1_56
  leaf HaS1_57
  leaf HaS1_58
  leaf HaS1_59
  leaf HaS1_60
  leaf HaS1_61
  leaf HaS1_62
  leaf HaS1_63
  leaf HaR1_0
  leaf HaR1_1
  leaf HaR1_2
  leaf HaR1_3
  leaf HaR1_4
  leaf HaR1_5
  leaf HaR1_6
  leaf HaR1_7
  leaf HaR1_8
  leaf HaR1_9
  leaf HaR1_10
  leaf HaR1_11
  leaf HaR1_12
  leaf HaR1_13
  leaf HaR1_14
  leaf HaR1_15
  leaf HaR1_44
  leaf HaR1_45
  leaf HaR1_46
  leaf HaR1_47
  leaf HaR1_48
  leaf HaR1_33
  leaf HaR1_34
  leaf HaR1_35
  leaf HaR1_36
  leaf HaR1_37
  leaf HaR1_38
  leaf HaR1_39
  leaf HaR1_40
  leaf HaR1_41
  leaf HaR1_42
  leaf HaR1_43
  leaf HaR1_49
  leaf HaR1_50
  leaf HaR1_51
  leaf HaR1_52
  leaf HaR1_53
  leaf HaR1_22
  leaf HaR1_23
  leaf HaR1_24
  leaf HaR1_25
  leaf HaR1_26
  leaf HaR1_27
  leaf HaR1_28
  leaf HaR1_29
  leaf HaR1_30
  leaf HaR1_31
  leaf HaR1_32
  leaf HaR1_16
  leaf HaR1_17
  leaf HaR1_18
  leaf HaR1_19
  leaf HaR1_20
  leaf HaR1_21
  leaf HaR1_54
  leaf HaR1_55
  leaf HaR1_56
  leaf HaR1_57
  leaf HaR1_58
  leaf HaR1_59
  leaf HaR1_60
  leaf HaR1_61
  leaf HaR1_62
  leaf HaR1_63
  leaf Hl0
  leaf Hl1
  leaf Hl2
  leaf Hl3
  leaf Hl4
  leaf Hl5
  leaf Hl6
  leaf Hl7
  leaf Hl8
  leaf Hl9
  leaf Hl10
  leaf Hl11
  leaf Hl12
  leaf Hl13
  leaf Hl14
  leaf Hl15
  leaf Hl16
  leaf Hl17
  leaf Hl18
  leaf Hl19
  leaf Hl20
  leaf Hl21
  leaf Hl22
  leaf Hl23
  leaf Hl24
  leaf Hl25
  leaf Hl26
  leaf Hl27
  leaf Hl28
  leaf Hl29
  isplitl [HO]; · (iexists _; iexact HO)
  pleaf HXq0
  pleaf HXq1
  pleaf HXq2
  pleaf HXq3
  pleaf HXq4
  pleaf HXq5
  pleaf HXq6
  pleaf HXq7
  pleaf HXq8
  pleaf HXq9
  pleaf HXq10
  pleaf HXq11
  pleaf HXq12
  pleaf HXq13
  pleaf HXq14
  pleaf HXq15
  pleaf HXd0
  pleaf HXd1
  pleaf HXd2
  pleaf HXd3
  pleaf HXd4
  pleaf HXd5
  pleaf HXl0
  pleaf HXl1
  pleaf HXl2
  pleaf HXl3
  leaf HbA0
  leaf HbA1
  leaf HbA2
  leaf HbA3
  leaf HbA4
  leaf HbA5
  leaf HbA6
  leaf HbA7
  leaf HbA8
  leaf HbA9
  leaf HbA10
  leaf HbA11
  leaf HbA12
  leaf HbA13
  leaf HbA14
  leaf HbA15
  leaf HbD0
  leaf HbD1
  leaf HbD2
  leaf HbD3
  leaf HbD4
  leaf HbD5
  leaf HbQx0
  leaf HbQy0
  pleaf HQk0
  leaf HbQx1
  leaf HbQy1
  pleaf HQk1
  leaf HbQx2
  leaf HbQy2
  pleaf HQk2
  leaf HbQx3
  leaf HbQy3
  pleaf HQk3
  leaf HbQx4
  leaf HbQy4
  pleaf HQk4
  leaf HbQx5
  leaf HbQy5
  pleaf HQk5
  leaf HbQx6
  leaf HbQy6
  pleaf HQk6
  leaf HbQx7
  leaf HbQy7
  pleaf HQk7
  leaf HbQx8
  leaf HbQy8
  pleaf HQk8
  leaf HbQx9
  leaf HbQy9
  pleaf HQk9
  leaf HbQx10
  leaf HbQy10
  pleaf HQk10
  leaf HbQx11
  leaf HbQy11
  pleaf HQk11
  leaf HbQx12
  leaf HbQy12
  pleaf HQk12
  leaf HbQx13
  leaf HbQy13
  pleaf HQk13
  leaf HbQx14
  leaf HbQy14
  pleaf HQk14
  leaf HbQx15
  leaf HbQy15
  pleaf HQk15
  pleaf HX0
  pleaf HX1
  pleaf HX2
  pleaf HX3
  pleaf HX4
  pleaf HX5
  pleaf HX6
  pleaf HX7
  pleaf HX8
  pleaf HX9
  pleaf HX10
  pleaf HXx11
  leaf HbXy11
  pleaf HXk11
  pleaf HXx12
  leaf HbXy12
  pleaf HXk12
  pleaf HXx13
  leaf HbXy13
  pleaf HXk13
  pleaf HXx14
  leaf HbXy14
  pleaf HXk14
  pleaf HXx15
  leaf HbXy15
  pleaf HXk15
  pleaf HY0
  pleaf HY1
  pleaf HY2
  pleaf HY3
  pleaf HY4
  pleaf HY5
  leaf HbYx6
  pleaf HYk6
  leaf HbYx7
  pleaf HYk7
  leaf HbYx8
  pleaf HYk8
  leaf HbYx9
  pleaf HYk9
  leaf HbYx10
  pleaf HYk10
  pleaf HY11
  pleaf HY12
  pleaf HY13
  pleaf HY14
  pleaf HY15
  pleaf HR0
  pleaf HR1
  pleaf HR2
  pleaf HR3
  pleaf HR4
  pleaf HR5
  pleaf HR6
  pleaf HR7
  pleaf HR8
  pleaf HR9
  pleaf HR10
  pleaf HR11
  pleaf HR12
  pleaf HR13
  pleaf HR14
  pleaf HR15
  pleaf HV0
  pleaf HV1
  pleaf HV2
  pleaf HV3
  leaf HWL0
  leaf HWL1
  leaf HWL2
  leaf HWL3
  leaf HWq0
  leaf HWq1
  leaf HWq2
  leaf HWq3
  leaf HWq4
  leaf HWq5
  leaf HWq6
  leaf HWq7
  leaf HWq8
  leaf HWq9
  leaf HWq10
  leaf HWq11
  leaf HWq12
  leaf HWq13
  leaf HWq14
  leaf HWq15
  leaf HWd0
  leaf HWd1
  leaf HWd2
  leaf HWd3
  leaf HWd4
  leaf HWd5
  leaf Hrest
  iapply (out_leaf4 m c _ _ _ _)
  isplitl [HOq0 HOq1 HOq2 HOq3]
  · isplitl [HOq0]; · iexact HOq0
    isplitl [HOq1]; · iexact HOq1
    isplitl [HOq2]; · iexact HOq2
    iexact HOq3
  ipureintro
  refine ⟨?_, ?_, ?_, ?_⟩
  · refine quarter_leaf m c 0 _ _ ?_
    sl_unfold_run_names
    sl_unfold_run_names
    sl_unfold_run_names
    sl_unfold_run_names
    quarter_tac
  · refine quarter_leaf m c 1 _ _ ?_
    sl_unfold_run_names
    sl_unfold_run_names
    sl_unfold_run_names
    sl_unfold_run_names
    quarter_tac
  · refine quarter_leaf m c 2 _ _ ?_
    sl_unfold_run_names
    sl_unfold_run_names
    sl_unfold_run_names
    sl_unfold_run_names
    quarter_tac
  · refine quarter_leaf m c 3 _ _ ?_
    sl_unfold_run_names
    sl_unfold_run_names
    sl_unfold_run_names
    sl_unfold_run_names
    quarter_tac

/-- The body runs, from the pieces as BodyCtx.lean states them. -/
theorem body_run : BodyRuns m := by
  intro K c W Kt
  unfold bodyPre
  iintro ⟨⟨Hg, Hcb, HcR, Hlev, Hloc, ⟨%f0, %f1, %f2, %f3, %f4, %fq, %fx, %fy, %fr, %f9, Hscr⟩, Harg, Hout⟩, HO, Hk⟩
  iapply (body_run' m K c W Kt f0 f1 f2 f3 f4 fq fx fy fr f9)
  isplitl [Hg Hcb HcR Hlev Hloc Hscr Harg Hout]
  · isplitl [Hg]; · iexact Hg
    isplitl [Hcb]; · iexact Hcb
    isplitl [HcR]; · iexact HcR
    isplitl [Hlev]; · iexact Hlev
    isplitl [Hloc]; · iexact Hloc
    isplitl [Hscr]; · iexact Hscr
    isplitl [Harg]; · iexact Harg
    iexact Hout
  isplitl [HO]; · iexact HO
  iexact Hk

end Cert.KernelIdeal.Rs

end
-- ==== Proof.Bits.Ledger.lean ====
/- Who may wait while owing: the order of the protocol's cells by level. A device may wait on one of its cells
   while it still owes units elsewhere only if every cell it owes on lies strictly above the cell it waits on. -/
import proofs.«901030_g7700000000001031_dist_rs_v7x_xyz2x2x2_z_m4096_n1024_bf16_1_alg».proof.Proof.Bits.BodySpec
import Idealize.ShloMosaic.Lib.Pipeline.Launch
import Idealize.ShloMosaic.Rules.Acct

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Tallies that lie above a level -/

/-- Every cell on which `O` owes a unit is a TensorCore's and has level strictly above `k`. -/
def Above (k : ℕ) (O : CellTallies nD τ sig Unit) : Prop := ∀ g u, 0 < O g u → g.1.2 = .tc ∧ k < lv g u

/-- Owing nothing lies above every level. -/
theorem above_zero (k : ℕ) : Above k 0 := fun g u h => absurd h (Nat.lt_irrefl 0)

/-- A sum owes a unit only where a summand does. -/
theorem above_add {k : ℕ} {O O' : CellTallies nD τ sig Unit} (h : Above k O) (h' : Above k O') : Above k (O + O') :=
  fun g u hp => (Pipeline.add_pos_cases hp).elim (h g u) (h' g u)

/-- The same for a finite sum. -/
theorem above_sum {α : Type} [Fintype α] {k : ℕ} {f : α → CellTallies nD τ sig Unit} (h : ∀ i, Above k (f i)) :
    Above k (∑ i, f i) := fun g u hp => by
  obtain ⟨x, _, hx⟩ := Pipeline.sum_pos_exists hp
  exact h x g u hx

/-- The level of a copy's cell, by its semaphore's index. -/
theorem lv_dma (d : Dev nD) (n : Fin 158) :
    lv (dcell d n) () = (if n.val < 94 then 0 else if n.val < 116 then 2 else if n.val < 148 then 3 else 4) := rfl
/-- The level of a barrier cell. -/
theorem lv_bar (d : Dev nD) : lv (barCell d) () = 1 := rfl

/-- Units owed on one copy's cell lie above `k` when that cell's level does. -/
theorem above_dma (k : ℕ) (d : Dev nD) (n : Fin 158) (N : ℕ)
    (h : k < (if n.val < 94 then 0 else if n.val < 116 then 2 else if n.val < 148 then 3 else 4)) :
    Above k (tallyAt (dcell d n) () N) := fun g u hp => by
  obtain ⟨rfl, rfl⟩ := Pipeline.tallyAt_pos hp
  exact ⟨rfl, h⟩

/-- Units owed on a barrier cell lie above `k` when `k` is below the barrier's level. -/
theorem above_bar (k : ℕ) (d : Dev nD) (N : ℕ) (h : k < 1) : Above k (tallyAt (barCell d) () N) := fun g u hp => by
  obtain ⟨rfl, rfl⟩ := Pipeline.tallyAt_pos hp
  exact ⟨rfl, h⟩

/-- Units owed on the receive cell of copy `i` lie above every level below 2. -/
theorem above_recv (k : ℕ) (hk : k < 2) (d : Dev nD) (i : Fin 64) (N : ℕ) : Above k (tallyAt (dcell d (rN i)) () N) :=
  above_dma k d (rN i) N (by
    have h1 : ¬ (rN i).val < 94 := by simp only [rN]; omega
    rw [if_neg h1]; split_ifs <;> omega)

/-! ## The ledger lemma -/

/-- A device may wait on its cell `sm` while owing `O` when all of `O` lies above that cell's level. -/
theorem mayWait_of_above (c : Dev nD) (sm : SemLoc sig) (O : CellTallies nD τ sig Unit)
    (h : Above (lv ((c : Thread nD τ), sm) ()) O) :
    (levAts L lv : sProp 𝕄) ⊢ MayWait (c : Thread nD τ) sm () O :=
  Pipeline.mayWait_of_levAts (by unfold L; rw [if_pos rfl]; exact Finset.mem_singleton.mpr rfl)
    (fun g i hg => ⟨by unfold L; rw [if_pos (h g i hg).1]; exact Finset.mem_singleton.mpr rfl, (h g i hg).2⟩)

/-! ## Deciding `Above` for a sum of tallies on named cells -/

/-- Closes `Above k (t₁ + ⋯ + tₙ)` where each `tᵢ` is `0`, a tally on a copy's cell with a literal semaphore
    index, or a tally on a barrier cell, and `k` is a numeral or the level of such a cell. -/
macro "above_tac" : tactic =>
  `(tactic| (try simp only [lv_dma, lv_bar]
             repeat' (first
               | exact above_zero _
               | (apply above_dma <;> first | decide | omega | simp)
               | (apply above_bar <;> first | decide | omega | simp)
               | apply above_add)))

example (c : Dev nD) : Above 0 (tallyAt (dcell c ⟨100, by omega⟩) () 3 + tallyAt (barCell (zp c)) () 1
    + 0 + tallyAt (dcell (xn c) ⟨150, by omega⟩) () Nb + tallyAt (barCell c) () 2) := by above_tac

example (c : Dev nD) : Above (lv ((c : Thread nD τ), .dma (⟨40, by omega⟩ : Fin 158)) ()) (tallyAt (dcell c ⟨100, by omega⟩) () 3 + tallyAt (barCell (zp c)) () 1) := by
  above_tac

example (c : Dev nD) : Above (lv ((c : Thread nD τ), .reg barS) ()) (tallyAt (dcell c ⟨100, by omega⟩) () 3 + tallyAt (dcell (yn c) ⟨120, by omega⟩) () 1) := by
  above_tac

/-- What a device owes at launch lies above level 0: barrier cells are at level 1, receive cells at 2 and more. -/
theorem above_O₀ (c : Dev nD) : Above 0 (O₀ c) := by
  unfold O₀
  refine above_add (above_add (above_add (above_sum fun i => above_recv 0 (by omega) _ i _) ?_) ?_) ?_ <;> above_tac

end Cert.Kernel.Rs

end
-- ==== Proof.Bits.ValLemmas.lean ====
/- Values read back. A piece of a buffer has several names: the rectangle of the whole buffer a store or a
   load goes through, the slice of the buffer a copy fills, the squeezed plane of a three-dimensional buffer.
   They place the same indices on the same elements, so what is written through one name is read through
   another: a store at a rectangle reads back through the slice at that rectangle; a load at a rectangle of a
   buffer whose slice holds a block reads the block; a load at a run of rows of a plane reads those rows; the
   contents a copy lands are, on the destination's own elements, the block it carried.
   Then the arithmetic the kernel does on its blocks, read entry by entry on extended reals: a change of
   format and a cast to the same shape are the identity, a cast that drops a leading unit axis reads the
   entry behind that axis, and an add is the sum of the entries. -/
import proofs.«901030_g7700000000001031_dist_rs_v7x_xyz2x2x2_z_m4096_n1024_bf16_1_alg».proof.Proof.Bits.Views
import Idealize.ShloMosaic.Lib.Exec.Geometry
import Idealize.ShloMosaic.Lib.Pipeline.Value
import Idealize.ShloMosaic.Lib.ValueLayout
import Idealize.ShloMosaic.Lib.ValueIdx

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

/-! ## A store at a rectangle, read through the slice at that rectangle -/

/-- What an unmasked store through a memref at a rectangle leaves is read through the memref's slice at that
    rectangle as the payload: the access and the slice are one placement. -/
theorem read_slice_write_access {sig : RefSig} {κ : Kind} {Val : EltTy → Type} {sp : Space} {s : Shape} {e : EltTy}
    (m : Memref sig κ sp s e) (r : Rect s) (hr : ∀ a, r.stride a = 1) (f : m.view.ty.Contents Val) (w : r.shape.Idx → Val e) :
    (m.slice r hr).view.read Val (View.write Val (m.access r) f w Finset.univ) = w :=
  View.read_write_univ (v := m.access r) f w

/-- The same for a whole buffer and a unit-stride rectangle of it. -/
theorem read_block_write_whole {sig : RefSig} {κ : Kind} {Val : EltTy → Type} (b : Ref sig κ)
    (off size : Fin b.ty.shape.rank → Nat) (inb : ∀ a, off a + size a ≤ b.ty.shape.size a)
    (f : b.ty.Contents Val) (w : (Rect.unit off size inb).shape.Idx → Val b.ty.elt) :
    ((Memref.whole b).slice (Rect.unit off size inb) (fun _ => rfl)).view.read Val
      (View.write Val ((Memref.whole b).access (Rect.unit off size inb)) f w Finset.univ) = w :=
  View.read_write_univ (v := (Memref.whole b).access (Rect.unit off size inb)) f w

/-! ## A load at a rectangle of a buffer whose slice holds a block -/

/-- A load through a memref at a rectangle, of the buffer that holds `x` on the slice at that rectangle, reads `x`. -/
theorem readAt_rep_slice {sig : RefSig} {κ : Kind} {Val : EltTy → Type} [∀ e, Nonempty (Val e)] {sp : Space} {s : Shape} {e : EltTy}
    (m : Memref sig κ sp s e) (r : Rect s) (hr : ∀ a, r.stride a = 1) (x : r.shape.Idx → Val e) :
    m.view.readAt Val r.toLoadRect ((m.slice r hr).view.rep x) = x :=
  View.read_rep (m.view.slice r) x

/-- The same with the buffer spelt as the one whole-slice piece over arbitrary contents. -/
theorem readAt_writes_slice {sig : RefSig} {κ : Kind} {Val : EltTy → Type} [∀ e, Nonempty (Val e)] {sp : Space} {s : Shape} {e : EltTy}
    (m : Memref sig κ sp s e) (r : Rect s) (hr : ∀ a, r.stride a = 1) (x : r.shape.Idx → Val e) :
    m.view.readAt Val r.toLoadRect
      ((m.slice r hr).view.writes Val (m.slice r hr).view.junk [⟨Rect.whole _, x⟩]) = x :=
  View.read_rep (m.view.slice r) x

/-- For a whole buffer and a unit-stride rectangle of it. -/
theorem readAt_rep_block_whole {sig : RefSig} {κ : Kind} {Val : EltTy → Type} [∀ e, Nonempty (Val e)] (b : Ref sig κ)
    (off size : Fin b.ty.shape.rank → Nat) (inb : ∀ a, off a + size a ≤ b.ty.shape.size a)
    (x : (Rect.unit off size inb).shape.Idx → Val b.ty.elt) :
    (Memref.whole b).view.readAt Val (Rect.unit off size inb).toLoadRect
      (((Memref.whole b).slice (Rect.unit off size inb) (fun _ => rfl)).view.rep x) = x :=
  View.read_rep ((Memref.whole b).view.slice (Rect.unit off size inb)) x

theorem readAt_writes_block_whole {sig : RefSig} {κ : Kind} {Val : EltTy → Type} [∀ e, Nonempty (Val e)] (b : Ref sig κ)
    (off size : Fin b.ty.shape.rank → Nat) (inb : ∀ a, off a + size a ≤ b.ty.shape.size a)
    (x : (Rect.unit off size inb).shape.Idx → Val b.ty.elt) :
    (Memref.whole b).view.readAt Val (Rect.unit off size inb).toLoadRect
      (((Memref.whole b).slice (Rect.unit off size inb) (fun _ => rfl)).view.writes Val
        ((Memref.whole b).slice (Rect.unit off size inb) (fun _ => rfl)).view.junk [⟨Rect.whole _, x⟩]) = x :=
  View.read_rep ((Memref.whole b).view.slice (Rect.unit off size inb)) x

/-! ## A load at a box of a buffer whose squeezed slice holds a plane -/

/-- A load through a memref at a box, of the buffer that holds `x` on the squeeze of a slice: at an index of the
    box whose element is the slice's element at `k` (counted in the squeezed shape), it reads `x k`. -/
theorem readAt_rep_squeeze_slice {sig : RefSig} {κ : Kind} {Val : EltTy → Type} [∀ e, Nonempty (Val e)] {sp : Space} {s s' : Shape} {e : EltTy}
    (m : Memref sig κ sp s e) (r₀ : Rect s) (h₀ : ∀ a, r₀.stride a = 1) (hq : r₀.shape.Squeezes s')
    (x : s'.Idx → Val e) (B : LoadRect s) (y : B.shape.Idx) (k : s'.Idx)
    (hk : r₀.emb (Shape.reshapeEquiv hq.numel_eq k) = B.idx y) :
    m.view.readAt Val B (((m.slice r₀ h₀).squeeze s' hq).view.rep x) y = x k := by
  rw [View.readAt_apply, ← hk]
  exact congrFun (View.read_rep ((m.slice r₀ h₀).squeeze s' hq).view x) k

/-- Rows 64 s … 64 s + 63 of plane `k` of the three-dimensional buffer: a load through the whole buffer at the box
    [k, 64 s, 0] of sizes [1, 64, 1024], of the buffer that holds `x` on the plane, reads at (0, r, j) the
    plane's entry (64 s + r, j). The offsets may be spelt in any way equal to [k, 64 s, 0]. -/
theorem readAt_plane_rows {Val : EltTy → Type} [∀ e, Nonempty (Val e)] (k : Fin 4) (s : Fin 16)
    (off : Fin 3 → Nat) (hoff : off = ![k.val, 64 * s.val, 0])
    (inb : ∀ a, off a + S1x64x1024.size a ≤ S4x1024x1024.size a)
    (x : S1024x1024.Idx → Val .f32) (r : Fin 64) (j : Fin 1024) :
    (Memref.whole cc0_scratch2).view.readAt Val (Rect.unit (s := S4x1024x1024) off S1x64x1024.size inb).toLoadRect
        ((xlM k).view.rep x) (ix3 (0 : Fin 1) r j)
      = x (ix2 (⟨64 * s.val + r.val, by have := s.isLt; have := r.isLt; omega⟩ : Fin 1024) j) := by
  subst hoff
  refine readAt_rep_squeeze_slice (Memref.whole cc0_scratch2) _ _ _ x _ _ _ ?_
  have hR : 64 * s.val + r.val < 1024 := by have := s.isLt; have := r.isLt; omega
  rw [Shape.reshapeEquiv_eq_of_rowMajor _ (y := ix3 (0 : Fin 1) (⟨64 * s.val + r.val, hR⟩ : Fin 1024) j) (by
    rw [Shape.rowMajor_val_three, Shape.rowMajor_val_two]
    show (0 * 1024 + (64 * s.val + r.val)) * 1024 + j.val = (64 * s.val + r.val) * 1024 + j.val
    rw [Nat.zero_mul, Nat.zero_add])]
  funext a
  apply Fin.ext
  match a with
  | ⟨0, _⟩ => show k.val + 1 * 0 = k.val + 1 * 0; rfl
  | ⟨1, _⟩ => show 0 + 1 * (64 * s.val + r.val) = 64 * s.val + 1 * r.val; omega
  | ⟨2, _⟩ => show 0 + 1 * j.val = 0 + 1 * j.val; rfl

/-- How the general lemmas meet the kernel's own names: a store of block `s` of the staging buffer through the
    whole buffer, read through the block's slice; -/
example {Val : EltTy → Type} (s : Fin 16) (f : cc0_scratch3.ty.Contents Val) (w : S64x1024.Idx → Val .bf16) :
    (bA s).view.read Val (View.write Val ((Memref.whole cc0_scratch3).access (Rect.unit (s := S1024x1024) ![64 * s.val, 0] S64x1024.size (inb16 s))) f w Finset.univ) = w :=
  read_block_write_whole cc0_scratch3 _ _ _ f w

/-- a load of block `s` of the f32 copy through the whole buffer, the block's slice holding `x`. -/
example {Val : EltTy → Type} [∀ e, Nonempty (Val e)] (s : Fin 16) (x : S64x1024.Idx → Val .f32) :
    (Memref.whole cc0_scratch0).view.readAt Val (Rect.unit (s := S1024x1024) ![64 * s.val, 0] S64x1024.size (inb16 s)).toLoadRect
      ((xqM s).view.writes Val (xqM s).view.junk [⟨Rect.whole _, x⟩]) = x :=
  readAt_writes_block_whole cc0_scratch0 _ _ _ x

/-! ## What a copy lands -/

/-- What a copy leaves, read through its destination, is what it read through its source. -/
theorem read_landed {sig : RefSig} {κ κ' : Kind} {Val : EltTy → Type} {sp sp' : Space} {s : Shape} {e : EltTy}
    (src : Memref sig κ' sp' s e) (dst : Memref sig κ sp s e) (fs : src.view.ty.Contents Val) (fd : dst.view.ty.Contents Val) :
    dst.view.read Val (dst.view.write Val fd (src.view.read Val fs) Finset.univ) = src.view.read Val fs :=
  View.read_write_univ (v := dst.view) fd _

/-- On a view's own elements, the contents after `w` is written through it unmasked, over any prior contents, are
    the contents that hold `w` canonically: every element of the view's set lies under one of the view's indices,
    and there both hold `w` at that index. -/
theorem pointsTo_write_eq_rep {nD : Nat} {τ : Topo} {sig : RefSig} {Ix : Type} [DecidableEq Ix]
    {Val : EltTy → Type} [∀ e, Nonempty (Val e)] {Name : Type} [DecidableEq Name] {U : Type} [URA U] {Lvl : Type}
    (c : Thread nD τ) {sp : Space} {s : Shape} {e : EltTy} (v : View sig c.2.kind sp s e) (q : PosShare TreeShare)
    (fd : Buf Val (v.loc c)) (w : s.Idx → Val e) :
    (v.loc c ↦[v.set]{q} v.write Val fd w Finset.univ : sProp (MT nD τ sig Ix Val Name U Lvl))
      = v.loc c ↦[v.set]{q} v.rep w :=
  pointsTo_congr fun i hi => by
    obtain ⟨y, rfl⟩ := View.exists_emb_of_mem_set v hi
    rw [View.write_emb_of_mem _ _ (Finset.mem_univ _), View.rep_emb]

/-- The same for a memref's view: the landing of a copy into `dst`, restated at the canonical contents. -/
theorem pointsTo_landed_eq_rep {nD : Nat} {τ : Topo} {sig : RefSig} {Ix : Type} [DecidableEq Ix]
    {Val : EltTy → Type} [∀ e, Nonempty (Val e)] {Name : Type} [DecidableEq Name] {U : Type} [URA U] {Lvl : Type}
    (c : Thread nD τ) {sp : Space} {s : Shape} {e : EltTy} (dst : Memref sig c.2.kind sp s e) (q : PosShare TreeShare)
    (fd : Buf Val (dst.view.loc c)) (w : s.Idx → Val e) :
    (dst.view.loc c ↦[dst.view.set]{q} dst.view.write Val fd w Finset.univ : sProp (MT nD τ sig Ix Val Name U Lvl))
      = dst.view.loc c ↦[dst.view.set]{q} dst.view.rep w :=
  pointsTo_write_eq_rep c dst.view q fd w

/-- info: 'Cert.Kernel.Rs.pointsTo_write_eq_rep' depends on axioms: [propext, Classical.choice, Quot.sound] -/
#guard_msgs in #print axioms pointsTo_write_eq_rep
/-- info: 'Cert.Kernel.Rs.readAt_plane_rows' depends on axioms: [propext, Classical.choice, Quot.sound] -/
#guard_msgs in #print axioms readAt_plane_rows

end Cert.Kernel.Rs

end
-- ==== Proof.Bits.SendRule.lean ====
/- One remote copy of a 64-row block, as the body's proof applies it: the source block lent at its share, the
   landing block on the target rewritten to what the source holds. -/
import proofs.«901030_g7700000000001031_dist_rs_v7x_xyz2x2x2_z_m4096_n1024_bf16_1_alg».proof.Proof.Bits.Sched
import proofs.«901030_g7700000000001031_dist_rs_v7x_xyz2x2x2_z_m4096_n1024_bf16_1_alg».proof.Proof.Bits.ValLemmas

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A copy of block memref `srcM` on device `c` into block memref `dstM` on device `n`, paying the one duty of the
    issuer's send cell `ss` (its payload: the source back, whatever it holds) and the one duty of the target's receive
    cell `rs` (its payload: the landing block holding `x`, what the source reads as). -/
theorem wp_send_blk (c n n' : Dev nD) (hn : n' = n) {srcM dstM : Memref sig .tc .vmem S64x1024 .bf16}
    (ss rs : Fin 158) (hs30 : 30 ≤ ss.val) (hs94 : ss.val < 94) (hr94 : 94 ≤ rs.val)
    (q : PosShare TreeShare) (fs : Buf (Elt F) (srcM.view.loc (c : Thread nD τ))) (fd : Buf (Elt F) (dstM.view.loc (n : Thread nD τ)))
    (x : S64x1024.Idx → Elt F .bf16) (hx : srcM.view.read (Elt F) fs = x)
    (hpay₁ : (srcM.view.loc (c : Thread nD τ) ↦[srcM.view.set]{q} fs : sProp 𝕄) ⊢ (Rd m).payload (dcell c ss) 0 0)
    (hpay₂ : (Rd m).payload (dcell n rs) 0 0 = (dstM.view.loc (n : Thread nD τ) ↦[dstM.view.set]{fullShare} dstM.view.rep x : sProp 𝕄))
    (hN : dstM.view.amount (SemLoc.dma rs) = Nb)
    {hsc : (dstM : Memref sig (Dev.tc n' : Thread nD τ).2.kind .vmem S64x1024 .bf16).view.ref.isScScratch = false}
    {hsrc : srcM.view.WordExact} {hdst : dstM.view.WordExact}
    {hsem : DmaTarget.Typed .vmem (.dma rs) (.remote (Dev.tc n' : Thread nD τ) dstM (.dma ss) hsc)}
    {α : Type} {Q : α → sProp 𝕄} {k : PUnit → Prog (TpuEff nD τ sig (Elt F) Λ₀ .tc) α}
    (κ₁ κ₂ : ℕ) (O : CellTallies nD τ sig Unit) (W : Waits sig Unit) :
    iprop(cellInv ER (Rd m) κ₁ (dcell c ss) ∗ cellInv ER (Rd m) κ₂ (dcell n rs)
        ∗ (srcM.view.loc (c : Thread nD τ) ↦[srcM.view.set]{q} fs) ∗ (dstM.view.loc (n : Thread nD τ) ↦[dstM.view.set]{fullShare} fd)
        ∗ owes (c : Thread nD τ) (O + tallyAt (dcell n rs) () Nb) W
        ∗ dutyTok ER (dcell c ss) 0 0 ∗ reached ER (dcell c ss) 0
        ∗ dutyTok ER (dcell n rs) 0 0 ∗ reached ER (dcell n rs) 0)
      ⊢ iprop(((cred (tallyAt (dcell c ss) () Nb) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM (.remote (Dev.tc n' : Thread nD τ) dstM (.dma ss) hsc) (.dma rs) hsrc hdst hsem) k) Q) := by
  subst hn
  exact Rounds.wp_send_pointsTo Variants.none ER (Rd m) (c : Thread nD τ) none (κ₁ := κ₁) (κ₂ := κ₂)
    (r₁ := 0) (r₂ := 0) (d₁ := 0) (d₂ := 0) (fd := fd)
    (by rw [duties_dma m c ss hs30]; exact Finset.mem_singleton_self _) (by rw [duties_dma m n' rs (by omega)]; exact Finset.mem_singleton_self _)
    () () Nb hN (amount_dma m c ss 0) (amount_dma m n' rs 0) O rfl (W := W)
    hpay₁
    (by rw [hpay₂, pointsTo_landed_eq_rep, hx])

end Cert.Kernel.Rs

end
-- ==== Proof.Bits.BodyLemmas.lean ====
/- Small facts the body's proof uses: the entry handshake's payloads, the device's debts copy by copy, chains of hypotheses. -/
import proofs.«901030_g7700000000001031_dist_rs_v7x_xyz2x2x2_z_m4096_n1024_bf16_1_alg».proof.Proof.Bits.BodyCtx
import proofs.«901030_g7700000000001031_dist_rs_v7x_xyz2x2x2_z_m4096_n1024_bf16_1_alg».proof.Proof.Bits.Ledger
import proofs.«901030_g7700000000001031_dist_rs_v7x_xyz2x2x2_z_m4096_n1024_bf16_1_alg».proof.Proof.Bits.SendRule

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Lean Idealize.SL.ProofMode in
/-- `ichain H as P n`: the hypothesis `H`, a right-nested chain of `n` conjuncts, is opened into `P0 … P(n-1)`. -/
macro "ichain " h:ident " as " p:ident n:num : tactic => do
  let names : Array (TSyntax `icasesPat) ← (Array.range n.getNat).mapM fun i => do
    let x := mkIdent (Name.mkSimple s!"{p.getId}{i}")
    `(icasesPat| $x:ident)
  let alts : Array (TSyntax ``icasesPatAlts) ← names.mapM fun q => `(icasesPatAlts| $q:icasesPat)
  `(tactic| icases $h:ident with ⟨$[$alts],*⟩)

open Lean Idealize.SL.ProofMode in
/-- `ichainE H as P n`: a chain of `n` existentials, each opened: contents `Pfi`, hypothesis `Pi`. -/
macro "ichainE " h:ident " as " p:ident n:num : tactic => do
  let names : Array (TSyntax `icasesPat) ← (Array.range n.getNat).mapM fun i => do
    let x := mkIdent (Name.mkSimple s!"{p.getId}{i}")
    let f := mkIdent (Name.mkSimple s!"{p.getId}f{i}")
    let bf ← `(binderIdent| $f:ident)
    let p1 ← `(icasesPat| % $bf)
    let p2 ← `(icasesPat| $x:ident)
    let a1 ← `(icasesPatAlts| $p1:icasesPat)
    let a2 ← `(icasesPatAlts| $p2:icasesPat)
    `(icasesPat| ⟨$a1, $a2⟩)
  let alts : Array (TSyntax ``icasesPatAlts) ← names.mapM fun q => `(icasesPatAlts| $q:icasesPat)
  `(tactic| icases $h:ident with ⟨$[$alts],*⟩)

/-! ## What a device owes, copy by copy -/

/-- What device `c` owes for copy `i`: a block's credit on the receive cell of the device the copy goes to. -/
def tR (c : Dev nD) (i : Fin 64) : CellTallies nD τ sig Unit := tallyAt (dcell (pr i c) (rN i)) () Nb
theorem O₀_eq (c : Dev nD) : O₀ c = (∑ i ∈ (Finset.univ : Finset (Fin 64)), tR c i) + tallyAt (barCell (yn c)) () 1 + tallyAt (barCell (xn c)) () 1 + tallyAt (barCell (zp c)) () 1 := rfl

/-- The 64 copies in the order the kernel issues them: sixteen and six to the z-partner, then block by block to the x- and
    the y-neighbour, then the five and five forwarded on. -/
def progList : List (Fin 64) := [0, 1, 2, 3, 4, 5, 6, 7, 8, 9, 10, 11, 12, 13, 14, 15, 16, 17, 18, 19, 20, 21, 22, 38, 23, 39, 24, 40, 25, 41, 26, 42, 27, 43, 28, 44, 29, 45, 30, 46, 31, 47, 32, 48, 33, 49, 34, 50, 35, 51, 36, 52, 37, 53, 54, 55, 56, 57, 58, 59, 60, 61, 62, 63]
theorem progList_nodup : progList.Nodup := by decide
theorem progList_univ : progList.toFinset = Finset.univ := by decide
/-- The copies in the order the kernel waits for their ARRIVAL. -/
def recvWaitList : List (Fin 64) := [0, 1, 2, 3, 4, 5, 6, 7, 8, 9, 10, 11, 12, 13, 14, 15, 44, 45, 46, 47, 48, 33, 34, 35, 36, 37, 38, 39, 40, 41, 42, 43, 49, 50, 51, 52, 53, 22, 23, 24, 25, 26, 27, 28, 29, 30, 31, 32, 16, 17, 18, 19, 20, 21, 54, 55, 56, 57, 58, 59, 60, 61, 62, 63]
theorem recvWaitList_nodup : recvWaitList.Nodup := by decide
theorem recvWaitList_univ : Finset.univ = recvWaitList.toFinset := by decide
/-- The copies in the order the kernel waits for their DEPARTURE. -/
def sendWaitList : List (Fin 64) := [0, 22, 38, 1, 23, 39, 2, 24, 40, 3, 25, 41, 4, 26, 42, 5, 27, 43, 6, 28, 44, 7, 29, 45, 8, 30, 46, 9, 31, 47, 10, 32, 48, 11, 33, 49, 12, 34, 50, 13, 35, 51, 14, 36, 52, 15, 37, 53, 16, 17, 18, 19, 20, 21, 54, 55, 56, 57, 58, 59, 60, 61, 62, 63]
theorem sendWaitList_nodup : sendWaitList.Nodup := by decide
theorem sendWaitList_univ : Finset.univ = sendWaitList.toFinset := by decide
theorem progList_univ' : Finset.univ = progList.toFinset := progList_univ.symm

omit [FloatOps F] in
/-- The head of a listed chain. -/
theorem bigSepL_pop {I : Type} (i j : I) (l : List I) (Φ : I → sProp 𝕄) : bigSepL (i :: j :: l) Φ = iprop(Φ i ∗ bigSepL (j :: l) Φ) :=
  bigSepL_cons_cons i j l Φ

/-- What a device owes for the copies in a list. -/
def sumL (c : Dev nD) (l : List (Fin 64)) : CellTallies nD τ sig Unit := (l.map (tR c)).sum
theorem sumL_cons (c : Dev nD) (i : Fin 64) (l : List (Fin 64)) : sumL c (i :: l) = sumL c l + tR c i := by
  unfold sumL; rw [List.map_cons, List.sum_cons, add_comm]
theorem sumL_nil (c : Dev nD) : sumL c [] = 0 := rfl
theorem O₀_eqL (c : Dev nD) : O₀ c = sumL c progList + tallyAt (barCell (yn c)) () 1 + tallyAt (barCell (xn c)) () 1 + tallyAt (barCell (zp c)) () 1 := by
  rw [O₀_eq, ← progList_univ, List.sum_toFinset _ progList_nodup]; rfl
/-- Every copy in the list lies above level `k` when each one's receive cell does. -/
theorem above_lsum (k : ℕ) (c : Dev nD) (l : List (Fin 64))
    (h : ∀ i ∈ l, k < (if (rN i).val < 94 then 0 else if (rN i).val < 116 then 2 else if (rN i).val < 148 then 3 else 4)) :
    Above k (sumL c l) := by
  induction l with
  | nil => exact above_zero k
  | cons i l ih =>
    rw [sumL_cons]
    exact above_add (ih fun j hj => h j (List.mem_cons_of_mem _ hj)) (above_dma k (pr i c) (rN i) Nb (h i (List.mem_cons_self ..)))

/-- Every copy still owed lies above level `k` when each one's receive cell does. -/
theorem above_fsum (k : ℕ) (c : Dev nD) (S : Finset (Fin 64))
    (h : ∀ i ∈ S, k < (if (rN i).val < 94 then 0 else if (rN i).val < 116 then 2 else if (rN i).val < 148 then 3 else 4)) :
    Above k (∑ i ∈ S, tR c i) := by
  intro g u hg
  obtain ⟨i, hi, hpos⟩ := Pipeline.sum_pos_exists hg
  exact above_dma k (pr i c) (rN i) Nb (h i hi) g u hpos

/-! ## The entry handshake's payloads -/

omit [FloatOps F] in
theorem ownZ_landZ (n : Dev nD) (fq : Buf (Elt F) ((n : Thread nD τ).loc cc0_scratch5)) (fr : Buf (Elt F) ((n : Thread nD τ).loc cc0_scratch8)) :
    (ownZ n fq fr : sProp 𝕄) ⊢ landZ n := by
  rw [ownZ_eq, landZ_eq]
  repeat' refine BIClass.sep_mono ?_ ?_
  all_goals (unfold pex; iintro H; iexists _; iexact H)
omit [FloatOps F] in
theorem ownX_landX (n : Dev nD) (fx : Buf (Elt F) ((n : Thread nD τ).loc cc0_scratch6)) (fr : Buf (Elt F) ((n : Thread nD τ).loc cc0_scratch8)) :
    (ownX n fx fr : sProp 𝕄) ⊢ landX n := by
  rw [ownX_eq, landX_eq]
  repeat' refine BIClass.sep_mono ?_ ?_
  all_goals (unfold pex; iintro H; iexists _; iexact H)
omit [FloatOps F] in
theorem ownY_landY (n : Dev nD) (fy : Buf (Elt F) ((n : Thread nD τ).loc cc0_scratch7)) (fr : Buf (Elt F) ((n : Thread nD τ).loc cc0_scratch8)) :
    (ownY n fy fr : sProp 𝕄) ⊢ landY n := by
  rw [ownY_eq, landY_eq]
  repeat' refine BIClass.sep_mono ?_ ?_
  all_goals (unfold pex; iintro H; iexists _; iexact H)

/-- What the barrier wait hands the device: the landing blocks of its three neighbours. -/
theorem rest_bar (c : Dev nD) : bigSep ((Rd m).duties (barCell c) 0 \ ∅) (fun d => (Rd m).payload (barCell c) 0 d)
    = iprop(landZ (zp c) ∗ landX (xn c) ∗ landY (yn c)) := by
  rw [Finset.sdiff_empty, duties_bar, bigSep_fin3]; rfl

omit [FloatOps F] in
theorem bigSep_fin64 (Φ : Fin 64 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide) Φ
omit [FloatOps F] in
theorem bigSep_fin30 (Φ : Fin 30 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ

omit [FloatOps F] in
/-- The device's positions: on its barrier cell, its send cells, its receive cells. -/
theorem positions_eq (c : Dev nD) : (positions c : sProp 𝕄)
    = iprop(atPos ER (barCell c) 0 ∅ 0 ∗ (bigSep Finset.univ fun i : Fin 64 => atPos ER (dcell c (sN i)) 0 ∅ 0)
        ∗ bigSep Finset.univ fun i : Fin 64 => atPos ER (dcell c (rN i)) 0 ∅ 0) := by
  unfold positions
  rw [bigSep_univ_sum, bigSep_univ_sum, show (Finset.univ : Finset Unit) = {()} from rfl, bigSep_singleton]
  rfl

theorem inv_at' (K : Dev nD × CK → ℕ) (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
omit [FloatOps F] in
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m K ⊢ cellInv ER (Rd m) (K ck) (kcell ck) := by
  unfold records; iintro ⟨H, -⟩; iapply (inv_at' m K ck); iexact H
theorem reached_at (K : Dev nD × CK → ℕ) (ck : Dev nD × CK) : records m K ⊢ reached ER (kcell ck) 0 := by
  unfold records; iintro ⟨-, H⟩; iapply (reached_at' (F := F) ck); iexact H

/-- Copy `i`, the next in the list of copies still owed: the rule of SendRule.lean with the debt popped off the list. -/
theorem wp_send_i (c n' : Dev nD) (i : Fin 64) (l : List (Fin 64)) (hn : n' = pr i c) {srcM dstM : Memref sig .tc .vmem S64x1024 .bf16}
    (q : PosShare TreeShare) (fs : Buf (Elt F) (srcM.view.loc (c : Thread nD τ))) (fd : Buf (Elt F) (dstM.view.loc ((pr i c) : Thread nD τ)))
    (x : S64x1024.Idx → Elt F .bf16) (hx : srcM.view.read (Elt F) fs = x)
    (hpay₁ : (srcM.view.loc (c : Thread nD τ) ↦[srcM.view.set]{q} fs : sProp 𝕄) ⊢ (Rd m).payload (dcell c (sN i)) 0 0)
    (hpay₂ : (Rd m).payload (dcell (pr i c) (rN i)) 0 0 = (dstM.view.loc ((pr i c) : Thread nD τ) ↦[dstM.view.set]{fullShare} dstM.view.rep x : sProp 𝕄))
    (hN : dstM.view.amount (SemLoc.dma (rN i)) = Nb)
    {hsc : (dstM : Memref sig (Dev.tc n' : Thread nD τ).2.kind .vmem S64x1024 .bf16).view.ref.isScScratch = false}
    {hsrc : srcM.view.WordExact} {hdst : dstM.view.WordExact}
    {hsem : DmaTarget.Typed .vmem (.dma (rN i)) (.remote (Dev.tc n' : Thread nD τ) dstM (.dma (sN i)) hsc)}
    {α : Type} {Q : α → sProp 𝕄} {k : PUnit → Prog (TpuEff nD τ sig (Elt F) Λ₀ .tc) α}
    (κ₁ κ₂ : ℕ) (W : Waits sig Unit) :
    iprop(cellInv ER (Rd m) κ₁ (dcell c (sN i)) ∗ cellInv ER (Rd m) κ₂ (dcell (pr i c) (rN i))
        ∗ (srcM.view.loc (c : Thread nD τ) ↦[srcM.view.set]{q} fs) ∗ (dstM.view.loc ((pr i c) : Thread nD τ) ↦[dstM.view.set]{fullShare} fd)
        ∗ owes (c : Thread nD τ) (sumL c (i :: l)) W
        ∗ dutyTok ER (dcell c (sN i)) 0 0 ∗ reached ER (dcell c (sN i)) 0
        ∗ dutyTok ER (dcell (pr i c) (rN i)) 0 0 ∗ reached ER (dcell (pr i c) (rN i)) 0)
      ⊢ iprop(((cred (tallyAt (dcell c (sN i)) () Nb) ∗ owes (c : Thread nD τ) (sumL c l) W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM (.remote (Dev.tc n' : Thread nD τ) dstM (.dma (sN i)) hsc) (.dma (rN i)) hsrc hdst hsem) k) Q) := by
  rw [sumL_cons]
  exact wp_send_blk m c (pr i c) n' hn (sN i) (rN i) (by show 30 ≤ 30 + i.val; omega) (by show 30 + i.val < 94; omega) (by show 94 ≤ 94 + i.val; omega)
    q fs fd x hx hpay₁ hpay₂ hN κ₁ κ₂ (sumL c l) W

end Cert.Kernel.Rs

end
-- ==== Proof.Bits.PayTab.lean ====
/- The schedule's payload table, family by family: what each send cell hands back and what each receive cell hands its
   owner, one statement per copy of the kernel; and the receive cells once more as the sender sees them, on its
   neighbour, with the neighbour's neighbour resolved to the sender itself. -/
import proofs.«901030_g7700000000001031_dist_rs_v7x_xyz2x2x2_z_m4096_n1024_bf16_1_alg».proof.Proof.Bits.BodySpec

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The table at copy number k -/

/-- The send cell of copy k hands back entry k of the send table. -/
theorem send_at (c : Dev nD) (k : ℕ) (hk : k < 64) : (Rd m).payload (dcell c (sN ⟨k, hk⟩)) 0 0 = sendPay c k := by
  rw [payload_send m c (sN ⟨k, hk⟩) (by show 30 + k < 94; omega)]
  exact congrArg (sendPay c) (by show 30 + k - 30 = k; omega)

/-- The receive cell of copy k hands its owner entry k of the receive table. -/
theorem recv_at (n : Dev nD) (k : ℕ) (hk : k < 64) : (Rd m).payload (dcell n (rN ⟨k, hk⟩)) 0 0 = recvPay m n k := by
  rw [payload_recv m n (rN ⟨k, hk⟩) (by show 94 ≤ 94 + k; omega)]
  exact congrArg (recvPay m n) (by show 94 + k - 94 = k; omega)

/-- Every send and receive cell has the one duty 0 in its round, of a block's credit. -/
theorem duties_sN (c : Dev nD) (i : Fin 64) : (Rd m).duties (dcell c (sN i)) 0 = {0} := duties_dma m c (sN i) (by show 30 ≤ 30 + i.val; omega)
theorem duties_rN (c : Dev nD) (i : Fin 64) : (Rd m).duties (dcell c (rN i)) 0 = {0} := duties_dma m c (rN i) (by show 30 ≤ 94 + i.val; omega)
theorem expect_sN (c : Dev nD) (i : Fin 64) : (Rd m).expect (dcell c (sN i)) 0 = Nb := expect_dma m c (sN i) (by show 30 ≤ 30 + i.val; omega)
theorem expect_rN (c : Dev nD) (i : Fin 64) : (Rd m).expect (dcell c (rN i)) 0 = Nb := expect_dma m c (rN i) (by show 30 ≤ 94 + i.val; omega)

/-! ## The send cells of device c: the source block comes back at the share it was lent -/

/-- Copies 0–15, to the z-partner: block s of the own quarter's staging buffer. -/
theorem pay_sZa (c : Dev nD) (s : Fin 16) : (Rd m).payload (dcell c (sN ⟨s.val, by omega⟩)) 0 0 = pex c fullShare (bA s) := by
  have hs := s.isLt
  rw [send_at]; unfold sendPay
  rw [dif_pos (by omega)]
/-- Copies 16–21, to the z-partner: block j of the diagonal quarter's staging buffer. -/
theorem pay_sZd (c : Dev nD) (j : Fin 6) : (Rd m).payload (dcell c (sN ⟨16 + j.val, by omega⟩)) 0 0 = pex c fullShare (bD j) := by
  have hj := j.isLt
  rw [send_at]; unfold sendPay
  rw [dif_neg (by omega), dif_pos (by omega)]
  simp only [Nat.add_sub_cancel_left, Fin.eta]
/-- Copies 22–37, to the x-neighbour: block s of what the z-partner sent, lent at the x share. -/
theorem pay_sFx (c : Dev nD) (s : Fin 16) : (Rd m).payload (dcell c (sN ⟨22 + s.val, by omega⟩)) 0 0 = pex c shX (bQ s) := by
  have hs := s.isLt
  rw [send_at]; unfold sendPay
  rw [dif_neg (by omega), dif_neg (by omega), dif_pos (by omega)]
  simp only [Nat.add_sub_cancel_left, Fin.eta]
/-- Copies 38–53, to the y-neighbour: the same block, lent at the y share. -/
theorem pay_sFy (c : Dev nD) (s : Fin 16) : (Rd m).payload (dcell c (sN ⟨38 + s.val, by omega⟩)) 0 0 = pex c shY (bQ s) := by
  have hs := s.isLt
  rw [send_at]; unfold sendPay
  rw [dif_neg (by omega), dif_neg (by omega), dif_neg (by omega), dif_pos (by omega)]
  simp only [Nat.add_sub_cancel_left, Fin.eta]
/-- Copies 54–58, to the x-neighbour: blocks 6–10 of what the y-neighbour sent. -/
theorem pay_sDx (c : Dev nD) (t : Fin 5) : (Rd m).payload (dcell c (sN ⟨54 + t.val, by omega⟩)) 0 0 = pex c shX (bY ⟨t.val + 6, by omega⟩) := by
  have ht := t.isLt
  rw [send_at]; unfold sendPay
  rw [dif_neg (by omega), dif_neg (by omega), dif_neg (by omega), dif_neg (by omega), dif_pos (by omega)]
  simp only [Nat.add_sub_cancel_left]
/-- Copies 59–63, to the y-neighbour: blocks 11–15 of what the x-neighbour sent. -/
theorem pay_sDy (c : Dev nD) (t : Fin 5) : (Rd m).payload (dcell c (sN ⟨59 + t.val, by omega⟩)) 0 0 = pex c shY (bX ⟨t.val + 11, by omega⟩) := by
  have ht := t.isLt
  rw [send_at]; unfold sendPay
  rw [dif_neg (by omega), dif_neg (by omega), dif_neg (by omega), dif_neg (by omega), dif_neg (by omega), dif_pos (by omega)]
  simp only [Nat.add_sub_cancel_left]

/-! ## The receive cells as their owner n sees them: the landing block, holding what was sent -/

/-- Copies 0–15, from the z-partner: block s of the z-partner's own quarter. -/
theorem pay_rZa (n : Dev nD) (s : Fin 16) : (Rd m).payload (dcell n (rN ⟨s.val, by omega⟩)) 0 0 = ptr n (bQ s) (aV m (zp n) s) := by
  have hs := s.isLt
  rw [recv_at]; unfold recvPay
  rw [dif_pos (by omega)]
  rfl
/-- Copies 16–21, from the z-partner: block j of the z-partner's diagonal quarter. -/
theorem pay_rZd (n : Dev nD) (j : Fin 6) : (Rd m).payload (dcell n (rN ⟨16 + j.val, by omega⟩)) 0 0 = ptr n (bR ⟨j.val, by omega⟩) (dV m (zp n) j) := by
  have hj := j.isLt
  rw [recv_at]; unfold recvPay
  rw [dif_neg (by omega), dif_pos (by omega)]
  simp only [Nat.add_sub_cancel_left, Fin.eta]
/-- Copies 22–37, from the x-neighbour: what the x-neighbour received from its z-partner. -/
theorem pay_rFx (n : Dev nD) (s : Fin 16) : (Rd m).payload (dcell n (rN ⟨22 + s.val, by omega⟩)) 0 0 = ptr n (bX s) (aV m (zp (xn n)) s) := by
  have hs := s.isLt
  rw [recv_at]; unfold recvPay
  rw [dif_neg (by omega), dif_neg (by omega), dif_pos (by omega)]
  simp only [Nat.add_sub_cancel_left, Fin.eta]
  rfl
/-- Copies 38–53, from the y-neighbour: what the y-neighbour received from its z-partner. -/
theorem pay_rFy (n : Dev nD) (s : Fin 16) : (Rd m).payload (dcell n (rN ⟨38 + s.val, by omega⟩)) 0 0 = ptr n (bY s) (aV m (zp (yn n)) s) := by
  have hs := s.isLt
  rw [recv_at]; unfold recvPay
  rw [dif_neg (by omega), dif_neg (by omega), dif_neg (by omega), dif_pos (by omega)]
  simp only [Nat.add_sub_cancel_left, Fin.eta]
  rfl
/-- Copies 54–58, from the x-neighbour: blocks 6–10 of what its y-neighbour had received. -/
theorem pay_rDx (n : Dev nD) (t : Fin 5) : (Rd m).payload (dcell n (rN ⟨54 + t.val, by omega⟩)) 0 0
    = ptr n (bR ⟨t.val + 6, by omega⟩) (aV m (zp (yn (xn n))) ⟨t.val + 6, by omega⟩) := by
  have ht := t.isLt
  rw [recv_at]; unfold recvPay
  rw [dif_neg (by omega), dif_neg (by omega), dif_neg (by omega), dif_neg (by omega), dif_pos (by omega)]
  simp only [Nat.add_sub_cancel_left]
  rfl
/-- Copies 59–63, from the y-neighbour: blocks 11–15 of what its x-neighbour had received. -/
theorem pay_rDy (n : Dev nD) (t : Fin 5) : (Rd m).payload (dcell n (rN ⟨59 + t.val, by omega⟩)) 0 0
    = ptr n (bR ⟨t.val + 11, by omega⟩) (aV m (zp (xn (yn n))) ⟨t.val + 11, by omega⟩) := by
  have ht := t.isLt
  rw [recv_at]; unfold recvPay
  rw [dif_neg (by omega), dif_neg (by omega), dif_neg (by omega), dif_neg (by omega), dif_neg (by omega), dif_pos (by omega)]
  simp only [Nat.add_sub_cancel_left]
  rfl

/-! ## The same receive cells as the sender c sees them: on its neighbour, holding what c sends -/

theorem pay_rZa' (c : Dev nD) (s : Fin 16) : (Rd m).payload (dcell (zp c) (rN ⟨s.val, by omega⟩)) 0 0
    = ((bQ s).view.loc ((zp c : Dev nD) : Thread nD τ) ↦[(bQ s).view.set]{fullShare} (bQ s).view.rep (aV m c s)) := by
  rw [pay_rZa, ptr_def, zp_zp]
theorem pay_rZd' (c : Dev nD) (j : Fin 6) : (Rd m).payload (dcell (zp c) (rN ⟨16 + j.val, by omega⟩)) 0 0
    = ((bR ⟨j.val, by omega⟩).view.loc ((zp c : Dev nD) : Thread nD τ) ↦[(bR ⟨j.val, by omega⟩).view.set]{fullShare} (bR ⟨j.val, by omega⟩).view.rep (dV m c j)) := by
  rw [pay_rZd, ptr_def, zp_zp]
theorem pay_rFx' (c : Dev nD) (s : Fin 16) : (Rd m).payload (dcell (xn c) (rN ⟨22 + s.val, by omega⟩)) 0 0
    = ((bX s).view.loc ((xn c : Dev nD) : Thread nD τ) ↦[(bX s).view.set]{fullShare} (bX s).view.rep (aV m (zp c) s)) := by
  rw [pay_rFx, ptr_def, xn_xn]
theorem pay_rFy' (c : Dev nD) (s : Fin 16) : (Rd m).payload (dcell (yn c) (rN ⟨38 + s.val, by omega⟩)) 0 0
    = ((bY s).view.loc ((yn c : Dev nD) : Thread nD τ) ↦[(bY s).view.set]{fullShare} (bY s).view.rep (aV m (zp c) s)) := by
  rw [pay_rFy, ptr_def, yn_yn]
theorem pay_rDx' (c : Dev nD) (t : Fin 5) : (Rd m).payload (dcell (xn c) (rN ⟨54 + t.val, by omega⟩)) 0 0
    = ((bR ⟨t.val + 6, by omega⟩).view.loc ((xn c : Dev nD) : Thread nD τ) ↦[(bR ⟨t.val + 6, by omega⟩).view.set]{fullShare}
        (bR ⟨t.val + 6, by omega⟩).view.rep (aV m (zp (yn c)) ⟨t.val + 6, by omega⟩)) := by
  rw [pay_rDx, ptr_def, xn_xn]
theorem pay_rDy' (c : Dev nD) (t : Fin 5) : (Rd m).payload (dcell (yn c) (rN ⟨59 + t.val, by omega⟩)) 0 0
    = ((bR ⟨t.val + 11, by omega⟩).view.loc ((yn c : Dev nD) : Thread nD τ) ↦[(bR ⟨t.val + 11, by omega⟩).view.set]{fullShare}
        (bR ⟨t.val + 11, by omega⟩).view.rep (aV m (zp (xn c)) ⟨t.val + 11, by omega⟩)) := by
  rw [pay_rDy, ptr_def, yn_yn]

/-! ## Paying a send cell's duty -/

/-- A block held at some contents at the share the table names is the payload of the cell whose entry it is. -/
theorem pay_of_pex (c : Dev nD) (q : PosShare TreeShare) (M : Memref sig .tc .vmem S64x1024 .bf16) (g : GSem nD τ sig)
    (h : (Rd m).payload g 0 0 = pex c q M) (fs : Buf (Elt F) (M.view.loc (c : Thread nD τ))) :
    (M.view.loc (c : Thread nD τ) ↦[M.view.set]{q} fs : sProp 𝕄) ⊢ (Rd m).payload g 0 0 := by
  rw [h, pex_def]
  iintro H
  iexists fs
  iexact H

/-! ## The forwarded copies and the diagonal quarter's, at literal blocks -/

theorem pay_sDx_6 (c : Dev nD) : (Rd m).payload (dcell c (sN 54)) 0 0 = pex c shX (bY 6) := pay_sDx m c 0
theorem pay_sDx_7 (c : Dev nD) : (Rd m).payload (dcell c (sN 55)) 0 0 = pex c shX (bY 7) := pay_sDx m c 1
theorem pay_sDx_8 (c : Dev nD) : (Rd m).payload (dcell c (sN 56)) 0 0 = pex c shX (bY 8) := pay_sDx m c 2
theorem pay_sDx_9 (c : Dev nD) : (Rd m).payload (dcell c (sN 57)) 0 0 = pex c shX (bY 9) := pay_sDx m c 3
theorem pay_sDx_10 (c : Dev nD) : (Rd m).payload (dcell c (sN 58)) 0 0 = pex c shX (bY 10) := pay_sDx m c 4
theorem pay_sDy_11 (c : Dev nD) : (Rd m).payload (dcell c (sN 59)) 0 0 = pex c shY (bX 11) := pay_sDy m c 0
theorem pay_sDy_12 (c : Dev nD) : (Rd m).payload (dcell c (sN 60)) 0 0 = pex c shY (bX 12) := pay_sDy m c 1
theorem pay_sDy_13 (c : Dev nD) : (Rd m).payload (dcell c (sN 61)) 0 0 = pex c shY (bX 13) := pay_sDy m c 2
theorem pay_sDy_14 (c : Dev nD) : (Rd m).payload (dcell c (sN 62)) 0 0 = pex c shY (bX 14) := pay_sDy m c 3
theorem pay_sDy_15 (c : Dev nD) : (Rd m).payload (dcell c (sN 63)) 0 0 = pex c shY (bX 15) := pay_sDy m c 4
theorem pay_rDx_6 (n : Dev nD) : (Rd m).payload (dcell n (rN 54)) 0 0 = ptr n (bR 6) (aV m (zp (yn (xn n))) 6) := pay_rDx m n 0
theorem pay_rDx_7 (n : Dev nD) : (Rd m).payload (dcell n (rN 55)) 0 0 = ptr n (bR 7) (aV m (zp (yn (xn n))) 7) := pay_rDx m n 1
theorem pay_rDx_8 (n : Dev nD) : (Rd m).payload (dcell n (rN 56)) 0 0 = ptr n (bR 8) (aV m (zp (yn (xn n))) 8) := pay_rDx m n 2
theorem pay_rDx_9 (n : Dev nD) : (Rd m).payload (dcell n (rN 57)) 0 0 = ptr n (bR 9) (aV m (zp (yn (xn n))) 9) := pay_rDx m n 3
theorem pay_rDx_10 (n : Dev nD) : (Rd m).payload (dcell n (rN 58)) 0 0 = ptr n (bR 10) (aV m (zp (yn (xn n))) 10) := pay_rDx m n 4
theorem pay_rDy_11 (n : Dev nD) : (Rd m).payload (dcell n (rN 59)) 0 0 = ptr n (bR 11) (aV m (zp (xn (yn n))) 11) := pay_rDy m n 0
theorem pay_rDy_12 (n : Dev nD) : (Rd m).payload (dcell n (rN 60)) 0 0 = ptr n (bR 12) (aV m (zp (xn (yn n))) 12) := pay_rDy m n 1
theorem pay_rDy_13 (n : Dev nD) : (Rd m).payload (dcell n (rN 61)) 0 0 = ptr n (bR 13) (aV m (zp (xn (yn n))) 13) := pay_rDy m n 2
theorem pay_rDy_14 (n : Dev nD) : (Rd m).payload (dcell n (rN 62)) 0 0 = ptr n (bR 14) (aV m (zp (xn (yn n))) 14) := pay_rDy m n 3
theorem pay_rDy_15 (n : Dev nD) : (Rd m).payload (dcell n (rN 63)) 0 0 = ptr n (bR 15) (aV m (zp (xn (yn n))) 15) := pay_rDy m n 4
theorem pay_rDx'_6 (c : Dev nD) : (Rd m).payload (dcell (xn c) (rN 54)) 0 0
    = ((bR 6).view.loc ((xn c : Dev nD) : Thread nD τ) ↦[(bR 6).view.set]{fullShare} (bR 6).view.rep (aV m (zp (yn c)) 6)) := pay_rDx' m c 0
theorem pay_rDx'_7 (c : Dev nD) : (Rd m).payload (dcell (xn c) (rN 55)) 0 0
    = ((bR 7).view.loc ((xn c : Dev nD) : Thread nD τ) ↦[(bR 7).view.set]{fullShare} (bR 7).view.rep (aV m (zp (yn c)) 7)) := pay_rDx' m c 1
theorem pay_rDx'_8 (c : Dev nD) : (Rd m).payload (dcell (xn c) (rN 56)) 0 0
    = ((bR 8).view.loc ((xn c : Dev nD) : Thread nD τ) ↦[(bR 8).view.set]{fullShare} (bR 8).view.rep (aV m (zp (yn c)) 8)) := pay_rDx' m c 2
theorem pay_rDx'_9 (c : Dev nD) : (Rd m).payload (dcell (xn c) (rN 57)) 0 0
    = ((bR 9).view.loc ((xn c : Dev nD) : Thread nD τ) ↦[(bR 9).view.set]{fullShare} (bR 9).view.rep (aV m (zp (yn c)) 9)) := pay_rDx' m c 3
theorem pay_rDx'_10 (c : Dev nD) : (Rd m).payload (dcell (xn c) (rN 58)) 0 0
    = ((bR 10).view.loc ((xn c : Dev nD) : Thread nD τ) ↦[(bR 10).view.set]{fullShare} (bR 10).view.rep (aV m (zp (yn c)) 10)) := pay_rDx' m c 4
theorem pay_rDy'_11 (c : Dev nD) : (Rd m).payload (dcell (yn c) (rN 59)) 0 0
    = ((bR 11).view.loc ((yn c : Dev nD) : Thread nD τ) ↦[(bR 11).view.set]{fullShare} (bR 11).view.rep (aV m (zp (xn c)) 11)) := pay_rDy' m c 0
theorem pay_rDy'_12 (c : Dev nD) : (Rd m).payload (dcell (yn c) (rN 60)) 0 0
    = ((bR 12).view.loc ((yn c : Dev nD) : Thread nD τ) ↦[(bR 12).view.set]{fullShare} (bR 12).view.rep (aV m (zp (xn c)) 12)) := pay_rDy' m c 1
theorem pay_rDy'_13 (c : Dev nD) : (Rd m).payload (dcell (yn c) (rN 61)) 0 0
    = ((bR 13).view.loc ((yn c : Dev nD) : Thread nD τ) ↦[(bR 13).view.set]{fullShare} (bR 13).view.rep (aV m (zp (xn c)) 13)) := pay_rDy' m c 2
theorem pay_rDy'_14 (c : Dev nD) : (Rd m).payload (dcell (yn c) (rN 62)) 0 0
    = ((bR 14).view.loc ((yn c : Dev nD) : Thread nD τ) ↦[(bR 14).view.set]{fullShare} (bR 14).view.rep (aV m (zp (xn c)) 14)) := pay_rDy' m c 3
theorem pay_rDy'_15 (c : Dev nD) : (Rd m).payload (dcell (yn c) (rN 63)) 0 0
    = ((bR 15).view.loc ((yn c : Dev nD) : Thread nD τ) ↦[(bR 15).view.set]{fullShare} (bR 15).view.rep (aV m (zp (xn c)) 15)) := pay_rDy' m c 4
theorem pay_rZd_0 (n : Dev nD) : (Rd m).payload (dcell n (rN 16)) 0 0 = ptr n (bR 0) (dV m (zp n) 0) := pay_rZd m n 0
theorem pay_rZd_1 (n : Dev nD) : (Rd m).payload (dcell n (rN 17)) 0 0 = ptr n (bR 1) (dV m (zp n) 1) := pay_rZd m n 1
theorem pay_rZd_2 (n : Dev nD) : (Rd m).payload (dcell n (rN 18)) 0 0 = ptr n (bR 2) (dV m (zp n) 2) := pay_rZd m n 2
theorem pay_rZd_3 (n : Dev nD) : (Rd m).payload (dcell n (rN 19)) 0 0 = ptr n (bR 3) (dV m (zp n) 3) := pay_rZd m n 3
theorem pay_rZd_4 (n : Dev nD) : (Rd m).payload (dcell n (rN 20)) 0 0 = ptr n (bR 4) (dV m (zp n) 4) := pay_rZd m n 4
theorem pay_rZd_5 (n : Dev nD) : (Rd m).payload (dcell n (rN 21)) 0 0 = ptr n (bR 5) (dV m (zp n) 5) := pay_rZd m n 5
theorem pay_rZd'_0 (c : Dev nD) : (Rd m).payload (dcell (zp c) (rN 16)) 0 0
    = ((bR 0).view.loc ((zp c : Dev nD) : Thread nD τ) ↦[(bR 0).view.set]{fullShare} (bR 0).view.rep (dV m c 0)) := pay_rZd' m c 0
theorem pay_rZd'_1 (c : Dev nD) : (Rd m).payload (dcell (zp c) (rN 17)) 0 0
    = ((bR 1).view.loc ((zp c : Dev nD) : Thread nD τ) ↦[(bR 1).view.set]{fullShare} (bR 1).view.rep (dV m c 1)) := pay_rZd' m c 1
theorem pay_rZd'_2 (c : Dev nD) : (Rd m).payload (dcell (zp c) (rN 18)) 0 0
    = ((bR 2).view.loc ((zp c : Dev nD) : Thread nD τ) ↦[(bR 2).view.set]{fullShare} (bR 2).view.rep (dV m c 2)) := pay_rZd' m c 2
theorem pay_rZd'_3 (c : Dev nD) : (Rd m).payload (dcell (zp c) (rN 19)) 0 0
    = ((bR 3).view.loc ((zp c : Dev nD) : Thread nD τ) ↦[(bR 3).view.set]{fullShare} (bR 3).view.rep (dV m c 3)) := pay_rZd' m c 3
theorem pay_rZd'_4 (c : Dev nD) : (Rd m).payload (dcell (zp c) (rN 20)) 0 0
    = ((bR 4).view.loc ((zp c : Dev nD) : Thread nD τ) ↦[(bR 4).view.set]{fullShare} (bR 4).view.rep (dV m c 4)) := pay_rZd' m c 4
theorem pay_rZd'_5 (c : Dev nD) : (Rd m).payload (dcell (zp c) (rN 21)) 0 0
    = ((bR 5).view.loc ((zp c : Dev nD) : Thread nD τ) ↦[(bR 5).view.set]{fullShare} (bR 5).view.rep (dV m c 5)) := pay_rZd' m c 5

/-! ## Each family at a literal index -/

example (c : Dev nD) : (Rd m).payload (dcell c (sN 3)) 0 0 = pex c fullShare (bA 3) := pay_sZa m c 3
example (c : Dev nD) : (Rd m).payload (dcell c (sN 18)) 0 0 = pex c fullShare (bD 2) := pay_sZd m c 2
example (c : Dev nD) : (Rd m).payload (dcell c (sN 29)) 0 0 = pex c shX (bQ 7) := pay_sFx m c 7
example (c : Dev nD) : (Rd m).payload (dcell c (sN 53)) 0 0 = pex c shY (bQ 15) := pay_sFy m c 15
example (c : Dev nD) : (Rd m).payload (dcell c (sN 56)) 0 0 = pex c shX (bY 8) := pay_sDx m c 2
example (c : Dev nD) : (Rd m).payload (dcell c (sN 63)) 0 0 = pex c shY (bX 15) := pay_sDy m c 4
example (n : Dev nD) : (Rd m).payload (dcell n (rN 3)) 0 0 = ptr n (bQ 3) (aV m (zp n) 3) := pay_rZa m n 3
example (n : Dev nD) : (Rd m).payload (dcell n (rN 18)) 0 0 = ptr n (bR 2) (dV m (zp n) 2) := pay_rZd m n 2
example (n : Dev nD) : (Rd m).payload (dcell n (rN 29)) 0 0 = ptr n (bX 7) (aV m (zp (xn n)) 7) := pay_rFx m n 7
example (n : Dev nD) : (Rd m).payload (dcell n (rN 53)) 0 0 = ptr n (bY 15) (aV m (zp (yn n)) 15) := pay_rFy m n 15
example (n : Dev nD) : (Rd m).payload (dcell n (rN 56)) 0 0 = ptr n (bR 8) (aV m (zp (yn (xn n))) 8) := pay_rDx m n 2
example (n : Dev nD) : (Rd m).payload (dcell n (rN 63)) 0 0 = ptr n (bR 15) (aV m (zp (xn (yn n))) 15) := pay_rDy m n 4
example (c : Dev nD) : (Rd m).payload (dcell (xn c) (rN 56)) 0 0
    = ((bR 8).view.loc ((xn c : Dev nD) : Thread nD τ) ↦[(bR 8).view.set]{fullShare} (bR 8).view.rep (aV m (zp (yn c)) 8)) := pay_rDx' m c 2

end Cert.Kernel.Rs

end
-- ==== Proof.Bits.StepVal.lean ====
/- The values the body's sends carry, step by step: the block stored into a staging buffer, read back through the
   block's own name, is the f32 block it was computed from, narrowed; a block held canonically reads as itself. -/
import proofs.«901030_g7700000000001031_dist_rs_v7x_xyz2x2x2_z_m4096_n1024_bf16_1_alg».proof.Proof.Bits.PayTab
import proofs.«901030_g7700000000001031_dist_rs_v7x_xyz2x2x2_z_m4096_n1024_bf16_1_alg».proof.Proof.Bits.ValLemmas

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The narrowing of a block: one function under twenty-two names -/

theorem k0_pay1_eq1 : @k0_pay1 F _ = @k0_pay1 F _ := rfl
theorem k0_pay2_eq1 : @k0_pay2 F _ = @k0_pay1 F _ := rfl
theorem k0_pay3_eq1 : @k0_pay3 F _ = @k0_pay1 F _ := rfl
theorem k0_pay4_eq1 : @k0_pay4 F _ = @k0_pay1 F _ := rfl
theorem k0_pay5_eq1 : @k0_pay5 F _ = @k0_pay1 F _ := rfl
theorem k0_pay6_eq1 : @k0_pay6 F _ = @k0_pay1 F _ := rfl
theorem k0_pay7_eq1 : @k0_pay7 F _ = @k0_pay1 F _ := rfl
theorem k0_pay8_eq1 : @k0_pay8 F _ = @k0_pay1 F _ := rfl
theorem k0_pay9_eq1 : @k0_pay9 F _ = @k0_pay1 F _ := rfl
theorem k0_pay10_eq1 : @k0_pay10 F _ = @k0_pay1 F _ := rfl
theorem k0_pay11_eq1 : @k0_pay11 F _ = @k0_pay1 F _ := rfl
theorem k0_pay12_eq1 : @k0_pay12 F _ = @k0_pay1 F _ := rfl
theorem k0_pay13_eq1 : @k0_pay13 F _ = @k0_pay1 F _ := rfl
theorem k0_pay14_eq1 : @k0_pay14 F _ = @k0_pay1 F _ := rfl
theorem k0_pay15_eq1 : @k0_pay15 F _ = @k0_pay1 F _ := rfl
theorem k0_pay16_eq1 : @k0_pay16 F _ = @k0_pay1 F _ := rfl
theorem k0_pay17_eq1 : @k0_pay17 F _ = @k0_pay1 F _ := rfl
theorem k0_pay18_eq1 : @k0_pay18 F _ = @k0_pay1 F _ := rfl
theorem k0_pay19_eq1 : @k0_pay19 F _ = @k0_pay1 F _ := rfl
theorem k0_pay20_eq1 : @k0_pay20 F _ = @k0_pay1 F _ := rfl
theorem k0_pay21_eq1 : @k0_pay21 F _ = @k0_pay1 F _ := rfl
theorem k0_pay22_eq1 : @k0_pay22 F _ = @k0_pay1 F _ := rfl

/-! ## A staged block, read back -/

/-- Block s of the own quarter's staging buffer after the store: the f32 block the local copy landed, narrowed. -/
theorem za_val (c : Dev nD) (s : Fin 16) (fA : Buf (Elt F) ((c : Thread nD τ).loc cc0_scratch3))
    (P : (S64x1024.Idx → Elt F .f32) → (S64x1024.Idx → Elt F .bf16)) (hP : P = k0_pay1)
    (inb : ∀ a, (![64 * s.val, 0] : Fin 2 → Nat) a + S64x1024.size a ≤ S1024x1024.size a)
    (inb' : ∀ a, (![64 * s.val, 0] : Fin 2 → Nat) a + S64x1024.size a ≤ S1024x1024.size a) :
    (bA s).view.read (Elt F)
      (View.write (Elt F) ((Memref.whole cc0_scratch3).access (Rect.unit (s := S1024x1024) ![64 * s.val, 0] S64x1024.size inb)) fA
        (P (View.readAt (Elt F) (Memref.whole cc0_scratch0).view (Rect.unit (s := S1024x1024) ![64 * s.val, 0] S64x1024.size inb').toLoadRect
          ((xqM s).view.writes (Elt F) (xqM s).view.junk [⟨Rect.whole S64x1024, qV m c s⟩]))) Finset.univ)
      = aV m c s := by
  subst hP
  refine (read_block_write_whole cc0_scratch3 _ _ inb fA _).trans ?_
  exact congrArg k0_pay1 (readAt_writes_block_whole cc0_scratch0 _ _ inb' (qV m c s))

/-- Block j of the diagonal quarter's staging buffer after the store, likewise. -/
theorem zd_val (c : Dev nD) (j : Fin 6) (fD : Buf (Elt F) ((c : Thread nD τ).loc cc0_scratch4))
    (P : (S64x1024.Idx → Elt F .f32) → (S64x1024.Idx → Elt F .bf16)) (hP : P = k0_pay1)
    (inb : ∀ a, (![64 * j.val, 0] : Fin 2 → Nat) a + S64x1024.size a ≤ S384x1024.size a)
    (inb' : ∀ a, (![64 * j.val, 0] : Fin 2 → Nat) a + S64x1024.size a ≤ S384x1024.size a) :
    (bD j).view.read (Elt F)
      (View.write (Elt F) ((Memref.whole cc0_scratch4).access (Rect.unit (s := S384x1024) ![64 * j.val, 0] S64x1024.size inb)) fD
        (P (View.readAt (Elt F) (Memref.whole cc0_scratch1).view (Rect.unit (s := S384x1024) ![64 * j.val, 0] S64x1024.size inb').toLoadRect
          ((xdM j).view.writes (Elt F) (xdM j).view.junk [⟨Rect.whole S64x1024, dqV m c j⟩]))) Finset.univ)
      = dV m c j := by
  subst hP
  refine (read_block_write_whole cc0_scratch4 _ _ inb fD _).trans ?_
  exact congrArg k0_pay1 (readAt_writes_block_whole cc0_scratch1 _ _ inb' (dqV m c j))

/-! ## A block held canonically reads as itself -/

theorem rep_read (M : Memref sig .tc .vmem S64x1024 .bf16) (x : S64x1024.Idx → Elt F .bf16) :
    M.view.read (Elt F) (M.view.rep x) = x := View.read_rep M.view x

/-- The same with the canonical contents spelt as the one whole piece over arbitrary contents. -/
theorem writes_read (M : Memref sig .tc .vmem S64x1024 .bf16) (x : S64x1024.Idx → Elt F .bf16) :
    M.view.read (Elt F) (M.view.writes (Elt F) M.view.junk [⟨Rect.whole S64x1024, x⟩]) = x := View.read_rep M.view x

/-! ## At a literal block -/

example (c : Dev nD) (fA : Buf (Elt F) ((c : Thread nD τ).loc cc0_scratch3)) :
    (bA 3).view.read (Elt F)
      (View.write (Elt F) ((Memref.whole cc0_scratch3).access (Rect.unit (s := S1024x1024) ![192, 0] S64x1024.size inb_S1024x1024_S64x1024_192_0)) fA
        (k0_pay4 (View.readAt (Elt F) (Memref.whole cc0_scratch0).view (Rect.unit (s := S1024x1024) ![192, 0] S64x1024.size inb_S1024x1024_S64x1024_192_0).toLoadRect
          ((xqM 3).view.writes (Elt F) (xqM 3).view.junk [⟨Rect.whole S64x1024, qV m c 3⟩]))) Finset.univ)
      = aV m c 3 := za_val m c 3 fA k0_pay4 k0_pay4_eq1 _ _

end Cert.Kernel.Rs

end
-- ==== Proof.Bits.BodyMacros.lean ====
/- The steps of the kernel body's proof that are applied by hand, each once, as tactics over the copy's index: a remote
   copy, the wait for an arrival, the wait for a departure, a block put in shares. -/
import proofs.«901030_g7700000000001031_dist_rs_v7x_xyz2x2x2_z_m4096_n1024_bf16_1_alg».proof.Proof.Bits.BodyLemmas
import proofs.«901030_g7700000000001031_dist_rs_v7x_xyz2x2x2_z_m4096_n1024_bf16_1_alg».proof.Proof.Bits.PayTab
import proofs.«901030_g7700000000001031_dist_rs_v7x_xyz2x2x2_z_m4096_n1024_bf16_1_alg».proof.Proof.Bits.StepVal

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option hygiene false in
/-- `ipop H as X`: the head of the listed chain `H` becomes `X`, the tail stays `H`. -/
macro "ipop " h:ident " as " x:ident : tactic =>
  `(tactic| (ihave Htmp_pop := (Entails.of_eq (bigSepL_pop _ _ _ _)) $$ $h:ident; icases Htmp_pop with ⟨$x:ident, $h:ident⟩))

set_option hygiene false in
/-- One remote copy applied by hand: copy `i` of the list of copies still owed, from the source hypothesis `hs` (at share
    `q`, reading as `x` by `hx`) into the head of the landing chain `hch` on neighbour `n` (`dv : ⟨word, _⟩ = n`), the
    schedule's two payload facts `hp1`, `hp2`. Leaves `HO` (the debt less this copy) and `hcr` (the send cell's credit). -/
macro "send_core " i:num hs:ident hch:ident hcr:ident " | " dv:term " | " n:term " | " q:term " | " x:term " | " hx:term " | " hp1:term " | " hp2:term : tactic =>
  `(tactic| (
    icases $hch:ident with ⟨Hd_, $hch:ident⟩
    ihave Hd2_ := (Entails.of_eq (pex_def _ _ _)) $$ Hd_
    icases Hd2_ with ⟨%gd_, Hd_⟩
    ipop HtS as Hts_
    ipop HtR as Htr_
    iapply (wp_send_i m c _ ($i : Fin 64) _ $dv $q _ gd_ $x $hx $hp1 $hp2 rfl (K (c, .inr (.inl ($i : Fin 64)))) (K ($n, .inr (.inr ($i : Fin 64)))) _)
      $$ [$hs:ident Hd_ HO Hts_ Htr_]
    · isplitr; · iapply (inv_at m K (c, .inr (.inl ($i : Fin 64)))); iexact HRec
      isplitr; · iapply (inv_at m K ($n, .inr (.inr ($i : Fin 64)))); iexact HRec
      isplitl [$hs:ident]; · iexact $hs:ident
      isplitl [Hd_]; · iexact Hd_
      isplitl [HO]; · iexact HO
      isplitl [Hts_]; · iexact Hts_
      isplitr; · iapply (reached_at m K (c, .inr (.inl ($i : Fin 64)))); iexact HRec
      isplitl [Htr_]; · iexact Htr_
      iapply (reached_at m K ($n, .inr (.inr ($i : Fin 64)))); iexact HRec
    iintro ⟨$hcr:ident, HO⟩))

omit [FloatOps F] in
/-- A piece at some contents, from the piece at its contents. -/
theorem pex_intro (c : Dev nD) (q : PosShare TreeShare) {sp : Space} {S : Shape} {e : EltTy} (M : Memref sig .tc sp S e) (f : Buf (Elt F) (M.view.loc (c : Thread nD τ))) :
    (M.view.loc (c : Thread nD τ) ↦[M.view.set]{q} f : sProp 𝕄) ⊢ pex c q M := by
  rw [pex_def]; iintro H; iexists f; iexact H

omit [FloatOps F] in
/-- Nothing owed, once the list of copies still owed is empty. -/
theorem owes_nil (c : Dev nD) (W : Waits sig Unit) : (owes (c : Thread nD τ) (sumL c []) W : sProp 𝕄) ⊢ iprop(∃ W, owes (c : Thread nD τ) 0 W) := by
  rw [sumL_nil]; iintro H; iexists W; iexact H

/-- What the wait on a receive (send) cell hands over: the one duty's payload. -/
theorem rest_rN (c : Dev nD) (i : Fin 64) : bigSep ((Rd m).duties (dcell c (rN i)) 0 \ ∅) (fun d => (Rd m).payload (dcell c (rN i)) 0 d)
    = (Rd m).payload (dcell c (rN i)) 0 0 := by
  rw [Finset.sdiff_empty, duties_rN, bigSep_singleton]
theorem rest_sN (c : Dev nD) (i : Fin 64) : bigSep ((Rd m).duties (dcell c (sN i)) 0 \ ∅) (fun d => (Rd m).payload (dcell c (sN i)) 0 d)
    = (Rd m).payload (dcell c (sN i)) 0 0 := by
  rw [Finset.sdiff_empty, duties_sN, bigSep_singleton]

set_option hygiene false in
/-- As `send_core`, for the LAST block of a landing chain (the chain is that block alone). -/
macro "send_last " i:num hs:ident hch:ident hcr:ident " | " dv:term " | " n:term " | " q:term " | " x:term " | " hx:term " | " hp1:term " | " hp2:term : tactic =>
  `(tactic| (
    ihave Hd2_ := (Entails.of_eq (pex_def _ _ _)) $$ $hch:ident
    icases Hd2_ with ⟨%gd_, Hd_⟩
    ipop HtS as Hts_
    ipop HtR as Htr_
    iapply (wp_send_i m c _ ($i : Fin 64) _ $dv $q _ gd_ $x $hx $hp1 $hp2 rfl (K (c, .inr (.inl ($i : Fin 64)))) (K ($n, .inr (.inr ($i : Fin 64)))) _)
      $$ [$hs:ident Hd_ HO Hts_ Htr_]
    · isplitr; · iapply (inv_at m K (c, .inr (.inl ($i : Fin 64)))); iexact HRec
      isplitr; · iapply (inv_at m K ($n, .inr (.inr ($i : Fin 64)))); iexact HRec
      isplitl [$hs:ident]; · iexact $hs:ident
      isplitl [Hd_]; · iexact Hd_
      isplitl [HO]; · iexact HO
      isplitl [Hts_]; · iexact Hts_
      isplitr; · iapply (reached_at m K (c, .inr (.inl ($i : Fin 64)))); iexact HRec
      isplitl [Htr_]; · iexact Htr_
      iapply (reached_at m K ($n, .inr (.inr ($i : Fin 64)))); iexact HRec
    iintro ⟨$hcr:ident, HO⟩))

set_option hygiene false in
/-- The very last copy: the landing chain, the two token chains are each one element. -/
macro "send_final " i:num hs:ident hch:ident hcr:ident " | " dv:term " | " n:term " | " q:term " | " x:term " | " hx:term " | " hp1:term " | " hp2:term : tactic =>
  `(tactic| (
    ihave Hd2_ := (Entails.of_eq (pex_def _ _ _)) $$ $hch:ident
    icases Hd2_ with ⟨%gd_, Hd_⟩
    ihave Hts_ := (Entails.of_eq (bigSepL_singleton _ _)) $$ HtS
    ihave Htr_ := (Entails.of_eq (bigSepL_singleton _ _)) $$ HtR
    iapply (wp_send_i m c _ ($i : Fin 64) _ $dv $q _ gd_ $x $hx $hp1 $hp2 rfl (K (c, .inr (.inl ($i : Fin 64)))) (K ($n, .inr (.inr ($i : Fin 64)))) _)
      $$ [$hs:ident Hd_ HO Hts_ Htr_]
    · isplitr; · iapply (inv_at m K (c, .inr (.inl ($i : Fin 64)))); iexact HRec
      isplitr; · iapply (inv_at m K ($n, .inr (.inr ($i : Fin 64)))); iexact HRec
      isplitl [$hs:ident]; · iexact $hs:ident
      isplitl [Hd_]; · iexact Hd_
      isplitl [HO]; · iexact HO
      isplitl [Hts_]; · iexact Hts_
      isplitr; · iapply (reached_at m K (c, .inr (.inl ($i : Fin 64)))); iexact HRec
      isplitl [Htr_]; · iexact Htr_
      iapply (reached_at m K ($n, .inr (.inr ($i : Fin 64)))); iexact HRec
    iintro ⟨$hcr:ident, HO⟩))

set_option hygiene false in
/-- The wait for copy `i`'s arrival, by hand: the landing block comes back as `hb` holding what was sent (`hp`: the
    schedule's payload fact for the cell), the position one round on as `hat`; `k` is the cell's level. -/
macro "recv_wait " i:num hb:ident hat:ident " | " hp:term " | " k:num : tactic =>
  `(tactic| (
    ipop HcR as Hcr_
    ipop HaR as Hat_
    iapply (Rounds.wp_wait_rest_token Variants.none ER (Rd m) (c : Thread nD τ) none (sm := SemLoc.dma (rN ($i : Fin 64))) (κ := K (c, .inr (.inr ($i : Fin 64))))
        (wpE_waitDma2_eq Variants.none (c : Thread nD τ) none Set.univ) (Set.mem_univ _) () (R := 0) (m := 0) (T := ∅)
        (by show 0 + _ = (Rd m).expect (dcell c (rN ($i : Fin 64))) 0; rw [expect_rN]; exact (Nat.zero_add _).trans rfl))
      $$ [Hcr_ HO Hat_]
    · isplitr; · iapply (inv_at m K (c, .inr (.inr ($i : Fin 64)))); iexact HRec
      isplitl [Hcr_]; · iexact Hcr_
      isplitl [HO]; · iexact HO
      isplitr
      · iapply (mayWait_of_above c (.dma (rN ($i : Fin 64))) _ (above_lsum $k c _ (by decide))); iexact Hlev
      iexact Hat_
    iintro ⟨HO, $hat:ident, -, Hpay_⟩
    ihave $hb:ident := (Entails.of_eq ((rest_rN m c ($i : Fin 64)).trans (($hp).trans (ptr_def _ _ _)))) $$ Hpay_))

set_option hygiene false in
/-- A whole block in three shares: to lend twice and keep the rest. -/
macro "share3 " h:ident hx:ident hy:ident hk:ident : tactic =>
  `(tactic| (
    ihave Hsp_ := (pointsTo_share (PosShare.mem_left_op_right fullShare)).1 $$ $h:ident
    icases Hsp_ with ⟨$hx:ident, Hr_⟩
    ihave Hsp2_ := (pointsTo_share (PosShare.mem_left_op_right fullShare.right)).1 $$ Hr_
    icases Hsp2_ with ⟨$hy:ident, $hk:ident⟩))
set_option hygiene false in
/-- A whole block in two shares: to lend once and keep the rest. -/
macro "share2 " h:ident hx:ident hk:ident : tactic =>
  `(tactic| (
    ihave Hsp_ := (pointsTo_share (PosShare.mem_left_op_right fullShare)).1 $$ $h:ident
    icases Hsp_ with ⟨$hx:ident, $hk:ident⟩))

set_option hygiene false in
/-- The wait for copy `i`'s departure, by hand: the source block comes back as `hb` (at the share it was lent, at some
    contents), the position one round on as `hat`. Nothing is owed any more when the kernel waits for its sends. -/
macro "send_wait " i:num hcr:ident hb:ident hat:ident " | " hp:term : tactic =>
  `(tactic| (
    ipop HaS as Hat_
    iapply (Rounds.wp_wait_rest_token Variants.none ER (Rd m) (c : Thread nD τ) none (sm := SemLoc.dma (sN ($i : Fin 64))) (κ := K (c, .inr (.inl ($i : Fin 64))))
        (wpE_waitDma2_eq Variants.none (c : Thread nD τ) none Set.univ) (Set.mem_univ _) () (R := 0) (m := 0) (T := ∅)
        (by show 0 + _ = (Rd m).expect (dcell c (sN ($i : Fin 64))) 0; rw [expect_sN]; exact (Nat.zero_add _).trans rfl))
      $$ [$hcr:ident HO Hat_]
    · isplitr; · iapply (inv_at m K (c, .inr (.inl ($i : Fin 64)))); iexact HRec
      isplitl [$hcr:ident]; · iexact $hcr:ident
      isplitl [HO]; · iexact HO
      isplitr
      · iapply (mayWait_of_above c (.dma (sN ($i : Fin 64))) _ (above_lsum 0 c _ (by decide))); iexact Hlev
      iexact Hat_
    iintro ⟨HO, $hat:ident, -, Hpay_⟩
    ihave $hb:ident := (Entails.of_eq ((rest_sN m c ($i : Fin 64)).trans $hp)) $$ Hpay_))

set_option hygiene false in
/-- As `recv_wait`, for the LAST arrival (the chains of credit and positions are one element each). -/
macro "recv_wait_last " i:num hb:ident hat:ident " | " hp:term " | " k:num : tactic =>
  `(tactic| (
    ihave Hcr_ := (Entails.of_eq (bigSepL_singleton _ _)) $$ HcR
    ihave Hat_ := (Entails.of_eq (bigSepL_singleton _ _)) $$ HaR
    iapply (Rounds.wp_wait_rest_token Variants.none ER (Rd m) (c : Thread nD τ) none (sm := SemLoc.dma (rN ($i : Fin 64))) (κ := K (c, .inr (.inr ($i : Fin 64))))
        (wpE_waitDma2_eq Variants.none (c : Thread nD τ) none Set.univ) (Set.mem_univ _) () (R := 0) (m := 0) (T := ∅)
        (by show 0 + _ = (Rd m).expect (dcell c (rN ($i : Fin 64))) 0; rw [expect_rN]; exact (Nat.zero_add _).trans rfl))
      $$ [Hcr_ HO Hat_]
    · isplitr; · iapply (inv_at m K (c, .inr (.inr ($i : Fin 64)))); iexact HRec
      isplitl [Hcr_]; · iexact Hcr_
      isplitl [HO]; · iexact HO
      isplitr
      · iapply (mayWait_of_above c (.dma (rN ($i : Fin 64))) _ (above_lsum $k c _ (by decide))); iexact Hlev
      iexact Hat_
    iintro ⟨HO, $hat:ident, -, Hpay_⟩
    ihave $hb:ident := (Entails.of_eq ((rest_rN m c ($i : Fin 64)).trans (($hp).trans (ptr_def _ _ _)))) $$ Hpay_))

set_option hygiene false in
/-- As `send_wait`, for the LAST departure. -/
macro "send_wait_last " i:num hcr:ident hb:ident hat:ident " | " hp:term : tactic =>
  `(tactic| (
    ihave Hat_ := (Entails.of_eq (bigSepL_singleton _ _)) $$ HaS
    iapply (Rounds.wp_wait_rest_token Variants.none ER (Rd m) (c : Thread nD τ) none (sm := SemLoc.dma (sN ($i : Fin 64))) (κ := K (c, .inr (.inl ($i : Fin 64))))
        (wpE_waitDma2_eq Variants.none (c : Thread nD τ) none Set.univ) (Set.mem_univ _) () (R := 0) (m := 0) (T := ∅)
        (by show 0 + _ = (Rd m).expect (dcell c (sN ($i : Fin 64))) 0; rw [expect_sN]; exact (Nat.zero_add _).trans rfl))
      $$ [$hcr:ident HO Hat_]
    · isplitr; · iapply (inv_at m K (c, .inr (.inl ($i : Fin 64)))); iexact HRec
      isplitl [$hcr:ident]; · iexact $hcr:ident
      isplitl [HO]; · iexact HO
      isplitr
      · iapply (mayWait_of_above c (.dma (sN ($i : Fin 64))) _ (above_lsum 0 c _ (by decide))); iexact Hlev
      iexact Hat_
    iintro ⟨HO, $hat:ident, -, Hpay_⟩
    ihave $hb:ident := (Entails.of_eq ((rest_sN m c ($i : Fin 64)).trans $hp)) $$ Hpay_))

/-- A leaf of the final chain from the hypothesis that is it. -/
macro "leaf " h:ident : tactic => `(tactic| (isplitl [$h:ident]; · iexact $h:ident))
/-- A leaf `pex c q M` of the final chain from the hypothesis holding the piece at its contents. -/
macro "pleaf " h:ident : tactic => `(tactic| (isplitl [$h:ident]; · (iapply (pex_intro _ _ _ _); iexact $h:ident)))

set_option hygiene false in
/-- The symbolic executor, with the ledger's side conditions (every copy still owed lies above the waited cell's level). -/
macro "ex" : tactic =>
  `(tactic| sl_exec (disch := first | exact above_lsum 0 c _ (by decide) | exact above_lsum 1 c _ (by decide) | exact above_lsum 2 c _ (by decide) | exact above_lsum 3 c _ (by decide)))

end Cert.Kernel.Rs

end
-- ==== Proof.Bits.BodyFlat.lean ====
import proofs.«901030_g7700000000001031_dist_rs_v7x_xyz2x2x2_z_m4096_n1024_bf16_1_alg».proof.Proof.Bits.BodyCtx

set_option maxHeartbeats 4000000
set_option maxRecDepth 65536

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase
open Idealize.ShloMosaic.Rounds

variable {F : FTy → Type} [FloatOps F]

local notation "𝕄" => MT nD τ sig Unit (Elt F) ℕ UU ℕ

variable (m : (ℓ : Loc nD τ sig) → Buf (Elt F) ℓ)

/-- Everything the body's run ends with, leaf by leaf. -/
def bodyFlat (K : Dev nD × CK → ℕ) (c : Dev nD) : sProp 𝕄 :=
  iprop(records m K
    ∗ atPos ER (dcell c (sN 0)) 1 ∅ 0
    ∗ atPos ER (dcell c (sN 22)) 1 ∅ 0
    ∗ atPos ER (dcell c (sN 38)) 1 ∅ 0
    ∗ atPos ER (dcell c (sN 1)) 1 ∅ 0
    ∗ atPos ER (dcell c (sN 23)) 1 ∅ 0
    ∗ atPos ER (dcell c (sN 39)) 1 ∅ 0
    ∗ atPos ER (dcell c (sN 2)) 1 ∅ 0
    ∗ atPos ER (dcell c (sN 24)) 1 ∅ 0
    ∗ atPos ER (dcell c (sN 40)) 1 ∅ 0
    ∗ atPos ER (dcell c (sN 3)) 1 ∅ 0
    ∗ atPos ER (dcell c (sN 25)) 1 ∅ 0
    ∗ atPos ER (dcell c (sN 41)) 1 ∅ 0
    ∗ atPos ER (dcell c (sN 4)) 1 ∅ 0
    ∗ atPos ER (dcell c (sN 26)) 1 ∅ 0
    ∗ atPos ER (dcell c (sN 42)) 1 ∅ 0
    ∗ atPos ER (dcell c (sN 5)) 1 ∅ 0
    ∗ atPos ER (dcell c (sN 27)) 1 ∅ 0
    ∗ atPos ER (dcell c (sN 43)) 1 ∅ 0
    ∗ atPos ER (dcell c (sN 6)) 1 ∅ 0
    ∗ atPos ER (dcell c (sN 28)) 1 ∅ 0
    ∗ atPos ER (dcell c (sN 44)) 1 ∅ 0
    ∗ atPos ER (dcell c (sN 7)) 1 ∅ 0
    ∗ atPos ER (dcell c (sN 29)) 1 ∅ 0
    ∗ atPos ER (dcell c (sN 45)) 1 ∅ 0
    ∗ atPos ER (dcell c (sN 8)) 1 ∅ 0
    ∗ atPos ER (dcell c (sN 30)) 1 ∅ 0
    ∗ atPos ER (dcell c (sN 46)) 1 ∅ 0
    ∗ atPos ER (dcell c (sN 9)) 1 ∅ 0
    ∗ atPos ER (dcell c (sN 31)) 1 ∅ 0
    ∗ atPos ER (dcell c (sN 47)) 1 ∅ 0
    ∗ atPos ER (dcell c (sN 10)) 1 ∅ 0
    ∗ atPos ER (dcell c (sN 32)) 1 ∅ 0
    ∗ atPos ER (dcell c (sN 48)) 1 ∅ 0
    ∗ atPos ER (dcell c (sN 11)) 1 ∅ 0
    ∗ atPos ER (dcell c (sN 33)) 1 ∅ 0
    ∗ atPos ER (dcell c (sN 49)) 1 ∅ 0
    ∗ atPos ER (dcell c (sN 12)) 1 ∅ 0
    ∗ atPos ER (dcell c (sN 34)) 1 ∅ 0
    ∗ atPos ER (dcell c (sN 50)) 1 ∅ 0
    ∗ atPos ER (dcell c (sN 13)) 1 ∅ 0
    ∗ atPos ER (dcell c (sN 35)) 1 ∅ 0
    ∗ atPos ER (dcell c (sN 51)) 1 ∅ 0
    ∗ atPos ER (dcell c (sN 14)) 1 ∅ 0
    ∗ atPos ER (dcell c (sN 36)) 1 ∅ 0
    ∗ atPos ER (dcell c (sN 52)) 1 ∅ 0
    ∗ atPos ER (dcell c (sN 15)) 1 ∅ 0
    ∗ atPos ER (dcell c (sN 37)) 1 ∅ 0
    ∗ atPos ER (dcell c (sN 53)) 1 ∅ 0
    ∗ atPos ER (dcell c (sN 16)) 1 ∅ 0
    ∗ atPos ER (dcell c (sN 17)) 1 ∅ 0
    ∗ atPos ER (dcell c (sN 18)) 1 ∅ 0
    ∗ atPos ER (dcell c (sN 19)) 1 ∅ 0
    ∗ atPos ER (dcell c (sN 20)) 1 ∅ 0
    ∗ atPos ER (dcell c (sN 21)) 1 ∅ 0
    ∗ atPos ER (dcell c (sN 54)) 1 ∅ 0
    ∗ atPos ER (dcell c (sN 55)) 1 ∅ 0
    ∗ atPos ER (dcell c (sN 56)) 1 ∅ 0
    ∗ atPos ER (dcell c (sN 57)) 1 ∅ 0
    ∗ atPos ER (dcell c (sN 58)) 1 ∅ 0
    ∗ atPos ER (dcell c (sN 59)) 1 ∅ 0
    ∗ atPos ER (dcell c (sN 60)) 1 ∅ 0
    ∗ atPos ER (dcell c (sN 61)) 1 ∅ 0
    ∗ atPos ER (dcell c (sN 62)) 1 ∅ 0
    ∗ atPos ER (dcell c (sN 63)) 1 ∅ 0
    ∗ atPos ER (dcell c (rN 0)) 1 ∅ 0
    ∗ atPos ER (dcell c (rN 1)) 1 ∅ 0
    ∗ atPos ER (dcell c (rN 2)) 1 ∅ 0
    ∗ atPos ER (dcell c (rN 3)) 1 ∅ 0
    ∗ atPos ER (dcell c (rN 4)) 1 ∅ 0
    ∗ atPos ER (dcell c (rN 5)) 1 ∅ 0
    ∗ atPos ER (dcell c (rN 6)) 1 ∅ 0
    ∗ atPos ER (dcell c (rN 7)) 1 ∅ 0
    ∗ atPos ER (dcell c (rN 8)) 1 ∅ 0
    ∗ atPos ER (dcell c (rN 9)) 1 ∅ 0
    ∗ atPos ER (dcell c (rN 10)) 1 ∅ 0
    ∗ atPos ER (dcell c (rN 11)) 1 ∅ 0
    ∗ atPos ER (dcell c (rN 12)) 1 ∅ 0
    ∗ atPos ER (dcell c (rN 13)) 1 ∅ 0
    ∗ atPos ER (dcell c (rN 14)) 1 ∅ 0
    ∗ atPos ER (dcell c (rN 15)) 1 ∅ 0
    ∗ atPos ER (dcell c (rN 44)) 1 ∅ 0
    ∗ atPos ER (dcell c (rN 45)) 1 ∅ 0
    ∗ atPos ER (dcell c (rN 46)) 1 ∅ 0
    ∗ atPos ER (dcell c (rN 47)) 1 ∅ 0
    ∗ atPos ER (dcell c (rN 48)) 1 ∅ 0
    ∗ atPos ER (dcell c (rN 33)) 1 ∅ 0
    ∗ atPos ER (dcell c (rN 34)) 1 ∅ 0
    ∗ atPos ER (dcell c (rN 35)) 1 ∅ 0
    ∗ atPos ER (dcell c (rN 36)) 1 ∅ 0
    ∗ atPos ER (dcell c (rN 37)) 1 ∅ 0
    ∗ atPos ER (dcell c (rN 38)) 1 ∅ 0
    ∗ atPos ER (dcell c (rN 39)) 1 ∅ 0
    ∗ atPos ER (dcell c (rN 40)) 1 ∅ 0
    ∗ atPos ER (dcell c (rN 41)) 1 ∅ 0
    ∗ atPos ER (dcell c (rN 42)) 1 ∅ 0
    ∗ atPos ER (dcell c (rN 43)) 1 ∅ 0
    ∗ atPos ER (dcell c (rN 49)) 1 ∅ 0
    ∗ atPos ER (dcell c (rN 50)) 1 ∅ 0
    ∗ atPos ER (dcell c (rN 51)) 1 ∅ 0
    ∗ atPos ER (dcell c (rN 52)) 1 ∅ 0
    ∗ atPos ER (dcell c (rN 53)) 1 ∅ 0
    ∗ atPos ER (dcell c (rN 22)) 1 ∅ 0
    ∗ atPos ER (dcell c (rN 23)) 1 ∅ 0
    ∗ atPos ER (dcell c (rN 24)) 1 ∅ 0
    ∗ atPos ER (dcell c (rN 25)) 1 ∅ 0
    ∗ atPos ER (dcell c (rN 26)) 1 ∅ 0
    ∗ atPos ER (dcell c (rN 27)) 1 ∅ 0
    ∗ atPos ER (dcell c (rN 28)) 1 ∅ 0
    ∗ atPos ER (dcell c (rN 29)) 1 ∅ 0
    ∗ atPos ER (dcell c (rN 30)) 1 ∅ 0
    ∗ atPos ER (dcell c (rN 31)) 1 ∅ 0
    ∗ atPos ER (dcell c (rN 32)) 1 ∅ 0
    ∗ atPos ER (dcell c (rN 16)) 1 ∅ 0
    ∗ atPos ER (dcell c (rN 17)) 1 ∅ 0
    ∗ atPos ER (dcell c (rN 18)) 1 ∅ 0
    ∗ atPos ER (dcell c (rN 19)) 1 ∅ 0
    ∗ atPos ER (dcell c (rN 20)) 1 ∅ 0
    ∗ atPos ER (dcell c (rN 21)) 1 ∅ 0
    ∗ atPos ER (dcell c (rN 54)) 1 ∅ 0
    ∗ atPos ER (dcell c (rN 55)) 1 ∅ 0
    ∗ atPos ER (dcell c (rN 56)) 1 ∅ 0
    ∗ atPos ER (dcell c (rN 57)) 1 ∅ 0
    ∗ atPos ER (dcell c (rN 58)) 1 ∅ 0
    ∗ atPos ER (dcell c (rN 59)) 1 ∅ 0
    ∗ atPos ER (dcell c (rN 60)) 1 ∅ 0
    ∗ atPos ER (dcell c (rN 61)) 1 ∅ 0
    ∗ atPos ER (dcell c (rN 62)) 1 ∅ 0
    ∗ atPos ER (dcell c (rN 63)) 1 ∅ 0
    ∗ semVal (dcell c ⟨((0 : Fin 30) : ℕ), by omega⟩) 0
    ∗ semVal (dcell c ⟨((1 : Fin 30) : ℕ), by omega⟩) 0
    ∗ semVal (dcell c ⟨((2 : Fin 30) : ℕ), by omega⟩) 0
    ∗ semVal (dcell c ⟨((3 : Fin 30) : ℕ), by omega⟩) 0
    ∗ semVal (dcell c ⟨((4 : Fin 30) : ℕ), by omega⟩) 0
    ∗ semVal (dcell c ⟨((5 : Fin 30) : ℕ), by omega⟩) 0
    ∗ semVal (dcell c ⟨((6 : Fin 30) : ℕ), by omega⟩) 0
    ∗ semVal (dcell c ⟨((7 : Fin 30) : ℕ), by omega⟩) 0
    ∗ semVal (dcell c ⟨((8 : Fin 30) : ℕ), by omega⟩) 0
    ∗ semVal (dcell c ⟨((9 : Fin 30) : ℕ), by omega⟩) 0
    ∗ semVal (dcell c ⟨((10 : Fin 30) : ℕ), by omega⟩) 0
    ∗ semVal (dcell c ⟨((11 : Fin 30) : ℕ), by omega⟩) 0
    ∗ semVal (dcell c ⟨((12 : Fin 30) : ℕ), by omega⟩) 0
    ∗ semVal (dcell c ⟨((13 : Fin 30) : ℕ), by omega⟩) 0
    ∗ semVal (dcell c ⟨((14 : Fin 30) : ℕ), by omega⟩) 0
    ∗ semVal (dcell c ⟨((15 : Fin 30) : ℕ), by omega⟩) 0
    ∗ semVal (dcell c ⟨((16 : Fin 30) : ℕ), by omega⟩) 0
    ∗ semVal (dcell c ⟨((17 : Fin 30) : ℕ), by omega⟩) 0
    ∗ semVal (dcell c ⟨((18 : Fin 30) : ℕ), by omega⟩) 0
    ∗ semVal (dcell c ⟨((19 : Fin 30) : ℕ), by omega⟩) 0
    ∗ semVal (dcell c ⟨((20 : Fin 30) : ℕ), by omega⟩) 0
    ∗ semVal (dcell c ⟨((21 : Fin 30) : ℕ), by omega⟩) 0
    ∗ semVal (dcell c ⟨((22 : Fin 30) : ℕ), by omega⟩) 0
    ∗ semVal (dcell c ⟨((23 : Fin 30) : ℕ), by omega⟩) 0
    ∗ semVal (dcell c ⟨((24 : Fin 30) : ℕ), by omega⟩) 0
    ∗ semVal (dcell c ⟨((25 : Fin 30) : ℕ), by omega⟩) 0
    ∗ semVal (dcell c ⟨((26 : Fin 30) : ℕ), by omega⟩) 0
    ∗ semVal (dcell c ⟨((27 : Fin 30) : ℕ), by omega⟩) 0
    ∗ semVal (dcell c ⟨((28 : Fin 30) : ℕ), by omega⟩) 0
    ∗ semVal (dcell c ⟨((29 : Fin 30) : ℕ), by omega⟩) 0
    ∗ (∃ W, owes (c : Thread nD τ) 0 W)
    ∗ pex c fullShare (xqM 0)
    ∗ pex c fullShare (xqM 1)
    ∗ pex c fullShare (xqM 2)
    ∗ pex c fullShare (xqM 3)
    ∗ pex c fullShare (xqM 4)
    ∗ pex c fullShare (xqM 5)
    ∗ pex c fullShare (xqM 6)
    ∗ pex c fullShare (xqM 7)
    ∗ pex c fullShare (xqM 8)
    ∗ pex c fullShare (xqM 9)
    ∗ pex c fullShare (xqM 10)
    ∗ pex c fullShare (xqM 11)
    ∗ pex c fullShare (xqM 12)
    ∗ pex c fullShare (xqM 13)
    ∗ pex c fullShare (xqM 14)
    ∗ pex c fullShare (xqM 15)
    ∗ pex c fullShare (xdM 0)
    ∗ pex c fullShare (xdM 1)
    ∗ pex c fullShare (xdM 2)
    ∗ pex c fullShare (xdM 3)
    ∗ pex c fullShare (xdM 4)
    ∗ pex c fullShare (xdM 5)
    ∗ pex c fullShare (xlM 0)
    ∗ pex c fullShare (xlM 1)
    ∗ pex c fullShare (xlM 2)
    ∗ pex c fullShare (xlM 3)
    ∗ pex c fullShare (bA 0)
    ∗ pex c fullShare (bA 1)
    ∗ pex c fullShare (bA 2)
    ∗ pex c fullShare (bA 3)
    ∗ pex c fullShare (bA 4)
    ∗ pex c fullShare (bA 5)
    ∗ pex c fullShare (bA 6)
    ∗ pex c fullShare (bA 7)
    ∗ pex c fullShare (bA 8)
    ∗ pex c fullShare (bA 9)
    ∗ pex c fullShare (bA 10)
    ∗ pex c fullShare (bA 11)
    ∗ pex c fullShare (bA 12)
    ∗ pex c fullShare (bA 13)
    ∗ pex c fullShare (bA 14)
    ∗ pex c fullShare (bA 15)
    ∗ pex c fullShare (bD 0)
    ∗ pex c fullShare (bD 1)
    ∗ pex c fullShare (bD 2)
    ∗ pex c fullShare (bD 3)
    ∗ pex c fullShare (bD 4)
    ∗ pex c fullShare (bD 5)
    ∗ pex c shX (bQ 0)
    ∗ pex c shY (bQ 0)
    ∗ pex c shK (bQ 0)
    ∗ pex c shX (bQ 1)
    ∗ pex c shY (bQ 1)
    ∗ pex c shK (bQ 1)
    ∗ pex c shX (bQ 2)
    ∗ pex c shY (bQ 2)
    ∗ pex c shK (bQ 2)
    ∗ pex c shX (bQ 3)
    ∗ pex c shY (bQ 3)
    ∗ pex c shK (bQ 3)
    ∗ pex c shX (bQ 4)
    ∗ pex c shY (bQ 4)
    ∗ pex c shK (bQ 4)
    ∗ pex c shX (bQ 5)
    ∗ pex c shY (bQ 5)
    ∗ pex c shK (bQ 5)
    ∗ pex c shX (bQ 6)
    ∗ pex c shY (bQ 6)
    ∗ pex c shK (bQ 6)
    ∗ pex c shX (bQ 7)
    ∗ pex c shY (bQ 7)
    ∗ pex c shK (bQ 7)
    ∗ pex c shX (bQ 8)
    ∗ pex c shY (bQ 8)
    ∗ pex c shK (bQ 8)
    ∗ pex c shX (bQ 9)
    ∗ pex c shY (bQ 9)
    ∗ pex c shK (bQ 9)
    ∗ pex c shX (bQ 10)
    ∗ pex c shY (bQ 10)
    ∗ pex c shK (bQ 10)
    ∗ pex c shX (bQ 11)
    ∗ pex c shY (bQ 11)
    ∗ pex c shK (bQ 11)
    ∗ pex c shX (bQ 12)
    ∗ pex c shY (bQ 12)
    ∗ pex c shK (bQ 12)
    ∗ pex c shX (bQ 13)
    ∗ pex c shY (bQ 13)
    ∗ pex c shK (bQ 13)
    ∗ pex c shX (bQ 14)
    ∗ pex c shY (bQ 14)
    ∗ pex c shK (bQ 14)
    ∗ pex c shX (bQ 15)
    ∗ pex c shY (bQ 15)
    ∗ pex c shK (bQ 15)
    ∗ pex c fullShare (bX 0)
    ∗ pex c fullShare (bX 1)
    ∗ pex c fullShare (bX 2)
    ∗ pex c fullShare (bX 3)
    ∗ pex c fullShare (bX 4)
    ∗ pex c fullShare (bX 5)
    ∗ pex c fullShare (bX 6)
    ∗ pex c fullShare (bX 7)
    ∗ pex c fullShare (bX 8)
    ∗ pex c fullShare (bX 9)
    ∗ pex c fullShare (bX 10)
    ∗ pex c shX (bX 11)
    ∗ pex c shY (bX 11)
    ∗ pex c shK (bX 11)
    ∗ pex c shX (bX 12)
    ∗ pex c shY (bX 12)
    ∗ pex c shK (bX 12)
    ∗ pex c shX (bX 13)
    ∗ pex c shY (bX 13)
    ∗ pex c shK (bX 13)
    ∗ pex c shX (bX 14)
    ∗ pex c shY (bX 14)
    ∗ pex c shK (bX 14)
    ∗ pex c shX (bX 15)
    ∗ pex c shY (bX 15)
    ∗ pex c shK (bX 15)
    ∗ pex c fullShare (bY 0)
    ∗ pex c fullShare (bY 1)
    ∗ pex c fullShare (bY 2)
    ∗ pex c fullShare (bY 3)
    ∗ pex c fullShare (bY 4)
    ∗ pex c fullShare (bY 5)
    ∗ pex c shX (bY 6)
    ∗ pex c fullShare.right (bY 6)
    ∗ pex c shX (bY 7)
    ∗ pex c fullShare.right (bY 7)
    ∗ pex c shX (bY 8)
    ∗ pex c fullShare.right (bY 8)
    ∗ pex c shX (bY 9)
    ∗ pex c fullShare.right (bY 9)
    ∗ pex c shX (bY 10)
    ∗ pex c fullShare.right (bY 10)
    ∗ pex c fullShare (bY 11)
    ∗ pex c fullShare (bY 12)
    ∗ pex c fullShare (bY 13)
    ∗ pex c fullShare (bY 14)
    ∗ pex c fullShare (bY 15)
    ∗ pex c fullShare (bR 0)
    ∗ pex c fullShare (bR 1)
    ∗ pex c fullShare (bR 2)
    ∗ pex c fullShare (bR 3)
    ∗ pex c fullShare (bR 4)
    ∗ pex c fullShare (bR 5)
    ∗ pex c fullShare (bR 6)
    ∗ pex c fullShare (bR 7)
    ∗ pex c fullShare (bR 8)
    ∗ pex c fullShare (bR 9)
    ∗ pex c fullShare (bR 10)
    ∗ pex c fullShare (bR 11)
    ∗ pex c fullShare (bR 12)
    ∗ pex c fullShare (bR 13)
    ∗ pex c fullShare (bR 14)
    ∗ pex c fullShare (bR 15)
    ∗ pex c fullShare (vQ c 0)
    ∗ pex c fullShare (vQ c 1)
    ∗ pex c fullShare (vQ c 2)
    ∗ pex c fullShare (vQ c 3)
    ∗ ((wL c 0).view.loc (c : Thread nD τ) ↦[(wL c 0).view.set]{shL 0} m ((c : Thread nD τ).loc main_arg0))
    ∗ ((wL c 1).view.loc (c : Thread nD τ) ↦[(wL c 1).view.set]{shL 1} m ((c : Thread nD τ).loc main_arg0))
    ∗ ((wL c 2).view.loc (c : Thread nD τ) ↦[(wL c 2).view.set]{shL 2} m ((c : Thread nD τ).loc main_arg0))
    ∗ ((wL c 3).view.loc (c : Thread nD τ) ↦[(wL c 3).view.set]{shL 3} m ((c : Thread nD τ).loc main_arg0))
    ∗ ((wQ c 0).view.loc (c : Thread nD τ) ↦[(wQ c 0).view.set]{shQ 0} m ((c : Thread nD τ).loc main_arg0))
    ∗ ((wQ c 1).view.loc (c : Thread nD τ) ↦[(wQ c 1).view.set]{shQ 1} m ((c : Thread nD τ).loc main_arg0))
    ∗ ((wQ c 2).view.loc (c : Thread nD τ) ↦[(wQ c 2).view.set]{shQ 2} m ((c : Thread nD τ).loc main_arg0))
    ∗ ((wQ c 3).view.loc (c : Thread nD τ) ↦[(wQ c 3).view.set]{shQ 3} m ((c : Thread nD τ).loc main_arg0))
    ∗ ((wQ c 4).view.loc (c : Thread nD τ) ↦[(wQ c 4).view.set]{shQ 4} m ((c : Thread nD τ).loc main_arg0))
    ∗ ((wQ c 5).view.loc (c : Thread nD τ) ↦[(wQ c 5).view.set]{shQ 5} m ((c : Thread nD τ).loc main_arg0))
    ∗ ((wQ c 6).view.loc (c : Thread nD τ) ↦[(wQ c 6).view.set]{shQ 6} m ((c : Thread nD τ).loc main_arg0))
    ∗ ((wQ c 7).view.loc (c : Thread nD τ) ↦[(wQ c 7).view.set]{shQ 7} m ((c : Thread nD τ).loc main_arg0))
    ∗ ((wQ c 8).view.loc (c : Thread nD τ) ↦[(wQ c 8).view.set]{shQ 8} m ((c : Thread nD τ).loc main_arg0))
    ∗ ((wQ c 9).view.loc (c : Thread nD τ) ↦[(wQ c 9).view.set]{shQ 9} m ((c : Thread nD τ).loc main_arg0))
    ∗ ((wQ c 10).view.loc (c : Thread nD τ) ↦[(wQ c 10).view.set]{shQ 10} m ((c : Thread nD τ).loc main_arg0))
    ∗ ((wQ c 11).view.loc (c : Thread nD τ) ↦[(wQ c 11).view.set]{shQ 11} m ((c : Thread nD τ).loc main_arg0))
    ∗ ((wQ c 12).view.loc (c : Thread nD τ) ↦[(wQ c 12).view.set]{shQ 12} m ((c : Thread nD τ).loc main_arg0))
    ∗ ((wQ c 13).view.loc (c : Thread nD τ) ↦[(wQ c 13).view.set]{shQ 13} m ((c : Thread nD τ).loc main_arg0))
    ∗ ((wQ c 14).view.loc (c : Thread nD τ) ↦[(wQ c 14).view.set]{shQ 14} m ((c : Thread nD τ).loc main_arg0))
    ∗ ((wQ c 15).view.loc (c : Thread nD τ) ↦[(wQ c 15).view.set]{shQ 15} m ((c : Thread nD τ).loc main_arg0))
    ∗ ((wD c 0).view.loc (c : Thread nD τ) ↦[(wD c 0).view.set]{shD 0} m ((c : Thread nD τ).loc main_arg0))
    ∗ ((wD c 1).view.loc (c : Thread nD τ) ↦[(wD c 1).view.set]{shD 1} m ((c : Thread nD τ).loc main_arg0))
    ∗ ((wD c 2).view.loc (c : Thread nD τ) ↦[(wD c 2).view.set]{shD 2} m ((c : Thread nD τ).loc main_arg0))
    ∗ ((wD c 3).view.loc (c : Thread nD τ) ↦[(wD c 3).view.set]{shD 3} m ((c : Thread nD τ).loc main_arg0))
    ∗ ((wD c 4).view.loc (c : Thread nD τ) ↦[(wD c 4).view.set]{shD 4} m ((c : Thread nD τ).loc main_arg0))
    ∗ ((wD c 5).view.loc (c : Thread nD τ) ↦[(wD c 5).view.set]{shD 5} m ((c : Thread nD τ).loc main_arg0))
    ∗ argRest c (m ((c : Thread nD τ).loc main_arg0))
    ∗ (∃ h : Fin 4 → Buf (Elt F) ((c : Thread nD τ).loc main_v1), ⌜∀ k, ∃ g, QuarterOK m c k g ∧ (oQ c k).view.read (Elt F) (h k) = (vQ c k).view.read (Elt F) g⌝ ∗ ((oQ c 0).view.loc (c : Thread nD τ) ↦[(oQ c 0).view.set]{fullShare} h 0) ∗ ((oQ c 1).view.loc (c : Thread nD τ) ↦[(oQ c 1).view.set]{fullShare} h 1) ∗ ((oQ c 2).view.loc (c : Thread nD τ) ↦[(oQ c 2).view.set]{fullShare} h 2) ∗ ((oQ c 3).view.loc (c : Thread nD τ) ↦[(oQ c 3).view.set]{fullShare} h 3)))

end Cert.Kernel.Rs

end
-- ==== Proof.Bits.BodyFlatOk.lean ====
/- The body's end point from its flat list: the list's leaves, taken in order, are the end point's groups — the
   positions in the order they are waited for, the counters, the buffers' blocks, the argument's pieces, the
   result's quarters — so the step is associativity alone. -/
import proofs.«901030_g7700000000001031_dist_rs_v7x_xyz2x2x2_z_m4096_n1024_bf16_1_alg».proof.Proof.Bits.BodyFlat
import proofs.«901030_g7700000000001031_dist_rs_v7x_xyz2x2x2_z_m4096_n1024_bf16_1_alg».proof.Proof.Bits.BodyLemmas

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Assoc

omit [FloatOps F] in
/-- Separating conjunction associates. -/
private theorem flat_assoc (P Q R : sProp 𝕄) : iprop((P ∗ Q) ∗ R) = iprop(P ∗ Q ∗ R) := by
  refine BI.Entails.antisymm (show iprop((P ∗ Q) ∗ R) ⊢ iprop(P ∗ Q ∗ R) from ?_) (show iprop(P ∗ Q ∗ R) ⊢ iprop((P ∗ Q) ∗ R) from ?_)
  · iintro ⟨⟨HP, HQ⟩, HR⟩
    isplitl [HP]; · iexact HP
    isplitl [HQ]; · iexact HQ
    iexact HR
  · iintro ⟨HP, HQ, HR⟩
    isplitr [HR]
    · isplitl [HP]; · iexact HP
      iexact HQ
    iexact HR

omit [FloatOps F] in
/-- The same where the inner conjunction comes from a listed chain. -/
private theorem flat_assoc' (P Q R : sProp 𝕄) : iprop((BI.sep P Q) ∗ R) = iprop(P ∗ Q ∗ R) := flat_assoc P Q R

end Assoc

set_option maxHeartbeats 4000000 in
set_option maxRecDepth 65536 in
/-- The flat list is the body's end point. -/
theorem bodyPost_of_flat (K : Dev nD × CK → ℕ) (c : Dev nD) : bodyFlat m K c ⊢ bodyPost m K c := by
  unfold bodyPost localSems argPieces
  rw [bigSep_univ_eq_bigSepL sendWaitList sendWaitList_univ sendWaitList_nodup,
    bigSep_univ_eq_bigSepL recvWaitList recvWaitList_univ recvWaitList_nodup]
  simp only [sendWaitList, recvWaitList, bigSepL_cons_cons, bigSepL_singleton]
  simp only [bigSep_fin30, bigSep_fin16, bigSep_fin6, bigSep_fin4]
  simp (disch := decide) only [if_pos, if_neg]
  simp only [flat_assoc, flat_assoc']
  unfold bodyFlat
  exact .rfl

/-- info: 'Cert.Kernel.Rs.bodyPost_of_flat' depends on axioms: [propext, Classical.choice, Quot.sound] -/
#guard_msgs in #print axioms bodyPost_of_flat

end Cert.Kernel.Rs

end
-- ==== Proof.Bits.AddVal.lean ====
/- The kernel's sixty-four block additions are one function of the f32 block and the bf16 block: the f32 block's
   leading unit axis dropped, the bf16 block widened, the two added, the sum narrowed. The printed program names it
   forty-eight times whole and sixteen times cut in two or three pieces; each is that one function. -/
import proofs.«901030_g7700000000001031_dist_rs_v7x_xyz2x2x2_z_m4096_n1024_bf16_1_alg».proof.Proof.Bits.StepVal

noncomputable section

namespace Cert.Kernel.Rs

open Cert.Kernel Cert.Kernel.Gen
open Idealize.ShloMosaic

variable {F : FTy → Type} [FloatOps F]

/-! ## The additions named whole -/

theorem k0_pay23_eq23 : @k0_pay23 F _ = @k0_pay23 F _ := rfl
theorem k0_pay24_eq23 : @k0_pay24 F _ = @k0_pay23 F _ := rfl
theorem k0_pay25_eq23 : @k0_pay25 F _ = @k0_pay23 F _ := rfl
theorem k0_pay26_eq23 : @k0_pay26 F _ = @k0_pay23 F _ := rfl
theorem k0_pay27_eq23 : @k0_pay27 F _ = @k0_pay23 F _ := rfl
theorem k0_pay30_eq23 : @k0_pay30 F _ = @k0_pay23 F _ := rfl
theorem k0_pay34_eq23 : @k0_pay34 F _ = @k0_pay23 F _ := rfl
theorem k0_pay37_eq23 : @k0_pay37 F _ = @k0_pay23 F _ := rfl
theorem k0_pay40_eq23 : @k0_pay40 F _ = @k0_pay23 F _ := rfl
theorem k0_pay41_eq23 : @k0_pay41 F _ = @k0_pay23 F _ := rfl
theorem k0_pay42_eq23 : @k0_pay42 F _ = @k0_pay23 F _ := rfl
theorem k0_pay43_eq23 : @k0_pay43 F _ = @k0_pay23 F _ := rfl
theorem k0_pay44_eq23 : @k0_pay44 F _ = @k0_pay23 F _ := rfl
theorem k0_pay47_eq23 : @k0_pay47 F _ = @k0_pay23 F _ := rfl
theorem k0_pay48_eq23 : @k0_pay48 F _ = @k0_pay23 F _ := rfl
theorem k0_pay51_eq23 : @k0_pay51 F _ = @k0_pay23 F _ := rfl
theorem k0_pay52_eq23 : @k0_pay52 F _ = @k0_pay23 F _ := rfl
theorem k0_pay53_eq23 : @k0_pay53 F _ = @k0_pay23 F _ := rfl
theorem k0_pay54_eq23 : @k0_pay54 F _ = @k0_pay23 F _ := rfl
theorem k0_pay55_eq23 : @k0_pay55 F _ = @k0_pay23 F _ := rfl
theorem k0_pay56_eq23 : @k0_pay56 F _ = @k0_pay23 F _ := rfl
theorem k0_pay57_eq23 : @k0_pay57 F _ = @k0_pay23 F _ := rfl
theorem k0_pay60_eq23 : @k0_pay60 F _ = @k0_pay23 F _ := rfl
theorem k0_pay61_eq23 : @k0_pay61 F _ = @k0_pay23 F _ := rfl
theorem k0_pay64_eq23 : @k0_pay64 F _ = @k0_pay23 F _ := rfl
theorem k0_pay65_eq23 : @k0_pay65 F _ = @k0_pay23 F _ := rfl
theorem k0_pay66_eq23 : @k0_pay66 F _ = @k0_pay23 F _ := rfl
theorem k0_pay67_eq23 : @k0_pay67 F _ = @k0_pay23 F _ := rfl
theorem k0_pay70_eq23 : @k0_pay70 F _ = @k0_pay23 F _ := rfl
theorem k0_pay71_eq23 : @k0_pay71 F _ = @k0_pay23 F _ := rfl
theorem k0_pay74_eq23 : @k0_pay74 F _ = @k0_pay23 F _ := rfl
theorem k0_pay75_eq23 : @k0_pay75 F _ = @k0_pay23 F _ := rfl
theorem k0_pay78_eq23 : @k0_pay78 F _ = @k0_pay23 F _ := rfl
theorem k0_pay79_eq23 : @k0_pay79 F _ = @k0_pay23 F _ := rfl
theorem k0_pay83_eq23 : @k0_pay83 F _ = @k0_pay23 F _ := rfl
theorem k0_pay84_eq23 : @k0_pay84 F _ = @k0_pay23 F _ := rfl
theorem k0_pay85_eq23 : @k0_pay85 F _ = @k0_pay23 F _ := rfl
theorem k0_pay86_eq23 : @k0_pay86 F _ = @k0_pay23 F _ := rfl
theorem k0_pay87_eq23 : @k0_pay87 F _ = @k0_pay23 F _ := rfl
theorem k0_pay90_eq23 : @k0_pay90 F _ = @k0_pay23 F _ := rfl
theorem k0_pay91_eq23 : @k0_pay91 F _ = @k0_pay23 F _ := rfl
theorem k0_pay94_eq23 : @k0_pay94 F _ = @k0_pay23 F _ := rfl
theorem k0_pay95_eq23 : @k0_pay95 F _ = @k0_pay23 F _ := rfl
theorem k0_pay98_eq23 : @k0_pay98 F _ = @k0_pay23 F _ := rfl
theorem k0_pay99_eq23 : @k0_pay99 F _ = @k0_pay23 F _ := rfl
theorem k0_pay100_eq23 : @k0_pay100 F _ = @k0_pay23 F _ := rfl
theorem k0_pay103_eq23 : @k0_pay103 F _ = @k0_pay23 F _ := rfl
theorem k0_pay104_eq23 : @k0_pay104 F _ = @k0_pay23 F _ := rfl

/-! ## The additions cut in pieces: the pieces composed are the one function -/

/-- The unit axis dropped first, the rest after. -/
theorem pay28_29_eq (a : Vec F S1x64x1024 .f32) (b : Vec F S64x1024 .bf16) : k0_pay29 (k0_pay28 a) b = k0_pay23 a b := rfl
theorem pay49_50_eq (a : Vec F S1x64x1024 .f32) (b : Vec F S64x1024 .bf16) : k0_pay50 (k0_pay49 a) b = k0_pay23 a b := rfl
theorem pay96_97_eq (a : Vec F S1x64x1024 .f32) (b : Vec F S64x1024 .bf16) : k0_pay97 (k0_pay96 a) b = k0_pay23 a b := rfl

/-- The unit axis dropped and the bf16 block widened first, the sum and its narrowing after. -/
theorem pay31_33_eq (a : Vec F S1x64x1024 .f32) (b : Vec F S64x1024 .bf16) : k0_pay33 (k0_pay31 a) (k0_pay32 b) = k0_pay23 a b := rfl
theorem pay80_82_eq (a : Vec F S1x64x1024 .f32) (b : Vec F S64x1024 .bf16) : k0_pay82 (k0_pay80 a) (k0_pay81 b) = k0_pay23 a b := rfl

/-- Everything but the last cast to the same shape first, that cast after. -/
theorem pay35_36_eq (a : Vec F S1x64x1024 .f32) (b : Vec F S64x1024 .bf16) : k0_pay36 (k0_pay35 a b) = k0_pay23 a b := rfl
theorem pay38_39_eq (a : Vec F S1x64x1024 .f32) (b : Vec F S64x1024 .bf16) : k0_pay39 (k0_pay38 a b) = k0_pay23 a b := rfl
theorem pay58_59_eq (a : Vec F S1x64x1024 .f32) (b : Vec F S64x1024 .bf16) : k0_pay59 (k0_pay58 a b) = k0_pay23 a b := rfl
theorem pay62_63_eq (a : Vec F S1x64x1024 .f32) (b : Vec F S64x1024 .bf16) : k0_pay63 (k0_pay62 a b) = k0_pay23 a b := rfl
theorem pay68_69_eq (a : Vec F S1x64x1024 .f32) (b : Vec F S64x1024 .bf16) : k0_pay69 (k0_pay68 a b) = k0_pay23 a b := rfl
theorem pay72_73_eq (a : Vec F S1x64x1024 .f32) (b : Vec F S64x1024 .bf16) : k0_pay73 (k0_pay72 a b) = k0_pay23 a b := rfl
theorem pay76_77_eq (a : Vec F S1x64x1024 .f32) (b : Vec F S64x1024 .bf16) : k0_pay77 (k0_pay76 a b) = k0_pay23 a b := rfl
theorem pay88_89_eq (a : Vec F S1x64x1024 .f32) (b : Vec F S64x1024 .bf16) : k0_pay89 (k0_pay88 a b) = k0_pay23 a b := rfl
theorem pay92_93_eq (a : Vec F S1x64x1024 .f32) (b : Vec F S64x1024 .bf16) : k0_pay93 (k0_pay92 a b) = k0_pay23 a b := rfl
theorem pay101_102_eq (a : Vec F S1x64x1024 .f32) (b : Vec F S64x1024 .bf16) : k0_pay102 (k0_pay101 a b) = k0_pay23 a b := rfl

/-- The sum first, its narrowing after. -/
theorem pay45_46_eq (a : Vec F S1x64x1024 .f32) (b : Vec F S64x1024 .bf16) : k0_pay46 (k0_pay45 a b) = k0_pay23 a b := rfl

end Cert.Kernel.Rs

end
-- ==== Proof.Bits.Nest.lean ====
/- What sixteen stores leave in a quarter of the VMEM result buffer, and what the two loads of an add and the
   copy out read. A quarter is sixteen blocks of 64 rows, one below the other. A store of block s' through the
   whole buffer is read back through block s as the payload when s = s', and leaves block s as it was when
   s ≠ s': the two blocks' rows do not meet. So after the sixteen stores, in any order of nesting, each block
   reads the payload stored to it, and if every payload is the kernel's sum of the two blocks it should add,
   the quarter is as the interface asks. -/
import proofs.«901030_g7700000000001031_dist_rs_v7x_xyz2x2x2_z_m4096_n1024_bf16_1_alg».proof.Proof.Bits.BodySpec
import proofs.«901030_g7700000000001031_dist_rs_v7x_xyz2x2x2_z_m4096_n1024_bf16_1_alg».proof.Proof.Bits.ValLemmas
import proofs.«901030_g7700000000001031_dist_rs_v7x_xyz2x2x2_z_m4096_n1024_bf16_1_alg».proof.Proof.Bits.AddVal

noncomputable section

namespace Cert.Kernel.Rs

open Cert.Kernel Cert.Kernel.Gen
open Idealize.ShloMosaic Idealize.ShloMosaic.TcCoe

/-! ## Blocks of one quarter do not meet -/

/-- Two different blocks of one quarter of the VMEM result buffer are 64 or more rows apart. -/
theorem offB_sep (c : Dev nD) (k : Fin 4) (s s' : Fin 16) (h : s ≠ s') :
    (offB c k s) 0 + 64 ≤ (offB c k s') 0 ∨ (offB c k s') 0 + 64 ≤ (offB c k s) 0 := by
  have hc : c.val < 8 := c.isLt
  have hs : s.val ≠ s'.val := fun e => h (Fin.ext e)
  have h1 := s.isLt
  have h2 := s'.isLt
  match k with
  | 0 =>
    show (k0_off7 c (BitVec.ofNat 32 (64 * s.val))) 0 + 64 ≤ (k0_off7 c (BitVec.ofNat 32 (64 * s'.val))) 0
      ∨ (k0_off7 c (BitVec.ofNat 32 (64 * s'.val))) 0 + 64 ≤ (k0_off7 c (BitVec.ofNat 32 (64 * s.val))) 0
    rw [congrFun (k0_off7_eq c s) 0, congrFun (k0_off7_eq c s') 0]
    show 2048 * (c.val / 4) + 1024 * ((c.val / 2) % 2) + 64 * s.val + 64 ≤ 2048 * (c.val / 4) + 1024 * ((c.val / 2) % 2) + 64 * s'.val
      ∨ 2048 * (c.val / 4) + 1024 * ((c.val / 2) % 2) + 64 * s'.val + 64 ≤ 2048 * (c.val / 4) + 1024 * ((c.val / 2) % 2) + 64 * s.val
    omega
  | 1 =>
    show (k0_off9 c (BitVec.ofNat 32 (64 * s.val))) 0 + 64 ≤ (k0_off9 c (BitVec.ofNat 32 (64 * s'.val))) 0
      ∨ (k0_off9 c (BitVec.ofNat 32 (64 * s'.val))) 0 + 64 ≤ (k0_off9 c (BitVec.ofNat 32 (64 * s.val))) 0
    rw [congrFun (k0_off9_eq c s) 0, congrFun (k0_off9_eq c s') 0]
    show (2048 * (c.val / 4) + 64 * s.val + 1024) - 1024 * ((c.val / 2) % 2) + 64 ≤ (2048 * (c.val / 4) + 64 * s'.val + 1024) - 1024 * ((c.val / 2) % 2)
      ∨ (2048 * (c.val / 4) + 64 * s'.val + 1024) - 1024 * ((c.val / 2) % 2) + 64 ≤ (2048 * (c.val / 4) + 64 * s.val + 1024) - 1024 * ((c.val / 2) % 2)
    omega
  | 2 =>
    show (k0_off11 c (BitVec.ofNat 32 (64 * s.val))) 0 + 64 ≤ (k0_off11 c (BitVec.ofNat 32 (64 * s'.val))) 0
      ∨ (k0_off11 c (BitVec.ofNat 32 (64 * s'.val))) 0 + 64 ≤ (k0_off11 c (BitVec.ofNat 32 (64 * s.val))) 0
    rw [congrFun (k0_off11_eq c s) 0, congrFun (k0_off11_eq c s') 0]
    show (1024 * ((c.val / 2) % 2) + 64 * s.val + 2048) - 2048 * (c.val / 4) + 64 ≤ (1024 * ((c.val / 2) % 2) + 64 * s'.val + 2048) - 2048 * (c.val / 4)
      ∨ (1024 * ((c.val / 2) % 2) + 64 * s'.val + 2048) - 2048 * (c.val / 4) + 64 ≤ (1024 * ((c.val / 2) % 2) + 64 * s.val + 2048) - 2048 * (c.val / 4)
    omega
  | 3 =>
    show (k0_off13 c (BitVec.ofNat 32 (64 * s.val))) 0 + 64 ≤ (k0_off13 c (BitVec.ofNat 32 (64 * s'.val))) 0
      ∨ (k0_off13 c (BitVec.ofNat 32 (64 * s'.val))) 0 + 64 ≤ (k0_off13 c (BitVec.ofNat 32 (64 * s.val))) 0
    rw [congrFun (k0_off13_eq c s) 0, congrFun (k0_off13_eq c s') 0]
    show (64 * s.val + 3072) - (2048 * (c.val / 4) + 1024 * ((c.val / 2) % 2)) + 64 ≤ (64 * s'.val + 3072) - (2048 * (c.val / 4) + 1024 * ((c.val / 2) % 2))
      ∨ (64 * s'.val + 3072) - (2048 * (c.val / 4) + 1024 * ((c.val / 2) % 2)) + 64 ≤ (64 * s.val + 3072) - (2048 * (c.val / 4) + 1024 * ((c.val / 2) % 2))
    omega

/-! ## One store, read through a block -/

/-- A store of block `s'` of quarter `k` through the whole buffer, read through block `s`: the payload when
    `s = s'`, what was there before when not. -/
theorem read_vB_write {F : FTy → Type} [FloatOps F] (c : Dev nD) (k : Fin 4) (s s' : Fin 16)
    (g : Buf (Elt F) ((c : Thread nD τ).loc cc0_scratch9)) (w : S64x1024.Idx → Elt F .bf16)
    (inb : ∀ a, (offB c k s') a + S64x1024.size a ≤ S4096x1024.size a) :
    (vB c k s).view.read (Elt F)
        (View.write (Elt F) ((Memref.whole cc0_scratch9).access (Rect.unit (s := S4096x1024) (offB c k s') S64x1024.size inb)) g w Finset.univ)
      = if s = s' then w else (vB c k s).view.read (Elt F) g := by
  by_cases e : s = s'
  · subst e
    rw [if_pos rfl]
    exact read_block_write_whole cc0_scratch9 _ _ _ g w
  · rw [if_neg e]
    refine View.read_slice_write_slice_of_disjoint (v := View.whole cc0_scratch9)
      (Rect.unit (s := S4096x1024) (offB c k s) S64x1024.size (offB_inb c k s))
      (Rect.unit (s := S4096x1024) (offB c k s') S64x1024.size inb) g w Finset.univ ?_
    rw [View.setOn_univ, View.set_slice_whole, View.set_slice_whole]
    exact Rect.unit_disjoint (0 : Fin S4096x1024.rank) (offB_sep c k s s' e)

/-! ## Sixteen stores -/

/-- The store of block `s` of quarter `k` through the whole buffer. -/
abbrev Wst {F : FTy → Type} [FloatOps F] (c : Dev nD) (k : Fin 4) (s : Fin 16) (g : Buf (Elt F) ((c : Thread nD τ).loc cc0_scratch9))
    (w : S64x1024.Idx → Elt F .bf16) : Buf (Elt F) ((c : Thread nD τ).loc cc0_scratch9) :=
  View.write (Elt F) ((Memref.whole cc0_scratch9).access (Rect.unit (s := S4096x1024) (offB c k s) S64x1024.size (offB_inb c k s))) g w Finset.univ

/-- The sixteen stores of a quarter, block 0 first, block 15 last, over contents `g₀`. -/
def nest16 {F : FTy → Type} [FloatOps F] (c : Dev nD) (k : Fin 4) (g₀ : Buf (Elt F) ((c : Thread nD τ).loc cc0_scratch9))
    (w : Fin 16 → (S64x1024.Idx → Elt F .bf16)) : Buf (Elt F) ((c : Thread nD τ).loc cc0_scratch9) :=
  (Wst c k 15 (Wst c k 14 (Wst c k 13 (Wst c k 12 (Wst c k 11 (Wst c k 10 (Wst c k 9 (Wst c k 8 (Wst c k 7 (Wst c k 6 (Wst c k 5 (Wst c k 4 (Wst c k 3 (Wst c k 2 (Wst c k 1 (Wst c k 0 g₀ (w 0)) (w 1)) (w 2)) (w 3)) (w 4)) (w 5)) (w 6)) (w 7)) (w 8)) (w 9)) (w 10)) (w 11)) (w 12)) (w 13)) (w 14)) (w 15))

/-- One more store: if every block below `n` reads its payload, then after the store of block `n` every block below
    `n + 1` does. -/
theorem blocks_step {F : FTy → Type} [FloatOps F] (c : Dev nD) (k : Fin 4) (w : Fin 16 → (S64x1024.Idx → Elt F .bf16))
    (n : Nat) (s' : Fin 16) (hs' : s'.val = n) (g : Buf (Elt F) ((c : Thread nD τ).loc cc0_scratch9))
    (H : ∀ s : Fin 16, s.val < n → (vB c k s).view.read (Elt F) g = w s) :
    ∀ s : Fin 16, s.val < n + 1 → (vB c k s).view.read (Elt F) (Wst c k s' g (w s')) = w s := fun s h => by
  refine (read_vB_write c k s s' g (w s') (offB_inb c k s')).trans ?_
  by_cases e : s = s'
  · rw [if_pos e, e]
  · rw [if_neg e]
    refine H s ?_
    have : s.val ≠ s'.val := fun e' => e (Fin.ext e')
    omega

/-- After the sixteen stores every block of the quarter reads its payload: the step above, once per store. -/
theorem nest16_read {F : FTy → Type} [FloatOps F] (c : Dev nD) (k : Fin 4) (g₀ : Buf (Elt F) ((c : Thread nD τ).loc cc0_scratch9))
    (w : Fin 16 → (S64x1024.Idx → Elt F .bf16)) :
    ∀ s : Fin 16, (vB c k s).view.read (Elt F) (nest16 c k g₀ w) = w s := fun s => by
  unfold nest16
  exact (blocks_step c k w 15 15 rfl _ (blocks_step c k w 14 14 rfl _ (blocks_step c k w 13 13 rfl _ (blocks_step c k w 12 12 rfl _ (blocks_step c k w 11 11 rfl _ (blocks_step c k w 10 10 rfl _ (blocks_step c k w 9 9 rfl _ (blocks_step c k w 8 8 rfl _ (blocks_step c k w 7 7 rfl _ (blocks_step c k w 6 6 rfl _ (blocks_step c k w 5 5 rfl _ (blocks_step c k w 4 4 rfl _ (blocks_step c k w 3 3 rfl _ (blocks_step c k w 2 2 rfl _ (blocks_step c k w 1 1 rfl _ (blocks_step c k w 0 0 rfl _ (fun s h => absurd h (Nat.not_lt_zero _)))))))))))))))))) s s.isLt

/-- If every payload is the kernel's sum of the two blocks it should add, the quarter is as the interface asks. -/
theorem quarterOK_of_nest {F : FTy → Type} [FloatOps F] (m : (ℓ : Loc nD τ sig) → Buf (Elt F) ℓ) (c : Dev nD) (k : Fin 4)
    (g₀ : Buf (Elt F) ((c : Thread nD τ).loc cc0_scratch9)) (w : Fin 16 → (S64x1024.Idx → Elt F .bf16))
    (hw : ∀ s, w s = k0_pay23 (xlBlk m c k s) (rBlk m c k s)) : QuarterOK m c k (nest16 c k g₀ w) :=
  fun s => (nest16_read c k g₀ w s).trans (hw s)

/-! ## The copy out -/

/-- A quarter of the result array that holds `x` canonically reads `x`; -/
theorem oQ_read_landed {F : FTy → Type} [FloatOps F] (c : Dev nD) (k : Fin 4) (x : S1024x1024.Idx → Elt F .bf16) :
    (oQ c k).view.read (Elt F) ((oQ c k).view.writes (Elt F) (oQ c k).view.junk [⟨Rect.whole S1024x1024, x⟩]) = x :=
  View.read_rep (oQ c k).view x
theorem oQ_read_rep {F : FTy → Type} [FloatOps F] (c : Dev nD) (k : Fin 4) (x : S1024x1024.Idx → Elt F .bf16) :
    (oQ c k).view.read (Elt F) ((oQ c k).view.rep x) = x :=
  View.read_rep (oQ c k).view x
/-- so after the copy out it reads what the VMEM buffer's quarter read. -/
theorem oQ_landed_eq {F : FTy → Type} [FloatOps F] (c : Dev nD) (k : Fin 4) (g : Buf (Elt F) ((c : Thread nD τ).loc cc0_scratch9)) :
    (oQ c k).view.read (Elt F) ((oQ c k).view.rep (ReadAs.same.apply ((vQ c k).view.read (Elt F) g)))
      = (vQ c k).view.read (Elt F) g :=
  View.read_rep (oQ c k).view _
theorem oQ_landed_writes_eq {F : FTy → Type} [FloatOps F] (c : Dev nD) (k : Fin 4) (g : Buf (Elt F) ((c : Thread nD τ).loc cc0_scratch9)) :
    (oQ c k).view.read (Elt F) ((oQ c k).view.writes (Elt F) (oQ c k).view.junk
        [⟨Rect.whole S1024x1024, ReadAs.same.apply ((vQ c k).view.read (Elt F) g)⟩])
      = (vQ c k).view.read (Elt F) g :=
  View.read_rep (oQ c k).view _

/-! ## The two loads of an add -/

/-- Rows 64 s … of plane `k` of the local copy, as the add loads them, are the block the interface names. -/
theorem xl_load {F : FTy → Type} [FloatOps F] (m : (ℓ : Loc nD τ sig) → Buf (Elt F) ℓ) (c : Dev nD) (k : Fin 4) (s : Fin 16)
    (inb : ∀ a, (![k.val, 64 * s.val, 0] : Fin 3 → Nat) a + S1x64x1024.size a ≤ S4x1024x1024.size a) :
    View.readAt (Elt F) (Memref.whole cc0_scratch2).view (Rect.unit (s := S4x1024x1024) ![k.val, 64 * s.val, 0] S1x64x1024.size inb).toLoadRect
        ((xlM k).view.writes (Elt F) (xlM k).view.junk [⟨Rect.whole S1024x1024, lV m c k⟩])
      = xlBlk m c k s := rfl

/-- Block `s` of a landing buffer, loaded through the whole buffer, the block's slice holding `y`: `y`. One per
    landing buffer: from the z-partner, the x-neighbour, the y-neighbour, and of the diagonal quarter. -/
theorem rq_load {F : FTy → Type} [FloatOps F] (s : Fin 16) (inb : ∀ a, (![64 * s.val, 0] : Fin 2 → Nat) a + S64x1024.size a ≤ S1024x1024.size a)
    (y : S64x1024.Idx → Elt F .bf16) :
    View.readAt (Elt F) (Memref.whole cc0_scratch5).view (Rect.unit (s := S1024x1024) ![64 * s.val, 0] S64x1024.size inb).toLoadRect
      ((bQ s).view.rep y) = y :=
  readAt_rep_block_whole cc0_scratch5 _ _ _ y
theorem rx_load {F : FTy → Type} [FloatOps F] (s : Fin 16) (inb : ∀ a, (![64 * s.val, 0] : Fin 2 → Nat) a + S64x1024.size a ≤ S1024x1024.size a)
    (y : S64x1024.Idx → Elt F .bf16) :
    View.readAt (Elt F) (Memref.whole cc0_scratch6).view (Rect.unit (s := S1024x1024) ![64 * s.val, 0] S64x1024.size inb).toLoadRect
      ((bX s).view.rep y) = y :=
  readAt_rep_block_whole cc0_scratch6 _ _ _ y
theorem ry_load {F : FTy → Type} [FloatOps F] (s : Fin 16) (inb : ∀ a, (![64 * s.val, 0] : Fin 2 → Nat) a + S64x1024.size a ≤ S1024x1024.size a)
    (y : S64x1024.Idx → Elt F .bf16) :
    View.readAt (Elt F) (Memref.whole cc0_scratch7).view (Rect.unit (s := S1024x1024) ![64 * s.val, 0] S64x1024.size inb).toLoadRect
      ((bY s).view.rep y) = y :=
  readAt_rep_block_whole cc0_scratch7 _ _ _ y
theorem rr_load {F : FTy → Type} [FloatOps F] (s : Fin 16) (inb : ∀ a, (![64 * s.val, 0] : Fin 2 → Nat) a + S64x1024.size a ≤ S1024x1024.size a)
    (y : S64x1024.Idx → Elt F .bf16) :
    View.readAt (Elt F) (Memref.whole cc0_scratch8).view (Rect.unit (s := S1024x1024) ![64 * s.val, 0] S64x1024.size inb).toLoadRect
      ((bR s).view.rep y) = y :=
  readAt_rep_block_whole cc0_scratch8 _ _ _ y

/-- info: 'Cert.Kernel.Rs.quarterOK_of_nest' depends on axioms: [propext, Classical.choice, Quot.sound] -/
#guard_msgs in #print axioms quarterOK_of_nest

end Cert.Kernel.Rs

end
-- ==== Proof.Bits.OutLeaf.lean ====
/- The end of the body's run, for the result. Each quarter of the result array was filled by one copy out of
   the same quarter of the VMEM result buffer: it holds what that quarter read at the time of the copy, whatever
   the array held before. If that quarter of the VMEM buffer is as the interface asks — every block of it the
   kernel's sum of the two blocks it should add — the result's quarter is too. A quarter of the VMEM buffer is
   as the interface asks when it was written by sixteen stores, one per block, each of such a sum. -/
import proofs.«901030_g7700000000001031_dist_rs_v7x_xyz2x2x2_z_m4096_n1024_bf16_1_alg».proof.Proof.Bits.Nest
import proofs.«901030_g7700000000001031_dist_rs_v7x_xyz2x2x2_z_m4096_n1024_bf16_1_alg».proof.Proof.Bits.BodyCtx
import proofs.«901030_g7700000000001031_dist_rs_v7x_xyz2x2x2_z_m4096_n1024_bf16_1_alg».proof.Proof.Bits.BodyFlat

noncomputable section

namespace Cert.Kernel.Rs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A quarter of the result array after the copy out of a quarter of the VMEM buffer that is as the interface asks. -/
theorem quarter_leaf {F : FTy → Type} [FloatOps F] (m : (ℓ : Loc nD τ sig) → Buf (Elt F) ℓ) (c : Dev nD) (k : Fin 4)
    (fo : Buf (Elt F) ((c : Thread nD τ).loc main_v1)) (G : Buf (Elt F) ((c : Thread nD τ).loc cc0_scratch9)) (hG : QuarterOK m c k G) :
    ∃ g, QuarterOK m c k g ∧
      (oQ c k).view.read (Elt F) ((oQ c k).view.writes (Elt F) fo
          [⟨Rect.whole S1024x1024, ReadAs.same.apply (View.read (Elt F) (vQ c k).view G)⟩])
        = (vQ c k).view.read (Elt F) g :=
  ⟨G, hG, View.read_writes_whole (oQ c k).view fo _⟩

/-- The four quarters of the result array, each reading what its quarter of the VMEM buffer read, are the last thing
    the body's run ends with. -/
theorem out_leaf {F : FTy → Type} [FloatOps F] (m : (ℓ : Loc nD τ sig) → Buf (Elt F) ℓ) (c : Dev nD)
    (h0 h1 h2 h3 : Buf (Elt F) ((c : Thread nD τ).loc main_v1)) :
    (iprop((((oQ c 0).view.loc (c : Thread nD τ) ↦[(oQ c 0).view.set]{fullShare} h0) ∗ ((oQ c 1).view.loc (c : Thread nD τ) ↦[(oQ c 1).view.set]{fullShare} h1) ∗ ((oQ c 2).view.loc (c : Thread nD τ) ↦[(oQ c 2).view.set]{fullShare} h2) ∗ ((oQ c 3).view.loc (c : Thread nD τ) ↦[(oQ c 3).view.set]{fullShare} h3))
        ∗ ⌜∀ k : Fin 4, ∃ g, QuarterOK m c k g ∧ (oQ c k).view.read (Elt F) (![h0, h1, h2, h3] k) = (vQ c k).view.read (Elt F) g⌝)
      : sProp (MT nD τ sig Unit (Elt F) ℕ UU ℕ))
    ⊢ iprop(∃ h : Fin 4 → Buf (Elt F) ((c : Thread nD τ).loc main_v1),
        ⌜∀ k, ∃ g, QuarterOK m c k g ∧ (oQ c k).view.read (Elt F) (h k) = (vQ c k).view.read (Elt F) g⌝
        ∗ ((oQ c 0).view.loc (c : Thread nD τ) ↦[(oQ c 0).view.set]{fullShare} h 0) ∗ ((oQ c 1).view.loc (c : Thread nD τ) ↦[(oQ c 1).view.set]{fullShare} h 1) ∗ ((oQ c 2).view.loc (c : Thread nD τ) ↦[(oQ c 2).view.set]{fullShare} h 2) ∗ ((oQ c 3).view.loc (c : Thread nD τ) ↦[(oQ c 3).view.set]{fullShare} h 3)) := by
  iintro ⟨⟨H0, H1, H2, H3⟩, %hp⟩
  iexists ![h0, h1, h2, h3]
  isplitr
  · ipureintro; exact hp
  · isplitl [H0]
    · iexact H0
    isplitl [H1]
    · iexact H1
    isplitl [H2]
    · iexact H2
    iexact H3

/-- The same, with the four quarters' facts stated one by one. -/
theorem out_leaf4 {F : FTy → Type} [FloatOps F] (m : (ℓ : Loc nD τ sig) → Buf (Elt F) ℓ) (c : Dev nD)
    (h0 h1 h2 h3 : Buf (Elt F) ((c : Thread nD τ).loc main_v1)) :
    (iprop((((oQ c 0).view.loc (c : Thread nD τ) ↦[(oQ c 0).view.set]{fullShare} h0) ∗ ((oQ c 1).view.loc (c : Thread nD τ) ↦[(oQ c 1).view.set]{fullShare} h1) ∗ ((oQ c 2).view.loc (c : Thread nD τ) ↦[(oQ c 2).view.set]{fullShare} h2) ∗ ((oQ c 3).view.loc (c : Thread nD τ) ↦[(oQ c 3).view.set]{fullShare} h3))
        ∗ ⌜(∃ g, QuarterOK m c 0 g ∧ (oQ c 0).view.read (Elt F) h0 = (vQ c 0).view.read (Elt F) g) ∧ (∃ g, QuarterOK m c 1 g ∧ (oQ c 1).view.read (Elt F) h1 = (vQ c 1).view.read (Elt F) g) ∧ (∃ g, QuarterOK m c 2 g ∧ (oQ c 2).view.read (Elt F) h2 = (vQ c 2).view.read (Elt F) g) ∧ (∃ g, QuarterOK m c 3 g ∧ (oQ c 3).view.read (Elt F) h3 = (vQ c 3).view.read (Elt F) g)⌝)
      : sProp (MT nD τ sig Unit (Elt F) ℕ UU ℕ))
    ⊢ iprop(∃ h : Fin 4 → Buf (Elt F) ((c : Thread nD τ).loc main_v1),
        ⌜∀ k, ∃ g, QuarterOK m c k g ∧ (oQ c k).view.read (Elt F) (h k) = (vQ c k).view.read (Elt F) g⌝
        ∗ ((oQ c 0).view.loc (c : Thread nD τ) ↦[(oQ c 0).view.set]{fullShare} h 0) ∗ ((oQ c 1).view.loc (c : Thread nD τ) ↦[(oQ c 1).view.set]{fullShare} h 1) ∗ ((oQ c 2).view.loc (c : Thread nD τ) ↦[(oQ c 2).view.set]{fullShare} h 2) ∗ ((oQ c 3).view.loc (c : Thread nD τ) ↦[(oQ c 3).view.set]{fullShare} h 3)) := by
  refine Idealize.SL.BI.BIBase.Entails.trans ?_ (out_leaf m c h0 h1 h2 h3)
  iintro ⟨H, %hp⟩
  isplitl [H]
  · iexact H
  ipureintro
  intro k
  obtain ⟨q0, q1, q2, q3⟩ := hp
  fin_cases k
  · exact q0
  · exact q1
  · exact q2
  · exact q3

/-! ## A quarter written by sixteen stores of the right sums -/

theorem quarter_step {F : FTy → Type} [FloatOps F] (m : (ℓ : Loc nD τ sig) → Buf (Elt F) ℓ) (c : Dev nD) (k : Fin 4)
    (n : Nat) (s' : Fin 16) (hs' : s'.val = n) (g : Buf (Elt F) ((c : Thread nD τ).loc cc0_scratch9)) (p : S64x1024.Idx → Elt F .bf16)
    (off : Fin 2 → Nat) (inb : ∀ a, off a + S64x1024.size a ≤ S4096x1024.size a) (hoff : off = offB c k s')
    (hp : p = k0_pay23 (xlBlk m c k s') (rBlk m c k s'))
    (H : ∀ s : Fin 16, s.val < n → (vB c k s).view.read (Elt F) g = k0_pay23 (xlBlk m c k s) (rBlk m c k s)) :
    ∀ s : Fin 16, s.val < n + 1 →
      (vB c k s).view.read (Elt F)
          (View.write (Elt F) ((Memref.whole cc0_scratch9).access (Rect.unit (s := S4096x1024) off S64x1024.size inb)) g p Finset.univ)
        = k0_pay23 (xlBlk m c k s) (rBlk m c k s) := by
  subst hoff
  intro s h
  refine (read_vB_write c k s s' g p inb).trans ?_
  by_cases e : s = s'
  · rw [if_pos e, e]; exact hp
  · rw [if_neg e]
    refine H s ?_
    have : s.val ≠ s'.val := fun e' => e (Fin.ext e')
    omega

theorem pay23_ok {F : FTy → Type} [FloatOps F] (A A' : Vec F S1x64x1024 .f32) (B B' : Vec F S64x1024 .bf16)
    (hA : A = A') (hB : B = B') : k0_pay23 A B = k0_pay23 A' B' := by rw [hA, hB]

/-- One store's payload is the sum the interface names: the first load is, by definition, the block of the local copy's
    plane the interface names; the second is a load of a landing block through its whole buffer, the block's slice
    holding the value the interface names. -/
macro "payload_tac" : tactic => `(tactic| (
  refine pay23_ok _ _ _ _ ?_ ?_
  · rfl
  · exact readAt_rep_block_whole _ _ _ _ _))

/-- The interface's statement about a quarter, from the statement about its blocks below 16. -/
theorem quarterOK_intro {F : FTy → Type} [FloatOps F] (m : (ℓ : Loc nD τ sig) → Buf (Elt F) ℓ) (c : Dev nD) (k : Fin 4) (G : Buf (Elt F) ((c : Thread nD τ).loc cc0_scratch9))
    (H : ∀ s : Fin 16, s.val < 15 + 1 → (vB c k s).view.read (Elt F) G = k0_pay23 (xlBlk m c k s) (rBlk m c k s)) :
    QuarterOK m c k G := fun s => H s s.isLt

/-- A quarter of the VMEM result buffer written by sixteen stores through the whole buffer, block 0 innermost, block 15
    outermost, each of the kernel's sum (named whole or cut in pieces) of the two loads of its block, is as the interface
    asks: one step per store, outermost first; each step checks that the store's offsets are the block's and that its
    payload is the block's sum. -/
macro "quarter_tac" : tactic => `(tactic| (
  refine quarterOK_intro _ _ _ _ ?_
  refine quarter_step _ _ _ 15 15 rfl _ _ _ _ rfl ?_ ?_
  · payload_tac
  refine quarter_step _ _ _ 14 14 rfl _ _ _ _ rfl ?_ ?_
  · payload_tac
  refine quarter_step _ _ _ 13 13 rfl _ _ _ _ rfl ?_ ?_
  · payload_tac
  refine quarter_step _ _ _ 12 12 rfl _ _ _ _ rfl ?_ ?_
  · payload_tac
  refine quarter_step _ _ _ 11 11 rfl _ _ _ _ rfl ?_ ?_
  · payload_tac
  refine quarter_step _ _ _ 10 10 rfl _ _ _ _ rfl ?_ ?_
  · payload_tac
  refine quarter_step _ _ _ 9 9 rfl _ _ _ _ rfl ?_ ?_
  · payload_tac
  refine quarter_step _ _ _ 8 8 rfl _ _ _ _ rfl ?_ ?_
  · payload_tac
  refine quarter_step _ _ _ 7 7 rfl _ _ _ _ rfl ?_ ?_
  · payload_tac
  refine quarter_step _ _ _ 6 6 rfl _ _ _ _ rfl ?_ ?_
  · payload_tac
  refine quarter_step _ _ _ 5 5 rfl _ _ _ _ rfl ?_ ?_
  · payload_tac
  refine quarter_step _ _ _ 4 4 rfl _ _ _ _ rfl ?_ ?_
  · payload_tac
  refine quarter_step _ _ _ 3 3 rfl _ _ _ _ rfl ?_ ?_
  · payload_tac
  refine quarter_step _ _ _ 2 2 rfl _ _ _ _ rfl ?_ ?_
  · payload_tac
  refine quarter_step _ _ _ 1 1 rfl _ _ _ _ rfl ?_ ?_
  · payload_tac
  refine quarter_step _ _ _ 0 0 rfl _ _ _ _ rfl ?_ ?_
  · payload_tac
  exact fun s h => absurd h (Nat.not_lt_zero _)))

/-- info: 'Cert.Kernel.Rs.out_leaf' depends on axioms: [propext, Classical.choice, Quot.sound] -/
#guard_msgs in #print axioms out_leaf
/-- info: 'Cert.Kernel.Rs.quarter_step' depends on axioms: [propext, Classical.choice, Quot.sound] -/
#guard_msgs in #print axioms quarter_step

end Cert.Kernel.Rs

end
-- ==== Proof.Bits.Body.lean ====
import proofs.«901030_g7700000000001031_dist_rs_v7x_xyz2x2x2_z_m4096_n1024_bf16_1_alg».proof.Proof.Bits.BodyMacros
import proofs.«901030_g7700000000001031_dist_rs_v7x_xyz2x2x2_z_m4096_n1024_bf16_1_alg».proof.Proof.Bits.BodyFlatOk
import proofs.«901030_g7700000000001031_dist_rs_v7x_xyz2x2x2_z_m4096_n1024_bf16_1_alg».proof.Proof.Bits.Nest
import proofs.«901030_g7700000000001031_dist_rs_v7x_xyz2x2x2_z_m4096_n1024_bf16_1_alg».proof.Proof.Bits.OutLeaf
import proofs.«901030_g7700000000001031_dist_rs_v7x_xyz2x2x2_z_m4096_n1024_bf16_1_alg».proof.Proof.Bits.BodyObl

noncomputable section

namespace Cert.Kernel.Rs

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxHeartbeats 400000000 in
set_option maxRecDepth 65536 in
theorem body_run' (K : Dev nD × CK → ℕ) (c : Dev nD) (W : Waits sig Unit) (Kt : PUnit → sProp 𝕄)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (fq : Buf (Elt F) ((c : Thread nD τ).loc cc0_scratch5))
    (fx : Buf (Elt F) ((c : Thread nD τ).loc cc0_scratch6)) (fy : Buf (Elt F) ((c : Thread nD τ).loc cc0_scratch7))
    (fr : Buf (Elt F) ((c : Thread nD τ).loc cc0_scratch8)) (f9 : Buf (Elt F) ((c : Thread nD τ).loc cc0_scratch9)) :
    iprop((ghost m K c ∗ cred (tallyAt (barCell c) () 3) ∗ (bigSep Finset.univ fun i : Fin 64 => cred (tallyAt (dcell c (rN i)) () Nb))
        ∗ levAts L lv ∗ localSems c
        ∗ (scr0 c f0 ∗ scr1 c f1 ∗ scr2 c f2 ∗ scr3 c f3 ∗ scr4 c f4 ∗ ownZ c fq fr ∗ ownX c fx fr ∗ ownY c fy fr ∗ scr9 c f9)
        ∗ argPieces c (m ((c : Thread nD τ).loc main_arg0))
        ∗ outPieces c (m ((c : Thread nD τ).loc main_v1)))
      ∗ owes (c : Thread nD τ) (O₀ c) W ∗ (bodyPost m K c -∗ Kt ⟨⟩))
      ⊢ wp frame (wpE (defs₀ (F := F)) Variants.none c none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) Kt := by
  unfold ghost payToks localSems argPieces outPieces scr0 scr1 scr2 scr3 scr4 scr9
  rw [positions_eq, O₀_eqL]
  rw [bigSep_univ_eq_bigSepL sendWaitList sendWaitList_univ sendWaitList_nodup (fun i : Fin 64 => (atPos ER (dcell c (sN i)) 0 ∅ 0 : sProp 𝕄)),
    bigSep_univ_eq_bigSepL recvWaitList recvWaitList_univ recvWaitList_nodup (fun i : Fin 64 => (atPos ER (dcell c (rN i)) 0 ∅ 0 : sProp 𝕄)),
    bigSep_univ_eq_bigSepL progList progList_univ' progList_nodup (fun i : Fin 64 => (dutyTok ER (dcell c (sN i)) 0 0 : sProp 𝕄)),
    bigSep_univ_eq_bigSepL progList progList_univ' progList_nodup (fun i : Fin 64 => (dutyTok ER (dcell (pr i c) (rN i)) 0 0 : sProp 𝕄)),
    bigSep_univ_eq_bigSepL recvWaitList recvWaitList_univ recvWaitList_nodup (fun i : Fin 64 => (cred (tallyAt (dcell c (rN i)) () Nb) : sProp 𝕄))]
  rw [bigSep_fin30, bigSep_fin16, bigSep_fin16, bigSep_fin16, bigSep_fin6, bigSep_fin6, bigSep_fin6, bigSep_fin4, bigSep_fin4, bigSep_fin4]
  iintro ⟨⟨⟨#HRec, ⟨Hatb, HaS, HaR⟩, Htz, Htx, Hty, HtS, HtR⟩, Hcb, HcR, #Hlev, Hloc, ⟨Hs0, Hs1, Hs2, Hs3, Hs4, HZ, HXn, HYn, Hs9⟩, ⟨⟨HWL0, HWL1, HWL2, HWL3⟩, HWQ, HWD, Hrest⟩, HOut⟩, HO, Hk⟩
  ichain Hloc as Hl 30
  ichain Hs0 as HXq 16
  ichain Hs1 as HXd 6
  ichain Hs2 as HXl 4
  ichain Hs3 as HA 16
  ichain Hs4 as HD 6
  ichain Hs9 as HV 4
  ichain HWQ as HWq 16
  ichain HWD as HWd 6
  ichain HOut as HOq 4
  sl_exec
  -- the entry handshake: a unit on each neighbour's barrier cell, each with the landing blocks that neighbour will write
  iapply (Rounds.wp_signal Variants.none ER (Rd m) (c : Thread nD τ) none (dst := (zp c : Thread nD τ)) (κ := K (zp c, .inl ()))
      (d := 0) (by rw [duties_bar]; exact Finset.mem_univ _) ((amount_bar m (zp c) 0).trans (by decide)) ()
      (sumL c progList + tallyAt (barCell (yn c)) () 1 + tallyAt (barCell (xn c)) () 1) rfl)
    $$ [HO Htz HZ]
  · isplitr; · iapply (inv_at m K (zp c, .inl ())); iexact HRec
    isplitl [HO]; · iexact HO
    isplitl [Htz]; · iexact Htz
    isplitl [HZ]
    · rw [payload_bar0, zp_zp]; iapply (ownZ_landZ c fq fr); iexact HZ
    · iapply (reached_at m K (zp c, .inl ())); iexact HRec
  iintro HO
  sl_exec
  iapply (Rounds.wp_signal Variants.none ER (Rd m) (c : Thread nD τ) none (dst := (xn c : Thread nD τ)) (κ := K (xn c, .inl ()))
      (d := 1) (by rw [duties_bar]; exact Finset.mem_univ _) ((amount_bar m (xn c) 1).trans (by decide)) ()
      (sumL c progList + tallyAt (barCell (yn c)) () 1) rfl)
    $$ [HO Htx HXn]
  · isplitr; · iapply (inv_at m K (xn c, .inl ())); iexact HRec
    isplitl [HO]; · iexact HO
    isplitl [Htx]; · iexact Htx
    isplitl [HXn]
    · rw [payload_bar1, xn_xn]; iapply (ownX_landX c fx fr); iexact HXn
    · iapply (reached_at m K (xn c, .inl ())); iexact HRec
  iintro HO
  sl_exec
  iapply (Rounds.wp_signal Variants.none ER (Rd m) (c : Thread nD τ) none (dst := (yn c : Thread nD τ)) (κ := K (yn c, .inl ()))
      (d := 2) (by rw [duties_bar]; exact Finset.mem_univ _) ((amount_bar m (yn c) 2).trans (by decide)) ()
      (sumL c progList) rfl)
    $$ [HO Hty HYn]
  · isplitr; · iapply (inv_at m K (yn c, .inl ())); iexact HRec
    isplitl [HO]; · iexact HO
    isplitl [Hty]; · iexact Hty
    isplitl [HYn]
    · rw [payload_bar2, yn_yn]; iapply (ownY_landY c fy fr); iexact HYn
    · iapply (reached_at m K (yn c, .inl ())); iexact HRec
  iintro HO
  sl_exec
  -- the wait for the three neighbours' units: their landing blocks arrive
  iapply (Rounds.wp_wait_rest_token Variants.none ER (Rd m) (c : Thread nD τ) none (κ := K (c, .inl ()))
      (wpE_semWait_eq Variants.none (c : Thread nD τ) none Set.univ) (Set.mem_univ _) () (O := sumL c progList) (W := W) (R := 0) (m := 0) (T := ∅)
      (by rw [expect_bar]; decide))
    $$ [Hcb HO Hatb]
  · isplitr; · iapply (inv_at m K (c, .inl ())); iexact HRec
    isplitl [Hcb]; · iexact Hcb
    isplitl [HO]; · iexact HO
    isplitr
    · iapply (mayWait_of_above c (.reg barS) _ (above_lsum 1 c progList (by decide))); iexact Hlev
    iexact Hatb
  iintro ⟨HO, Hatb, -, Hpay⟩
  ihave Hp := (Entails.of_eq (rest_bar m c)) $$ Hpay
  icases Hp with ⟨HGz, HGx, HGy⟩
  unfold landZ landX landY progList recvWaitList sendWaitList
  -- the local copies are issued, the first f32 block arrives, is cast and stored: up to the first remote copy
  have hled : ∀ (sm : SemLoc sig) (O : CellTallies nD τ sig Unit), Above (lv ((c : Thread nD τ), sm) ()) O →
      ((levAts L lv : sProp 𝕄) ⊢ MayWait (c : Thread nD τ) sm () O) := fun sm O h => mayWait_of_above c sm O h
  ex

  -- the sixteen casts of the own quarter go to the z-partner, each as soon as it is stored
  send_core 0 HA0 HGz HcS0 | dev4_eq c | zp c | fullShare | aV m c 0 | za_val m c 0 f3 k0_pay1 k0_pay1_eq1 _ _ | pay_of_pex m c fullShare (bA 0) _ (pay_sZa m c 0) _ | pay_rZa' m c 0
  ex
  send_core 1 HA1 HGz HcS1 | dev5_eq c | zp c | fullShare | aV m c 1 | za_val m c 1 f3 k0_pay2 k0_pay2_eq1 _ _ | pay_of_pex m c fullShare (bA 1) _ (pay_sZa m c 1) _ | pay_rZa' m c 1
  ex
  send_core 2 HA2 HGz HcS2 | dev6_eq c | zp c | fullShare | aV m c 2 | za_val m c 2 f3 k0_pay3 k0_pay3_eq1 _ _ | pay_of_pex m c fullShare (bA 2) _ (pay_sZa m c 2) _ | pay_rZa' m c 2
  ex
  send_core 3 HA3 HGz HcS3 | dev7_eq c | zp c | fullShare | aV m c 3 | za_val m c 3 f3 k0_pay4 k0_pay4_eq1 _ _ | pay_of_pex m c fullShare (bA 3) _ (pay_sZa m c 3) _ | pay_rZa' m c 3
  ex
  send_core 4 HA4 HGz HcS4 | dev8_eq c | zp c | fullShare | aV m c 4 | za_val m c 4 f3 k0_pay5 k0_pay5_eq1 _ _ | pay_of_pex m c fullShare (bA 4) _ (pay_sZa m c 4) _ | pay_rZa' m c 4
  ex
  send_core 5 HA5 HGz HcS5 | dev9_eq c | zp c | fullShare | aV m c 5 | za_val m c 5 f3 k0_pay6 k0_pay6_eq1 _ _ | pay_of_pex m c fullShare (bA 5) _ (pay_sZa m c 5) _ | pay_rZa' m c 5
  ex
  send_core 6 HA6 HGz HcS6 | dev10_eq c | zp c | fullShare | aV m c 6 | za_val m c 6 f3 k0_pay7 k0_pay7_eq1 _ _ | pay_of_pex m c fullShare (bA 6) _ (pay_sZa m c 6) _ | pay_rZa' m c 6
  ex
  send_core 7 HA7 HGz HcS7 | dev11_eq c | zp c | fullShare | aV m c 7 | za_val m c 7 f3 k0_pay8 k0_pay8_eq1 _ _ | pay_of_pex m c fullShare (bA 7) _ (pay_sZa m c 7) _ | pay_rZa' m c 7
  ex
  send_core 8 HA8 HGz HcS8 | dev12_eq c | zp c | fullShare | aV m c 8 | za_val m c 8 f3 k0_pay9 k0_pay9_eq1 _ _ | pay_of_pex m c fullShare (bA 8) _ (pay_sZa m c 8) _ | pay_rZa' m c 8
  ex
  send_core 9 HA9 HGz HcS9 | dev13_eq c | zp c | fullShare | aV m c 9 | za_val m c 9 f3 k0_pay10 k0_pay10_eq1 _ _ | pay_of_pex m c fullShare (bA 9) _ (pay_sZa m c 9) _ | pay_rZa' m c 9
  ex
  send_core 10 HA10 HGz HcS10 | dev14_eq c | zp c | fullShare | aV m c 10 | za_val m c 10 f3 k0_pay11 k0_pay11_eq1 _ _ | pay_of_pex m c fullShare (bA 10) _ (pay_sZa m c 10) _ | pay_rZa' m c 10
  ex
  send_core 11 HA11 HGz HcS11 | dev15_eq c | zp c | fullShare | aV m c 11 | za_val m c 11 f3 k0_pay12 k0_pay12_eq1 _ _ | pay_of_pex m c fullShare (bA 11) _ (pay_sZa m c 11) _ | pay_rZa' m c 11
  ex
  send_core 12 HA12 HGz HcS12 | dev16_eq c | zp c | fullShare | aV m c 12 | za_val m c 12 f3 k0_pay13 k0_pay13_eq1 _ _ | pay_of_pex m c fullShare (bA 12) _ (pay_sZa m c 12) _ | pay_rZa' m c 12
  ex
  send_core 13 HA13 HGz HcS13 | dev17_eq c | zp c | fullShare | aV m c 13 | za_val m c 13 f3 k0_pay14 k0_pay14_eq1 _ _ | pay_of_pex m c fullShare (bA 13) _ (pay_sZa m c 13) _ | pay_rZa' m c 13
  ex
  send_core 14 HA14 HGz HcS14 | dev18_eq c | zp c | fullShare | aV m c 14 | za_val m c 14 f3 k0_pay15 k0_pay15_eq1 _ _ | pay_of_pex m c fullShare (bA 14) _ (pay_sZa m c 14) _ | pay_rZa' m c 14
  ex
  send_core 15 HA15 HGz HcS15 | dev19_eq c | zp c | fullShare | aV m c 15 | za_val m c 15 f3 k0_pay16 k0_pay16_eq1 _ _ | pay_of_pex m c fullShare (bA 15) _ (pay_sZa m c 15) _ | pay_rZa' m c 15
  ex
  -- the six casts of the diagonal quarter's first blocks go to the z-partner
  send_core 16 HD0 HGz HcS16 | dev20_eq c | zp c | fullShare | dV m c 0 | zd_val m c 0 f4 k0_pay17 k0_pay17_eq1 _ _ | pay_of_pex m c fullShare (bD 0) _ (pay_sZd m c 0) _ | pay_rZd' m c 0
  ex
  send_core 17 HD1 HGz HcS17 | dev21_eq c | zp c | fullShare | dV m c 1 | zd_val m c 1 f4 k0_pay18 k0_pay18_eq1 _ _ | pay_of_pex m c fullShare (bD 1) _ (pay_sZd m c 1) _ | pay_rZd' m c 1
  ex
  send_core 18 HD2 HGz HcS18 | dev22_eq c | zp c | fullShare | dV m c 2 | zd_val m c 2 f4 k0_pay19 k0_pay19_eq1 _ _ | pay_of_pex m c fullShare (bD 2) _ (pay_sZd m c 2) _ | pay_rZd' m c 2
  ex
  send_core 19 HD3 HGz HcS19 | dev23_eq c | zp c | fullShare | dV m c 3 | zd_val m c 3 f4 k0_pay20 k0_pay20_eq1 _ _ | pay_of_pex m c fullShare (bD 3) _ (pay_sZd m c 3) _ | pay_rZd' m c 3
  ex
  send_core 20 HD4 HGz HcS20 | dev24_eq c | zp c | fullShare | dV m c 4 | zd_val m c 4 f4 k0_pay21 k0_pay21_eq1 _ _ | pay_of_pex m c fullShare (bD 4) _ (pay_sZd m c 4) _ | pay_rZd' m c 4
  ex
  send_last 21 HD5 HGz HcS21 | dev25_eq c | zp c | fullShare | dV m c 5 | zd_val m c 5 f4 k0_pay22 k0_pay22_eq1 _ _ | pay_of_pex m c fullShare (bD 5) _ (pay_sZd m c 5) _ | pay_rZd' m c 5
  ex
  -- block by block: the z-partner's cast arrives, goes on to the x- and the y-neighbour, and is added to the own rows
  recv_wait 0 HQ0 HaR1_0 | pay_rZa m c 0 | 2
  share3 HQ0 HQx0 HQy0 HQk0
  ex
  send_core 22 HQx0 HGx HcS22 | dev26_eq c | xn c | shX | aV m (zp c) 0 | rep_read _ _ | pay_of_pex m c shX (bQ 0) _ (pay_sFx m c 0) _ | pay_rFx' m c 0
  ex
  send_core 38 HQy0 HGy HcS38 | dev27_eq c | yn c | shY | aV m (zp c) 0 | rep_read _ _ | pay_of_pex m c shY (bQ 0) _ (pay_sFy m c 0) _ | pay_rFy' m c 0
  ex
  recv_wait 1 HQ1 HaR1_1 | pay_rZa m c 1 | 2
  share3 HQ1 HQx1 HQy1 HQk1
  ex
  send_core 23 HQx1 HGx HcS23 | dev28_eq c | xn c | shX | aV m (zp c) 1 | rep_read _ _ | pay_of_pex m c shX (bQ 1) _ (pay_sFx m c 1) _ | pay_rFx' m c 1
  ex
  send_core 39 HQy1 HGy HcS39 | dev29_eq c | yn c | shY | aV m (zp c) 1 | rep_read _ _ | pay_of_pex m c shY (bQ 1) _ (pay_sFy m c 1) _ | pay_rFy' m c 1
  ex
  recv_wait 2 HQ2 HaR1_2 | pay_rZa m c 2 | 2
  share3 HQ2 HQx2 HQy2 HQk2
  ex
  send_core 24 HQx2 HGx HcS24 | dev30_eq c | xn c | shX | aV m (zp c) 2 | rep_read _ _ | pay_of_pex m c shX (bQ 2) _ (pay_sFx m c 2) _ | pay_rFx' m c 2
  ex
  send_core 40 HQy2 HGy HcS40 | dev31_eq c | yn c | shY | aV m (zp c) 2 | rep_read _ _ | pay_of_pex m c shY (bQ 2) _ (pay_sFy m c 2) _ | pay_rFy' m c 2
  ex
  recv_wait 3 HQ3 HaR1_3 | pay_rZa m c 3 | 2
  share3 HQ3 HQx3 HQy3 HQk3
  ex
  send_core 25 HQx3 HGx HcS25 | dev32_eq c | xn c | shX | aV m (zp c) 3 | rep_read _ _ | pay_of_pex m c shX (bQ 3) _ (pay_sFx m c 3) _ | pay_rFx' m c 3
  ex
  send_core 41 HQy3 HGy HcS41 | dev33_eq c | yn c | shY | aV m (zp c) 3 | rep_read _ _ | pay_of_pex m c shY (bQ 3) _ (pay_sFy m c 3) _ | pay_rFy' m c 3
  ex
  recv_wait 4 HQ4 HaR1_4 | pay_rZa m c 4 | 2
  share3 HQ4 HQx4 HQy4 HQk4
  ex
  send_core 26 HQx4 HGx HcS26 | dev34_eq c | xn c | shX | aV m (zp c) 4 | rep_read _ _ | pay_of_pex m c shX (bQ 4) _ (pay_sFx m c 4) _ | pay_rFx' m c 4
  ex
  send_core 42 HQy4 HGy HcS42 | dev35_eq c | yn c | shY | aV m (zp c) 4 | rep_read _ _ | pay_of_pex m c shY (bQ 4) _ (pay_sFy m c 4) _ | pay_rFy' m c 4
  ex
  recv_wait 5 HQ5 HaR1_5 | pay_rZa m c 5 | 2
  share3 HQ5 HQx5 HQy5 HQk5
  ex
  send_core 27 HQx5 HGx HcS27 | dev36_eq c | xn c | shX | aV m (zp c) 5 | rep_read _ _ | pay_of_pex m c shX (bQ 5) _ (pay_sFx m c 5) _ | pay_rFx' m c 5
  ex
  send_core 43 HQy5 HGy HcS43 | dev37_eq c | yn c | shY | aV m (zp c) 5 | rep_read _ _ | pay_of_pex m c shY (bQ 5) _ (pay_sFy m c 5) _ | pay_rFy' m c 5
  ex
  recv_wait 6 HQ6 HaR1_6 | pay_rZa m c 6 | 2
  share3 HQ6 HQx6 HQy6 HQk6
  ex
  send_core 28 HQx6 HGx HcS28 | dev38_eq c | xn c | shX | aV m (zp c) 6 | rep_read _ _ | pay_of_pex m c shX (bQ 6) _ (pay_sFx m c 6) _ | pay_rFx' m c 6
  ex
  send_core 44 HQy6 HGy HcS44 | dev39_eq c | yn c | shY | aV m (zp c) 6 | rep_read _ _ | pay_of_pex m c shY (bQ 6) _ (pay_sFy m c 6) _ | pay_rFy' m c 6
  ex
  recv_wait 7 HQ7 HaR1_7 | pay_rZa m c 7 | 2
  share3 HQ7 HQx7 HQy7 HQk7
  ex
  send_core 29 HQx7 HGx HcS29 | dev40_eq c | xn c | shX | aV m (zp c) 7 | rep_read _ _ | pay_of_pex m c shX (bQ 7) _ (pay_sFx m c 7) _ | pay_rFx' m c 7
  ex
  send_core 45 HQy7 HGy HcS45 | dev41_eq c | yn c | shY | aV m (zp c) 7 | rep_read _ _ | pay_of_pex m c shY (bQ 7) _ (pay_sFy m c 7) _ | pay_rFy' m c 7
  ex
  recv_wait 8 HQ8 HaR1_8 | pay_rZa m c 8 | 2
  share3 HQ8 HQx8 HQy8 HQk8
  ex
  send_core 30 HQx8 HGx HcS30 | dev42_eq c | xn c | shX | aV m (zp c) 8 | rep_read _ _ | pay_of_pex m c shX (bQ 8) _ (pay_sFx m c 8) _ | pay_rFx' m c 8
  ex
  send_core 46 HQy8 HGy HcS46 | dev43_eq c | yn c | shY | aV m (zp c) 8 | rep_read _ _ | pay_of_pex m c shY (bQ 8) _ (pay_sFy m c 8) _ | pay_rFy' m c 8
  ex
  recv_wait 9 HQ9 HaR1_9 | pay_rZa m c 9 | 2
  share3 HQ9 HQx9 HQy9 HQk9
  ex
  send_core 31 HQx9 HGx HcS31 | dev44_eq c | xn c | shX | aV m (zp c) 9 | rep_read _ _ | pay_of_pex m c shX (bQ 9) _ (pay_sFx m c 9) _ | pay_rFx' m c 9
  ex
  send_core 47 HQy9 HGy HcS47 | dev45_eq c | yn c | shY | aV m (zp c) 9 | rep_read _ _ | pay_of_pex m c shY (bQ 9) _ (pay_sFy m c 9) _ | pay_rFy' m c 9
  ex
  recv_wait 10 HQ10 HaR1_10 | pay_rZa m c 10 | 2
  share3 HQ10 HQx10 HQy10 HQk10
  ex
  send_core 32 HQx10 HGx HcS32 | dev46_eq c | xn c | shX | aV m (zp c) 10 | rep_read _ _ | pay_of_pex m c shX (bQ 10) _ (pay_sFx m c 10) _ | pay_rFx' m c 10
  ex
  send_core 48 HQy10 HGy HcS48 | dev47_eq c | yn c | shY | aV m (zp c) 10 | rep_read _ _ | pay_of_pex m c shY (bQ 10) _ (pay_sFy m c 10) _ | pay_rFy' m c 10
  ex
  recv_wait 11 HQ11 HaR1_11 | pay_rZa m c 11 | 2
  share3 HQ11 HQx11 HQy11 HQk11
  ex
  send_core 33 HQx11 HGx HcS33 | dev48_eq c | xn c | shX | aV m (zp c) 11 | rep_read _ _ | pay_of_pex m c shX (bQ 11) _ (pay_sFx m c 11) _ | pay_rFx' m c 11
  ex
  send_core 49 HQy11 HGy HcS49 | dev49_eq c | yn c | shY | aV m (zp c) 11 | rep_read _ _ | pay_of_pex m c shY (bQ 11) _ (pay_sFy m c 11) _ | pay_rFy' m c 11
  ex
  recv_wait 12 HQ12 HaR1_12 | pay_rZa m c 12 | 2
  share3 HQ12 HQx12 HQy12 HQk12
  ex
  send_core 34 HQx12 HGx HcS34 | dev50_eq c | xn c | shX | aV m (zp c) 12 | rep_read _ _ | pay_of_pex m c shX (bQ 12) _ (pay_sFx m c 12) _ | pay_rFx' m c 12
  ex
  send_core 50 HQy12 HGy HcS50 | dev51_eq c | yn c | shY | aV m (zp c) 12 | rep_read _ _ | pay_of_pex m c shY (bQ 12) _ (pay_sFy m c 12) _ | pay_rFy' m c 12
  ex
  recv_wait 13 HQ13 HaR1_13 | pay_rZa m c 13 | 2
  share3 HQ13 HQx13 HQy13 HQk13
  ex
  send_core 35 HQx13 HGx HcS35 | dev52_eq c | xn c | shX | aV m (zp c) 13 | rep_read _ _ | pay_of_pex m c shX (bQ 13) _ (pay_sFx m c 13) _ | pay_rFx' m c 13
  ex
  send_core 51 HQy13 HGy HcS51 | dev53_eq c | yn c | shY | aV m (zp c) 13 | rep_read _ _ | pay_of_pex m c shY (bQ 13) _ (pay_sFy m c 13) _ | pay_rFy' m c 13
  ex
  recv_wait 14 HQ14 HaR1_14 | pay_rZa m c 14 | 2
  share3 HQ14 HQx14 HQy14 HQk14
  ex
  send_core 36 HQx14 HGx HcS36 | dev54_eq c | xn c | shX | aV m (zp c) 14 | rep_read _ _ | pay_of_pex m c shX (bQ 14) _ (pay_sFx m c 14) _ | pay_rFx' m c 14
  ex
  send_core 52 HQy14 HGy HcS52 | dev55_eq c | yn c | shY | aV m (zp c) 14 | rep_read _ _ | pay_of_pex m c shY (bQ 14) _ (pay_sFy m c 14) _ | pay_rFy' m c 14
  ex
  recv_wait 15 HQ15 HaR1_15 | pay_rZa m c 15 | 2
  share3 HQ15 HQx15 HQy15 HQk15
  ex
  send_core 37 HQx15 HGx HcS37 | dev56_eq c | xn c | shX | aV m (zp c) 15 | rep_read _ _ | pay_of_pex m c shX (bQ 15) _ (pay_sFx m c 15) _ | pay_rFx' m c 15
  ex
  send_core 53 HQy15 HGy HcS53 | dev57_eq c | yn c | shY | aV m (zp c) 15 | rep_read _ _ | pay_of_pex m c shY (bQ 15) _ (pay_sFy m c 15) _ | pay_rFy' m c 15
  ex
  -- the y-neighbour's blocks 6–10 go on to the x-neighbour, the x-neighbour's blocks 11–15 to the y-neighbour
  recv_wait 44 HY6 HaR1_44 | pay_rFy m c 6 | 3
  share2 HY6 HYx6 HYk6
  ex
  send_core 54 HYx6 HGx HcS54 | dev58_eq c | xn c | shX | aV m (zp (yn c)) 6 | rep_read _ _ | pay_of_pex m c shX (bY 6) _ (pay_sDx_6 m c) _ | pay_rDx'_6 m c
  ex
  recv_wait 45 HY7 HaR1_45 | pay_rFy m c 7 | 3
  share2 HY7 HYx7 HYk7
  ex
  send_core 55 HYx7 HGx HcS55 | dev59_eq c | xn c | shX | aV m (zp (yn c)) 7 | rep_read _ _ | pay_of_pex m c shX (bY 7) _ (pay_sDx_7 m c) _ | pay_rDx'_7 m c
  ex
  recv_wait 46 HY8 HaR1_46 | pay_rFy m c 8 | 3
  share2 HY8 HYx8 HYk8
  ex
  send_core 56 HYx8 HGx HcS56 | dev60_eq c | xn c | shX | aV m (zp (yn c)) 8 | rep_read _ _ | pay_of_pex m c shX (bY 8) _ (pay_sDx_8 m c) _ | pay_rDx'_8 m c
  ex
  recv_wait 47 HY9 HaR1_47 | pay_rFy m c 9 | 3
  share2 HY9 HYx9 HYk9
  ex
  send_core 57 HYx9 HGx HcS57 | dev61_eq c | xn c | shX | aV m (zp (yn c)) 9 | rep_read _ _ | pay_of_pex m c shX (bY 9) _ (pay_sDx_9 m c) _ | pay_rDx'_9 m c
  ex
  recv_wait 48 HY10 HaR1_48 | pay_rFy m c 10 | 3
  share2 HY10 HYx10 HYk10
  ex
  send_last 58 HYx10 HGx HcS58 | dev62_eq c | xn c | shX | aV m (zp (yn c)) 10 | rep_read _ _ | pay_of_pex m c shX (bY 10) _ (pay_sDx_10 m c) _ | pay_rDx'_10 m c
  ex
  recv_wait 33 HX11 HaR1_33 | pay_rFx m c 11 | 3
  share3 HX11 HXx11 HXy11 HXk11
  ex
  send_core 59 HXy11 HGy HcS59 | dev63_eq c | yn c | shY | aV m (zp (xn c)) 11 | rep_read _ _ | pay_of_pex m c shY (bX 11) _ (pay_sDy_11 m c) _ | pay_rDy'_11 m c
  ex
  recv_wait 34 HX12 HaR1_34 | pay_rFx m c 12 | 3
  share3 HX12 HXx12 HXy12 HXk12
  ex
  send_core 60 HXy12 HGy HcS60 | dev64_eq c | yn c | shY | aV m (zp (xn c)) 12 | rep_read _ _ | pay_of_pex m c shY (bX 12) _ (pay_sDy_12 m c) _ | pay_rDy'_12 m c
  ex
  recv_wait 35 HX13 HaR1_35 | pay_rFx m c 13 | 3
  share3 HX13 HXx13 HXy13 HXk13
  ex
  send_core 61 HXy13 HGy HcS61 | dev65_eq c | yn c | shY | aV m (zp (xn c)) 13 | rep_read _ _ | pay_of_pex m c shY (bX 13) _ (pay_sDy_13 m c) _ | pay_rDy'_13 m c
  ex
  recv_wait 36 HX14 HaR1_36 | pay_rFx m c 14 | 3
  share3 HX14 HXx14 HXy14 HXk14
  ex
  send_core 62 HXy14 HGy HcS62 | dev66_eq c | yn c | shY | aV m (zp (xn c)) 14 | rep_read _ _ | pay_of_pex m c shY (bX 14) _ (pay_sDy_14 m c) _ | pay_rDy'_14 m c
  ex
  recv_wait 37 HX15 HaR1_37 | pay_rFx m c 15 | 3
  share3 HX15 HXx15 HXy15 HXk15
  ex
  send_final 63 HXy15 HGy HcS63 | dev67_eq c | yn c | shY | aV m (zp (xn c)) 15 | rep_read _ _ | pay_of_pex m c shY (bX 15) _ (pay_sDy_15 m c) _ | pay_rDy'_15 m c
  ex
  -- quarter qy: the rest of the y-neighbour's blocks arrive, then its sixteen additions
  recv_wait 38 HY0 HaR1_38 | pay_rFy m c 0 | 3
  ex
  recv_wait 39 HY1 HaR1_39 | pay_rFy m c 1 | 3
  ex
  recv_wait 40 HY2 HaR1_40 | pay_rFy m c 2 | 3
  ex
  recv_wait 41 HY3 HaR1_41 | pay_rFy m c 3 | 3
  ex
  recv_wait 42 HY4 HaR1_42 | pay_rFy m c 4 | 3
  ex
  recv_wait 43 HY5 HaR1_43 | pay_rFy m c 5 | 3
  ex
  recv_wait 49 HY11 HaR1_49 | pay_rFy m c 11 | 3
  ex
  recv_wait 50 HY12 HaR1_50 | pay_rFy m c 12 | 3
  ex
  recv_wait 51 HY13 HaR1_51 | pay_rFy m c 13 | 3
  ex
  recv_wait 52 HY14 HaR1_52 | pay_rFy m c 14 | 3
  ex
  recv_wait 53 HY15 HaR1_53 | pay_rFy m c 15 | 3
  ex
  -- quarter qx: the rest of the x-neighbour's blocks
  recv_wait 22 HX0 HaR1_22 | pay_rFx m c 0 | 3
  ex
  recv_wait 23 HX1 HaR1_23 | pay_rFx m c 1 | 3
  ex
  recv_wait 24 HX2 HaR1_24 | pay_rFx m c 2 | 3
  ex
  recv_wait 25 HX3 HaR1_25 | pay_rFx m c 3 | 3
  ex
  recv_wait 26 HX4 HaR1_26 | pay_rFx m c 4 | 3
  ex
  recv_wait 27 HX5 HaR1_27 | pay_rFx m c 5 | 3
  ex
  recv_wait 28 HX6 HaR1_28 | pay_rFx m c 6 | 3
  ex
  recv_wait 29 HX7 HaR1_29 | pay_rFx m c 7 | 3
  ex
  recv_wait 30 HX8 HaR1_30 | pay_rFx m c 8 | 3
  ex
  recv_wait 31 HX9 HaR1_31 | pay_rFx m c 9 | 3
  ex
  recv_wait 32 HX10 HaR1_32 | pay_rFx m c 10 | 3
  ex
  -- the diagonal quarter: six blocks from the z-partner, five through the x-neighbour, five through the y-neighbour
  recv_wait 16 HR0 HaR1_16 | pay_rZd_0 m c | 2
  ex
  recv_wait 17 HR1 HaR1_17 | pay_rZd_1 m c | 2
  ex
  recv_wait 18 HR2 HaR1_18 | pay_rZd_2 m c | 2
  ex
  recv_wait 19 HR3 HaR1_19 | pay_rZd_3 m c | 2
  ex
  recv_wait 20 HR4 HaR1_20 | pay_rZd_4 m c | 2
  ex
  recv_wait 21 HR5 HaR1_21 | pay_rZd_5 m c | 2
  ex
  recv_wait 54 HR6 HaR1_54 | pay_rDx_6 m c | 4
  ex
  recv_wait 55 HR7 HaR1_55 | pay_rDx_7 m c | 4
  ex
  recv_wait 56 HR8 HaR1_56 | pay_rDx_8 m c | 4
  ex
  recv_wait 57 HR9 HaR1_57 | pay_rDx_9 m c | 4
  ex
  recv_wait 58 HR10 HaR1_58 | pay_rDx_10 m c | 4
  ex
  recv_wait 59 HR11 HaR1_59 | pay_rDy_11 m c | 4
  ex
  recv_wait 60 HR12 HaR1_60 | pay_rDy_12 m c | 4
  ex
  recv_wait 61 HR13 HaR1_61 | pay_rDy_13 m c | 4
  ex
  recv_wait 62 HR14 HaR1_62 | pay_rDy_14 m c | 4
  ex
  recv_wait_last 63 HR15 HaR1_63 | pay_rDy_15 m c | 4
  ex
  -- the departures: every lent block comes back
  send_wait 0 HcS0 HbA0 HaS1_0 | pay_sZa m c 0
  ex
  send_wait 22 HcS22 HbQx0 HaS1_22 | pay_sFx m c 0
  ex
  send_wait 38 HcS38 HbQy0 HaS1_38 | pay_sFy m c 0
  ex
  send_wait 1 HcS1 HbA1 HaS1_1 | pay_sZa m c 1
  ex
  send_wait 23 HcS23 HbQx1 HaS1_23 | pay_sFx m c 1
  ex
  send_wait 39 HcS39 HbQy1 HaS1_39 | pay_sFy m c 1
  ex
  send_wait 2 HcS2 HbA2 HaS1_2 | pay_sZa m c 2
  ex
  send_wait 24 HcS24 HbQx2 HaS1_24 | pay_sFx m c 2
  ex
  send_wait 40 HcS40 HbQy2 HaS1_40 | pay_sFy m c 2
  ex
  send_wait 3 HcS3 HbA3 HaS1_3 | pay_sZa m c 3
  ex
  send_wait 25 HcS25 HbQx3 HaS1_25 | pay_sFx m c 3
  ex
  send_wait 41 HcS41 HbQy3 HaS1_41 | pay_sFy m c 3
  ex
  send_wait 4 HcS4 HbA4 HaS1_4 | pay_sZa m c 4
  ex
  send_wait 26 HcS26 HbQx4 HaS1_26 | pay_sFx m c 4
  ex
  send_wait 42 HcS42 HbQy4 HaS1_42 | pay_sFy m c 4
  ex
  send_wait 5 HcS5 HbA5 HaS1_5 | pay_sZa m c 5
  ex
  send_wait 27 HcS27 HbQx5 HaS1_27 | pay_sFx m c 5
  ex
  send_wait 43 HcS43 HbQy5 HaS1_43 | pay_sFy m c 5
  ex
  send_wait 6 HcS6 HbA6 HaS1_6 | pay_sZa m c 6
  ex
  send_wait 28 HcS28 HbQx6 HaS1_28 | pay_sFx m c 6
  ex
  send_wait 44 HcS44 HbQy6 HaS1_44 | pay_sFy m c 6
  ex
  send_wait 7 HcS7 HbA7 HaS1_7 | pay_sZa m c 7
  ex
  send_wait 29 HcS29 HbQx7 HaS1_29 | pay_sFx m c 7
  ex
  send_wait 45 HcS45 HbQy7 HaS1_45 | pay_sFy m c 7
  ex
  send_wait 8 HcS8 HbA8 HaS1_8 | pay_sZa m c 8
  ex
  send_wait 30 HcS30 HbQx8 HaS1_30 | pay_sFx m c 8
  ex
  send_wait 46 HcS46 HbQy8 HaS1_46 | pay_sFy m c 8
  ex
  send_wait 9 HcS9 HbA9 HaS1_9 | pay_sZa m c 9
  ex
  send_wait 31 HcS31 HbQx9 HaS1_31 | pay_sFx m c 9
  ex
  send_wait 47 HcS47 HbQy9 HaS1_47 | pay_sFy m c 9
  ex
  send_wait 10 HcS10 HbA10 HaS1_10 | pay_sZa m c 10
  ex
  send_wait 32 HcS32 HbQx10 HaS1_32 | pay_sFx m c 10
  ex
  send_wait 48 HcS48 HbQy10 HaS1_48 | pay_sFy m c 10
  ex
  send_wait 11 HcS11 HbA11 HaS1_11 | pay_sZa m c 11
  ex
  send_wait 33 HcS33 HbQx11 HaS1_33 | pay_sFx m c 11
  ex
  send_wait 49 HcS49 HbQy11 HaS1_49 | pay_sFy m c 11
  ex
  send_wait 12 HcS12 HbA12 HaS1_12 | pay_sZa m c 12
  ex
  send_wait 34 HcS34 HbQx12 HaS1_34 | pay_sFx m c 12
  ex
  send_wait 50 HcS50 HbQy12 HaS1_50 | pay_sFy m c 12
  ex
  send_wait 13 HcS13 HbA13 HaS1_13 | pay_sZa m c 13
  ex
  send_wait 35 HcS35 HbQx13 HaS1_35 | pay_sFx m c 13
  ex
  send_wait 51 HcS51 HbQy13 HaS1_51 | pay_sFy m c 13
  ex
  send_wait 14 HcS14 HbA14 HaS1_14 | pay_sZa m c 14
  ex
  send_wait 36 HcS36 HbQx14 HaS1_36 | pay_sFx m c 14
  ex
  send_wait 52 HcS52 HbQy14 HaS1_52 | pay_sFy m c 14
  ex
  send_wait 15 HcS15 HbA15 HaS1_15 | pay_sZa m c 15
  ex
  send_wait 37 HcS37 HbQx15 HaS1_37 | pay_sFx m c 15
  ex
  send_wait 53 HcS53 HbQy15 HaS1_53 | pay_sFy m c 15
  ex
  send_wait 16 HcS16 HbD0 HaS1_16 | pay_sZd m c 0
  ex
  send_wait 17 HcS17 HbD1 HaS1_17 | pay_sZd m c 1
  ex
  send_wait 18 HcS18 HbD2 HaS1_18 | pay_sZd m c 2
  ex
  send_wait 19 HcS19 HbD3 HaS1_19 | pay_sZd m c 3
  ex
  send_wait 20 HcS20 HbD4 HaS1_20 | pay_sZd m c 4
  ex
  send_wait 21 HcS21 HbD5 HaS1_21 | pay_sZd m c 5
  ex
  send_wait 54 HcS54 HbYx6 HaS1_54 | pay_sDx_6 m c
  ex
  send_wait 55 HcS55 HbYx7 HaS1_55 | pay_sDx_7 m c
  ex
  send_wait 56 HcS56 HbYx8 HaS1_56 | pay_sDx_8 m c
  ex
  send_wait 57 HcS57 HbYx9 HaS1_57 | pay_sDx_9 m c
  ex
  send_wait 58 HcS58 HbYx10 HaS1_58 | pay_sDx_10 m c
  ex
  send_wait 59 HcS59 HbXy11 HaS1_59 | pay_sDy_11 m c
  ex
  send_wait 60 HcS60 HbXy12 HaS1_60 | pay_sDy_12 m c
  ex
  send_wait 61 HcS61 HbXy13 HaS1_61 | pay_sDy_13 m c
  ex
  send_wait 62 HcS62 HbXy14 HaS1_62 | pay_sDy_14 m c
  ex
  send_wait_last 63 HcS63 HbXy15 HaS1_63 | pay_sDy_15 m c
  ex
  -- the end: everything the run leaves, leaf by leaf
  sl_step
  iapply Hk
  iapply (bodyPost_of_flat m K c)
  unfold bodyFlat
  isplitr; · iexact HRec
  leaf HaS1_0
  leaf HaS1_22
  leaf HaS1_38
  leaf HaS1_1
  leaf HaS1_23
  leaf HaS1_39
  leaf HaS1_2
  leaf HaS1_24
  leaf HaS1_40
  leaf HaS1_3
  leaf HaS1_25
  leaf HaS1_41
  leaf HaS1_4
  leaf HaS1_26
  leaf HaS1_42
  leaf HaS1_5
  leaf HaS1_27
  leaf HaS1_43
  leaf HaS1_6
  leaf HaS1_28
  leaf HaS1_44
  leaf HaS1_7
  leaf HaS1_29
  leaf HaS1_45
  leaf HaS1_8
  leaf HaS1_30
  leaf HaS1_46
  leaf HaS1_9
  leaf HaS1_31
  leaf HaS1_47
  leaf HaS1_10
  leaf HaS1_32
  leaf HaS1_48
  leaf HaS1_11
  leaf HaS1_33
  leaf HaS1_49
  leaf HaS1_12
  leaf HaS1_34
  leaf HaS1_50
  leaf HaS1_13
  leaf HaS1_35
  leaf HaS1_51
  leaf HaS1_14
  leaf HaS1_36
  leaf HaS1_52
  leaf HaS1_15
  leaf HaS1_37
  leaf HaS1_53
  leaf HaS1_16
  leaf HaS1_17
  leaf HaS1_18
  leaf HaS1_19
  leaf HaS1_20
  leaf HaS1_21
  leaf HaS1_54
  leaf HaS1_55
  leaf HaS1_56
  leaf HaS1_57
  leaf HaS1_58
  leaf HaS1_59
  leaf HaS1_60
  leaf HaS1_61
  leaf HaS1_62
  leaf HaS1_63
  leaf HaR1_0
  leaf HaR1_1
  leaf HaR1_2
  leaf HaR1_3
  leaf HaR1_4
  leaf HaR1_5
  leaf HaR1_6
  leaf HaR1_7
  leaf HaR1_8
  leaf HaR1_9
  leaf HaR1_10
  leaf HaR1_11
  leaf HaR1_12
  leaf HaR1_13
  leaf HaR1_14
  leaf HaR1_15
  leaf HaR1_44
  leaf HaR1_45
  leaf HaR1_46
  leaf HaR1_47
  leaf HaR1_48
  leaf HaR1_33
  leaf HaR1_34
  leaf HaR1_35
  leaf HaR1_36
  leaf HaR1_37
  leaf HaR1_38
  leaf HaR1_39
  leaf HaR1_40
  leaf HaR1_41
  leaf HaR1_42
  leaf HaR1_43
  leaf HaR1_49
  leaf HaR1_50
  leaf HaR1_51
  leaf HaR1_52
  leaf HaR1_53
  leaf HaR1_22
  leaf HaR1_23
  leaf HaR1_24
  leaf HaR1_25
  leaf HaR1_26
  leaf HaR1_27
  leaf HaR1_28
  leaf HaR1_29
  leaf HaR1_30
  leaf HaR1_31
  leaf HaR1_32
  leaf HaR1_16
  leaf HaR1_17
  leaf HaR1_18
  leaf HaR1_19
  leaf HaR1_20
  leaf HaR1_21
  leaf HaR1_54
  leaf HaR1_55
  leaf HaR1_56
  leaf HaR1_57
  leaf HaR1_58
  leaf HaR1_59
  leaf HaR1_60
  leaf HaR1_61
  leaf HaR1_62
  leaf HaR1_63
  leaf Hl0
  leaf Hl1
  leaf Hl2
  leaf Hl3
  leaf Hl4
  leaf Hl5
  leaf Hl6
  leaf Hl7
  leaf Hl8
  leaf Hl9
  leaf Hl10
  leaf Hl11
  leaf Hl12
  leaf Hl13
  leaf Hl14
  leaf Hl15
  leaf Hl16
  leaf Hl17
  leaf Hl18
  leaf Hl19
  leaf Hl20
  leaf Hl21
  leaf Hl22
  leaf Hl23
  leaf Hl24
  leaf Hl25
  leaf Hl26
  leaf Hl27
  leaf Hl28
  leaf Hl29
  isplitl [HO]; · (iexists _; iexact HO)
  pleaf HXq0
  pleaf HXq1
  pleaf HXq2
  pleaf HXq3
  pleaf HXq4
  pleaf HXq5
  pleaf HXq6
  pleaf HXq7
  pleaf HXq8
  pleaf HXq9
  pleaf HXq10
  pleaf HXq11
  pleaf HXq12
  pleaf HXq13
  pleaf HXq14
  pleaf HXq15
  pleaf HXd0
  pleaf HXd1
  pleaf HXd2
  pleaf HXd3
  pleaf HXd4
  pleaf HXd5
  pleaf HXl0
  pleaf HXl1
  pleaf HXl2
  pleaf HXl3
  leaf HbA0
  leaf HbA1
  leaf HbA2
  leaf HbA3
  leaf HbA4
  leaf HbA5
  leaf HbA6
  leaf HbA7
  leaf HbA8
  leaf HbA9
  leaf HbA10
  leaf HbA11
  leaf HbA12
  leaf HbA13
  leaf HbA14
  leaf HbA15
  leaf HbD0
  leaf HbD1
  leaf HbD2
  leaf HbD3
  leaf HbD4
  leaf HbD5
  leaf HbQx0
  leaf HbQy0
  pleaf HQk0
  leaf HbQx1
  leaf HbQy1
  pleaf HQk1
  leaf HbQx2
  leaf HbQy2
  pleaf HQk2
  leaf HbQx3
  leaf HbQy3
  pleaf HQk3
  leaf HbQx4
  leaf HbQy4
  pleaf HQk4
  leaf HbQx5
  leaf HbQy5
  pleaf HQk5
  leaf HbQx6
  leaf HbQy6
  pleaf HQk6
  leaf HbQx7
  leaf HbQy7
  pleaf HQk7
  leaf HbQx8
  leaf HbQy8
  pleaf HQk8
  leaf HbQx9
  leaf HbQy9
  pleaf HQk9
  leaf HbQx10
  leaf HbQy10
  pleaf HQk10
  leaf HbQx11
  leaf HbQy11
  pleaf HQk11
  leaf HbQx12
  leaf HbQy12
  pleaf HQk12
  leaf HbQx13
  leaf HbQy13
  pleaf HQk13
  leaf HbQx14
  leaf HbQy14
  pleaf HQk14
  leaf HbQx15
  leaf HbQy15
  pleaf HQk15
  pleaf HX0
  pleaf HX1
  pleaf HX2
  pleaf HX3
  pleaf HX4
  pleaf HX5
  pleaf HX6
  pleaf HX7
  pleaf HX8
  pleaf HX9
  pleaf HX10
  pleaf HXx11
  leaf HbXy11
  pleaf HXk11
  pleaf HXx12
  leaf HbXy12
  pleaf HXk12
  pleaf HXx13
  leaf HbXy13
  pleaf HXk13
  pleaf HXx14
  leaf HbXy14
  pleaf HXk14
  pleaf HXx15
  leaf HbXy15
  pleaf HXk15
  pleaf HY0
  pleaf HY1
  pleaf HY2
  pleaf HY3
  pleaf HY4
  pleaf HY5
  leaf HbYx6
  pleaf HYk6
  leaf HbYx7
  pleaf HYk7
  leaf HbYx8
  pleaf HYk8
  leaf HbYx9
  pleaf HYk9
  leaf HbYx10
  pleaf HYk10
  pleaf HY11
  pleaf HY12
  pleaf HY13
  pleaf HY14
  pleaf HY15
  pleaf HR0
  pleaf HR1
  pleaf HR2
  pleaf HR3
  pleaf HR4
  pleaf HR5
  pleaf HR6
  pleaf HR7
  pleaf HR8
  pleaf HR9
  pleaf HR10
  pleaf HR11
  pleaf HR12
  pleaf HR13
  pleaf HR14
  pleaf HR15
  pleaf HV0
  pleaf HV1
  pleaf HV2
  pleaf HV3
  leaf HWL0
  leaf HWL1
  leaf HWL2
  leaf HWL3
  leaf HWq0
  leaf HWq1
  leaf HWq2
  leaf HWq3
  leaf HWq4
  leaf HWq5
  leaf HWq6
  leaf HWq7
  leaf HWq8
  leaf HWq9
  leaf HWq10
  leaf HWq11
  leaf HWq12
  leaf HWq13
  leaf HWq14
  leaf HWq15
  leaf HWd0
  leaf HWd1
  leaf HWd2
  leaf HWd3
  leaf HWd4
  leaf HWd5
  leaf Hrest
  iapply (out_leaf4 m c _ _ _ _)
  isplitl [HOq0 HOq1 HOq2 HOq3]
  · isplitl [HOq0]; · iexact HOq0
    isplitl [HOq1]; · iexact HOq1
    isplitl [HOq2]; · iexact HOq2
    iexact HOq3
  ipureintro
  refine ⟨?_, ?_, ?_, ?_⟩
  · refine quarter_leaf m c 0 _ _ ?_
    sl_unfold_run_names
    sl_unfold_run_names
    sl_unfold_run_names
    sl_unfold_run_names
    quarter_tac
  · refine quarter_leaf m c 1 _ _ ?_
    sl_unfold_run_names
    sl_unfold_run_names
    sl_unfold_run_names
    sl_unfold_run_names
    quarter_tac
  · refine quarter_leaf m c 2 _ _ ?_
    sl_unfold_run_names
    sl_unfold_run_names
    sl_unfold_run_names
    sl_unfold_run_names
    quarter_tac
  · refine quarter_leaf m c 3 _ _ ?_
    sl_unfold_run_names
    sl_unfold_run_names
    sl_unfold_run_names
    sl_unfold_run_names
    quarter_tac

/-- The body runs, from the pieces as BodyCtx.lean states them. -/
theorem body_run : BodyRuns m := by
  intro K c W Kt
  unfold bodyPre
  iintro ⟨⟨Hg, Hcb, HcR, Hlev, Hloc, ⟨%f0, %f1, %f2, %f3, %f4, %fq, %fx, %fy, %fr, %f9, Hscr⟩, Harg, Hout⟩, HO, Hk⟩
  iapply (body_run' m K c W Kt f0 f1 f2 f3 f4 fq fx fy fr f9)
  isplitl [Hg Hcb HcR Hlev Hloc Hscr Harg Hout]
  · isplitl [Hg]; · iexact Hg
    isplitl [Hcb]; · iexact Hcb
    isplitl [HcR]; · iexact HcR
    isplitl [Hlev]; · iexact Hlev
    isplitl [Hloc]; · iexact Hloc
    isplitl [Hscr]; · iexact Hscr
    isplitl [Harg]; · iexact Harg
    iexact Hout
  isplitl [HO]; · iexact HO
  iexact Hk

end Cert.Kernel.Rs

end
-- ==== Proof.FinalIdx.lean ====
/- Where the pieces of the reduction sit in the argument and in the result.
   The 4096 rows are four quarters of 1024. A device at mesh coordinates (x, y, z) owns the quarter that starts at
   row 2048 x + 1024 y; its y-neighbour's quarter starts at 2048 x + 1024 (1 - y), its x-neighbour's at
   2048 (1 - x) + 1024 y, the diagonal device's at 3072 - (2048 x + 1024 y). The 2048 columns are two halves: the
   device's own half starts at column 1024 z, the other at 1024 - 1024 z, which is the own half of the device
   with the other z. The windows of the argument the kernel copies from are read here entry by entry, and the
   starts of the rows and columns are compared across the neighbours: each fact about devices alone is checked
   on the eight devices. -/
import proofs.«901030_g7700000000001031_dist_rs_v7x_xyz2x2x2_z_m4096_n1024_bf16_1_alg».proof.Proof.Views
import Idealize.ShloMosaic.Lib.Pipeline.Value
import Idealize.ShloMosaic.Lib.ValueLayout
import Idealize.ShloMosaic.Lib.ValueIdx

noncomputable section

namespace Cert.KernelIdeal.Rs

open Cert.KernelIdeal Cert.KernelIdeal.Gen
open Idealize.ShloMosaic Idealize.ShloMosaic.ValueIdx

/-! ## Row and column starts -/

/-- Where the device's own quarter of the rows starts; -/
def qrow (d : Dev nD) : Nat := 2048 * (d.val / 4) + 1024 * ((d.val / 2) % 2)
/-- its y-neighbour's, -/
def qrowY (d : Dev nD) : Nat := (2048 * (d.val / 4) + 1024) - 1024 * ((d.val / 2) % 2)
/-- its x-neighbour's, -/
def qrowX (d : Dev nD) : Nat := (1024 * ((d.val / 2) % 2) + 2048) - 2048 * (d.val / 4)
/-- and the diagonal device's. -/
def qrowD (d : Dev nD) : Nat := 3072 - (2048 * (d.val / 4) + 1024 * ((d.val / 2) % 2))
/-- The four, by quarter: own, y-neighbour's, x-neighbour's, diagonal. -/
def lrow (d : Dev nD) (k : Fin 4) : Nat := match k with | 0 => qrow d | 1 => qrowY d | 2 => qrowX d | 3 => qrowD d
/-- Where the device's own half of the columns starts, and the other half. -/
def ocol (d : Dev nD) : Nat := 1024 * (d.val % 2)
def xcol (d : Dev nD) : Nat := 1024 - 1024 * (d.val % 2)

theorem qrow_le (d : Dev nD) : qrow d + 1024 ≤ 4096 := by revert d; decide
theorem qrowY_le (d : Dev nD) : qrowY d + 1024 ≤ 4096 := by revert d; decide
theorem qrowX_le (d : Dev nD) : qrowX d + 1024 ≤ 4096 := by revert d; decide
theorem qrowD_le (d : Dev nD) : qrowD d + 1024 ≤ 4096 := by revert d; decide
theorem lrow_le (d : Dev nD) (k : Fin 4) : lrow d k + 1024 ≤ 4096 := by revert d k; decide
theorem ocol_le (d : Dev nD) : ocol d + 1024 ≤ 2048 := by revert d; decide
theorem xcol_le (d : Dev nD) : xcol d + 1024 ≤ 2048 := by revert d; decide

/-- The neighbours' quarters are the neighbours' own quarters; -/
theorem qrowY_eq (d : Dev nD) : qrowY d = qrow (yn d) := by revert d; decide
theorem qrowX_eq (d : Dev nD) : qrowX d = qrow (xn d) := by revert d; decide
theorem qrowD_eq (d : Dev nD) : qrowD d = qrow (xn (yn d)) := by revert d; decide
/-- the device with the other z owns the same quarter, -/
theorem qrow_zp (d : Dev nD) : qrow (zp d) = qrow d := by revert d; decide
theorem qrowD_zp (d : Dev nD) : qrowD (zp d) = qrowD d := by revert d; decide
/-- and its other half of the columns is this device's own half; -/
theorem xcol_zp (d : Dev nD) : xcol (zp d) = ocol d := by revert d; decide
theorem ocol_zp (d : Dev nD) : ocol (zp d) = xcol d := by revert d; decide
/-- the x- and y-neighbours have this device's halves. -/
theorem ocol_xn (d : Dev nD) : ocol (xn d) = ocol d := by revert d; decide
theorem ocol_yn (d : Dev nD) : ocol (yn d) = ocol d := by revert d; decide
theorem xcol_xn (d : Dev nD) : xcol (xn d) = xcol d := by revert d; decide
theorem xcol_yn (d : Dev nD) : xcol (yn d) = xcol d := by revert d; decide
theorem z_xn (d : Dev nD) : (xn d).val % 2 = d.val % 2 := by revert d; decide
theorem z_yn (d : Dev nD) : (yn d).val % 2 = d.val % 2 := by revert d; decide
theorem z_zp (d : Dev nD) : (zp d).val % 2 = 1 - d.val % 2 := by revert d; decide
/-- The four quarters of a device are the four quarters of the rows, each once. -/
theorem lrow_inj (d : Dev nD) (k k' : Fin 4) (h : lrow d k = lrow d k') : k = k' := by revert d k k'; decide

/-- Where quarter `k` of the result starts: at the rows of that quarter, at column 0. -/
theorem lrow_offO_row (c : Dev nD) (k : Fin 4) : (offO c k) 0 = lrow c k := by
  match k with
  | 0 => exact (congrFun (k0_off8_eq c) 0)
  | 1 => exact (congrFun (k0_off10_eq c) 0)
  | 2 => exact (congrFun (k0_off12_eq c) 0)
  | 3 => exact (congrFun (k0_off14_eq c) 0)
theorem lrow_offO_col (c : Dev nD) (k : Fin 4) : (offO c k) 1 = 0 := by
  match k with
  | 0 => exact (congrFun (k0_off8_eq c) 1)
  | 1 => exact (congrFun (k0_off10_eq c) 1)
  | 2 => exact (congrFun (k0_off12_eq c) 1)
  | 3 => exact (congrFun (k0_off14_eq c) 1)

/-! ## The argument read through a window -/

/-- The argument read through the squeeze of a [1, n, m] window at offsets `off`: entry (r, j) of the window is
    entry (0, off 1 + r, off 2 + j) of the argument. -/
theorem read_arg_window {Val : EltTy → Type} (off : Fin 3 → Nat) (n m : Nat)
    (inb : ∀ a, off a + (![1, n, m] : Fin 3 → Nat) a ≤ S1x4096x2048.size a)
    (hq : (⟨3, ![1, n, m]⟩ : Shape).Squeezes ⟨2, ![n, m]⟩)
    (f : S1x4096x2048.Idx → Val .f32) (r : Fin n) (j : Fin m) (R : Fin 4096) (C : Fin 2048)
    (h0 : off 0 = 0) (hR : R.val = off 1 + r.val) (hC : C.val = off 2 + j.val) :
    (((Memref.whole main_arg0).slice (Rect.unit (s := S1x4096x2048) off ![1, n, m] inb) (fun _ => rfl)).squeeze ⟨2, ![n, m]⟩ hq).view.read Val f (ix2 r j)
      = f (ix3 (0 : Fin 1) R C) := by
  refine (congrFun (Memref.read_squeeze_slice (Val := Val) (Memref.whole main_arg0)
    (Rect.unit (s := S1x4096x2048) off ![1, n, m] inb) (fun _ => rfl) hq hq.numel_eq f) (ix2 r j)).trans ?_
  refine (shapeCast_1ab_ab_apply _ _ r j).trans ?_
  show f _ = f _
  refine congrArg f (funext fun a => Fin.ext ?_)
  match a with
  | ⟨0, _⟩ => show off 0 + 1 * 0 = 0; omega
  | ⟨1, _⟩ => show off 1 + 1 * r.val = R.val; omega
  | ⟨2, _⟩ => show off 2 + 1 * j.val = C.val; omega

/-- Block `s` of the own quarter, other half of the columns: entry (r, j) is the argument's entry
    (0, own quarter's start + 64 s + r, other half's start + j). -/
theorem wQ_read {Val : EltTy → Type} (d : Dev nD) (s : Fin 16) (f : S1x4096x2048.Idx → Val .f32) (r : Fin 64) (j : Fin 1024) :
    (wQ d s).view.read Val f (ix2 r j)
      = f (ix3 (0 : Fin 1) (⟨qrow d + 64 * s.val + r.val, by have := qrow_le d; have := s.isLt; have := r.isLt; omega⟩ : Fin 4096)
          (⟨xcol d + j.val, by have := xcol_le d; have := j.isLt; omega⟩ : Fin 2048)) :=
  read_arg_window (k0_off5 d (BitVec.ofNat 32 (64 * s.val))) 64 1024 (k0_off5_inb d s) squeezes_S1x64x1024_S64x1024 f r j _ _
    (congrFun (k0_off5_eq d s) 0) (congrArg (· + r.val) (congrFun (k0_off5_eq d s) 1)).symm
    (congrArg (· + j.val) (congrFun (k0_off5_eq d s) 2)).symm

/-- Block `t` of the diagonal quarter's first six blocks, other half of the columns. -/
theorem wD_read {Val : EltTy → Type} (d : Dev nD) (t : Fin 6) (f : S1x4096x2048.Idx → Val .f32) (r : Fin 64) (j : Fin 1024) :
    (wD d t).view.read Val f (ix2 r j)
      = f (ix3 (0 : Fin 1) (⟨(64 * t.val + 3072) - qrow d + r.val, by have := qrow_le d; have := t.isLt; have := r.isLt; omega⟩ : Fin 4096)
          (⟨xcol d + j.val, by have := xcol_le d; have := j.isLt; omega⟩ : Fin 2048)) :=
  read_arg_window (k0_off6 d (BitVec.ofNat 32 (64 * t.val))) 64 1024 (k0_off6_inb d t) squeezes_S1x64x1024_S64x1024 f r j _ _
    (congrFun (k0_off6_eq d t) 0) (congrArg (· + r.val) (congrFun (k0_off6_eq d t) 1)).symm
    (congrArg (· + j.val) (congrFun (k0_off6_eq d t) 2)).symm

/-- Plane `k` of the local copy reads quarter `k` of the rows (own, y-neighbour's, x-neighbour's, diagonal for
    k = 0, 1, 2, 3: `lrow d k`), the device's own half of the columns. One statement per plane: which window a
    plane reads is decided by the literal `k`. -/
theorem wL0_read {Val : EltTy → Type} (d : Dev nD) (f : S1x4096x2048.Idx → Val .f32) (r : Fin 1024) (j : Fin 1024) :
    (wL d 0).view.read Val f (ix2 r j)
      = f (ix3 (0 : Fin 1) (⟨qrow d + r.val, by have := qrow_le d; have := r.isLt; omega⟩ : Fin 4096)
          (⟨ocol d + j.val, by have := ocol_le d; have := j.isLt; omega⟩ : Fin 2048)) :=
  read_arg_window (k0_off1 d) 1024 1024 (k0_off1_inb d) squeezes_S1x1024x1024_S1024x1024 f r j _ _
    (congrFun (k0_off1_eq d) 0) (congrArg (· + r.val) (congrFun (k0_off1_eq d) 1)).symm
    (congrArg (· + j.val) (congrFun (k0_off1_eq d) 2)).symm

theorem wL1_read {Val : EltTy → Type} (d : Dev nD) (f : S1x4096x2048.Idx → Val .f32) (r : Fin 1024) (j : Fin 1024) :
    (wL d 1).view.read Val f (ix2 r j)
      = f (ix3 (0 : Fin 1) (⟨qrowY d + r.val, by have := qrowY_le d; have := r.isLt; omega⟩ : Fin 4096)
          (⟨ocol d + j.val, by have := ocol_le d; have := j.isLt; omega⟩ : Fin 2048)) :=
  read_arg_window (k0_off2 d) 1024 1024 (k0_off2_inb d) squeezes_S1x1024x1024_S1024x1024 f r j _ _
    (congrFun (k0_off2_eq d) 0) (congrArg (· + r.val) (congrFun (k0_off2_eq d) 1)).symm
    (congrArg (· + j.val) (congrFun (k0_off2_eq d) 2)).symm

theorem wL2_read {Val : EltTy → Type} (d : Dev nD) (f : S1x4096x2048.Idx → Val .f32) (r : Fin 1024) (j : Fin 1024) :
    (wL d 2).view.read Val f (ix2 r j)
      = f (ix3 (0 : Fin 1) (⟨qrowX d + r.val, by have := qrowX_le d; have := r.isLt; omega⟩ : Fin 4096)
          (⟨ocol d + j.val, by have := ocol_le d; have := j.isLt; omega⟩ : Fin 2048)) :=
  read_arg_window (k0_off3 d) 1024 1024 (k0_off3_inb d) squeezes_S1x1024x1024_S1024x1024 f r j _ _
    (congrFun (k0_off3_eq d) 0) (congrArg (· + r.val) (congrFun (k0_off3_eq d) 1)).symm
    (congrArg (· + j.val) (congrFun (k0_off3_eq d) 2)).symm

theorem wL3_read {Val : EltTy → Type} (d : Dev nD) (f : S1x4096x2048.Idx → Val .f32) (r : Fin 1024) (j : Fin 1024) :
    (wL d 3).view.read Val f (ix2 r j)
      = f (ix3 (0 : Fin 1) (⟨qrowD d + r.val, by have := qrowD_le d; have := r.isLt; omega⟩ : Fin 4096)
          (⟨ocol d + j.val, by have := ocol_le d; have := j.isLt; omega⟩ : Fin 2048)) :=
  read_arg_window (k0_off4 d) 1024 1024 (k0_off4_inb d) squeezes_S1x1024x1024_S1024x1024 f r j _ _
    (congrFun (k0_off4_eq d) 0) (congrArg (· + r.val) (congrFun (k0_off4_eq d) 1)).symm
    (congrArg (· + j.val) (congrFun (k0_off4_eq d) 2)).symm

/-- The window reads at the devices' argument buffers of a memory `m`, at the ideal instance. -/
example (m : (ℓ : Loc nD τ sig) → Buf (Elt Ideal) ℓ) (d : Dev nD) (s : Fin 16) (r : Fin 64) (j : Fin 1024) :
    (wQ d s).view.read (Elt Ideal) (m ((d.tc : Thread nD τ).loc main_arg0)) (ix2 r j)
      = m ((d.tc : Thread nD τ).loc main_arg0) (ix3 (0 : Fin 1)
          (⟨qrow d + 64 * s.val + r.val, by have := qrow_le d; have := s.isLt; have := r.isLt; omega⟩ : Fin 4096)
          (⟨xcol d + j.val, by have := xcol_le d; have := j.isLt; omega⟩ : Fin 2048)) :=
  wQ_read d s _ r j

/-- info: 'Cert.KernelIdeal.Rs.wQ_read' depends on axioms: [propext, Classical.choice, Quot.sound] -/
#guard_msgs in #print axioms wQ_read
/-- info: 'Cert.KernelIdeal.Rs.wL3_read' depends on axioms: [propext, Classical.choice, Quot.sound] -/
#guard_msgs in #print axioms wL3_read

end Cert.KernelIdeal.Rs

end
-- ==== Proof.ValPay.lean ====
/- The kernel's arithmetic on a block, read entry by entry on extended reals.
   Ten shapes of arithmetic occur among the kernel's payload functions. On extended reals a change of format
   is the identity and a cast of a block to its own shape is the identity; a cast of a [1, 64, 1024] block to
   [64, 1024] reads, at (r, j), the entry (0, r, j); an add is the sum of the two entries. Each shape is read
   once, for any block; each payload function is then one of the ten, by unfolding. -/
import proofs.«901030_g7700000000001031_dist_rs_v7x_xyz2x2x2_z_m4096_n1024_bf16_1_alg».proof.Proof.Gen.KernelIdeal.Skeleton
import Idealize.ShloMosaic.Lib.Pipeline.Value
import Idealize.ShloMosaic.Lib.ValueLayout
import Idealize.ShloMosaic.Lib.ValueIdx

noncomputable section

namespace Cert.KernelIdeal.Rs

open Cert.KernelIdeal Cert.KernelIdeal.Gen
open Idealize.ShloMosaic Idealize.ShloMosaic.ValueIdx

/-! ## The ten shapes -/

/-- A change of format, then a cast to the same shape: the identity. -/
theorem cast_trunc_at (v : Vec Ideal S64x1024 .f32) (h1 : FTy.bits .bf16 < FTy.bits .f32) (h2 : S64x1024.ShapeCasts S64x1024)
    (i : S64x1024.Idx) :
    shapeCast S64x1024 (truncf .bf16 v h1 : FVec Ideal S64x1024 .bf16) h2 i = v i :=
  congrFun (shapeCast_self _ h2) i

/-- A cast to the same shape: the identity. -/
theorem cast_self_at (v : FVec Ideal S64x1024 .bf16) (h2 : S64x1024.ShapeCasts S64x1024) (i : S64x1024.Idx) :
    shapeCast S64x1024 v h2 i = v i :=
  congrFun (shapeCast_self _ h2) i

/-- A cast that drops the leading unit axis reads the entry behind it. -/
theorem cast_drop_at (a : Vec Ideal S1x64x1024 .f32) (h3 : S1x64x1024.ShapeCasts S64x1024) (r : Fin 64) (j : Fin 1024) :
    (shapeCast S64x1024 a h3 : FVec Ideal S64x1024 .f32) (ix2 r j) = a (ix3 (0 : Fin 1) r j) :=
  shapeCast_1ab_ab_apply a h3 r j

/-- The f32 block behind a unit axis plus the bf16 block: the sum of the two entries. (A change of format of the
    sum afterwards changes nothing.) -/
theorem add_drop_at (a : Vec Ideal S1x64x1024 .f32) (b : Vec Ideal S64x1024 .bf16) (h1 : FTy.bits .bf16 < FTy.bits .f32)
    (h3 : S1x64x1024.ShapeCasts S64x1024) (r : Fin 64) (j : Fin 1024) :
    (addf (shapeCast S64x1024 a h3 : FVec Ideal S64x1024 .f32) (extf .f32 b h1) : FVec Ideal S64x1024 .f32) (ix2 r j)
      = (show EReal from a (ix3 (0 : Fin 1) r j)) + (show EReal from b (ix2 r j)) := by
  show (show EReal from (shapeCast S64x1024 a h3 : FVec Ideal S64x1024 .f32) (ix2 r j)) + (show EReal from b (ix2 r j)) = _
  rw [cast_drop_at a h3 r j]

/-- The same, the format changed back and the block cast to its own shape afterwards. -/
theorem add_drop_cast_at (a : Vec Ideal S1x64x1024 .f32) (b : Vec Ideal S64x1024 .bf16) (h1 : FTy.bits .bf16 < FTy.bits .f32)
    (h2 : S64x1024.ShapeCasts S64x1024) (h3 : S1x64x1024.ShapeCasts S64x1024) (r : Fin 64) (j : Fin 1024) :
    shapeCast S64x1024 (truncf .bf16 (addf (shapeCast S64x1024 a h3 : FVec Ideal S64x1024 .f32) (extf .f32 b h1)) h1 : FVec Ideal S64x1024 .bf16) h2 (ix2 r j)
      = (show EReal from a (ix3 (0 : Fin 1) r j)) + (show EReal from b (ix2 r j)) :=
  (congrFun (shapeCast_self _ h2) (ix2 r j)).trans (add_drop_at a b h1 h3 r j)

/-- An f32 block plus a bf16 block of the same shape, the format changed back, cast to its own shape: the sum. -/
theorem add_cast_at (a : FVec Ideal S64x1024 .f32) (b : Vec Ideal S64x1024 .bf16) (h1 : FTy.bits .bf16 < FTy.bits .f32)
    (h2 : S64x1024.ShapeCasts S64x1024) (i : S64x1024.Idx) :
    shapeCast S64x1024 (truncf .bf16 (addf a (extf .f32 b h1)) h1 : FVec Ideal S64x1024 .bf16) h2 i
      = (show EReal from a i) + (show EReal from b i) :=
  congrFun (shapeCast_self _ h2) i

/-- Two f32 blocks added, the format changed, cast to its own shape: the sum. -/
theorem add2_cast_at (a b : FVec Ideal S64x1024 .f32) (h1 : FTy.bits .bf16 < FTy.bits .f32)
    (h2 : S64x1024.ShapeCasts S64x1024) (i : S64x1024.Idx) :
    shapeCast S64x1024 (truncf .bf16 (addf a b) h1 : FVec Ideal S64x1024 .bf16) h2 i
      = (show EReal from a i) + (show EReal from b i) :=
  congrFun (shapeCast_self _ h2) i

/-! ## The payload functions, one by one -/

theorem k0_pay1_apply (v : Vec Ideal S64x1024 .f32) (i : S64x1024.Idx) : k0_pay1 (F := Ideal) v i = v i := cast_trunc_at v _ _ i
theorem k0_pay2_apply (v : Vec Ideal S64x1024 .f32) (i : S64x1024.Idx) : k0_pay2 (F := Ideal) v i = v i := cast_trunc_at v _ _ i
theorem k0_pay3_apply (v : Vec Ideal S64x1024 .f32) (i : S64x1024.Idx) : k0_pay3 (F := Ideal) v i = v i := cast_trunc_at v _ _ i
theorem k0_pay4_apply (v : Vec Ideal S64x1024 .f32) (i : S64x1024.Idx) : k0_pay4 (F := Ideal) v i = v i := cast_trunc_at v _ _ i
theorem k0_pay5_apply (v : Vec Ideal S64x1024 .f32) (i : S64x1024.Idx) : k0_pay5 (F := Ideal) v i = v i := cast_trunc_at v _ _ i
theorem k0_pay6_apply (v : Vec Ideal S64x1024 .f32) (i : S64x1024.Idx) : k0_pay6 (F := Ideal) v i = v i := cast_trunc_at v _ _ i
theorem k0_pay7_apply (v : Vec Ideal S64x1024 .f32) (i : S64x1024.Idx) : k0_pay7 (F := Ideal) v i = v i := cast_trunc_at v _ _ i
theorem k0_pay8_apply (v : Vec Ideal S64x1024 .f32) (i : S64x1024.Idx) : k0_pay8 (F := Ideal) v i = v i := cast_trunc_at v _ _ i
theorem k0_pay9_apply (v : Vec Ideal S64x1024 .f32) (i : S64x1024.Idx) : k0_pay9 (F := Ideal) v i = v i := cast_trunc_at v _ _ i
theorem k0_pay10_apply (v : Vec Ideal S64x1024 .f32) (i : S64x1024.Idx) : k0_pay10 (F := Ideal) v i = v i := cast_trunc_at v _ _ i
theorem k0_pay11_apply (v : Vec Ideal S64x1024 .f32) (i : S64x1024.Idx) : k0_pay11 (F := Ideal) v i = v i := cast_trunc_at v _ _ i
theorem k0_pay12_apply (v : Vec Ideal S64x1024 .f32) (i : S64x1024.Idx) : k0_pay12 (F := Ideal) v i = v i := cast_trunc_at v _ _ i
theorem k0_pay13_apply (v : Vec Ideal S64x1024 .f32) (i : S64x1024.Idx) : k0_pay13 (F := Ideal) v i = v i := cast_trunc_at v _ _ i
theorem k0_pay14_apply (v : Vec Ideal S64x1024 .f32) (i : S64x1024.Idx) : k0_pay14 (F := Ideal) v i = v i := cast_trunc_at v _ _ i
theorem k0_pay15_apply (v : Vec Ideal S64x1024 .f32) (i : S64x1024.Idx) : k0_pay15 (F := Ideal) v i = v i := cast_trunc_at v _ _ i
theorem k0_pay16_apply (v : Vec Ideal S64x1024 .f32) (i : S64x1024.Idx) : k0_pay16 (F := Ideal) v i = v i := cast_trunc_at v _ _ i
theorem k0_pay17_apply (v : Vec Ideal S64x1024 .f32) (i : S64x1024.Idx) : k0_pay17 (F := Ideal) v i = v i := cast_trunc_at v _ _ i
theorem k0_pay18_apply (v : Vec Ideal S64x1024 .f32) (i : S64x1024.Idx) : k0_pay18 (F := Ideal) v i = v i := cast_trunc_at v _ _ i
theorem k0_pay19_apply (v : Vec Ideal S64x1024 .f32) (i : S64x1024.Idx) : k0_pay19 (F := Ideal) v i = v i := cast_trunc_at v _ _ i
theorem k0_pay20_apply (v : Vec Ideal S64x1024 .f32) (i : S64x1024.Idx) : k0_pay20 (F := Ideal) v i = v i := cast_trunc_at v _ _ i
theorem k0_pay21_apply (v : Vec Ideal S64x1024 .f32) (i : S64x1024.Idx) : k0_pay21 (F := Ideal) v i = v i := cast_trunc_at v _ _ i
theorem k0_pay22_apply (v : Vec Ideal S64x1024 .f32) (i : S64x1024.Idx) : k0_pay22 (F := Ideal) v i = v i := cast_trunc_at v _ _ i
theorem k0_pay23_apply (a : Vec Ideal S1x64x1024 .f32) (b : Vec Ideal S64x1024 .bf16) (r : Fin 64) (j : Fin 1024) : k0_pay23 (F := Ideal) a b (ix2 r j) = (show EReal from a (ix3 (0 : Fin 1) r j)) + (show EReal from b (ix2 r j)) := add_drop_cast_at a b _ _ _ r j
theorem k0_pay24_apply (a : Vec Ideal S1x64x1024 .f32) (b : Vec Ideal S64x1024 .bf16) (r : Fin 64) (j : Fin 1024) : k0_pay24 (F := Ideal) a b (ix2 r j) = (show EReal from a (ix3 (0 : Fin 1) r j)) + (show EReal from b (ix2 r j)) := add_drop_cast_at a b _ _ _ r j
theorem k0_pay25_apply (a : Vec Ideal S1x64x1024 .f32) (b : Vec Ideal S64x1024 .bf16) (r : Fin 64) (j : Fin 1024) : k0_pay25 (F := Ideal) a b (ix2 r j) = (show EReal from a (ix3 (0 : Fin 1) r j)) + (show EReal from b (ix2 r j)) := add_drop_cast_at a b _ _ _ r j
theorem k0_pay26_apply (a : Vec Ideal S1x64x1024 .f32) (b : Vec Ideal S64x1024 .bf16) (r : Fin 64) (j : Fin 1024) : k0_pay26 (F := Ideal) a b (ix2 r j) = (show EReal from a (ix3 (0 : Fin 1) r j)) + (show EReal from b (ix2 r j)) := add_drop_cast_at a b _ _ _ r j
theorem k0_pay27_apply (a : Vec Ideal S1x64x1024 .f32) (b : Vec Ideal S64x1024 .bf16) (r : Fin 64) (j : Fin 1024) : k0_pay27 (F := Ideal) a b (ix2 r j) = (show EReal from a (ix3 (0 : Fin 1) r j)) + (show EReal from b (ix2 r j)) := add_drop_cast_at a b _ _ _ r j
theorem k0_pay28_apply (a : Vec Ideal S1x64x1024 .f32) (r : Fin 64) (j : Fin 1024) : k0_pay28 (F := Ideal) a (ix2 r j) = a (ix3 (0 : Fin 1) r j) := cast_drop_at a _ r j
theorem k0_pay29_apply (a : FVec Ideal S64x1024 .f32) (b : Vec Ideal S64x1024 .bf16) (i : S64x1024.Idx) : k0_pay29 (F := Ideal) a b i = (show EReal from a i) + (show EReal from b i) := add_cast_at a b _ _ i
theorem k0_pay30_apply (a : Vec Ideal S1x64x1024 .f32) (b : Vec Ideal S64x1024 .bf16) (r : Fin 64) (j : Fin 1024) : k0_pay30 (F := Ideal) a b (ix2 r j) = (show EReal from a (ix3 (0 : Fin 1) r j)) + (show EReal from b (ix2 r j)) := add_drop_cast_at a b _ _ _ r j
theorem k0_pay31_apply (a : Vec Ideal S1x64x1024 .f32) (r : Fin 64) (j : Fin 1024) : k0_pay31 (F := Ideal) a (ix2 r j) = a (ix3 (0 : Fin 1) r j) := cast_drop_at a _ r j
theorem k0_pay32_apply (b : Vec Ideal S64x1024 .bf16) (i : S64x1024.Idx) : k0_pay32 (F := Ideal) b i = b i := rfl
theorem k0_pay33_apply (a b : FVec Ideal S64x1024 .f32) (i : S64x1024.Idx) : k0_pay33 (F := Ideal) a b i = (show EReal from a i) + (show EReal from b i) := add2_cast_at a b _ _ i
theorem k0_pay34_apply (a : Vec Ideal S1x64x1024 .f32) (b : Vec Ideal S64x1024 .bf16) (r : Fin 64) (j : Fin 1024) : k0_pay34 (F := Ideal) a b (ix2 r j) = (show EReal from a (ix3 (0 : Fin 1) r j)) + (show EReal from b (ix2 r j)) := add_drop_cast_at a b _ _ _ r j
theorem k0_pay35_apply (a : Vec Ideal S1x64x1024 .f32) (b : Vec Ideal S64x1024 .bf16) (r : Fin 64) (j : Fin 1024) : k0_pay35 (F := Ideal) a b (ix2 r j) = (show EReal from a (ix3 (0 : Fin 1) r j)) + (show EReal from b (ix2 r j)) := add_drop_at a b _ _ r j
theorem k0_pay36_apply (v : FVec Ideal S64x1024 .bf16) (i : S64x1024.Idx) : k0_pay36 (F := Ideal) v i = v i := cast_self_at v _ i
theorem k0_pay37_apply (a : Vec Ideal S1x64x1024 .f32) (b : Vec Ideal S64x1024 .bf16) (r : Fin 64) (j : Fin 1024) : k0_pay37 (F := Ideal) a b (ix2 r j) = (show EReal from a (ix3 (0 : Fin 1) r j)) + (show EReal from b (ix2 r j)) := add_drop_cast_at a b _ _ _ r j
theorem k0_pay38_apply (a : Vec Ideal S1x64x1024 .f32) (b : Vec Ideal S64x1024 .bf16) (r : Fin 64) (j : Fin 1024) : k0_pay38 (F := Ideal) a b (ix2 r j) = (show EReal from a (ix3 (0 : Fin 1) r j)) + (show EReal from b (ix2 r j)) := add_drop_at a b _ _ r j
theorem k0_pay39_apply (v : FVec Ideal S64x1024 .bf16) (i : S64x1024.Idx) : k0_pay39 (F := Ideal) v i = v i := cast_self_at v _ i
theorem k0_pay40_apply (a : Vec Ideal S1x64x1024 .f32) (b : Vec Ideal S64x1024 .bf16) (r : Fin 64) (j : Fin 1024) : k0_pay40 (F := Ideal) a b (ix2 r j) = (show EReal from a (ix3 (0 : Fin 1) r j)) + (show EReal from b (ix2 r j)) := add_drop_cast_at a b _ _ _ r j
theorem k0_pay41_apply (a : Vec Ideal S1x64x1024 .f32) (b : Vec Ideal S64x1024 .bf16) (r : Fin 64) (j : Fin 1024) : k0_pay41 (F := Ideal) a b (ix2 r j) = (show EReal from a (ix3 (0 : Fin 1) r j)) + (show EReal from b (ix2 r j)) := add_drop_cast_at a b _ _ _ r j
theorem k0_pay42_apply (a : Vec Ideal S1x64x1024 .f32) (b : Vec Ideal S64x1024 .bf16) (r : Fin 64) (j : Fin 1024) : k0_pay42 (F := Ideal) a b (ix2 r j) = (show EReal from a (ix3 (0 : Fin 1) r j)) + (show EReal from b (ix2 r j)) := add_drop_cast_at a b _ _ _ r j
theorem k0_pay43_apply (a : Vec Ideal S1x64x1024 .f32) (b : Vec Ideal S64x1024 .bf16) (r : Fin 64) (j : Fin 1024) : k0_pay43 (F := Ideal) a b (ix2 r j) = (show EReal from a (ix3 (0 : Fin 1) r j)) + (show EReal from b (ix2 r j)) := add_drop_cast_at a b _ _ _ r j
theorem k0_pay44_apply (a : Vec Ideal S1x64x1024 .f32) (b : Vec Ideal S64x1024 .bf16) (r : Fin 64) (j : Fin 1024) : k0_pay44 (F := Ideal) a b (ix2 r j) = (show EReal from a (ix3 (0 : Fin 1) r j)) + (show EReal from b (ix2 r j)) := add_drop_cast_at a b _ _ _ r j
theorem k0_pay45_apply (a : Vec Ideal S1x64x1024 .f32) (b : Vec Ideal S64x1024 .bf16) (r : Fin 64) (j : Fin 1024) : k0_pay45 (F := Ideal) a b (ix2 r j) = (show EReal from a (ix3 (0 : Fin 1) r j)) + (show EReal from b (ix2 r j)) := add_drop_at a b _ _ r j
theorem k0_pay46_apply (v : FVec Ideal S64x1024 .f32) (i : S64x1024.Idx) : k0_pay46 (F := Ideal) v i = v i := cast_trunc_at v _ _ i
theorem k0_pay47_apply (a : Vec Ideal S1x64x1024 .f32) (b : Vec Ideal S64x1024 .bf16) (r : Fin 64) (j : Fin 1024) : k0_pay47 (F := Ideal) a b (ix2 r j) = (show EReal from a (ix3 (0 : Fin 1) r j)) + (show EReal from b (ix2 r j)) := add_drop_cast_at a b _ _ _ r j
theorem k0_pay48_apply (a : Vec Ideal S1x64x1024 .f32) (b : Vec Ideal S64x1024 .bf16) (r : Fin 64) (j : Fin 1024) : k0_pay48 (F := Ideal) a b (ix2 r j) = (show EReal from a (ix3 (0 : Fin 1) r j)) + (show EReal from b (ix2 r j)) := add_drop_cast_at a b _ _ _ r j
theorem k0_pay49_apply (a : Vec Ideal S1x64x1024 .f32) (r : Fin 64) (j : Fin 1024) : k0_pay49 (F := Ideal) a (ix2 r j) = a (ix3 (0 : Fin 1) r j) := cast_drop_at a _ r j
theorem k0_pay50_apply (a : FVec Ideal S64x1024 .f32) (b : Vec Ideal S64x1024 .bf16) (i : S64x1024.Idx) : k0_pay50 (F := Ideal) a b i = (show EReal from a i) + (show EReal from b i) := add_cast_at a b _ _ i
theorem k0_pay51_apply (a : Vec Ideal S1x64x1024 .f32) (b : Vec Ideal S64x1024 .bf16) (r : Fin 64) (j : Fin 1024) : k0_pay51 (F := Ideal) a b (ix2 r j) = (show EReal from a (ix3 (0 : Fin 1) r j)) + (show EReal from b (ix2 r j)) := add_drop_cast_at a b _ _ _ r j
theorem k0_pay52_apply (a : Vec Ideal S1x64x1024 .f32) (b : Vec Ideal S64x1024 .bf16) (r : Fin 64) (j : Fin 1024) : k0_pay52 (F := Ideal) a b (ix2 r j) = (show EReal from a (ix3 (0 : Fin 1) r j)) + (show EReal from b (ix2 r j)) := add_drop_cast_at a b _ _ _ r j
theorem k0_pay53_apply (a : Vec Ideal S1x64x1024 .f32) (b : Vec Ideal S64x1024 .bf16) (r : Fin 64) (j : Fin 1024) : k0_pay53 (F := Ideal) a b (ix2 r j) = (show EReal from a (ix3 (0 : Fin 1) r j)) + (show EReal from b (ix2 r j)) := add_drop_cast_at a b _ _ _ r j
theorem k0_pay54_apply (a : Vec Ideal S1x64x1024 .f32) (b : Vec Ideal S64x1024 .bf16) (r : Fin 64) (j : Fin 1024) : k0_pay54 (F := Ideal) a b (ix2 r j) = (show EReal from a (ix3 (0 : Fin 1) r j)) + (show EReal from b (ix2 r j)) := add_drop_cast_at a b _ _ _ r j
theorem k0_pay55_apply (a : Vec Ideal S1x64x1024 .f32) (b : Vec Ideal S64x1024 .bf16) (r : Fin 64) (j : Fin 1024) : k0_pay55 (F := Ideal) a b (ix2 r j) = (show EReal from a (ix3 (0 : Fin 1) r j)) + (show EReal from b (ix2 r j)) := add_drop_cast_at a b _ _ _ r j
theorem k0_pay56_apply (a : Vec Ideal S1x64x1024 .f32) (b : Vec Ideal S64x1024 .bf16) (r : Fin 64) (j : Fin 1024) : k0_pay56 (F := Ideal) a b (ix2 r j) = (show EReal from a (ix3 (0 : Fin 1) r j)) + (show EReal from b (ix2 r j)) := add_drop_cast_at a b _ _ _ r j
theorem k0_pay57_apply (a : Vec Ideal S1x64x1024 .f32) (b : Vec Ideal S64x1024 .bf16) (r : Fin 64) (j : Fin 1024) : k0_pay57 (F := Ideal) a b (ix2 r j) = (show EReal from a (ix3 (0 : Fin 1) r j)) + (show EReal from b (ix2 r j)) := add_drop_cast_at a b _ _ _ r j
theorem k0_pay58_apply (a : Vec Ideal S1x64x1024 .f32) (b : Vec Ideal S64x1024 .bf16) (r : Fin 64) (j : Fin 1024) : k0_pay58 (F := Ideal) a b (ix2 r j) = (show EReal from a (ix3 (0 : Fin 1) r j)) + (show EReal from b (ix2 r j)) := add_drop_at a b _ _ r j
theorem k0_pay59_apply (v : FVec Ideal S64x1024 .bf16) (i : S64x1024.Idx) : k0_pay59 (F := Ideal) v i = v i := cast_self_at v _ i
theorem k0_pay60_apply (a : Vec Ideal S1x64x1024 .f32) (b : Vec Ideal S64x1024 .bf16) (r : Fin 64) (j : Fin 1024) : k0_pay60 (F := Ideal) a b (ix2 r j) = (show EReal from a (ix3 (0 : Fin 1) r j)) + (show EReal from b (ix2 r j)) := add_drop_cast_at a b _ _ _ r j
theorem k0_pay61_apply (a : Vec Ideal S1x64x1024 .f32) (b : Vec Ideal S64x1024 .bf16) (r : Fin 64) (j : Fin 1024) : k0_pay61 (F := Ideal) a b (ix2 r j) = (show EReal from a (ix3 (0 : Fin 1) r j)) + (show EReal from b (ix2 r j)) := add_drop_cast_at a b _ _ _ r j
theorem k0_pay62_apply (a : Vec Ideal S1x64x1024 .f32) (b : Vec Ideal S64x1024 .bf16) (r : Fin 64) (j : Fin 1024) : k0_pay62 (F := Ideal) a b (ix2 r j) = (show EReal from a (ix3 (0 : Fin 1) r j)) + (show EReal from b (ix2 r j)) := add_drop_at a b _ _ r j
theorem k0_pay63_apply (v : FVec Ideal S64x1024 .bf16) (i : S64x1024.Idx) : k0_pay63 (F := Ideal) v i = v i := cast_self_at v _ i
theorem k0_pay64_apply (a : Vec Ideal S1x64x1024 .f32) (b : Vec Ideal S64x1024 .bf16) (r : Fin 64) (j : Fin 1024) : k0_pay64 (F := Ideal) a b (ix2 r j) = (show EReal from a (ix3 (0 : Fin 1) r j)) + (show EReal from b (ix2 r j)) := add_drop_cast_at a b _ _ _ r j
theorem k0_pay65_apply (a : Vec Ideal S1x64x1024 .f32) (b : Vec Ideal S64x1024 .bf16) (r : Fin 64) (j : Fin 1024) : k0_pay65 (F := Ideal) a b (ix2 r j) = (show EReal from a (ix3 (0 : Fin 1) r j)) + (show EReal from b (ix2 r j)) := add_drop_cast_at a b _ _ _ r j
theorem k0_pay66_apply (a : Vec Ideal S1x64x1024 .f32) (b : Vec Ideal S64x1024 .bf16) (r : Fin 64) (j : Fin 1024) : k0_pay66 (F := Ideal) a b (ix2 r j) = (show EReal from a (ix3 (0 : Fin 1) r j)) + (show EReal from b (ix2 r j)) := add_drop_cast_at a b _ _ _ r j
theorem k0_pay67_apply (a : Vec Ideal S1x64x1024 .f32) (b : Vec Ideal S64x1024 .bf16) (r : Fin 64) (j : Fin 1024) : k0_pay67 (F := Ideal) a b (ix2 r j) = (show EReal from a (ix3 (0 : Fin 1) r j)) + (show EReal from b (ix2 r j)) := add_drop_cast_at a b _ _ _ r j
theorem k0_pay68_apply (a : Vec Ideal S1x64x1024 .f32) (b : Vec Ideal S64x1024 .bf16) (r : Fin 64) (j : Fin 1024) : k0_pay68 (F := Ideal) a b (ix2 r j) = (show EReal from a (ix3 (0 : Fin 1) r j)) + (show EReal from b (ix2 r j)) := add_drop_at a b _ _ r j
theorem k0_pay69_apply (v : FVec Ideal S64x1024 .bf16) (i : S64x1024.Idx) : k0_pay69 (F := Ideal) v i = v i := cast_self_at v _ i
theorem k0_pay70_apply (a : Vec Ideal S1x64x1024 .f32) (b : Vec Ideal S64x1024 .bf16) (r : Fin 64) (j : Fin 1024) : k0_pay70 (F := Ideal) a b (ix2 r j) = (show EReal from a (ix3 (0 : Fin 1) r j)) + (show EReal from b (ix2 r j)) := add_drop_cast_at a b _ _ _ r j
theorem k0_pay71_apply (a : Vec Ideal S1x64x1024 .f32) (b : Vec Ideal S64x1024 .bf16) (r : Fin 64) (j : Fin 1024) : k0_pay71 (F := Ideal) a b (ix2 r j) = (show EReal from a (ix3 (0 : Fin 1) r j)) + (show EReal from b (ix2 r j)) := add_drop_cast_at a b _ _ _ r j
theorem k0_pay72_apply (a : Vec Ideal S1x64x1024 .f32) (b : Vec Ideal S64x1024 .bf16) (r : Fin 64) (j : Fin 1024) : k0_pay72 (F := Ideal) a b (ix2 r j) = (show EReal from a (ix3 (0 : Fin 1) r j)) + (show EReal from b (ix2 r j)) := add_drop_at a b _ _ r j
theorem k0_pay73_apply (v : FVec Ideal S64x1024 .bf16) (i : S64x1024.Idx) : k0_pay73 (F := Ideal) v i = v i := cast_self_at v _ i
theorem k0_pay74_apply (a : Vec Ideal S1x64x1024 .f32) (b : Vec Ideal S64x1024 .bf16) (r : Fin 64) (j : Fin 1024) : k0_pay74 (F := Ideal) a b (ix2 r j) = (show EReal from a (ix3 (0 : Fin 1) r j)) + (show EReal from b (ix2 r j)) := add_drop_cast_at a b _ _ _ r j
theorem k0_pay75_apply (a : Vec Ideal S1x64x1024 .f32) (b : Vec Ideal S64x1024 .bf16) (r : Fin 64) (j : Fin 1024) : k0_pay75 (F := Ideal) a b (ix2 r j) = (show EReal from a (ix3 (0 : Fin 1) r j)) + (show EReal from b (ix2 r j)) := add_drop_cast_at a b _ _ _ r j
theorem k0_pay76_apply (a : Vec Ideal S1x64x1024 .f32) (b : Vec Ideal S64x1024 .bf16) (r : Fin 64) (j : Fin 1024) : k0_pay76 (F := Ideal) a b (ix2 r j) = (show EReal from a (ix3 (0 : Fin 1) r j)) + (show EReal from b (ix2 r j)) := add_drop_at a b _ _ r j
theorem k0_pay77_apply (v : FVec Ideal S64x1024 .bf16) (i : S64x1024.Idx) : k0_pay77 (F := Ideal) v i = v i := cast_self_at v _ i
theorem k0_pay78_apply (a : Vec Ideal S1x64x1024 .f32) (b : Vec Ideal S64x1024 .bf16) (r : Fin 64) (j : Fin 1024) : k0_pay78 (F := Ideal) a b (ix2 r j) = (show EReal from a (ix3 (0 : Fin 1) r j)) + (show EReal from b (ix2 r j)) := add_drop_cast_at a b _ _ _ r j
theorem k0_pay79_apply (a : Vec Ideal S1x64x1024 .f32) (b : Vec Ideal S64x1024 .bf16) (r : Fin 64) (j : Fin 1024) : k0_pay79 (F := Ideal) a b (ix2 r j) = (show EReal from a (ix3 (0 : Fin 1) r j)) + (show EReal from b (ix2 r j)) := add_drop_cast_at a b _ _ _ r j
theorem k0_pay80_apply (a : Vec Ideal S1x64x1024 .f32) (r : Fin 64) (j : Fin 1024) : k0_pay80 (F := Ideal) a (ix2 r j) = a (ix3 (0 : Fin 1) r j) := cast_drop_at a _ r j
theorem k0_pay81_apply (b : Vec Ideal S64x1024 .bf16) (i : S64x1024.Idx) : k0_pay81 (F := Ideal) b i = b i := rfl
theorem k0_pay82_apply (a b : FVec Ideal S64x1024 .f32) (i : S64x1024.Idx) : k0_pay82 (F := Ideal) a b i = (show EReal from a i) + (show EReal from b i) := add2_cast_at a b _ _ i
theorem k0_pay83_apply (a : Vec Ideal S1x64x1024 .f32) (b : Vec Ideal S64x1024 .bf16) (r : Fin 64) (j : Fin 1024) : k0_pay83 (F := Ideal) a b (ix2 r j) = (show EReal from a (ix3 (0 : Fin 1) r j)) + (show EReal from b (ix2 r j)) := add_drop_cast_at a b _ _ _ r j
theorem k0_pay84_apply (a : Vec Ideal S1x64x1024 .f32) (b : Vec Ideal S64x1024 .bf16) (r : Fin 64) (j : Fin 1024) : k0_pay84 (F := Ideal) a b (ix2 r j) = (show EReal from a (ix3 (0 : Fin 1) r j)) + (show EReal from b (ix2 r j)) := add_drop_cast_at a b _ _ _ r j
theorem k0_pay85_apply (a : Vec Ideal S1x64x1024 .f32) (b : Vec Ideal S64x1024 .bf16) (r : Fin 64) (j : Fin 1024) : k0_pay85 (F := Ideal) a b (ix2 r j) = (show EReal from a (ix3 (0 : Fin 1) r j)) + (show EReal from b (ix2 r j)) := add_drop_cast_at a b _ _ _ r j
theorem k0_pay86_apply (a : Vec Ideal S1x64x1024 .f32) (b : Vec Ideal S64x1024 .bf16) (r : Fin 64) (j : Fin 1024) : k0_pay86 (F := Ideal) a b (ix2 r j) = (show EReal from a (ix3 (0 : Fin 1) r j)) + (show EReal from b (ix2 r j)) := add_drop_cast_at a b _ _ _ r j
theorem k0_pay87_apply (a : Vec Ideal S1x64x1024 .f32) (b : Vec Ideal S64x1024 .bf16) (r : Fin 64) (j : Fin 1024) : k0_pay87 (F := Ideal) a b (ix2 r j) = (show EReal from a (ix3 (0 : Fin 1) r j)) + (show EReal from b (ix2 r j)) := add_drop_cast_at a b _ _ _ r j
theorem k0_pay88_apply (a : Vec Ideal S1x64x1024 .f32) (b : Vec Ideal S64x1024 .bf16) (r : Fin 64) (j : Fin 1024) : k0_pay88 (F := Ideal) a b (ix2 r j) = (show EReal from a (ix3 (0 : Fin 1) r j)) + (show EReal from b (ix2 r j)) := add_drop_at a b _ _ r j
theorem k0_pay89_apply (v : FVec Ideal S64x1024 .bf16) (i : S64x1024.Idx) : k0_pay89 (F := Ideal) v i = v i := cast_self_at v _ i
theorem k0_pay90_apply (a : Vec Ideal S1x64x1024 .f32) (b : Vec Ideal S64x1024 .bf16) (r : Fin 64) (j : Fin 1024) : k0_pay90 (F := Ideal) a b (ix2 r j) = (show EReal from a (ix3 (0 : Fin 1) r j)) + (show EReal from b (ix2 r j)) := add_drop_cast_at a b _ _ _ r j
theorem k0_pay91_apply (a : Vec Ideal S1x64x1024 .f32) (b : Vec Ideal S64x1024 .bf16) (r : Fin 64) (j : Fin 1024) : k0_pay91 (F := Ideal) a b (ix2 r j) = (show EReal from a (ix3 (0 : Fin 1) r j)) + (show EReal from b (ix2 r j)) := add_drop_cast_at a b _ _ _ r j
theorem k0_pay92_apply (a : Vec Ideal S1x64x1024 .f32) (b : Vec Ideal S64x1024 .bf16) (r : Fin 64) (j : Fin 1024) : k0_pay92 (F := Ideal) a b (ix2 r j) = (show EReal from a (ix3 (0 : Fin 1) r j)) + (show EReal from b (ix2 r j)) := add_drop_at a b _ _ r j
theorem k0_pay93_apply (v : FVec Ideal S64x1024 .bf16) (i : S64x1024.Idx) : k0_pay93 (F := Ideal) v i = v i := cast_self_at v _ i
theorem k0_pay94_apply (a : Vec Ideal S1x64x1024 .f32) (b : Vec Ideal S64x1024 .bf16) (r : Fin 64) (j : Fin 1024) : k0_pay94 (F := Ideal) a b (ix2 r j) = (show EReal from a (ix3 (0 : Fin 1) r j)) + (show EReal from b (ix2 r j)) := add_drop_cast_at a b _ _ _ r j
theorem k0_pay95_apply (a : Vec Ideal S1x64x1024 .f32) (b : Vec Ideal S64x1024 .bf16) (r : Fin 64) (j : Fin 1024) : k0_pay95 (F := Ideal) a b (ix2 r j) = (show EReal from a (ix3 (0 : Fin 1) r j)) + (show EReal from b (ix2 r j)) := add_drop_cast_at a b _ _ _ r j
theorem k0_pay96_apply (a : Vec Ideal S1x64x1024 .f32) (r : Fin 64) (j : Fin 1024) : k0_pay96 (F := Ideal) a (ix2 r j) = a (ix3 (0 : Fin 1) r j) := cast_drop_at a _ r j
theorem k0_pay97_apply (a : FVec Ideal S64x1024 .f32) (b : Vec Ideal S64x1024 .bf16) (i : S64x1024.Idx) : k0_pay97 (F := Ideal) a b i = (show EReal from a i) + (show EReal from b i) := add_cast_at a b _ _ i
theorem k0_pay98_apply (a : Vec Ideal S1x64x1024 .f32) (b : Vec Ideal S64x1024 .bf16) (r : Fin 64) (j : Fin 1024) : k0_pay98 (F := Ideal) a b (ix2 r j) = (show EReal from a (ix3 (0 : Fin 1) r j)) + (show EReal from b (ix2 r j)) := add_drop_cast_at a b _ _ _ r j
theorem k0_pay99_apply (a : Vec Ideal S1x64x1024 .f32) (b : Vec Ideal S64x1024 .bf16) (r : Fin 64) (j : Fin 1024) : k0_pay99 (F := Ideal) a b (ix2 r j) = (show EReal from a (ix3 (0 : Fin 1) r j)) + (show EReal from b (ix2 r j)) := add_drop_cast_at a b _ _ _ r j
theorem k0_pay100_apply (a : Vec Ideal S1x64x1024 .f32) (b : Vec Ideal S64x1024 .bf16) (r : Fin 64) (j : Fin 1024) : k0_pay100 (F := Ideal) a b (ix2 r j) = (show EReal from a (ix3 (0 : Fin 1) r j)) + (show EReal from b (ix2 r j)) := add_drop_cast_at a b _ _ _ r j
theorem k0_pay101_apply (a : Vec Ideal S1x64x1024 .f32) (b : Vec Ideal S64x1024 .bf16) (r : Fin 64) (j : Fin 1024) : k0_pay101 (F := Ideal) a b (ix2 r j) = (show EReal from a (ix3 (0 : Fin 1) r j)) + (show EReal from b (ix2 r j)) := add_drop_at a b _ _ r j
theorem k0_pay102_apply (v : FVec Ideal S64x1024 .bf16) (i : S64x1024.Idx) : k0_pay102 (F := Ideal) v i = v i := cast_self_at v _ i
theorem k0_pay103_apply (a : Vec Ideal S1x64x1024 .f32) (b : Vec Ideal S64x1024 .bf16) (r : Fin 64) (j : Fin 1024) : k0_pay103 (F := Ideal) a b (ix2 r j) = (show EReal from a (ix3 (0 : Fin 1) r j)) + (show EReal from b (ix2 r j)) := add_drop_cast_at a b _ _ _ r j
theorem k0_pay104_apply (a : Vec Ideal S1x64x1024 .f32) (b : Vec Ideal S64x1024 .bf16) (r : Fin 64) (j : Fin 1024) : k0_pay104 (F := Ideal) a b (ix2 r j) = (show EReal from a (ix3 (0 : Fin 1) r j)) + (show EReal from b (ix2 r j)) := add_drop_cast_at a b _ _ _ r j

/-- info: 'Cert.KernelIdeal.Rs.k0_pay23_apply' depends on axioms: [propext, Classical.choice, Quot.sound] -/
#guard_msgs in #print axioms k0_pay23_apply

end Cert.KernelIdeal.Rs

end
-- ==== Proof.Final.lean ====
/- The contents the body vouches for are the device's block of the one-device result.
   An entry (i, j) of device c's result lies in exactly one quarter k of the rows and one block s of 64 rows of it:
   i = (start of quarter k) + 64 s + r. The result array's quarter is the VMEM buffer's quarter, whose block s is
   the kernel's sum of two blocks: rows 64 s … of plane k of the local copy, which are rows i of c's own argument
   at c's own half of the columns; and the block that came from the other z-half, which, whichever way it
   travelled, is rows i of the argument of a device with the other z, at that device's other half of the
   columns, which is c's own half. Each device's argument is its slab of the one-device argument, so the entry
   is slab z plus slab 1 - z of the one-device argument at (i, 1024 z + j): the entry of the block of columns z
   of the entrywise sum of the two slabs, in one order or the other. -/
import proofs.«901030_g7700000000001031_dist_rs_v7x_xyz2x2x2_z_m4096_n1024_bf16_1_alg».proof.Proof.BodySpec
import proofs.«901030_g7700000000001031_dist_rs_v7x_xyz2x2x2_z_m4096_n1024_bf16_1_alg».proof.Proof.OutSpec
import proofs.«901030_g7700000000001031_dist_rs_v7x_xyz2x2x2_z_m4096_n1024_bf16_1_alg».proof.Proof.FinalIdx
import proofs.«901030_g7700000000001031_dist_rs_v7x_xyz2x2x2_z_m4096_n1024_bf16_1_alg».proof.Proof.ValPay
import proofs.«901030_g7700000000001031_dist_rs_v7x_xyz2x2x2_z_m4096_n1024_bf16_1_alg».proof.Proof.ValLemmas

noncomputable section

namespace Cert.KernelIdeal.Rs

open Cert.KernelIdeal Cert.KernelIdeal.Gen
open Idealize.ShloMosaic Idealize.ShloMosaic.TcCoe Idealize.ShloMosaic.ValueIdx

/-! ## Indices equal by their coordinates -/

theorem ix3_congr {n0 n1 n2 : Nat} {a a' : Fin n0} {b b' : Fin n1} {c c' : Fin n2}
    (ha : a.val = a'.val) (hb : b.val = b'.val) (hc : c.val = c'.val) : ix3 a b c = ix3 a' b' c' := by
  obtain rfl := Fin.ext ha; obtain rfl := Fin.ext hb; obtain rfl := Fin.ext hc; rfl
theorem ix2_congr {n0 n1 : Nat} {a a' : Fin n0} {b b' : Fin n1}
    (ha : a.val = a'.val) (hb : b.val = b'.val) : ix2 a b = ix2 a' b' := by
  obtain rfl := Fin.ext ha; obtain rfl := Fin.ext hb; rfl

/-! ## The result array and the VMEM result buffer read through their quarters and blocks -/

/-- Where block `s` of quarter `k` of the VMEM result buffer starts: 64 s rows into the quarter, at column 0. -/
theorem offB_row (c : Dev nD) (k : Fin 4) (s : Fin 16) : (offB c k s) 0 = lrow c k + 64 * s.val := by
  match k with
  | 0 => exact (congrFun (k0_off7_eq c s) 0).trans (by show _ = qrow c + 64 * s.val; rfl)
  | 1 => exact (congrFun (k0_off9_eq c s) 0).trans (by
      show (2048 * (c.val / 4) + 64 * s.val + 1024) - 1024 * ((c.val / 2) % 2) = qrowY c + 64 * s.val
      unfold qrowY; omega)
  | 2 => exact (congrFun (k0_off11_eq c s) 0).trans (by
      show (1024 * ((c.val / 2) % 2) + 64 * s.val + 2048) - 2048 * (c.val / 4) = qrowX c + 64 * s.val
      have hc : c.val < 8 := c.isLt; unfold qrowX; omega)
  | 3 => exact (congrFun (k0_off13_eq c s) 0).trans (by
      show (64 * s.val + 3072) - (2048 * (c.val / 4) + 1024 * ((c.val / 2) % 2)) = qrowD c + 64 * s.val
      have hc : c.val < 8 := c.isLt; unfold qrowD; omega)
theorem offB_col (c : Dev nD) (k : Fin 4) (s : Fin 16) : (offB c k s) 1 = 0 := by
  match k with
  | 0 => exact (congrFun (k0_off7_eq c s) 1)
  | 1 => exact (congrFun (k0_off9_eq c s) 1)
  | 2 => exact (congrFun (k0_off11_eq c s) 1)
  | 3 => exact (congrFun (k0_off13_eq c s) 1)

/-- Entry (R, j) of quarter `k` of the result array is its entry (start of the quarter + R, j); -/
theorem oQ_read {Val : EltTy → Type} (c : Dev nD) (k : Fin 4) (f : S4096x1024.Idx → Val .bf16) (R j : Fin 1024) (I : Fin 4096)
    (hI : I.val = lrow c k + R.val) : (oQ c k).view.read Val f (ix2 R j) = f (ix2 I j) := by
  show f _ = f _
  refine congrArg f (funext fun a => Fin.ext ?_)
  match a with
  | ⟨0, _⟩ => show (offO c k) 0 + 1 * R.val = I.val; rw [lrow_offO_row]; omega
  | ⟨1, _⟩ => show (offO c k) 1 + 1 * j.val = j.val; rw [lrow_offO_col]; omega
/-- the same of the VMEM result buffer; -/
theorem vQ_read {Val : EltTy → Type} (c : Dev nD) (k : Fin 4) (g : S4096x1024.Idx → Val .bf16) (R j : Fin 1024) (I : Fin 4096)
    (hI : I.val = lrow c k + R.val) : (vQ c k).view.read Val g (ix2 R j) = g (ix2 I j) := by
  show g _ = g _
  refine congrArg g (funext fun a => Fin.ext ?_)
  match a with
  | ⟨0, _⟩ => show (offO c k) 0 + 1 * R.val = I.val; rw [lrow_offO_row]; omega
  | ⟨1, _⟩ => show (offO c k) 1 + 1 * j.val = j.val; rw [lrow_offO_col]; omega
/-- and entry (r, j) of its block `s` of quarter `k` is its entry (start of the quarter + 64 s + r, j). -/
theorem vB_read {Val : EltTy → Type} (c : Dev nD) (k : Fin 4) (s : Fin 16) (g : S4096x1024.Idx → Val .bf16) (r : Fin 64) (j : Fin 1024)
    (I : Fin 4096) (hI : I.val = lrow c k + 64 * s.val + r.val) : (vB c k s).view.read Val g (ix2 r j) = g (ix2 I j) := by
  show g _ = g _
  refine congrArg g (funext fun a => Fin.ext ?_)
  match a with
  | ⟨0, _⟩ => show (offB c k s) 0 + 1 * r.val = I.val; rw [offB_row]; omega
  | ⟨1, _⟩ => show (offB c k s) 1 + 1 * j.val = j.val; rw [offB_col]; omega

/-! ## A row is in one quarter and one block of it -/

theorem lrow_surj : ∀ (c : Dev nD) (q : Fin 4), ∃ k : Fin 4, lrow c k = 1024 * q.val := by decide
theorem row_split (c : Dev nD) (I : Fin 4096) :
    ∃ (k : Fin 4) (s : Fin 16) (r : Fin 64), I.val = lrow c k + 64 * s.val + r.val := by
  have hI := I.isLt
  obtain ⟨k, hk⟩ := lrow_surj c ⟨I.val / 1024, by omega⟩
  refine ⟨k, ⟨(I.val % 1024) / 64, by omega⟩, ⟨I.val % 64, by omega⟩, ?_⟩
  rw [hk]
  show I.val = 1024 * (I.val / 1024) + 64 * ((I.val % 1024) / 64) + I.val % 64
  omega

/-! ## The two blocks the kernel adds, at an entry -/

/-- Plane `k` of the local copy at (R', j): the own argument at (start of quarter k + R', own half + j). -/
theorem lV_at (m : (ℓ : Loc nD τ sig) → Buf (Elt Ideal) ℓ) (c : Dev nD) (k : Fin 4) (R' j : Fin 1024) (R : Fin 4096) (C : Fin 2048)
    (hR : R.val = lrow c k + R'.val) (hC : C.val = ocol c + j.val) :
    lV (F := Ideal) m c k (ix2 R' j) = m ((c.tc : Thread nD τ).loc main_arg0) (ix3 (0 : Fin 1) R C) := by
  match k with
  | 0 => exact Eq.trans (show lV (F := Ideal) m c 0 (ix2 R' j) = (wL c 0).view.read (Elt Ideal) (m ((c.tc : Thread nD τ).loc main_arg0)) (ix2 R' j) from rfl)
              ((wL0_read (Val := Elt Ideal) c (m ((c.tc : Thread nD τ).loc main_arg0)) R' j).trans (congrArg (m ((c.tc : Thread nD τ).loc main_arg0)) (ix3_congr rfl hR.symm hC.symm)))
  | 1 => exact Eq.trans (show lV (F := Ideal) m c 1 (ix2 R' j) = (wL c 1).view.read (Elt Ideal) (m ((c.tc : Thread nD τ).loc main_arg0)) (ix2 R' j) from rfl)
              ((wL1_read (Val := Elt Ideal) c (m ((c.tc : Thread nD τ).loc main_arg0)) R' j).trans (congrArg (m ((c.tc : Thread nD τ).loc main_arg0)) (ix3_congr rfl hR.symm hC.symm)))
  | 2 => exact Eq.trans (show lV (F := Ideal) m c 2 (ix2 R' j) = (wL c 2).view.read (Elt Ideal) (m ((c.tc : Thread nD τ).loc main_arg0)) (ix2 R' j) from rfl)
              ((wL2_read (Val := Elt Ideal) c (m ((c.tc : Thread nD τ).loc main_arg0)) R' j).trans (congrArg (m ((c.tc : Thread nD τ).loc main_arg0)) (ix3_congr rfl hR.symm hC.symm)))
  | 3 => exact Eq.trans (show lV (F := Ideal) m c 3 (ix2 R' j) = (wL c 3).view.read (Elt Ideal) (m ((c.tc : Thread nD τ).loc main_arg0)) (ix2 R' j) from rfl)
              ((wL3_read (Val := Elt Ideal) c (m ((c.tc : Thread nD τ).loc main_arg0)) R' j).trans (congrArg (m ((c.tc : Thread nD τ).loc main_arg0)) (ix3_congr rfl hR.symm hC.symm)))

/-- Rows 64 s … of plane `k`, as the add loads them, at (0, r, j). -/
theorem xlBlk_at (m : (ℓ : Loc nD τ sig) → Buf (Elt Ideal) ℓ) (c : Dev nD) (k : Fin 4) (s : Fin 16) (r : Fin 64) (j : Fin 1024)
    (R : Fin 4096) (C : Fin 2048) (hR : R.val = lrow c k + 64 * s.val + r.val) (hC : C.val = ocol c + j.val) :
    xlBlk (F := Ideal) m c k s (ix3 (0 : Fin 1) r j) = m ((c.tc : Thread nD τ).loc main_arg0) (ix3 (0 : Fin 1) R C) :=
  (readAt_plane_rows k s _ rfl (inbP k s) (lV m c k) r j).trans
    (lV_at m c k _ j R C (by show R.val = lrow c k + (64 * s.val + r.val); omega) hC)

/-- The block a device sends its z-partner, at (r, j): its own argument at (own quarter + 64 s + r, other half + j). -/
theorem aV_at (m : (ℓ : Loc nD τ sig) → Buf (Elt Ideal) ℓ) (d : Dev nD) (s : Fin 16) (r : Fin 64) (j : Fin 1024)
    (R : Fin 4096) (C : Fin 2048) (hR : R.val = qrow d + 64 * s.val + r.val) (hC : C.val = xcol d + j.val) :
    aV (F := Ideal) m d s (ix2 r j) = m ((d.tc : Thread nD τ).loc main_arg0) (ix3 (0 : Fin 1) R C) :=
  (k0_pay1_apply _ _).trans ((wQ_read d s _ r j).trans (congrArg _ (ix3_congr rfl hR.symm hC.symm)))

/-- The block of its diagonal quarter a device sends its z-partner, at (r, j). -/
theorem dV_at (m : (ℓ : Loc nD τ sig) → Buf (Elt Ideal) ℓ) (d : Dev nD) (t : Fin 6) (r : Fin 64) (j : Fin 1024)
    (R : Fin 4096) (C : Fin 2048) (hR : R.val = (64 * t.val + 3072) - qrow d + r.val) (hC : C.val = xcol d + j.val) :
    dV (F := Ideal) m d t (ix2 r j) = m ((d.tc : Thread nD τ).loc main_arg0) (ix3 (0 : Fin 1) R C) :=
  (k0_pay1_apply _ _).trans ((wD_read d t _ r j).trans (congrArg _ (ix3_congr rfl hR.symm hC.symm)))

/-- The device whose argument the other z-half's block `s` of quarter `k` comes from. -/
def pdev (c : Dev nD) (k : Fin 4) (s : Fin 16) : Dev nD :=
  match k with
  | 0 => zp c
  | 1 => zp (yn c)
  | 2 => zp (xn c)
  | 3 => if s.val < 6 then zp c else if s.val < 11 then zp (yn (xn c)) else zp (xn (yn c))
/-- It has the other z. -/
theorem pdev_z : ∀ (c : Dev nD) (k : Fin 4) (s : Fin 16), (pdev c k s).val % 2 = 1 - c.val % 2 := by decide
theorem qrow_zyx (c : Dev nD) : qrow (zp (yn (xn c))) = qrowD c := by revert c; decide
theorem qrow_zxy (c : Dev nD) : qrow (zp (xn (yn c))) = qrowD c := by revert c; decide
theorem xcol_zyx (c : Dev nD) : xcol (zp (yn (xn c))) = ocol c := by revert c; decide
theorem xcol_zxy (c : Dev nD) : xcol (zp (xn (yn c))) = ocol c := by revert c; decide

/-- The other z-half's block, at (r, j): that device's argument at this row and this device's own half of the columns. -/
theorem rBlk_at (m : (ℓ : Loc nD τ sig) → Buf (Elt Ideal) ℓ) (c : Dev nD) (k : Fin 4) (s : Fin 16) (r : Fin 64) (j : Fin 1024)
    (R : Fin 4096) (C : Fin 2048) (hR : R.val = lrow c k + 64 * s.val + r.val) (hC : C.val = ocol c + j.val) :
    rBlk (F := Ideal) m c k s (ix2 r j) = m (((pdev c k s).tc : Thread nD τ).loc main_arg0) (ix3 (0 : Fin 1) R C) := by
  match k with
  | 0 => exact aV_at m (zp c) s r j R C (by rw [qrow_zp]; exact hR) (by rw [xcol_zp]; exact hC)
  | 1 => exact aV_at m (zp (yn c)) s r j R C (by rw [qrow_zp, ← qrowY_eq]; exact hR) (by rw [xcol_zp, ocol_yn]; exact hC)
  | 2 => exact aV_at m (zp (xn c)) s r j R C (by rw [qrow_zp, ← qrowX_eq]; exact hR) (by rw [xcol_zp, ocol_xn]; exact hC)
  | 3 =>
    have hR' : R.val = qrowD c + 64 * s.val + r.val := hR
    by_cases h6 : s.val < 6
    · have e : rBlk (F := Ideal) m c 3 s = dV m (zp c) ⟨s.val, h6⟩ := dif_pos h6
      have ep : pdev c 3 s = zp c := if_pos h6
      rw [e, ep]
      refine dV_at m (zp c) ⟨s.val, h6⟩ r j R C ?_ (by rw [xcol_zp]; exact hC)
      rw [qrow_zp]
      have := qrow_le c
      unfold qrowD at hR'; unfold qrow at this ⊢
      show R.val = (64 * s.val + 3072) - (2048 * (c.val / 4) + 1024 * ((c.val / 2) % 2)) + r.val
      omega
    · by_cases h11 : s.val < 11
      · have e : rBlk (F := Ideal) m c 3 s = aV m (zp (yn (xn c))) s := (dif_neg h6).trans (if_pos h11)
        have ep : pdev c 3 s = zp (yn (xn c)) := (if_neg h6).trans (if_pos h11)
        rw [e, ep]
        exact aV_at m (zp (yn (xn c))) s r j R C (by rw [qrow_zyx]; exact hR') (by rw [xcol_zyx]; exact hC)
      · have e : rBlk (F := Ideal) m c 3 s = aV m (zp (xn (yn c))) s := (dif_neg h6).trans (if_neg h11)
        have ep : pdev c 3 s = zp (xn (yn c)) := (if_neg h6).trans (if_neg h11)
        rw [e, ep]
        exact aV_at m (zp (xn (yn c))) s r j R C (by rw [qrow_zxy]; exact hR') (by rw [xcol_zxy]; exact hC)

/-! ## The assembly -/

/-- An entry of a quarter that holds the kernel's sums is the entry of the entrywise sum of the one-device argument's
    two slabs, at this row and at the column of the whole row this device's half starts from. -/
theorem entry_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev nD, m ((c.tc : Thread nD τ).loc main_arg0)
      = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0)))
    (c : Dev nD) (k : Fin 4) (s : Fin 16) (r : Fin 64) (j : Fin 1024)
    (g : Buf (Elt Ideal) ((c : Thread nD τ).loc cc0_scratch9)) (hQ : QuarterOK (F := Ideal) m c k g)
    (I : Fin 4096) (hI : I.val = lrow c k + 64 * s.val + r.val) :
    g (ix2 I j) = refOut (m' (((0 : Dev Cert.ReferenceIdeal.nD).tc : Thread Cert.ReferenceIdeal.nD Cert.ReferenceIdeal.τ).loc Cert.ReferenceIdeal.main_arg0)) (ix2 I (colOf c j)) := by
  have hC : (colOf c j).val = ocol c + j.val := rfl
  have e1 := vB_read (Val := Elt Ideal) c k s g r j I hI
  have e2 := congrFun (hQ s) (ix2 r j)
  have e3 := k0_pay23_apply (xlBlk (F := Ideal) m c k s) (rBlk (F := Ideal) m c k s) r j
  have e4 := xlBlk_at m c k s r j I (colOf c j) hI hC
  have e5 := rBlk_at m c k s r j I (colOf c j) hI hC
  have a1 := (congrFun (hagree c) (ix3 (0 : Fin 1) I (colOf c j))).trans (arg_block_apply (m' (((0 : Dev Cert.ReferenceIdeal.nD).tc : Thread Cert.ReferenceIdeal.nD Cert.ReferenceIdeal.τ).loc Cert.ReferenceIdeal.main_arg0)) c I (colOf c j))
  have a2 := (congrFun (hagree (pdev c k s)) (ix3 (0 : Fin 1) I (colOf c j))).trans
    (arg_block_apply (m' (((0 : Dev Cert.ReferenceIdeal.nD).tc : Thread Cert.ReferenceIdeal.nD Cert.ReferenceIdeal.τ).loc Cert.ReferenceIdeal.main_arg0)) (pdev c k s) I (colOf c j))
  refine e1.symm.trans (e2.trans (e3.trans ?_))
  refine (congrArg₂ (fun a b : EReal => a + b) (e4.trans a1) (e5.trans a2)).trans ?_
  exact two_slabs (fun z => m' (((0 : Dev Cert.ReferenceIdeal.nD).tc : Thread Cert.ReferenceIdeal.nD Cert.ReferenceIdeal.τ).loc Cert.ReferenceIdeal.main_arg0) (ix3 z I (colOf c j))) _ _ (pdev_z c k s)

/-- THE FINAL VALUE. When every device's argument is its slab of the one-device argument, contents of the result
    array that the body vouches for are the device's block of columns of the one-device result. -/
theorem final_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev nD, m ((c.tc : Thread nD τ).loc main_arg0)
      = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0)))
    (c : Dev nD) (f : Buf (Elt Ideal) ((c.tc : Thread nD τ).loc main_v1)) (h : OutOK (F := Ideal) m c f) :
    f = Layout.blockN ⟨2, ![4096, 1024]⟩ ⟨2, ![4096, 2048]⟩ (Layout.meshBlock [2, 2, 2] ![[], [2]] c) (refOut (m' (((0 : Dev Cert.ReferenceIdeal.nD).tc : Thread Cert.ReferenceIdeal.nD Cert.ReferenceIdeal.τ).loc Cert.ReferenceIdeal.main_arg0))) := by
  funext i
  obtain ⟨k, s, r, hi⟩ := row_split c (i 0 : Fin 4096)
  obtain ⟨g, hQ, hfg⟩ := h k
  have hR : 64 * s.val + r.val < 1024 := by have := s.isLt; have := r.isLt; omega
  have hI' : (i 0 : Fin 4096).val = lrow c k + (⟨64 * s.val + r.val, hR⟩ : Fin 1024).val := by
    show (i 0 : Fin 4096).val = lrow c k + (64 * s.val + r.val); omega
  have e0 : f i = f (ix2 (i 0 : Fin 4096) (i 1 : Fin 1024)) := congrArg f (eq_ix2 i)
  have e1 := oQ_read (Val := Elt Ideal) c k f ⟨64 * s.val + r.val, hR⟩ (i 1 : Fin 1024) (i 0 : Fin 4096) hI'
  have e2 := congrFun hfg (ix2 (⟨64 * s.val + r.val, hR⟩ : Fin 1024) (i 1 : Fin 1024))
  have e3 := vQ_read (Val := Elt Ideal) c k g ⟨64 * s.val + r.val, hR⟩ (i 1 : Fin 1024) (i 0 : Fin 4096) hI'
  have e4 := entry_eq m m' hagree c k s r (i 1 : Fin 1024) g hQ (i 0 : Fin 4096) hi
  have e5 := out_block_apply (refOut (m' (((0 : Dev Cert.ReferenceIdeal.nD).tc : Thread Cert.ReferenceIdeal.nD Cert.ReferenceIdeal.τ).loc Cert.ReferenceIdeal.main_arg0))) c i
  exact e0.trans (e1.symm.trans (e2.trans (e3.trans (e4.trans e5.symm))))

/-- info: 'Cert.KernelIdeal.Rs.final_eq' depends on axioms: [propext, Classical.choice, Quot.sound] -/
#guard_msgs in #print axioms final_eq

end Cert.KernelIdeal.Rs

end
-- ==== Proof.lean ====
/- The proof of `Cert.Claim` (proofs.«901030_g7700000000001031_dist_rs_v7x_xyz2x2x2_z_m4096_n1024_bf16_1_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«901030_g7700000000001031_dist_rs_v7x_xyz2x2x2_z_m4096_n1024_bf16_1_alg».proof.Defs
import proofs.«901030_g7700000000001031_dist_rs_v7x_xyz2x2x2_z_m4096_n1024_bf16_1_alg».proof.Proof.Gen.Kernel
import proofs.«901030_g7700000000001031_dist_rs_v7x_xyz2x2x2_z_m4096_n1024_bf16_1_alg».proof.Proof.Gen.Kernel.Skeleton
import proofs.«901030_g7700000000001031_dist_rs_v7x_xyz2x2x2_z_m4096_n1024_bf16_1_alg».proof.Proof.Gen.Kernel.Launch
import proofs.«901030_g7700000000001031_dist_rs_v7x_xyz2x2x2_z_m4096_n1024_bf16_1_alg».proof.Proof.Gen.Kernel.Points
import proofs.«901030_g7700000000001031_dist_rs_v7x_xyz2x2x2_z_m4096_n1024_bf16_1_alg».proof.Proof.Gen.Kernel.Frame
import proofs.«901030_g7700000000001031_dist_rs_v7x_xyz2x2x2_z_m4096_n1024_bf16_1_alg».proof.Proof.Gen.KernelIdeal
import proofs.«901030_g7700000000001031_dist_rs_v7x_xyz2x2x2_z_m4096_n1024_bf16_1_alg».proof.Proof.Gen.KernelIdeal.Skeleton
import proofs.«901030_g7700000000001031_dist_rs_v7x_xyz2x2x2_z_m4096_n1024_bf16_1_alg».proof.Proof.Gen.KernelIdeal.Launch
import proofs.«901030_g7700000000001031_dist_rs_v7x_xyz2x2x2_z_m4096_n1024_bf16_1_alg».proof.Proof.Gen.KernelIdeal.Points
import proofs.«901030_g7700000000001031_dist_rs_v7x_xyz2x2x2_z_m4096_n1024_bf16_1_alg».proof.Proof.Gen.KernelIdeal.Frame
import proofs.«901030_g7700000000001031_dist_rs_v7x_xyz2x2x2_z_m4096_n1024_bf16_1_alg».proof.Proof.Gen.ReferenceIdeal
import proofs.«901030_g7700000000001031_dist_rs_v7x_xyz2x2x2_z_m4096_n1024_bf16_1_alg».proof.Proof.Gen.Pre_finite_inputs_Kernel
import proofs.«901030_g7700000000001031_dist_rs_v7x_xyz2x2x2_z_m4096_n1024_bf16_1_alg».proof.Proof.Gen.Pre_finite_inputs_ReferenceIdeal
import Idealize.ShloMosaic.Adequacy
import Idealize.ShloMosaic.Init
import proofs.«901030_g7700000000001031_dist_rs_v7x_xyz2x2x2_z_m4096_n1024_bf16_1_alg».proof.Proof.ClaimOf
import proofs.«901030_g7700000000001031_dist_rs_v7x_xyz2x2x2_z_m4096_n1024_bf16_1_alg».proof.Proof.Body
import proofs.«901030_g7700000000001031_dist_rs_v7x_xyz2x2x2_z_m4096_n1024_bf16_1_alg».proof.Proof.Bits.Body
import proofs.«901030_g7700000000001031_dist_rs_v7x_xyz2x2x2_z_m4096_n1024_bf16_1_alg».proof.Proof.Final

noncomputable section

namespace Cert.Proof

open Idealize.ShloMosaic Idealize.SL.Sem Cert.Kernel

/-- The claim: the body's run at the two float instances and the final value, put through `claim_of`. -/
theorem claim : Cert.Claim :=
  claim_of (fun m => Cert.KernelIdeal.Rs.body_run m) (fun m => Cert.Kernel.Rs.body_run m) Cert.KernelIdeal.Rs.final_eq

/-- info: 'Cert.Proof.claim' depends on axioms: [propext, Classical.choice, Quot.sound] -/
#guard_msgs in #print axioms claim

end Cert.Proof

end
